-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v224)) (v1 : (c : Dev Cert.KernelIdeal.nD) → Buf (Elt Ideal) ((c.tc : Thread Cert.KernelIdeal.nD Cert.KernelIdeal.τ).loc Cert.KernelIdeal.main_v413)) (v2 : (c : Dev Cert.KernelIdeal.nD) → Buf (Elt Ideal) ((c.tc : Thread Cert.KernelIdeal.nD Cert.KernelIdeal.τ).loc Cert.KernelIdeal.main_arg3)) (v3 : (c : Dev Cert.KernelIdeal.nD) → Buf (Elt Ideal) ((c.tc : Thread Cert.KernelIdeal.nD Cert.KernelIdeal.τ).loc Cert.KernelIdeal.main_v160_2)) (v4 : (c : Dev Cert.KernelIdeal.nD) → Buf (Elt Ideal) ((c.tc : Thread Cert.KernelIdeal.nD Cert.KernelIdeal.τ).loc Cert.KernelIdeal.main_v126)) (v5 : (c : Dev Cert.KernelIdeal.nD) → Buf (Elt Ideal) ((c.tc : Thread Cert.KernelIdeal.nD Cert.KernelIdeal.τ).loc Cert.KernelIdeal.main_v138)) (v6 : (c : Dev Cert.KernelIdeal.nD) → Buf (Elt Ideal) ((c.tc : Thread Cert.KernelIdeal.nD Cert.KernelIdeal.τ).loc Cert.KernelIdeal.main_v151)) (v7 : (c : Dev Cert.KernelIdeal.nD) → Buf (Elt Ideal) ((c.tc : Thread Cert.KernelIdeal.nD Cert.KernelIdeal.τ).loc Cert.KernelIdeal.main_v166)) (v8 : (c : Dev Cert.KernelIdeal.nD) → Buf (Elt Ideal) ((c.tc : Thread Cert.KernelIdeal.nD Cert.KernelIdeal.τ).loc Cert.KernelIdeal.main_v120_1)) (v9 : (c : Dev Cert.KernelIdeal.nD) → Buf (Elt Ideal) ((c.tc : Thread Cert.KernelIdeal.nD Cert.KernelIdeal.τ).loc Cert.KernelIdeal.main_v132_1)) (v10 : (c : Dev Cert.KernelIdeal.nD) → Buf (Elt Ideal) ((c.tc : Thread Cert.KernelIdeal.nD Cert.KernelIdeal.τ).loc Cert.KernelIdeal.main_v145_1)) (v11 : (c : Dev Cert.KernelIdeal.nD) → Buf (Elt Ideal) ((c.tc : Thread Cert.KernelIdeal.nD Cert.KernelIdeal.τ).loc Cert.KernelIdeal.main_v160_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v224) = v0 c
          ∧ r.2.mem ((c.tc : Thread Cert.KernelIdeal.nD Cert.KernelIdeal.τ).loc Cert.KernelIdeal.main_v413) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_v160_2) = v3 c
          ∧ r.2.mem ((c.tc : Thread Cert.KernelIdeal.nD Cert.KernelIdeal.τ).loc Cert.KernelIdeal.main_v126) = v4 c
          ∧ r.2.mem ((c.tc : Thread Cert.KernelIdeal.nD Cert.KernelIdeal.τ).loc Cert.KernelIdeal.main_v138) = v5 c
          ∧ r.2.mem ((c.tc : Thread Cert.KernelIdeal.nD Cert.KernelIdeal.τ).loc Cert.KernelIdeal.main_v151) = v6 c
          ∧ r.2.mem ((c.tc : Thread Cert.KernelIdeal.nD Cert.KernelIdeal.τ).loc Cert.KernelIdeal.main_v166) = v7 c
          ∧ r.2.mem ((c.tc : Thread Cert.KernelIdeal.nD Cert.KernelIdeal.τ).loc Cert.KernelIdeal.main_v120_1) = v8 c
          ∧ r.2.mem ((c.tc : Thread Cert.KernelIdeal.nD Cert.KernelIdeal.τ).loc Cert.KernelIdeal.main_v132_1) = v9 c
          ∧ r.2.mem ((c.tc : Thread Cert.KernelIdeal.nD Cert.KernelIdeal.τ).loc Cert.KernelIdeal.main_v145_1) = v10 c
          ∧ r.2.mem ((c.tc : Thread Cert.KernelIdeal.nD Cert.KernelIdeal.τ).loc Cert.KernelIdeal.main_v160_1) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_v525) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_v529) = v3 c
          ∧ r.2.mem ((c.tc : Thread Cert.ReferenceIdeal.nD Cert.ReferenceIdeal.τ).loc Cert.ReferenceIdeal.main_v152) = v4 c
          ∧ r.2.mem ((c.tc : Thread Cert.ReferenceIdeal.nD Cert.ReferenceIdeal.τ).loc Cert.ReferenceIdeal.main_v185) = v5 c
          ∧ r.2.mem ((c.tc : Thread Cert.ReferenceIdeal.nD Cert.ReferenceIdeal.τ).loc Cert.ReferenceIdeal.main_v219) = v6 c
          ∧ r.2.mem ((c.tc : Thread Cert.ReferenceIdeal.nD Cert.ReferenceIdeal.τ).loc Cert.ReferenceIdeal.main_v253) = v7 c
          ∧ r.2.mem ((c.tc : Thread Cert.ReferenceIdeal.nD Cert.ReferenceIdeal.τ).loc Cert.ReferenceIdeal.main_v153) = v8 c
          ∧ r.2.mem ((c.tc : Thread Cert.ReferenceIdeal.nD Cert.ReferenceIdeal.τ).loc Cert.ReferenceIdeal.main_v186) = v9 c
          ∧ r.2.mem ((c.tc : Thread Cert.ReferenceIdeal.nD Cert.ReferenceIdeal.τ).loc Cert.ReferenceIdeal.main_v220) = v10 c
          ∧ r.2.mem ((c.tc : Thread Cert.ReferenceIdeal.nD Cert.ReferenceIdeal.τ).loc Cert.ReferenceIdeal.main_v254) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x4 : Shape := ⟨2, ![10000, 4]⟩
abbrev S200000x4 : Shape := ⟨2, ![200000, 4]⟩
abbrev S1 : Shape := ⟨1, ![1]⟩
abbrev S10000x128 : Shape := ⟨2, ![10000, 128]⟩
abbrev S200000x128 : Shape := ⟨2, ![200000, 128]⟩
abbrev S396x128 : Shape := ⟨2, ![396, 128]⟩
abbrev S128 : Shape := ⟨1, ![128]⟩
abbrev S388x128 : Shape := ⟨2, ![388, 128]⟩
abbrev S768x128 : Shape := ⟨2, ![768, 128]⟩
abbrev S128x4 : Shape := ⟨2, ![128, 4]⟩
abbrev S4 : Shape := ⟨1, ![4]⟩
abbrev S128x1 : Shape := ⟨2, ![128, 1]⟩
abbrev S2x200000 : Shape := ⟨2, ![2, 200000]⟩
abbrev S_ : Shape := ⟨0, ![]⟩

class Facts : Prop where
  bcast_S_S10000x4 : S_.BroadcastsInDim S10000x4 (![] : Fin 0 → Fin S10000x4.rank)
  reducesTo_S10000x4_S_d0_1 : S10000x4.ReducesTo [0, 1] S_
  h_S_ : 0 < S_.numel
  bcast_S_S200000x4 : S_.BroadcastsInDim S200000x4 (![] : Fin 0 → Fin S200000x4.rank)
  reducesTo_S200000x4_S_d0_1 : S200000x4.ReducesTo [0, 1] S_
  bcast_S_S1 : S_.BroadcastsInDim S1 (![] : Fin 0 → Fin S1.rank)
  reducesTo_S1_S_d0 : S1.ReducesTo [0] S_
  bcast_S_S10000x128 : S_.BroadcastsInDim S10000x128 (![] : Fin 0 → Fin S10000x128.rank)
  reducesTo_S10000x128_S_d0_1 : S10000x128.ReducesTo [0, 1] S_
  bcast_S_S200000x128 : S_.BroadcastsInDim S200000x128 (![] : Fin 0 → Fin S200000x128.rank)
  reducesTo_S200000x128_S_d0_1 : S200000x128.ReducesTo [0, 1] S_
  bcast_S_S396x128 : S_.BroadcastsInDim S396x128 (![] : Fin 0 → Fin S396x128.rank)
  reducesTo_S396x128_S_d0_1 : S396x128.ReducesTo [0, 1] S_
  bcast_S_S128 : S_.BroadcastsInDim S128 (![] : Fin 0 → Fin S128.rank)
  reducesTo_S128_S_d0 : S128.ReducesTo [0] S_
  bcast_S_S388x128 : S_.BroadcastsInDim S388x128 (![] : Fin 0 → Fin S388x128.rank)
  reducesTo_S388x128_S_d0_1 : S388x128.ReducesTo [0, 1] S_
  bcast_S_S768x128 : S_.BroadcastsInDim S768x128 (![] : Fin 0 → Fin S768x128.rank)
  reducesTo_S768x128_S_d0_1 : S768x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x1 : S_.BroadcastsInDim S128x1 (![] : Fin 0 → Fin S128x1.rank)
  reducesTo_S128x1_S_d0_1 : S128x1.ReducesTo [0, 1] S_
  bcast_S_S2x200000 : S_.BroadcastsInDim S2x200000 (![] : Fin 0 → Fin S2x200000.rank)
  reducesTo_S2x200000_S_d0_1 : S2x200000.ReducesTo [0, 1] S_

variable [Facts]

def fn_part5 {F : FTy → Type} [FloatOps F] (main_arg18 : IVec S2x200000 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_c_34 : IVec S_ 32 := constantI S_ 32 0#32
  let main_v89 : IVec S2x200000 32 := broadcastInDim S2x200000 ![] bcast_S_S2x200000 main_c_34
  let main_v90 : IVec S2x200000 1 := cmpi .sge main_arg18 main_v89
  let main_c_35 : IVec S_ 1 := constantI S_ 1 1#1
  let main_v91 : IVec S_ 1 := (fun x v => Host.reduce IntOp.andi x v reducesTo_S2x200000_S_d0_1 h_S_) main_v90 main_c_35
  let main_v92 : IVec S_ 1 := andi main_v88 main_v91
  let main_c_36 : IVec S_ 32 := constantI S_ 32 10000#32
  let main_v93 : IVec S2x200000 32 := broadcastInDim S2x200000 ![] bcast_S_S2x200000 main_c_36
  let main_v94 : IVec S2x200000 1 := cmpi .slt main_arg18 main_v93
  let main_c_37 : IVec S_ 1 := constantI S_ 1 1#1
  let main_v95 : IVec S_ 1 := (fun x v => Host.reduce IntOp.andi x v reducesTo_S2x200000_S_d0_1 h_S_) main_v94 main_c_37
  let main_v96 : IVec S_ 1 := andi main_v92 main_v95
  main_v96

def fn_part4 {F : FTy → Type} [FloatOps F] (main_arg14 : FVec F S128x4 .f32) (main_arg15 : FVec F S4 .f32) (main_arg16 : FVec F S128x1 .f32) (main_arg17 : FVec F S1 .f32) (main_arg18 : IVec S2x200000 32) (main_v63 : IVec S_ 1) (main_v67 : IVec S_ 1) : IVec S_ 1 :=
  let main_v68 : IVec S_ 1 := andi main_v63 main_v67
  let main_v69 : FVec F S128x4 .f32 := Host.absf main_arg14
  let main_cst_26 : FVec F S_ .f32 := constant S_ .f32 0x7F800000#32
  let main_v70 : FVec F S128x4 .f32 := broadcastInDim S128x4 ![] bcast_S_S128x4 main_cst_26
  let main_v71 : IVec S128x4 1 := cmpf .olt main_v69 main_v70
  let main_c_27 : IVec S_ 1 := constantI S_ 1 1#1
  let main_v72 : IVec S_ 1 := (fun x v => Host.reduce IntOp.andi x v reducesTo_S128x4_S_d0_1 h_S_) main_v71 main_c_27
  let main_v73 : IVec S_ 1 := andi main_v68 main_v72
  let main_v74 : FVec F S4 .f32 := Host.absf main_arg15
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  let main_v79 : FVec F S128x1 .f32 := Host.absf main_arg16
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128 .f32) (main_arg12 : FVec F S768x128 .f32) (main_arg13 : FVec F S128 .f32) (main_arg14 : FVec F S128x4 .f32) (main_arg15 : FVec F S4 .f32) (main_arg16 : FVec F S128x1 .f32) (main_arg17 : FVec F S1 .f32) (main_arg18 : IVec S2x200000 32) (main_v48 : IVec S_ 1) (main_v49 : FVec F S768x128 .f32) (main_v50 : FVec F S768x128 .f32) : IVec S_ 1 :=
  let main_v51 : IVec S768x128 1 := cmpf .olt main_v49 main_v50
  let main_c_19 : IVec S_ 1 := constantI S_ 1 1#1
  let main_v52 : IVec S_ 1 := (fun x v => Host.reduce IntOp.andi x v reducesTo_S768x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S768x128 .f32 := Host.absf main_arg12
  let main_cst_22 : FVec F S_ .f32 := constant S_ .f32 0x7F800000#32
  let main_v60 : FVec F S768x128 .f32 := broadcastInDim S768x128 ![] bcast_S_S768x128 main_cst_22
  let main_v61 : IVec S768x128 1 := cmpf .olt main_v59 main_v60
  let main_c_23 : IVec S_ 1 := constantI S_ 1 1#1
  let main_v62 : IVec S_ 1 := (fun x v => Host.reduce IntOp.andi x v reducesTo_S768x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_v63 main_v67

def fn_part2 {F : FTy → Type} [FloatOps F] (main_arg7 : FVec F S128 .f32) (main_arg8 : FVec F S388x128 .f32) (main_arg9 : FVec F S128 .f32) (main_arg10 : FVec F S768x128 .f32) (main_arg11 : FVec F S128 .f32) (main_arg12 : FVec F S768x128 .f32) (main_arg13 : FVec F S128 .f32) (main_arg14 : FVec F S128x4 .f32) (main_arg15 : FVec F S4 .f32) (main_arg16 : FVec F S128x1 .f32) (main_arg17 : FVec F S1 .f32) (main_arg18 : IVec S2x200000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S388x128 .f32 := Host.absf main_arg8
  let main_cst_14 : FVec F S_ .f32 := constant S_ .f32 0x7F800000#32
  let main_v40 : FVec F S388x128 .f32 := broadcastInDim S388x128 ![] bcast_S_S388x128 main_cst_14
  let main_v41 : IVec S388x128 1 := cmpf .olt main_v39 main_v40
  let main_c_15 : IVec S_ 1 := constantI S_ 1 1#1
  let main_v42 : IVec S_ 1 := (fun x v => Host.reduce IntOp.andi x v reducesTo_S388x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S768x128 .f32 := Host.absf main_arg10
  let main_cst_18 : FVec F S_ .f32 := constant S_ .f32 0x7F800000#32
  let main_v50 : FVec F S768x128 .f32 := broadcastInDim S768x128 ![] bcast_S_S768x128 main_cst_18
  fn_part3 (F := F) main_arg11 main_arg12 main_arg13 main_arg14 main_arg15 main_arg16 main_arg17 main_arg18 main_v48 main_v49 main_v50

def fn_part1 {F : FTy → Type} [FloatOps F] (main_arg4 : FVec F S10000x128 .f32) (main_arg5 : FVec F S200000x128 .f32) (main_arg6 : FVec F S396x128 .f32) (main_arg7 : FVec F S128 .f32) (main_arg8 : FVec F S388x128 .f32) (main_arg9 : FVec F S128 .f32) (main_arg10 : FVec F S768x128 .f32) (main_arg11 : FVec F S128 .f32) (main_arg12 : FVec F S768x128 .f32) (main_arg13 : FVec F S128 .f32) (main_arg14 : FVec F S128x4 .f32) (main_arg15 : FVec F S4 .f32) (main_arg16 : FVec F S128x1 .f32) (main_arg17 : FVec F S1 .f32) (main_arg18 : IVec S2x200000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S10000x128 .f32 := Host.absf main_arg4
  let main_cst_6 : FVec F S_ .f32 := constant S_ .f32 0x7F800000#32
  let main_v20 : FVec F S10000x128 .f32 := broadcastInDim S10000x128 ![] bcast_S_S10000x128 main_cst_6
  let main_v21 : IVec S10000x128 1 := cmpf .olt main_v19 main_v20
  let main_c_7 : IVec S_ 1 := constantI S_ 1 1#1
  let main_v22 : IVec S_ 1 := (fun x v => Host.reduce IntOp.andi x v reducesTo_S10000x128_S_d0_1 h_S_) main_v21 main_c_7
  let main_v23 : IVec S_ 1 := andi main_v18 main_v22
  let main_v24 : FVec F S200000x128 .f32 := Host.absf main_arg5
  let main_cst_8 : FVec F S_ .f32 := constant S_ .f32 0x7F800000#32
  let main_v25 : FVec F S200000x128 .f32 := broadcastInDim S200000x128 ![] bcast_S_S200000x128 main_cst_8
  let main_v26 : IVec S200000x128 1 := cmpf .olt main_v24 main_v25
  let main_c_9 : IVec S_ 1 := constantI S_ 1 1#1
  let main_v27 : IVec S_ 1 := (fun x v => Host.reduce IntOp.andi x v reducesTo_S200000x128_S_d0_1 h_S_) main_v26 main_c_9
  let main_v28 : IVec S_ 1 := andi main_v23 main_v27
  let main_v29 : FVec F S396x128 .f32 := Host.absf main_arg6
  let main_cst_10 : FVec F S_ .f32 := constant S_ .f32 0x7F800000#32
  let main_v30 : FVec F S396x128 .f32 := broadcastInDim S396x128 ![] bcast_S_S396x128 main_cst_10
  let main_v31 : IVec S396x128 1 := cmpf .olt main_v29 main_v30
  let main_c_11 : IVec S_ 1 := constantI S_ 1 1#1
  let main_v32 : IVec S_ 1 := (fun x v => Host.reduce IntOp.andi x v reducesTo_S396x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S10000x4 .f32) (main_arg1 : FVec F S200000x4 .f32) (main_arg2 : FVec F S10000x4 .f32) (main_arg3 : FVec F S1 .f32) (main_arg4 : FVec F S10000x128 .f32) (main_arg5 : FVec F S200000x128 .f32) (main_arg6 : FVec F S396x128 .f32) (main_arg7 : FVec F S128 .f32) (main_arg8 : FVec F S388x128 .f32) (main_arg9 : FVec F S128 .f32) (main_arg10 : FVec F S768x128 .f32) (main_arg11 : FVec F S128 .f32) (main_arg12 : FVec F S768x128 .f32) (main_arg13 : FVec F S128 .f32) (main_arg14 : FVec F S128x4 .f32) (main_arg15 : FVec F S4 .f32) (main_arg16 : FVec F S128x1 .f32) (main_arg17 : FVec F S1 .f32) (main_arg18 : IVec S2x200000 32) : IVec S_ 1 :=
  let main_v0 : FVec F S10000x4 .f32 := Host.absf main_arg0
  let main_cst : FVec F S_ .f32 := constant S_ .f32 0x7F800000#32
  let main_v1 : FVec F S10000x4 .f32 := broadcastInDim S10000x4 ![] bcast_S_S10000x4 main_cst
  let main_v2 : IVec S10000x4 1 := cmpf .olt main_v0 main_v1
  let main_c : IVec S_ 1 := constantI S_ 1 1#1
  let main_v3 : IVec S_ 1 := (fun x v => Host.reduce IntOp.andi x v reducesTo_S10000x4_S_d0_1 h_S_) main_v2 main_c
  let main_v4 : FVec F S200000x4 .f32 := Host.absf main_arg1
  let main_cst_0 : FVec F S_ .f32 := constant S_ .f32 0x7F800000#32
  let main_v5 : FVec F S200000x4 .f32 := broadcastInDim S200000x4 ![] bcast_S_S200000x4 main_cst_0
  let main_v6 : IVec S200000x4 1 := cmpf .olt main_v4 main_v5
  let main_c_1 : IVec S_ 1 := constantI S_ 1 1#1
  let main_v7 : IVec S_ 1 := (fun x v => Host.reduce IntOp.andi x v reducesTo_S200000x4_S_d0_1 h_S_) main_v6 main_c_1
  let main_v8 : IVec S_ 1 := andi main_v3 main_v7
  let main_v9 : FVec F S10000x4 .f32 := Host.absf main_arg2
  let main_cst_2 : FVec F S_ .f32 := constant S_ .f32 0x7F800000#32
  let main_v10 : FVec F S10000x4 .f32 := broadcastInDim S10000x4 ![] bcast_S_S10000x4 main_cst_2
  let main_v11 : IVec S10000x4 1 := cmpf .olt main_v9 main_v10
  let main_c_3 : IVec S_ 1 := constantI S_ 1 1#1
  let main_v12 : IVec S_ 1 := (fun x v => Host.reduce IntOp.andi x v reducesTo_S10000x4_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S10000x4 : Shape := ⟨2, ![10000, 4]⟩
abbrev S200000x4 : Shape := ⟨2, ![200000, 4]⟩
abbrev S1 : Shape := ⟨1, ![1]⟩
abbrev S10000x128 : Shape := ⟨2, ![10000, 128]⟩
abbrev S200000x128 : Shape := ⟨2, ![200000, 128]⟩
abbrev S396x128 : Shape := ⟨2, ![396, 128]⟩
abbrev S128 : Shape := ⟨1, ![128]⟩
abbrev S388x128 : Shape := ⟨2, ![388, 128]⟩
abbrev S768x128 : Shape := ⟨2, ![768, 128]⟩
abbrev S128x4 : Shape := ⟨2, ![128, 4]⟩
abbrev S4 : Shape := ⟨1, ![4]⟩
abbrev S128x1 : Shape := ⟨2, ![128, 1]⟩
abbrev S2x200000 : Shape := ⟨2, ![2, 200000]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S10000x1 : Shape := ⟨2, ![10000, 1]⟩
abbrev S1x1 : Shape := ⟨2, ![1, 1]⟩
abbrev S200000x3 : Shape := ⟨2, ![200000, 3]⟩
abbrev S10000x132 : Shape := ⟨2, ![10000, 132]⟩
abbrev S200000x132 : Shape := ⟨2, ![200000, 132]⟩
abbrev S1x128 : Shape := ⟨2, ![1, 128]⟩
abbrev S2000x132 : Shape := ⟨2, ![2000, 132]⟩
abbrev S2000x128 : Shape := ⟨2, ![2000, 128]⟩
abbrev S2000x396 : Shape := ⟨2, ![2000, 396]⟩
abbrev S2000x388 : Shape := ⟨2, ![2000, 388]⟩
abbrev S10000x256 : Shape := ⟨2, ![10000, 256]⟩
abbrev S200000x256 : Shape := ⟨2, ![200000, 256]⟩
abbrev S2000x256 : Shape := ⟨2, ![2000, 256]⟩
abbrev S2000x768 : Shape := ⟨2, ![2000, 768]⟩
abbrev S2000x1 : Shape := ⟨2, ![2000, 1]⟩
abbrev S1x4 : Shape := ⟨2, ![1, 4]⟩
abbrev S10000 : Shape := ⟨1, ![10000]⟩

abbrev nBuf : Space → Nat
  | .hbm => 776
  | .vmem => 52
  | .smem => 0
  | _ => 0

abbrev hbmTy0_0 (i : Nat) : BufTy := match i % 128 with
  | 0 => ⟨S10000x4, .f32⟩
  | 1 => ⟨S200000x4, .f32⟩
  | 2 => ⟨S10000x4, .f32⟩
  | 3 => ⟨S1, .f32⟩
  | 4 => ⟨S10000x128, .f32⟩
  | 5 => ⟨S200000x128, .f32⟩
  | 6 => ⟨S396x128, .f32⟩
  | 7 => ⟨S128, .f32⟩
  | 8 => ⟨S388x128, .f32⟩
  | 9 => ⟨S128, .f32⟩
  | 10 => ⟨S768x128, .f32⟩
  | 11 => ⟨S128, .f32⟩
  | 12 => ⟨S768x128, .f32⟩
  | 13 => ⟨S128, .f32⟩
  | 14 => ⟨S128x4, .f32⟩
  | 15 => ⟨S4, .f32⟩
  | 16 => ⟨S128x1, .f32⟩
  | 17 => ⟨S1, .f32⟩
  | 18 => ⟨S2x200000, .i32⟩
  | 19 => ⟨S4, .f32⟩
  | 20 => ⟨S1x200000, .i32⟩
  | 21 => ⟨S200000, .i32⟩
  | 22 => ⟨S1x200000, .i32⟩
  | 23 => ⟨S200000, .i32⟩
  | 24 => ⟨S_, .f32⟩
  | 25 => ⟨S200000x1, .f32⟩
  | 26 => ⟨S_, .f32⟩
  | 27 => ⟨S10000x1, .f32⟩
  | 28 => ⟨S200000x1, .i32⟩
  | 29 => ⟨S10000x1, .f32⟩
  | 30 => ⟨S_, .f32⟩
  | 31 => ⟨S10000x1, .f32⟩
  | 32 => ⟨S10000x1, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S1, .i32⟩
  | 42 => ⟨S_, .i32⟩
  | 43 => ⟨S200000x1, .i32⟩
  | 44 => ⟨S200000x1, .i1⟩
  | 45 => ⟨S1x1, .i32⟩
  | 46 => ⟨S200000x1, .i32⟩
  | 47 => ⟨S200000x1, .i1⟩
  | 48 => ⟨S200000x1, .i1⟩
  | 49 => ⟨S_, .i1⟩
  | 50 => ⟨S200000, .i1⟩
  | 51 => ⟨S200000x4, .f32⟩
  | 52 => ⟨S200000x4, .i1⟩
  | 53 => ⟨S_, .f32⟩
  | 54 => ⟨S200000x4, .f32⟩
  | 55 => ⟨S200000x4, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S1, .i32⟩
  | 65 => ⟨S_, .i32⟩
  | 66 => ⟨S200000x1, .i32⟩
  | 67 => ⟨S200000x1, .i1⟩
  | 68 => ⟨S1x1, .i32⟩
  | 69 => ⟨S200000x1, .i32⟩
  | 70 => ⟨S200000x1, .i1⟩
  | 71 => ⟨S200000x1, .i1⟩
  | 72 => ⟨S_, .i1⟩
  | 73 => ⟨S200000, .i1⟩
  | 74 => ⟨S200000x4, .f32⟩
  | 75 => ⟨S200000x4, .i1⟩
  | 76 => ⟨S_, .f32⟩
  | 77 => ⟨S200000x4, .f32⟩
  | 78 => ⟨S200000x4, .f32⟩
  | 79 => ⟨S200000x1, .f32⟩
  | 80 => ⟨S200000x3, .f32⟩
  | 81 => ⟨S200000x3, .f32⟩
  | 82 => ⟨S200000x4, .f32⟩
  | 83 => ⟨S200000x1, .f32⟩
  | 84 => ⟨S200000, .f32⟩
  | 85 => ⟨S200000x1, .f32⟩
  | 86 => ⟨S200000, .f32⟩
  | 87 => ⟨S200000x1, .f32⟩
  | 88 => ⟨S200000, .f32⟩
  | 89 => ⟨S200000x1, .f32⟩
  | 90 => ⟨S200000, .f32⟩
  | 91 => ⟨S200000x1, .f32⟩
  | 92 => ⟨S200000, .f32⟩
  | 93 => ⟨S200000x1, .f32⟩
  | 94 => ⟨S200000, .f32⟩
  | 95 => ⟨S200000x1, .f32⟩
  | 96 => ⟨S200000, .f32⟩
  | 97 => ⟨S200000x1, .f32⟩
  | 98 => ⟨S200000, .f32⟩
  | 99 => ⟨S200000, .f32⟩
  | 100 => ⟨S200000, .f32⟩
  | 101 => ⟨S200000, .f32⟩
  | 102 => ⟨S200000, .f32⟩
  | 103 => ⟨S200000, .f32⟩
  | 104 => ⟨S200000, .f32⟩
  | 105 => ⟨S200000, .f32⟩
  | 106 => ⟨S200000, .f32⟩
  | 107 => ⟨S200000, .f32⟩
  | 108 => ⟨S200000, .f32⟩
  | 109 => ⟨S200000, .f32⟩
  | 110 => ⟨S200000, .f32⟩
  | 111 => ⟨S200000, .f32⟩
  | 112 => ⟨S200000, .f32⟩
  | 113 => ⟨S200000, .f32⟩
  | 114 => ⟨S200000, .f32⟩
  | 115 => ⟨S200000, .f32⟩
  | 116 => ⟨S200000, .f32⟩
  | 117 => ⟨S200000, .f32⟩
  | 118 => ⟨S200000, .f32⟩
  | 119 => ⟨S200000, .f32⟩
  | 120 => ⟨S200000, .f32⟩
  | 121 => ⟨S200000, .f32⟩
  | 122 => ⟨S200000, .f32⟩
  | 123 => ⟨S200000, .f32⟩
  | 124 => ⟨S200000, .f32⟩
  | 125 => ⟨S200000, .f32⟩
  | 126 => ⟨S200000, .f32⟩
  | 127 => ⟨S200000x1, .f32⟩
  | _ => ⟨S10000x4, .f32⟩

abbrev hbmTy0_1 (i : Nat) : BufTy := match i % 128 with
  | 0 => ⟨S200000x1, .f32⟩
  | 1 => ⟨S200000x1, .f32⟩
  | 2 => ⟨S200000x1, .f32⟩
  | 3 => ⟨S200000x4, .f32⟩
  | 4 => ⟨S200000x1, .f32⟩
  | 5 => ⟨S200000, .f32⟩
  | 6 => ⟨S200000x1, .f32⟩
  | 7 => ⟨S200000, .f32⟩
  | 8 => ⟨S200000x1, .f32⟩
  | 9 => ⟨S200000, .f32⟩
  | 10 => ⟨S200000x1, .f32⟩
  | 11 => ⟨S200000, .f32⟩
  | 12 => ⟨S200000x1, .f32⟩
  | 13 => ⟨S200000, .f32⟩
  | 14 => ⟨S200000x1, .f32⟩
  | 15 => ⟨S200000, .f32⟩
  | 16 => ⟨S200000x1, .f32⟩
  | 17 => ⟨S200000, .f32⟩
  | 18 => ⟨S200000x1, .f32⟩
  | 19 => ⟨S200000, .f32⟩
  | 20 => ⟨S200000, .f32⟩
  | 21 => ⟨S200000, .f32⟩
  | 22 => ⟨S200000, .f32⟩
  | 23 => ⟨S200000, .f32⟩
  | 24 => ⟨S200000, .f32⟩
  | 25 => ⟨S200000, .f32⟩
  | 26 => ⟨S200000, .f32⟩
  | 27 => ⟨S200000, .f32⟩
  | 28 => ⟨S200000, .f32⟩
  | 29 => ⟨S200000, .f32⟩
  | 30 => ⟨S200000, .f32⟩
  | 31 => ⟨S200000, .f32⟩
  | 32 => ⟨S200000, .f32⟩
  | 33 => ⟨S200000, .f32⟩
  | 34 => ⟨S200000, .f32⟩
  | 35 => ⟨S200000, .f32⟩
  | 36 => ⟨S200000, .f32⟩
  | 37 => ⟨S200000, .f32⟩
  | 38 => ⟨S200000, .f32⟩
  | 39 => ⟨S200000, .f32⟩
  | 40 => ⟨S200000, .f32⟩
  | 41 => ⟨S200000, .f32⟩
  | 42 => ⟨S200000, .f32⟩
  | 43 => ⟨S200000, .f32⟩
  | 44 => ⟨S200000, .f32⟩
  | 45 => ⟨S200000, .f32⟩
  | 46 => ⟨S200000, .f32⟩
  | 47 => ⟨S200000, .f32⟩
  | 48 => ⟨S200000x1, .f32⟩
  | 49 => ⟨S200000x1, .f32⟩
  | 50 => ⟨S200000x1, .f32⟩
  | 51 => ⟨S200000x1, .f32⟩
  | 52 => ⟨S200000x4, .f32⟩
  | 53 => ⟨S10000x132, .f32⟩
  | 54 => ⟨S200000x132, .f32⟩
  | 55 => ⟨S_, .i32⟩
  | 56 => ⟨S200000, .i32⟩
  | 57 => ⟨S200000, .i1⟩
  | 58 => ⟨S_, .i32⟩
  | 59 => ⟨S200000, .i32⟩
  | 60 => ⟨S200000, .i32⟩
  | 61 => ⟨S200000, .i32⟩
  | 62 => ⟨S200000x1, .i32⟩
  | 63 => ⟨S1, .i32⟩
  | 64 => ⟨S_, .i32⟩
  | 65 => ⟨S200000x1, .i32⟩
  | 66 => ⟨S200000x1, .i1⟩
  | 67 => ⟨S1x1, .i32⟩
  | 68 => ⟨S200000x1, .i32⟩
  | 69 => ⟨S200000x1, .i1⟩
  | 70 => ⟨S200000x1, .i1⟩
  | 71 => ⟨S_, .i1⟩
  | 72 => ⟨S200000, .i1⟩
  | 73 => ⟨S200000x132, .f32⟩
  | 74 => ⟨S200000x132, .i1⟩
  | 75 => ⟨S_, .f32⟩
  | 76 => ⟨S200000x132, .f32⟩
  | 77 => ⟨S200000x132, .f32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S1, .i32⟩
  | 87 => ⟨S_, .i32⟩
  | 88 => ⟨S200000x1, .i32⟩
  | 89 => ⟨S200000x1, .i1⟩
  | 90 => ⟨S1x1, .i32⟩
  | 91 => ⟨S200000x1, .i32⟩
  | 92 => ⟨S200000x1, .i1⟩
  | 93 => ⟨S200000x1, .i1⟩
  | 94 => ⟨S_, .i1⟩
  | 95 => ⟨S200000, .i1⟩
  | 96 => ⟨S200000x132, .f32⟩
  | 97 => ⟨S200000x132, .i1⟩
  | 98 => ⟨S_, .f32⟩
  | 99 => ⟨S200000x132, .f32⟩
  | 100 => ⟨S200000x132, .f32⟩
  | 101 => ⟨S396x128, .bf16⟩
  | 102 => ⟨S1x128, .f32⟩
  | 103 => ⟨S200000x128, .f32⟩
  | 104 => ⟨S200000x128, .f32⟩
  | 105 => ⟨S_, .f32⟩
  | 106 => ⟨S10000x128, .f32⟩
  | 107 => ⟨S200000x1, .i32⟩
  | 108 => ⟨S10000x128, .f32⟩
  | 109 => ⟨S10000x128, .f32⟩
  | 110 => ⟨S10000x128, .f32⟩
  | 111 => ⟨S_, .f32⟩
  | 112 => ⟨S10000x128, .f32⟩
  | 113 => ⟨S10000x128, .f32⟩
  | 114 => ⟨S200000x132, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S1, .i32⟩
  | 124 => ⟨S_, .i32⟩
  | 125 => ⟨S200000x1, .i32⟩
  | 126 => ⟨S200000x1, .i1⟩
  | 127 => ⟨S1x1, .i32⟩
  | _ => ⟨S10000x4, .f32⟩

abbrev hbmTy0_2 (i : Nat) : BufTy := match i % 128 with
  | 0 => ⟨S200000x1, .i32⟩
  | 1 => ⟨S200000x1, .i1⟩
  | 2 => ⟨S200000x1, .i1⟩
  | 3 => ⟨S_, .i1⟩
  | 4 => ⟨S200000, .i1⟩
  | 5 => ⟨S200000x128, .f32⟩
  | 6 => ⟨S200000x128, .i1⟩
  | 7 => ⟨S_, .f32⟩
  | 8 => ⟨S200000x128, .f32⟩
  | 9 => ⟨S200000x128, .f32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S1, .i32⟩
  | 19 => ⟨S_, .i32⟩
  | 20 => ⟨S200000x1, .i32⟩
  | 21 => ⟨S200000x1, .i1⟩
  | 22 => ⟨S1x1, .i32⟩
  | 23 => ⟨S200000x1, .i32⟩
  | 24 => ⟨S200000x1, .i1⟩
  | 25 => ⟨S200000x1, .i1⟩
  | 26 => ⟨S_, .i1⟩
  | 27 => ⟨S200000, .i1⟩
  | 28 => ⟨S200000x128, .f32⟩
  | 29 => ⟨S200000x128, .i1⟩
  | 30 => ⟨S_, .f32⟩
  | 31 => ⟨S200000x128, .f32⟩
  | 32 => ⟨S200000x128, .f32⟩
  | 33 => ⟨S388x128, .bf16⟩
  | 34 => ⟨S1x128, .f32⟩
  | 35 => ⟨S200000x128, .f32⟩
  | 36 => ⟨S200000x128, .f32⟩
  | 37 => ⟨S_, .f32⟩
  | 38 => ⟨S10000x128, .f32⟩
  | 39 => ⟨S200000x1, .i32⟩
  | 40 => ⟨S10000x128, .f32⟩
  | 41 => ⟨S10000x128, .f32⟩
  | 42 => ⟨S10000x128, .f32⟩
  | 43 => ⟨S_, .f32⟩
  | 44 => ⟨S10000x128, .f32⟩
  | 45 => ⟨S10000x128, .f32⟩
  | 46 => ⟨S10000x256, .f32⟩
  | 47 => ⟨S200000x256, .f32⟩
  | 48 => ⟨S_, .i32⟩
  | 49 => ⟨S200000, .i32⟩
  | 50 => ⟨S200000, .i1⟩
  | 51 => ⟨S_, .i32⟩
  | 52 => ⟨S200000, .i32⟩
  | 53 => ⟨S200000, .i32⟩
  | 54 => ⟨S200000, .i32⟩
  | 55 => ⟨S200000x1, .i32⟩
  | 56 => ⟨S1, .i32⟩
  | 57 => ⟨S_, .i32⟩
  | 58 => ⟨S200000x1, .i32⟩
  | 59 => ⟨S200000x1, .i1⟩
  | 60 => ⟨S1x1, .i32⟩
  | 61 => ⟨S200000x1, .i32⟩
  | 62 => ⟨S200000x1, .i1⟩
  | 63 => ⟨S200000x1, .i1⟩
  | 64 => ⟨S_, .i1⟩
  | 65 => ⟨S200000, .i1⟩
  | 66 => ⟨S200000x256, .f32⟩
  | 67 => ⟨S200000x256, .i1⟩
  | 68 => ⟨S_, .f32⟩
  | 69 => ⟨S200000x256, .f32⟩
  | 70 => ⟨S200000x256, .f32⟩
  | 71 => ⟨S_, .i32⟩
  | 72 => ⟨S200000, .i32⟩
  | 73 => ⟨S200000, .i1⟩
  | 74 => ⟨S_, .i32⟩
  | 75 => ⟨S200000, .i32⟩
  | 76 => ⟨S200000, .i32⟩
  | 77 => ⟨S200000, .i32⟩
  | 78 => ⟨S200000x1, .i32⟩
  | 79 => ⟨S1, .i32⟩
  | 80 => ⟨S_, .i32⟩
  | 81 => ⟨S200000x1, .i32⟩
  | 82 => ⟨S200000x1, .i1⟩
  | 83 => ⟨S1x1, .i32⟩
  | 84 => ⟨S200000x1, .i32⟩
  | 85 => ⟨S200000x1, .i1⟩
  | 86 => ⟨S200000x1, .i1⟩
  | 87 => ⟨S_, .i1⟩
  | 88 => ⟨S200000, .i1⟩
  | 89 => ⟨S200000x256, .f32⟩
  | 90 => ⟨S200000x256, .i1⟩
  | 91 => ⟨S_, .f32⟩
  | 92 => ⟨S200000x256, .f32⟩
  | 93 => ⟨S200000x256, .f32⟩
  | 94 => ⟨S768x128, .bf16⟩
  | 95 => ⟨S1x128, .f32⟩
  | 96 => ⟨S200000x128, .f32⟩
  | 97 => ⟨S200000x128, .f32⟩
  | 98 => ⟨S_, .f32⟩
  | 99 => ⟨S10000x128, .f32⟩
  | 100 => ⟨S200000x1, .i32⟩
  | 101 => ⟨S10000x128, .f32⟩
  | 102 => ⟨S10000x128, .f32⟩
  | 103 => ⟨S10000x128, .f32⟩
  | 104 => ⟨S_, .f32⟩
  | 105 => ⟨S10000x128, .f32⟩
  | 106 => ⟨S10000x128, .f32⟩
  | 107 => ⟨S10000x256, .f32⟩
  | 108 => ⟨S200000x256, .f32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S1, .i32⟩
  | 118 => ⟨S_, .i32⟩
  | 119 => ⟨S200000x1, .i32⟩
  | 120 => ⟨S200000x1, .i1⟩
  | 121 => ⟨S1x1, .i32⟩
  | 122 => ⟨S200000x1, .i32⟩
  | 123 => ⟨S200000x1, .i1⟩
  | 124 => ⟨S200000x1, .i1⟩
  | 125 => ⟨S_, .i1⟩
  | 126 => ⟨S200000, .i1⟩
  | 127 => ⟨S200000x256, .f32⟩
  | _ => ⟨S10000x4, .f32⟩

abbrev hbmTy0_3 (i : Nat) : BufTy := match i % 128 with
  | 0 => ⟨S200000x256, .i1⟩
  | 1 => ⟨S_, .f32⟩
  | 2 => ⟨S200000x256, .f32⟩
  | 3 => ⟨S200000x256, .f32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S1, .i32⟩
  | 13 => ⟨S_, .i32⟩
  | 14 => ⟨S200000x1, .i32⟩
  | 15 => ⟨S200000x1, .i1⟩
  | 16 => ⟨S1x1, .i32⟩
  | 17 => ⟨S200000x1, .i32⟩
  | 18 => ⟨S200000x1, .i1⟩
  | 19 => ⟨S200000x1, .i1⟩
  | 20 => ⟨S_, .i1⟩
  | 21 => ⟨S200000, .i1⟩
  | 22 => ⟨S200000x256, .f32⟩
  | 23 => ⟨S200000x256, .i1⟩
  | 24 => ⟨S_, .f32⟩
  | 25 => ⟨S200000x256, .f32⟩
  | 26 => ⟨S200000x256, .f32⟩
  | 27 => ⟨S768x128, .bf16⟩
  | 28 => ⟨S1x128, .f32⟩
  | 29 => ⟨S128x1, .bf16⟩
  | 30 => ⟨S1x1, .f32⟩
  | 31 => ⟨S200000x128, .f32⟩
  | 32 => ⟨S200000x128, .f32⟩
  | 33 => ⟨S200000x1, .f32⟩
  | 34 => ⟨S_, .f32⟩
  | 35 => ⟨S10000x128, .f32⟩
  | 36 => ⟨S200000x1, .i32⟩
  | 37 => ⟨S10000x128, .f32⟩
  | 38 => ⟨S10000x128, .f32⟩
  | 39 => ⟨S10000x128, .f32⟩
  | 40 => ⟨S_, .f32⟩
  | 41 => ⟨S10000x128, .f32⟩
  | 42 => ⟨S10000x128, .f32⟩
  | 43 => ⟨S10000x4, .f32⟩
  | 44 => ⟨S1x4, .f32⟩
  | 45 => ⟨S10000x4, .f32⟩
  | 46 => ⟨S10000x4, .f32⟩
  | 47 => ⟨S10000x1, .f32⟩
  | 48 => ⟨S10000, .f32⟩
  | 49 => ⟨S10000x1, .f32⟩
  | 50 => ⟨S10000, .f32⟩
  | 51 => ⟨S10000x1, .f32⟩
  | 52 => ⟨S10000, .f32⟩
  | 53 => ⟨S10000x1, .f32⟩
  | 54 => ⟨S10000, .f32⟩
  | 55 => ⟨S10000x1, .f32⟩
  | 56 => ⟨S10000, .f32⟩
  | 57 => ⟨S10000x1, .f32⟩
  | 58 => ⟨S10000, .f32⟩
  | 59 => ⟨S10000x1, .f32⟩
  | 60 => ⟨S10000, .f32⟩
  | 61 => ⟨S10000x1, .f32⟩
  | 62 => ⟨S10000, .f32⟩
  | 63 => ⟨S10000, .f32⟩
  | 64 => ⟨S10000, .f32⟩
  | 65 => ⟨S10000, .f32⟩
  | 66 => ⟨S10000, .f32⟩
  | 67 => ⟨S10000, .f32⟩
  | 68 => ⟨S10000, .f32⟩
  | 69 => ⟨S10000, .f32⟩
  | 70 => ⟨S10000, .f32⟩
  | 71 => ⟨S10000, .f32⟩
  | 72 => ⟨S10000, .f32⟩
  | 73 => ⟨S10000, .f32⟩
  | 74 => ⟨S10000, .f32⟩
  | 75 => ⟨S10000, .f32⟩
  | 76 => ⟨S10000, .f32⟩
  | 77 => ⟨S10000, .f32⟩
  | 78 => ⟨S10000, .f32⟩
  | 79 => ⟨S10000, .f32⟩
  | 80 => ⟨S10000, .f32⟩
  | 81 => ⟨S10000, .f32⟩
  | 82 => ⟨S10000, .f32⟩
  | 83 => ⟨S10000, .f32⟩
  | 84 => ⟨S10000, .f32⟩
  | 85 => ⟨S10000, .f32⟩
  | 86 => ⟨S10000, .f32⟩
  | 87 => ⟨S10000, .f32⟩
  | 88 => ⟨S10000, .f32⟩
  | 89 => ⟨S10000, .f32⟩
  | 90 => ⟨S10000, .f32⟩
  | 91 => ⟨S10000x1, .f32⟩
  | 92 => ⟨S10000x1, .f32⟩
  | 93 => ⟨S10000x1, .f32⟩
  | 94 => ⟨S10000x1, .f32⟩
  | 95 => ⟨S10000x4, .f32⟩
  | 96 => ⟨S10000x4, .f32⟩
  | 97 => ⟨S_, .f32⟩
  | 98 => ⟨S10000, .f32⟩
  | 99 => ⟨S10000x1, .f32⟩
  | 100 => ⟨S10000x1, .f32⟩
  | 101 => ⟨S_, .f32⟩
  | 102 => ⟨S10000x1, .f32⟩
  | 103 => ⟨S10000x1, .f32⟩
  | 104 => ⟨S10000x4, .f32⟩
  | 105 => ⟨S10000x4, .f32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S1, .i32⟩
  | 115 => ⟨S_, .i32⟩
  | 116 => ⟨S200000x1, .i32⟩
  | 117 => ⟨S200000x1, .i1⟩
  | 118 => ⟨S1x1, .i32⟩
  | 119 => ⟨S200000x1, .i32⟩
  | 120 => ⟨S200000x1, .i1⟩
  | 121 => ⟨S200000x1, .i1⟩
  | 122 => ⟨S_, .i1⟩
  | 123 => ⟨S200000, .i1⟩
  | 124 => ⟨S200000x4, .f32⟩
  | 125 => ⟨S200000x4, .i1⟩
  | 126 => ⟨S_, .f32⟩
  | 127 => ⟨S200000x4, .f32⟩
  | _ => ⟨S10000x4, .f32⟩

abbrev hbmTy0_4 (i : Nat) : BufTy := match i % 128 with
  | 0 => ⟨S200000x4, .f32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S1, .i32⟩
  | 10 => ⟨S_, .i32⟩
  | 11 => ⟨S200000x1, .i32⟩
  | 12 => ⟨S200000x1, .i1⟩
  | 13 => ⟨S1x1, .i32⟩
  | 14 => ⟨S200000x1, .i32⟩
  | 15 => ⟨S200000x1, .i1⟩
  | 16 => ⟨S200000x1, .i1⟩
  | 17 => ⟨S_, .i1⟩
  | 18 => ⟨S200000, .i1⟩
  | 19 => ⟨S200000x4, .f32⟩
  | 20 => ⟨S200000x4, .i1⟩
  | 21 => ⟨S_, .f32⟩
  | 22 => ⟨S200000x4, .f32⟩
  | 23 => ⟨S200000x4, .f32⟩
  | 24 => ⟨S200000x1, .f32⟩
  | 25 => ⟨S200000x3, .f32⟩
  | 26 => ⟨S200000x3, .f32⟩
  | 27 => ⟨S200000x4, .f32⟩
  | 28 => ⟨S200000x1, .f32⟩
  | 29 => ⟨S200000, .f32⟩
  | 30 => ⟨S200000x1, .f32⟩
  | 31 => ⟨S200000, .f32⟩
  | 32 => ⟨S200000x1, .f32⟩
  | 33 => ⟨S200000, .f32⟩
  | 34 => ⟨S200000x1, .f32⟩
  | 35 => ⟨S200000, .f32⟩
  | 36 => ⟨S200000x1, .f32⟩
  | 37 => ⟨S200000, .f32⟩
  | 38 => ⟨S200000x1, .f32⟩
  | 39 => ⟨S200000, .f32⟩
  | 40 => ⟨S200000x1, .f32⟩
  | 41 => ⟨S200000, .f32⟩
  | 42 => ⟨S200000x1, .f32⟩
  | 43 => ⟨S200000, .f32⟩
  | 44 => ⟨S200000, .f32⟩
  | 45 => ⟨S200000, .f32⟩
  | 46 => ⟨S200000, .f32⟩
  | 47 => ⟨S200000, .f32⟩
  | 48 => ⟨S200000, .f32⟩
  | 49 => ⟨S200000, .f32⟩
  | 50 => ⟨S200000, .f32⟩
  | 51 => ⟨S200000, .f32⟩
  | 52 => ⟨S200000, .f32⟩
  | 53 => ⟨S200000, .f32⟩
  | 54 => ⟨S200000, .f32⟩
  | 55 => ⟨S200000, .f32⟩
  | 56 => ⟨S200000, .f32⟩
  | 57 => ⟨S200000, .f32⟩
  | 58 => ⟨S200000, .f32⟩
  | 59 => ⟨S200000, .f32⟩
  | 60 => ⟨S200000, .f32⟩
  | 61 => ⟨S200000, .f32⟩
  | 62 => ⟨S200000, .f32⟩
  | 63 => ⟨S200000, .f32⟩
  | 64 => ⟨S200000, .f32⟩
  | 65 => ⟨S200000, .f32⟩
  | 66 => ⟨S200000, .f32⟩
  | 67 => ⟨S200000, .f32⟩
  | 68 => ⟨S200000, .f32⟩
  | 69 => ⟨S200000, .f32⟩
  | 70 => ⟨S200000, .f32⟩
  | 71 => ⟨S200000, .f32⟩
  | 72 => ⟨S200000x1, .f32⟩
  | 73 => ⟨S200000x1, .f32⟩
  | 74 => ⟨S200000x1, .f32⟩
  | 75 => ⟨S200000x1, .f32⟩
  | 76 => ⟨S200000x4, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S1, .i32⟩
  | 86 => ⟨S_, .i32⟩
  | 87 => ⟨S200000x1, .i32⟩
  | 88 => ⟨S200000x1, .i1⟩
  | 89 => ⟨S1x1, .i32⟩
  | 90 => ⟨S200000x1, .i32⟩
  | 91 => ⟨S200000x1, .i1⟩
  | 92 => ⟨S200000x1, .i1⟩
  | 93 => ⟨S_, .i1⟩
  | 94 => ⟨S200000, .i1⟩
  | 95 => ⟨S200000x4, .f32⟩
  | 96 => ⟨S200000x4, .i1⟩
  | 97 => ⟨S_, .f32⟩
  | 98 => ⟨S200000x4, .f32⟩
  | 99 => ⟨S200000x4, .f32⟩
  | 100 => ⟨S_, .i32⟩
  | 101 => ⟨S200000, .i32⟩
  | 102 => ⟨S200000, .i1⟩
  | 103 => ⟨S_, .i32⟩
  | 104 => ⟨S200000, .i32⟩
  | 105 => ⟨S200000, .i32⟩
  | 106 => ⟨S200000, .i32⟩
  | 107 => ⟨S200000x1, .i32⟩
  | 108 => ⟨S1, .i32⟩
  | 109 => ⟨S_, .i32⟩
  | 110 => ⟨S200000x1, .i32⟩
  | 111 => ⟨S200000x1, .i1⟩
  | 112 => ⟨S1x1, .i32⟩
  | 113 => ⟨S200000x1, .i32⟩
  | 114 => ⟨S200000x1, .i1⟩
  | 115 => ⟨S200000x1, .i1⟩
  | 116 => ⟨S_, .i1⟩
  | 117 => ⟨S200000, .i1⟩
  | 118 => ⟨S200000x4, .f32⟩
  | 119 => ⟨S200000x4, .i1⟩
  | 120 => ⟨S_, .f32⟩
  | 121 => ⟨S200000x4, .f32⟩
  | 122 => ⟨S200000x4, .f32⟩
  | 123 => ⟨S200000x1, .f32⟩
  | 124 => ⟨S200000x3, .f32⟩
  | 125 => ⟨S200000x3, .f32⟩
  | 126 => ⟨S200000x4, .f32⟩
  | 127 => ⟨S200000x1, .f32⟩
  | _ => ⟨S10000x4, .f32⟩

abbrev hbmTy0_5 (i : Nat) : BufTy := match i % 128 with
  | 0 => ⟨S200000, .f32⟩
  | 1 => ⟨S200000x1, .f32⟩
  | 2 => ⟨S200000, .f32⟩
  | 3 => ⟨S200000x1, .f32⟩
  | 4 => ⟨S200000, .f32⟩
  | 5 => ⟨S200000x1, .f32⟩
  | 6 => ⟨S200000, .f32⟩
  | 7 => ⟨S200000x1, .f32⟩
  | 8 => ⟨S200000, .f32⟩
  | 9 => ⟨S200000x1, .f32⟩
  | 10 => ⟨S200000, .f32⟩
  | 11 => ⟨S200000x1, .f32⟩
  | 12 => ⟨S200000, .f32⟩
  | 13 => ⟨S200000x1, .f32⟩
  | 14 => ⟨S200000, .f32⟩
  | 15 => ⟨S200000, .f32⟩
  | 16 => ⟨S200000, .f32⟩
  | 17 => ⟨S200000, .f32⟩
  | 18 => ⟨S200000, .f32⟩
  | 19 => ⟨S200000, .f32⟩
  | 20 => ⟨S200000, .f32⟩
  | 21 => ⟨S200000, .f32⟩
  | 22 => ⟨S200000, .f32⟩
  | 23 => ⟨S200000, .f32⟩
  | 24 => ⟨S200000, .f32⟩
  | 25 => ⟨S200000, .f32⟩
  | 26 => ⟨S200000, .f32⟩
  | 27 => ⟨S200000, .f32⟩
  | 28 => ⟨S200000, .f32⟩
  | 29 => ⟨S200000, .f32⟩
  | 30 => ⟨S200000, .f32⟩
  | 31 => ⟨S200000, .f32⟩
  | 32 => ⟨S200000, .f32⟩
  | 33 => ⟨S200000, .f32⟩
  | 34 => ⟨S200000, .f32⟩
  | 35 => ⟨S200000, .f32⟩
  | 36 => ⟨S200000, .f32⟩
  | 37 => ⟨S200000, .f32⟩
  | 38 => ⟨S200000, .f32⟩
  | 39 => ⟨S200000, .f32⟩
  | 40 => ⟨S200000, .f32⟩
  | 41 => ⟨S200000, .f32⟩
  | 42 => ⟨S200000, .f32⟩
  | 43 => ⟨S200000x1, .f32⟩
  | 44 => ⟨S200000x1, .f32⟩
  | 45 => ⟨S200000x1, .f32⟩
  | 46 => ⟨S200000x1, .f32⟩
  | 47 => ⟨S200000x4, .f32⟩
  | 48 => ⟨S200000x1, .f32⟩
  | 49 => ⟨S200000x3, .f32⟩
  | 50 => ⟨S200000x3, .f32⟩
  | 51 => ⟨S200000x4, .f32⟩
  | 52 => ⟨S200000x1, .f32⟩
  | 53 => ⟨S200000, .f32⟩
  | 54 => ⟨S200000x1, .f32⟩
  | 55 => ⟨S200000, .f32⟩
  | 56 => ⟨S200000x1, .f32⟩
  | 57 => ⟨S200000, .f32⟩
  | 58 => ⟨S200000x1, .f32⟩
  | 59 => ⟨S200000, .f32⟩
  | 60 => ⟨S200000x1, .f32⟩
  | 61 => ⟨S200000, .f32⟩
  | 62 => ⟨S200000x1, .f32⟩
  | 63 => ⟨S200000, .f32⟩
  | 64 => ⟨S200000x1, .f32⟩
  | 65 => ⟨S200000, .f32⟩
  | 66 => ⟨S200000x1, .f32⟩
  | 67 => ⟨S200000, .f32⟩
  | 68 => ⟨S200000, .f32⟩
  | 69 => ⟨S200000, .f32⟩
  | 70 => ⟨S200000, .f32⟩
  | 71 => ⟨S200000, .f32⟩
  | 72 => ⟨S200000, .f32⟩
  | 73 => ⟨S200000, .f32⟩
  | 74 => ⟨S200000, .f32⟩
  | 75 => ⟨S200000, .f32⟩
  | 76 => ⟨S200000, .f32⟩
  | 77 => ⟨S200000, .f32⟩
  | 78 => ⟨S200000, .f32⟩
  | 79 => ⟨S200000, .f32⟩
  | 80 => ⟨S200000, .f32⟩
  | 81 => ⟨S200000, .f32⟩
  | 82 => ⟨S200000, .f32⟩
  | 83 => ⟨S200000, .f32⟩
  | 84 => ⟨S200000, .f32⟩
  | 85 => ⟨S200000, .f32⟩
  | 86 => ⟨S200000, .f32⟩
  | 87 => ⟨S200000, .f32⟩
  | 88 => ⟨S200000, .f32⟩
  | 89 => ⟨S200000, .f32⟩
  | 90 => ⟨S200000, .f32⟩
  | 91 => ⟨S200000, .f32⟩
  | 92 => ⟨S200000, .f32⟩
  | 93 => ⟨S200000, .f32⟩
  | 94 => ⟨S200000, .f32⟩
  | 95 => ⟨S200000, .f32⟩
  | 96 => ⟨S200000x1, .f32⟩
  | 97 => ⟨S200000x1, .f32⟩
  | 98 => ⟨S200000x1, .f32⟩
  | 99 => ⟨S200000x1, .f32⟩
  | 100 => ⟨S200000x4, .f32⟩
  | 101 => ⟨S200000x4, .f32⟩
  | 102 => ⟨S_, .f32⟩
  | 103 => ⟨S200000, .f32⟩
  | 104 => ⟨S200000x1, .f32⟩
  | 105 => ⟨S200000x1, .f32⟩
  | 106 => ⟨S_, .f32⟩
  | 107 => ⟨S200000x1, .f32⟩
  | 108 => ⟨S200000x1, .f32⟩
  | 109 => ⟨S200000x4, .f32⟩
  | 110 => ⟨S200000x4, .f32⟩
  | 111 => ⟨S1x4, .f32⟩
  | 112 => ⟨S200000x4, .f32⟩
  | 113 => ⟨S200000x4, .f32⟩
  | 114 => ⟨S200000x4, .f32⟩
  | 115 => ⟨S1x1, .f32⟩
  | 116 => ⟨S200000x4, .f32⟩
  | 117 => ⟨S200000x4, .i1⟩
  | 118 => ⟨S_, .f32⟩
  | 119 => ⟨S200000x4, .f32⟩
  | 120 => ⟨S200000x4, .f32⟩
  | 121 => ⟨S200000x4, .f32⟩
  | 122 => ⟨S1x1, .f32⟩
  | 123 => ⟨S200000x4, .f32⟩
  | 124 => ⟨S200000x4, .f32⟩
  | 125 => ⟨S_, .f32⟩
  | 126 => ⟨S1, .f32⟩
  | 127 => ⟨S1, .f32⟩
  | _ => ⟨S10000x4, .f32⟩

abbrev hbmTy0_6 (i : Nat) : BufTy := match i % 128 with
  | 0 => ⟨S1x1, .f32⟩
  | 1 => ⟨S200000x4, .f32⟩
  | 2 => ⟨S200000x4, .f32⟩
  | 3 => ⟨S200000x4, .f32⟩
  | 4 => ⟨S_, .f32⟩
  | 5 => ⟨S_, .f32⟩
  | 6 => ⟨S_, .f32⟩
  | 7 => ⟨S_, .f32⟩
  | _ => ⟨S10000x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S10000x4, .f32⟩

abbrev bufTy : (tb : Table) → Fin (tcTables nBuf tb) → BufTy
  | .hbm, ⟨i, _⟩ => hbmTy i
  | .local _ .vmem, ⟨0, _⟩ => ⟨S2000x132, .f32⟩
  | .local _ .vmem, ⟨1, _⟩ => ⟨S2000x132, .f32⟩
  | .local _ .vmem, ⟨2, _⟩ => ⟨S2000x132, .f32⟩
  | .local _ .vmem, ⟨3, _⟩ => ⟨S2000x132, .f32⟩
  | .local _ .vmem, ⟨4, _⟩ => ⟨S2000x132, .f32⟩
  | .local _ .vmem, ⟨5, _⟩ => ⟨S2000x132, .f32⟩
  | .local _ .vmem, ⟨6, _⟩ => ⟨S396x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x132, .f32⟩
  | .local _ .vmem, ⟨17, _⟩ => ⟨S2000x132, .f32⟩
  | .local _ .vmem, ⟨18, _⟩ => ⟨S388x128, .bf16⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S768x128, .bf16⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S768x128, .bf16⟩
  | .local _ .vmem, ⟨43, _⟩ => ⟨S1x128, .f32⟩
  | .local _ .vmem, ⟨44, _⟩ => ⟨S128x1, .bf16⟩
  | .local _ .vmem, ⟨45, _⟩ => ⟨S1x1, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x1, .f32⟩
  | .local _ .vmem, ⟨51, _⟩ => ⟨S2000x1, .f32⟩
  | _, _ => ⟨S10000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_2 : Ref sig .tc := ⟨.hbm, 30, rfl⟩
abbrev main_v8 : Ref sig .tc := ⟨.hbm, 31, rfl⟩
abbrev main_v9 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v10 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_call2_c : Ref sig .tc := ⟨.hbm, 183, rfl⟩
abbrev main_call2_v0 : Ref sig .tc := ⟨.hbm, 184, rfl⟩
abbrev main_call2_v1 : Ref sig .tc := ⟨.hbm, 185, rfl⟩
abbrev main_call2_c_0 : Ref sig .tc := ⟨.hbm, 186, rfl⟩
abbrev main_call2_v2 : Ref sig .tc := ⟨.hbm, 187, rfl⟩
abbrev main_call2_v3 : Ref sig .tc := ⟨.hbm, 188, rfl⟩
abbrev main_call2_v4 : Ref sig .tc := ⟨.hbm, 189, rfl⟩
abbrev main_call2_v5 : Ref sig .tc := ⟨.hbm, 190, rfl⟩
abbrev main_call2_c_1 : Ref sig .tc := ⟨.hbm, 191, rfl⟩
abbrev main_call2_c_2 : Ref sig .tc := ⟨.hbm, 192, rfl⟩
abbrev main_call2_v6 : Ref sig .tc := ⟨.hbm, 193, rfl⟩
abbrev main_call2_v7 : Ref sig .tc := ⟨.hbm, 194, rfl⟩
abbrev main_call2_v8 : Ref sig .tc := ⟨.hbm, 195, rfl⟩
abbrev main_call2_v9 : Ref sig .tc := ⟨.hbm, 196, rfl⟩
abbrev main_call2_v10 : Ref sig .tc := ⟨.hbm, 197, rfl⟩
abbrev main_call2_v11 : Ref sig .tc := ⟨.hbm, 198, rfl⟩
abbrev main_call2_c_3 : Ref sig .tc := ⟨.hbm, 199, rfl⟩
abbrev main_call2_v12 : Ref sig .tc := ⟨.hbm, 200, rfl⟩
abbrev main_call2_v13 : Ref sig .tc := ⟨.hbm, 201, rfl⟩
abbrev main_call2_v14 : Ref sig .tc := ⟨.hbm, 202, rfl⟩
abbrev main_call2_cst : Ref sig .tc := ⟨.hbm, 203, rfl⟩
abbrev main_call2_v15 : Ref sig .tc := ⟨.hbm, 204, rfl⟩
abbrev main_v116 : Ref sig .tc := ⟨.hbm, 205, rfl⟩
abbrev main_call3_c : Ref sig .tc := ⟨.hbm, 206, rfl⟩
abbrev main_call3_v0 : Ref sig .tc := ⟨.hbm, 207, rfl⟩
abbrev main_call3_v1 : Ref sig .tc := ⟨.hbm, 208, rfl⟩
abbrev main_call3_c_0 : Ref sig .tc := ⟨.hbm, 209, rfl⟩
abbrev main_call3_v2 : Ref sig .tc := ⟨.hbm, 210, rfl⟩
abbrev main_call3_v3 : Ref sig .tc := ⟨.hbm, 211, rfl⟩
abbrev main_call3_v4 : Ref sig .tc := ⟨.hbm, 212, rfl⟩
abbrev main_call3_v5 : Ref sig .tc := ⟨.hbm, 213, rfl⟩
abbrev main_call3_c_1 : Ref sig .tc := ⟨.hbm, 214, rfl⟩
abbrev main_call3_c_2 : Ref sig .tc := ⟨.hbm, 215, rfl⟩
abbrev main_call3_v6 : Ref sig .tc := ⟨.hbm, 216, rfl⟩
abbrev main_call3_v7 : Ref sig .tc := ⟨.hbm, 217, rfl⟩
abbrev main_call3_v8 : Ref sig .tc := ⟨.hbm, 218, rfl⟩
abbrev main_call3_v9 : Ref sig .tc := ⟨.hbm, 219, rfl⟩
abbrev main_call3_v10 : Ref sig .tc := ⟨.hbm, 220, rfl⟩
abbrev main_call3_v11 : Ref sig .tc := ⟨.hbm, 221, rfl⟩
abbrev main_call3_c_3 : Ref sig .tc := ⟨.hbm, 222, rfl⟩
abbrev main_call3_v12 : Ref sig .tc := ⟨.hbm, 223, rfl⟩
abbrev main_call3_v13 : Ref sig .tc := ⟨.hbm, 224, rfl⟩
abbrev main_call3_v14 : Ref sig .tc := ⟨.hbm, 225, rfl⟩
abbrev main_call3_cst : Ref sig .tc := ⟨.hbm, 226, rfl⟩
abbrev main_call3_v15 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120_0 : Ref sig .tc := ⟨.hbm, 231, rfl⟩
abbrev main_v120_1 : Ref sig .tc := ⟨.hbm, 232, rfl⟩
abbrev main_cst_3 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_call4_cst : Ref sig .tc := ⟨.hbm, 239, rfl⟩
abbrev main_call4_v0 : Ref sig .tc := ⟨.hbm, 240, rfl⟩
abbrev main_v126 : Ref sig .tc := ⟨.hbm, 241, rfl⟩
abbrev main_v127 : Ref sig .tc := ⟨.hbm, 242, rfl⟩
abbrev main_call5_c : Ref sig .tc := ⟨.hbm, 243, rfl⟩
abbrev main_call5_v0 : Ref sig .tc := ⟨.hbm, 244, rfl⟩
abbrev main_call5_v1 : Ref sig .tc := ⟨.hbm, 245, rfl⟩
abbrev main_call5_c_0 : Ref sig .tc := ⟨.hbm, 246, rfl⟩
abbrev main_call5_v2 : Ref sig .tc := ⟨.hbm, 247, rfl⟩
abbrev main_call5_v3 : Ref sig .tc := ⟨.hbm, 248, rfl⟩
abbrev main_call5_v4 : Ref sig .tc := ⟨.hbm, 249, rfl⟩
abbrev main_call5_v5 : Ref sig .tc := ⟨.hbm, 250, rfl⟩
abbrev main_call5_c_1 : Ref sig .tc := ⟨.hbm, 251, rfl⟩
abbrev main_call5_c_2 : Ref sig .tc := ⟨.hbm, 252, rfl⟩
abbrev main_call5_v6 : Ref sig .tc := ⟨.hbm, 253, rfl⟩
abbrev main_call5_v7 : Ref sig .tc := ⟨.hbm, 254, rfl⟩
abbrev main_call5_v8 : Ref sig .tc := ⟨.hbm, 255, rfl⟩
abbrev main_call5_v9 : Ref sig .tc := ⟨.hbm, 256, rfl⟩
abbrev main_call5_v10 : Ref sig .tc := ⟨.hbm, 257, rfl⟩
abbrev main_call5_v11 : Ref sig .tc := ⟨.hbm, 258, rfl⟩
abbrev main_call5_c_3 : Ref sig .tc := ⟨.hbm, 259, rfl⟩
abbrev main_call5_v12 : Ref sig .tc := ⟨.hbm, 260, rfl⟩
abbrev main_call5_v13 : Ref sig .tc := ⟨.hbm, 261, rfl⟩
abbrev main_call5_v14 : Ref sig .tc := ⟨.hbm, 262, rfl⟩
abbrev main_call5_cst : Ref sig .tc := ⟨.hbm, 263, rfl⟩
abbrev main_call5_v15 : Ref sig .tc := ⟨.hbm, 264, rfl⟩
abbrev main_v128 : Ref sig .tc := ⟨.hbm, 265, rfl⟩
abbrev main_call6_c : Ref sig .tc := ⟨.hbm, 266, rfl⟩
abbrev main_call6_v0 : Ref sig .tc := ⟨.hbm, 267, rfl⟩
abbrev main_call6_v1 : Ref sig .tc := ⟨.hbm, 268, rfl⟩
abbrev main_call6_c_0 : Ref sig .tc := ⟨.hbm, 269, rfl⟩
abbrev main_call6_v2 : Ref sig .tc := ⟨.hbm, 270, rfl⟩
abbrev main_call6_v3 : Ref sig .tc := ⟨.hbm, 271, rfl⟩
abbrev main_call6_v4 : Ref sig .tc := ⟨.hbm, 272, rfl⟩
abbrev main_call6_v5 : Ref sig .tc := ⟨.hbm, 273, rfl⟩
abbrev main_call6_c_1 : Ref sig .tc := ⟨.hbm, 274, rfl⟩
abbrev main_call6_c_2 : Ref sig .tc := ⟨.hbm, 275, rfl⟩
abbrev main_call6_v6 : Ref sig .tc := ⟨.hbm, 276, rfl⟩
abbrev main_call6_v7 : Ref sig .tc := ⟨.hbm, 277, rfl⟩
abbrev main_call6_v8 : Ref sig .tc := ⟨.hbm, 278, rfl⟩
abbrev main_call6_v9 : Ref sig .tc := ⟨.hbm, 279, rfl⟩
abbrev main_call6_v10 : Ref sig .tc := ⟨.hbm, 280, rfl⟩
abbrev main_call6_v11 : Ref sig .tc := ⟨.hbm, 281, rfl⟩
abbrev main_call6_c_3 : Ref sig .tc := ⟨.hbm, 282, rfl⟩
abbrev main_call6_v12 : Ref sig .tc := ⟨.hbm, 283, rfl⟩
abbrev main_call6_v13 : Ref sig .tc := ⟨.hbm, 284, rfl⟩
abbrev main_call6_v14 : Ref sig .tc := ⟨.hbm, 285, rfl⟩
abbrev main_call6_cst : Ref sig .tc := ⟨.hbm, 286, rfl⟩
abbrev main_call6_v15 : Ref sig .tc := ⟨.hbm, 287, rfl⟩
abbrev main_v129 : Ref sig .tc := ⟨.hbm, 288, rfl⟩
abbrev main_v130 : Ref sig .tc := ⟨.hbm, 289, rfl⟩
abbrev main_v131 : Ref sig .tc := ⟨.hbm, 290, rfl⟩
abbrev main_v132_0 : Ref sig .tc := ⟨.hbm, 291, rfl⟩
abbrev main_v132_1 : Ref sig .tc := ⟨.hbm, 292, rfl⟩
abbrev main_cst_4 : Ref sig .tc := ⟨.hbm, 293, rfl⟩
abbrev main_v133 : Ref sig .tc := ⟨.hbm, 294, rfl⟩
abbrev main_v134 : Ref sig .tc := ⟨.hbm, 295, rfl⟩
abbrev main_v135 : Ref sig .tc := ⟨.hbm, 296, rfl⟩
abbrev main_v136 : Ref sig .tc := ⟨.hbm, 297, rfl⟩
abbrev main_v137 : Ref sig .tc := ⟨.hbm, 298, rfl⟩
abbrev main_call7_cst : Ref sig .tc := ⟨.hbm, 299, rfl⟩
abbrev main_call7_v0 : Ref sig .tc := ⟨.hbm, 300, rfl⟩
abbrev main_v138 : Ref sig .tc := ⟨.hbm, 301, rfl⟩
abbrev main_v139 : Ref sig .tc := ⟨.hbm, 302, rfl⟩
abbrev main_v140 : Ref sig .tc := ⟨.hbm, 303, rfl⟩
abbrev main_call8_c : Ref sig .tc := ⟨.hbm, 304, rfl⟩
abbrev main_call8_v0 : Ref sig .tc := ⟨.hbm, 305, rfl⟩
abbrev main_call8_v1 : Ref sig .tc := ⟨.hbm, 306, rfl⟩
abbrev main_call8_c_0 : Ref sig .tc := ⟨.hbm, 307, rfl⟩
abbrev main_call8_v2 : Ref sig .tc := ⟨.hbm, 308, rfl⟩
abbrev main_call8_v3 : Ref sig .tc := ⟨.hbm, 309, rfl⟩
abbrev main_call8_v4 : Ref sig .tc := ⟨.hbm, 310, rfl⟩
abbrev main_call8_v5 : Ref sig .tc := ⟨.hbm, 311, rfl⟩
abbrev main_call8_c_1 : Ref sig .tc := ⟨.hbm, 312, rfl⟩
abbrev main_call8_c_2 : Ref sig .tc := ⟨.hbm, 313, rfl⟩
abbrev main_call8_v6 : Ref sig .tc := ⟨.hbm, 314, rfl⟩
abbrev main_call8_v7 : Ref sig .tc := ⟨.hbm, 315, rfl⟩
abbrev main_call8_v8 : Ref sig .tc := ⟨.hbm, 316, rfl⟩
abbrev main_call8_v9 : Ref sig .tc := ⟨.hbm, 317, rfl⟩
abbrev main_call8_v10 : Ref sig .tc := ⟨.hbm, 318, rfl⟩
abbrev main_call8_v11 : Ref sig .tc := ⟨.hbm, 319, rfl⟩
abbrev main_call8_c_3 : Ref sig .tc := ⟨.hbm, 320, rfl⟩
abbrev main_call8_v12 : Ref sig .tc := ⟨.hbm, 321, rfl⟩
abbrev main_call8_v13 : Ref sig .tc := ⟨.hbm, 322, rfl⟩
abbrev main_call8_v14 : Ref sig .tc := ⟨.hbm, 323, rfl⟩
abbrev main_call8_cst : Ref sig .tc := ⟨.hbm, 324, rfl⟩
abbrev main_call8_v15 : Ref sig .tc := ⟨.hbm, 325, rfl⟩
abbrev main_v141 : Ref sig .tc := ⟨.hbm, 326, rfl⟩
abbrev main_call9_c : Ref sig .tc := ⟨.hbm, 327, rfl⟩
abbrev main_call9_v0 : Ref sig .tc := ⟨.hbm, 328, rfl⟩
abbrev main_call9_v1 : Ref sig .tc := ⟨.hbm, 329, rfl⟩
abbrev main_call9_c_0 : Ref sig .tc := ⟨.hbm, 330, rfl⟩
abbrev main_call9_v2 : Ref sig .tc := ⟨.hbm, 331, rfl⟩
abbrev main_call9_v3 : Ref sig .tc := ⟨.hbm, 332, rfl⟩
abbrev main_call9_v4 : Ref sig .tc := ⟨.hbm, 333, rfl⟩
abbrev main_call9_v5 : Ref sig .tc := ⟨.hbm, 334, rfl⟩
abbrev main_call9_c_1 : Ref sig .tc := ⟨.hbm, 335, rfl⟩
abbrev main_call9_c_2 : Ref sig .tc := ⟨.hbm, 336, rfl⟩
abbrev main_call9_v6 : Ref sig .tc := ⟨.hbm, 337, rfl⟩
abbrev main_call9_v7 : Ref sig .tc := ⟨.hbm, 338, rfl⟩
abbrev main_call9_v8 : Ref sig .tc := ⟨.hbm, 339, rfl⟩
abbrev main_call9_v9 : Ref sig .tc := ⟨.hbm, 340, rfl⟩
abbrev main_call9_v10 : Ref sig .tc := ⟨.hbm, 341, rfl⟩
abbrev main_call9_v11 : Ref sig .tc := ⟨.hbm, 342, rfl⟩
abbrev main_call9_c_3 : Ref sig .tc := ⟨.hbm, 343, rfl⟩
abbrev main_call9_v12 : Ref sig .tc := ⟨.hbm, 344, rfl⟩
abbrev main_call9_v13 : Ref sig .tc := ⟨.hbm, 345, rfl⟩
abbrev main_call9_v14 : Ref sig .tc := ⟨.hbm, 346, rfl⟩
abbrev main_call9_cst : Ref sig .tc := ⟨.hbm, 347, rfl⟩
abbrev main_call9_v15 : Ref sig .tc := ⟨.hbm, 348, rfl⟩
abbrev main_v142 : Ref sig .tc := ⟨.hbm, 349, rfl⟩
abbrev main_v143 : Ref sig .tc := ⟨.hbm, 350, rfl⟩
abbrev main_v144 : Ref sig .tc := ⟨.hbm, 351, rfl⟩
abbrev main_v145_0 : Ref sig .tc := ⟨.hbm, 352, rfl⟩
abbrev main_v145_1 : Ref sig .tc := ⟨.hbm, 353, rfl⟩
abbrev main_cst_5 : Ref sig .tc := ⟨.hbm, 354, rfl⟩
abbrev main_v146 : Ref sig .tc := ⟨.hbm, 355, rfl⟩
abbrev main_v147 : Ref sig .tc := ⟨.hbm, 356, rfl⟩
abbrev main_v148 : Ref sig .tc := ⟨.hbm, 357, rfl⟩
abbrev main_v149 : Ref sig .tc := ⟨.hbm, 358, rfl⟩
abbrev main_v150 : Ref sig .tc := ⟨.hbm, 359, rfl⟩
abbrev main_call10_cst : Ref sig .tc := ⟨.hbm, 360, rfl⟩
abbrev main_call10_v0 : Ref sig .tc := ⟨.hbm, 361, rfl⟩
abbrev main_v151 : Ref sig .tc := ⟨.hbm, 362, rfl⟩
abbrev main_v152 : Ref sig .tc := ⟨.hbm, 363, rfl⟩
abbrev main_v153 : Ref sig .tc := ⟨.hbm, 364, rfl⟩
abbrev main_call11_c : Ref sig .tc := ⟨.hbm, 365, rfl⟩
abbrev main_call11_v0 : Ref sig .tc := ⟨.hbm, 366, rfl⟩
abbrev main_call11_v1 : Ref sig .tc := ⟨.hbm, 367, rfl⟩
abbrev main_call11_c_0 : Ref sig .tc := ⟨.hbm, 368, rfl⟩
abbrev main_call11_v2 : Ref sig .tc := ⟨.hbm, 369, rfl⟩
abbrev main_call11_v3 : Ref sig .tc := ⟨.hbm, 370, rfl⟩
abbrev main_call11_v4 : Ref sig .tc := ⟨.hbm, 371, rfl⟩
abbrev main_call11_v5 : Ref sig .tc := ⟨.hbm, 372, rfl⟩
abbrev main_call11_c_1 : Ref sig .tc := ⟨.hbm, 373, rfl⟩
abbrev main_call11_c_2 : Ref sig .tc := ⟨.hbm, 374, rfl⟩
abbrev main_call11_v6 : Ref sig .tc := ⟨.hbm, 375, rfl⟩
abbrev main_call11_v7 : Ref sig .tc := ⟨.hbm, 376, rfl⟩
abbrev main_call11_v8 : Ref sig .tc := ⟨.hbm, 377, rfl⟩
abbrev main_call11_v9 : Ref sig .tc := ⟨.hbm, 378, rfl⟩
abbrev main_call11_v10 : Ref sig .tc := ⟨.hbm, 379, rfl⟩
abbrev main_call11_v11 : Ref sig .tc := ⟨.hbm, 380, rfl⟩
abbrev main_call11_c_3 : Ref sig .tc := ⟨.hbm, 381, rfl⟩
abbrev main_call11_v12 : Ref sig .tc := ⟨.hbm, 382, rfl⟩
abbrev main_call11_v13 : Ref sig .tc := ⟨.hbm, 383, rfl⟩
abbrev main_call11_v14 : Ref sig .tc := ⟨.hbm, 384, rfl⟩
abbrev main_call11_cst : Ref sig .tc := ⟨.hbm, 385, rfl⟩
abbrev main_call11_v15 : Ref sig .tc := ⟨.hbm, 386, rfl⟩
abbrev main_v154 : Ref sig .tc := ⟨.hbm, 387, rfl⟩
abbrev main_call12_c : Ref sig .tc := ⟨.hbm, 388, rfl⟩
abbrev main_call12_v0 : Ref sig .tc := ⟨.hbm, 389, rfl⟩
abbrev main_call12_v1 : Ref sig .tc := ⟨.hbm, 390, rfl⟩
abbrev main_call12_c_0 : Ref sig .tc := ⟨.hbm, 391, rfl⟩
abbrev main_call12_v2 : Ref sig .tc := ⟨.hbm, 392, rfl⟩
abbrev main_call12_v3 : Ref sig .tc := ⟨.hbm, 393, rfl⟩
abbrev main_call12_v4 : Ref sig .tc := ⟨.hbm, 394, rfl⟩
abbrev main_call12_v5 : Ref sig .tc := ⟨.hbm, 395, rfl⟩
abbrev main_call12_c_1 : Ref sig .tc := ⟨.hbm, 396, rfl⟩
abbrev main_call12_c_2 : Ref sig .tc := ⟨.hbm, 397, rfl⟩
abbrev main_call12_v6 : Ref sig .tc := ⟨.hbm, 398, rfl⟩
abbrev main_call12_v7 : Ref sig .tc := ⟨.hbm, 399, rfl⟩
abbrev main_call12_v8 : Ref sig .tc := ⟨.hbm, 400, rfl⟩
abbrev main_call12_v9 : Ref sig .tc := ⟨.hbm, 401, rfl⟩
abbrev main_call12_v10 : Ref sig .tc := ⟨.hbm, 402, rfl⟩
abbrev main_call12_v11 : Ref sig .tc := ⟨.hbm, 403, rfl⟩
abbrev main_call12_c_3 : Ref sig .tc := ⟨.hbm, 404, rfl⟩
abbrev main_call12_v12 : Ref sig .tc := ⟨.hbm, 405, rfl⟩
abbrev main_call12_v13 : Ref sig .tc := ⟨.hbm, 406, rfl⟩
abbrev main_call12_v14 : Ref sig .tc := ⟨.hbm, 407, rfl⟩
abbrev main_call12_cst : Ref sig .tc := ⟨.hbm, 408, rfl⟩
abbrev main_call12_v15 : Ref sig .tc := ⟨.hbm, 409, rfl⟩
abbrev main_v155 : Ref sig .tc := ⟨.hbm, 410, rfl⟩
abbrev main_v156 : Ref sig .tc := ⟨.hbm, 411, rfl⟩
abbrev main_v157 : Ref sig .tc := ⟨.hbm, 412, rfl⟩
abbrev main_v158 : Ref sig .tc := ⟨.hbm, 413, rfl⟩
abbrev main_v159 : Ref sig .tc := ⟨.hbm, 414, rfl⟩
abbrev main_v160_0 : Ref sig .tc := ⟨.hbm, 415, rfl⟩
abbrev main_v160_1 : Ref sig .tc := ⟨.hbm, 416, rfl⟩
abbrev main_v160_2 : Ref sig .tc := ⟨.hbm, 417, rfl⟩
abbrev main_cst_6 : Ref sig .tc := ⟨.hbm, 418, rfl⟩
abbrev main_v161 : Ref sig .tc := ⟨.hbm, 419, rfl⟩
abbrev main_v162 : Ref sig .tc := ⟨.hbm, 420, rfl⟩
abbrev main_v163 : Ref sig .tc := ⟨.hbm, 421, rfl⟩
abbrev main_v164 : Ref sig .tc := ⟨.hbm, 422, rfl⟩
abbrev main_v165 : Ref sig .tc := ⟨.hbm, 423, rfl⟩
abbrev main_call13_cst : Ref sig .tc := ⟨.hbm, 424, rfl⟩
abbrev main_call13_v0 : Ref sig .tc := ⟨.hbm, 425, rfl⟩
abbrev main_v166 : Ref sig .tc := ⟨.hbm, 426, rfl⟩
abbrev main_v167 : Ref sig .tc := ⟨.hbm, 427, rfl⟩
abbrev main_v168 : Ref sig .tc := ⟨.hbm, 428, rfl⟩
abbrev main_v169 : Ref sig .tc := ⟨.hbm, 429, rfl⟩
abbrev main_v170 : Ref sig .tc := ⟨.hbm, 430, rfl⟩
abbrev main_v171 : Ref sig .tc := ⟨.hbm, 431, rfl⟩
abbrev main_v172 : Ref sig .tc := ⟨.hbm, 432, rfl⟩
abbrev main_v173 : Ref sig .tc := ⟨.hbm, 433, rfl⟩
abbrev main_v174 : Ref sig .tc := ⟨.hbm, 434, rfl⟩
abbrev main_v175 : Ref sig .tc := ⟨.hbm, 435, rfl⟩
abbrev main_v176 : Ref sig .tc := ⟨.hbm, 436, rfl⟩
abbrev main_v177 : Ref sig .tc := ⟨.hbm, 437, rfl⟩
abbrev main_v178 : Ref sig .tc := ⟨.hbm, 438, rfl⟩
abbrev main_v179 : Ref sig .tc := ⟨.hbm, 439, rfl⟩
abbrev main_v180 : Ref sig .tc := ⟨.hbm, 440, rfl⟩
abbrev main_v181 : Ref sig .tc := ⟨.hbm, 441, rfl⟩
abbrev main_v182 : Ref sig .tc := ⟨.hbm, 442, rfl⟩
abbrev main_v183 : Ref sig .tc := ⟨.hbm, 443, rfl⟩
abbrev main_v184 : Ref sig .tc := ⟨.hbm, 444, rfl⟩
abbrev main_v185 : Ref sig .tc := ⟨.hbm, 445, rfl⟩
abbrev main_v186 : Ref sig .tc := ⟨.hbm, 446, rfl⟩
abbrev main_v187 : Ref sig .tc := ⟨.hbm, 447, rfl⟩
abbrev main_v188 : Ref sig .tc := ⟨.hbm, 448, rfl⟩
abbrev main_v189 : Ref sig .tc := ⟨.hbm, 449, rfl⟩
abbrev main_v190 : Ref sig .tc := ⟨.hbm, 450, rfl⟩
abbrev main_v191 : Ref sig .tc := ⟨.hbm, 451, rfl⟩
abbrev main_v192 : Ref sig .tc := ⟨.hbm, 452, rfl⟩
abbrev main_v193 : Ref sig .tc := ⟨.hbm, 453, rfl⟩
abbrev main_v194 : Ref sig .tc := ⟨.hbm, 454, rfl⟩
abbrev main_v195 : Ref sig .tc := ⟨.hbm, 455, rfl⟩
abbrev main_v196 : Ref sig .tc := ⟨.hbm, 456, rfl⟩
abbrev main_v197 : Ref sig .tc := ⟨.hbm, 457, rfl⟩
abbrev main_v198 : Ref sig .tc := ⟨.hbm, 458, rfl⟩
abbrev main_v199 : Ref sig .tc := ⟨.hbm, 459, rfl⟩
abbrev main_v200 : Ref sig .tc := ⟨.hbm, 460, rfl⟩
abbrev main_v201 : Ref sig .tc := ⟨.hbm, 461, rfl⟩
abbrev main_v202 : Ref sig .tc := ⟨.hbm, 462, rfl⟩
abbrev main_v203 : Ref sig .tc := ⟨.hbm, 463, rfl⟩
abbrev main_v204 : Ref sig .tc := ⟨.hbm, 464, rfl⟩
abbrev main_v205 : Ref sig .tc := ⟨.hbm, 465, rfl⟩
abbrev main_v206 : Ref sig .tc := ⟨.hbm, 466, rfl⟩
abbrev main_v207 : Ref sig .tc := ⟨.hbm, 467, rfl⟩
abbrev main_v208 : Ref sig .tc := ⟨.hbm, 468, rfl⟩
abbrev main_v209 : Ref sig .tc := ⟨.hbm, 469, rfl⟩
abbrev main_v210 : Ref sig .tc := ⟨.hbm, 470, rfl⟩
abbrev main_v211 : Ref sig .tc := ⟨.hbm, 471, rfl⟩
abbrev main_v212 : Ref sig .tc := ⟨.hbm, 472, rfl⟩
abbrev main_v213 : Ref sig .tc := ⟨.hbm, 473, rfl⟩
abbrev main_v214 : Ref sig .tc := ⟨.hbm, 474, rfl⟩
abbrev main_v215 : Ref sig .tc := ⟨.hbm, 475, rfl⟩
abbrev main_v216 : Ref sig .tc := ⟨.hbm, 476, rfl⟩
abbrev main_v217 : Ref sig .tc := ⟨.hbm, 477, rfl⟩
abbrev main_v218 : Ref sig .tc := ⟨.hbm, 478, rfl⟩
abbrev main_v219 : Ref sig .tc := ⟨.hbm, 479, rfl⟩
abbrev main_call14_v0 : Ref sig .tc := ⟨.hbm, 480, rfl⟩
abbrev main_call14_cst : Ref sig .tc := ⟨.hbm, 481, rfl⟩
abbrev main_call14_v1 : Ref sig .tc := ⟨.hbm, 482, rfl⟩
abbrev main_call14_v2 : Ref sig .tc := ⟨.hbm, 483, rfl⟩
abbrev main_v220 : Ref sig .tc := ⟨.hbm, 484, rfl⟩
abbrev main_cst_7 : Ref sig .tc := ⟨.hbm, 485, rfl⟩
abbrev main_v221 : Ref sig .tc := ⟨.hbm, 486, rfl⟩
abbrev main_v222 : Ref sig .tc := ⟨.hbm, 487, rfl⟩
abbrev main_v223 : Ref sig .tc := ⟨.hbm, 488, rfl⟩
abbrev main_v224 : Ref sig .tc := ⟨.hbm, 489, rfl⟩
abbrev main_call15_c : Ref sig .tc := ⟨.hbm, 490, rfl⟩
abbrev main_call15_v0 : Ref sig .tc := ⟨.hbm, 491, rfl⟩
abbrev main_call15_v1 : Ref sig .tc := ⟨.hbm, 492, rfl⟩
abbrev main_call15_c_0 : Ref sig .tc := ⟨.hbm, 493, rfl⟩
abbrev main_call15_v2 : Ref sig .tc := ⟨.hbm, 494, rfl⟩
abbrev main_call15_v3 : Ref sig .tc := ⟨.hbm, 495, rfl⟩
abbrev main_call15_v4 : Ref sig .tc := ⟨.hbm, 496, rfl⟩
abbrev main_call15_v5 : Ref sig .tc := ⟨.hbm, 497, rfl⟩
abbrev main_call15_c_1 : Ref sig .tc := ⟨.hbm, 498, rfl⟩
abbrev main_call15_c_2 : Ref sig .tc := ⟨.hbm, 499, rfl⟩
abbrev main_call15_v6 : Ref sig .tc := ⟨.hbm, 500, rfl⟩
abbrev main_call15_v7 : Ref sig .tc := ⟨.hbm, 501, rfl⟩
abbrev main_call15_v8 : Ref sig .tc := ⟨.hbm, 502, rfl⟩
abbrev main_call15_v9 : Ref sig .tc := ⟨.hbm, 503, rfl⟩
abbrev main_call15_v10 : Ref sig .tc := ⟨.hbm, 504, rfl⟩
abbrev main_call15_v11 : Ref sig .tc := ⟨.hbm, 505, rfl⟩
abbrev main_call15_c_3 : Ref sig .tc := ⟨.hbm, 506, rfl⟩
abbrev main_call15_v12 : Ref sig .tc := ⟨.hbm, 507, rfl⟩
abbrev main_call15_v13 : Ref sig .tc := ⟨.hbm, 508, rfl⟩
abbrev main_call15_v14 : Ref sig .tc := ⟨.hbm, 509, rfl⟩
abbrev main_call15_cst : Ref sig .tc := ⟨.hbm, 510, rfl⟩
abbrev main_call15_v15 : Ref sig .tc := ⟨.hbm, 511, rfl⟩
abbrev main_v225 : Ref sig .tc := ⟨.hbm, 512, rfl⟩
abbrev main_call16_c : Ref sig .tc := ⟨.hbm, 513, rfl⟩
abbrev main_call16_v0 : Ref sig .tc := ⟨.hbm, 514, rfl⟩
abbrev main_call16_v1 : Ref sig .tc := ⟨.hbm, 515, rfl⟩
abbrev main_call16_c_0 : Ref sig .tc := ⟨.hbm, 516, rfl⟩
abbrev main_call16_v2 : Ref sig .tc := ⟨.hbm, 517, rfl⟩
abbrev main_call16_v3 : Ref sig .tc := ⟨.hbm, 518, rfl⟩
abbrev main_call16_v4 : Ref sig .tc := ⟨.hbm, 519, rfl⟩
abbrev main_call16_v5 : Ref sig .tc := ⟨.hbm, 520, rfl⟩
abbrev main_call16_c_1 : Ref sig .tc := ⟨.hbm, 521, rfl⟩
abbrev main_call16_c_2 : Ref sig .tc := ⟨.hbm, 522, rfl⟩
abbrev main_call16_v6 : Ref sig .tc := ⟨.hbm, 523, rfl⟩
abbrev main_call16_v7 : Ref sig .tc := ⟨.hbm, 524, rfl⟩
abbrev main_call16_v8 : Ref sig .tc := ⟨.hbm, 525, rfl⟩
abbrev main_call16_v9 : Ref sig .tc := ⟨.hbm, 526, rfl⟩
abbrev main_call16_v10 : Ref sig .tc := ⟨.hbm, 527, rfl⟩
abbrev main_call16_v11 : Ref sig .tc := ⟨.hbm, 528, rfl⟩
abbrev main_call16_c_3 : Ref sig .tc := ⟨.hbm, 529, rfl⟩
abbrev main_call16_v12 : Ref sig .tc := ⟨.hbm, 530, rfl⟩
abbrev main_call16_v13 : Ref sig .tc := ⟨.hbm, 531, rfl⟩
abbrev main_call16_v14 : Ref sig .tc := ⟨.hbm, 532, rfl⟩
abbrev main_call16_cst : Ref sig .tc := ⟨.hbm, 533, rfl⟩
abbrev main_call16_v15 : Ref sig .tc := ⟨.hbm, 534, rfl⟩
abbrev main_v226 : Ref sig .tc := ⟨.hbm, 535, rfl⟩
abbrev main_v227 : Ref sig .tc := ⟨.hbm, 536, rfl⟩
abbrev main_v228 : Ref sig .tc := ⟨.hbm, 537, rfl⟩
abbrev main_v229 : Ref sig .tc := ⟨.hbm, 538, rfl⟩
abbrev main_v230 : Ref sig .tc := ⟨.hbm, 539, rfl⟩
abbrev main_v231 : Ref sig .tc := ⟨.hbm, 540, rfl⟩
abbrev main_v232 : Ref sig .tc := ⟨.hbm, 541, rfl⟩
abbrev main_v233 : Ref sig .tc := ⟨.hbm, 542, rfl⟩
abbrev main_v234 : Ref sig .tc := ⟨.hbm, 543, rfl⟩
abbrev main_v235 : Ref sig .tc := ⟨.hbm, 544, rfl⟩
abbrev main_v236 : Ref sig .tc := ⟨.hbm, 545, rfl⟩
abbrev main_v237 : Ref sig .tc := ⟨.hbm, 546, rfl⟩
abbrev main_v238 : Ref sig .tc := ⟨.hbm, 547, rfl⟩
abbrev main_v239 : Ref sig .tc := ⟨.hbm, 548, rfl⟩
abbrev main_v240 : Ref sig .tc := ⟨.hbm, 549, rfl⟩
abbrev main_v241 : Ref sig .tc := ⟨.hbm, 550, rfl⟩
abbrev main_v242 : Ref sig .tc := ⟨.hbm, 551, rfl⟩
abbrev main_v243 : Ref sig .tc := ⟨.hbm, 552, rfl⟩
abbrev main_v244 : Ref sig .tc := ⟨.hbm, 553, rfl⟩
abbrev main_v245 : Ref sig .tc := ⟨.hbm, 554, rfl⟩
abbrev main_v246 : Ref sig .tc := ⟨.hbm, 555, rfl⟩
abbrev main_v247 : Ref sig .tc := ⟨.hbm, 556, rfl⟩
abbrev main_v248 : Ref sig .tc := ⟨.hbm, 557, rfl⟩
abbrev main_v249 : Ref sig .tc := ⟨.hbm, 558, rfl⟩
abbrev main_v250 : Ref sig .tc := ⟨.hbm, 559, rfl⟩
abbrev main_v251 : Ref sig .tc := ⟨.hbm, 560, rfl⟩
abbrev main_v252 : Ref sig .tc := ⟨.hbm, 561, rfl⟩
abbrev main_v253 : Ref sig .tc := ⟨.hbm, 562, rfl⟩
abbrev main_v254 : Ref sig .tc := ⟨.hbm, 563, rfl⟩
abbrev main_v255 : Ref sig .tc := ⟨.hbm, 564, rfl⟩
abbrev main_v256 : Ref sig .tc := ⟨.hbm, 565, rfl⟩
abbrev main_v257 : Ref sig .tc := ⟨.hbm, 566, rfl⟩
abbrev main_v258 : Ref sig .tc := ⟨.hbm, 567, rfl⟩
abbrev main_v259 : Ref sig .tc := ⟨.hbm, 568, rfl⟩
abbrev main_v260 : Ref sig .tc := ⟨.hbm, 569, rfl⟩
abbrev main_v261 : Ref sig .tc := ⟨.hbm, 570, rfl⟩
abbrev main_v262 : Ref sig .tc := ⟨.hbm, 571, rfl⟩
abbrev main_v263 : Ref sig .tc := ⟨.hbm, 572, rfl⟩
abbrev main_v264 : Ref sig .tc := ⟨.hbm, 573, rfl⟩
abbrev main_v265 : Ref sig .tc := ⟨.hbm, 574, rfl⟩
abbrev main_v266 : Ref sig .tc := ⟨.hbm, 575, rfl⟩
abbrev main_v267 : Ref sig .tc := ⟨.hbm, 576, rfl⟩
abbrev main_v268 : Ref sig .tc := ⟨.hbm, 577, rfl⟩
abbrev main_v269 : Ref sig .tc := ⟨.hbm, 578, rfl⟩
abbrev main_v270 : Ref sig .tc := ⟨.hbm, 579, rfl⟩
abbrev main_v271 : Ref sig .tc := ⟨.hbm, 580, rfl⟩
abbrev main_v272 : Ref sig .tc := ⟨.hbm, 581, rfl⟩
abbrev main_v273 : Ref sig .tc := ⟨.hbm, 582, rfl⟩
abbrev main_v274 : Ref sig .tc := ⟨.hbm, 583, rfl⟩
abbrev main_v275 : Ref sig .tc := ⟨.hbm, 584, rfl⟩
abbrev main_v276 : Ref sig .tc := ⟨.hbm, 585, rfl⟩
abbrev main_v277 : Ref sig .tc := ⟨.hbm, 586, rfl⟩
abbrev main_v278 : Ref sig .tc := ⟨.hbm, 587, rfl⟩
abbrev main_v279 : Ref sig .tc := ⟨.hbm, 588, rfl⟩
abbrev main_call17_c : Ref sig .tc := ⟨.hbm, 589, rfl⟩
abbrev main_call17_v0 : Ref sig .tc := ⟨.hbm, 590, rfl⟩
abbrev main_call17_v1 : Ref sig .tc := ⟨.hbm, 591, rfl⟩
abbrev main_call17_c_0 : Ref sig .tc := ⟨.hbm, 592, rfl⟩
abbrev main_call17_v2 : Ref sig .tc := ⟨.hbm, 593, rfl⟩
abbrev main_call17_v3 : Ref sig .tc := ⟨.hbm, 594, rfl⟩
abbrev main_call17_v4 : Ref sig .tc := ⟨.hbm, 595, rfl⟩
abbrev main_call17_v5 : Ref sig .tc := ⟨.hbm, 596, rfl⟩
abbrev main_call17_c_1 : Ref sig .tc := ⟨.hbm, 597, rfl⟩
abbrev main_call17_c_2 : Ref sig .tc := ⟨.hbm, 598, rfl⟩
abbrev main_call17_v6 : Ref sig .tc := ⟨.hbm, 599, rfl⟩
abbrev main_call17_v7 : Ref sig .tc := ⟨.hbm, 600, rfl⟩
abbrev main_call17_v8 : Ref sig .tc := ⟨.hbm, 601, rfl⟩
abbrev main_call17_v9 : Ref sig .tc := ⟨.hbm, 602, rfl⟩
abbrev main_call17_v10 : Ref sig .tc := ⟨.hbm, 603, rfl⟩
abbrev main_call17_v11 : Ref sig .tc := ⟨.hbm, 604, rfl⟩
abbrev main_call17_c_3 : Ref sig .tc := ⟨.hbm, 605, rfl⟩
abbrev main_call17_v12 : Ref sig .tc := ⟨.hbm, 606, rfl⟩
abbrev main_call17_v13 : Ref sig .tc := ⟨.hbm, 607, rfl⟩
abbrev main_call17_v14 : Ref sig .tc := ⟨.hbm, 608, rfl⟩
abbrev main_call17_cst : Ref sig .tc := ⟨.hbm, 609, rfl⟩
abbrev main_call17_v15 : Ref sig .tc := ⟨.hbm, 610, rfl⟩
abbrev main_v280 : Ref sig .tc := ⟨.hbm, 611, rfl⟩
abbrev main_call18_c : Ref sig .tc := ⟨.hbm, 612, rfl⟩
abbrev main_call18_v0 : Ref sig .tc := ⟨.hbm, 613, rfl⟩
abbrev main_call18_v1 : Ref sig .tc := ⟨.hbm, 614, rfl⟩
abbrev main_call18_c_0 : Ref sig .tc := ⟨.hbm, 615, rfl⟩
abbrev main_call18_v2 : Ref sig .tc := ⟨.hbm, 616, rfl⟩
abbrev main_call18_v3 : Ref sig .tc := ⟨.hbm, 617, rfl⟩
abbrev main_call18_v4 : Ref sig .tc := ⟨.hbm, 618, rfl⟩
abbrev main_call18_v5 : Ref sig .tc := ⟨.hbm, 619, rfl⟩
abbrev main_call18_c_1 : Ref sig .tc := ⟨.hbm, 620, rfl⟩
abbrev main_call18_c_2 : Ref sig .tc := ⟨.hbm, 621, rfl⟩
abbrev main_call18_v6 : Ref sig .tc := ⟨.hbm, 622, rfl⟩
abbrev main_call18_v7 : Ref sig .tc := ⟨.hbm, 623, rfl⟩
abbrev main_call18_v8 : Ref sig .tc := ⟨.hbm, 624, rfl⟩
abbrev main_call18_v9 : Ref sig .tc := ⟨.hbm, 625, rfl⟩
abbrev main_call18_v10 : Ref sig .tc := ⟨.hbm, 626, rfl⟩
abbrev main_call18_v11 : Ref sig .tc := ⟨.hbm, 627, rfl⟩
abbrev main_call18_c_3 : Ref sig .tc := ⟨.hbm, 628, rfl⟩
abbrev main_call18_v12 : Ref sig .tc := ⟨.hbm, 629, rfl⟩
abbrev main_call18_v13 : Ref sig .tc := ⟨.hbm, 630, rfl⟩
abbrev main_call18_v14 : Ref sig .tc := ⟨.hbm, 631, rfl⟩
abbrev main_call18_cst : Ref sig .tc := ⟨.hbm, 632, rfl⟩
abbrev main_call18_v15 : Ref sig .tc := ⟨.hbm, 633, rfl⟩
abbrev main_v281 : Ref sig .tc := ⟨.hbm, 634, rfl⟩
abbrev main_v282 : Ref sig .tc := ⟨.hbm, 635, rfl⟩
abbrev main_v283 : Ref sig .tc := ⟨.hbm, 636, rfl⟩
abbrev main_v284 : Ref sig .tc := ⟨.hbm, 637, rfl⟩
abbrev main_v285 : Ref sig .tc := ⟨.hbm, 638, rfl⟩
abbrev main_v286 : Ref sig .tc := ⟨.hbm, 639, rfl⟩
abbrev main_v287 : Ref sig .tc := ⟨.hbm, 640, rfl⟩
abbrev main_v288 : Ref sig .tc := ⟨.hbm, 641, rfl⟩
abbrev main_v289 : Ref sig .tc := ⟨.hbm, 642, rfl⟩
abbrev main_v290 : Ref sig .tc := ⟨.hbm, 643, rfl⟩
abbrev main_v291 : Ref sig .tc := ⟨.hbm, 644, rfl⟩
abbrev main_v292 : Ref sig .tc := ⟨.hbm, 645, rfl⟩
abbrev main_v293 : Ref sig .tc := ⟨.hbm, 646, rfl⟩
abbrev main_v294 : Ref sig .tc := ⟨.hbm, 647, rfl⟩
abbrev main_v295 : Ref sig .tc := ⟨.hbm, 648, rfl⟩
abbrev main_v296 : Ref sig .tc := ⟨.hbm, 649, rfl⟩
abbrev main_v297 : Ref sig .tc := ⟨.hbm, 650, rfl⟩
abbrev main_v298 : Ref sig .tc := ⟨.hbm, 651, rfl⟩
abbrev main_v299 : Ref sig .tc := ⟨.hbm, 652, rfl⟩
abbrev main_v300 : Ref sig .tc := ⟨.hbm, 653, rfl⟩
abbrev main_v301 : Ref sig .tc := ⟨.hbm, 654, rfl⟩
abbrev main_v302 : Ref sig .tc := ⟨.hbm, 655, rfl⟩
abbrev main_v303 : Ref sig .tc := ⟨.hbm, 656, rfl⟩
abbrev main_v304 : Ref sig .tc := ⟨.hbm, 657, rfl⟩
abbrev main_v305 : Ref sig .tc := ⟨.hbm, 658, rfl⟩
abbrev main_v306 : Ref sig .tc := ⟨.hbm, 659, rfl⟩
abbrev main_v307 : Ref sig .tc := ⟨.hbm, 660, rfl⟩
abbrev main_v308 : Ref sig .tc := ⟨.hbm, 661, rfl⟩
abbrev main_v309 : Ref sig .tc := ⟨.hbm, 662, rfl⟩
abbrev main_v310 : Ref sig .tc := ⟨.hbm, 663, rfl⟩
abbrev main_v311 : Ref sig .tc := ⟨.hbm, 664, rfl⟩
abbrev main_v312 : Ref sig .tc := ⟨.hbm, 665, rfl⟩
abbrev main_v313 : Ref sig .tc := ⟨.hbm, 666, rfl⟩
abbrev main_v314 : Ref sig .tc := ⟨.hbm, 667, rfl⟩
abbrev main_v315 : Ref sig .tc := ⟨.hbm, 668, rfl⟩
abbrev main_v316 : Ref sig .tc := ⟨.hbm, 669, rfl⟩
abbrev main_v317 : Ref sig .tc := ⟨.hbm, 670, rfl⟩
abbrev main_v318 : Ref sig .tc := ⟨.hbm, 671, rfl⟩
abbrev main_v319 : Ref sig .tc := ⟨.hbm, 672, rfl⟩
abbrev main_v320 : Ref sig .tc := ⟨.hbm, 673, rfl⟩
abbrev main_v321 : Ref sig .tc := ⟨.hbm, 674, rfl⟩
abbrev main_v322 : Ref sig .tc := ⟨.hbm, 675, rfl⟩
abbrev main_v323 : Ref sig .tc := ⟨.hbm, 676, rfl⟩
abbrev main_v324 : Ref sig .tc := ⟨.hbm, 677, rfl⟩
abbrev main_v325 : Ref sig .tc := ⟨.hbm, 678, rfl⟩
abbrev main_v326 : Ref sig .tc := ⟨.hbm, 679, rfl⟩
abbrev main_v327 : Ref sig .tc := ⟨.hbm, 680, rfl⟩
abbrev main_v328 : Ref sig .tc := ⟨.hbm, 681, rfl⟩
abbrev main_v329 : Ref sig .tc := ⟨.hbm, 682, rfl⟩
abbrev main_v330 : Ref sig .tc := ⟨.hbm, 683, rfl⟩
abbrev main_v331 : Ref sig .tc := ⟨.hbm, 684, rfl⟩
abbrev main_v332 : Ref sig .tc := ⟨.hbm, 685, rfl⟩
abbrev main_v333 : Ref sig .tc := ⟨.hbm, 686, rfl⟩
abbrev main_v334 : Ref sig .tc := ⟨.hbm, 687, rfl⟩
abbrev main_v335 : Ref sig .tc := ⟨.hbm, 688, rfl⟩
abbrev main_v336 : Ref sig .tc := ⟨.hbm, 689, rfl⟩
abbrev main_v337 : Ref sig .tc := ⟨.hbm, 690, rfl⟩
abbrev main_v338 : Ref sig .tc := ⟨.hbm, 691, rfl⟩
abbrev main_v339 : Ref sig .tc := ⟨.hbm, 692, rfl⟩
abbrev main_v340 : Ref sig .tc := ⟨.hbm, 693, rfl⟩
abbrev main_v341 : Ref sig .tc := ⟨.hbm, 694, rfl⟩
abbrev main_v342 : Ref sig .tc := ⟨.hbm, 695, rfl⟩
abbrev main_v343 : Ref sig .tc := ⟨.hbm, 696, rfl⟩
abbrev main_v344 : Ref sig .tc := ⟨.hbm, 697, rfl⟩
abbrev main_v345 : Ref sig .tc := ⟨.hbm, 698, rfl⟩
abbrev main_v346 : Ref sig .tc := ⟨.hbm, 699, rfl⟩
abbrev main_v347 : Ref sig .tc := ⟨.hbm, 700, rfl⟩
abbrev main_v348 : Ref sig .tc := ⟨.hbm, 701, rfl⟩
abbrev main_v349 : Ref sig .tc := ⟨.hbm, 702, rfl⟩
abbrev main_v350 : Ref sig .tc := ⟨.hbm, 703, rfl⟩
abbrev main_v351 : Ref sig .tc := ⟨.hbm, 704, rfl⟩
abbrev main_v352 : Ref sig .tc := ⟨.hbm, 705, rfl⟩
abbrev main_v353 : Ref sig .tc := ⟨.hbm, 706, rfl⟩
abbrev main_v354 : Ref sig .tc := ⟨.hbm, 707, rfl⟩
abbrev main_v355 : Ref sig .tc := ⟨.hbm, 708, rfl⟩
abbrev main_v356 : Ref sig .tc := ⟨.hbm, 709, rfl⟩
abbrev main_v357 : Ref sig .tc := ⟨.hbm, 710, rfl⟩
abbrev main_v358 : Ref sig .tc := ⟨.hbm, 711, rfl⟩
abbrev main_v359 : Ref sig .tc := ⟨.hbm, 712, rfl⟩
abbrev main_v360 : Ref sig .tc := ⟨.hbm, 713, rfl⟩
abbrev main_v361 : Ref sig .tc := ⟨.hbm, 714, rfl⟩
abbrev main_v362 : Ref sig .tc := ⟨.hbm, 715, rfl⟩
abbrev main_v363 : Ref sig .tc := ⟨.hbm, 716, rfl⟩
abbrev main_v364 : Ref sig .tc := ⟨.hbm, 717, rfl⟩
abbrev main_v365 : Ref sig .tc := ⟨.hbm, 718, rfl⟩
abbrev main_v366 : Ref sig .tc := ⟨.hbm, 719, rfl⟩
abbrev main_v367 : Ref sig .tc := ⟨.hbm, 720, rfl⟩
abbrev main_v368 : Ref sig .tc := ⟨.hbm, 721, rfl⟩
abbrev main_v369 : Ref sig .tc := ⟨.hbm, 722, rfl⟩
abbrev main_v370 : Ref sig .tc := ⟨.hbm, 723, rfl⟩
abbrev main_v371 : Ref sig .tc := ⟨.hbm, 724, rfl⟩
abbrev main_v372 : Ref sig .tc := ⟨.hbm, 725, rfl⟩
abbrev main_v373 : Ref sig .tc := ⟨.hbm, 726, rfl⟩
abbrev main_v374 : Ref sig .tc := ⟨.hbm, 727, rfl⟩
abbrev main_v375 : Ref sig .tc := ⟨.hbm, 728, rfl⟩
abbrev main_v376 : Ref sig .tc := ⟨.hbm, 729, rfl⟩
abbrev main_v377 : Ref sig .tc := ⟨.hbm, 730, rfl⟩
abbrev main_v378 : Ref sig .tc := ⟨.hbm, 731, rfl⟩
abbrev main_v379 : Ref sig .tc := ⟨.hbm, 732, rfl⟩
abbrev main_v380 : Ref sig .tc := ⟨.hbm, 733, rfl⟩
abbrev main_v381 : Ref sig .tc := ⟨.hbm, 734, rfl⟩
abbrev main_v382 : Ref sig .tc := ⟨.hbm, 735, rfl⟩
abbrev main_v383 : Ref sig .tc := ⟨.hbm, 736, rfl⟩
abbrev main_v384 : Ref sig .tc := ⟨.hbm, 737, rfl⟩
abbrev main_v385 : Ref sig .tc := ⟨.hbm, 738, rfl⟩
abbrev main_v386 : Ref sig .tc := ⟨.hbm, 739, rfl⟩
abbrev main_v387 : Ref sig .tc := ⟨.hbm, 740, rfl⟩
abbrev main_call19_v0 : Ref sig .tc := ⟨.hbm, 741, rfl⟩
abbrev main_call19_cst : Ref sig .tc := ⟨.hbm, 742, rfl⟩
abbrev main_call19_v1 : Ref sig .tc := ⟨.hbm, 743, rfl⟩
abbrev main_call19_v2 : Ref sig .tc := ⟨.hbm, 744, rfl⟩
abbrev main_v388 : Ref sig .tc := ⟨.hbm, 745, rfl⟩
abbrev main_cst_8 : Ref sig .tc := ⟨.hbm, 746, rfl⟩
abbrev main_v389 : Ref sig .tc := ⟨.hbm, 747, rfl⟩
abbrev main_v390 : Ref sig .tc := ⟨.hbm, 748, rfl⟩
abbrev main_v391 : Ref sig .tc := ⟨.hbm, 749, rfl⟩
abbrev main_v392 : Ref sig .tc := ⟨.hbm, 750, rfl⟩
abbrev main_v393 : Ref sig .tc := ⟨.hbm, 751, rfl⟩
abbrev main_v394 : Ref sig .tc := ⟨.hbm, 752, rfl⟩
abbrev main_v395 : Ref sig .tc := ⟨.hbm, 753, rfl⟩
abbrev main_v396 : Ref sig .tc := ⟨.hbm, 754, rfl⟩
abbrev main_v397 : Ref sig .tc := ⟨.hbm, 755, rfl⟩
abbrev main_v398 : Ref sig .tc := ⟨.hbm, 756, rfl⟩
abbrev main_v399 : Ref sig .tc := ⟨.hbm, 757, rfl⟩
abbrev main_cst_9 : Ref sig .tc := ⟨.hbm, 758, rfl⟩
abbrev main_v400 : Ref sig .tc := ⟨.hbm, 759, rfl⟩
abbrev main_v401 : Ref sig .tc := ⟨.hbm, 760, rfl⟩
abbrev main_v402 : Ref sig .tc := ⟨.hbm, 761, rfl⟩
abbrev main_v403 : Ref sig .tc := ⟨.hbm, 762, rfl⟩
abbrev main_v404 : Ref sig .tc := ⟨.hbm, 763, rfl⟩
abbrev main_v405 : Ref sig .tc := ⟨.hbm, 764, rfl⟩
abbrev main_cst_10 : Ref sig .tc := ⟨.hbm, 765, rfl⟩
abbrev main_v406 : Ref sig .tc := ⟨.hbm, 766, rfl⟩
abbrev main_v407 : Ref sig .tc := ⟨.hbm, 767, rfl⟩
abbrev main_v408 : Ref sig .tc := ⟨.hbm, 768, rfl⟩
abbrev main_v409 : Ref sig .tc := ⟨.hbm, 769, rfl⟩
abbrev main_v410 : Ref sig .tc := ⟨.hbm, 770, rfl⟩
abbrev main_v411 : Ref sig .tc := ⟨.hbm, 771, rfl⟩
abbrev main_cst_11 : Ref sig .tc := ⟨.hbm, 772, rfl⟩
abbrev main_v412 : Ref sig .tc := ⟨.hbm, 773, rfl⟩
abbrev main_cst_12 : Ref sig .tc := ⟨.hbm, 774, rfl⟩
abbrev main_v413 : Ref sig .tc := ⟨.hbm, 775, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc3_stg8_0 : Ref sig .tc := ⟨.vmem, 48, rfl⟩
abbrev cc3_stg8_1 : Ref sig .tc := ⟨.vmem, 49, rfl⟩
abbrev cc3_stg9_0 : Ref sig .tc := ⟨.vmem, 50, rfl⟩
abbrev cc3_stg9_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem7_1 : DmaSem sig := 47
abbrev cc3_sem8_0 : DmaSem sig := 48
abbrev cc3_sem8_1 : DmaSem sig := 49
abbrev cc3_sem9_0 : DmaSem sig := 50
abbrev cc3_sem9_1 : DmaSem sig := 51

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x132 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x132 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x132 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S396x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x132 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S388x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S768x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S768x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000x1 : S_.BroadcastsInDim S200000x1 (![] : Fin 0 → Fin S200000x1.rank)
  bcast_S_S10000x1 : S_.BroadcastsInDim S10000x1 (![] : Fin 0 → Fin S10000x1.rank)
  bcast_S200000_S200000x1_0 : S200000.BroadcastsInDim S200000x1 (![0] : Fin 1 → Fin S200000x1.rank)
  bcast_S_S200000 : S_.BroadcastsInDim S200000 (![] : Fin 0 → Fin S200000.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x4_0 : S200000.BroadcastsInDim S200000x4 (![0] : Fin 1 → Fin S200000x4.rank)
  bcast_S_S200000x4 : S_.BroadcastsInDim S200000x4 (![] : Fin 0 → Fin S200000x4.rank)
  slices_S200000x4_S200000x1_0_0 : S200000x4.Slices ![0, 0] S200000x1
  slices_S200000x4_S200000x3_0_1 : S200000x4.Slices ![0, 1] S200000x3
  concatenates_S200000x1_S200000x3_S200000x4_d1 : Shape.Concatenates [S200000x1, S200000x3] S200000x4 1
  shapeCasts_S200000x1_S200000 : S200000x1.ShapeCasts S200000
  slices_S200000x4_S200000x1_0_1 : S200000x4.Slices ![0, 1] S200000x1
  slices_S200000x4_S200000x1_0_2 : S200000x4.Slices ![0, 2] S200000x1
  slices_S200000x4_S200000x1_0_3 : S200000x4.Slices ![0, 3] S200000x1
  concatenates_S200000x1_S200000x1_S200000x1_S200000x1_S200000x4_d1 : Shape.Concatenates [S200000x1, S200000x1, S200000x1, S200000x1] S200000x4 1
  concatenates_S10000x128_S10000x4_S10000x132_d1 : Shape.Concatenates [S10000x128, S10000x4] S10000x132 1
  concatenates_S200000x128_S200000x4_S200000x132_d1 : Shape.Concatenates [S200000x128, S200000x4] S200000x132 1
  bcast_S200000_S200000x132_0 : S200000.BroadcastsInDim S200000x132 (![0] : Fin 1 → Fin S200000x132.rank)
  bcast_S_S200000x132 : S_.BroadcastsInDim S200000x132 (![] : Fin 0 → Fin S200000x132.rank)
  bitsLt_bf16_f32 : FTy.bits .bf16 < FTy.bits .f32
  shapeCasts_S128_S1x128 : S128.ShapeCasts S1x128
  inb_S2000x132_S2000x132_0_0 : ∀ a, (![0, 0] : Fin 2 → Nat) a + S2000x132.size a ≤ S2000x132.size a
  h_S2000x132 : 0 < S2000x132.numel
  shapeCasts_S2000x132_S2000x132 : S2000x132.ShapeCasts S2000x132
  concatenates_S2000x132_S2000x132_S2000x132_S2000x396_d1 : Shape.Concatenates [S2000x132, S2000x132, S2000x132] S2000x396 1
  inb_S396x128_S396x128_0_0 : ∀ a, (![0, 0] : Fin 2 → Nat) a + S396x128.size a ≤ S396x128.size a
  h_S396x128 : 0 < S396x128.numel
  shapeCasts_S396x128_S396x128 : S396x128.ShapeCasts S396x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  concatenates_S200000x4_S200000x128_S200000x132_d1 : Shape.Concatenates [S200000x4, S200000x128] S200000x132 1
  bcast_S200000_S200000x128_0 : S200000.BroadcastsInDim S200000x128 (![0] : Fin 1 → Fin S200000x128.rank)
  bcast_S_S200000x128 : S_.BroadcastsInDim S200000x128 (![] : Fin 0 → Fin S200000x128.rank)
  shapeCasts_S2000x128_S2000x128 : S2000x128.ShapeCasts S2000x128
  concatenates_S2000x128_S2000x128_S2000x132_S2000x388_d1 : Shape.Concatenates [S2000x128, S2000x128, S2000x132] S2000x388 1
  inb_S388x128_S388x128_0_0 : ∀ a, (![0, 0] : Fin 2 → Nat) a + S388x128.size a ≤ S388x128.size a
  h_S388x128 : 0 < S388x128.numel
  shapeCasts_S388x128_S388x128 : S388x128.ShapeCasts S388x128
  concatenates_S10000x128_S10000x128_S10000x256_d1 : Shape.Concatenates [S10000x128, S10000x128] S10000x256 1
  concatenates_S200000x128_S200000x128_S200000x256_d1 : Shape.Concatenates [S200000x128, S200000x128] S200000x256 1
  bcast_S200000_S200000x256_0 : S200000.BroadcastsInDim S200000x256 (![0] : Fin 1 → Fin S200000x256.rank)
  bcast_S_S200000x256 : S_.BroadcastsInDim S200000x256 (![] : Fin 0 → Fin S200000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  concatenates_S2000x256_S2000x256_S2000x256_S2000x768_d1 : Shape.Concatenates [S2000x256, S2000x256, S2000x256] S2000x768 1
  inb_S768x128_S768x128_0_0 : ∀ a, (![0, 0] : Fin 2 → Nat) a + S768x128.size a ≤ S768x128.size a
  h_S768x128 : 0 < S768x128.numel
  shapeCasts_S768x128_S768x128 : S768x128.ShapeCasts S768x128
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  bcast_S4_S1x4_1 : S4.BroadcastsInDim S1x4 (![1] : Fin 1 → Fin S1x4.rank)
  bcast_S1x4_S10000x4_0_1 : S1x4.BroadcastsInDim S10000x4 (![0, 1] : Fin 2 → Fin S10000x4.rank)
  slices_S10000x4_S10000x1_0_0 : S10000x4.Slices ![0, 0] S10000x1
  shapeCasts_S10000x1_S10000 : S10000x1.ShapeCasts S10000
  slices_S10000x4_S10000x1_0_1 : S10000x4.Slices ![0, 1] S10000x1
  slices_S10000x4_S10000x1_0_2 : S10000x4.Slices ![0, 2] S10000x1
  slices_S10000x4_S10000x1_0_3 : S10000x4.Slices ![0, 3] S10000x1
  bcast_S10000_S10000x1_0 : S10000.BroadcastsInDim S10000x1 (![0] : Fin 1 → Fin S10000x1.rank)
  concatenates_S10000x1_S10000x1_S10000x1_S10000x1_S10000x4_d1 : Shape.Concatenates [S10000x1, S10000x1, S10000x1, S10000x1] S10000x4 1
  reducesTo_S10000x4_S10000_d1 : S10000x4.ReducesTo [1] S10000
  bcast_S10000x1_S10000x4_0_1 : S10000x1.BroadcastsInDim S10000x4 (![0, 1] : Fin 2 → Fin S10000x4.rank)
  reducesTo_S200000x4_S200000_d1 : S200000x4.ReducesTo [1] S200000
  bcast_S200000x1_S200000x4_0_1 : S200000x1.BroadcastsInDim S200000x4 (![0, 1] : Fin 2 → Fin S200000x4.rank)
  bcast_S1x4_S200000x4_0_1 : S1x4.BroadcastsInDim S200000x4 (![0, 1] : Fin 2 → Fin S200000x4.rank)
  bcast_S1x1_S200000x4_0_1 : S1x1.BroadcastsInDim S200000x4 (![0, 1] : Fin 2 → Fin S200000x4.rank)
  bcast_S_S1 : S_.BroadcastsInDim S1 (![] : Fin 0 → Fin S1.rank)
  reducesTo_S200000x4_S_d0_1 : S200000x4.ReducesTo [0, 1] S_
  scatter_S10000x1_S200000x1_S200000x1_1_0_0_1_wf : ScatterDims.WF S10000x1 S200000x1 S200000x1 [1] [0] [0] 1
  gather_S10000x4_S200000x1_S200000x4_1_0_n_n_0_1_14_wf : GatherDims.WF S10000x4 S200000x1 S200000x4 [1] [0] [] [0] [] 1 ![1, 4]
  gather_S10000x132_S200000x1_S200000x132_1_0_n_n_0_1_1132_wf : GatherDims.WF S10000x132 S200000x1 S200000x132 [1] [0] [] [0] [] 1 ![1, 132]
  dot_S2000x396_S396x128_S2000x128_1_0_0_1_n_n_wf : DotDims.WF S2000x396 S396x128 S2000x128 [1] [0] [0] [1] [] []
  scatter_S10000x128_S200000x1_S200000x128_1_0_0_1_wf : ScatterDims.WF S10000x128 S200000x1 S200000x128 [1] [0] [0] 1
  gather_S10000x128_S200000x1_S200000x128_1_0_n_n_0_1_1128_wf : GatherDims.WF S10000x128 S200000x1 S200000x128 [1] [0] [] [0] [] 1 ![1, 128]
  dot_S2000x388_S388x128_S2000x128_1_0_0_1_n_n_wf : DotDims.WF S2000x388 S388x128 S2000x128 [1] [0] [0] [1] [] []
  gather_S10000x256_S200000x1_S200000x256_1_0_n_n_0_1_1256_wf : GatherDims.WF S10000x256 S200000x1 S200000x256 [1] [0] [] [0] [] 1 ![1, 256]
  dot_S2000x768_S768x128_S2000x128_1_0_0_1_n_n_wf : DotDims.WF S2000x768 S768x128 S2000x128 [1] [0] [0] [1] [] []
  dot_S2000x128_S128x1_S2000x1_1_0_0_1_n_n_wf : DotDims.WF S2000x128 S128x1 S2000x1 [1] [0] [0] [1] [] []
  dot_S10000x128_S128x4_S10000x4_1_0_0_1_n_n_wf : DotDims.WF S10000x128 S128x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x132.size a ≤ S200000x132.size a
  hwx0_0 : ∀ i : grid0.Coords, EltTy.bits .f32 = 32 ∨ (Rect.block (s := S200000x132) S2000x132.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x132.size a ≤ S200000x132.size a
  hwx0_1 : ∀ i : grid0.Coords, EltTy.bits .f32 = 32 ∨ (Rect.block (s := S200000x132) S2000x132.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x132.size a ≤ S200000x132.size a
  hwx0_2 : ∀ i : grid0.Coords, EltTy.bits .f32 = 32 ∨ (Rect.block (s := S200000x132) S2000x132.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S396x128.size a ≤ S396x128.size a
  hwx0_3 : ∀ i : grid0.Coords, EltTy.bits .bf16 = 32 ∨ (Rect.block (s := S396x128) S396x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S200000x128.size a
  hwx0_5 : ∀ i : grid0.Coords, EltTy.bits .f32 = 32 ∨ (Rect.block (s := S200000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S200000x128.size a
  hwx0_6 : ∀ i : grid0.Coords, EltTy.bits .f32 = 32 ∨ (Rect.block (s := S200000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .f32 = 32 ∨ (Rect.block (s := S200000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S200000x128.size a
  hwx1_1 : ∀ i : grid1.Coords, EltTy.bits .f32 = 32 ∨ (Rect.block (s := S200000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x132.size a ≤ S200000x132.size a
  hwx1_2 : ∀ i : grid1.Coords, EltTy.bits .f32 = 32 ∨ (Rect.block (s := S200000x132) S2000x132.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S388x128.size a ≤ S388x128.size a
  hwx1_3 : ∀ i : grid1.Coords, EltTy.bits .bf16 = 32 ∨ (Rect.block (s := S388x128) S388x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S200000x128.size a
  hwx1_5 : ∀ i : grid1.Coords, EltTy.bits .f32 = 32 ∨ (Rect.block (s := S200000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S200000x128.size a
  hwx1_6 : ∀ i : grid1.Coords, EltTy.bits .f32 = 32 ∨ (Rect.block (s := S200000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .f32 = 32 ∨ (Rect.block (s := S200000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S200000x256.size a
  hwx2_1 : ∀ i : grid2.Coords, EltTy.bits .f32 = 32 ∨ (Rect.block (s := S200000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S200000x256.size a
  hwx2_2 : ∀ i : grid2.Coords, EltTy.bits .f32 = 32 ∨ (Rect.block (s := S200000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768x128.size a ≤ S768x128.size a
  hwx2_3 : ∀ i : grid2.Coords, EltTy.bits .bf16 = 32 ∨ (Rect.block (s := S768x128) S768x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S200000x128.size a
  hwx2_5 : ∀ i : grid2.Coords, EltTy.bits .f32 = 32 ∨ (Rect.block (s := S200000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S200000x128.size a
  hwx2_6 : ∀ i : grid2.Coords, EltTy.bits .f32 = 32 ∨ (Rect.block (s := S200000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S200000x256.size a
  hwx3_1 : ∀ i : grid3.Coords, EltTy.bits .f32 = 32 ∨ (Rect.block (s := S200000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S200000x256.size a
  hwx3_2 : ∀ i : grid3.Coords, EltTy.bits .f32 = 32 ∨ (Rect.block (s := S200000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S768x128.size a ≤ S768x128.size a
  hwx3_3 : ∀ i : grid3.Coords, EltTy.bits .bf16 = 32 ∨ (Rect.block (s := S768x128) S768x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .bf16 = 32 ∨ (Rect.block (s := S128x1) S128x1.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S200000x128.size a
  hwx3_7 : ∀ i : grid3.Coords, EltTy.bits .f32 = 32 ∨ (Rect.block (s := S200000x128) S2000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S200000x128.size a
  hwx3_8 : ∀ i : grid3.Coords, EltTy.bits .f32 = 32 ∨ (Rect.block (s := S200000x128) S2000x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x1.size a ≤ S200000x1.size a
  hwx3_9 : ∀ i : grid3.Coords, EltTy.bits .f32 = 32 ∨ (Rect.block (s := S200000x1) S2000x1.size (cc3_transform_9 i) (hinb3_9 i)).WholeWords (EltTy.packing .f32)

variable [Facts₀]

def scatter_S10000x1_S200000x1_S200000x1_1_0_0_1 : ScatterDims S10000x1 S200000x1 S200000x1 where
  updateWindowDims := [1]
  insertedWindowDims := [0]
  scatterDimsToOperandDims := [0]
  indexVectorDim := 1
  wf := scatter_S10000x1_S200000x1_S200000x1_1_0_0_1_wf
def gather_S10000x4_S200000x1_S200000x4_1_0_n_n_0_1_14 : GatherDims S10000x4 S200000x1 S200000x4 where
  offsetDims := [1]
  collapsedSliceDims := [0]
  operandBatchingDims := []
  startIndicesBatchingDims := []
  startIndexMap := [0]
  indexVectorDim := 1
  sliceSizes := ![1, 4]
  wf := gather_S10000x4_S200000x1_S200000x4_1_0_n_n_0_1_14_wf
def gather_S10000x132_S200000x1_S200000x132_1_0_n_n_0_1_1132 : GatherDims S10000x132 S200000x1 S200000x132 where
  offsetDims := [1]
  collapsedSliceDims := [0]
  operandBatchingDims := []
  startIndicesBatchingDims := []
  startIndexMap := [0]
  indexVectorDim := 1
  sliceSizes := ![1, 132]
  wf := gather_S10000x132_S200000x1_S200000x132_1_0_n_n_0_1_1132_wf
def dot_S2000x396_S396x128_S2000x128_1_0_0_1_n_n : DotDims S2000x396 S396x128 S2000x128 where
  lhsContracting := [1]
  rhsContracting := [0]
  lhsNonContracting := [0]
  rhsNonContracting := [1]
  lhsBatch := []
  rhsBatch := []
  wf := dot_S2000x396_S396x128_S2000x128_1_0_0_1_n_n_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def dot_S2000x388_S388x128_S2000x128_1_0_0_1_n_n : DotDims S2000x388 S388x128 S2000x128 where
  lhsContracting := [1]
  rhsContracting := [0]
  lhsNonContracting := [0]
  rhsNonContracting := [1]
  lhsBatch := []
  rhsBatch := []
  wf := dot_S2000x388_S388x128_S2000x128_1_0_0_1_n_n_wf
def gather_S10000x256_S200000x1_S200000x256_1_0_n_n_0_1_1256 : GatherDims S10000x256 S200000x1 S200000x256 where
  offsetDims := [1]
  collapsedSliceDims := [0]
  operandBatchingDims := []
  startIndicesBatchingDims := []
  startIndexMap := [0]
  indexVectorDim := 1
  sliceSizes := ![1, 256]
  wf := gather_S10000x256_S200000x1_S200000x256_1_0_n_n_0_1_1256_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf

abbrev win0_0 : Pipeline.Window sig grid0 :=
  Pipeline.Window.ofSpec (Memref.whole main_v116) S2000x132.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v117) S2000x132.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v115) S2000x132.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v118) S396x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v119) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v120_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v120_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v128) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v129) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v127) S2000x132.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v130) S388x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v131) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v132_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v132_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v141) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v142) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v140) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v143) S768x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v144) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v145_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v145_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v154) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v155) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v153) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v156) S768x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v157) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v158) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v159) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v160_0) S2000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v160_1) S2000x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v160_2) S2000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S10000x4 : Shape := ⟨2, ![10000, 4]⟩
abbrev S200000x4 : Shape := ⟨2, ![200000, 4]⟩
abbrev S1 : Shape := ⟨1, ![1]⟩
abbrev S10000x128 : Shape := ⟨2, ![10000, 128]⟩
abbrev S200000x128 : Shape := ⟨2, ![200000, 128]⟩
abbrev S396x128 : Shape := ⟨2, ![396, 128]⟩
abbrev S128 : Shape := ⟨1, ![128]⟩
abbrev S388x128 : Shape := ⟨2, ![388, 128]⟩
abbrev S768x128 : Shape := ⟨2, ![768, 128]⟩
abbrev S128x4 : Shape := ⟨2, ![128, 4]⟩
abbrev S4 : Shape := ⟨1, ![4]⟩
abbrev S128x1 : Shape := ⟨2, ![128, 1]⟩
abbrev S2x200000 : Shape := ⟨2, ![2, 200000]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x3 : Shape := ⟨2, ![200000, 3]⟩
abbrev S10000x132 : Shape := ⟨2, ![10000, 132]⟩
abbrev S200000x132 : Shape := ⟨2, ![200000, 132]⟩
abbrev S200000x396 : Shape := ⟨2, ![200000, 396]⟩
abbrev S1x128 : Shape := ⟨2, ![1, 128]⟩
abbrev S10000x1 : Shape := ⟨2, ![10000, 1]⟩
abbrev S200000x388 : Shape := ⟨2, ![200000, 388]⟩
abbrev S10000x256 : Shape := ⟨2, ![10000, 256]⟩
abbrev S200000x256 : Shape := ⟨2, ![200000, 256]⟩
abbrev S200000x768 : Shape := ⟨2, ![200000, 768]⟩
abbrev S1x4 : Shape := ⟨2, ![1, 4]⟩
abbrev S10000 : Shape := ⟨1, ![10000]⟩
abbrev S1x1 : Shape := ⟨2, ![1, 1]⟩

abbrev nBuf : Space → Nat
  | .hbm => 624
  | .vmem => 0
  | .smem => 0
  | _ => 0

abbrev hbmTy0_0 (i : Nat) : BufTy := match i % 128 with
  | 0 => ⟨S10000x4, .f32⟩
  | 1 => ⟨S200000x4, .f32⟩
  | 2 => ⟨S10000x4, .f32⟩
  | 3 => ⟨S1, .f32⟩
  | 4 => ⟨S10000x128, .f32⟩
  | 5 => ⟨S200000x128, .f32⟩
  | 6 => ⟨S396x128, .f32⟩
  | 7 => ⟨S128, .f32⟩
  | 8 => ⟨S388x128, .f32⟩
  | 9 => ⟨S128, .f32⟩
  | 10 => ⟨S768x128, .f32⟩
  | 11 => ⟨S128, .f32⟩
  | 12 => ⟨S768x128, .f32⟩
  | 13 => ⟨S128, .f32⟩
  | 14 => ⟨S128x4, .f32⟩
  | 15 => ⟨S4, .f32⟩
  | 16 => ⟨S128x1, .f32⟩
  | 17 => ⟨S1, .f32⟩
  | 18 => ⟨S2x200000, .i32⟩
  | 19 => ⟨S4, .f32⟩
  | 20 => ⟨S1x200000, .i32⟩
  | 21 => ⟨S200000, .i32⟩
  | 22 => ⟨S1x200000, .i32⟩
  | 23 => ⟨S200000, .i32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x4, .f32⟩
  | 33 => ⟨S200000x1, .f32⟩
  | 34 => ⟨S200000x3, .f32⟩
  | 35 => ⟨S200000x3, .f32⟩
  | 36 => ⟨S200000x4, .f32⟩
  | 37 => ⟨S200000x1, .f32⟩
  | 38 => ⟨S200000, .f32⟩
  | 39 => ⟨S200000x1, .f32⟩
  | 40 => ⟨S200000, .f32⟩
  | 41 => ⟨S200000x1, .f32⟩
  | 42 => ⟨S200000, .f32⟩
  | 43 => ⟨S200000x1, .f32⟩
  | 44 => ⟨S200000, .f32⟩
  | 45 => ⟨S200000x1, .f32⟩
  | 46 => ⟨S200000, .f32⟩
  | 47 => ⟨S200000x1, .f32⟩
  | 48 => ⟨S200000, .f32⟩
  | 49 => ⟨S200000x1, .f32⟩
  | 50 => ⟨S200000, .f32⟩
  | 51 => ⟨S200000x1, .f32⟩
  | 52 => ⟨S200000, .f32⟩
  | 53 => ⟨S200000, .f32⟩
  | 54 => ⟨S200000, .f32⟩
  | 55 => ⟨S200000, .f32⟩
  | 56 => ⟨S200000, .f32⟩
  | 57 => ⟨S200000, .f32⟩
  | 58 => ⟨S200000, .f32⟩
  | 59 => ⟨S200000, .f32⟩
  | 60 => ⟨S200000, .f32⟩
  | 61 => ⟨S200000, .f32⟩
  | 62 => ⟨S200000, .f32⟩
  | 63 => ⟨S200000, .f32⟩
  | 64 => ⟨S200000, .f32⟩
  | 65 => ⟨S200000, .f32⟩
  | 66 => ⟨S200000, .f32⟩
  | 67 => ⟨S200000, .f32⟩
  | 68 => ⟨S200000, .f32⟩
  | 69 => ⟨S200000, .f32⟩
  | 70 => ⟨S200000, .f32⟩
  | 71 => ⟨S200000, .f32⟩
  | 72 => ⟨S200000, .f32⟩
  | 73 => ⟨S200000, .f32⟩
  | 74 => ⟨S200000, .f32⟩
  | 75 => ⟨S200000, .f32⟩
  | 76 => ⟨S200000, .f32⟩
  | 77 => ⟨S200000, .f32⟩
  | 78 => ⟨S200000, .f32⟩
  | 79 => ⟨S200000, .f32⟩
  | 80 => ⟨S200000, .f32⟩
  | 81 => ⟨S200000x1, .f32⟩
  | 82 => ⟨S200000x1, .f32⟩
  | 83 => ⟨S200000x1, .f32⟩
  | 84 => ⟨S200000x1, .f32⟩
  | 85 => ⟨S200000x4, .f32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S200000x4, .f32⟩
  | 95 => ⟨S200000x1, .f32⟩
  | 96 => ⟨S200000, .f32⟩
  | 97 => ⟨S200000x1, .f32⟩
  | 98 => ⟨S200000, .f32⟩
  | 99 => ⟨S200000x1, .f32⟩
  | 100 => ⟨S200000, .f32⟩
  | 101 => ⟨S200000x1, .f32⟩
  | 102 => ⟨S200000, .f32⟩
  | 103 => ⟨S200000x1, .f32⟩
  | 104 => ⟨S200000, .f32⟩
  | 105 => ⟨S200000x1, .f32⟩
  | 106 => ⟨S200000, .f32⟩
  | 107 => ⟨S200000x1, .f32⟩
  | 108 => ⟨S200000, .f32⟩
  | 109 => ⟨S200000x1, .f32⟩
  | 110 => ⟨S200000, .f32⟩
  | 111 => ⟨S200000, .f32⟩
  | 112 => ⟨S200000, .f32⟩
  | 113 => ⟨S200000, .f32⟩
  | 114 => ⟨S200000, .f32⟩
  | 115 => ⟨S200000, .f32⟩
  | 116 => ⟨S200000, .f32⟩
  | 117 => ⟨S200000, .f32⟩
  | 118 => ⟨S200000, .f32⟩
  | 119 => ⟨S200000, .f32⟩
  | 120 => ⟨S200000, .f32⟩
  | 121 => ⟨S200000, .f32⟩
  | 122 => ⟨S200000, .f32⟩
  | 123 => ⟨S200000, .f32⟩
  | 124 => ⟨S200000, .f32⟩
  | 125 => ⟨S200000, .f32⟩
  | 126 => ⟨S200000, .f32⟩
  | 127 => ⟨S200000, .f32⟩
  | _ => ⟨S10000x4, .f32⟩

abbrev hbmTy0_1 (i : Nat) : BufTy := match i % 128 with
  | 0 => ⟨S200000, .f32⟩
  | 1 => ⟨S200000, .f32⟩
  | 2 => ⟨S200000, .f32⟩
  | 3 => ⟨S200000, .f32⟩
  | 4 => ⟨S200000, .f32⟩
  | 5 => ⟨S200000, .f32⟩
  | 6 => ⟨S200000, .f32⟩
  | 7 => ⟨S200000, .f32⟩
  | 8 => ⟨S200000, .f32⟩
  | 9 => ⟨S200000, .f32⟩
  | 10 => ⟨S200000, .f32⟩
  | 11 => ⟨S200000x1, .f32⟩
  | 12 => ⟨S200000x1, .f32⟩
  | 13 => ⟨S200000x1, .f32⟩
  | 14 => ⟨S200000x1, .f32⟩
  | 15 => ⟨S200000x4, .f32⟩
  | 16 => ⟨S10000x132, .f32⟩
  | 17 => ⟨S200000x132, .f32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x132, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x132, .f32⟩
  | 36 => ⟨S200000x396, .f32⟩
  | 37 => ⟨S200000x128, .f32⟩
  | 38 => ⟨S1x128, .f32⟩
  | 39 => ⟨S200000x128, .f32⟩
  | 40 => ⟨S200000x128, .f32⟩
  | 41 => ⟨S_, .f32⟩
  | 42 => ⟨S10000x128, .f32⟩
  | 43 => ⟨S200000x1, .i32⟩
  | 44 => ⟨S10000x128, .f32⟩
  | 45 => ⟨S_, .f32⟩
  | 46 => ⟨S200000x1, .f32⟩
  | 47 => ⟨S_, .f32⟩
  | 48 => ⟨S10000x1, .f32⟩
  | 49 => ⟨S200000x1, .i32⟩
  | 50 => ⟨S10000x1, .f32⟩
  | 51 => ⟨S_, .f32⟩
  | 52 => ⟨S10000x1, .f32⟩
  | 53 => ⟨S10000x1, .f32⟩
  | 54 => ⟨S10000x128, .f32⟩
  | 55 => ⟨S10000x128, .f32⟩
  | 56 => ⟨S_, .f32⟩
  | 57 => ⟨S10000x128, .f32⟩
  | 58 => ⟨S10000x128, .f32⟩
  | 59 => ⟨S_, .f32⟩
  | 60 => ⟨S200000x128, .f32⟩
  | 61 => ⟨S200000x128, .f32⟩
  | 62 => ⟨S200000x132, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x128, .f32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000x128, .f32⟩
  | 81 => ⟨S200000x388, .f32⟩
  | 82 => ⟨S200000x128, .f32⟩
  | 83 => ⟨S1x128, .f32⟩
  | 84 => ⟨S200000x128, .f32⟩
  | 85 => ⟨S200000x128, .f32⟩
  | 86 => ⟨S_, .f32⟩
  | 87 => ⟨S10000x128, .f32⟩
  | 88 => ⟨S200000x1, .i32⟩
  | 89 => ⟨S10000x128, .f32⟩
  | 90 => ⟨S_, .f32⟩
  | 91 => ⟨S200000x1, .f32⟩
  | 92 => ⟨S_, .f32⟩
  | 93 => ⟨S10000x1, .f32⟩
  | 94 => ⟨S200000x1, .i32⟩
  | 95 => ⟨S10000x1, .f32⟩
  | 96 => ⟨S_, .f32⟩
  | 97 => ⟨S10000x1, .f32⟩
  | 98 => ⟨S10000x1, .f32⟩
  | 99 => ⟨S10000x128, .f32⟩
  | 100 => ⟨S10000x128, .f32⟩
  | 101 => ⟨S_, .f32⟩
  | 102 => ⟨S10000x128, .f32⟩
  | 103 => ⟨S10000x128, .f32⟩
  | 104 => ⟨S_, .f32⟩
  | 105 => ⟨S200000x128, .f32⟩
  | 106 => ⟨S200000x128, .f32⟩
  | 107 => ⟨S10000x256, .f32⟩
  | 108 => ⟨S200000x256, .f32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S200000x256, .f32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000x256, .f32⟩
  | 127 => ⟨S200000x768, .f32⟩
  | _ => ⟨S10000x4, .f32⟩

abbrev hbmTy0_2 (i : Nat) : BufTy := match i % 128 with
  | 0 => ⟨S200000x128, .f32⟩
  | 1 => ⟨S1x128, .f32⟩
  | 2 => ⟨S200000x128, .f32⟩
  | 3 => ⟨S200000x128, .f32⟩
  | 4 => ⟨S_, .f32⟩
  | 5 => ⟨S10000x128, .f32⟩
  | 6 => ⟨S200000x1, .i32⟩
  | 7 => ⟨S10000x128, .f32⟩
  | 8 => ⟨S_, .f32⟩
  | 9 => ⟨S200000x1, .f32⟩
  | 10 => ⟨S_, .f32⟩
  | 11 => ⟨S10000x1, .f32⟩
  | 12 => ⟨S200000x1, .i32⟩
  | 13 => ⟨S10000x1, .f32⟩
  | 14 => ⟨S_, .f32⟩
  | 15 => ⟨S10000x1, .f32⟩
  | 16 => ⟨S10000x1, .f32⟩
  | 17 => ⟨S10000x128, .f32⟩
  | 18 => ⟨S10000x128, .f32⟩
  | 19 => ⟨S_, .f32⟩
  | 20 => ⟨S10000x128, .f32⟩
  | 21 => ⟨S10000x128, .f32⟩
  | 22 => ⟨S_, .f32⟩
  | 23 => ⟨S200000x128, .f32⟩
  | 24 => ⟨S200000x128, .f32⟩
  | 25 => ⟨S10000x256, .f32⟩
  | 26 => ⟨S200000x256, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x256, .f32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x256, .f32⟩
  | 45 => ⟨S200000x768, .f32⟩
  | 46 => ⟨S200000x128, .f32⟩
  | 47 => ⟨S1x128, .f32⟩
  | 48 => ⟨S200000x128, .f32⟩
  | 49 => ⟨S200000x128, .f32⟩
  | 50 => ⟨S_, .f32⟩
  | 51 => ⟨S10000x128, .f32⟩
  | 52 => ⟨S200000x1, .i32⟩
  | 53 => ⟨S10000x128, .f32⟩
  | 54 => ⟨S_, .f32⟩
  | 55 => ⟨S200000x1, .f32⟩
  | 56 => ⟨S_, .f32⟩
  | 57 => ⟨S10000x1, .f32⟩
  | 58 => ⟨S200000x1, .i32⟩
  | 59 => ⟨S10000x1, .f32⟩
  | 60 => ⟨S_, .f32⟩
  | 61 => ⟨S10000x1, .f32⟩
  | 62 => ⟨S10000x1, .f32⟩
  | 63 => ⟨S10000x128, .f32⟩
  | 64 => ⟨S10000x128, .f32⟩
  | 65 => ⟨S_, .f32⟩
  | 66 => ⟨S10000x128, .f32⟩
  | 67 => ⟨S10000x128, .f32⟩
  | 68 => ⟨S_, .f32⟩
  | 69 => ⟨S200000x128, .f32⟩
  | 70 => ⟨S200000x128, .f32⟩
  | 71 => ⟨S10000x4, .f32⟩
  | 72 => ⟨S1x4, .f32⟩
  | 73 => ⟨S10000x4, .f32⟩
  | 74 => ⟨S10000x4, .f32⟩
  | 75 => ⟨S10000x1, .f32⟩
  | 76 => ⟨S10000, .f32⟩
  | 77 => ⟨S10000x1, .f32⟩
  | 78 => ⟨S10000, .f32⟩
  | 79 => ⟨S10000x1, .f32⟩
  | 80 => ⟨S10000, .f32⟩
  | 81 => ⟨S10000x1, .f32⟩
  | 82 => ⟨S10000, .f32⟩
  | 83 => ⟨S10000x1, .f32⟩
  | 84 => ⟨S10000, .f32⟩
  | 85 => ⟨S10000x1, .f32⟩
  | 86 => ⟨S10000, .f32⟩
  | 87 => ⟨S10000x1, .f32⟩
  | 88 => ⟨S10000, .f32⟩
  | 89 => ⟨S10000x1, .f32⟩
  | 90 => ⟨S10000, .f32⟩
  | 91 => ⟨S10000, .f32⟩
  | 92 => ⟨S10000, .f32⟩
  | 93 => ⟨S10000, .f32⟩
  | 94 => ⟨S10000, .f32⟩
  | 95 => ⟨S10000, .f32⟩
  | 96 => ⟨S10000, .f32⟩
  | 97 => ⟨S10000, .f32⟩
  | 98 => ⟨S10000, .f32⟩
  | 99 => ⟨S10000, .f32⟩
  | 100 => ⟨S10000, .f32⟩
  | 101 => ⟨S10000, .f32⟩
  | 102 => ⟨S10000, .f32⟩
  | 103 => ⟨S10000, .f32⟩
  | 104 => ⟨S10000, .f32⟩
  | 105 => ⟨S10000, .f32⟩
  | 106 => ⟨S10000, .f32⟩
  | 107 => ⟨S10000, .f32⟩
  | 108 => ⟨S10000, .f32⟩
  | 109 => ⟨S10000, .f32⟩
  | 110 => ⟨S10000, .f32⟩
  | 111 => ⟨S10000, .f32⟩
  | 112 => ⟨S10000, .f32⟩
  | 113 => ⟨S10000, .f32⟩
  | 114 => ⟨S10000, .f32⟩
  | 115 => ⟨S10000, .f32⟩
  | 116 => ⟨S10000, .f32⟩
  | 117 => ⟨S10000, .f32⟩
  | 118 => ⟨S10000, .f32⟩
  | 119 => ⟨S10000x1, .f32⟩
  | 120 => ⟨S10000x1, .f32⟩
  | 121 => ⟨S10000x1, .f32⟩
  | 122 => ⟨S10000x1, .f32⟩
  | 123 => ⟨S10000x4, .f32⟩
  | 124 => ⟨S10000x4, .f32⟩
  | 125 => ⟨S_, .f32⟩
  | 126 => ⟨S10000, .f32⟩
  | 127 => ⟨S10000x1, .f32⟩
  | _ => ⟨S10000x4, .f32⟩

abbrev hbmTy0_3 (i : Nat) : BufTy := match i % 128 with
  | 0 => ⟨S10000x1, .f32⟩
  | 1 => ⟨S_, .f32⟩
  | 2 => ⟨S10000x1, .f32⟩
  | 3 => ⟨S10000x1, .f32⟩
  | 4 => ⟨S10000x4, .f32⟩
  | 5 => ⟨S10000x4, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x4, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x4, .f32⟩
  | 24 => ⟨S200000x1, .f32⟩
  | 25 => ⟨S200000x3, .f32⟩
  | 26 => ⟨S200000x3, .f32⟩
  | 27 => ⟨S200000x4, .f32⟩
  | 28 => ⟨S200000x1, .f32⟩
  | 29 => ⟨S200000, .f32⟩
  | 30 => ⟨S200000x1, .f32⟩
  | 31 => ⟨S200000, .f32⟩
  | 32 => ⟨S200000x1, .f32⟩
  | 33 => ⟨S200000, .f32⟩
  | 34 => ⟨S200000x1, .f32⟩
  | 35 => ⟨S200000, .f32⟩
  | 36 => ⟨S200000x1, .f32⟩
  | 37 => ⟨S200000, .f32⟩
  | 38 => ⟨S200000x1, .f32⟩
  | 39 => ⟨S200000, .f32⟩
  | 40 => ⟨S200000x1, .f32⟩
  | 41 => ⟨S200000, .f32⟩
  | 42 => ⟨S200000x1, .f32⟩
  | 43 => ⟨S200000, .f32⟩
  | 44 => ⟨S200000, .f32⟩
  | 45 => ⟨S200000, .f32⟩
  | 46 => ⟨S200000, .f32⟩
  | 47 => ⟨S200000, .f32⟩
  | 48 => ⟨S200000, .f32⟩
  | 49 => ⟨S200000, .f32⟩
  | 50 => ⟨S200000, .f32⟩
  | 51 => ⟨S200000, .f32⟩
  | 52 => ⟨S200000, .f32⟩
  | 53 => ⟨S200000, .f32⟩
  | 54 => ⟨S200000, .f32⟩
  | 55 => ⟨S200000, .f32⟩
  | 56 => ⟨S200000, .f32⟩
  | 57 => ⟨S200000, .f32⟩
  | 58 => ⟨S200000, .f32⟩
  | 59 => ⟨S200000, .f32⟩
  | 60 => ⟨S200000, .f32⟩
  | 61 => ⟨S200000, .f32⟩
  | 62 => ⟨S200000, .f32⟩
  | 63 => ⟨S200000, .f32⟩
  | 64 => ⟨S200000, .f32⟩
  | 65 => ⟨S200000, .f32⟩
  | 66 => ⟨S200000, .f32⟩
  | 67 => ⟨S200000, .f32⟩
  | 68 => ⟨S200000, .f32⟩
  | 69 => ⟨S200000, .f32⟩
  | 70 => ⟨S200000, .f32⟩
  | 71 => ⟨S200000, .f32⟩
  | 72 => ⟨S200000x1, .f32⟩
  | 73 => ⟨S200000x1, .f32⟩
  | 74 => ⟨S200000x1, .f32⟩
  | 75 => ⟨S200000x1, .f32⟩
  | 76 => ⟨S200000x4, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x4, .f32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S200000x4, .f32⟩
  | 95 => ⟨S200000x1, .f32⟩
  | 96 => ⟨S200000x3, .f32⟩
  | 97 => ⟨S200000x3, .f32⟩
  | 98 => ⟨S200000x4, .f32⟩
  | 99 => ⟨S200000x1, .f32⟩
  | 100 => ⟨S200000, .f32⟩
  | 101 => ⟨S200000x1, .f32⟩
  | 102 => ⟨S200000, .f32⟩
  | 103 => ⟨S200000x1, .f32⟩
  | 104 => ⟨S200000, .f32⟩
  | 105 => ⟨S200000x1, .f32⟩
  | 106 => ⟨S200000, .f32⟩
  | 107 => ⟨S200000x1, .f32⟩
  | 108 => ⟨S200000, .f32⟩
  | 109 => ⟨S200000x1, .f32⟩
  | 110 => ⟨S200000, .f32⟩
  | 111 => ⟨S200000x1, .f32⟩
  | 112 => ⟨S200000, .f32⟩
  | 113 => ⟨S200000x1, .f32⟩
  | 114 => ⟨S200000, .f32⟩
  | 115 => ⟨S200000, .f32⟩
  | 116 => ⟨S200000, .f32⟩
  | 117 => ⟨S200000, .f32⟩
  | 118 => ⟨S200000, .f32⟩
  | 119 => ⟨S200000, .f32⟩
  | 120 => ⟨S200000, .f32⟩
  | 121 => ⟨S200000, .f32⟩
  | 122 => ⟨S200000, .f32⟩
  | 123 => ⟨S200000, .f32⟩
  | 124 => ⟨S200000, .f32⟩
  | 125 => ⟨S200000, .f32⟩
  | 126 => ⟨S200000, .f32⟩
  | 127 => ⟨S200000, .f32⟩
  | _ => ⟨S10000x4, .f32⟩

abbrev hbmTy0_4 (i : Nat) : BufTy := match i % 128 with
  | 0 => ⟨S200000, .f32⟩
  | 1 => ⟨S200000, .f32⟩
  | 2 => ⟨S200000, .f32⟩
  | 3 => ⟨S200000, .f32⟩
  | 4 => ⟨S200000, .f32⟩
  | 5 => ⟨S200000, .f32⟩
  | 6 => ⟨S200000, .f32⟩
  | 7 => ⟨S200000, .f32⟩
  | 8 => ⟨S200000, .f32⟩
  | 9 => ⟨S200000, .f32⟩
  | 10 => ⟨S200000, .f32⟩
  | 11 => ⟨S200000, .f32⟩
  | 12 => ⟨S200000, .f32⟩
  | 13 => ⟨S200000, .f32⟩
  | 14 => ⟨S200000, .f32⟩
  | 15 => ⟨S200000x1, .f32⟩
  | 16 => ⟨S200000x1, .f32⟩
  | 17 => ⟨S200000x1, .f32⟩
  | 18 => ⟨S200000x1, .f32⟩
  | 19 => ⟨S200000x4, .f32⟩
  | 20 => ⟨S200000x1, .f32⟩
  | 21 => ⟨S200000x3, .f32⟩
  | 22 => ⟨S200000x3, .f32⟩
  | 23 => ⟨S200000x4, .f32⟩
  | 24 => ⟨S200000x1, .f32⟩
  | 25 => ⟨S200000, .f32⟩
  | 26 => ⟨S200000x1, .f32⟩
  | 27 => ⟨S200000, .f32⟩
  | 28 => ⟨S200000x1, .f32⟩
  | 29 => ⟨S200000, .f32⟩
  | 30 => ⟨S200000x1, .f32⟩
  | 31 => ⟨S200000, .f32⟩
  | 32 => ⟨S200000x1, .f32⟩
  | 33 => ⟨S200000, .f32⟩
  | 34 => ⟨S200000x1, .f32⟩
  | 35 => ⟨S200000, .f32⟩
  | 36 => ⟨S200000x1, .f32⟩
  | 37 => ⟨S200000, .f32⟩
  | 38 => ⟨S200000x1, .f32⟩
  | 39 => ⟨S200000, .f32⟩
  | 40 => ⟨S200000, .f32⟩
  | 41 => ⟨S200000, .f32⟩
  | 42 => ⟨S200000, .f32⟩
  | 43 => ⟨S200000, .f32⟩
  | 44 => ⟨S200000, .f32⟩
  | 45 => ⟨S200000, .f32⟩
  | 46 => ⟨S200000, .f32⟩
  | 47 => ⟨S200000, .f32⟩
  | 48 => ⟨S200000, .f32⟩
  | 49 => ⟨S200000, .f32⟩
  | 50 => ⟨S200000, .f32⟩
  | 51 => ⟨S200000, .f32⟩
  | 52 => ⟨S200000, .f32⟩
  | 53 => ⟨S200000, .f32⟩
  | 54 => ⟨S200000, .f32⟩
  | 55 => ⟨S200000, .f32⟩
  | 56 => ⟨S200000, .f32⟩
  | 57 => ⟨S200000, .f32⟩
  | 58 => ⟨S200000, .f32⟩
  | 59 => ⟨S200000, .f32⟩
  | 60 => ⟨S200000, .f32⟩
  | 61 => ⟨S200000, .f32⟩
  | 62 => ⟨S200000, .f32⟩
  | 63 => ⟨S200000, .f32⟩
  | 64 => ⟨S200000, .f32⟩
  | 65 => ⟨S200000, .f32⟩
  | 66 => ⟨S200000, .f32⟩
  | 67 => ⟨S200000, .f32⟩
  | 68 => ⟨S200000x1, .f32⟩
  | 69 => ⟨S200000x1, .f32⟩
  | 70 => ⟨S200000x1, .f32⟩
  | 71 => ⟨S200000x1, .f32⟩
  | 72 => ⟨S200000x4, .f32⟩
  | 73 => ⟨S200000x4, .f32⟩
  | 74 => ⟨S_, .f32⟩
  | 75 => ⟨S200000, .f32⟩
  | 76 => ⟨S200000x1, .f32⟩
  | 77 => ⟨S200000x1, .f32⟩
  | 78 => ⟨S_, .f32⟩
  | 79 => ⟨S200000x1, .f32⟩
  | 80 => ⟨S200000x1, .f32⟩
  | 81 => ⟨S200000x4, .f32⟩
  | 82 => ⟨S200000x4, .f32⟩
  | 83 => ⟨S1x4, .f32⟩
  | 84 => ⟨S200000x4, .f32⟩
  | 85 => ⟨S200000x4, .f32⟩
  | 86 => ⟨S200000x4, .f32⟩
  | 87 => ⟨S1x1, .f32⟩
  | 88 => ⟨S200000x4, .f32⟩
  | 89 => ⟨S200000x4, .i1⟩
  | 90 => ⟨S_, .f32⟩
  | 91 => ⟨S200000x4, .f32⟩
  | 92 => ⟨S200000x4, .f32⟩
  | 93 => ⟨S200000x4, .f32⟩
  | 94 => ⟨S1x1, .f32⟩
  | 95 => ⟨S200000x4, .f32⟩
  | 96 => ⟨S200000x4, .f32⟩
  | 97 => ⟨S_, .f32⟩
  | 98 => ⟨S1, .f32⟩
  | 99 => ⟨S1, .f32⟩
  | 100 => ⟨S1x1, .f32⟩
  | 101 => ⟨S200000x4, .f32⟩
  | 102 => ⟨S200000x4, .f32⟩
  | 103 => ⟨S200000x4, .f32⟩
  | 104 => ⟨S_, .f32⟩
  | 105 => ⟨S_, .f32⟩
  | 106 => ⟨S_, .f32⟩
  | 107 => ⟨S_, .f32⟩
  | 108 => ⟨S200000x1, .f32⟩
  | 109 => ⟨S1x1, .f32⟩
  | 110 => ⟨S200000x1, .f32⟩
  | 111 => ⟨S200000x1, .f32⟩
  | _ => ⟨S10000x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x4, .f32⟩

abbrev bufTy : (tb : Table) → Fin (tcTables nBuf tb) → BufTy
  | .hbm, ⟨i, _⟩ => hbmTy i
  | _, _ => ⟨S10000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_1 : Ref sig .tc := ⟨.hbm, 86, rfl⟩
abbrev main_v64 : Ref sig .tc := ⟨.hbm, 87, rfl⟩
abbrev main_v65 : Ref sig .tc := ⟨.hbm, 88, rfl⟩
abbrev main_c_2 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_c_3 : Ref sig .tc := ⟨.hbm, 146, rfl⟩
abbrev main_v122 : Ref sig .tc := ⟨.hbm, 147, rfl⟩
abbrev main_v123 : Ref sig .tc := ⟨.hbm, 148, rfl⟩
abbrev main_c_4 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_c_5 : Ref sig .tc := ⟨.hbm, 155, rfl⟩
abbrev main_v129 : Ref sig .tc := ⟨.hbm, 156, rfl⟩
abbrev main_v130 : Ref sig .tc := ⟨.hbm, 157, rfl⟩
abbrev main_c_6 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_7 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_8 : Ref sig .tc := ⟨.hbm, 173, rfl⟩
abbrev main_v144 : Ref sig .tc := ⟨.hbm, 174, rfl⟩
abbrev main_cst_9 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_10 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_call0_cst : Ref sig .tc := ⟨.hbm, 184, rfl⟩
abbrev main_call0_v0 : Ref sig .tc := ⟨.hbm, 185, rfl⟩
abbrev main_v152 : Ref sig .tc := ⟨.hbm, 186, rfl⟩
abbrev main_call1_cst : Ref sig .tc := ⟨.hbm, 187, rfl⟩
abbrev main_call1_v0 : Ref sig .tc := ⟨.hbm, 188, rfl⟩
abbrev main_v153 : Ref sig .tc := ⟨.hbm, 189, rfl⟩
abbrev main_v154 : Ref sig .tc := ⟨.hbm, 190, rfl⟩
abbrev main_c_11 : Ref sig .tc := ⟨.hbm, 191, rfl⟩
abbrev main_v155 : Ref sig .tc := ⟨.hbm, 192, rfl⟩
abbrev main_v156 : Ref sig .tc := ⟨.hbm, 193, rfl⟩
abbrev main_c_12 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_c_13 : Ref sig .tc := ⟨.hbm, 200, rfl⟩
abbrev main_v162 : Ref sig .tc := ⟨.hbm, 201, rfl⟩
abbrev main_v163 : Ref sig .tc := ⟨.hbm, 202, rfl⟩
abbrev main_c_14 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_cst_15 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_cst_16 : Ref sig .tc := ⟨.hbm, 218, rfl⟩
abbrev main_v177 : Ref sig .tc := ⟨.hbm, 219, rfl⟩
abbrev main_cst_17 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_cst_18 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_call2_cst : Ref sig .tc := ⟨.hbm, 229, rfl⟩
abbrev main_call2_v0 : Ref sig .tc := ⟨.hbm, 230, rfl⟩
abbrev main_v185 : Ref sig .tc := ⟨.hbm, 231, rfl⟩
abbrev main_call3_cst : Ref sig .tc := ⟨.hbm, 232, rfl⟩
abbrev main_call3_v0 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_c_19 : Ref sig .tc := ⟨.hbm, 237, rfl⟩
abbrev main_v189 : Ref sig .tc := ⟨.hbm, 238, rfl⟩
abbrev main_v190 : Ref sig .tc := ⟨.hbm, 239, rfl⟩
abbrev main_c_20 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_c_21 : Ref sig .tc := ⟨.hbm, 246, rfl⟩
abbrev main_v196 : Ref sig .tc := ⟨.hbm, 247, rfl⟩
abbrev main_v197 : Ref sig .tc := ⟨.hbm, 248, rfl⟩
abbrev main_c_22 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_cst_23 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_cst_24 : Ref sig .tc := ⟨.hbm, 264, rfl⟩
abbrev main_v211 : Ref sig .tc := ⟨.hbm, 265, rfl⟩
abbrev main_cst_25 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_cst_26 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_call4_cst : Ref sig .tc := ⟨.hbm, 275, rfl⟩
abbrev main_call4_v0 : Ref sig .tc := ⟨.hbm, 276, rfl⟩
abbrev main_v219 : Ref sig .tc := ⟨.hbm, 277, rfl⟩
abbrev main_call5_cst : Ref sig .tc := ⟨.hbm, 278, rfl⟩
abbrev main_call5_v0 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_c_27 : Ref sig .tc := ⟨.hbm, 283, rfl⟩
abbrev main_v223 : Ref sig .tc := ⟨.hbm, 284, rfl⟩
abbrev main_v224 : Ref sig .tc := ⟨.hbm, 285, rfl⟩
abbrev main_c_28 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_c_29 : Ref sig .tc := ⟨.hbm, 292, rfl⟩
abbrev main_v230 : Ref sig .tc := ⟨.hbm, 293, rfl⟩
abbrev main_v231 : Ref sig .tc := ⟨.hbm, 294, rfl⟩
abbrev main_c_30 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_cst_31 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_cst_32 : Ref sig .tc := ⟨.hbm, 310, rfl⟩
abbrev main_v245 : Ref sig .tc := ⟨.hbm, 311, rfl⟩
abbrev main_cst_33 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_cst_34 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_call6_cst : Ref sig .tc := ⟨.hbm, 321, rfl⟩
abbrev main_call6_v0 : Ref sig .tc := ⟨.hbm, 322, rfl⟩
abbrev main_v253 : Ref sig .tc := ⟨.hbm, 323, rfl⟩
abbrev main_call7_cst : Ref sig .tc := ⟨.hbm, 324, rfl⟩
abbrev main_call7_v0 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_call8_v0 : Ref sig .tc := ⟨.hbm, 380, rfl⟩
abbrev main_call8_cst : Ref sig .tc := ⟨.hbm, 381, rfl⟩
abbrev main_call8_v1 : Ref sig .tc := ⟨.hbm, 382, rfl⟩
abbrev main_call8_v2 : Ref sig .tc := ⟨.hbm, 383, rfl⟩
abbrev main_v308 : Ref sig .tc := ⟨.hbm, 384, rfl⟩
abbrev main_cst_35 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_c_36 : Ref sig .tc := ⟨.hbm, 390, rfl⟩
abbrev main_v313 : Ref sig .tc := ⟨.hbm, 391, rfl⟩
abbrev main_v314 : Ref sig .tc := ⟨.hbm, 392, rfl⟩
abbrev main_c_37 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_v318 : Ref sig .tc := ⟨.hbm, 397, rfl⟩
abbrev main_v319 : Ref sig .tc := ⟨.hbm, 398, rfl⟩
abbrev main_c_38 : Ref sig .tc := ⟨.hbm, 399, rfl⟩
abbrev main_v320 : Ref sig .tc := ⟨.hbm, 400, rfl⟩
abbrev main_v321 : Ref sig .tc := ⟨.hbm, 401, rfl⟩
abbrev main_c_39 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_v350 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_v359 : Ref sig .tc := ⟨.hbm, 440, rfl⟩
abbrev main_v360 : Ref sig .tc := ⟨.hbm, 441, rfl⟩
abbrev main_v361 : Ref sig .tc := ⟨.hbm, 442, rfl⟩
abbrev main_v362 : Ref sig .tc := ⟨.hbm, 443, rfl⟩
abbrev main_v363 : Ref sig .tc := ⟨.hbm, 444, rfl⟩
abbrev main_v364 : Ref sig .tc := ⟨.hbm, 445, rfl⟩
abbrev main_v365 : Ref sig .tc := ⟨.hbm, 446, rfl⟩
abbrev main_v366 : Ref sig .tc := ⟨.hbm, 447, rfl⟩
abbrev main_v367 : Ref sig .tc := ⟨.hbm, 448, rfl⟩
abbrev main_v368 : Ref sig .tc := ⟨.hbm, 449, rfl⟩
abbrev main_v369 : Ref sig .tc := ⟨.hbm, 450, rfl⟩
abbrev main_v370 : Ref sig .tc := ⟨.hbm, 451, rfl⟩
abbrev main_v371 : Ref sig .tc := ⟨.hbm, 452, rfl⟩
abbrev main_v372 : Ref sig .tc := ⟨.hbm, 453, rfl⟩
abbrev main_v373 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_c_40 : Ref sig .tc := ⟨.hbm, 461, rfl⟩
abbrev main_v380 : Ref sig .tc := ⟨.hbm, 462, rfl⟩
abbrev main_v381 : Ref sig .tc := ⟨.hbm, 463, rfl⟩
abbrev main_c_41 : Ref sig .tc := ⟨.hbm, 464, rfl⟩
abbrev main_v382 : Ref sig .tc := ⟨.hbm, 465, rfl⟩
abbrev main_v383 : Ref sig .tc := ⟨.hbm, 466, rfl⟩
abbrev main_v384 : Ref sig .tc := ⟨.hbm, 467, rfl⟩
abbrev main_v385 : Ref sig .tc := ⟨.hbm, 468, rfl⟩
abbrev main_v386 : Ref sig .tc := ⟨.hbm, 469, rfl⟩
abbrev main_c_42 : Ref sig .tc := ⟨.hbm, 470, rfl⟩
abbrev main_v387 : Ref sig .tc := ⟨.hbm, 471, rfl⟩
abbrev main_v388 : Ref sig .tc := ⟨.hbm, 472, rfl⟩
abbrev main_c_43 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_v392 : Ref sig .tc := ⟨.hbm, 477, rfl⟩
abbrev main_v393 : Ref sig .tc := ⟨.hbm, 478, rfl⟩
abbrev main_v394 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_v399 : Ref sig .tc := ⟨.hbm, 484, rfl⟩
abbrev main_v400 : Ref sig .tc := ⟨.hbm, 485, rfl⟩
abbrev main_v401 : Ref sig .tc := ⟨.hbm, 486, rfl⟩
abbrev main_v402 : Ref sig .tc := ⟨.hbm, 487, rfl⟩
abbrev main_v403 : Ref sig .tc := ⟨.hbm, 488, rfl⟩
abbrev main_v404 : Ref sig .tc := ⟨.hbm, 489, rfl⟩
abbrev main_v405 : Ref sig .tc := ⟨.hbm, 490, rfl⟩
abbrev main_v406 : Ref sig .tc := ⟨.hbm, 491, rfl⟩
abbrev main_v407 : Ref sig .tc := ⟨.hbm, 492, rfl⟩
abbrev main_v408 : Ref sig .tc := ⟨.hbm, 493, rfl⟩
abbrev main_v409 : Ref sig .tc := ⟨.hbm, 494, rfl⟩
abbrev main_v410 : Ref sig .tc := ⟨.hbm, 495, rfl⟩
abbrev main_v411 : Ref sig .tc := ⟨.hbm, 496, rfl⟩
abbrev main_v412 : Ref sig .tc := ⟨.hbm, 497, rfl⟩
abbrev main_v413 : Ref sig .tc := ⟨.hbm, 498, rfl⟩
abbrev main_v414 : Ref sig .tc := ⟨.hbm, 499, rfl⟩
abbrev main_v415 : Ref sig .tc := ⟨.hbm, 500, rfl⟩
abbrev main_v416 : Ref sig .tc := ⟨.hbm, 501, rfl⟩
abbrev main_v417 : Ref sig .tc := ⟨.hbm, 502, rfl⟩
abbrev main_v418 : Ref sig .tc := ⟨.hbm, 503, rfl⟩
abbrev main_v419 : Ref sig .tc := ⟨.hbm, 504, rfl⟩
abbrev main_v420 : Ref sig .tc := ⟨.hbm, 505, rfl⟩
abbrev main_v421 : Ref sig .tc := ⟨.hbm, 506, rfl⟩
abbrev main_v422 : Ref sig .tc := ⟨.hbm, 507, rfl⟩
abbrev main_v423 : Ref sig .tc := ⟨.hbm, 508, rfl⟩
abbrev main_v424 : Ref sig .tc := ⟨.hbm, 509, rfl⟩
abbrev main_v425 : Ref sig .tc := ⟨.hbm, 510, rfl⟩
abbrev main_v426 : Ref sig .tc := ⟨.hbm, 511, rfl⟩
abbrev main_v427 : Ref sig .tc := ⟨.hbm, 512, rfl⟩
abbrev main_v428 : Ref sig .tc := ⟨.hbm, 513, rfl⟩
abbrev main_v429 : Ref sig .tc := ⟨.hbm, 514, rfl⟩
abbrev main_v430 : Ref sig .tc := ⟨.hbm, 515, rfl⟩
abbrev main_v431 : Ref sig .tc := ⟨.hbm, 516, rfl⟩
abbrev main_v432 : Ref sig .tc := ⟨.hbm, 517, rfl⟩
abbrev main_v433 : Ref sig .tc := ⟨.hbm, 518, rfl⟩
abbrev main_v434 : Ref sig .tc := ⟨.hbm, 519, rfl⟩
abbrev main_v435 : Ref sig .tc := ⟨.hbm, 520, rfl⟩
abbrev main_v436 : Ref sig .tc := ⟨.hbm, 521, rfl⟩
abbrev main_v437 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_v445 : Ref sig .tc := ⟨.hbm, 530, rfl⟩
abbrev main_v446 : Ref sig .tc := ⟨.hbm, 531, rfl⟩
abbrev main_v447 : Ref sig .tc := ⟨.hbm, 532, rfl⟩
abbrev main_v448 : Ref sig .tc := ⟨.hbm, 533, rfl⟩
abbrev main_v449 : Ref sig .tc := ⟨.hbm, 534, rfl⟩
abbrev main_v450 : Ref sig .tc := ⟨.hbm, 535, rfl⟩
abbrev main_v451 : Ref sig .tc := ⟨.hbm, 536, rfl⟩
abbrev main_v452 : Ref sig .tc := ⟨.hbm, 537, rfl⟩
abbrev main_v453 : Ref sig .tc := ⟨.hbm, 538, rfl⟩
abbrev main_v454 : Ref sig .tc := ⟨.hbm, 539, rfl⟩
abbrev main_v455 : Ref sig .tc := ⟨.hbm, 540, rfl⟩
abbrev main_v456 : Ref sig .tc := ⟨.hbm, 541, rfl⟩
abbrev main_v457 : Ref sig .tc := ⟨.hbm, 542, rfl⟩
abbrev main_v458 : Ref sig .tc := ⟨.hbm, 543, rfl⟩
abbrev main_v459 : Ref sig .tc := ⟨.hbm, 544, rfl⟩
abbrev main_v460 : Ref sig .tc := ⟨.hbm, 545, rfl⟩
abbrev main_v461 : Ref sig .tc := ⟨.hbm, 546, rfl⟩
abbrev main_v462 : Ref sig .tc := ⟨.hbm, 547, rfl⟩
abbrev main_v463 : Ref sig .tc := ⟨.hbm, 548, rfl⟩
abbrev main_v464 : Ref sig .tc := ⟨.hbm, 549, rfl⟩
abbrev main_v465 : Ref sig .tc := ⟨.hbm, 550, rfl⟩
abbrev main_v466 : Ref sig .tc := ⟨.hbm, 551, rfl⟩
abbrev main_v467 : Ref sig .tc := ⟨.hbm, 552, rfl⟩
abbrev main_v468 : Ref sig .tc := ⟨.hbm, 553, rfl⟩
abbrev main_v469 : Ref sig .tc := ⟨.hbm, 554, rfl⟩
abbrev main_v470 : Ref sig .tc := ⟨.hbm, 555, rfl⟩
abbrev main_v471 : Ref sig .tc := ⟨.hbm, 556, rfl⟩
abbrev main_v472 : Ref sig .tc := ⟨.hbm, 557, rfl⟩
abbrev main_v473 : Ref sig .tc := ⟨.hbm, 558, rfl⟩
abbrev main_v474 : Ref sig .tc := ⟨.hbm, 559, rfl⟩
abbrev main_v475 : Ref sig .tc := ⟨.hbm, 560, rfl⟩
abbrev main_v476 : Ref sig .tc := ⟨.hbm, 561, rfl⟩
abbrev main_v477 : Ref sig .tc := ⟨.hbm, 562, rfl⟩
abbrev main_v478 : Ref sig .tc := ⟨.hbm, 563, rfl⟩
abbrev main_v479 : Ref sig .tc := ⟨.hbm, 564, rfl⟩
abbrev main_v480 : Ref sig .tc := ⟨.hbm, 565, rfl⟩
abbrev main_v481 : Ref sig .tc := ⟨.hbm, 566, rfl⟩
abbrev main_v482 : Ref sig .tc := ⟨.hbm, 567, rfl⟩
abbrev main_v483 : Ref sig .tc := ⟨.hbm, 568, rfl⟩
abbrev main_v484 : Ref sig .tc := ⟨.hbm, 569, rfl⟩
abbrev main_v485 : Ref sig .tc := ⟨.hbm, 570, rfl⟩
abbrev main_v486 : Ref sig .tc := ⟨.hbm, 571, rfl⟩
abbrev main_v487 : Ref sig .tc := ⟨.hbm, 572, rfl⟩
abbrev main_v488 : Ref sig .tc := ⟨.hbm, 573, rfl⟩
abbrev main_v489 : Ref sig .tc := ⟨.hbm, 574, rfl⟩
abbrev main_v490 : Ref sig .tc := ⟨.hbm, 575, rfl⟩
abbrev main_v491 : Ref sig .tc := ⟨.hbm, 576, rfl⟩
abbrev main_v492 : Ref sig .tc := ⟨.hbm, 577, rfl⟩
abbrev main_v493 : Ref sig .tc := ⟨.hbm, 578, rfl⟩
abbrev main_v494 : Ref sig .tc := ⟨.hbm, 579, rfl⟩
abbrev main_v495 : Ref sig .tc := ⟨.hbm, 580, rfl⟩
abbrev main_v496 : Ref sig .tc := ⟨.hbm, 581, rfl⟩
abbrev main_v497 : Ref sig .tc := ⟨.hbm, 582, rfl⟩
abbrev main_v498 : Ref sig .tc := ⟨.hbm, 583, rfl⟩
abbrev main_v499 : Ref sig .tc := ⟨.hbm, 584, rfl⟩
abbrev main_call9_v0 : Ref sig .tc := ⟨.hbm, 585, rfl⟩
abbrev main_call9_cst : Ref sig .tc := ⟨.hbm, 586, rfl⟩
abbrev main_call9_v1 : Ref sig .tc := ⟨.hbm, 587, rfl⟩
abbrev main_call9_v2 : Ref sig .tc := ⟨.hbm, 588, rfl⟩
abbrev main_v500 : Ref sig .tc := ⟨.hbm, 589, rfl⟩
abbrev main_cst_44 : Ref sig .tc := ⟨.hbm, 590, rfl⟩
abbrev main_v501 : Ref sig .tc := ⟨.hbm, 591, rfl⟩
abbrev main_v502 : Ref sig .tc := ⟨.hbm, 592, rfl⟩
abbrev main_v503 : Ref sig .tc := ⟨.hbm, 593, rfl⟩
abbrev main_v504 : Ref sig .tc := ⟨.hbm, 594, rfl⟩
abbrev main_v505 : Ref sig .tc := ⟨.hbm, 595, rfl⟩
abbrev main_v506 : Ref sig .tc := ⟨.hbm, 596, rfl⟩
abbrev main_v507 : Ref sig .tc := ⟨.hbm, 597, rfl⟩
abbrev main_v508 : Ref sig .tc := ⟨.hbm, 598, rfl⟩
abbrev main_v509 : Ref sig .tc := ⟨.hbm, 599, rfl⟩
abbrev main_v510 : Ref sig .tc := ⟨.hbm, 600, rfl⟩
abbrev main_v511 : Ref sig .tc := ⟨.hbm, 601, rfl⟩
abbrev main_cst_45 : Ref sig .tc := ⟨.hbm, 602, rfl⟩
abbrev main_v512 : Ref sig .tc := ⟨.hbm, 603, rfl⟩
abbrev main_v513 : Ref sig .tc := ⟨.hbm, 604, rfl⟩
abbrev main_v514 : Ref sig .tc := ⟨.hbm, 605, rfl⟩
abbrev main_v515 : Ref sig .tc := ⟨.hbm, 606, rfl⟩
abbrev main_v516 : Ref sig .tc := ⟨.hbm, 607, rfl⟩
abbrev main_v517 : Ref sig .tc := ⟨.hbm, 608, rfl⟩
abbrev main_cst_46 : Ref sig .tc := ⟨.hbm, 609, rfl⟩
abbrev main_v518 : Ref sig .tc := ⟨.hbm, 610, rfl⟩
abbrev main_v519 : Ref sig .tc := ⟨.hbm, 611, rfl⟩
abbrev main_v520 : Ref sig .tc := ⟨.hbm, 612, rfl⟩
abbrev main_v521 : Ref sig .tc := ⟨.hbm, 613, rfl⟩
abbrev main_v522 : Ref sig .tc := ⟨.hbm, 614, rfl⟩
abbrev main_v523 : Ref sig .tc := ⟨.hbm, 615, rfl⟩
abbrev main_cst_47 : Ref sig .tc := ⟨.hbm, 616, rfl⟩
abbrev main_v524 : Ref sig .tc := ⟨.hbm, 617, rfl⟩
abbrev main_cst_48 : Ref sig .tc := ⟨.hbm, 618, rfl⟩
abbrev main_v525 : Ref sig .tc := ⟨.hbm, 619, rfl⟩
abbrev main_v526 : Ref sig .tc := ⟨.hbm, 620, rfl⟩
abbrev main_v527 : Ref sig .tc := ⟨.hbm, 621, rfl⟩
abbrev main_v528 : Ref sig .tc := ⟨.hbm, 622, rfl⟩
abbrev main_v529 : Ref sig .tc := ⟨.hbm, 623, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S200000x4_S200000x1_0_0 : S200000x4.Slices ![0, 0] S200000x1
  slices_S200000x4_S200000x3_0_1 : S200000x4.Slices ![0, 1] S200000x3
  concatenates_S200000x1_S200000x3_S200000x4_d1 : Shape.Concatenates [S200000x1, S200000x3] S200000x4 1
  shapeCasts_S200000x1_S200000 : S200000x1.ShapeCasts S200000
  slices_S200000x4_S200000x1_0_1 : S200000x4.Slices ![0, 1] S200000x1
  slices_S200000x4_S200000x1_0_2 : S200000x4.Slices ![0, 2] S200000x1
  slices_S200000x4_S200000x1_0_3 : S200000x4.Slices ![0, 3] S200000x1
  concatenates_S200000x1_S200000x1_S200000x1_S200000x1_S200000x4_d1 : Shape.Concatenates [S200000x1, S200000x1, S200000x1, S200000x1] S200000x4 1
  concatenates_S10000x128_S10000x4_S10000x132_d1 : Shape.Concatenates [S10000x128, S10000x4] S10000x132 1
  concatenates_S200000x128_S200000x4_S200000x132_d1 : Shape.Concatenates [S200000x128, S200000x4] S200000x132 1
  concatenates_S200000x132_S200000x132_S200000x132_S200000x396_d1 : Shape.Concatenates [S200000x132, S200000x132, S200000x132] S200000x396 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S10000x128 : S_.BroadcastsInDim S10000x128 (![] : Fin 0 → Fin S10000x128.rank)
  bcast_S_S200000x1 : S_.BroadcastsInDim S200000x1 (![] : Fin 0 → Fin S200000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S200000x128 : S_.BroadcastsInDim S200000x128 (![] : Fin 0 → Fin S200000x128.rank)
  concatenates_S200000x4_S200000x128_S200000x132_d1 : Shape.Concatenates [S200000x4, S200000x128] S200000x132 1
  concatenates_S200000x128_S200000x128_S200000x132_S200000x388_d1 : Shape.Concatenates [S200000x128, S200000x128, S200000x132] S200000x388 1
  concatenates_S10000x128_S10000x128_S10000x256_d1 : Shape.Concatenates [S10000x128, S10000x128] S10000x256 1
  concatenates_S200000x128_S200000x128_S200000x256_d1 : Shape.Concatenates [S200000x128, S200000x128] S200000x256 1
  concatenates_S200000x256_S200000x256_S200000x256_S200000x768_d1 : Shape.Concatenates [S200000x256, S200000x256, S200000x256] S200000x768 1
  bcast_S4_S1x4_1 : S4.BroadcastsInDim S1x4 (![1] : Fin 1 → Fin S1x4.rank)
  bcast_S1x4_S10000x4_0_1 : S1x4.BroadcastsInDim S10000x4 (![0, 1] : Fin 2 → Fin S10000x4.rank)
  slices_S10000x4_S10000x1_0_0 : S10000x4.Slices ![0, 0] S10000x1
  shapeCasts_S10000x1_S10000 : S10000x1.ShapeCasts S10000
  slices_S10000x4_S10000x1_0_1 : S10000x4.Slices ![0, 1] S10000x1
  slices_S10000x4_S10000x1_0_2 : S10000x4.Slices ![0, 2] S10000x1
  slices_S10000x4_S10000x1_0_3 : S10000x4.Slices ![0, 3] S10000x1
  bcast_S10000_S10000x1_0 : S10000.BroadcastsInDim S10000x1 (![0] : Fin 1 → Fin S10000x1.rank)
  concatenates_S10000x1_S10000x1_S10000x1_S10000x1_S10000x4_d1 : Shape.Concatenates [S10000x1, S10000x1, S10000x1, S10000x1] S10000x4 1
  reducesTo_S10000x4_S10000_d1 : S10000x4.ReducesTo [1] S10000
  h_S_ : 0 < S_.numel
  bcast_S10000x1_S10000x4_0_1 : S10000x1.BroadcastsInDim S10000x4 (![0, 1] : Fin 2 → Fin S10000x4.rank)
  reducesTo_S200000x4_S200000_d1 : S200000x4.ReducesTo [1] S200000
  bcast_S200000x1_S200000x4_0_1 : S200000x1.BroadcastsInDim S200000x4 (![0, 1] : Fin 2 → Fin S200000x4.rank)
  bcast_S1x4_S200000x4_0_1 : S1x4.BroadcastsInDim S200000x4 (![0, 1] : Fin 2 → Fin S200000x4.rank)
  bcast_S1_S1x1_1 : S1.BroadcastsInDim S1x1 (![1] : Fin 1 → Fin S1x1.rank)
  bcast_S1x1_S200000x4_0_1 : S1x1.BroadcastsInDim S200000x4 (![0, 1] : Fin 2 → Fin S200000x4.rank)
  bcast_S_S200000x4 : S_.BroadcastsInDim S200000x4 (![] : Fin 0 → Fin S200000x4.rank)
  bcast_S_S1 : S_.BroadcastsInDim S1 (![] : Fin 0 → Fin S1.rank)
  reducesTo_S200000x4_S_d0_1 : S200000x4.ReducesTo [0, 1] S_
  bcast_S1x1_S200000x1_0_1 : S1x1.BroadcastsInDim S200000x1 (![0, 1] : Fin 2 → Fin S200000x1.rank)
  gather_S10000x4_S200000x1_S200000x4_1_0_n_n_0_1_14_wf : GatherDims.WF S10000x4 S200000x1 S200000x4 [1] [0] [] [0] [] 1 ![1, 4]
  gather_S10000x132_S200000x1_S200000x132_1_0_n_n_0_1_1132_wf : GatherDims.WF S10000x132 S200000x1 S200000x132 [1] [0] [] [0] [] 1 ![1, 132]
  dot_S200000x396_S396x128_S200000x128_1_0_0_1_n_n_wf : DotDims.WF S200000x396 S396x128 S200000x128 [1] [0] [0] [1] [] []
  scatter_S10000x128_S200000x1_S200000x128_1_0_0_1_wf : ScatterDims.WF S10000x128 S200000x1 S200000x128 [1] [0] [0] 1
  scatter_S10000x1_S200000x1_S200000x1_1_0_0_1_wf : ScatterDims.WF S10000x1 S200000x1 S200000x1 [1] [0] [0] 1
  gather_S10000x128_S200000x1_S200000x128_1_0_n_n_0_1_1128_wf : GatherDims.WF S10000x128 S200000x1 S200000x128 [1] [0] [] [0] [] 1 ![1, 128]
  dot_S200000x388_S388x128_S200000x128_1_0_0_1_n_n_wf : DotDims.WF S200000x388 S388x128 S200000x128 [1] [0] [0] [1] [] []
  gather_S10000x256_S200000x1_S200000x256_1_0_n_n_0_1_1256_wf : GatherDims.WF S10000x256 S200000x1 S200000x256 [1] [0] [] [0] [] 1 ![1, 256]
  dot_S200000x768_S768x128_S200000x128_1_0_0_1_n_n_wf : DotDims.WF S200000x768 S768x128 S200000x128 [1] [0] [0] [1] [] []
  dot_S10000x128_S128x4_S10000x4_1_0_0_1_n_n_wf : DotDims.WF S10000x128 S128x4 S10000x4 [1] [0] [0] [1] [] []
  dot_S200000x128_S128x1_S200000x1_1_0_0_1_n_n_wf : DotDims.WF S200000x128 S128x1 S200000x1 [1] [0] [0] [1] [] []

variable [Facts₀]

def gather_S10000x4_S200000x1_S200000x4_1_0_n_n_0_1_14 : GatherDims S10000x4 S200000x1 S200000x4 where
  offsetDims := [1]
  collapsedSliceDims := [0]
  operandBatchingDims := []
  startIndicesBatchingDims := []
  startIndexMap := [0]
  indexVectorDim := 1
  sliceSizes := ![1, 4]
  wf := gather_S10000x4_S200000x1_S200000x4_1_0_n_n_0_1_14_wf
def gather_S10000x132_S200000x1_S200000x132_1_0_n_n_0_1_1132 : GatherDims S10000x132 S200000x1 S200000x132 where
  offsetDims := [1]
  collapsedSliceDims := [0]
  operandBatchingDims := []
  startIndicesBatchingDims := []
  startIndexMap := [0]
  indexVectorDim := 1
  sliceSizes := ![1, 132]
  wf := gather_S10000x132_S200000x1_S200000x132_1_0_n_n_0_1_1132_wf
def dot_S200000x396_S396x128_S200000x128_1_0_0_1_n_n : DotDims S200000x396 S396x128 S200000x128 where
  lhsContracting := [1]
  rhsContracting := [0]
  lhsNonContracting := [0]
  rhsNonContracting := [1]
  lhsBatch := []
  rhsBatch := []
  wf := dot_S200000x396_S396x128_S200000x128_1_0_0_1_n_n_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def scatter_S10000x1_S200000x1_S200000x1_1_0_0_1 : ScatterDims S10000x1 S200000x1 S200000x1 where
  updateWindowDims := [1]
  insertedWindowDims := [0]
  scatterDimsToOperandDims := [0]
  indexVectorDim := 1
  wf := scatter_S10000x1_S200000x1_S200000x1_1_0_0_1_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def dot_S200000x388_S388x128_S200000x128_1_0_0_1_n_n : DotDims S200000x388 S388x128 S200000x128 where
  lhsContracting := [1]
  rhsContracting := [0]
  lhsNonContracting := [0]
  rhsNonContracting := [1]
  lhsBatch := []
  rhsBatch := []
  wf := dot_S200000x388_S388x128_S200000x128_1_0_0_1_n_n_wf
def gather_S10000x256_S200000x1_S200000x256_1_0_n_n_0_1_1256 : GatherDims S10000x256 S200000x1 S200000x256 where
  offsetDims := [1]
  collapsedSliceDims := [0]
  operandBatchingDims := []
  startIndicesBatchingDims := []
  startIndexMap := [0]
  indexVectorDim := 1
  sliceSizes := ![1, 256]
  wf := gather_S10000x256_S200000x1_S200000x256_1_0_n_n_0_1_1256_wf
def dot_S200000x768_S768x128_S200000x128_1_0_0_1_n_n : DotDims S200000x768 S768x128 S200000x128 where
  lhsContracting := [1]
  rhsContracting := [0]
  lhsNonContracting := [0]
  rhsNonContracting := [1]
  lhsBatch := []
  rhsBatch := []
  wf := dot_S200000x768_S768x128_S200000x128_1_0_0_1_n_n_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KBReg0.lean ====
import proofs.«430033_j52948356825731_1_alg».proof.Proof.Gen.Kernel.Launch
import proofs.«430033_j52948356825731_1_alg».proof.Proof.Gen.Kernel.Skeleton
import proofs.«430033_j52948356825731_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the per-region half of the frame, at the contents `V` the region is entered with

The pipeline has seven windows. Windows 0, 1, 2 are row blocks of the three feature arrays; window 3 is the
whole weight matrix and window 4 the whole bias row, both with a block index that never moves; windows 5, 6
are row blocks of the two results. At a grid point the body reads the five input blocks whole and writes each
result block whole, so what it leaves in a result's buffer is a function of the five input blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read from the window's array as `V` gives it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- For proof data whose array of window 0 is `V`'s and whose body leaves that window's block in place, the
    window's current buffer holds the block at every grid point: at a point where the window is fetched, by the
    fetch; elsewhere because the block index is the previous point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- For proof data whose array of window 1 is `V`'s and whose body leaves that window's block in place, the
    window's current buffer holds the block at every grid point: at a point where the window is fetched, by the
    fetch; elsewhere because the block index is the previous point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- For proof data whose array of window 2 is `V`'s and whose body leaves that window's block in place, the
    window's current buffer holds the block at every grid point: at a point where the window is fetched, by the
    fetch; elsewhere because the block index is the previous point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- For proof data whose array of window 3 is `V`'s and whose body leaves that window's block in place, the
    window's current buffer holds the block at every grid point: at a point where the window is fetched, by the
    fetch; elsewhere because the block index is the previous point's (this window's index never moves: it is fetched once per sweep). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- For proof data whose array of window 4 is `V`'s and whose body leaves that window's block in place, the
    window's current buffer holds the block at every grid point: at a point where the window is fetched, by the
    fetch; elsewhere because the block index is the previous point's (this window's index never moves: it is fetched once per sweep). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

abbrev r0_0 : Rect S2000x132 := Rect.unit (s := S2000x132) ![0, 0] S2000x132.size inb_S2000x132_S2000x132_0_0
abbrev r0_1 : Rect S2000x132 := Rect.unit (s := S2000x132) ![0, 0] S2000x132.size inb_S2000x132_S2000x132_0_0
abbrev r0_2 : Rect S2000x132 := Rect.unit (s := S2000x132) ![0, 0] S2000x132.size inb_S2000x132_S2000x132_0_0
abbrev r0_3 : Rect S396x128 := Rect.unit (s := S396x128) ![0, 0] S396x128.size inb_S396x128_S396x128_0_0
abbrev r0_4 : Rect S1x128 := Rect.unit (s := S1x128) ![0, 0] S1x128.size inb_S1x128_S1x128_0_0
abbrev r0_o : Rect S2000x128 := Rect.unit (s := S2000x128) ![0, 0] S2000x128.size inb_S2000x128_S2000x128_0_0

/-! ## What the body leaves in each result window's buffer -/

/-- Window 5's buffer after the body, as a function of the five input blocks: one store, of the whole block. -/
def out0_5 (x0 : Vec F S2000x132 .f32) (x1 : Vec F S2000x132 .f32) (x2 : Vec F S2000x132 .f32) (x3 : Vec F S396x128 .bf16) (x4 : Vec F S1x128 .f32) : Vec F S2000x128 .f32 :=
  View.canon [⟨r0_o, k0_pay1 (View.ld x0 r0_0) (View.ld x1 r0_1) (View.ld x2 r0_2) (View.ld x3 r0_3) (View.ld x4 r0_4)⟩]

/-- Window 6's buffer after the body, likewise. -/
def out0_6 (x0 : Vec F S2000x132 .f32) (x1 : Vec F S2000x132 .f32) (x2 : Vec F S2000x132 .f32) (x3 : Vec F S396x128 .bf16) (x4 : Vec F S1x128 .f32) : Vec F S2000x128 .f32 :=
  View.canon [⟨r0_o, k0_pay2 (View.ld x0 r0_0) (View.ld x1 r0_1) (View.ld x2 r0_2) (View.ld x3 r0_3) (View.ld x4 r0_4)⟩]

/-- The one store is of the whole buffer, so it covers every index. -/
theorem cover0_o (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

/-! ## The body's triple -/

set_option maxHeartbeats 4000000 in
/-- The body on whole buffers, the five inputs' at contents `x0 … x4` and the two results' at anything, runs to a
    state with the inputs' buffers unchanged and the results' at `out0_5`, `out0_6` of the inputs: the loads return
    the buffers' contents, each result buffer is read (the value is not used) and then stored whole. -/
theorem sound_kernel0 (c : Dev nD) (E : Set ℕ) (i : grid0.Coords)
    (arg0 : Memref sig .tc .vmem S2000x132 .f32) (harg0 : arg0.IsWhole) (arg1 : Memref sig .tc .vmem S2000x132 .f32) (harg1 : arg1.IsWhole)
    (arg2 : Memref sig .tc .vmem S2000x132 .f32) (harg2 : arg2.IsWhole) (arg3 : Memref sig .tc .vmem S396x128 .bf16) (harg3 : arg3.IsWhole)
    (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x132 .f32) (x1 : Vec F S2000x132 .f32) (x2 : Vec F S2000x132 .f32) (x3 : Vec F S396x128 .bf16) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4) ∗ owns (c : Thread nD τ) arg6 fullShare (out0_6 x0 x1 x2 x3 x4)) -∗ K ⟨⟩))
      ⊢ wp frame (wpE (defs₀ (F := F)) Variants.none c none) E (cc0__edge_mlp_kernel i arg0 harg0 arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The pipeline's proof data -/

/-- Proof data of the pipeline on core `c`: the arrays as `V` gives them; after the body at point `t` each input's
    buffer holds its block and each result's holds `out0_5`, `out0_6` of the five input blocks; the invariant is the
    scoped rest and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic grid point -/

/-- What the body is called with at point `t`, the seven windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any grid point: the inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBReg1.lean ====
import proofs.«430033_j52948356825731_1_alg».proof.Proof.Gen.Kernel.Launch
import proofs.«430033_j52948356825731_1_alg».proof.Proof.Gen.Kernel.Skeleton
import proofs.«430033_j52948356825731_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the per-region half of the frame, at the contents `V` the region is entered with

The pipeline has seven windows. Windows 0, 1, 2 are row blocks of the three feature arrays; window 3 is the
whole weight matrix and window 4 the whole bias row, both with a block index that never moves; windows 5, 6
are row blocks of the two results. At a grid point the body reads the five input blocks whole and writes each
result block whole, so what it leaves in a result's buffer is a function of the five input blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read from the window's array as `V` gives it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- For proof data whose array of window 0 is `V`'s and whose body leaves that window's block in place, the
    window's current buffer holds the block at every grid point: at a point where the window is fetched, by the
    fetch; elsewhere because the block index is the previous point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- For proof data whose array of window 1 is `V`'s and whose body leaves that window's block in place, the
    window's current buffer holds the block at every grid point: at a point where the window is fetched, by the
    fetch; elsewhere because the block index is the previous point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- For proof data whose array of window 2 is `V`'s and whose body leaves that window's block in place, the
    window's current buffer holds the block at every grid point: at a point where the window is fetched, by the
    fetch; elsewhere because the block index is the previous point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- For proof data whose array of window 3 is `V`'s and whose body leaves that window's block in place, the
    window's current buffer holds the block at every grid point: at a point where the window is fetched, by the
    fetch; elsewhere because the block index is the previous point's (this window's index never moves: it is fetched once per sweep). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- For proof data whose array of window 4 is `V`'s and whose body leaves that window's block in place, the
    window's current buffer holds the block at every grid point: at a point where the window is fetched, by the
    fetch; elsewhere because the block index is the previous point's (this window's index never moves: it is fetched once per sweep). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is its whole buffer -/

abbrev r1_0 : Rect S2000x128 := Rect.unit (s := S2000x128) ![0, 0] S2000x128.size inb_S2000x128_S2000x128_0_0
abbrev r1_1 : Rect S2000x128 := Rect.unit (s := S2000x128) ![0, 0] S2000x128.size inb_S2000x128_S2000x128_0_0
abbrev r1_2 : Rect S2000x132 := Rect.unit (s := S2000x132) ![0, 0] S2000x132.size inb_S2000x132_S2000x132_0_0
abbrev r1_3 : Rect S388x128 := Rect.unit (s := S388x128) ![0, 0] S388x128.size inb_S388x128_S388x128_0_0
abbrev r1_4 : Rect S1x128 := Rect.unit (s := S1x128) ![0, 0] S1x128.size inb_S1x128_S1x128_0_0
abbrev r1_o : Rect S2000x128 := Rect.unit (s := S2000x128) ![0, 0] S2000x128.size inb_S2000x128_S2000x128_0_0

/-! ## What the body leaves in each result window's buffer -/

/-- Window 5's buffer after the body, as a function of the five input blocks: one store, of the whole block. -/
def out1_5 (x0 : Vec F S2000x128 .f32) (x1 : Vec F S2000x128 .f32) (x2 : Vec F S2000x132 .f32) (x3 : Vec F S388x128 .bf16) (x4 : Vec F S1x128 .f32) : Vec F S2000x128 .f32 :=
  View.canon [⟨r1_o, k1_pay1 (View.ld x0 r1_0) (View.ld x1 r1_1) (View.ld x2 r1_2) (View.ld x3 r1_3) (View.ld x4 r1_4)⟩]

/-- Window 6's buffer after the body, likewise. -/
def out1_6 (x0 : Vec F S2000x128 .f32) (x1 : Vec F S2000x128 .f32) (x2 : Vec F S2000x132 .f32) (x3 : Vec F S388x128 .bf16) (x4 : Vec F S1x128 .f32) : Vec F S2000x128 .f32 :=
  View.canon [⟨r1_o, k1_pay2 (View.ld x0 r1_0) (View.ld x1 r1_1) (View.ld x2 r1_2) (View.ld x3 r1_3) (View.ld x4 r1_4)⟩]

/-- The one store is of the whole buffer, so it covers every index. -/
theorem cover1_o (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body's triple -/

set_option maxHeartbeats 4000000 in
/-- The body on whole buffers, the five inputs' at contents `x0 … x4` and the two results' at anything, runs to a
    state with the inputs' buffers unchanged and the results' at `out1_5`, `out1_6` of the inputs: the loads return
    the buffers' contents, each result buffer is read (the value is not used) and then stored whole. -/
theorem sound_kernel1 (c : Dev nD) (E : Set ℕ) (i : grid1.Coords)
    (arg0 : Memref sig .tc .vmem S2000x128 .f32) (harg0 : arg0.IsWhole) (arg1 : Memref sig .tc .vmem S2000x128 .f32) (harg1 : arg1.IsWhole)
    (arg2 : Memref sig .tc .vmem S2000x132 .f32) (harg2 : arg2.IsWhole) (arg3 : Memref sig .tc .vmem S388x128 .bf16) (harg3 : arg3.IsWhole)
    (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S2000x128 .f32) (x2 : Vec F S2000x132 .f32) (x3 : Vec F S388x128 .bf16) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4) ∗ owns (c : Thread nD τ) arg6 fullShare (out1_6 x0 x1 x2 x3 x4)) -∗ K ⟨⟩))
      ⊢ wp frame (wpE (defs₀ (F := F)) Variants.none c none) E (cc1__edge_mlp_kernel i arg0 harg0 arg1 harg1 arg2 harg2 arg3 harg3 arg4 harg4 arg5 harg5 arg6 harg6) K := by
  simp only [cc1__edge_mlp_kernel_eq_skeleton]; unfold cc1__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_o _)
  iexists _; isplitr
  swap; · iexact H6
  ipureintro
  exact View.read_writes_eq_canon _ _ _ (cover1_o _)

/-! ## The pipeline's proof data -/

/-- Proof data of the pipeline on core `c`: the arrays as `V` gives them; after the body at point `t` each input's
    buffer holds its block and each result's holds `out1_5`, `out1_6` of the five input blocks; the invariant is the
    scoped rest and the generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic grid point -/

/-- What the body is called with at point `t`, the seven windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBReg2.lean ====
import proofs.«430033_j52948356825731_1_alg».proof.Proof.Gen.Kernel.Launch
import proofs.«430033_j52948356825731_1_alg».proof.Proof.Gen.Kernel.Skeleton
import proofs.«430033_j52948356825731_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the per-region half of the frame, at the contents `V` the region is entered with

The pipeline has seven windows. Windows 0, 1, 2 are row blocks of the three feature arrays; window 3 is the
whole weight matrix and window 4 the whole bias row, both with a block index that never moves; windows 5, 6
are row blocks of the two results. At a grid point the body reads the five input blocks whole and writes each
result block whole, so what it leaves in a result's buffer is a function of the five input blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read from the window's array as `V` gives it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- For proof data whose array of window 0 is `V`'s and whose body leaves that window's block in place, the
    window's current buffer holds the block at every grid point: at a point where the window is fetched, by the
    fetch; elsewhere because the block index is the previous point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- For proof data whose array of window 1 is `V`'s and whose body leaves that window's block in place, the
    window's current buffer holds the block at every grid point: at a point where the window is fetched, by the
    fetch; elsewhere because the block index is the previous point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- For proof data whose array of window 2 is `V`'s and whose body leaves that window's block in place, the
    window's current buffer holds the block at every grid point: at a point where the window is fetched, by the
    fetch; elsewhere because the block index is the previous point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- For proof data whose array of window 3 is `V`'s and whose body leaves that window's block in place, the
    window's current buffer holds the block at every grid point: at a point where the window is fetched, by the
    fetch; elsewhere because the block index is the previous point's (this window's index never moves: it is fetched once per sweep). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- For proof data whose array of window 4 is `V`'s and whose body leaves that window's block in place, the
    window's current buffer holds the block at every grid point: at a point where the window is fetched, by the
    fetch; elsewhere because the block index is the previous point's (this window's index never moves: it is fetched once per sweep). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is its whole buffer -/

abbrev r2_0 : Rect S2000x256 := Rect.unit (s := S2000x256) ![0, 0] S2000x256.size inb_S2000x256_S2000x256_0_0
abbrev r2_1 : Rect S2000x256 := Rect.unit (s := S2000x256) ![0, 0] S2000x256.size inb_S2000x256_S2000x256_0_0
abbrev r2_2 : Rect S2000x256 := Rect.unit (s := S2000x256) ![0, 0] S2000x256.size inb_S2000x256_S2000x256_0_0
abbrev r2_3 : Rect S768x128 := Rect.unit (s := S768x128) ![0, 0] S768x128.size inb_S768x128_S768x128_0_0
abbrev r2_4 : Rect S1x128 := Rect.unit (s := S1x128) ![0, 0] S1x128.size inb_S1x128_S1x128_0_0
abbrev r2_o : Rect S2000x128 := Rect.unit (s := S2000x128) ![0, 0] S2000x128.size inb_S2000x128_S2000x128_0_0

/-! ## What the body leaves in each result window's buffer -/

/-- Window 5's buffer after the body, as a function of the five input blocks: one store, of the whole block. -/
def out2_5 (x0 : Vec F S2000x256 .f32) (x1 : Vec F S2000x256 .f32) (x2 : Vec F S2000x256 .f32) (x3 : Vec F S768x128 .bf16) (x4 : Vec F S1x128 .f32) : Vec F S2000x128 .f32 :=
  View.canon [⟨r2_o, k2_pay1 (View.ld x0 r2_0) (View.ld x1 r2_1) (View.ld x2 r2_2) (View.ld x3 r2_3) (View.ld x4 r2_4)⟩]

/-- Window 6's buffer after the body, likewise. -/
def out2_6 (x0 : Vec F S2000x256 .f32) (x1 : Vec F S2000x256 .f32) (x2 : Vec F S2000x256 .f32) (x3 : Vec F S768x128 .bf16) (x4 : Vec F S1x128 .f32) : Vec F S2000x128 .f32 :=
  View.canon [⟨r2_o, k2_pay2 (View.ld x0 r2_0) (View.ld x1 r2_1) (View.ld x2 r2_2) (View.ld x3 r2_3) (View.ld x4 r2_4)⟩]

/-- The one store is of the whole buffer, so it covers every index. -/
theorem cover2_o (p0 : Vec F S2000x128 .f32) (y : S2000x128.Idx) :
    ∃ pc ∈ ([⟨r2_o, p0⟩] : List (View.Piece (Elt F) S2000x128 .f32)), y ∈ pc.1.set :=
  View.cover_of_tiled [⟨r2_o, p0⟩] S2000x128.size (by rfl) y

/-! ## The body's triple -/

set_option maxHeartbeats 4000000 in
/-- The body on whole buffers, the five inputs' at contents `x0 … x4` and the two results' at anything, runs to a
    state with the inputs' buffers unchanged and the results' at `out2_5`, `out2_6` of the inputs: the loads return
    the buffers' contents, each result buffer is read (the value is not used) and then stored whole. -/
theorem sound_kernel2 (c : Dev nD) (E : Set ℕ) (i : grid2.Coords)
    (arg0 : Memref sig .tc .vmem S2000x256 .f32) (harg0 : arg0.IsWhole) (arg1 : Memref sig .tc .vmem S2000x256 .f32) (harg1 : arg1.IsWhole)
    (arg2 : Memref sig .tc .vmem S2000x256 .f32) (harg2 : arg2.IsWhole) (arg3 : Memref sig .tc .vmem S768x128 .bf16) (harg3 : arg3.IsWhole)
    (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x256 .f32) (x1 : Vec F S2000x256 .f32) (x2 : Vec F S2000x256 .f32) (x3 : Vec F S768x128 .bf16) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4) ∗ owns (c : Thread nD τ) arg6 fullShare (out2_6 x0 x1 x2 x3 x4)) -∗ K ⟨⟩))
      ⊢ wp frame (wpE (defs₀ (F := F)) Variants.none c none) E (cc2__edge_mlp_kernel i arg0 harg0 arg1 harg1 arg2 harg2 arg3 harg3 arg4 harg4 arg5 harg5 arg6 harg6) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_o _)
  iexists _; isplitr
  swap; · iexact H6
  ipureintro
  exact View.read_writes_eq_canon _ _ _ (cover2_o _)

/-! ## The pipeline's proof data -/

/-- Proof data of the pipeline on core `c`: the arrays as `V` gives them; after the body at point `t` each input's
    buffer holds its block and each result's holds `out2_5`, `out2_6` of the five input blocks; the invariant is the
    scoped rest and the generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current buffer holds its block at every grid point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic grid point -/

/-- What the body is called with at point `t`, the seven windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any grid point: the inputs' buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBReg3.lean ====
import proofs.«430033_j52948356825731_1_alg».proof.Proof.Gen.Kernel.Launch
import proofs.«430033_j52948356825731_1_alg».proof.Proof.Gen.Kernel.Skeleton
import proofs.«430033_j52948356825731_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the per-region half of the frame, at the contents `V` the region is entered with

The pipeline has ten windows. Windows 0, 1, 2 are row blocks of the three feature arrays; windows 3, 4 are the
whole weight matrix and bias row of the first linear map and windows 5, 6 those of the second, all four with a
block index that never moves; windows 7, 8, 9 are row blocks of the three results. At a grid point the body reads
the input blocks whole and writes each result block whole: the first two results are functions of input blocks
0 to 4, the third of all seven. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read from the window's array as `V` gives it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- For proof data whose array of window 0 is `V`'s and whose body leaves that window's block in place, the
    window's current buffer holds the block at every grid point: at a point where the window is fetched, by the
    fetch; elsewhere because the block index is the previous point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 1 is `V`'s and whose body leaves that window's block in place, the
    window's current buffer holds the block at every grid point: at a point where the window is fetched, by the
    fetch; elsewhere because the block index is the previous point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 2 is `V`'s and whose body leaves that window's block in place, the
    window's current buffer holds the block at every grid point: at a point where the window is fetched, by the
    fetch; elsewhere because the block index is the previous point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 3 is `V`'s and whose body leaves that window's block in place, the
    window's current buffer holds the block at every grid point: at a point where the window is fetched, by the
    fetch; elsewhere because the block index is the previous point's (this window's index never moves: it is fetched once per sweep). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 4 is `V`'s and whose body leaves that window's block in place, the
    window's current buffer holds the block at every grid point: at a point where the window is fetched, by the
    fetch; elsewhere because the block index is the previous point's (this window's index never moves: it is fetched once per sweep). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 5 is `V`'s and whose body leaves that window's block in place, the
    window's current buffer holds the block at every grid point: at a point where the window is fetched, by the
    fetch; elsewhere because the block index is the previous point's (this window's index never moves: it is fetched once per sweep). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 6 is `V`'s and whose body leaves that window's block in place, the
    window's current buffer holds the block at every grid point: at a point where the window is fetched, by the
    fetch; elsewhere because the block index is the previous point's (this window's index never moves: it is fetched once per sweep). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is its whole buffer -/

abbrev r3_0 : Rect S2000x256 := Rect.unit (s := S2000x256) ![0, 0] S2000x256.size inb_S2000x256_S2000x256_0_0
abbrev r3_1 : Rect S2000x256 := Rect.unit (s := S2000x256) ![0, 0] S2000x256.size inb_S2000x256_S2000x256_0_0
abbrev r3_2 : Rect S2000x256 := Rect.unit (s := S2000x256) ![0, 0] S2000x256.size inb_S2000x256_S2000x256_0_0
abbrev r3_3 : Rect S768x128 := Rect.unit (s := S768x128) ![0, 0] S768x128.size inb_S768x128_S768x128_0_0
abbrev r3_4 : Rect S1x128 := Rect.unit (s := S1x128) ![0, 0] S1x128.size inb_S1x128_S1x128_0_0
abbrev r3_5 : Rect S128x1 := Rect.unit (s := S128x1) ![0, 0] S128x1.size inb_S128x1_S128x1_0_0
abbrev r3_6 : Rect S1x1 := Rect.unit (s := S1x1) ![0, 0] S1x1.size inb_S1x1_S1x1_0_0
abbrev r3_o : Rect S2000x128 := Rect.unit (s := S2000x128) ![0, 0] S2000x128.size inb_S2000x128_S2000x128_0_0
abbrev r3_p : Rect S2000x1 := Rect.unit (s := S2000x1) ![0, 0] S2000x1.size inb_S2000x1_S2000x1_0_0

/-! ## What the body leaves in each result window's buffer -/

/-- Window 7's buffer after the body, as a function of input blocks 0 to 4: one store, of the whole block. -/
def out3_7 (x0 : Vec F S2000x256 .f32) (x1 : Vec F S2000x256 .f32) (x2 : Vec F S2000x256 .f32) (x3 : Vec F S768x128 .bf16) (x4 : Vec F S1x128 .f32) : Vec F S2000x128 .f32 :=
  View.canon [⟨r3_o, k3_pay1 (View.ld x0 r3_0) (View.ld x1 r3_1) (View.ld x2 r3_2) (View.ld x3 r3_3) (View.ld x4 r3_4)⟩]

/-- Window 8's buffer after the body, likewise. -/
def out3_8 (x0 : Vec F S2000x256 .f32) (x1 : Vec F S2000x256 .f32) (x2 : Vec F S2000x256 .f32) (x3 : Vec F S768x128 .bf16) (x4 : Vec F S1x128 .f32) : Vec F S2000x128 .f32 :=
  View.canon [⟨r3_o, k3_pay2 (View.ld x0 r3_0) (View.ld x1 r3_1) (View.ld x2 r3_2) (View.ld x3 r3_3) (View.ld x4 r3_4)⟩]

/-- Window 9's buffer after the body, as a function of all seven input blocks: one store, of the whole block. -/
def out3_9 (x0 : Vec F S2000x256 .f32) (x1 : Vec F S2000x256 .f32) (x2 : Vec F S2000x256 .f32) (x3 : Vec F S768x128 .bf16) (x4 : Vec F S1x128 .f32) (x5 : Vec F S128x1 .bf16) (x6 : Vec F S1x1 .f32) : Vec F S2000x1 .f32 :=
  View.canon [⟨r3_p, k3_pay3 (View.ld x0 r3_0) (View.ld x1 r3_1) (View.ld x2 r3_2) (View.ld x3 r3_3) (View.ld x4 r3_4) (View.ld x5 r3_5) (View.ld x6 r3_6)⟩]

/-- A store of the whole buffer covers every index. -/
theorem cover3_o (p0 : Vec F S2000x128 .f32) (y : S2000x128.Idx) :
    ∃ pc ∈ ([⟨r3_o, p0⟩] : List (View.Piece (Elt F) S2000x128 .f32)), y ∈ pc.1.set :=
  View.cover_of_tiled [⟨r3_o, p0⟩] S2000x128.size (by rfl) y
theorem cover3_p (p0 : Vec F S2000x1 .f32) (y : S2000x1.Idx) :
    ∃ pc ∈ ([⟨r3_p, p0⟩] : List (View.Piece (Elt F) S2000x1 .f32)), y ∈ pc.1.set :=
  View.cover_of_tiled [⟨r3_p, p0⟩] S2000x1.size (by rfl) y

/-! ## The body's triple -/

set_option maxHeartbeats 4000000 in
/-- The body on whole buffers, the seven inputs' at contents `x0 … x6` and the three results' at anything, runs to a
    state with the inputs' buffers unchanged and the results' at `out3_7`, `out3_8`, `out3_9` of the inputs: the loads
    return the buffers' contents, each result buffer is read (the value is not used) and then stored whole; that
    inputs 5 and 6 are read after the first two stores changes nothing, their buffers being other buffers. -/
theorem sound_kernel3 (c : Dev nD) (E : Set ℕ) (i : grid3.Coords)
    (arg0 : Memref sig .tc .vmem S2000x256 .f32) (harg0 : arg0.IsWhole)
    (arg1 : Memref sig .tc .vmem S2000x256 .f32) (harg1 : arg1.IsWhole)
    (arg2 : Memref sig .tc .vmem S2000x256 .f32) (harg2 : arg2.IsWhole)
    (arg3 : Memref sig .tc .vmem S768x128 .bf16) (harg3 : arg3.IsWhole)
    (arg4 : Memref sig .tc .vmem S1x128 .f32) (harg4 : arg4.IsWhole)
    (arg5 : Memref sig .tc .vmem S128x1 .bf16) (harg5 : arg5.IsWhole)
    (arg6 : Memref sig .tc .vmem S1x1 .f32) (harg6 : arg6.IsWhole)
    (arg7 : Memref sig .tc .vmem S2000x128 .f32) (harg7 : arg7.IsWhole) (arg8 : Memref sig .tc .vmem S2000x128 .f32) (harg8 : arg8.IsWhole)
    (arg9 : Memref sig .tc .vmem S2000x1 .f32) (harg9 : arg9.IsWhole)
    (x0 : Vec F S2000x256 .f32) (x1 : Vec F S2000x256 .f32) (x2 : Vec F S2000x256 .f32) (x3 : Vec F S768x128 .bf16) (x4 : Vec F S1x128 .f32) (x5 : Vec F S128x1 .bf16) (x6 : Vec F S1x1 .f32)
    (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare (out3_7 x0 x1 x2 x3 x4) ∗ owns (c : Thread nD τ) arg8 fullShare (out3_8 x0 x1 x2 x3 x4)
            ∗ owns (c : Thread nD τ) arg9 fullShare (out3_9 x0 x1 x2 x3 x4 x5 x6)) -∗ K ⟨⟩))
      ⊢ wp frame (wpE (defs₀ (F := F)) Variants.none c none) E (cc3__edge_mlp_lin2_kernel i arg0 harg0 arg1 harg1 arg2 harg2 arg3 harg3 arg4 harg4 arg5 harg5 arg6 harg6 arg7 harg7 arg8 harg8 arg9 harg9) K := by
  simp only [cc3__edge_mlp_lin2_kernel_eq_skeleton]; unfold cc3__edge_mlp_lin2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover3_o _)
  isplitl [H8]
  · iexists _; isplitr
    swap; · iexact H8
    ipureintro
    exact View.read_writes_eq_canon _ _ _ (cover3_o _)
  iexists _; isplitr
  swap; · iexact H9
  ipureintro
  exact View.read_writes_eq_canon _ _ _ (cover3_p _)

/-! ## The pipeline's proof data -/

/-- Proof data of the pipeline on core `c`: the arrays as `V` gives them; after the body at point `t` each input's
    buffer holds its block and each result's holds `out3_7`, `out3_8`, `out3_9` of the input blocks; the invariant is
    the scoped rest and the generator register, untouched; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t)
    | ⟨8, _⟩ => out3_8 (iblk3 V c 0 t) (iblk3 V c 1 t) (iblk3 V c 2 t) (iblk3 V c 3 t) (iblk3 V c 4 t)
    | ⟨9, _⟩ => out3_9 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are `V`'s. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) := by dsimp only [dat3]

/-- Each input's current buffer holds its block at every grid point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic grid point -/

/-- What the body is called with at point `t`, the ten windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any grid point: the inputs' buffers hold their blocks, so the body's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every grid point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KBBound.lean ====
/- The buffer contents of a TensorCore at the boundaries of @main's five stretches of host operations and four
   kernel regions, as a fold from the launch memory: a stretch rewrites the buffers its operations write
   (the fold of the operations' results), a region leaves its windows' arrays at what its write-backs fold to
   and every other buffer as entered. -/
import proofs.«430033_j52948356825731_1_alg».proof.Proof.KBReg0
import proofs.«430033_j52948356825731_1_alg».proof.Proof.KBReg1
import proofs.«430033_j52948356825731_1_alg».proof.Proof.KBReg2
import proofs.«430033_j52948356825731_1_alg».proof.Proof.KBReg3
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The five stretches of host operations, each the concatenation of its printed pieces -/

/-- The host operations before region 0. -/
abbrev H0 : List (HloOp τ sig (Elt F)) :=
  hostOps0 ++ hostOps0_1 ++ hostOps0_2 ++ hostOps0_3 ++ hostOps0_4 ++ hostOps0_5 ++ hostOps0_6
/-- The host operations between regions 0 and 1. -/
abbrev H1 : List (HloOp τ sig (Elt F)) :=
  hostOps1 ++ hostOps1_1 ++ hostOps1_2 ++ hostOps1_3 ++ hostOps1_4 ++ hostOps1_5
/-- The host operations between regions 1 and 2. -/
abbrev H2 : List (HloOp τ sig (Elt F)) :=
  hostOps2 ++ hostOps2_1 ++ hostOps2_2 ++ hostOps2_3 ++ hostOps2_4 ++ hostOps2_5
/-- The host operations between regions 2 and 3. -/
abbrev H3 : List (HloOp τ sig (Elt F)) :=
  hostOps3 ++ hostOps3_1 ++ hostOps3_2 ++ hostOps3_3 ++ hostOps3_4 ++ hostOps3_5
/-- The host operations after region 3, to the return. -/
abbrev H4 : List (HloOp τ sig (Elt F)) :=
  hostOps4 ++ hostOps4_1 ++ hostOps4_2 ++ hostOps4_3 ++ hostOps4_4 ++ hostOps4_5 ++ hostOps4_6 ++ hostOps4_7
    ++ hostOps4_8 ++ hostOps4_9 ++ hostOps4_10 ++ hostOps4_11 ++ hostOps4_12 ++ hostOps4_13 ++ hostOps4_14

variable (m : (ℓ : Loc nD τ sig) → Buf (Elt F) ℓ) (ρ : Dev nD → PrngReg)

/-! ## The contents at each boundary -/

/-- Core c's buffers at launch. -/
abbrev Wk0 : Dev nD → Valuation τ sig (Elt F) := fun c b => (s₀ m ρ).mem ((c : Dev nD), b)

/-- After H0: region 0's entry. -/
abbrev Wk1 : Dev nD → Valuation τ sig (Elt F) := fun c => StableHlo.after H0 (Wk0 m ρ c)
/-- The same, read at the TensorCore's references: what region 0's proof data take. -/
abbrev Vk1 : (c : Dev nD) → (b : Ref sig .tc) → Buf (Elt F) ((c : Thread nD τ).loc b) := fun c b => Wk1 m ρ c b

/-- Region 0's exit: each window's array at the fold of its write-backs over all the grid's points (an input's
    array as entered), every other buffer as entered. -/
def Wk2 (c : Dev nD) : Valuation τ sig (Elt F) :=
  Pipeline.withArrays spec0 c (Wk1 m ρ c) fun w => (dat0 (Vk1 m ρ) c).arrAt w cfg0.N
theorem Wk2_arr (c : Dev nD) (w : Fin cfg0.W) :
    Wk2 m ρ c (Proc.devRef .tc (Pipeline.arrRef spec0 w)) = (dat0 (Vk1 m ρ) c).arrAt w cfg0.N := by
  unfold Wk2; exact Pipeline.withArrays_arr spec0 launch0.win.arr_inj c _ _ w
theorem Wk2_of_ne (c : Dev nD) (b : Ref sig .tc) (hb : ∀ w, Pipeline.arrRef spec0 w ≠ b) :
    Wk2 m ρ c (Proc.devRef .tc b) = Wk1 m ρ c (Proc.devRef .tc b) := by
  unfold Wk2; exact Pipeline.withArrays_of_ne spec0 c _ _ b hb
abbrev Vk2 : (c : Dev nD) → (b : Ref sig .tc) → Buf (Elt F) ((c : Thread nD τ).loc b) := fun c b => Wk2 m ρ c b
/-- The exit contents restated for the region's exit: an array of region 0 holds the fold, any other buffer what it
    held at entry. -/
theorem hF0 (c : Dev nD) (w : Fin cfg0.W) : (dat0 (Vk1 m ρ) c).arrAt w cfg0.N = Vk2 m ρ c (Pipeline.arrRef spec0 w) :=
  (Wk2_arr m ρ c w).symm
theorem hrest0 (c : Dev nD) : ∀ b, b ∉ Finset.univ.image (Pipeline.arrRef spec0) → Vk2 m ρ c b = Vk1 m ρ c b :=
  fun b hb => Wk2_of_ne m ρ c b fun w e => hb (Finset.mem_image.mpr ⟨w, Finset.mem_univ _, e⟩)

/-- After H1: region 1's entry. -/
abbrev Wk3 : Dev nD → Valuation τ sig (Elt F) := fun c => StableHlo.after H1 (Wk2 m ρ c)
abbrev Vk3 : (c : Dev nD) → (b : Ref sig .tc) → Buf (Elt F) ((c : Thread nD τ).loc b) := fun c b => Wk3 m ρ c b

/-- Region 1's exit. -/
def Wk4 (c : Dev nD) : Valuation τ sig (Elt F) :=
  Pipeline.withArrays spec1 c (Wk3 m ρ c) fun w => (dat1 (Vk3 m ρ) c).arrAt w cfg1.N
theorem Wk4_arr (c : Dev nD) (w : Fin cfg1.W) :
    Wk4 m ρ c (Proc.devRef .tc (Pipeline.arrRef spec1 w)) = (dat1 (Vk3 m ρ) c).arrAt w cfg1.N := by
  unfold Wk4; exact Pipeline.withArrays_arr spec1 launch1.win.arr_inj c _ _ w
theorem Wk4_of_ne (c : Dev nD) (b : Ref sig .tc) (hb : ∀ w, Pipeline.arrRef spec1 w ≠ b) :
    Wk4 m ρ c (Proc.devRef .tc b) = Wk3 m ρ c (Proc.devRef .tc b) := by
  unfold Wk4; exact Pipeline.withArrays_of_ne spec1 c _ _ b hb
abbrev Vk4 : (c : Dev nD) → (b : Ref sig .tc) → Buf (Elt F) ((c : Thread nD τ).loc b) := fun c b => Wk4 m ρ c b
theorem hF1 (c : Dev nD) (w : Fin cfg1.W) : (dat1 (Vk3 m ρ) c).arrAt w cfg1.N = Vk4 m ρ c (Pipeline.arrRef spec1 w) :=
  (Wk4_arr m ρ c w).symm
theorem hrest1 (c : Dev nD) : ∀ b, b ∉ Finset.univ.image (Pipeline.arrRef spec1) → Vk4 m ρ c b = Vk3 m ρ c b :=
  fun b hb => Wk4_of_ne m ρ c b fun w e => hb (Finset.mem_image.mpr ⟨w, Finset.mem_univ _, e⟩)

/-- After H2: region 2's entry. -/
abbrev Wk5 : Dev nD → Valuation τ sig (Elt F) := fun c => StableHlo.after H2 (Wk4 m ρ c)
abbrev Vk5 : (c : Dev nD) → (b : Ref sig .tc) → Buf (Elt F) ((c : Thread nD τ).loc b) := fun c b => Wk5 m ρ c b

/-- Region 2's exit. -/
def Wk6 (c : Dev nD) : Valuation τ sig (Elt F) :=
  Pipeline.withArrays spec2 c (Wk5 m ρ c) fun w => (dat2 (Vk5 m ρ) c).arrAt w cfg2.N
theorem Wk6_arr (c : Dev nD) (w : Fin cfg2.W) :
    Wk6 m ρ c (Proc.devRef .tc (Pipeline.arrRef spec2 w)) = (dat2 (Vk5 m ρ) c).arrAt w cfg2.N := by
  unfold Wk6; exact Pipeline.withArrays_arr spec2 launch2.win.arr_inj c _ _ w
theorem Wk6_of_ne (c : Dev nD) (b : Ref sig .tc) (hb : ∀ w, Pipeline.arrRef spec2 w ≠ b) :
    Wk6 m ρ c (Proc.devRef .tc b) = Wk5 m ρ c (Proc.devRef .tc b) := by
  unfold Wk6; exact Pipeline.withArrays_of_ne spec2 c _ _ b hb
abbrev Vk6 : (c : Dev nD) → (b : Ref sig .tc) → Buf (Elt F) ((c : Thread nD τ).loc b) := fun c b => Wk6 m ρ c b
theorem hF2 (c : Dev nD) (w : Fin cfg2.W) : (dat2 (Vk5 m ρ) c).arrAt w cfg2.N = Vk6 m ρ c (Pipeline.arrRef spec2 w) :=
  (Wk6_arr m ρ c w).symm
theorem hrest2 (c : Dev nD) : ∀ b, b ∉ Finset.univ.image (Pipeline.arrRef spec2) → Vk6 m ρ c b = Vk5 m ρ c b :=
  fun b hb => Wk6_of_ne m ρ c b fun w e => hb (Finset.mem_image.mpr ⟨w, Finset.mem_univ _, e⟩)

/-- After H3: region 3's entry. -/
abbrev Wk7 : Dev nD → Valuation τ sig (Elt F) := fun c => StableHlo.after H3 (Wk6 m ρ c)
abbrev Vk7 : (c : Dev nD) → (b : Ref sig .tc) → Buf (Elt F) ((c : Thread nD τ).loc b) := fun c b => Wk7 m ρ c b

/-- Region 3's exit. -/
def Wk8 (c : Dev nD) : Valuation τ sig (Elt F) :=
  Pipeline.withArrays spec3 c (Wk7 m ρ c) fun w => (dat3 (Vk7 m ρ) c).arrAt w cfg3.N
theorem Wk8_arr (c : Dev nD) (w : Fin cfg3.W) :
    Wk8 m ρ c (Proc.devRef .tc (Pipeline.arrRef spec3 w)) = (dat3 (Vk7 m ρ) c).arrAt w cfg3.N := by
  unfold Wk8; exact Pipeline.withArrays_arr spec3 launch3.win.arr_inj c _ _ w
theorem Wk8_of_ne (c : Dev nD) (b : Ref sig .tc) (hb : ∀ w, Pipeline.arrRef spec3 w ≠ b) :
    Wk8 m ρ c (Proc.devRef .tc b) = Wk7 m ρ c (Proc.devRef .tc b) := by
  unfold Wk8; exact Pipeline.withArrays_of_ne spec3 c _ _ b hb
abbrev Vk8 : (c : Dev nD) → (b : Ref sig .tc) → Buf (Elt F) ((c : Thread nD τ).loc b) := fun c b => Wk8 m ρ c b
theorem hF3 (c : Dev nD) (w : Fin cfg3.W) : (dat3 (Vk7 m ρ) c).arrAt w cfg3.N = Vk8 m ρ c (Pipeline.arrRef spec3 w) :=
  (Wk8_arr m ρ c w).symm
theorem hrest3 (c : Dev nD) : ∀ b, b ∉ Finset.univ.image (Pipeline.arrRef spec3) → Vk8 m ρ c b = Vk7 m ρ c b :=
  fun b hb => Wk8_of_ne m ρ c b fun w e => hb (Finset.mem_image.mpr ⟨w, Finset.mem_univ _, e⟩)

/-- After H4: the contents at the return. -/
abbrev Wk9 : Dev nD → Valuation τ sig (Elt F) := fun c => StableHlo.after H4 (Wk8 m ρ c)

end Cert.Kernel.Hand

end
-- ==== Proof.KBRun.lean ====
/- The run of @main on a TensorCore, from the launch to the return, as a list of segments: each printed piece of a
   stretch of host operations is a segment over the unscoped buffers held whole at a valuation, each kernel region a
   segment that splits its windows' arrays out of those buffers and puts them back at what its write-backs leave.
   The segments' thread states chain, so every weakly fair execution terminates and ends with every unscoped buffer
   at the last boundary's contents. -/
import proofs.«430033_j52948356825731_1_alg».proof.Proof.KBBound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## No host operation allocates a buffer

Each printed piece is a literal list of operations built from results of earlier ones; none is an allocation, so the
set of buffers an operation leaves at unchosen contents is empty for each, by unfolding the builders. -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor
theorem hostOps2_5_fresh : (hostOps2_5 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor
theorem hostOps3_1_fresh : (hostOps3_1 : List (HloOp τ sig (Elt F))).Forall fun op => op.fresh = ∅ := by
  simp only [List.Forall]; repeat' constructor
theorem hostOps3_2_fresh : (hostOps3_2 : List (HloOp τ sig (Elt F))).Forall fun op => op.fresh = ∅ := by
  simp only [List.Forall]; repeat' constructor
theorem hostOps3_3_fresh : (hostOps3_3 : List (HloOp τ sig (Elt F))).Forall fun op => op.fresh = ∅ := by
  simp only [List.Forall]; repeat' constructor
theorem hostOps3_4_fresh : (hostOps3_4 : List (HloOp τ sig (Elt F))).Forall fun op => op.fresh = ∅ := by
  simp only [List.Forall]; repeat' constructor
theorem hostOps3_5_fresh : (hostOps3_5 : List (HloOp τ sig (Elt F))).Forall fun op => op.fresh = ∅ := by
  simp only [List.Forall]; repeat' constructor

theorem hostOps4_fresh : (hostOps4 : List (HloOp τ sig (Elt F))).Forall fun op => op.fresh = ∅ := by
  simp only [List.Forall]; repeat' constructor
theorem hostOps4_1_fresh : (hostOps4_1 : List (HloOp τ sig (Elt F))).Forall fun op => op.fresh = ∅ := by
  simp only [List.Forall]; repeat' constructor
theorem hostOps4_2_fresh : (hostOps4_2 : List (HloOp τ sig (Elt F))).Forall fun op => op.fresh = ∅ := by
  simp only [List.Forall]; repeat' constructor
theorem hostOps4_3_fresh : (hostOps4_3 : List (HloOp τ sig (Elt F))).Forall fun op => op.fresh = ∅ := by
  simp only [List.Forall]; repeat' constructor
theorem hostOps4_4_fresh : (hostOps4_4 : List (HloOp τ sig (Elt F))).Forall fun op => op.fresh = ∅ := by
  simp only [List.Forall]; repeat' constructor
theorem hostOps4_5_fresh : (hostOps4_5 : List (HloOp τ sig (Elt F))).Forall fun op => op.fresh = ∅ := by
  simp only [List.Forall]; repeat' constructor
theorem hostOps4_6_fresh : (hostOps4_6 : List (HloOp τ sig (Elt F))).Forall fun op => op.fresh = ∅ := by
  simp only [List.Forall]; repeat' constructor
theorem hostOps4_7_fresh : (hostOps4_7 : List (HloOp τ sig (Elt F))).Forall fun op => op.fresh = ∅ := by
  simp only [List.Forall]; repeat' constructor
theorem hostOps4_8_fresh : (hostOps4_8 : List (HloOp τ sig (Elt F))).Forall fun op => op.fresh = ∅ := by
  simp only [List.Forall]; repeat' constructor
theorem hostOps4_9_fresh : (hostOps4_9 : List (HloOp τ sig (Elt F))).Forall fun op => op.fresh = ∅ := by
  simp only [List.Forall]; repeat' constructor
set_option maxHeartbeats 4000000 in
theorem hostOps4_10_fresh : (hostOps4_10 : List (HloOp τ sig (Elt F))).Forall fun op => op.fresh = ∅ := by
  simp only [List.Forall]; repeat' constructor
theorem hostOps4_11_fresh : (hostOps4_11 : List (HloOp τ sig (Elt F))).Forall fun op => op.fresh = ∅ := by
  simp only [List.Forall]; repeat' constructor
theorem hostOps4_12_fresh : (hostOps4_12 : List (HloOp τ sig (Elt F))).Forall fun op => op.fresh = ∅ := by
  simp only [List.Forall]; repeat' constructor
theorem hostOps4_13_fresh : (hostOps4_13 : List (HloOp τ sig (Elt F))).Forall fun op => op.fresh = ∅ := by
  simp only [List.Forall]; repeat' constructor
theorem hostOps4_14_fresh : (hostOps4_14 : List (HloOp τ sig (Elt F))).Forall fun op => op.fresh = ∅ := by
  simp only [List.Forall]; repeat' constructor

variable (m : (ℓ : Loc nD τ sig) → Buf (Elt F) ℓ) (ρ : Dev nD → PrngReg)

/-! ## The contents between the pieces of one stretch

A stretch's fold is the fold of its pieces one after the other; U J_k names the contents after the first k pieces
of stretch J, and the stretch-level boundary is the last piece's fold of the last of these. -/

abbrev U0_1 : Dev nD → Valuation τ sig (Elt F) := fun c => StableHlo.after hostOps0 (Wk0 m ρ c)
abbrev U0_2 : Dev nD → Valuation τ sig (Elt F) := fun c => StableHlo.after hostOps0_1 (U0_1 m ρ c)
abbrev U0_3 : Dev nD → Valuation τ sig (Elt F) := fun c => StableHlo.after hostOps0_2 (U0_2 m ρ c)
abbrev U0_4 : Dev nD → Valuation τ sig (Elt F) := fun c => StableHlo.after hostOps0_3 (U0_3 m ρ c)
abbrev U0_5 : Dev nD → Valuation τ sig (Elt F) := fun c => StableHlo.after hostOps0_4 (U0_4 m ρ c)
abbrev U0_6 : Dev nD → Valuation τ sig (Elt F) := fun c => StableHlo.after hostOps0_5 (U0_5 m ρ c)
theorem Wk1_eq (c : Dev nD) : Wk1 m ρ c = StableHlo.after hostOps0_6 (U0_6 m ρ c) := by
  simp only [Wk1, H0, StableHlo.after_append]

abbrev U1_1 : Dev nD → Valuation τ sig (Elt F) := fun c => StableHlo.after hostOps1 (Wk2 m ρ c)
abbrev U1_2 : Dev nD → Valuation τ sig (Elt F) := fun c => StableHlo.after hostOps1_1 (U1_1 m ρ c)
abbrev U1_3 : Dev nD → Valuation τ sig (Elt F) := fun c => StableHlo.after hostOps1_2 (U1_2 m ρ c)
abbrev U1_4 : Dev nD → Valuation τ sig (Elt F) := fun c => StableHlo.after hostOps1_3 (U1_3 m ρ c)
abbrev U1_5 : Dev nD → Valuation τ sig (Elt F) := fun c => StableHlo.after hostOps1_4 (U1_4 m ρ c)
theorem Wk3_eq (c : Dev nD) : Wk3 m ρ c = StableHlo.after hostOps1_5 (U1_5 m ρ c) := by
  simp only [Wk3, H1, StableHlo.after_append]

abbrev U2_1 : Dev nD → Valuation τ sig (Elt F) := fun c => StableHlo.after hostOps2 (Wk4 m ρ c)
abbrev U2_2 : Dev nD → Valuation τ sig (Elt F) := fun c => StableHlo.after hostOps2_1 (U2_1 m ρ c)
abbrev U2_3 : Dev nD → Valuation τ sig (Elt F) := fun c => StableHlo.after hostOps2_2 (U2_2 m ρ c)
abbrev U2_4 : Dev nD → Valuation τ sig (Elt F) := fun c => StableHlo.after hostOps2_3 (U2_3 m ρ c)
abbrev U2_5 : Dev nD → Valuation τ sig (Elt F) := fun c => StableHlo.after hostOps2_4 (U2_4 m ρ c)
theorem Wk5_eq (c : Dev nD) : Wk5 m ρ c = StableHlo.after hostOps2_5 (U2_5 m ρ c) := by
  simp only [Wk5, H2, StableHlo.after_append]

abbrev U3_1 : Dev nD → Valuation τ sig (Elt F) := fun c => StableHlo.after hostOps3 (Wk6 m ρ c)
abbrev U3_2 : Dev nD → Valuation τ sig (Elt F) := fun c => StableHlo.after hostOps3_1 (U3_1 m ρ c)
abbrev U3_3 : Dev nD → Valuation τ sig (Elt F) := fun c => StableHlo.after hostOps3_2 (U3_2 m ρ c)
abbrev U3_4 : Dev nD → Valuation τ sig (Elt F) := fun c => StableHlo.after hostOps3_3 (U3_3 m ρ c)
abbrev U3_5 : Dev nD → Valuation τ sig (Elt F) := fun c => StableHlo.after hostOps3_4 (U3_4 m ρ c)
theorem Wk7_eq (c : Dev nD) : Wk7 m ρ c = StableHlo.after hostOps3_5 (U3_5 m ρ c) := by
  simp only [Wk7, H3, StableHlo.after_append]

abbrev U4_1 : Dev nD → Valuation τ sig (Elt F) := fun c => StableHlo.after hostOps4 (Wk8 m ρ c)
abbrev U4_2 : Dev nD → Valuation τ sig (Elt F) := fun c => StableHlo.after hostOps4_1 (U4_1 m ρ c)
abbrev U4_3 : Dev nD → Valuation τ sig (Elt F) := fun c => StableHlo.after hostOps4_2 (U4_2 m ρ c)
abbrev U4_4 : Dev nD → Valuation τ sig (Elt F) := fun c => StableHlo.after hostOps4_3 (U4_3 m ρ c)
abbrev U4_5 : Dev nD → Valuation τ sig (Elt F) := fun c => StableHlo.after hostOps4_4 (U4_4 m ρ c)
abbrev U4_6 : Dev nD → Valuation τ sig (Elt F) := fun c => StableHlo.after hostOps4_5 (U4_5 m ρ c)
abbrev U4_7 : Dev nD → Valuation τ sig (Elt F) := fun c => StableHlo.after hostOps4_6 (U4_6 m ρ c)
abbrev U4_8 : Dev nD → Valuation τ sig (Elt F) := fun c => StableHlo.after hostOps4_7 (U4_7 m ρ c)
abbrev U4_9 : Dev nD → Valuation τ sig (Elt F) := fun c => StableHlo.after hostOps4_8 (U4_8 m ρ c)
abbrev U4_10 : Dev nD → Valuation τ sig (Elt F) := fun c => StableHlo.after hostOps4_9 (U4_9 m ρ c)
abbrev U4_11 : Dev nD → Valuation τ sig (Elt F) := fun c => StableHlo.after hostOps4_10 (U4_10 m ρ c)
abbrev U4_12 : Dev nD → Valuation τ sig (Elt F) := fun c => StableHlo.after hostOps4_11 (U4_11 m ρ c)
abbrev U4_13 : Dev nD → Valuation τ sig (Elt F) := fun c => StableHlo.after hostOps4_12 (U4_12 m ρ c)
abbrev U4_14 : Dev nD → Valuation τ sig (Elt F) := fun c => StableHlo.after hostOps4_13 (U4_13 m ρ c)
theorem Wk9_eq (c : Dev nD) : Wk9 m ρ c = StableHlo.after hostOps4_14 (U4_14 m ρ c) := by
  simp only [Wk9, H4, StableHlo.after_append]

/-! ## The proof data family and the thread state -/

/-- The prefetched tables' admissible contents: no pipeline has a table. -/
abbrev adm : (p : Fin 4) → (pcfgs (F := F) p).Adm := fun p => (cfgs p).toPCfg_adm
/-- Every pipeline's proof data, each at its own region's entry contents. -/
def pdats : (p : Fin 4) → (c : Dev nD) → Dat τ (Elt F) Unit ℕ (UR sig nD τ) ℕ (Pipeline.pin (pcfgs (F := F)) adm p) c
  | ⟨0, _⟩ => fun c => dat0 (Vk1 m ρ) c
  | ⟨1, _⟩ => fun c => dat1 (Vk3 m ρ) c
  | ⟨2, _⟩ => fun c => dat2 (Vk5 m ρ) c
  | ⟨3, _⟩ => fun c => dat3 (Vk7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debt to
    other cores, which is nothing. -/
abbrev R (c : Dev nD) : sProp 𝕄 := iprop((∃ r, prngReg c r) ∗ ∃ W, owes (c : Thread nD τ) (0 : CellTallies nD τ sig Unit) W)
/-- A piece of a host stretch as a segment over the unscoped references from the contents W: it runs to those
    references at the fold of the piece's operations from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the contents at the return, the generator
    register at some state. -/
abbrev Tₙ (c : Dev nD) : sProp 𝕄 := iprop(StableHlo.held (c : Thread nD τ) (Pipeline.ucRefs τ sig) (Wk9 m ρ c) ∗ ∃ r, prngReg c r)

/-! ## The regions as segments

Each region is entered from every unscoped buffer at its entry contents and left at its exit contents. At entry its
windows' arrays are split out of the unscoped buffers at the proof data's entry contents; the generator register goes
into the pipeline's invariant and comes back; nothing is owed; the kernel has no semaphore of its own. At exit the
arrays, at what the write-backs leave, are joined with the untouched rest. -/

set_option maxHeartbeats 8000000 in
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vk1 m ρ) c).loose
  hwaits := Pipeline.hwaits_of_owed_zero _ _ _ _ L lv 0 fun _ _ => rfl
  pre c := iprop(StableHlo.held (c : Thread nD τ) (Pipeline.ucRefs τ sig) (Wk1 m ρ c) ∗ R c)
  post c := iprop(StableHlo.held (c : Thread nD τ) (Pipeline.ucRefs τ sig) (Wk2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vk1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vk1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vk1 m ρ c) (Vk2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 8000000 in
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vk3 m ρ) c).loose
  hwaits := Pipeline.hwaits_of_owed_zero _ _ _ _ L lv 1 fun _ _ => rfl
  pre c := iprop(StableHlo.held (c : Thread nD τ) (Pipeline.ucRefs τ sig) (Wk3 m ρ c) ∗ R c)
  post c := iprop(StableHlo.held (c : Thread nD τ) (Pipeline.ucRefs τ sig) (Wk4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vk3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vk3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vk3 m ρ c) (Vk4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 8000000 in
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vk5 m ρ) c).loose
  hwaits := Pipeline.hwaits_of_owed_zero _ _ _ _ L lv 2 fun _ _ => rfl
  pre c := iprop(StableHlo.held (c : Thread nD τ) (Pipeline.ucRefs τ sig) (Wk5 m ρ c) ∗ R c)
  post c := iprop(StableHlo.held (c : Thread nD τ) (Pipeline.ucRefs τ sig) (Wk6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vk5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vk5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vk5 m ρ c) (Vk6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 8000000 in
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vk7 m ρ) c).loose
  hwaits := Pipeline.hwaits_of_owed_zero _ _ _ _ L lv 3 fun _ _ => rfl
  pre c := iprop(StableHlo.held (c : Thread nD τ) (Pipeline.ucRefs τ sig) (Wk7 m ρ c) ∗ R c)
  post c := iprop(StableHlo.held (c : Thread nD τ) (Pipeline.ucRefs τ sig) (Wk8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vk7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vk7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vk7 m ρ c) (Vk8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 45 segments in order: a host segment per printed piece from the contents before it, a region per kernel call. -/
abbrev segs : List (Pipeline.Seg (pcfgs (F := F)) adm (pdats m ρ) () defs₀ 𝒱₀ L lv) :=
  [ .host (hseg hostOps0 hostOps0_sub hostOps0_fresh (Wk0 m ρ)),
    .host (hseg hostOps0_1 hostOps0_1_sub hostOps0_1_fresh (U0_1 m ρ)),
    .host (hseg hostOps0_2 hostOps0_2_sub hostOps0_2_fresh (U0_2 m ρ)),
    .host (hseg hostOps0_3 hostOps0_3_sub hostOps0_3_fresh (U0_3 m ρ)),
    .host (hseg hostOps0_4 hostOps0_4_sub hostOps0_4_fresh (U0_4 m ρ)),
    .host (hseg hostOps0_5 hostOps0_5_sub hostOps0_5_fresh (U0_5 m ρ)),
    .host (hseg hostOps0_6 hostOps0_6_sub hostOps0_6_fresh (U0_6 m ρ)),
    .region (reg0 m ρ),
    .host (hseg hostOps1 hostOps1_sub hostOps1_fresh (Wk2 m ρ)),
    .host (hseg hostOps1_1 hostOps1_1_sub hostOps1_1_fresh (U1_1 m ρ)),
    .host (hseg hostOps1_2 hostOps1_2_sub hostOps1_2_fresh (U1_2 m ρ)),
    .host (hseg hostOps1_3 hostOps1_3_sub hostOps1_3_fresh (U1_3 m ρ)),
    .host (hseg hostOps1_4 hostOps1_4_sub hostOps1_4_fresh (U1_4 m ρ)),
    .host (hseg hostOps1_5 hostOps1_5_sub hostOps1_5_fresh (U1_5 m ρ)),
    .region (reg1 m ρ),
    .host (hseg hostOps2 hostOps2_sub hostOps2_fresh (Wk4 m ρ)),
    .host (hseg hostOps2_1 hostOps2_1_sub hostOps2_1_fresh (U2_1 m ρ)),
    .host (hseg hostOps2_2 hostOps2_2_sub hostOps2_2_fresh (U2_2 m ρ)),
    .host (hseg hostOps2_3 hostOps2_3_sub hostOps2_3_fresh (U2_3 m ρ)),
    .host (hseg hostOps2_4 hostOps2_4_sub hostOps2_4_fresh (U2_4 m ρ)),
    .host (hseg hostOps2_5 hostOps2_5_sub hostOps2_5_fresh (U2_5 m ρ)),
    .region (reg2 m ρ),
    .host (hseg hostOps3 hostOps3_sub hostOps3_fresh (Wk6 m ρ)),
    .host (hseg hostOps3_1 hostOps3_1_sub hostOps3_1_fresh (U3_1 m ρ)),
    .host (hseg hostOps3_2 hostOps3_2_sub hostOps3_2_fresh (U3_2 m ρ)),
    .host (hseg hostOps3_3 hostOps3_3_sub hostOps3_3_fresh (U3_3 m ρ)),
    .host (hseg hostOps3_4 hostOps3_4_sub hostOps3_4_fresh (U3_4 m ρ)),
    .host (hseg hostOps3_5 hostOps3_5_sub hostOps3_5_fresh (U3_5 m ρ)),
    .region (reg3 m ρ),
    .host (hseg hostOps4 hostOps4_sub hostOps4_fresh (Wk8 m ρ)),
    .host (hseg hostOps4_1 hostOps4_1_sub hostOps4_1_fresh (U4_1 m ρ)),
    .host (hseg hostOps4_2 hostOps4_2_sub hostOps4_2_fresh (U4_2 m ρ)),
    .host (hseg hostOps4_3 hostOps4_3_sub hostOps4_3_fresh (U4_3 m ρ)),
    .host (hseg hostOps4_4 hostOps4_4_sub hostOps4_4_fresh (U4_4 m ρ)),
    .host (hseg hostOps4_5 hostOps4_5_sub hostOps4_5_fresh (U4_5 m ρ)),
    .host (hseg hostOps4_6 hostOps4_6_sub hostOps4_6_fresh (U4_6 m ρ)),
    .host (hseg hostOps4_7 hostOps4_7_sub hostOps4_7_fresh (U4_7 m ρ)),
    .host (hseg hostOps4_8 hostOps4_8_sub hostOps4_8_fresh (U4_8 m ρ)),
    .host (hseg hostOps4_9 hostOps4_9_sub hostOps4_9_fresh (U4_9 m ρ)),
    .host (hseg hostOps4_10 hostOps4_10_sub hostOps4_10_fresh (U4_10 m ρ)),
    .host (hseg hostOps4_11 hostOps4_11_sub hostOps4_11_fresh (U4_11 m ρ)),
    .host (hseg hostOps4_12 hostOps4_12_sub hostOps4_12_fresh (U4_12 m ρ)),
    .host (hseg hostOps4_13 hostOps4_13_sub hostOps4_13_fresh (U4_13 m ρ)),
    .host (hseg hostOps4_14 hostOps4_14_sub hostOps4_14_fresh (U4_14 m ρ)) ]

/-- @main is the run of the segments: it is the chain of its printed items, and the segments' run is the chain of the
    same items: the two sides unfold to one sequence of statements. -/
theorem main_run (c : Dev nD) : main (F := F) c = Pipeline.Seg.run (segs m ρ) := (main_chain c).trans (by chain_rfl)

/-- A region is entered from the stretch-level contents, which the last piece of the stretch before it leaves. -/
theorem into_region {c : Dev nD} {W W' : Valuation τ sig (Elt F)} (h : W' = W) :
    iprop(StableHlo.held (c : Thread nD τ) (Pipeline.ucRefs τ sig) W ∗ R c)
      ⊢ (iprop(StableHlo.held (c : Thread nD τ) (Pipeline.ucRefs τ sig) W' ∗ R c) : sProp 𝕄) := by
  subst h; exact .rfl

/-- The last piece leaves the contents at the return; the register and the core's debt, which is nothing, ride along and
    are regrouped. -/
theorem at_return {c : Dev nD} {W : Valuation τ sig (Elt F)} (h : Wk9 m ρ c = W) :
    iprop(StableHlo.held (c : Thread nD τ) (Pipeline.ucRefs τ sig) W ∗ R c)
      ⊢ (iprop(Tₙ m ρ c ∗ ∃ W, owes (c : Thread nD τ) (0 : CellTallies nD τ sig Unit) W) : sProp 𝕄) := by
  subst h
  iintro ⟨Hh, Hp, HO⟩
  isplitl [Hh Hp]
  · isplitl [Hh]; · iexact Hh
    iexact Hp
  iexact HO

/-- The thread states chain: each piece is entered from what the one before it left, by name; a region from the
    stretch-level contents (the fold of the whole stretch is the fold of its pieces in turn); the last piece leaves the
    contents at the return beside the register and the core owing nothing. -/
theorem chains : Pipeline.Seg.Chains
    (fun c => iprop(StableHlo.held (c : Thread nD τ) (Pipeline.ucRefs τ sig) (Wk0 m ρ c) ∗ R c)) (segs m ρ)
    (fun c => iprop(Tₙ m ρ c ∗ ∃ W, owes (c : Thread nD τ) (0 : CellTallies nD τ sig Unit) W)) :=
  ⟨fun _ => .rfl, fun _ => .rfl, fun _ => .rfl, fun _ => .rfl, fun _ => .rfl, fun _ => .rfl, fun _ => .rfl,
    fun c => into_region (Wk1_eq m ρ c),
    fun _ => .rfl, fun _ => .rfl, fun _ => .rfl, fun _ => .rfl, fun _ => .rfl, fun _ => .rfl,
    fun c => into_region (Wk3_eq m ρ c),
    fun _ => .rfl, fun _ => .rfl, fun _ => .rfl, fun _ => .rfl, fun _ => .rfl, fun _ => .rfl,
    fun c => into_region (Wk5_eq m ρ c),
    fun _ => .rfl, fun _ => .rfl, fun _ => .rfl, fun _ => .rfl, fun _ => .rfl, fun _ => .rfl,
    fun c => into_region (Wk7_eq m ρ c),
    fun _ => .rfl, fun _ => .rfl, fun _ => .rfl, fun _ => .rfl, fun _ => .rfl, fun _ => .rfl, fun _ => .rfl, fun _ => .rfl,
    fun _ => .rfl, fun _ => .rfl, fun _ => .rfl, fun _ => .rfl, fun _ => .rfl, fun _ => .rfl, fun _ => .rfl,
    fun c => at_return m ρ (Wk9_eq m ρ c)⟩

set_option backward.isDefEq.respectTransparency.types false in
/-- THE RUN: at the compiled mesh, from any memory with zero counters, every weakly fair execution of @main on the
    TensorCores terminates, nothing faulting, and every final state has every unscoped buffer at the contents at the
    return: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m ρ c) ∗ R c)) (Tₙ := Tₙ m ρ)
    (hch := chains m ρ)
    (hinit := by
      refine Pipeline.initEach L lv fun c => ?_
      rw [show unscopedBufs c (fun b => m ((c : Thread nD τ).loc b)) = StableHlo.held (c : Thread nD τ) (Pipeline.ucRefs τ sig) (Wk0 m ρ c)
        from Pipeline.unscopedBufs_held c (Wk0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wk9 m ρ c) s')
      isplitl [Hh] <;> iassumption)
    (hQ := fun s h c => h c)

end Cert.Kernel.Hand

end
-- ==== Proof.KBArgs.lean ====
/- The arguments of @main end as launched. @main's 19 arguments are the HBM references of index below 19; every
   host operation writes a result reference, of index 19 or more, and every window's array of every region is such a
   result too. So the fold of the contents through @main, read at an argument, walks back to the launch memory:
   a stretch of host operations keeps it (no operation writes it), a region keeps it (it is none of its arrays). -/
import proofs.«430033_j52948356825731_1_alg».proof.Proof.KBBound
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A list of operations that writes only result references keeps every argument -/

/-- Every reference the operation writes has index 19 or more: it is no argument of @main. -/
def WritesResults (op : HloOp τ sig (Elt F)) : Prop :=
  ∀ y : Ref sig .tc, Proc.devRef (τ := τ) .tc y ∈ op.writes → 19 ≤ y.idx.val

/-- An operation whose one written buffer is a reference of index 19 or more. -/
theorem writesResults_of_mem_singleton {op : HloOp τ sig (Elt F)} {y₀ : Ref sig .tc}
    (h : ∀ b, b ∈ op.writes → b = Proc.devRef (τ := τ) .tc y₀) (hy : 19 ≤ y₀.idx.val) : WritesResults op :=
  fun y e => by cases Proc.devRef_injective _ (h _ e); exact hy

/-- A list of such operations leaves a reference of index below 19 as it was. -/
theorem after_keeps_arg (ops : List (HloOp τ sig (Elt F))) (V : Valuation τ sig (Elt F))
    (h : ops.Forall WritesResults) (r : Ref sig .tc) (hr : r.idx.val < 19) :
    StableHlo.after ops V (Proc.devRef .tc r) = V (Proc.devRef .tc r) :=
  StableHlo.after_of_forall_not_mem ops V fun op hop hmem =>
    absurd ((List.forall_iff_forall_mem.mp h) op hop r hmem) (by omega)

/-! ## Each printed piece writes only result references

Each operation of a piece is a builder at a literal result reference, its written set that reference's singleton by
unfolding; the reference's index is compared by evaluation. -/

theorem hostOps0_res : (hostOps0 : List (HloOp τ sig (Elt F))).Forall WritesResults := by
  simp only [List.Forall]; repeat' apply And.intro
  all_goals exact writesResults_of_mem_singleton (fun _ e => Finset.mem_singleton.mp e) (by decide)
theorem hostOps0_1_res : (hostOps0_1 : List (HloOp τ sig (Elt F))).Forall WritesResults := by
  simp only [List.Forall]; repeat' apply And.intro
  all_goals exact writesResults_of_mem_singleton (fun _ e => Finset.mem_singleton.mp e) (by decide)
theorem hostOps0_2_res : (hostOps0_2 : List (HloOp τ sig (Elt F))).Forall WritesResults := by
  simp only [List.Forall]; repeat' apply And.intro
  all_goals exact writesResults_of_mem_singleton (fun _ e => Finset.mem_singleton.mp e) (by decide)
set_option maxHeartbeats 4000000 in
theorem hostOps0_3_res : (hostOps0_3 : List (HloOp τ sig (Elt F))).Forall WritesResults := by
  simp only [List.Forall]; repeat' apply And.intro
  all_goals exact writesResults_of_mem_singleton (fun _ e => Finset.mem_singleton.mp e) (by decide)
theorem hostOps0_4_res : (hostOps0_4 : List (HloOp τ sig (Elt F))).Forall WritesResults := by
  simp only [List.Forall]; repeat' apply And.intro
  all_goals exact writesResults_of_mem_singleton (fun _ e => Finset.mem_singleton.mp e) (by decide)
theorem hostOps0_5_res : (hostOps0_5 : List (HloOp τ sig (Elt F))).Forall WritesResults := by
  simp only [List.Forall]; repeat' apply And.intro
  all_goals exact writesResults_of_mem_singleton (fun _ e => Finset.mem_singleton.mp e) (by decide)
theorem hostOps0_6_res : (hostOps0_6 : List (HloOp τ sig (Elt F))).Forall WritesResults := by
  simp only [List.Forall]; repeat' apply And.intro
  all_goals exact writesResults_of_mem_singleton (fun _ e => Finset.mem_singleton.mp e) (by decide)

theorem hostOps1_res : (hostOps1 : List (HloOp τ sig (Elt F))).Forall WritesResults := by
  simp only [List.Forall]; repeat' apply And.intro
  all_goals exact writesResults_of_mem_singleton (fun _ e => Finset.mem_singleton.mp e) (by decide)
theorem hostOps1_1_res : (hostOps1_1 : List (HloOp τ sig (Elt F))).Forall WritesResults := by
  simp only [List.Forall]; repeat' apply And.intro
  all_goals exact writesResults_of_mem_singleton (fun _ e => Finset.mem_singleton.mp e) (by decide)
theorem hostOps1_2_res : (hostOps1_2 : List (HloOp τ sig (Elt F))).Forall WritesResults := by
  simp only [List.Forall]; repeat' apply And.intro
  all_goals exact writesResults_of_mem_singleton (fun _ e => Finset.mem_singleton.mp e) (by decide)
theorem hostOps1_3_res : (hostOps1_3 : List (HloOp τ sig (Elt F))).Forall WritesResults := by
  simp only [List.Forall]; repeat' apply And.intro
  all_goals exact writesResults_of_mem_singleton (fun _ e => Finset.mem_singleton.mp e) (by decide)
theorem hostOps1_4_res : (hostOps1_4 : List (HloOp τ sig (Elt F))).Forall WritesResults := by
  simp only [List.Forall]; repeat' apply And.intro
  all_goals exact writesResults_of_mem_singleton (fun _ e => Finset.mem_singleton.mp e) (by decide)
theorem hostOps1_5_res : (hostOps1_5 : List (HloOp τ sig (Elt F))).Forall WritesResults := by
  simp only [List.Forall]; repeat' apply And.intro
  all_goals exact writesResults_of_mem_singleton (fun _ e => Finset.mem_singleton.mp e) (by decide)

theorem hostOps2_res : (hostOps2 : List (HloOp τ sig (Elt F))).Forall WritesResults := by
  simp only [List.Forall]; repeat' apply And.intro
  all_goals exact writesResults_of_mem_singleton (fun _ e => Finset.mem_singleton.mp e) (by decide)
theorem hostOps2_1_res : (hostOps2_1 : List (HloOp τ sig (Elt F))).Forall WritesResults := by
  simp only [List.Forall]; repeat' apply And.intro
  all_goals exact writesResults_of_mem_singleton (fun _ e => Finset.mem_singleton.mp e) (by decide)
theorem hostOps2_2_res : (hostOps2_2 : List (HloOp τ sig (Elt F))).Forall WritesResults := by
  simp only [List.Forall]; repeat' apply And.intro
  all_goals exact writesResults_of_mem_singleton (fun _ e => Finset.mem_singleton.mp e) (by decide)
theorem hostOps2_3_res : (hostOps2_3 : List (HloOp τ sig (Elt F))).Forall WritesResults := by
  simp only [List.Forall]; repeat' apply And.intro
  all_goals exact writesResults_of_mem_singleton (fun _ e => Finset.mem_singleton.mp e) (by decide)
theorem hostOps2_4_res : (hostOps2_4 : List (HloOp τ sig (Elt F))).Forall WritesResults := by
  simp only [List.Forall]; repeat' apply And.intro
  all_goals exact writesResults_of_mem_singleton (fun _ e => Finset.mem_singleton.mp e) (by decide)
theorem hostOps2_5_res : (hostOps2_5 : List (HloOp τ sig (Elt F))).Forall WritesResults := by
  simp only [List.Forall]; repeat' apply And.intro
  all_goals exact writesResults_of_mem_singleton (fun _ e => Finset.mem_singleton.mp e) (by decide)

theorem hostOps3_res : (hostOps3 : List (HloOp τ sig (Elt F))).Forall WritesResults := by
  simp only [List.Forall]; repeat' apply And.intro
  all_goals exact writesResults_of_mem_singleton (fun _ e => Finset.mem_singleton.mp e) (by decide)
theorem hostOps3_1_res : (hostOps3_1 : List (HloOp τ sig (Elt F))).Forall WritesResults := by
  simp only [List.Forall]; repeat' apply And.intro
  all_goals exact writesResults_of_mem_singleton (fun _ e => Finset.mem_singleton.mp e) (by decide)
theorem hostOps3_2_res : (hostOps3_2 : List (HloOp τ sig (Elt F))).Forall WritesResults := by
  simp only [List.Forall]; repeat' apply And.intro
  all_goals exact writesResults_of_mem_singleton (fun _ e => Finset.mem_singleton.mp e) (by decide)
theorem hostOps3_3_res : (hostOps3_3 : List (HloOp τ sig (Elt F))).Forall WritesResults := by
  simp only [List.Forall]; repeat' apply And.intro
  all_goals exact writesResults_of_mem_singleton (fun _ e => Finset.mem_singleton.mp e) (by decide)
theorem hostOps3_4_res : (hostOps3_4 : List (HloOp τ sig (Elt F))).Forall WritesResults := by
  simp only [List.Forall]; repeat' apply And.intro
  all_goals exact writesResults_of_mem_singleton (fun _ e => Finset.mem_singleton.mp e) (by decide)
theorem hostOps3_5_res : (hostOps3_5 : List (HloOp τ sig (Elt F))).Forall WritesResults := by
  simp only [List.Forall]; repeat' apply And.intro
  all_goals exact writesResults_of_mem_singleton (fun _ e => Finset.mem_singleton.mp e) (by decide)

theorem hostOps4_res : (hostOps4 : List (HloOp τ sig (Elt F))).Forall WritesResults := by
  simp only [List.Forall]; repeat' apply And.intro
  all_goals exact writesResults_of_mem_singleton (fun _ e => Finset.mem_singleton.mp e) (by decide)
theorem hostOps4_1_res : (hostOps4_1 : List (HloOp τ sig (Elt F))).Forall WritesResults := by
  simp only [List.Forall]; repeat' apply And.intro
  all_goals exact writesResults_of_mem_singleton (fun _ e => Finset.mem_singleton.mp e) (by decide)
theorem hostOps4_2_res : (hostOps4_2 : List (HloOp τ sig (Elt F))).Forall WritesResults := by
  simp only [List.Forall]; repeat' apply And.intro
  all_goals exact writesResults_of_mem_singleton (fun _ e => Finset.mem_singleton.mp e) (by decide)
theorem hostOps4_3_res : (hostOps4_3 : List (HloOp τ sig (Elt F))).Forall WritesResults := by
  simp only [List.Forall]; repeat' apply And.intro
  all_goals exact writesResults_of_mem_singleton (fun _ e => Finset.mem_singleton.mp e) (by decide)
theorem hostOps4_4_res : (hostOps4_4 : List (HloOp τ sig (Elt F))).Forall WritesResults := by
  simp only [List.Forall]; repeat' apply And.intro
  all_goals exact writesResults_of_mem_singleton (fun _ e => Finset.mem_singleton.mp e) (by decide)
theorem hostOps4_5_res : (hostOps4_5 : List (HloOp τ sig (Elt F))).Forall WritesResults := by
  simp only [List.Forall]; repeat' apply And.intro
  all_goals exact writesResults_of_mem_singleton (fun _ e => Finset.mem_singleton.mp e) (by decide)
theorem hostOps4_6_res : (hostOps4_6 : List (HloOp τ sig (Elt F))).Forall WritesResults := by
  simp only [List.Forall]; repeat' apply And.intro
  all_goals exact writesResults_of_mem_singleton (fun _ e => Finset.mem_singleton.mp e) (by decide)
theorem hostOps4_7_res : (hostOps4_7 : List (HloOp τ sig (Elt F))).Forall WritesResults := by
  simp only [List.Forall]; repeat' apply And.intro
  all_goals exact writesResults_of_mem_singleton (fun _ e => Finset.mem_singleton.mp e) (by decide)
theorem hostOps4_8_res : (hostOps4_8 : List (HloOp τ sig (Elt F))).Forall WritesResults := by
  simp only [List.Forall]; repeat' apply And.intro
  all_goals exact writesResults_of_mem_singleton (fun _ e => Finset.mem_singleton.mp e) (by decide)
theorem hostOps4_9_res : (hostOps4_9 : List (HloOp τ sig (Elt F))).Forall WritesResults := by
  simp only [List.Forall]; repeat' apply And.intro
  all_goals exact writesResults_of_mem_singleton (fun _ e => Finset.mem_singleton.mp e) (by decide)
set_option maxHeartbeats 4000000 in
theorem hostOps4_10_res : (hostOps4_10 : List (HloOp τ sig (Elt F))).Forall WritesResults := by
  simp only [List.Forall]; repeat' apply And.intro
  all_goals exact writesResults_of_mem_singleton (fun _ e => Finset.mem_singleton.mp e) (by decide)
theorem hostOps4_11_res : (hostOps4_11 : List (HloOp τ sig (Elt F))).Forall WritesResults := by
  simp only [List.Forall]; repeat' apply And.intro
  all_goals exact writesResults_of_mem_singleton (fun _ e => Finset.mem_singleton.mp e) (by decide)
theorem hostOps4_12_res : (hostOps4_12 : List (HloOp τ sig (Elt F))).Forall WritesResults := by
  simp only [List.Forall]; repeat' apply And.intro
  all_goals exact writesResults_of_mem_singleton (fun _ e => Finset.mem_singleton.mp e) (by decide)
theorem hostOps4_13_res : (hostOps4_13 : List (HloOp τ sig (Elt F))).Forall WritesResults := by
  simp only [List.Forall]; repeat' apply And.intro
  all_goals exact writesResults_of_mem_singleton (fun _ e => Finset.mem_singleton.mp e) (by decide)
theorem hostOps4_14_res : (hostOps4_14 : List (HloOp τ sig (Elt F))).Forall WritesResults := by
  simp only [List.Forall]; repeat' apply And.intro
  all_goals exact writesResults_of_mem_singleton (fun _ e => Finset.mem_singleton.mp e) (by decide)

/-! ## A whole stretch writes only result references -/

universe u in
/-- A property of every element of two lists holds of every element of their concatenation. -/
theorem forall_append {α : Type u} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem H0_res : (H0 : List (HloOp τ sig (Elt F))).Forall WritesResults :=
  forall_append (forall_append (forall_append (forall_append (forall_append (forall_append
    hostOps0_res hostOps0_1_res) hostOps0_2_res) hostOps0_3_res) hostOps0_4_res) hostOps0_5_res) hostOps0_6_res
theorem H1_res : (H1 : List (HloOp τ sig (Elt F))).Forall WritesResults :=
  forall_append (forall_append (forall_append (forall_append (forall_append
    hostOps1_res hostOps1_1_res) hostOps1_2_res) hostOps1_3_res) hostOps1_4_res) hostOps1_5_res
theorem H2_res : (H2 : List (HloOp τ sig (Elt F))).Forall WritesResults :=
  forall_append (forall_append (forall_append (forall_append (forall_append
    hostOps2_res hostOps2_1_res) hostOps2_2_res) hostOps2_3_res) hostOps2_4_res) hostOps2_5_res
theorem H3_res : (H3 : List (HloOp τ sig (Elt F))).Forall WritesResults :=
  forall_append (forall_append (forall_append (forall_append (forall_append
    hostOps3_res hostOps3_1_res) hostOps3_2_res) hostOps3_3_res) hostOps3_4_res) hostOps3_5_res
theorem H4_res : (H4 : List (HloOp τ sig (Elt F))).Forall WritesResults :=
  forall_append (forall_append (forall_append (forall_append (forall_append (forall_append (forall_append
    (forall_append (forall_append (forall_append (forall_append (forall_append (forall_append (forall_append
    hostOps4_res hostOps4_1_res) hostOps4_2_res) hostOps4_3_res) hostOps4_4_res) hostOps4_5_res) hostOps4_6_res)
    hostOps4_7_res) hostOps4_8_res) hostOps4_9_res) hostOps4_10_res) hostOps4_11_res) hostOps4_12_res)
    hostOps4_13_res) hostOps4_14_res

/-! ## No window's array of any region is an argument -/

theorem arr0_res : ∀ w, 19 ≤ (Pipeline.arrRef spec0 w).idx.val := by decide
theorem arr1_res : ∀ w, 19 ≤ (Pipeline.arrRef spec1 w).idx.val := by decide
theorem arr2_res : ∀ w, 19 ≤ (Pipeline.arrRef spec2 w).idx.val := by decide
theorem arr3_res : ∀ w, 19 ≤ (Pipeline.arrRef spec3 w).idx.val := by decide

variable (m : (ℓ : Loc nD τ sig) → Buf (Elt F) ℓ) (ρ : Dev nD → PrngReg)

/-! ## Every boundary's contents at an argument are the launch memory's

Walking the fold back from a boundary: a stretch keeps a reference of index below 19, a region keeps a reference
that is none of its windows' arrays. -/

theorem Wk1_arg (c : Dev nD) (r : Ref sig .tc) (hr : r.idx.val < 19) :
    Wk1 m ρ c (Proc.devRef .tc r) = m ((c : Thread nD τ).loc r) :=
  (after_keeps_arg H0 _ H0_res r hr).trans rfl
theorem Wk2_arg (c : Dev nD) (r : Ref sig .tc) (hr : r.idx.val < 19) :
    Wk2 m ρ c (Proc.devRef .tc r) = m ((c : Thread nD τ).loc r) :=
  (Wk2_of_ne m ρ c r fun w e => by have h := arr0_res w; rw [e] at h; omega).trans (Wk1_arg m ρ c r hr)
theorem Wk3_arg (c : Dev nD) (r : Ref sig .tc) (hr : r.idx.val < 19) :
    Wk3 m ρ c (Proc.devRef .tc r) = m ((c : Thread nD τ).loc r) :=
  (after_keeps_arg H1 _ H1_res r hr).trans (Wk2_arg m ρ c r hr)
theorem Wk4_arg (c : Dev nD) (r : Ref sig .tc) (hr : r.idx.val < 19) :
    Wk4 m ρ c (Proc.devRef .tc r) = m ((c : Thread nD τ).loc r) :=
  (Wk4_of_ne m ρ c r fun w e => by have h := arr1_res w; rw [e] at h; omega).trans (Wk3_arg m ρ c r hr)
theorem Wk5_arg (c : Dev nD) (r : Ref sig .tc) (hr : r.idx.val < 19) :
    Wk5 m ρ c (Proc.devRef .tc r) = m ((c : Thread nD τ).loc r) :=
  (after_keeps_arg H2 _ H2_res r hr).trans (Wk4_arg m ρ c r hr)
theorem Wk6_arg (c : Dev nD) (r : Ref sig .tc) (hr : r.idx.val < 19) :
    Wk6 m ρ c (Proc.devRef .tc r) = m ((c : Thread nD τ).loc r) :=
  (Wk6_of_ne m ρ c r fun w e => by have h := arr2_res w; rw [e] at h; omega).trans (Wk5_arg m ρ c r hr)
theorem Wk7_arg (c : Dev nD) (r : Ref sig .tc) (hr : r.idx.val < 19) :
    Wk7 m ρ c (Proc.devRef .tc r) = m ((c : Thread nD τ).loc r) :=
  (after_keeps_arg H3 _ H3_res r hr).trans (Wk6_arg m ρ c r hr)
theorem Wk8_arg (c : Dev nD) (r : Ref sig .tc) (hr : r.idx.val < 19) :
    Wk8 m ρ c (Proc.devRef .tc r) = m ((c : Thread nD τ).loc r) :=
  (Wk8_of_ne m ρ c r fun w e => by have h := arr3_res w; rw [e] at h; omega).trans (Wk7_arg m ρ c r hr)
theorem Wk9_arg (c : Dev nD) (r : Ref sig .tc) (hr : r.idx.val < 19) :
    Wk9 m ρ c (Proc.devRef .tc r) = m ((c : Thread nD τ).loc r) :=
  (after_keeps_arg H4 _ H4_res r hr).trans (Wk8_arg m ρ c r hr)

/-! ## The 19 arguments at the return -/

theorem Wk9_main_arg0 (c : Dev nD) : Wk9 m ρ c (Proc.devRef .tc main_arg0) = m ((c : Thread nD τ).loc main_arg0) :=
  Wk9_arg m ρ c main_arg0 (by decide)
theorem Wk9_main_arg1 (c : Dev nD) : Wk9 m ρ c (Proc.devRef .tc main_arg1) = m ((c : Thread nD τ).loc main_arg1) :=
  Wk9_arg m ρ c main_arg1 (by decide)
theorem Wk9_main_arg2 (c : Dev nD) : Wk9 m ρ c (Proc.devRef .tc main_arg2) = m ((c : Thread nD τ).loc main_arg2) :=
  Wk9_arg m ρ c main_arg2 (by decide)
theorem Wk9_main_arg3 (c : Dev nD) : Wk9 m ρ c (Proc.devRef .tc main_arg3) = m ((c : Thread nD τ).loc main_arg3) :=
  Wk9_arg m ρ c main_arg3 (by decide)
theorem Wk9_main_arg4 (c : Dev nD) : Wk9 m ρ c (Proc.devRef .tc main_arg4) = m ((c : Thread nD τ).loc main_arg4) :=
  Wk9_arg m ρ c main_arg4 (by decide)
theorem Wk9_main_arg5 (c : Dev nD) : Wk9 m ρ c (Proc.devRef .tc main_arg5) = m ((c : Thread nD τ).loc main_arg5) :=
  Wk9_arg m ρ c main_arg5 (by decide)
theorem Wk9_main_arg6 (c : Dev nD) : Wk9 m ρ c (Proc.devRef .tc main_arg6) = m ((c : Thread nD τ).loc main_arg6) :=
  Wk9_arg m ρ c main_arg6 (by decide)
theorem Wk9_main_arg7 (c : Dev nD) : Wk9 m ρ c (Proc.devRef .tc main_arg7) = m ((c : Thread nD τ).loc main_arg7) :=
  Wk9_arg m ρ c main_arg7 (by decide)
theorem Wk9_main_arg8 (c : Dev nD) : Wk9 m ρ c (Proc.devRef .tc main_arg8) = m ((c : Thread nD τ).loc main_arg8) :=
  Wk9_arg m ρ c main_arg8 (by decide)
theorem Wk9_main_arg9 (c : Dev nD) : Wk9 m ρ c (Proc.devRef .tc main_arg9) = m ((c : Thread nD τ).loc main_arg9) :=
  Wk9_arg m ρ c main_arg9 (by decide)
theorem Wk9_main_arg10 (c : Dev nD) : Wk9 m ρ c (Proc.devRef .tc main_arg10) = m ((c : Thread nD τ).loc main_arg10) :=
  Wk9_arg m ρ c main_arg10 (by decide)
theorem Wk9_main_arg11 (c : Dev nD) : Wk9 m ρ c (Proc.devRef .tc main_arg11) = m ((c : Thread nD τ).loc main_arg11) :=
  Wk9_arg m ρ c main_arg11 (by decide)
theorem Wk9_main_arg12 (c : Dev nD) : Wk9 m ρ c (Proc.devRef .tc main_arg12) = m ((c : Thread nD τ).loc main_arg12) :=
  Wk9_arg m ρ c main_arg12 (by decide)
theorem Wk9_main_arg13 (c : Dev nD) : Wk9 m ρ c (Proc.devRef .tc main_arg13) = m ((c : Thread nD τ).loc main_arg13) :=
  Wk9_arg m ρ c main_arg13 (by decide)
theorem Wk9_main_arg14 (c : Dev nD) : Wk9 m ρ c (Proc.devRef .tc main_arg14) = m ((c : Thread nD τ).loc main_arg14) :=
  Wk9_arg m ρ c main_arg14 (by decide)
theorem Wk9_main_arg15 (c : Dev nD) : Wk9 m ρ c (Proc.devRef .tc main_arg15) = m ((c : Thread nD τ).loc main_arg15) :=
  Wk9_arg m ρ c main_arg15 (by decide)
theorem Wk9_main_arg16 (c : Dev nD) : Wk9 m ρ c (Proc.devRef .tc main_arg16) = m ((c : Thread nD τ).loc main_arg16) :=
  Wk9_arg m ρ c main_arg16 (by decide)
theorem Wk9_main_arg17 (c : Dev nD) : Wk9 m ρ c (Proc.devRef .tc main_arg17) = m ((c : Thread nD τ).loc main_arg17) :=
  Wk9_arg m ρ c main_arg17 (by decide)
theorem Wk9_main_arg18 (c : Dev nD) : Wk9 m ρ c (Proc.devRef .tc main_arg18) = m ((c : Thread nD τ).loc main_arg18) :=
  Wk9_arg m ρ c main_arg18 (by decide)

end Cert.Kernel.Hand

end
-- ==== Proof.KBFrame.lean ====
/- The two statements about @main's run that the claim uses, read off the run: every final state has each of the
   19 argument arrays as launched (the frame), and has each result array at the contents the fold through @main
   gives it at the return. Both follow from the run's conclusion, which names every unscoped buffer's final contents:
   a result is read there directly, an argument is read there and walked back to the launch memory. -/
import proofs.«430033_j52948356825731_1_alg».proof.Proof.KBRun
import proofs.«430033_j52948356825731_1_alg».proof.Proof.KBArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- THE FRAME: from any memory with zero counters every weakly fair execution of @main on the TensorCores
    terminates, nothing faulting, and every final state has the 19 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    have rd : ∀ (b : Ref sig .tc) (hb : ¬ (Proc.devRef .tc b : DevRef τ sig).isScoped),
        r.2.mem ((c.tc : Thread nD τ).loc b) = Wk9 m ρ c (Proc.devRef .tc b) := fun b hb => h c _ (mem_uc b hb)
    ⟨(rd main_arg0 (by decide)).trans (Wk9_main_arg0 m ρ c),
     (rd main_arg1 (by decide)).trans (Wk9_main_arg1 m ρ c),
     (rd main_arg2 (by decide)).trans (Wk9_main_arg2 m ρ c),
     (rd main_arg3 (by decide)).trans (Wk9_main_arg3 m ρ c),
     (rd main_arg4 (by decide)).trans (Wk9_main_arg4 m ρ c),
     (rd main_arg5 (by decide)).trans (Wk9_main_arg5 m ρ c),
     (rd main_arg6 (by decide)).trans (Wk9_main_arg6 m ρ c),
     (rd main_arg7 (by decide)).trans (Wk9_main_arg7 m ρ c),
     (rd main_arg8 (by decide)).trans (Wk9_main_arg8 m ρ c),
     (rd main_arg9 (by decide)).trans (Wk9_main_arg9 m ρ c),
     (rd main_arg10 (by decide)).trans (Wk9_main_arg10 m ρ c),
     (rd main_arg11 (by decide)).trans (Wk9_main_arg11 m ρ c),
     (rd main_arg12 (by decide)).trans (Wk9_main_arg12 m ρ c),
     (rd main_arg13 (by decide)).trans (Wk9_main_arg13 m ρ c),
     (rd main_arg14 (by decide)).trans (Wk9_main_arg14 m ρ c),
     (rd main_arg15 (by decide)).trans (Wk9_main_arg15 m ρ c),
     (rd main_arg16 (by decide)).trans (Wk9_main_arg16 m ρ c),
     (rd main_arg17 (by decide)).trans (Wk9_main_arg17 m ρ c),
     (rd main_arg18 (by decide)).trans (Wk9_main_arg18 m ρ c)⟩) (run_all m ρ)

/-- THE RESULTS: the same run, and every final state has each of the 12 result arrays at the contents the fold through
    @main gives it at the return, and the 19 argument arrays as launched. -/
theorem run_results : θ_run defs (onTc (τ := τ) (main (F := F))) ⟨m, fun _ => 0, ρ⟩ (fun r => ∀ c : Dev nD,
      r.2.mem ((c.tc : Thread nD τ).loc main_v224) = Wk9 m ρ c (Proc.devRef .tc main_v224)
      ∧ r.2.mem ((c.tc : Thread nD τ).loc main_v413) = Wk9 m ρ c (Proc.devRef .tc main_v413)
      ∧ r.2.mem ((c.tc : Thread nD τ).loc main_arg3) = Wk9 m ρ c (Proc.devRef .tc main_arg3)
      ∧ r.2.mem ((c.tc : Thread nD τ).loc main_v160_2) = Wk9 m ρ c (Proc.devRef .tc main_v160_2)
      ∧ r.2.mem ((c.tc : Thread nD τ).loc main_v126) = Wk9 m ρ c (Proc.devRef .tc main_v126)
      ∧ r.2.mem ((c.tc : Thread nD τ).loc main_v138) = Wk9 m ρ c (Proc.devRef .tc main_v138)
      ∧ r.2.mem ((c.tc : Thread nD τ).loc main_v151) = Wk9 m ρ c (Proc.devRef .tc main_v151)
      ∧ r.2.mem ((c.tc : Thread nD τ).loc main_v166) = Wk9 m ρ c (Proc.devRef .tc main_v166)
      ∧ r.2.mem ((c.tc : Thread nD τ).loc main_v120_1) = Wk9 m ρ c (Proc.devRef .tc main_v120_1)
      ∧ r.2.mem ((c.tc : Thread nD τ).loc main_v132_1) = Wk9 m ρ c (Proc.devRef .tc main_v132_1)
      ∧ r.2.mem ((c.tc : Thread nD τ).loc main_v145_1) = Wk9 m ρ c (Proc.devRef .tc main_v145_1)
      ∧ r.2.mem ((c.tc : Thread nD τ).loc main_v160_1) = Wk9 m ρ c (Proc.devRef .tc main_v160_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    have rd : ∀ (b : Ref sig .tc) (hb : ¬ (Proc.devRef .tc b : DevRef τ sig).isScoped),
        r.2.mem ((c.tc : Thread nD τ).loc b) = Wk9 m ρ c (Proc.devRef .tc b) := fun b hb => h c _ (mem_uc b hb)
    ⟨rd main_v224 (by decide),
     rd main_v413 (by decide),
     rd main_arg3 (by decide),
     rd main_v160_2 (by decide),
     rd main_v126 (by decide),
     rd main_v138 (by decide),
     rd main_v151 (by decide),
     rd main_v166 (by decide),
     rd main_v120_1 (by decide),
     rd main_v132_1 (by decide),
     rd main_v145_1 (by decide),
     rd main_v160_1 (by decide),
     (rd main_arg0 (by decide)).trans (Wk9_main_arg0 m ρ c),
     (rd main_arg1 (by decide)).trans (Wk9_main_arg1 m ρ c),
     (rd main_arg2 (by decide)).trans (Wk9_main_arg2 m ρ c),
     (rd main_arg3 (by decide)).trans (Wk9_main_arg3 m ρ c),
     (rd main_arg4 (by decide)).trans (Wk9_main_arg4 m ρ c),
     (rd main_arg5 (by decide)).trans (Wk9_main_arg5 m ρ c),
     (rd main_arg6 (by decide)).trans (Wk9_main_arg6 m ρ c),
     (rd main_arg7 (by decide)).trans (Wk9_main_arg7 m ρ c),
     (rd main_arg8 (by decide)).trans (Wk9_main_arg8 m ρ c),
     (rd main_arg9 (by decide)).trans (Wk9_main_arg9 m ρ c),
     (rd main_arg10 (by decide)).trans (Wk9_main_arg10 m ρ c),
     (rd main_arg11 (by decide)).trans (Wk9_main_arg11 m ρ c),
     (rd main_arg12 (by decide)).trans (Wk9_main_arg12 m ρ c),
     (rd main_arg13 (by decide)).trans (Wk9_main_arg13 m ρ c),
     (rd main_arg14 (by decide)).trans (Wk9_main_arg14 m ρ c),
     (rd main_arg15 (by decide)).trans (Wk9_main_arg15 m ρ c),
     (rd main_arg16 (by decide)).trans (Wk9_main_arg16 m ρ c),
     (rd main_arg17 (by decide)).trans (Wk9_main_arg17 m ρ c),
     (rd main_arg18 (by decide)).trans (Wk9_main_arg18 m ρ c)⟩) (run_all m ρ)

end Cert.Kernel.Hand

end
-- ==== Proof.KIReg0.lean ====
import proofs.«430033_j52948356825731_1_alg».proof.Proof.Gen.KernelIdeal.Launch
import proofs.«430033_j52948356825731_1_alg».proof.Proof.Gen.KernelIdeal.Skeleton
import proofs.«430033_j52948356825731_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the per-region half of the frame, at the contents `V` the region is entered with

The pipeline has seven windows. Windows 0, 1, 2 are row blocks of the three feature arrays; window 3 is the
whole weight matrix and window 4 the whole bias row, both with a block index that never moves; windows 5, 6
are row blocks of the two results. At a grid point the body reads the five input blocks whole and writes each
result block whole, so what it leaves in a result's buffer is a function of the five input blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read from the window's array as `V` gives it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- For proof data whose array of window 0 is `V`'s and whose body leaves that window's block in place, the
    window's current buffer holds the block at every grid point: at a point where the window is fetched, by the
    fetch; elsewhere because the block index is the previous point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- For proof data whose array of window 1 is `V`'s and whose body leaves that window's block in place, the
    window's current buffer holds the block at every grid point: at a point where the window is fetched, by the
    fetch; elsewhere because the block index is the previous point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- For proof data whose array of window 2 is `V`'s and whose body leaves that window's block in place, the
    window's current buffer holds the block at every grid point: at a point where the window is fetched, by the
    fetch; elsewhere because the block index is the previous point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- For proof data whose array of window 3 is `V`'s and whose body leaves that window's block in place, the
    window's current buffer holds the block at every grid point: at a point where the window is fetched, by the
    fetch; elsewhere because the block index is the previous point's (this window's index never moves: it is fetched once per sweep). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- For proof data whose array of window 4 is `V`'s and whose body leaves that window's block in place, the
    window's current buffer holds the block at every grid point: at a point where the window is fetched, by the
    fetch; elsewhere because the block index is the previous point's (this window's index never moves: it is fetched once per sweep). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

abbrev r0_0 : Rect S2000x132 := Rect.unit (s := S2000x132) ![0, 0] S2000x132.size inb_S2000x132_S2000x132_0_0
abbrev r0_1 : Rect S2000x132 := Rect.unit (s := S2000x132) ![0, 0] S2000x132.size inb_S2000x132_S2000x132_0_0
abbrev r0_2 : Rect S2000x132 := Rect.unit (s := S2000x132) ![0, 0] S2000x132.size inb_S2000x132_S2000x132_0_0
abbrev r0_3 : Rect S396x128 := Rect.unit (s := S396x128) ![0, 0] S396x128.size inb_S396x128_S396x128_0_0
abbrev r0_4 : Rect S1x128 := Rect.unit (s := S1x128) ![0, 0] S1x128.size inb_S1x128_S1x128_0_0
abbrev r0_o : Rect S2000x128 := Rect.unit (s := S2000x128) ![0, 0] S2000x128.size inb_S2000x128_S2000x128_0_0

/-! ## What the body leaves in each result window's buffer -/

/-- Window 5's buffer after the body, as a function of the five input blocks: one store, of the whole block. -/
def out0_5 (x0 : Vec F S2000x132 .f32) (x1 : Vec F S2000x132 .f32) (x2 : Vec F S2000x132 .f32) (x3 : Vec F S396x128 .bf16) (x4 : Vec F S1x128 .f32) : Vec F S2000x128 .f32 :=
  View.canon [⟨r0_o, k0_pay1 (View.ld x0 r0_0) (View.ld x1 r0_1) (View.ld x2 r0_2) (View.ld x3 r0_3) (View.ld x4 r0_4)⟩]

/-- Window 6's buffer after the body, likewise. -/
def out0_6 (x0 : Vec F S2000x132 .f32) (x1 : Vec F S2000x132 .f32) (x2 : Vec F S2000x132 .f32) (x3 : Vec F S396x128 .bf16) (x4 : Vec F S1x128 .f32) : Vec F S2000x128 .f32 :=
  View.canon [⟨r0_o, k0_pay2 (View.ld x0 r0_0) (View.ld x1 r0_1) (View.ld x2 r0_2) (View.ld x3 r0_3) (View.ld x4 r0_4)⟩]

/-- The one store is of the whole buffer, so it covers every index. -/
theorem cover0_o (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

/-! ## The body's triple -/

set_option maxHeartbeats 4000000 in
/-- The body on whole buffers, the five inputs' at contents `x0 … x4` and the two results' at anything, runs to a
    state with the inputs' buffers unchanged and the results' at `out0_5`, `out0_6` of the inputs: the loads return
    the buffers' contents, each result buffer is read (the value is not used) and then stored whole. -/
theorem sound_kernel0 (c : Dev nD) (E : Set ℕ) (i : grid0.Coords)
    (arg0 : Memref sig .tc .vmem S2000x132 .f32) (harg0 : arg0.IsWhole) (arg1 : Memref sig .tc .vmem S2000x132 .f32) (harg1 : arg1.IsWhole)
    (arg2 : Memref sig .tc .vmem S2000x132 .f32) (harg2 : arg2.IsWhole) (arg3 : Memref sig .tc .vmem S396x128 .bf16) (harg3 : arg3.IsWhole)
    (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x132 .f32) (x1 : Vec F S2000x132 .f32) (x2 : Vec F S2000x132 .f32) (x3 : Vec F S396x128 .bf16) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4) ∗ owns (c : Thread nD τ) arg6 fullShare (out0_6 x0 x1 x2 x3 x4)) -∗ K ⟨⟩))
      ⊢ wp frame (wpE (defs₀ (F := F)) Variants.none c none) E (cc0__edge_mlp_kernel i arg0 harg0 arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The pipeline's proof data -/

/-- Proof data of the pipeline on core `c`: the arrays as `V` gives them; after the body at point `t` each input's
    buffer holds its block and each result's holds `out0_5`, `out0_6` of the five input blocks; the invariant is the
    scoped rest and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic grid point -/

/-- What the body is called with at point `t`, the seven windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any grid point: the inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«430033_j52948356825731_1_alg».proof.Proof.Gen.KernelIdeal.Launch
import proofs.«430033_j52948356825731_1_alg».proof.Proof.Gen.KernelIdeal.Skeleton
import proofs.«430033_j52948356825731_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the per-region half of the frame, at the contents `V` the region is entered with

The pipeline has seven windows. Windows 0, 1, 2 are row blocks of the three feature arrays; window 3 is the
whole weight matrix and window 4 the whole bias row, both with a block index that never moves; windows 5, 6
are row blocks of the two results. At a grid point the body reads the five input blocks whole and writes each
result block whole, so what it leaves in a result's buffer is a function of the five input blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read from the window's array as `V` gives it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- For proof data whose array of window 0 is `V`'s and whose body leaves that window's block in place, the
    window's current buffer holds the block at every grid point: at a point where the window is fetched, by the
    fetch; elsewhere because the block index is the previous point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- For proof data whose array of window 1 is `V`'s and whose body leaves that window's block in place, the
    window's current buffer holds the block at every grid point: at a point where the window is fetched, by the
    fetch; elsewhere because the block index is the previous point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- For proof data whose array of window 2 is `V`'s and whose body leaves that window's block in place, the
    window's current buffer holds the block at every grid point: at a point where the window is fetched, by the
    fetch; elsewhere because the block index is the previous point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- For proof data whose array of window 3 is `V`'s and whose body leaves that window's block in place, the
    window's current buffer holds the block at every grid point: at a point where the window is fetched, by the
    fetch; elsewhere because the block index is the previous point's (this window's index never moves: it is fetched once per sweep). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- For proof data whose array of window 4 is `V`'s and whose body leaves that window's block in place, the
    window's current buffer holds the block at every grid point: at a point where the window is fetched, by the
    fetch; elsewhere because the block index is the previous point's (this window's index never moves: it is fetched once per sweep). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is its whole buffer -/

abbrev r1_0 : Rect S2000x128 := Rect.unit (s := S2000x128) ![0, 0] S2000x128.size inb_S2000x128_S2000x128_0_0
abbrev r1_1 : Rect S2000x128 := Rect.unit (s := S2000x128) ![0, 0] S2000x128.size inb_S2000x128_S2000x128_0_0
abbrev r1_2 : Rect S2000x132 := Rect.unit (s := S2000x132) ![0, 0] S2000x132.size inb_S2000x132_S2000x132_0_0
abbrev r1_3 : Rect S388x128 := Rect.unit (s := S388x128) ![0, 0] S388x128.size inb_S388x128_S388x128_0_0
abbrev r1_4 : Rect S1x128 := Rect.unit (s := S1x128) ![0, 0] S1x128.size inb_S1x128_S1x128_0_0
abbrev r1_o : Rect S2000x128 := Rect.unit (s := S2000x128) ![0, 0] S2000x128.size inb_S2000x128_S2000x128_0_0

/-! ## What the body leaves in each result window's buffer -/

/-- Window 5's buffer after the body, as a function of the five input blocks: one store, of the whole block. -/
def out1_5 (x0 : Vec F S2000x128 .f32) (x1 : Vec F S2000x128 .f32) (x2 : Vec F S2000x132 .f32) (x3 : Vec F S388x128 .bf16) (x4 : Vec F S1x128 .f32) : Vec F S2000x128 .f32 :=
  View.canon [⟨r1_o, k1_pay1 (View.ld x0 r1_0) (View.ld x1 r1_1) (View.ld x2 r1_2) (View.ld x3 r1_3) (View.ld x4 r1_4)⟩]

/-- Window 6's buffer after the body, likewise. -/
def out1_6 (x0 : Vec F S2000x128 .f32) (x1 : Vec F S2000x128 .f32) (x2 : Vec F S2000x132 .f32) (x3 : Vec F S388x128 .bf16) (x4 : Vec F S1x128 .f32) : Vec F S2000x128 .f32 :=
  View.canon [⟨r1_o, k1_pay2 (View.ld x0 r1_0) (View.ld x1 r1_1) (View.ld x2 r1_2) (View.ld x3 r1_3) (View.ld x4 r1_4)⟩]

/-- The one store is of the whole buffer, so it covers every index. -/
theorem cover1_o (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body's triple -/

set_option maxHeartbeats 4000000 in
/-- The body on whole buffers, the five inputs' at contents `x0 … x4` and the two results' at anything, runs to a
    state with the inputs' buffers unchanged and the results' at `out1_5`, `out1_6` of the inputs: the loads return
    the buffers' contents, each result buffer is read (the value is not used) and then stored whole. -/
theorem sound_kernel1 (c : Dev nD) (E : Set ℕ) (i : grid1.Coords)
    (arg0 : Memref sig .tc .vmem S2000x128 .f32) (harg0 : arg0.IsWhole) (arg1 : Memref sig .tc .vmem S2000x128 .f32) (harg1 : arg1.IsWhole)
    (arg2 : Memref sig .tc .vmem S2000x132 .f32) (harg2 : arg2.IsWhole) (arg3 : Memref sig .tc .vmem S388x128 .bf16) (harg3 : arg3.IsWhole)
    (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S2000x128 .f32) (x2 : Vec F S2000x132 .f32) (x3 : Vec F S388x128 .bf16) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4) ∗ owns (c : Thread nD τ) arg6 fullShare (out1_6 x0 x1 x2 x3 x4)) -∗ K ⟨⟩))
      ⊢ wp frame (wpE (defs₀ (F := F)) Variants.none c none) E (cc1__edge_mlp_kernel i arg0 harg0 arg1 harg1 arg2 harg2 arg3 harg3 arg4 harg4 arg5 harg5 arg6 harg6) K := by
  simp only [cc1__edge_mlp_kernel_eq_skeleton]; unfold cc1__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_o _)
  iexists _; isplitr
  swap; · iexact H6
  ipureintro
  exact View.read_writes_eq_canon _ _ _ (cover1_o _)

/-! ## The pipeline's proof data -/

/-- Proof data of the pipeline on core `c`: the arrays as `V` gives them; after the body at point `t` each input's
    buffer holds its block and each result's holds `out1_5`, `out1_6` of the five input blocks; the invariant is the
    scoped rest and the generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic grid point -/

/-- What the body is called with at point `t`, the seven windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
import proofs.«430033_j52948356825731_1_alg».proof.Proof.Gen.KernelIdeal.Launch
import proofs.«430033_j52948356825731_1_alg».proof.Proof.Gen.KernelIdeal.Skeleton
import proofs.«430033_j52948356825731_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the per-region half of the frame, at the contents `V` the region is entered with

The pipeline has seven windows. Windows 0, 1, 2 are row blocks of the three feature arrays; window 3 is the
whole weight matrix and window 4 the whole bias row, both with a block index that never moves; windows 5, 6
are row blocks of the two results. At a grid point the body reads the five input blocks whole and writes each
result block whole, so what it leaves in a result's buffer is a function of the five input blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read from the window's array as `V` gives it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- For proof data whose array of window 0 is `V`'s and whose body leaves that window's block in place, the
    window's current buffer holds the block at every grid point: at a point where the window is fetched, by the
    fetch; elsewhere because the block index is the previous point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- For proof data whose array of window 1 is `V`'s and whose body leaves that window's block in place, the
    window's current buffer holds the block at every grid point: at a point where the window is fetched, by the
    fetch; elsewhere because the block index is the previous point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- For proof data whose array of window 2 is `V`'s and whose body leaves that window's block in place, the
    window's current buffer holds the block at every grid point: at a point where the window is fetched, by the
    fetch; elsewhere because the block index is the previous point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- For proof data whose array of window 3 is `V`'s and whose body leaves that window's block in place, the
    window's current buffer holds the block at every grid point: at a point where the window is fetched, by the
    fetch; elsewhere because the block index is the previous point's (this window's index never moves: it is fetched once per sweep). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- For proof data whose array of window 4 is `V`'s and whose body leaves that window's block in place, the
    window's current buffer holds the block at every grid point: at a point where the window is fetched, by the
    fetch; elsewhere because the block index is the previous point's (this window's index never moves: it is fetched once per sweep). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is its whole buffer -/

abbrev r2_0 : Rect S2000x256 := Rect.unit (s := S2000x256) ![0, 0] S2000x256.size inb_S2000x256_S2000x256_0_0
abbrev r2_1 : Rect S2000x256 := Rect.unit (s := S2000x256) ![0, 0] S2000x256.size inb_S2000x256_S2000x256_0_0
abbrev r2_2 : Rect S2000x256 := Rect.unit (s := S2000x256) ![0, 0] S2000x256.size inb_S2000x256_S2000x256_0_0
abbrev r2_3 : Rect S768x128 := Rect.unit (s := S768x128) ![0, 0] S768x128.size inb_S768x128_S768x128_0_0
abbrev r2_4 : Rect S1x128 := Rect.unit (s := S1x128) ![0, 0] S1x128.size inb_S1x128_S1x128_0_0
abbrev r2_o : Rect S2000x128 := Rect.unit (s := S2000x128) ![0, 0] S2000x128.size inb_S2000x128_S2000x128_0_0

/-! ## What the body leaves in each result window's buffer -/

/-- Window 5's buffer after the body, as a function of the five input blocks: one store, of the whole block. -/
def out2_5 (x0 : Vec F S2000x256 .f32) (x1 : Vec F S2000x256 .f32) (x2 : Vec F S2000x256 .f32) (x3 : Vec F S768x128 .bf16) (x4 : Vec F S1x128 .f32) : Vec F S2000x128 .f32 :=
  View.canon [⟨r2_o, k2_pay1 (View.ld x0 r2_0) (View.ld x1 r2_1) (View.ld x2 r2_2) (View.ld x3 r2_3) (View.ld x4 r2_4)⟩]

/-- Window 6's buffer after the body, likewise. -/
def out2_6 (x0 : Vec F S2000x256 .f32) (x1 : Vec F S2000x256 .f32) (x2 : Vec F S2000x256 .f32) (x3 : Vec F S768x128 .bf16) (x4 : Vec F S1x128 .f32) : Vec F S2000x128 .f32 :=
  View.canon [⟨r2_o, k2_pay2 (View.ld x0 r2_0) (View.ld x1 r2_1) (View.ld x2 r2_2) (View.ld x3 r2_3) (View.ld x4 r2_4)⟩]

/-- The one store is of the whole buffer, so it covers every index. -/
theorem cover2_o (p0 : Vec F S2000x128 .f32) (y : S2000x128.Idx) :
    ∃ pc ∈ ([⟨r2_o, p0⟩] : List (View.Piece (Elt F) S2000x128 .f32)), y ∈ pc.1.set :=
  View.cover_of_tiled [⟨r2_o, p0⟩] S2000x128.size (by rfl) y

/-! ## The body's triple -/

set_option maxHeartbeats 4000000 in
/-- The body on whole buffers, the five inputs' at contents `x0 … x4` and the two results' at anything, runs to a
    state with the inputs' buffers unchanged and the results' at `out2_5`, `out2_6` of the inputs: the loads return
    the buffers' contents, each result buffer is read (the value is not used) and then stored whole. -/
theorem sound_kernel2 (c : Dev nD) (E : Set ℕ) (i : grid2.Coords)
    (arg0 : Memref sig .tc .vmem S2000x256 .f32) (harg0 : arg0.IsWhole) (arg1 : Memref sig .tc .vmem S2000x256 .f32) (harg1 : arg1.IsWhole)
    (arg2 : Memref sig .tc .vmem S2000x256 .f32) (harg2 : arg2.IsWhole) (arg3 : Memref sig .tc .vmem S768x128 .bf16) (harg3 : arg3.IsWhole)
    (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x256 .f32) (x1 : Vec F S2000x256 .f32) (x2 : Vec F S2000x256 .f32) (x3 : Vec F S768x128 .bf16) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4) ∗ owns (c : Thread nD τ) arg6 fullShare (out2_6 x0 x1 x2 x3 x4)) -∗ K ⟨⟩))
      ⊢ wp frame (wpE (defs₀ (F := F)) Variants.none c none) E (cc2__edge_mlp_kernel i arg0 harg0 arg1 harg1 arg2 harg2 arg3 harg3 arg4 harg4 arg5 harg5 arg6 harg6) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_o _)
  iexists _; isplitr
  swap; · iexact H6
  ipureintro
  exact View.read_writes_eq_canon _ _ _ (cover2_o _)

/-! ## The pipeline's proof data -/

/-- Proof data of the pipeline on core `c`: the arrays as `V` gives them; after the body at point `t` each input's
    buffer holds its block and each result's holds `out2_5`, `out2_6` of the five input blocks; the invariant is the
    scoped rest and the generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current buffer holds its block at every grid point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic grid point -/

/-- What the body is called with at point `t`, the seven windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any grid point: the inputs' buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
import proofs.«430033_j52948356825731_1_alg».proof.Proof.Gen.KernelIdeal.Launch
import proofs.«430033_j52948356825731_1_alg».proof.Proof.Gen.KernelIdeal.Skeleton
import proofs.«430033_j52948356825731_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the per-region half of the frame, at the contents `V` the region is entered with

The pipeline has ten windows. Windows 0, 1, 2 are row blocks of the three feature arrays; windows 3, 4 are the
whole weight matrix and bias row of the first linear map and windows 5, 6 those of the second, all four with a
block index that never moves; windows 7, 8, 9 are row blocks of the three results. At a grid point the body reads
the input blocks whole and writes each result block whole: the first two results are functions of input blocks
0 to 4, the third of all seven. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read from the window's array as `V` gives it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- For proof data whose array of window 0 is `V`'s and whose body leaves that window's block in place, the
    window's current buffer holds the block at every grid point: at a point where the window is fetched, by the
    fetch; elsewhere because the block index is the previous point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 1 is `V`'s and whose body leaves that window's block in place, the
    window's current buffer holds the block at every grid point: at a point where the window is fetched, by the
    fetch; elsewhere because the block index is the previous point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 2 is `V`'s and whose body leaves that window's block in place, the
    window's current buffer holds the block at every grid point: at a point where the window is fetched, by the
    fetch; elsewhere because the block index is the previous point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 3 is `V`'s and whose body leaves that window's block in place, the
    window's current buffer holds the block at every grid point: at a point where the window is fetched, by the
    fetch; elsewhere because the block index is the previous point's (this window's index never moves: it is fetched once per sweep). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 4 is `V`'s and whose body leaves that window's block in place, the
    window's current buffer holds the block at every grid point: at a point where the window is fetched, by the
    fetch; elsewhere because the block index is the previous point's (this window's index never moves: it is fetched once per sweep). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 5 is `V`'s and whose body leaves that window's block in place, the
    window's current buffer holds the block at every grid point: at a point where the window is fetched, by the
    fetch; elsewhere because the block index is the previous point's (this window's index never moves: it is fetched once per sweep). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- For proof data whose array of window 6 is `V`'s and whose body leaves that window's block in place, the
    window's current buffer holds the block at every grid point: at a point where the window is fetched, by the
    fetch; elsewhere because the block index is the previous point's (this window's index never moves: it is fetched once per sweep). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is its whole buffer -/

abbrev r3_0 : Rect S2000x256 := Rect.unit (s := S2000x256) ![0, 0] S2000x256.size inb_S2000x256_S2000x256_0_0
abbrev r3_1 : Rect S2000x256 := Rect.unit (s := S2000x256) ![0, 0] S2000x256.size inb_S2000x256_S2000x256_0_0
abbrev r3_2 : Rect S2000x256 := Rect.unit (s := S2000x256) ![0, 0] S2000x256.size inb_S2000x256_S2000x256_0_0
abbrev r3_3 : Rect S768x128 := Rect.unit (s := S768x128) ![0, 0] S768x128.size inb_S768x128_S768x128_0_0
abbrev r3_4 : Rect S1x128 := Rect.unit (s := S1x128) ![0, 0] S1x128.size inb_S1x128_S1x128_0_0
abbrev r3_5 : Rect S128x1 := Rect.unit (s := S128x1) ![0, 0] S128x1.size inb_S128x1_S128x1_0_0
abbrev r3_6 : Rect S1x1 := Rect.unit (s := S1x1) ![0, 0] S1x1.size inb_S1x1_S1x1_0_0
abbrev r3_o : Rect S2000x128 := Rect.unit (s := S2000x128) ![0, 0] S2000x128.size inb_S2000x128_S2000x128_0_0
abbrev r3_p : Rect S2000x1 := Rect.unit (s := S2000x1) ![0, 0] S2000x1.size inb_S2000x1_S2000x1_0_0

/-! ## What the body leaves in each result window's buffer -/

/-- Window 7's buffer after the body, as a function of input blocks 0 to 4: one store, of the whole block. -/
def out3_7 (x0 : Vec F S2000x256 .f32) (x1 : Vec F S2000x256 .f32) (x2 : Vec F S2000x256 .f32) (x3 : Vec F S768x128 .bf16) (x4 : Vec F S1x128 .f32) : Vec F S2000x128 .f32 :=
  View.canon [⟨r3_o, k3_pay1 (View.ld x0 r3_0) (View.ld x1 r3_1) (View.ld x2 r3_2) (View.ld x3 r3_3) (View.ld x4 r3_4)⟩]

/-- Window 8's buffer after the body, likewise. -/
def out3_8 (x0 : Vec F S2000x256 .f32) (x1 : Vec F S2000x256 .f32) (x2 : Vec F S2000x256 .f32) (x3 : Vec F S768x128 .bf16) (x4 : Vec F S1x128 .f32) : Vec F S2000x128 .f32 :=
  View.canon [⟨r3_o, k3_pay2 (View.ld x0 r3_0) (View.ld x1 r3_1) (View.ld x2 r3_2) (View.ld x3 r3_3) (View.ld x4 r3_4)⟩]

/-- Window 9's buffer after the body, as a function of all seven input blocks: one store, of the whole block. -/
def out3_9 (x0 : Vec F S2000x256 .f32) (x1 : Vec F S2000x256 .f32) (x2 : Vec F S2000x256 .f32) (x3 : Vec F S768x128 .bf16) (x4 : Vec F S1x128 .f32) (x5 : Vec F S128x1 .bf16) (x6 : Vec F S1x1 .f32) : Vec F S2000x1 .f32 :=
  View.canon [⟨r3_p, k3_pay3 (View.ld x0 r3_0) (View.ld x1 r3_1) (View.ld x2 r3_2) (View.ld x3 r3_3) (View.ld x4 r3_4) (View.ld x5 r3_5) (View.ld x6 r3_6)⟩]

/-- A store of the whole buffer covers every index. -/
theorem cover3_o (p0 : Vec F S2000x128 .f32) (y : S2000x128.Idx) :
    ∃ pc ∈ ([⟨r3_o, p0⟩] : List (View.Piece (Elt F) S2000x128 .f32)), y ∈ pc.1.set :=
  View.cover_of_tiled [⟨r3_o, p0⟩] S2000x128.size (by rfl) y
theorem cover3_p (p0 : Vec F S2000x1 .f32) (y : S2000x1.Idx) :
    ∃ pc ∈ ([⟨r3_p, p0⟩] : List (View.Piece (Elt F) S2000x1 .f32)), y ∈ pc.1.set :=
  View.cover_of_tiled [⟨r3_p, p0⟩] S2000x1.size (by rfl) y

/-! ## The body's triple -/

set_option maxHeartbeats 4000000 in
/-- The body on whole buffers, the seven inputs' at contents `x0 … x6` and the three results' at anything, runs to a
    state with the inputs' buffers unchanged and the results' at `out3_7`, `out3_8`, `out3_9` of the inputs: the loads
    return the buffers' contents, each result buffer is read (the value is not used) and then stored whole; that
    inputs 5 and 6 are read after the first two stores changes nothing, their buffers being other buffers. -/
theorem sound_kernel3 (c : Dev nD) (E : Set ℕ) (i : grid3.Coords)
    (arg0 : Memref sig .tc .vmem S2000x256 .f32) (harg0 : arg0.IsWhole)
    (arg1 : Memref sig .tc .vmem S2000x256 .f32) (harg1 : arg1.IsWhole)
    (arg2 : Memref sig .tc .vmem S2000x256 .f32) (harg2 : arg2.IsWhole)
    (arg3 : Memref sig .tc .vmem S768x128 .bf16) (harg3 : arg3.IsWhole)
    (arg4 : Memref sig .tc .vmem S1x128 .f32) (harg4 : arg4.IsWhole)
    (arg5 : Memref sig .tc .vmem S128x1 .bf16) (harg5 : arg5.IsWhole)
    (arg6 : Memref sig .tc .vmem S1x1 .f32) (harg6 : arg6.IsWhole)
    (arg7 : Memref sig .tc .vmem S2000x128 .f32) (harg7 : arg7.IsWhole) (arg8 : Memref sig .tc .vmem S2000x128 .f32) (harg8 : arg8.IsWhole)
    (arg9 : Memref sig .tc .vmem S2000x1 .f32) (harg9 : arg9.IsWhole)
    (x0 : Vec F S2000x256 .f32) (x1 : Vec F S2000x256 .f32) (x2 : Vec F S2000x256 .f32) (x3 : Vec F S768x128 .bf16) (x4 : Vec F S1x128 .f32) (x5 : Vec F S128x1 .bf16) (x6 : Vec F S1x1 .f32)
    (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare (out3_7 x0 x1 x2 x3 x4) ∗ owns (c : Thread nD τ) arg8 fullShare (out3_8 x0 x1 x2 x3 x4)
            ∗ owns (c : Thread nD τ) arg9 fullShare (out3_9 x0 x1 x2 x3 x4 x5 x6)) -∗ K ⟨⟩))
      ⊢ wp frame (wpE (defs₀ (F := F)) Variants.none c none) E (cc3__edge_mlp_lin2_kernel i arg0 harg0 arg1 harg1 arg2 harg2 arg3 harg3 arg4 harg4 arg5 harg5 arg6 harg6 arg7 harg7 arg8 harg8 arg9 harg9) K := by
  simp only [cc3__edge_mlp_lin2_kernel_eq_skeleton]; unfold cc3__edge_mlp_lin2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover3_o _)
  isplitl [H8]
  · iexists _; isplitr
    swap; · iexact H8
    ipureintro
    exact View.read_writes_eq_canon _ _ _ (cover3_o _)
  iexists _; isplitr
  swap; · iexact H9
  ipureintro
  exact View.read_writes_eq_canon _ _ _ (cover3_p _)

/-! ## The pipeline's proof data -/

/-- Proof data of the pipeline on core `c`: the arrays as `V` gives them; after the body at point `t` each input's
    buffer holds its block and each result's holds `out3_7`, `out3_8`, `out3_9` of the input blocks; the invariant is
    the scoped rest and the generator register, untouched; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t)
    | ⟨8, _⟩ => out3_8 (iblk3 V c 0 t) (iblk3 V c 1 t) (iblk3 V c 2 t) (iblk3 V c 3 t) (iblk3 V c 4 t)
    | ⟨9, _⟩ => out3_9 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are `V`'s. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) := by dsimp only [dat3]

/-- Each input's current buffer holds its block at every grid point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic grid point -/

/-- What the body is called with at point `t`, the ten windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any grid point: the inputs' buffers hold their blocks, so the body's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIBound.lean ====
/- The buffer contents of a TensorCore at the boundaries of @main's five stretches of host operations and four
   kernel regions, as a fold from the launch memory: a stretch rewrites the buffers its operations write
   (the fold of the operations' results), a region leaves its windows' arrays at what its write-backs fold to
   and every other buffer as entered. -/
import proofs.«430033_j52948356825731_1_alg».proof.Proof.KIReg0
import proofs.«430033_j52948356825731_1_alg».proof.Proof.KIReg1
import proofs.«430033_j52948356825731_1_alg».proof.Proof.KIReg2
import proofs.«430033_j52948356825731_1_alg».proof.Proof.KIReg3
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The five stretches of host operations, each the concatenation of its printed pieces -/

/-- The host operations before region 0. -/
abbrev H0 : List (HloOp τ sig (Elt F)) :=
  hostOps0 ++ hostOps0_1 ++ hostOps0_2 ++ hostOps0_3 ++ hostOps0_4 ++ hostOps0_5 ++ hostOps0_6
/-- The host operations between regions 0 and 1. -/
abbrev H1 : List (HloOp τ sig (Elt F)) :=
  hostOps1 ++ hostOps1_1 ++ hostOps1_2 ++ hostOps1_3 ++ hostOps1_4 ++ hostOps1_5
/-- The host operations between regions 1 and 2. -/
abbrev H2 : List (HloOp τ sig (Elt F)) :=
  hostOps2 ++ hostOps2_1 ++ hostOps2_2 ++ hostOps2_3 ++ hostOps2_4 ++ hostOps2_5
/-- The host operations between regions 2 and 3. -/
abbrev H3 : List (HloOp τ sig (Elt F)) :=
  hostOps3 ++ hostOps3_1 ++ hostOps3_2 ++ hostOps3_3 ++ hostOps3_4 ++ hostOps3_5
/-- The host operations after region 3, to the return. -/
abbrev H4 : List (HloOp τ sig (Elt F)) :=
  hostOps4 ++ hostOps4_1 ++ hostOps4_2 ++ hostOps4_3 ++ hostOps4_4 ++ hostOps4_5 ++ hostOps4_6 ++ hostOps4_7
    ++ hostOps4_8 ++ hostOps4_9 ++ hostOps4_10 ++ hostOps4_11 ++ hostOps4_12 ++ hostOps4_13 ++ hostOps4_14

variable (m : (ℓ : Loc nD τ sig) → Buf (Elt F) ℓ) (ρ : Dev nD → PrngReg)

/-! ## The contents at each boundary -/

/-- Core c's buffers at launch. -/
abbrev Wk0 : Dev nD → Valuation τ sig (Elt F) := fun c b => (s₀ m ρ).mem ((c : Dev nD), b)

/-- After H0: region 0's entry. -/
abbrev Wk1 : Dev nD → Valuation τ sig (Elt F) := fun c => StableHlo.after H0 (Wk0 m ρ c)
/-- The same, read at the TensorCore's references: what region 0's proof data take. -/
abbrev Vk1 : (c : Dev nD) → (b : Ref sig .tc) → Buf (Elt F) ((c : Thread nD τ).loc b) := fun c b => Wk1 m ρ c b

/-- Region 0's exit: each window's array at the fold of its write-backs over all the grid's points (an input's
    array as entered), every other buffer as entered. -/
def Wk2 (c : Dev nD) : Valuation τ sig (Elt F) :=
  Pipeline.withArrays spec0 c (Wk1 m ρ c) fun w => (dat0 (Vk1 m ρ) c).arrAt w cfg0.N
theorem Wk2_arr (c : Dev nD) (w : Fin cfg0.W) :
    Wk2 m ρ c (Proc.devRef .tc (Pipeline.arrRef spec0 w)) = (dat0 (Vk1 m ρ) c).arrAt w cfg0.N := by
  unfold Wk2; exact Pipeline.withArrays_arr spec0 launch0.win.arr_inj c _ _ w
theorem Wk2_of_ne (c : Dev nD) (b : Ref sig .tc) (hb : ∀ w, Pipeline.arrRef spec0 w ≠ b) :
    Wk2 m ρ c (Proc.devRef .tc b) = Wk1 m ρ c (Proc.devRef .tc b) := by
  unfold Wk2; exact Pipeline.withArrays_of_ne spec0 c _ _ b hb
abbrev Vk2 : (c : Dev nD) → (b : Ref sig .tc) → Buf (Elt F) ((c : Thread nD τ).loc b) := fun c b => Wk2 m ρ c b
/-- The exit contents restated for the region's exit: an array of region 0 holds the fold, any other buffer what it
    held at entry. -/
theorem hF0 (c : Dev nD) (w : Fin cfg0.W) : (dat0 (Vk1 m ρ) c).arrAt w cfg0.N = Vk2 m ρ c (Pipeline.arrRef spec0 w) :=
  (Wk2_arr m ρ c w).symm
theorem hrest0 (c : Dev nD) : ∀ b, b ∉ Finset.univ.image (Pipeline.arrRef spec0) → Vk2 m ρ c b = Vk1 m ρ c b :=
  fun b hb => Wk2_of_ne m ρ c b fun w e => hb (Finset.mem_image.mpr ⟨w, Finset.mem_univ _, e⟩)

/-- After H1: region 1's entry. -/
abbrev Wk3 : Dev nD → Valuation τ sig (Elt F) := fun c => StableHlo.after H1 (Wk2 m ρ c)
abbrev Vk3 : (c : Dev nD) → (b : Ref sig .tc) → Buf (Elt F) ((c : Thread nD τ).loc b) := fun c b => Wk3 m ρ c b

/-- Region 1's exit. -/
def Wk4 (c : Dev nD) : Valuation τ sig (Elt F) :=
  Pipeline.withArrays spec1 c (Wk3 m ρ c) fun w => (dat1 (Vk3 m ρ) c).arrAt w cfg1.N
theorem Wk4_arr (c : Dev nD) (w : Fin cfg1.W) :
    Wk4 m ρ c (Proc.devRef .tc (Pipeline.arrRef spec1 w)) = (dat1 (Vk3 m ρ) c).arrAt w cfg1.N := by
  unfold Wk4; exact Pipeline.withArrays_arr spec1 launch1.win.arr_inj c _ _ w
theorem Wk4_of_ne (c : Dev nD) (b : Ref sig .tc) (hb : ∀ w, Pipeline.arrRef spec1 w ≠ b) :
    Wk4 m ρ c (Proc.devRef .tc b) = Wk3 m ρ c (Proc.devRef .tc b) := by
  unfold Wk4; exact Pipeline.withArrays_of_ne spec1 c _ _ b hb
abbrev Vk4 : (c : Dev nD) → (b : Ref sig .tc) → Buf (Elt F) ((c : Thread nD τ).loc b) := fun c b => Wk4 m ρ c b
theorem hF1 (c : Dev nD) (w : Fin cfg1.W) : (dat1 (Vk3 m ρ) c).arrAt w cfg1.N = Vk4 m ρ c (Pipeline.arrRef spec1 w) :=
  (Wk4_arr m ρ c w).symm
theorem hrest1 (c : Dev nD) : ∀ b, b ∉ Finset.univ.image (Pipeline.arrRef spec1) → Vk4 m ρ c b = Vk3 m ρ c b :=
  fun b hb => Wk4_of_ne m ρ c b fun w e => hb (Finset.mem_image.mpr ⟨w, Finset.mem_univ _, e⟩)

/-- After H2: region 2's entry. -/
abbrev Wk5 : Dev nD → Valuation τ sig (Elt F) := fun c => StableHlo.after H2 (Wk4 m ρ c)
abbrev Vk5 : (c : Dev nD) → (b : Ref sig .tc) → Buf (Elt F) ((c : Thread nD τ).loc b) := fun c b => Wk5 m ρ c b

/-- Region 2's exit. -/
def Wk6 (c : Dev nD) : Valuation τ sig (Elt F) :=
  Pipeline.withArrays spec2 c (Wk5 m ρ c) fun w => (dat2 (Vk5 m ρ) c).arrAt w cfg2.N
theorem Wk6_arr (c : Dev nD) (w : Fin cfg2.W) :
    Wk6 m ρ c (Proc.devRef .tc (Pipeline.arrRef spec2 w)) = (dat2 (Vk5 m ρ) c).arrAt w cfg2.N := by
  unfold Wk6; exact Pipeline.withArrays_arr spec2 launch2.win.arr_inj c _ _ w
theorem Wk6_of_ne (c : Dev nD) (b : Ref sig .tc) (hb : ∀ w, Pipeline.arrRef spec2 w ≠ b) :
    Wk6 m ρ c (Proc.devRef .tc b) = Wk5 m ρ c (Proc.devRef .tc b) := by
  unfold Wk6; exact Pipeline.withArrays_of_ne spec2 c _ _ b hb
abbrev Vk6 : (c : Dev nD) → (b : Ref sig .tc) → Buf (Elt F) ((c : Thread nD τ).loc b) := fun c b => Wk6 m ρ c b
theorem hF2 (c : Dev nD) (w : Fin cfg2.W) : (dat2 (Vk5 m ρ) c).arrAt w cfg2.N = Vk6 m ρ c (Pipeline.arrRef spec2 w) :=
  (Wk6_arr m ρ c w).symm
theorem hrest2 (c : Dev nD) : ∀ b, b ∉ Finset.univ.image (Pipeline.arrRef spec2) → Vk6 m ρ c b = Vk5 m ρ c b :=
  fun b hb => Wk6_of_ne m ρ c b fun w e => hb (Finset.mem_image.mpr ⟨w, Finset.mem_univ _, e⟩)

/-- After H3: region 3's entry. -/
abbrev Wk7 : Dev nD → Valuation τ sig (Elt F) := fun c => StableHlo.after H3 (Wk6 m ρ c)
abbrev Vk7 : (c : Dev nD) → (b : Ref sig .tc) → Buf (Elt F) ((c : Thread nD τ).loc b) := fun c b => Wk7 m ρ c b

/-- Region 3's exit. -/
def Wk8 (c : Dev nD) : Valuation τ sig (Elt F) :=
  Pipeline.withArrays spec3 c (Wk7 m ρ c) fun w => (dat3 (Vk7 m ρ) c).arrAt w cfg3.N
theorem Wk8_arr (c : Dev nD) (w : Fin cfg3.W) :
    Wk8 m ρ c (Proc.devRef .tc (Pipeline.arrRef spec3 w)) = (dat3 (Vk7 m ρ) c).arrAt w cfg3.N := by
  unfold Wk8; exact Pipeline.withArrays_arr spec3 launch3.win.arr_inj c _ _ w
theorem Wk8_of_ne (c : Dev nD) (b : Ref sig .tc) (hb : ∀ w, Pipeline.arrRef spec3 w ≠ b) :
    Wk8 m ρ c (Proc.devRef .tc b) = Wk7 m ρ c (Proc.devRef .tc b) := by
  unfold Wk8; exact Pipeline.withArrays_of_ne spec3 c _ _ b hb
abbrev Vk8 : (c : Dev nD) → (b : Ref sig .tc) → Buf (Elt F) ((c : Thread nD τ).loc b) := fun c b => Wk8 m ρ c b
theorem hF3 (c : Dev nD) (w : Fin cfg3.W) : (dat3 (Vk7 m ρ) c).arrAt w cfg3.N = Vk8 m ρ c (Pipeline.arrRef spec3 w) :=
  (Wk8_arr m ρ c w).symm
theorem hrest3 (c : Dev nD) : ∀ b, b ∉ Finset.univ.image (Pipeline.arrRef spec3) → Vk8 m ρ c b = Vk7 m ρ c b :=
  fun b hb => Wk8_of_ne m ρ c b fun w e => hb (Finset.mem_image.mpr ⟨w, Finset.mem_univ _, e⟩)

/-- After H4: the contents at the return. -/
abbrev Wk9 : Dev nD → Valuation τ sig (Elt F) := fun c => StableHlo.after H4 (Wk8 m ρ c)

end Cert.KernelIdeal.Hand

end
-- ==== Proof.KIRun.lean ====
/- The run of @main on a TensorCore, from the launch to the return, as a list of segments: each printed piece of a
   stretch of host operations is a segment over the unscoped buffers held whole at a valuation, each kernel region a
   segment that splits its windows' arrays out of those buffers and puts them back at what its write-backs leave.
   The segments' thread states chain, so every weakly fair execution terminates and ends with every unscoped buffer
   at the last boundary's contents. -/
import proofs.«430033_j52948356825731_1_alg».proof.Proof.KIBound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## No host operation allocates a buffer

Each printed piece is a literal list of operations built from results of earlier ones; none is an allocation, so the
set of buffers an operation leaves at unchosen contents is empty for each, by unfolding the builders. -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor
theorem hostOps2_5_fresh : (hostOps2_5 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor
theorem hostOps3_1_fresh : (hostOps3_1 : List (HloOp τ sig (Elt F))).Forall fun op => op.fresh = ∅ := by
  simp only [List.Forall]; repeat' constructor
theorem hostOps3_2_fresh : (hostOps3_2 : List (HloOp τ sig (Elt F))).Forall fun op => op.fresh = ∅ := by
  simp only [List.Forall]; repeat' constructor
theorem hostOps3_3_fresh : (hostOps3_3 : List (HloOp τ sig (Elt F))).Forall fun op => op.fresh = ∅ := by
  simp only [List.Forall]; repeat' constructor
theorem hostOps3_4_fresh : (hostOps3_4 : List (HloOp τ sig (Elt F))).Forall fun op => op.fresh = ∅ := by
  simp only [List.Forall]; repeat' constructor
theorem hostOps3_5_fresh : (hostOps3_5 : List (HloOp τ sig (Elt F))).Forall fun op => op.fresh = ∅ := by
  simp only [List.Forall]; repeat' constructor

theorem hostOps4_fresh : (hostOps4 : List (HloOp τ sig (Elt F))).Forall fun op => op.fresh = ∅ := by
  simp only [List.Forall]; repeat' constructor
theorem hostOps4_1_fresh : (hostOps4_1 : List (HloOp τ sig (Elt F))).Forall fun op => op.fresh = ∅ := by
  simp only [List.Forall]; repeat' constructor
theorem hostOps4_2_fresh : (hostOps4_2 : List (HloOp τ sig (Elt F))).Forall fun op => op.fresh = ∅ := by
  simp only [List.Forall]; repeat' constructor
theorem hostOps4_3_fresh : (hostOps4_3 : List (HloOp τ sig (Elt F))).Forall fun op => op.fresh = ∅ := by
  simp only [List.Forall]; repeat' constructor
theorem hostOps4_4_fresh : (hostOps4_4 : List (HloOp τ sig (Elt F))).Forall fun op => op.fresh = ∅ := by
  simp only [List.Forall]; repeat' constructor
theorem hostOps4_5_fresh : (hostOps4_5 : List (HloOp τ sig (Elt F))).Forall fun op => op.fresh = ∅ := by
  simp only [List.Forall]; repeat' constructor
theorem hostOps4_6_fresh : (hostOps4_6 : List (HloOp τ sig (Elt F))).Forall fun op => op.fresh = ∅ := by
  simp only [List.Forall]; repeat' constructor
theorem hostOps4_7_fresh : (hostOps4_7 : List (HloOp τ sig (Elt F))).Forall fun op => op.fresh = ∅ := by
  simp only [List.Forall]; repeat' constructor
theorem hostOps4_8_fresh : (hostOps4_8 : List (HloOp τ sig (Elt F))).Forall fun op => op.fresh = ∅ := by
  simp only [List.Forall]; repeat' constructor
theorem hostOps4_9_fresh : (hostOps4_9 : List (HloOp τ sig (Elt F))).Forall fun op => op.fresh = ∅ := by
  simp only [List.Forall]; repeat' constructor
set_option maxHeartbeats 4000000 in
theorem hostOps4_10_fresh : (hostOps4_10 : List (HloOp τ sig (Elt F))).Forall fun op => op.fresh = ∅ := by
  simp only [List.Forall]; repeat' constructor
theorem hostOps4_11_fresh : (hostOps4_11 : List (HloOp τ sig (Elt F))).Forall fun op => op.fresh = ∅ := by
  simp only [List.Forall]; repeat' constructor
theorem hostOps4_12_fresh : (hostOps4_12 : List (HloOp τ sig (Elt F))).Forall fun op => op.fresh = ∅ := by
  simp only [List.Forall]; repeat' constructor
theorem hostOps4_13_fresh : (hostOps4_13 : List (HloOp τ sig (Elt F))).Forall fun op => op.fresh = ∅ := by
  simp only [List.Forall]; repeat' constructor
theorem hostOps4_14_fresh : (hostOps4_14 : List (HloOp τ sig (Elt F))).Forall fun op => op.fresh = ∅ := by
  simp only [List.Forall]; repeat' constructor

variable (m : (ℓ : Loc nD τ sig) → Buf (Elt F) ℓ) (ρ : Dev nD → PrngReg)

/-! ## The contents between the pieces of one stretch

A stretch's fold is the fold of its pieces one after the other; U J_k names the contents after the first k pieces
of stretch J, and the stretch-level boundary is the last piece's fold of the last of these. -/

abbrev U0_1 : Dev nD → Valuation τ sig (Elt F) := fun c => StableHlo.after hostOps0 (Wk0 m ρ c)
abbrev U0_2 : Dev nD → Valuation τ sig (Elt F) := fun c => StableHlo.after hostOps0_1 (U0_1 m ρ c)
abbrev U0_3 : Dev nD → Valuation τ sig (Elt F) := fun c => StableHlo.after hostOps0_2 (U0_2 m ρ c)
abbrev U0_4 : Dev nD → Valuation τ sig (Elt F) := fun c => StableHlo.after hostOps0_3 (U0_3 m ρ c)
abbrev U0_5 : Dev nD → Valuation τ sig (Elt F) := fun c => StableHlo.after hostOps0_4 (U0_4 m ρ c)
abbrev U0_6 : Dev nD → Valuation τ sig (Elt F) := fun c => StableHlo.after hostOps0_5 (U0_5 m ρ c)
theorem Wk1_eq (c : Dev nD) : Wk1 m ρ c = StableHlo.after hostOps0_6 (U0_6 m ρ c) := by
  simp only [Wk1, H0, StableHlo.after_append]

abbrev U1_1 : Dev nD → Valuation τ sig (Elt F) := fun c => StableHlo.after hostOps1 (Wk2 m ρ c)
abbrev U1_2 : Dev nD → Valuation τ sig (Elt F) := fun c => StableHlo.after hostOps1_1 (U1_1 m ρ c)
abbrev U1_3 : Dev nD → Valuation τ sig (Elt F) := fun c => StableHlo.after hostOps1_2 (U1_2 m ρ c)
abbrev U1_4 : Dev nD → Valuation τ sig (Elt F) := fun c => StableHlo.after hostOps1_3 (U1_3 m ρ c)
abbrev U1_5 : Dev nD → Valuation τ sig (Elt F) := fun c => StableHlo.after hostOps1_4 (U1_4 m ρ c)
theorem Wk3_eq (c : Dev nD) : Wk3 m ρ c = StableHlo.after hostOps1_5 (U1_5 m ρ c) := by
  simp only [Wk3, H1, StableHlo.after_append]

abbrev U2_1 : Dev nD → Valuation τ sig (Elt F) := fun c => StableHlo.after hostOps2 (Wk4 m ρ c)
abbrev U2_2 : Dev nD → Valuation τ sig (Elt F) := fun c => StableHlo.after hostOps2_1 (U2_1 m ρ c)
abbrev U2_3 : Dev nD → Valuation τ sig (Elt F) := fun c => StableHlo.after hostOps2_2 (U2_2 m ρ c)
abbrev U2_4 : Dev nD → Valuation τ sig (Elt F) := fun c => StableHlo.after hostOps2_3 (U2_3 m ρ c)
abbrev U2_5 : Dev nD → Valuation τ sig (Elt F) := fun c => StableHlo.after hostOps2_4 (U2_4 m ρ c)
theorem Wk5_eq (c : Dev nD) : Wk5 m ρ c = StableHlo.after hostOps2_5 (U2_5 m ρ c) := by
  simp only [Wk5, H2, StableHlo.after_append]

abbrev U3_1 : Dev nD → Valuation τ sig (Elt F) := fun c => StableHlo.after hostOps3 (Wk6 m ρ c)
abbrev U3_2 : Dev nD → Valuation τ sig (Elt F) := fun c => StableHlo.after hostOps3_1 (U3_1 m ρ c)
abbrev U3_3 : Dev nD → Valuation τ sig (Elt F) := fun c => StableHlo.after hostOps3_2 (U3_2 m ρ c)
abbrev U3_4 : Dev nD → Valuation τ sig (Elt F) := fun c => StableHlo.after hostOps3_3 (U3_3 m ρ c)
abbrev U3_5 : Dev nD → Valuation τ sig (Elt F) := fun c => StableHlo.after hostOps3_4 (U3_4 m ρ c)
theorem Wk7_eq (c : Dev nD) : Wk7 m ρ c = StableHlo.after hostOps3_5 (U3_5 m ρ c) := by
  simp only [Wk7, H3, StableHlo.after_append]

abbrev U4_1 : Dev nD → Valuation τ sig (Elt F) := fun c => StableHlo.after hostOps4 (Wk8 m ρ c)
abbrev U4_2 : Dev nD → Valuation τ sig (Elt F) := fun c => StableHlo.after hostOps4_1 (U4_1 m ρ c)
abbrev U4_3 : Dev nD → Valuation τ sig (Elt F) := fun c => StableHlo.after hostOps4_2 (U4_2 m ρ c)
abbrev U4_4 : Dev nD → Valuation τ sig (Elt F) := fun c => StableHlo.after hostOps4_3 (U4_3 m ρ c)
abbrev U4_5 : Dev nD → Valuation τ sig (Elt F) := fun c => StableHlo.after hostOps4_4 (U4_4 m ρ c)
abbrev U4_6 : Dev nD → Valuation τ sig (Elt F) := fun c => StableHlo.after hostOps4_5 (U4_5 m ρ c)
abbrev U4_7 : Dev nD → Valuation τ sig (Elt F) := fun c => StableHlo.after hostOps4_6 (U4_6 m ρ c)
abbrev U4_8 : Dev nD → Valuation τ sig (Elt F) := fun c => StableHlo.after hostOps4_7 (U4_7 m ρ c)
abbrev U4_9 : Dev nD → Valuation τ sig (Elt F) := fun c => StableHlo.after hostOps4_8 (U4_8 m ρ c)
abbrev U4_10 : Dev nD → Valuation τ sig (Elt F) := fun c => StableHlo.after hostOps4_9 (U4_9 m ρ c)
abbrev U4_11 : Dev nD → Valuation τ sig (Elt F) := fun c => StableHlo.after hostOps4_10 (U4_10 m ρ c)
abbrev U4_12 : Dev nD → Valuation τ sig (Elt F) := fun c => StableHlo.after hostOps4_11 (U4_11 m ρ c)
abbrev U4_13 : Dev nD → Valuation τ sig (Elt F) := fun c => StableHlo.after hostOps4_12 (U4_12 m ρ c)
abbrev U4_14 : Dev nD → Valuation τ sig (Elt F) := fun c => StableHlo.after hostOps4_13 (U4_13 m ρ c)
theorem Wk9_eq (c : Dev nD) : Wk9 m ρ c = StableHlo.after hostOps4_14 (U4_14 m ρ c) := by
  simp only [Wk9, H4, StableHlo.after_append]

/-! ## The proof data family and the thread state -/

/-- The prefetched tables' admissible contents: no pipeline has a table. -/
abbrev adm : (p : Fin 4) → (pcfgs (F := F) p).Adm := fun p => (cfgs p).toPCfg_adm
/-- Every pipeline's proof data, each at its own region's entry contents. -/
def pdats : (p : Fin 4) → (c : Dev nD) → Dat τ (Elt F) Unit ℕ (UR sig nD τ) ℕ (Pipeline.pin (pcfgs (F := F)) adm p) c
  | ⟨0, _⟩ => fun c => dat0 (Vk1 m ρ) c
  | ⟨1, _⟩ => fun c => dat1 (Vk3 m ρ) c
  | ⟨2, _⟩ => fun c => dat2 (Vk5 m ρ) c
  | ⟨3, _⟩ => fun c => dat3 (Vk7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debt to
    other cores, which is nothing. -/
abbrev R (c : Dev nD) : sProp 𝕄 := iprop((∃ r, prngReg c r) ∗ ∃ W, owes (c : Thread nD τ) (0 : CellTallies nD τ sig Unit) W)
/-- A piece of a host stretch as a segment over the unscoped references from the contents W: it runs to those
    references at the fold of the piece's operations from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the contents at the return, the generator
    register at some state. -/
abbrev Tₙ (c : Dev nD) : sProp 𝕄 := iprop(StableHlo.held (c : Thread nD τ) (Pipeline.ucRefs τ sig) (Wk9 m ρ c) ∗ ∃ r, prngReg c r)

/-! ## The regions as segments

Each region is entered from every unscoped buffer at its entry contents and left at its exit contents. At entry its
windows' arrays are split out of the unscoped buffers at the proof data's entry contents; the generator register goes
into the pipeline's invariant and comes back; nothing is owed; the kernel has no semaphore of its own. At exit the
arrays, at what the write-backs leave, are joined with the untouched rest. -/

set_option maxHeartbeats 8000000 in
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vk1 m ρ) c).loose
  hwaits := Pipeline.hwaits_of_owed_zero _ _ _ _ L lv 0 fun _ _ => rfl
  pre c := iprop(StableHlo.held (c : Thread nD τ) (Pipeline.ucRefs τ sig) (Wk1 m ρ c) ∗ R c)
  post c := iprop(StableHlo.held (c : Thread nD τ) (Pipeline.ucRefs τ sig) (Wk2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vk1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vk1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vk1 m ρ c) (Vk2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 8000000 in
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vk3 m ρ) c).loose
  hwaits := Pipeline.hwaits_of_owed_zero _ _ _ _ L lv 1 fun _ _ => rfl
  pre c := iprop(StableHlo.held (c : Thread nD τ) (Pipeline.ucRefs τ sig) (Wk3 m ρ c) ∗ R c)
  post c := iprop(StableHlo.held (c : Thread nD τ) (Pipeline.ucRefs τ sig) (Wk4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vk3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vk3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vk3 m ρ c) (Vk4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 8000000 in
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vk5 m ρ) c).loose
  hwaits := Pipeline.hwaits_of_owed_zero _ _ _ _ L lv 2 fun _ _ => rfl
  pre c := iprop(StableHlo.held (c : Thread nD τ) (Pipeline.ucRefs τ sig) (Wk5 m ρ c) ∗ R c)
  post c := iprop(StableHlo.held (c : Thread nD τ) (Pipeline.ucRefs τ sig) (Wk6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vk5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vk5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vk5 m ρ c) (Vk6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 8000000 in
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vk7 m ρ) c).loose
  hwaits := Pipeline.hwaits_of_owed_zero _ _ _ _ L lv 3 fun _ _ => rfl
  pre c := iprop(StableHlo.held (c : Thread nD τ) (Pipeline.ucRefs τ sig) (Wk7 m ρ c) ∗ R c)
  post c := iprop(StableHlo.held (c : Thread nD τ) (Pipeline.ucRefs τ sig) (Wk8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vk7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vk7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vk7 m ρ c) (Vk8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 45 segments in order: a host segment per printed piece from the contents before it, a region per kernel call. -/
abbrev segs : List (Pipeline.Seg (pcfgs (F := F)) adm (pdats m ρ) () defs₀ 𝒱₀ L lv) :=
  [ .host (hseg hostOps0 hostOps0_sub hostOps0_fresh (Wk0 m ρ)),
    .host (hseg hostOps0_1 hostOps0_1_sub hostOps0_1_fresh (U0_1 m ρ)),
    .host (hseg hostOps0_2 hostOps0_2_sub hostOps0_2_fresh (U0_2 m ρ)),
    .host (hseg hostOps0_3 hostOps0_3_sub hostOps0_3_fresh (U0_3 m ρ)),
    .host (hseg hostOps0_4 hostOps0_4_sub hostOps0_4_fresh (U0_4 m ρ)),
    .host (hseg hostOps0_5 hostOps0_5_sub hostOps0_5_fresh (U0_5 m ρ)),
    .host (hseg hostOps0_6 hostOps0_6_sub hostOps0_6_fresh (U0_6 m ρ)),
    .region (reg0 m ρ),
    .host (hseg hostOps1 hostOps1_sub hostOps1_fresh (Wk2 m ρ)),
    .host (hseg hostOps1_1 hostOps1_1_sub hostOps1_1_fresh (U1_1 m ρ)),
    .host (hseg hostOps1_2 hostOps1_2_sub hostOps1_2_fresh (U1_2 m ρ)),
    .host (hseg hostOps1_3 hostOps1_3_sub hostOps1_3_fresh (U1_3 m ρ)),
    .host (hseg hostOps1_4 hostOps1_4_sub hostOps1_4_fresh (U1_4 m ρ)),
    .host (hseg hostOps1_5 hostOps1_5_sub hostOps1_5_fresh (U1_5 m ρ)),
    .region (reg1 m ρ),
    .host (hseg hostOps2 hostOps2_sub hostOps2_fresh (Wk4 m ρ)),
    .host (hseg hostOps2_1 hostOps2_1_sub hostOps2_1_fresh (U2_1 m ρ)),
    .host (hseg hostOps2_2 hostOps2_2_sub hostOps2_2_fresh (U2_2 m ρ)),
    .host (hseg hostOps2_3 hostOps2_3_sub hostOps2_3_fresh (U2_3 m ρ)),
    .host (hseg hostOps2_4 hostOps2_4_sub hostOps2_4_fresh (U2_4 m ρ)),
    .host (hseg hostOps2_5 hostOps2_5_sub hostOps2_5_fresh (U2_5 m ρ)),
    .region (reg2 m ρ),
    .host (hseg hostOps3 hostOps3_sub hostOps3_fresh (Wk6 m ρ)),
    .host (hseg hostOps3_1 hostOps3_1_sub hostOps3_1_fresh (U3_1 m ρ)),
    .host (hseg hostOps3_2 hostOps3_2_sub hostOps3_2_fresh (U3_2 m ρ)),
    .host (hseg hostOps3_3 hostOps3_3_sub hostOps3_3_fresh (U3_3 m ρ)),
    .host (hseg hostOps3_4 hostOps3_4_sub hostOps3_4_fresh (U3_4 m ρ)),
    .host (hseg hostOps3_5 hostOps3_5_sub hostOps3_5_fresh (U3_5 m ρ)),
    .region (reg3 m ρ),
    .host (hseg hostOps4 hostOps4_sub hostOps4_fresh (Wk8 m ρ)),
    .host (hseg hostOps4_1 hostOps4_1_sub hostOps4_1_fresh (U4_1 m ρ)),
    .host (hseg hostOps4_2 hostOps4_2_sub hostOps4_2_fresh (U4_2 m ρ)),
    .host (hseg hostOps4_3 hostOps4_3_sub hostOps4_3_fresh (U4_3 m ρ)),
    .host (hseg hostOps4_4 hostOps4_4_sub hostOps4_4_fresh (U4_4 m ρ)),
    .host (hseg hostOps4_5 hostOps4_5_sub hostOps4_5_fresh (U4_5 m ρ)),
    .host (hseg hostOps4_6 hostOps4_6_sub hostOps4_6_fresh (U4_6 m ρ)),
    .host (hseg hostOps4_7 hostOps4_7_sub hostOps4_7_fresh (U4_7 m ρ)),
    .host (hseg hostOps4_8 hostOps4_8_sub hostOps4_8_fresh (U4_8 m ρ)),
    .host (hseg hostOps4_9 hostOps4_9_sub hostOps4_9_fresh (U4_9 m ρ)),
    .host (hseg hostOps4_10 hostOps4_10_sub hostOps4_10_fresh (U4_10 m ρ)),
    .host (hseg hostOps4_11 hostOps4_11_sub hostOps4_11_fresh (U4_11 m ρ)),
    .host (hseg hostOps4_12 hostOps4_12_sub hostOps4_12_fresh (U4_12 m ρ)),
    .host (hseg hostOps4_13 hostOps4_13_sub hostOps4_13_fresh (U4_13 m ρ)),
    .host (hseg hostOps4_14 hostOps4_14_sub hostOps4_14_fresh (U4_14 m ρ)) ]

/-- @main is the run of the segments: it is the chain of its printed items, and the segments' run is the chain of the
    same items: the two sides unfold to one sequence of statements. -/
theorem main_run (c : Dev nD) : main (F := F) c = Pipeline.Seg.run (segs m ρ) := (main_chain c).trans (by chain_rfl)

/-- A region is entered from the stretch-level contents, which the last piece of the stretch before it leaves. -/
theorem into_region {c : Dev nD} {W W' : Valuation τ sig (Elt F)} (h : W' = W) :
    iprop(StableHlo.held (c : Thread nD τ) (Pipeline.ucRefs τ sig) W ∗ R c)
      ⊢ (iprop(StableHlo.held (c : Thread nD τ) (Pipeline.ucRefs τ sig) W' ∗ R c) : sProp 𝕄) := by
  subst h; exact .rfl

/-- The last piece leaves the contents at the return; the register and the core's debt, which is nothing, ride along and
    are regrouped. -/
theorem at_return {c : Dev nD} {W : Valuation τ sig (Elt F)} (h : Wk9 m ρ c = W) :
    iprop(StableHlo.held (c : Thread nD τ) (Pipeline.ucRefs τ sig) W ∗ R c)
      ⊢ (iprop(Tₙ m ρ c ∗ ∃ W, owes (c : Thread nD τ) (0 : CellTallies nD τ sig Unit) W) : sProp 𝕄) := by
  subst h
  iintro ⟨Hh, Hp, HO⟩
  isplitl [Hh Hp]
  · isplitl [Hh]; · iexact Hh
    iexact Hp
  iexact HO

/-- The thread states chain: each piece is entered from what the one before it left, by name; a region from the
    stretch-level contents (the fold of the whole stretch is the fold of its pieces in turn); the last piece leaves the
    contents at the return beside the register and the core owing nothing. -/
theorem chains : Pipeline.Seg.Chains
    (fun c => iprop(StableHlo.held (c : Thread nD τ) (Pipeline.ucRefs τ sig) (Wk0 m ρ c) ∗ R c)) (segs m ρ)
    (fun c => iprop(Tₙ m ρ c ∗ ∃ W, owes (c : Thread nD τ) (0 : CellTallies nD τ sig Unit) W)) :=
  ⟨fun _ => .rfl, fun _ => .rfl, fun _ => .rfl, fun _ => .rfl, fun _ => .rfl, fun _ => .rfl, fun _ => .rfl,
    fun c => into_region (Wk1_eq m ρ c),
    fun _ => .rfl, fun _ => .rfl, fun _ => .rfl, fun _ => .rfl, fun _ => .rfl, fun _ => .rfl,
    fun c => into_region (Wk3_eq m ρ c),
    fun _ => .rfl, fun _ => .rfl, fun _ => .rfl, fun _ => .rfl, fun _ => .rfl, fun _ => .rfl,
    fun c => into_region (Wk5_eq m ρ c),
    fun _ => .rfl, fun _ => .rfl, fun _ => .rfl, fun _ => .rfl, fun _ => .rfl, fun _ => .rfl,
    fun c => into_region (Wk7_eq m ρ c),
    fun _ => .rfl, fun _ => .rfl, fun _ => .rfl, fun _ => .rfl, fun _ => .rfl, fun _ => .rfl, fun _ => .rfl, fun _ => .rfl,
    fun _ => .rfl, fun _ => .rfl, fun _ => .rfl, fun _ => .rfl, fun _ => .rfl, fun _ => .rfl, fun _ => .rfl,
    fun c => at_return m ρ (Wk9_eq m ρ c)⟩

set_option backward.isDefEq.respectTransparency.types false in
/-- THE RUN: at the compiled mesh, from any memory with zero counters, every weakly fair execution of @main on the
    TensorCores terminates, nothing faulting, and every final state has every unscoped buffer at the contents at the
    return: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m ρ c) ∗ R c)) (Tₙ := Tₙ m ρ)
    (hch := chains m ρ)
    (hinit := by
      refine Pipeline.initEach L lv fun c => ?_
      rw [show unscopedBufs c (fun b => m ((c : Thread nD τ).loc b)) = StableHlo.held (c : Thread nD τ) (Pipeline.ucRefs τ sig) (Wk0 m ρ c)
        from Pipeline.unscopedBufs_held c (Wk0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wk9 m ρ c) s')
      isplitl [Hh] <;> iassumption)
    (hQ := fun s h c => h c)

end Cert.KernelIdeal.Hand

end
-- ==== Proof.KIArgs.lean ====
/- The arguments of @main end as launched. @main's 19 arguments are the HBM references of index below 19; every
   host operation writes a result reference, of index 19 or more, and every window's array of every region is such a
   result too. So the fold of the contents through @main, read at an argument, walks back to the launch memory:
   a stretch of host operations keeps it (no operation writes it), a region keeps it (it is none of its arrays). -/
import proofs.«430033_j52948356825731_1_alg».proof.Proof.KIBound
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A list of operations that writes only result references keeps every argument -/

/-- Every reference the operation writes has index 19 or more: it is no argument of @main. -/
def WritesResults (op : HloOp τ sig (Elt F)) : Prop :=
  ∀ y : Ref sig .tc, Proc.devRef (τ := τ) .tc y ∈ op.writes → 19 ≤ y.idx.val

/-- An operation whose one written buffer is a reference of index 19 or more. -/
theorem writesResults_of_mem_singleton {op : HloOp τ sig (Elt F)} {y₀ : Ref sig .tc}
    (h : ∀ b, b ∈ op.writes → b = Proc.devRef (τ := τ) .tc y₀) (hy : 19 ≤ y₀.idx.val) : WritesResults op :=
  fun y e => by cases Proc.devRef_injective _ (h _ e); exact hy

/-- A list of such operations leaves a reference of index below 19 as it was. -/
theorem after_keeps_arg (ops : List (HloOp τ sig (Elt F))) (V : Valuation τ sig (Elt F))
    (h : ops.Forall WritesResults) (r : Ref sig .tc) (hr : r.idx.val < 19) :
    StableHlo.after ops V (Proc.devRef .tc r) = V (Proc.devRef .tc r) :=
  StableHlo.after_of_forall_not_mem ops V fun op hop hmem =>
    absurd ((List.forall_iff_forall_mem.mp h) op hop r hmem) (by omega)

/-! ## Each printed piece writes only result references

Each operation of a piece is a builder at a literal result reference, its written set that reference's singleton by
unfolding; the reference's index is compared by evaluation. -/

theorem hostOps0_res : (hostOps0 : List (HloOp τ sig (Elt F))).Forall WritesResults := by
  simp only [List.Forall]; repeat' apply And.intro
  all_goals exact writesResults_of_mem_singleton (fun _ e => Finset.mem_singleton.mp e) (by decide)
theorem hostOps0_1_res : (hostOps0_1 : List (HloOp τ sig (Elt F))).Forall WritesResults := by
  simp only [List.Forall]; repeat' apply And.intro
  all_goals exact writesResults_of_mem_singleton (fun _ e => Finset.mem_singleton.mp e) (by decide)
theorem hostOps0_2_res : (hostOps0_2 : List (HloOp τ sig (Elt F))).Forall WritesResults := by
  simp only [List.Forall]; repeat' apply And.intro
  all_goals exact writesResults_of_mem_singleton (fun _ e => Finset.mem_singleton.mp e) (by decide)
set_option maxHeartbeats 4000000 in
theorem hostOps0_3_res : (hostOps0_3 : List (HloOp τ sig (Elt F))).Forall WritesResults := by
  simp only [List.Forall]; repeat' apply And.intro
  all_goals exact writesResults_of_mem_singleton (fun _ e => Finset.mem_singleton.mp e) (by decide)
theorem hostOps0_4_res : (hostOps0_4 : List (HloOp τ sig (Elt F))).Forall WritesResults := by
  simp only [List.Forall]; repeat' apply And.intro
  all_goals exact writesResults_of_mem_singleton (fun _ e => Finset.mem_singleton.mp e) (by decide)
theorem hostOps0_5_res : (hostOps0_5 : List (HloOp τ sig (Elt F))).Forall WritesResults := by
  simp only [List.Forall]; repeat' apply And.intro
  all_goals exact writesResults_of_mem_singleton (fun _ e => Finset.mem_singleton.mp e) (by decide)
theorem hostOps0_6_res : (hostOps0_6 : List (HloOp τ sig (Elt F))).Forall WritesResults := by
  simp only [List.Forall]; repeat' apply And.intro
  all_goals exact writesResults_of_mem_singleton (fun _ e => Finset.mem_singleton.mp e) (by decide)

theorem hostOps1_res : (hostOps1 : List (HloOp τ sig (Elt F))).Forall WritesResults := by
  simp only [List.Forall]; repeat' apply And.intro
  all_goals exact writesResults_of_mem_singleton (fun _ e => Finset.mem_singleton.mp e) (by decide)
theorem hostOps1_1_res : (hostOps1_1 : List (HloOp τ sig (Elt F))).Forall WritesResults := by
  simp only [List.Forall]; repeat' apply And.intro
  all_goals exact writesResults_of_mem_singleton (fun _ e => Finset.mem_singleton.mp e) (by decide)
theorem hostOps1_2_res : (hostOps1_2 : List (HloOp τ sig (Elt F))).Forall WritesResults := by
  simp only [List.Forall]; repeat' apply And.intro
  all_goals exact writesResults_of_mem_singleton (fun _ e => Finset.mem_singleton.mp e) (by decide)
theorem hostOps1_3_res : (hostOps1_3 : List (HloOp τ sig (Elt F))).Forall WritesResults := by
  simp only [List.Forall]; repeat' apply And.intro
  all_goals exact writesResults_of_mem_singleton (fun _ e => Finset.mem_singleton.mp e) (by decide)
theorem hostOps1_4_res : (hostOps1_4 : List (HloOp τ sig (Elt F))).Forall WritesResults := by
  simp only [List.Forall]; repeat' apply And.intro
  all_goals exact writesResults_of_mem_singleton (fun _ e => Finset.mem_singleton.mp e) (by decide)
theorem hostOps1_5_res : (hostOps1_5 : List (HloOp τ sig (Elt F))).Forall WritesResults := by
  simp only [List.Forall]; repeat' apply And.intro
  all_goals exact writesResults_of_mem_singleton (fun _ e => Finset.mem_singleton.mp e) (by decide)

theorem hostOps2_res : (hostOps2 : List (HloOp τ sig (Elt F))).Forall WritesResults := by
  simp only [List.Forall]; repeat' apply And.intro
  all_goals exact writesResults_of_mem_singleton (fun _ e => Finset.mem_singleton.mp e) (by decide)
theorem hostOps2_1_res : (hostOps2_1 : List (HloOp τ sig (Elt F))).Forall WritesResults := by
  simp only [List.Forall]; repeat' apply And.intro
  all_goals exact writesResults_of_mem_singleton (fun _ e => Finset.mem_singleton.mp e) (by decide)
theorem hostOps2_2_res : (hostOps2_2 : List (HloOp τ sig (Elt F))).Forall WritesResults := by
  simp only [List.Forall]; repeat' apply And.intro
  all_goals exact writesResults_of_mem_singleton (fun _ e => Finset.mem_singleton.mp e) (by decide)
theorem hostOps2_3_res : (hostOps2_3 : List (HloOp τ sig (Elt F))).Forall WritesResults := by
  simp only [List.Forall]; repeat' apply And.intro
  all_goals exact writesResults_of_mem_singleton (fun _ e => Finset.mem_singleton.mp e) (by decide)
theorem hostOps2_4_res : (hostOps2_4 : List (HloOp τ sig (Elt F))).Forall WritesResults := by
  simp only [List.Forall]; repeat' apply And.intro
  all_goals exact writesResults_of_mem_singleton (fun _ e => Finset.mem_singleton.mp e) (by decide)
theorem hostOps2_5_res : (hostOps2_5 : List (HloOp τ sig (Elt F))).Forall WritesResults := by
  simp only [List.Forall]; repeat' apply And.intro
  all_goals exact writesResults_of_mem_singleton (fun _ e => Finset.mem_singleton.mp e) (by decide)

theorem hostOps3_res : (hostOps3 : List (HloOp τ sig (Elt F))).Forall WritesResults := by
  simp only [List.Forall]; repeat' apply And.intro
  all_goals exact writesResults_of_mem_singleton (fun _ e => Finset.mem_singleton.mp e) (by decide)
theorem hostOps3_1_res : (hostOps3_1 : List (HloOp τ sig (Elt F))).Forall WritesResults := by
  simp only [List.Forall]; repeat' apply And.intro
  all_goals exact writesResults_of_mem_singleton (fun _ e => Finset.mem_singleton.mp e) (by decide)
theorem hostOps3_2_res : (hostOps3_2 : List (HloOp τ sig (Elt F))).Forall WritesResults := by
  simp only [List.Forall]; repeat' apply And.intro
  all_goals exact writesResults_of_mem_singleton (fun _ e => Finset.mem_singleton.mp e) (by decide)
theorem hostOps3_3_res : (hostOps3_3 : List (HloOp τ sig (Elt F))).Forall WritesResults := by
  simp only [List.Forall]; repeat' apply And.intro
  all_goals exact writesResults_of_mem_singleton (fun _ e => Finset.mem_singleton.mp e) (by decide)
theorem hostOps3_4_res : (hostOps3_4 : List (HloOp τ sig (Elt F))).Forall WritesResults := by
  simp only [List.Forall]; repeat' apply And.intro
  all_goals exact writesResults_of_mem_singleton (fun _ e => Finset.mem_singleton.mp e) (by decide)
theorem hostOps3_5_res : (hostOps3_5 : List (HloOp τ sig (Elt F))).Forall WritesResults := by
  simp only [List.Forall]; repeat' apply And.intro
  all_goals exact writesResults_of_mem_singleton (fun _ e => Finset.mem_singleton.mp e) (by decide)

theorem hostOps4_res : (hostOps4 : List (HloOp τ sig (Elt F))).Forall WritesResults := by
  simp only [List.Forall]; repeat' apply And.intro
  all_goals exact writesResults_of_mem_singleton (fun _ e => Finset.mem_singleton.mp e) (by decide)
theorem hostOps4_1_res : (hostOps4_1 : List (HloOp τ sig (Elt F))).Forall WritesResults := by
  simp only [List.Forall]; repeat' apply And.intro
  all_goals exact writesResults_of_mem_singleton (fun _ e => Finset.mem_singleton.mp e) (by decide)
theorem hostOps4_2_res : (hostOps4_2 : List (HloOp τ sig (Elt F))).Forall WritesResults := by
  simp only [List.Forall]; repeat' apply And.intro
  all_goals exact writesResults_of_mem_singleton (fun _ e => Finset.mem_singleton.mp e) (by decide)
theorem hostOps4_3_res : (hostOps4_3 : List (HloOp τ sig (Elt F))).Forall WritesResults := by
  simp only [List.Forall]; repeat' apply And.intro
  all_goals exact writesResults_of_mem_singleton (fun _ e => Finset.mem_singleton.mp e) (by decide)
theorem hostOps4_4_res : (hostOps4_4 : List (HloOp τ sig (Elt F))).Forall WritesResults := by
  simp only [List.Forall]; repeat' apply And.intro
  all_goals exact writesResults_of_mem_singleton (fun _ e => Finset.mem_singleton.mp e) (by decide)
theorem hostOps4_5_res : (hostOps4_5 : List (HloOp τ sig (Elt F))).Forall WritesResults := by
  simp only [List.Forall]; repeat' apply And.intro
  all_goals exact writesResults_of_mem_singleton (fun _ e => Finset.mem_singleton.mp e) (by decide)
theorem hostOps4_6_res : (hostOps4_6 : List (HloOp τ sig (Elt F))).Forall WritesResults := by
  simp only [List.Forall]; repeat' apply And.intro
  all_goals exact writesResults_of_mem_singleton (fun _ e => Finset.mem_singleton.mp e) (by decide)
theorem hostOps4_7_res : (hostOps4_7 : List (HloOp τ sig (Elt F))).Forall WritesResults := by
  simp only [List.Forall]; repeat' apply And.intro
  all_goals exact writesResults_of_mem_singleton (fun _ e => Finset.mem_singleton.mp e) (by decide)
theorem hostOps4_8_res : (hostOps4_8 : List (HloOp τ sig (Elt F))).Forall WritesResults := by
  simp only [List.Forall]; repeat' apply And.intro
  all_goals exact writesResults_of_mem_singleton (fun _ e => Finset.mem_singleton.mp e) (by decide)
theorem hostOps4_9_res : (hostOps4_9 : List (HloOp τ sig (Elt F))).Forall WritesResults := by
  simp only [List.Forall]; repeat' apply And.intro
  all_goals exact writesResults_of_mem_singleton (fun _ e => Finset.mem_singleton.mp e) (by decide)
set_option maxHeartbeats 4000000 in
theorem hostOps4_10_res : (hostOps4_10 : List (HloOp τ sig (Elt F))).Forall WritesResults := by
  simp only [List.Forall]; repeat' apply And.intro
  all_goals exact writesResults_of_mem_singleton (fun _ e => Finset.mem_singleton.mp e) (by decide)
theorem hostOps4_11_res : (hostOps4_11 : List (HloOp τ sig (Elt F))).Forall WritesResults := by
  simp only [List.Forall]; repeat' apply And.intro
  all_goals exact writesResults_of_mem_singleton (fun _ e => Finset.mem_singleton.mp e) (by decide)
theorem hostOps4_12_res : (hostOps4_12 : List (HloOp τ sig (Elt F))).Forall WritesResults := by
  simp only [List.Forall]; repeat' apply And.intro
  all_goals exact writesResults_of_mem_singleton (fun _ e => Finset.mem_singleton.mp e) (by decide)
theorem hostOps4_13_res : (hostOps4_13 : List (HloOp τ sig (Elt F))).Forall WritesResults := by
  simp only [List.Forall]; repeat' apply And.intro
  all_goals exact writesResults_of_mem_singleton (fun _ e => Finset.mem_singleton.mp e) (by decide)
theorem hostOps4_14_res : (hostOps4_14 : List (HloOp τ sig (Elt F))).Forall WritesResults := by
  simp only [List.Forall]; repeat' apply And.intro
  all_goals exact writesResults_of_mem_singleton (fun _ e => Finset.mem_singleton.mp e) (by decide)

/-! ## A whole stretch writes only result references -/

universe u in
/-- A property of every element of two lists holds of every element of their concatenation. -/
theorem forall_append {α : Type u} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem H0_res : (H0 : List (HloOp τ sig (Elt F))).Forall WritesResults :=
  forall_append (forall_append (forall_append (forall_append (forall_append (forall_append
    hostOps0_res hostOps0_1_res) hostOps0_2_res) hostOps0_3_res) hostOps0_4_res) hostOps0_5_res) hostOps0_6_res
theorem H1_res : (H1 : List (HloOp τ sig (Elt F))).Forall WritesResults :=
  forall_append (forall_append (forall_append (forall_append (forall_append
    hostOps1_res hostOps1_1_res) hostOps1_2_res) hostOps1_3_res) hostOps1_4_res) hostOps1_5_res
theorem H2_res : (H2 : List (HloOp τ sig (Elt F))).Forall WritesResults :=
  forall_append (forall_append (forall_append (forall_append (forall_append
    hostOps2_res hostOps2_1_res) hostOps2_2_res) hostOps2_3_res) hostOps2_4_res) hostOps2_5_res
theorem H3_res : (H3 : List (HloOp τ sig (Elt F))).Forall WritesResults :=
  forall_append (forall_append (forall_append (forall_append (forall_append
    hostOps3_res hostOps3_1_res) hostOps3_2_res) hostOps3_3_res) hostOps3_4_res) hostOps3_5_res
theorem H4_res : (H4 : List (HloOp τ sig (Elt F))).Forall WritesResults :=
  forall_append (forall_append (forall_append (forall_append (forall_append (forall_append (forall_append
    (forall_append (forall_append (forall_append (forall_append (forall_append (forall_append (forall_append
    hostOps4_res hostOps4_1_res) hostOps4_2_res) hostOps4_3_res) hostOps4_4_res) hostOps4_5_res) hostOps4_6_res)
    hostOps4_7_res) hostOps4_8_res) hostOps4_9_res) hostOps4_10_res) hostOps4_11_res) hostOps4_12_res)
    hostOps4_13_res) hostOps4_14_res

/-! ## No window's array of any region is an argument -/

theorem arr0_res : ∀ w, 19 ≤ (Pipeline.arrRef spec0 w).idx.val := by decide
theorem arr1_res : ∀ w, 19 ≤ (Pipeline.arrRef spec1 w).idx.val := by decide
theorem arr2_res : ∀ w, 19 ≤ (Pipeline.arrRef spec2 w).idx.val := by decide
theorem arr3_res : ∀ w, 19 ≤ (Pipeline.arrRef spec3 w).idx.val := by decide

variable (m : (ℓ : Loc nD τ sig) → Buf (Elt F) ℓ) (ρ : Dev nD → PrngReg)

/-! ## Every boundary's contents at an argument are the launch memory's

Walking the fold back from a boundary: a stretch keeps a reference of index below 19, a region keeps a reference
that is none of its windows' arrays. -/

theorem Wk1_arg (c : Dev nD) (r : Ref sig .tc) (hr : r.idx.val < 19) :
    Wk1 m ρ c (Proc.devRef .tc r) = m ((c : Thread nD τ).loc r) :=
  (after_keeps_arg H0 _ H0_res r hr).trans rfl
theorem Wk2_arg (c : Dev nD) (r : Ref sig .tc) (hr : r.idx.val < 19) :
    Wk2 m ρ c (Proc.devRef .tc r) = m ((c : Thread nD τ).loc r) :=
  (Wk2_of_ne m ρ c r fun w e => by have h := arr0_res w; rw [e] at h; omega).trans (Wk1_arg m ρ c r hr)
theorem Wk3_arg (c : Dev nD) (r : Ref sig .tc) (hr : r.idx.val < 19) :
    Wk3 m ρ c (Proc.devRef .tc r) = m ((c : Thread nD τ).loc r) :=
  (after_keeps_arg H1 _ H1_res r hr).trans (Wk2_arg m ρ c r hr)
theorem Wk4_arg (c : Dev nD) (r : Ref sig .tc) (hr : r.idx.val < 19) :
    Wk4 m ρ c (Proc.devRef .tc r) = m ((c : Thread nD τ).loc r) :=
  (Wk4_of_ne m ρ c r fun w e => by have h := arr1_res w; rw [e] at h; omega).trans (Wk3_arg m ρ c r hr)
theorem Wk5_arg (c : Dev nD) (r : Ref sig .tc) (hr : r.idx.val < 19) :
    Wk5 m ρ c (Proc.devRef .tc r) = m ((c : Thread nD τ).loc r) :=
  (after_keeps_arg H2 _ H2_res r hr).trans (Wk4_arg m ρ c r hr)
theorem Wk6_arg (c : Dev nD) (r : Ref sig .tc) (hr : r.idx.val < 19) :
    Wk6 m ρ c (Proc.devRef .tc r) = m ((c : Thread nD τ).loc r) :=
  (Wk6_of_ne m ρ c r fun w e => by have h := arr2_res w; rw [e] at h; omega).trans (Wk5_arg m ρ c r hr)
theorem Wk7_arg (c : Dev nD) (r : Ref sig .tc) (hr : r.idx.val < 19) :
    Wk7 m ρ c (Proc.devRef .tc r) = m ((c : Thread nD τ).loc r) :=
  (after_keeps_arg H3 _ H3_res r hr).trans (Wk6_arg m ρ c r hr)
theorem Wk8_arg (c : Dev nD) (r : Ref sig .tc) (hr : r.idx.val < 19) :
    Wk8 m ρ c (Proc.devRef .tc r) = m ((c : Thread nD τ).loc r) :=
  (Wk8_of_ne m ρ c r fun w e => by have h := arr3_res w; rw [e] at h; omega).trans (Wk7_arg m ρ c r hr)
theorem Wk9_arg (c : Dev nD) (r : Ref sig .tc) (hr : r.idx.val < 19) :
    Wk9 m ρ c (Proc.devRef .tc r) = m ((c : Thread nD τ).loc r) :=
  (after_keeps_arg H4 _ H4_res r hr).trans (Wk8_arg m ρ c r hr)

/-! ## The 19 arguments at the return -/

theorem Wk9_main_arg0 (c : Dev nD) : Wk9 m ρ c (Proc.devRef .tc main_arg0) = m ((c : Thread nD τ).loc main_arg0) :=
  Wk9_arg m ρ c main_arg0 (by decide)
theorem Wk9_main_arg1 (c : Dev nD) : Wk9 m ρ c (Proc.devRef .tc main_arg1) = m ((c : Thread nD τ).loc main_arg1) :=
  Wk9_arg m ρ c main_arg1 (by decide)
theorem Wk9_main_arg2 (c : Dev nD) : Wk9 m ρ c (Proc.devRef .tc main_arg2) = m ((c : Thread nD τ).loc main_arg2) :=
  Wk9_arg m ρ c main_arg2 (by decide)
theorem Wk9_main_arg3 (c : Dev nD) : Wk9 m ρ c (Proc.devRef .tc main_arg3) = m ((c : Thread nD τ).loc main_arg3) :=
  Wk9_arg m ρ c main_arg3 (by decide)
theorem Wk9_main_arg4 (c : Dev nD) : Wk9 m ρ c (Proc.devRef .tc main_arg4) = m ((c : Thread nD τ).loc main_arg4) :=
  Wk9_arg m ρ c main_arg4 (by decide)
theorem Wk9_main_arg5 (c : Dev nD) : Wk9 m ρ c (Proc.devRef .tc main_arg5) = m ((c : Thread nD τ).loc main_arg5) :=
  Wk9_arg m ρ c main_arg5 (by decide)
theorem Wk9_main_arg6 (c : Dev nD) : Wk9 m ρ c (Proc.devRef .tc main_arg6) = m ((c : Thread nD τ).loc main_arg6) :=
  Wk9_arg m ρ c main_arg6 (by decide)
theorem Wk9_main_arg7 (c : Dev nD) : Wk9 m ρ c (Proc.devRef .tc main_arg7) = m ((c : Thread nD τ).loc main_arg7) :=
  Wk9_arg m ρ c main_arg7 (by decide)
theorem Wk9_main_arg8 (c : Dev nD) : Wk9 m ρ c (Proc.devRef .tc main_arg8) = m ((c : Thread nD τ).loc main_arg8) :=
  Wk9_arg m ρ c main_arg8 (by decide)
theorem Wk9_main_arg9 (c : Dev nD) : Wk9 m ρ c (Proc.devRef .tc main_arg9) = m ((c : Thread nD τ).loc main_arg9) :=
  Wk9_arg m ρ c main_arg9 (by decide)
theorem Wk9_main_arg10 (c : Dev nD) : Wk9 m ρ c (Proc.devRef .tc main_arg10) = m ((c : Thread nD τ).loc main_arg10) :=
  Wk9_arg m ρ c main_arg10 (by decide)
theorem Wk9_main_arg11 (c : Dev nD) : Wk9 m ρ c (Proc.devRef .tc main_arg11) = m ((c : Thread nD τ).loc main_arg11) :=
  Wk9_arg m ρ c main_arg11 (by decide)
theorem Wk9_main_arg12 (c : Dev nD) : Wk9 m ρ c (Proc.devRef .tc main_arg12) = m ((c : Thread nD τ).loc main_arg12) :=
  Wk9_arg m ρ c main_arg12 (by decide)
theorem Wk9_main_arg13 (c : Dev nD) : Wk9 m ρ c (Proc.devRef .tc main_arg13) = m ((c : Thread nD τ).loc main_arg13) :=
  Wk9_arg m ρ c main_arg13 (by decide)
theorem Wk9_main_arg14 (c : Dev nD) : Wk9 m ρ c (Proc.devRef .tc main_arg14) = m ((c : Thread nD τ).loc main_arg14) :=
  Wk9_arg m ρ c main_arg14 (by decide)
theorem Wk9_main_arg15 (c : Dev nD) : Wk9 m ρ c (Proc.devRef .tc main_arg15) = m ((c : Thread nD τ).loc main_arg15) :=
  Wk9_arg m ρ c main_arg15 (by decide)
theorem Wk9_main_arg16 (c : Dev nD) : Wk9 m ρ c (Proc.devRef .tc main_arg16) = m ((c : Thread nD τ).loc main_arg16) :=
  Wk9_arg m ρ c main_arg16 (by decide)
theorem Wk9_main_arg17 (c : Dev nD) : Wk9 m ρ c (Proc.devRef .tc main_arg17) = m ((c : Thread nD τ).loc main_arg17) :=
  Wk9_arg m ρ c main_arg17 (by decide)
theorem Wk9_main_arg18 (c : Dev nD) : Wk9 m ρ c (Proc.devRef .tc main_arg18) = m ((c : Thread nD τ).loc main_arg18) :=
  Wk9_arg m ρ c main_arg18 (by decide)

end Cert.KernelIdeal.Hand

end
-- ==== Proof.KIFrame.lean ====
/- The two statements about @main's run that the claim uses, read off the run: every final state has each of the
   19 argument arrays as launched (the frame), and has each result array at the contents the fold through @main
   gives it at the return. Both follow from the run's conclusion, which names every unscoped buffer's final contents:
   a result is read there directly, an argument is read there and walked back to the launch memory. -/
import proofs.«430033_j52948356825731_1_alg».proof.Proof.KIRun
import proofs.«430033_j52948356825731_1_alg».proof.Proof.KIArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- THE FRAME: from any memory with zero counters every weakly fair execution of @main on the TensorCores
    terminates, nothing faulting, and every final state has the 19 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    have rd : ∀ (b : Ref sig .tc) (hb : ¬ (Proc.devRef .tc b : DevRef τ sig).isScoped),
        r.2.mem ((c.tc : Thread nD τ).loc b) = Wk9 m ρ c (Proc.devRef .tc b) := fun b hb => h c _ (mem_uc b hb)
    ⟨(rd main_arg0 (by decide)).trans (Wk9_main_arg0 m ρ c),
     (rd main_arg1 (by decide)).trans (Wk9_main_arg1 m ρ c),
     (rd main_arg2 (by decide)).trans (Wk9_main_arg2 m ρ c),
     (rd main_arg3 (by decide)).trans (Wk9_main_arg3 m ρ c),
     (rd main_arg4 (by decide)).trans (Wk9_main_arg4 m ρ c),
     (rd main_arg5 (by decide)).trans (Wk9_main_arg5 m ρ c),
     (rd main_arg6 (by decide)).trans (Wk9_main_arg6 m ρ c),
     (rd main_arg7 (by decide)).trans (Wk9_main_arg7 m ρ c),
     (rd main_arg8 (by decide)).trans (Wk9_main_arg8 m ρ c),
     (rd main_arg9 (by decide)).trans (Wk9_main_arg9 m ρ c),
     (rd main_arg10 (by decide)).trans (Wk9_main_arg10 m ρ c),
     (rd main_arg11 (by decide)).trans (Wk9_main_arg11 m ρ c),
     (rd main_arg12 (by decide)).trans (Wk9_main_arg12 m ρ c),
     (rd main_arg13 (by decide)).trans (Wk9_main_arg13 m ρ c),
     (rd main_arg14 (by decide)).trans (Wk9_main_arg14 m ρ c),
     (rd main_arg15 (by decide)).trans (Wk9_main_arg15 m ρ c),
     (rd main_arg16 (by decide)).trans (Wk9_main_arg16 m ρ c),
     (rd main_arg17 (by decide)).trans (Wk9_main_arg17 m ρ c),
     (rd main_arg18 (by decide)).trans (Wk9_main_arg18 m ρ c)⟩) (run_all m ρ)

/-- THE RESULTS: the same run, and every final state has each of the 12 result arrays at the contents the fold through
    @main gives it at the return, and the 19 argument arrays as launched. -/
theorem run_results : θ_run defs (onTc (τ := τ) (main (F := F))) ⟨m, fun _ => 0, ρ⟩ (fun r => ∀ c : Dev nD,
      r.2.mem ((c.tc : Thread nD τ).loc main_v224) = Wk9 m ρ c (Proc.devRef .tc main_v224)
      ∧ r.2.mem ((c.tc : Thread nD τ).loc main_v413) = Wk9 m ρ c (Proc.devRef .tc main_v413)
      ∧ r.2.mem ((c.tc : Thread nD τ).loc main_arg3) = Wk9 m ρ c (Proc.devRef .tc main_arg3)
      ∧ r.2.mem ((c.tc : Thread nD τ).loc main_v160_2) = Wk9 m ρ c (Proc.devRef .tc main_v160_2)
      ∧ r.2.mem ((c.tc : Thread nD τ).loc main_v126) = Wk9 m ρ c (Proc.devRef .tc main_v126)
      ∧ r.2.mem ((c.tc : Thread nD τ).loc main_v138) = Wk9 m ρ c (Proc.devRef .tc main_v138)
      ∧ r.2.mem ((c.tc : Thread nD τ).loc main_v151) = Wk9 m ρ c (Proc.devRef .tc main_v151)
      ∧ r.2.mem ((c.tc : Thread nD τ).loc main_v166) = Wk9 m ρ c (Proc.devRef .tc main_v166)
      ∧ r.2.mem ((c.tc : Thread nD τ).loc main_v120_1) = Wk9 m ρ c (Proc.devRef .tc main_v120_1)
      ∧ r.2.mem ((c.tc : Thread nD τ).loc main_v132_1) = Wk9 m ρ c (Proc.devRef .tc main_v132_1)
      ∧ r.2.mem ((c.tc : Thread nD τ).loc main_v145_1) = Wk9 m ρ c (Proc.devRef .tc main_v145_1)
      ∧ r.2.mem ((c.tc : Thread nD τ).loc main_v160_1) = Wk9 m ρ c (Proc.devRef .tc main_v160_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    have rd : ∀ (b : Ref sig .tc) (hb : ¬ (Proc.devRef .tc b : DevRef τ sig).isScoped),
        r.2.mem ((c.tc : Thread nD τ).loc b) = Wk9 m ρ c (Proc.devRef .tc b) := fun b hb => h c _ (mem_uc b hb)
    ⟨rd main_v224 (by decide),
     rd main_v413 (by decide),
     rd main_arg3 (by decide),
     rd main_v160_2 (by decide),
     rd main_v126 (by decide),
     rd main_v138 (by decide),
     rd main_v151 (by decide),
     rd main_v166 (by decide),
     rd main_v120_1 (by decide),
     rd main_v132_1 (by decide),
     rd main_v145_1 (by decide),
     rd main_v160_1 (by decide),
     (rd main_arg0 (by decide)).trans (Wk9_main_arg0 m ρ c),
     (rd main_arg1 (by decide)).trans (Wk9_main_arg1 m ρ c),
     (rd main_arg2 (by decide)).trans (Wk9_main_arg2 m ρ c),
     (rd main_arg3 (by decide)).trans (Wk9_main_arg3 m ρ c),
     (rd main_arg4 (by decide)).trans (Wk9_main_arg4 m ρ c),
     (rd main_arg5 (by decide)).trans (Wk9_main_arg5 m ρ c),
     (rd main_arg6 (by decide)).trans (Wk9_main_arg6 m ρ c),
     (rd main_arg7 (by decide)).trans (Wk9_main_arg7 m ρ c),
     (rd main_arg8 (by decide)).trans (Wk9_main_arg8 m ρ c),
     (rd main_arg9 (by decide)).trans (Wk9_main_arg9 m ρ c),
     (rd main_arg10 (by decide)).trans (Wk9_main_arg10 m ρ c),
     (rd main_arg11 (by decide)).trans (Wk9_main_arg11 m ρ c),
     (rd main_arg12 (by decide)).trans (Wk9_main_arg12 m ρ c),
     (rd main_arg13 (by decide)).trans (Wk9_main_arg13 m ρ c),
     (rd main_arg14 (by decide)).trans (Wk9_main_arg14 m ρ c),
     (rd main_arg15 (by decide)).trans (Wk9_main_arg15 m ρ c),
     (rd main_arg16 (by decide)).trans (Wk9_main_arg16 m ρ c),
     (rd main_arg17 (by decide)).trans (Wk9_main_arg17 m ρ c),
     (rd main_arg18 (by decide)).trans (Wk9_main_arg18 m ρ c)⟩) (run_all m ρ)

end Cert.KernelIdeal.Hand

end
-- ==== Proof.ROps.lean ====
/- The reference program's @main as explicit lists of its 605 host operations, one list per printed window of
   statements; a call of a module-local function is its body's operations at the call site, over the call's
   record of buffers (inlining is substitution). @main is the straight line of the ten lists in order; every
   operation touches TensorCore references only; the signature scopes no buffer and no semaphore. -/
import proofs.«430033_j52948356825731_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 605 (window main_part0). -/
abbrev rops0 : List (HloOp τ sig (Elt F)) :=
  [ nullary main_cst (fun i => FloatOps.ofBits .f32 (lit0 (S4.rowMajor i))),
    unary main_arg18 main_v0 ((extractStridedSlice S1x200000 ![0, 0] · slices_S2x200000_S1x200000_0_0) : (⟨S2x200000, .i32⟩ : BufTy).Contents (Elt F) → (⟨S1x200000, .i32⟩ : BufTy).Contents (Elt F)),
    reshape main_v0 main_v1 rfl shapeCasts_S1x200000_S200000,
    unary main_arg18 main_v2 ((extractStridedSlice S1x200000 ![1, 0] · slices_S2x200000_S1x200000_1_0) : (⟨S2x200000, .i32⟩ : BufTy).Contents (Elt F) → (⟨S1x200000, .i32⟩ : BufTy).Contents (Elt F)),
    reshape main_v2 main_v3 rfl shapeCasts_S1x200000_S200000,
    nullary main_c (constantI S_ 32 0#32),
    unary main_c main_v4 (broadcastInDim S200000 ![] bcast_S_S200000 : (⟨S_, .i32⟩ : BufTy).Contents (Elt F) → (⟨S200000, .i32⟩ : BufTy).Contents (Elt F)),
    binary main_v3 main_v4 main_v5 (cmpi .slt : (⟨S200000, .i32⟩ : BufTy).Contents (Elt F) → (⟨S200000, .i32⟩ : BufTy).Contents (Elt F) → (⟨S200000, .i1⟩ : BufTy).Contents (Elt F)),
    nullary main_c_0 (constantI S_ 32 10000#32),
    unary main_c_0 main_v6 (broadcastInDim S200000 ![] bcast_S_S200000 : (⟨S_, .i32⟩ : BufTy).Contents (Elt F) → (⟨S200000, .i32⟩ : BufTy).Contents (Elt F)),
    binary main_v3 main_v6 main_v7 (addi : (⟨S200000, .i32⟩ : BufTy).Contents (Elt F) → (⟨S200000, .i32⟩ : BufTy).Contents (Elt F) → (⟨S200000, .i32⟩ : BufTy).Contents (Elt F)),
    ternary main_v5 main_v7 main_v3 main_v8 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v8 main_v9 (broadcastInDim S200000x1 ![0] bcast_S200000_S200000x1_0 : (⟨S200000, .i32⟩ : BufTy).Contents (Elt F) → (⟨S200000x1, .i32⟩ : BufTy).Contents (Elt F)),
    binary main_arg0 main_v9 main_v10 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F)),
    unary main_v10 main_v11 ((extractStridedSlice S200000x1 ![0, 0] · slices_S200000x4_S200000x1_0_0) : (⟨S200000x4, .f32⟩ : BufTy).Contents (Elt F) → (⟨S200000x1, .f32⟩ : BufTy).Contents (Elt F)),
    unary main_v10 main_v12 ((extractStridedSlice S200000x3 ![0, 1] · slices_S200000x4_S200000x3_0_1) : (⟨S200000x4, .f32⟩ : BufTy).Contents (Elt F) → (⟨S200000x3, .f32⟩ : BufTy).Contents (Elt F)),
    unary main_v12 main_v13 (Host.negf : (⟨S200000x3, .f32⟩ : BufTy).Contents (Elt F) → (⟨S200000x3, .f32⟩ : BufTy).Contents (Elt F)),
    binary main_v11 main_v13 main_v14 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F)),
    unary main_v14 main_v15 ((extractStridedSlice S200000x1 ![0, 0] · slices_S200000x4_S200000x1_0_0) : (⟨S200000x4, .f32⟩ : BufTy).Contents (Elt F) → (⟨S200000x1, .f32⟩ : BufTy).Contents (Elt F)),
    reshape main_v15 main_v16 rfl shapeCasts_S200000x1_S200000,
    unary main_v14 main_v17 ((extractStridedSlice S200000x1 ![0, 1] · slices_S200000x4_S200000x1_0_1) : (⟨S200000x4, .f32⟩ : BufTy).Contents (Elt F) → (⟨S200000x1, .f32⟩ : BufTy).Contents (Elt F)),
    reshape main_v17 main_v18 rfl shapeCasts_S200000x1_S200000,
    unary main_v14 main_v19 ((extractStridedSlice S200000x1 ![0, 2] · slices_S200000x4_S200000x1_0_2) : (⟨S200000x4, .f32⟩ : BufTy).Contents (Elt F) → (⟨S200000x1, .f32⟩ : BufTy).Contents (Elt F)),
    reshape main_v19 main_v20 rfl shapeCasts_S200000x1_S200000,
    unary main_v14 main_v21 ((extractStridedSlice S200000x1 ![0, 3] · slices_S200000x4_S200000x1_0_3) : (⟨S200000x4, .f32⟩ : BufTy).Contents (Elt F) → (⟨S200000x1, .f32⟩ : BufTy).Contents (Elt F)),
    reshape main_v21 main_v22 rfl shapeCasts_S200000x1_S200000,
    unary main_arg1 main_v23 ((extractStridedSlice S200000x1 ![0, 0] · slices_S200000x4_S200000x1_0_0) : (⟨S200000x4, .f32⟩ : BufTy).Contents (Elt F) → (⟨S200000x1, .f32⟩ : BufTy).Contents (Elt F)),
    reshape main_v23 main_v24 rfl shapeCasts_S200000x1_S200000,
    unary main_arg1 main_v25 ((extractStridedSlice S200000x1 ![0, 1] · slices_S200000x4_S200000x1_0_1) : (⟨S200000x4, .f32⟩ : BufTy).Contents (Elt F) → (⟨S200000x1, .f32⟩ : BufTy).Contents (Elt F)),
    reshape main_v25 main_v26 rfl shapeCasts_S200000x1_S200000,
    unary main_arg1 main_v27 ((extractStridedSlice S200000x1 ![0, 2] · slices_S200000x4_S200000x1_0_2) : (⟨S200000x4, .f32⟩ : BufTy).Contents (Elt F) → (⟨S200000x1, .f32⟩ : BufTy).Contents (Elt F)),
    reshape main_v27 main_v28 rfl shapeCasts_S200000x1_S200000,
    unary main_arg1 main_v29 ((extractStridedSlice S200000x1 ![0, 3] · slices_S200000x4_S200000x1_0_3) : (⟨S200000x4, .f32⟩ : BufTy).Contents (Elt F) → (⟨S200000x1, .f32⟩ : BufTy).Contents (Elt F)),
    reshape main_v29 main_v30 rfl shapeCasts_S200000x1_S200000,
    binary main_v16 main_v24 main_v31 (mulf : (⟨S200000, .f32⟩ : BufTy).Contents (Elt F) → (⟨S200000, .f32⟩ : BufTy).Contents (Elt F) → (⟨S200000, .f32⟩ : BufTy).Contents (Elt F)),
    binary main_v18 main_v26 main_v32 (mulf : (⟨S200000, .f32⟩ : BufTy).Contents (Elt F) → (⟨S200000, .f32⟩ : BufTy).Contents (Elt F) → (⟨S200000, .f32⟩ : BufTy).Contents (Elt F)),
    binary main_v31 main_v32 main_v33 (subf : (⟨S200000, .f32⟩ : BufTy).Contents (Elt F) → (⟨S200000, .f32⟩ : BufTy).Contents (Elt F) → (⟨S200000, .f32⟩ : BufTy).Contents (Elt F)),
    binary main_v20 main_v28 main_v34 (mulf : (⟨S200000, .f32⟩ : BufTy).Contents (Elt F) → (⟨S200000, .f32⟩ : BufTy).Contents (Elt F) → (⟨S200000, .f32⟩ : BufTy).Contents (Elt F)),
    binary main_v33 main_v34 main_v35 (subf : (⟨S200000, .f32⟩ : BufTy).Contents (Elt F) → (⟨S200000, .f32⟩ : BufTy).Contents (Elt F) → (⟨S200000, .f32⟩ : BufTy).Contents (Elt F)),
    binary main_v22 main_v30 main_v36 (mulf : (⟨S200000, .f32⟩ : BufTy).Contents (Elt F) → (⟨S200000, .f32⟩ : BufTy).Contents (Elt F) → (⟨S200000, .f32⟩ : BufTy).Contents (Elt F)),
    binary main_v35 main_v36 main_v37 (subf : (⟨S200000, .f32⟩ : BufTy).Contents (Elt F) → (⟨S200000, .f32⟩ : BufTy).Contents (Elt F) → (⟨S200000, .f32⟩ : BufTy).Contents (Elt F)),
    binary main_v16 main_v26 main_v38 (mulf : (⟨S200000, .f32⟩ : BufTy).Contents (Elt F) → (⟨S200000, .f32⟩ : BufTy).Contents (Elt F) → (⟨S200000, .f32⟩ : BufTy).Contents (Elt F)),
    binary main_v18 main_v24 main_v39 (mulf : (⟨S200000, .f32⟩ : BufTy).Contents (Elt F) → (⟨S200000, .f32⟩ : BufTy).Contents (Elt F) → (⟨S200000, .f32⟩ : BufTy).Contents (Elt F)),
    binary main_v38 main_v39 main_v40 (addf : (⟨S200000, .f32⟩ : BufTy).Contents (Elt F) → (⟨S200000, .f32⟩ : BufTy).Contents (Elt F) → (⟨S200000, .f32⟩ : BufTy).Contents (Elt F)),
    binary main_v20 main_v30 main_v41 (mulf : (⟨S200000, .f32⟩ : BufTy).Contents (Elt F) → (⟨S200000, .f32⟩ : BufTy).Contents (Elt F) → (⟨S200000, .f32⟩ : BufTy).Contents (Elt F)),
    binary main_v40 main_v41 main_v42 (addf : (⟨S200000, .f32⟩ : BufTy).Contents (Elt F) → (⟨S200000, .f32⟩ : BufTy).Contents (Elt F) → (⟨S200000, .f32⟩ : BufTy).Contents (Elt F)),
    binary main_v22 main_v28 main_v43 (mulf : (⟨S200000, .f32⟩ : BufTy).Contents (Elt F) → (⟨S200000, .f32⟩ : BufTy).Contents (Elt F) → (⟨S200000, .f32⟩ : BufTy).Contents (Elt F)),
    binary main_v42 main_v43 main_v44 (subf : (⟨S200000, .f32⟩ : BufTy).Contents (Elt F) → (⟨S200000, .f32⟩ : BufTy).Contents (Elt F) → (⟨S200000, .f32⟩ : BufTy).Contents (Elt F)),
    binary main_v16 main_v28 main_v45 (mulf : (⟨S200000, .f32⟩ : BufTy).Contents (Elt F) → (⟨S200000, .f32⟩ : BufTy).Contents (Elt F) → (⟨S200000, .f32⟩ : BufTy).Contents (Elt F)),
    binary main_v18 main_v30 main_v46 (mulf : (⟨S200000, .f32⟩ : BufTy).Contents (Elt F) → (⟨S200000, .f32⟩ : BufTy).Contents (Elt F) → (⟨S200000, .f32⟩ : BufTy).Contents (Elt F)),
    binary main_v45 main_v46 main_v47 (subf : (⟨S200000, .f32⟩ : BufTy).Contents (Elt F) → (⟨S200000, .f32⟩ : BufTy).Contents (Elt F) → (⟨S200000, .f32⟩ : BufTy).Contents (Elt F)),
    binary main_v20 main_v24 main_v48 (mulf : (⟨S200000, .f32⟩ : BufTy).Contents (Elt F) → (⟨S200000, .f32⟩ : BufTy).Contents (Elt F) → (⟨S200000, .f32⟩ : BufTy).Contents (Elt F)),
    binary main_v47 main_v48 main_v49 (addf : (⟨S200000, .f32⟩ : BufTy).Contents (Elt F) → (⟨S200000, .f32⟩ : BufTy).Contents (Elt F) → (⟨S200000, .f32⟩ : BufTy).Contents (Elt F)),
    binary main_v22 main_v26 main_v50 (mulf : (⟨S200000, .f32⟩ : BufTy).Contents (Elt F) → (⟨S200000, .f32⟩ : BufTy).Contents (Elt F) → (⟨S200000, .f32⟩ : BufTy).Contents (Elt F)),
    binary main_v49 main_v50 main_v51 (addf : (⟨S200000, .f32⟩ : BufTy).Contents (Elt F) → (⟨S200000, .f32⟩ : BufTy).Contents (Elt F) → (⟨S200000, .f32⟩ : BufTy).Contents (Elt F)),
    binary main_v16 main_v30 main_v52 (mulf : (⟨S200000, .f32⟩ : BufTy).Contents (Elt F) → (⟨S200000, .f32⟩ : BufTy).Contents (Elt F) → (⟨S200000, .f32⟩ : BufTy).Contents (Elt F)),
    binary main_v18 main_v28 main_v53 (mulf : (⟨S200000, .f32⟩ : BufTy).Contents (Elt F) → (⟨S200000, .f32⟩ : BufTy).Contents (Elt F) → (⟨S200000, .f32⟩ : BufTy).Contents (Elt F)),
    binary main_v52 main_v53 main_v54 (addf : (⟨S200000, .f32⟩ : BufTy).Contents (Elt F) → (⟨S200000, .f32⟩ : BufTy).Contents (Elt F) → (⟨S200000, .f32⟩ : BufTy).Contents (Elt F)),
    binary main_v20 main_v26 main_v55 (mulf : (⟨S200000, .f32⟩ : BufTy).Contents (Elt F) → (⟨S200000, .f32⟩ : BufTy).Contents (Elt F) → (⟨S200000, .f32⟩ : BufTy).Contents (Elt F)),
    binary main_v54 main_v55 main_v56 (subf : (⟨S200000, .f32⟩ : BufTy).Contents (Elt F) → (⟨S200000, .f32⟩ : BufTy).Contents (Elt F) → (⟨S200000, .f32⟩ : BufTy).Contents (Elt F)) ]

/-- @main's operations 61 … 120 of 605 (window main_part1). -/
abbrev rops1 : List (HloOp τ sig (Elt F)) :=
  [ binary main_v22 main_v24 main_v57 (mulf : (⟨S200000, .f32⟩ : BufTy).Contents (Elt F) → (⟨S200000, .f32⟩ : BufTy).Contents (Elt F) → (⟨S200000, .f32⟩ : BufTy).Contents (Elt F)),
    binary main_v56 main_v57 main_v58 (addf : (⟨S200000, .f32⟩ : BufTy).Contents (Elt F) → (⟨S200000, .f32⟩ : BufTy).Contents (Elt F) → (⟨S200000, .f32⟩ : BufTy).Contents (Elt F)),
    unary main_v37 main_v59 (broadcastInDim S200000x1 ![0] bcast_S200000_S200000x1_0 : (⟨S200000, .f32⟩ : BufTy).Contents (Elt F) → (⟨S200000x1, .f32⟩ : BufTy).Contents (Elt F)),
    unary main_v44 main_v60 (broadcastInDim S200000x1 ![0] bcast_S200000_S200000x1_0 : (⟨S200000, .f32⟩ : BufTy).Contents (Elt F) → (⟨S200000x1, .f32⟩ : BufTy).Contents (Elt F)),
    unary main_v51 main_v61 (broadcastInDim S200000x1 ![0] bcast_S200000_S200000x1_0 : (⟨S200000, .f32⟩ : BufTy).Contents (Elt F) → (⟨S200000x1, .f32⟩ : BufTy).Contents (Elt F)),
    unary main_v58 main_v62 (broadcastInDim S200000x1 ![0] bcast_S200000_S200000x1_0 : (⟨S200000, .f32⟩ : BufTy).Contents (Elt F) → (⟨S200000x1, .f32⟩ : BufTy).Contents (Elt F)),
    nary ![main_v59, main_v60, main_v61, main_v62] main_v63 (fun u => concatenate S200000x4 1 [⟨S200000x1, u 0⟩, ⟨S200000x1, u 1⟩, ⟨S200000x1, u 2⟩, ⟨S200000x1, u 3⟩] concatenates_S200000x1_S200000x1_S200000x1_S200000x1_S200000x4_d1),
    nullary main_c_1 (constantI S_ 32 0#32),
    unary main_c_1 main_v64 (broadcastInDim S200000 ![] bcast_S_S200000 : (⟨S_, .i32⟩ : BufTy).Contents (Elt F) → (⟨S200000, .i32⟩ : BufTy).Contents (Elt F)),
    binary main_v1 main_v64 main_v65 (cmpi .slt : (⟨S200000, .i32⟩ : BufTy).Contents (Elt F) → (⟨S200000, .i32⟩ : BufTy).Contents (Elt F) → (⟨S200000, .i1⟩ : BufTy).Contents (Elt F)),
    nullary main_c_2 (constantI S_ 32 10000#32),
    unary main_c_2 main_v66 (broadcastInDim S200000 ![] bcast_S_S200000 : (⟨S_, .i32⟩ : BufTy).Contents (Elt F) → (⟨S200000, .i32⟩ : BufTy).Contents (Elt F)),
    binary main_v1 main_v66 main_v67 (addi : (⟨S200000, .i32⟩ : BufTy).Contents (Elt F) → (⟨S200000, .i32⟩ : BufTy).Contents (Elt F) → (⟨S200000, .i32⟩ : BufTy).Contents (Elt F)),
    ternary main_v65 main_v67 main_v1 main_v68 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v68 main_v69 (broadcastInDim S200000x1 ![0] bcast_S200000_S200000x1_0 : (⟨S200000, .i32⟩ : BufTy).Contents (Elt F) → (⟨S200000x1, .i32⟩ : BufTy).Contents (Elt F)),
    binary main_arg0 main_v69 main_v70 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F)),
    unary main_v63 main_v71 ((extractStridedSlice S200000x1 ![0, 0] · slices_S200000x4_S200000x1_0_0) : (⟨S200000x4, .f32⟩ : BufTy).Contents (Elt F) → (⟨S200000x1, .f32⟩ : BufTy).Contents (Elt F)),
    reshape main_v71 main_v72 rfl shapeCasts_S200000x1_S200000,
    unary main_v63 main_v73 ((extractStridedSlice S200000x1 ![0, 1] · slices_S200000x4_S200000x1_0_1) : (⟨S200000x4, .f32⟩ : BufTy).Contents (Elt F) → (⟨S200000x1, .f32⟩ : BufTy).Contents (Elt F)),
    reshape main_v73 main_v74 rfl shapeCasts_S200000x1_S200000,
    unary main_v63 main_v75 ((extractStridedSlice S200000x1 ![0, 2] · slices_S200000x4_S200000x1_0_2) : (⟨S200000x4, .f32⟩ : BufTy).Contents (Elt F) → (⟨S200000x1, .f32⟩ : BufTy).Contents (Elt F)),
    reshape main_v75 main_v76 rfl shapeCasts_S200000x1_S200000,
    unary main_v63 main_v77 ((extractStridedSlice S200000x1 ![0, 3] · slices_S200000x4_S200000x1_0_3) : (⟨S200000x4, .f32⟩ : BufTy).Contents (Elt F) → (⟨S200000x1, .f32⟩ : BufTy).Contents (Elt F)),
    reshape main_v77 main_v78 rfl shapeCasts_S200000x1_S200000,
    unary main_v70 main_v79 ((extractStridedSlice S200000x1 ![0, 0] · slices_S200000x4_S200000x1_0_0) : (⟨S200000x4, .f32⟩ : BufTy).Contents (Elt F) → (⟨S200000x1, .f32⟩ : BufTy).Contents (Elt F)),
    reshape main_v79 main_v80 rfl shapeCasts_S200000x1_S200000,
    unary main_v70 main_v81 ((extractStridedSlice S200000x1 ![0, 1] · slices_S200000x4_S200000x1_0_1) : (⟨S200000x4, .f32⟩ : BufTy).Contents (Elt F) → (⟨S200000x1, .f32⟩ : BufTy).Contents (Elt F)),
    reshape main_v81 main_v82 rfl shapeCasts_S200000x1_S200000,
    unary main_v70 main_v83 ((extractStridedSlice S200000x1 ![0, 2] · slices_S200000x4_S200000x1_0_2) : (⟨S200000x4, .f32⟩ : BufTy).Contents (Elt F) → (⟨S200000x1, .f32⟩ : BufTy).Contents (Elt F)),
    reshape main_v83 main_v84 rfl shapeCasts_S200000x1_S200000,
    unary main_v70 main_v85 ((extractStridedSlice S200000x1 ![0, 3] · slices_S200000x4_S200000x1_0_3) : (⟨S200000x4, .f32⟩ : BufTy).Contents (Elt F) → (⟨S200000x1, .f32⟩ : BufTy).Contents (Elt F)),
    reshape main_v85 main_v86 rfl shapeCasts_S200000x1_S200000,
    binary main_v72 main_v80 main_v87 (mulf : (⟨S200000, .f32⟩ : BufTy).Contents (Elt F) → (⟨S200000, .f32⟩ : BufTy).Contents (Elt F) → (⟨S200000, .f32⟩ : BufTy).Contents (Elt F)),
    binary main_v74 main_v82 main_v88 (mulf : (⟨S200000, .f32⟩ : BufTy).Contents (Elt F) → (⟨S200000, .f32⟩ : BufTy).Contents (Elt F) → (⟨S200000, .f32⟩ : BufTy).Contents (Elt F)),
    binary main_v87 main_v88 main_v89 (subf : (⟨S200000, .f32⟩ : BufTy).Contents (Elt F) → (⟨S200000, .f32⟩ : BufTy).Contents (Elt F) → (⟨S200000, .f32⟩ : BufTy).Contents (Elt F)),
    binary main_v76 main_v84 main_v90 (mulf : (⟨S200000, .f32⟩ : BufTy).Contents (Elt F) → (⟨S200000, .f32⟩ : BufTy).Contents (Elt F) → (⟨S200000, .f32⟩ : BufTy).Contents (Elt F)),
    binary main_v89 main_v90 main_v91 (subf : (⟨S200000, .f32⟩ : BufTy).Contents (Elt F) → (⟨S200000, .f32⟩ : BufTy).Contents (Elt F) → (⟨S200000, .f32⟩ : BufTy).Contents (Elt F)),
    binary main_v78 main_v86 main_v92 (mulf : (⟨S200000, .f32⟩ : BufTy).Contents (Elt F) → (⟨S200000, .f32⟩ : BufTy).Contents (Elt F) → (⟨S200000, .f32⟩ : BufTy).Contents (Elt F)),
    binary main_v91 main_v92 main_v93 (subf : (⟨S200000, .f32⟩ : BufTy).Contents (Elt F) → (⟨S200000, .f32⟩ : BufTy).Contents (Elt F) → (⟨S200000, .f32⟩ : BufTy).Contents (Elt F)),
    binary main_v72 main_v82 main_v94 (mulf : (⟨S200000, .f32⟩ : BufTy).Contents (Elt F) → (⟨S200000, .f32⟩ : BufTy).Contents (Elt F) → (⟨S200000, .f32⟩ : BufTy).Contents (Elt F)),
    binary main_v74 main_v80 main_v95 (mulf : (⟨S200000, .f32⟩ : BufTy).Contents (Elt F) → (⟨S200000, .f32⟩ : BufTy).Contents (Elt F) → (⟨S200000, .f32⟩ : BufTy).Contents (Elt F)),
    binary main_v94 main_v95 main_v96 (addf : (⟨S200000, .f32⟩ : BufTy).Contents (Elt F) → (⟨S200000, .f32⟩ : BufTy).Contents (Elt F) → (⟨S200000, .f32⟩ : BufTy).Contents (Elt F)),
    binary main_v76 main_v86 main_v97 (mulf : (⟨S200000, .f32⟩ : BufTy).Contents (Elt F) → (⟨S200000, .f32⟩ : BufTy).Contents (Elt F) → (⟨S200000, .f32⟩ : BufTy).Contents (Elt F)),
    binary main_v96 main_v97 main_v98 (addf : (⟨S200000, .f32⟩ : BufTy).Contents (Elt F) → (⟨S200000, .f32⟩ : BufTy).Contents (Elt F) → (⟨S200000, .f32⟩ : BufTy).Contents (Elt F)),
    binary main_v78 main_v84 main_v99 (mulf : (⟨S200000, .f32⟩ : BufTy).Contents (Elt F) → (⟨S200000, .f32⟩ : BufTy).Contents (Elt F) → (⟨S200000, .f32⟩ : BufTy).Contents (Elt F)),
    binary main_v98 main_v99 main_v100 (subf : (⟨S200000, .f32⟩ : BufTy).Contents (Elt F) → (⟨S200000, .f32⟩ : BufTy).Contents (Elt F) → (⟨S200000, .f32⟩ : BufTy).Contents (Elt F)),
    binary main_v72 main_v84 main_v101 (mulf : (⟨S200000, .f32⟩ : BufTy).Contents (Elt F) → (⟨S200000, .f32⟩ : BufTy).Contents (Elt F) → (⟨S200000, .f32⟩ : BufTy).Contents (Elt F)),
    binary main_v74 main_v86 main_v102 (mulf : (⟨S200000, .f32⟩ : BufTy).Contents (Elt F) → (⟨S200000, .f32⟩ : BufTy).Contents (Elt F) → (⟨S200000, .f32⟩ : BufTy).Contents (Elt F)),
    binary main_v101 main_v102 main_v103 (subf : (⟨S200000, .f32⟩ : BufTy).Contents (Elt F) → (⟨S200000, .f32⟩ : BufTy).Contents (Elt F) → (⟨S200000, .f32⟩ : BufTy).Contents (Elt F)),
    binary main_v76 main_v80 main_v104 (mulf : (⟨S200000, .f32⟩ : BufTy).Contents (Elt F) → (⟨S200000, .f32⟩ : BufTy).Contents (Elt F) → (⟨S200000, .f32⟩ : BufTy).Contents (Elt F)),
    binary main_v103 main_v104 main_v105 (addf : (⟨S200000, .f32⟩ : BufTy).Contents (Elt F) → (⟨S200000, .f32⟩ : BufTy).Contents (Elt F) → (⟨S200000, .f32⟩ : BufTy).Contents (Elt F)),
    binary main_v78 main_v82 main_v106 (mulf : (⟨S200000, .f32⟩ : BufTy).Contents (Elt F) → (⟨S200000, .f32⟩ : BufTy).Contents (Elt F) → (⟨S200000, .f32⟩ : BufTy).Contents (Elt F)),
    binary main_v105 main_v106 main_v107 (addf : (⟨S200000, .f32⟩ : BufTy).Contents (Elt F) → (⟨S200000, .f32⟩ : BufTy).Contents (Elt F) → (⟨S200000, .f32⟩ : BufTy).Contents (Elt F)),
    binary main_v72 main_v86 main_v108 (mulf : (⟨S200000, .f32⟩ : BufTy).Contents (Elt F) → (⟨S200000, .f32⟩ : BufTy).Contents (Elt F) → (⟨S200000, .f32⟩ : BufTy).Contents (Elt F)),
    binary main_v74 main_v84 main_v109 (mulf : (⟨S200000, .f32⟩ : BufTy).Contents (Elt F) → (⟨S200000, .f32⟩ : BufTy).Contents (Elt F) → (⟨S200000, .f32⟩ : BufTy).Contents (Elt F)),
    binary main_v108 main_v109 main_v110 (addf : (⟨S200000, .f32⟩ : BufTy).Contents (Elt F) → (⟨S200000, .f32⟩ : BufTy).Contents (Elt F) → (⟨S200000, .f32⟩ : BufTy).Contents (Elt F)),
    binary main_v76 main_v82 main_v111 (mulf : (⟨S200000, .f32⟩ : BufTy).Contents (Elt F) → (⟨S200000, .f32⟩ : BufTy).Contents (Elt F) → (⟨S200000, .f32⟩ : BufTy).Contents (Elt F)),
    binary main_v110 main_v111 main_v112 (subf : (⟨S200000, .f32⟩ : BufTy).Contents (Elt F) → (⟨S200000, .f32⟩ : BufTy).Contents (Elt F) → (⟨S200000, .f32⟩ : BufTy).Contents (Elt F)),
    binary main_v78 main_v80 main_v113 (mulf : (⟨S200000, .f32⟩ : BufTy).Contents (Elt F) → (⟨S200000, .f32⟩ : BufTy).Contents (Elt F) → (⟨S200000, .f32⟩ : BufTy).Contents (Elt F)),
    binary main_v112 main_v113 main_v114 (addf : (⟨S200000, .f32⟩ : BufTy).Contents (Elt F) → (⟨S200000, .f32⟩ : BufTy).Contents (Elt F) → (⟨S200000, .f32⟩ : BufTy).Contents (Elt F)) ]

/-- @main's operations 121 … 184 of 605 (window main_part2). -/
abbrev rops2 : List (HloOp τ sig (Elt F)) :=
  [ unary main_v93 main_v115 (broadcastInDim S200000x1 ![0] bcast_S200000_S200000x1_0 : (⟨S200000, .f32⟩ : BufTy).Contents (Elt F) → (⟨S200000x1, .f32⟩ : BufTy).Contents (Elt F)),
    unary main_v100 main_v116 (broadcastInDim S200000x1 ![0] bcast_S200000_S200000x1_0 : (⟨S200000, .f32⟩ : BufTy).Contents (Elt F) → (⟨S200000x1, .f32⟩ : BufTy).Contents (Elt F)),
    unary main_v107 main_v117 (broadcastInDim S200000x1 ![0] bcast_S200000_S200000x1_0 : (⟨S200000, .f32⟩ : BufTy).Contents (Elt F) → (⟨S200000x1, .f32⟩ : BufTy).Contents (Elt F)),
    unary main_v114 main_v118 (broadcastInDim S200000x1 ![0] bcast_S200000_S200000x1_0 : (⟨S200000, .f32⟩ : BufTy).Contents (Elt F) → (⟨S200000x1, .f32⟩ : BufTy).Contents (Elt F)),
    nary ![main_v115, main_v116, main_v117, main_v118] main_v119 (fun u => concatenate S200000x4 1 [⟨S200000x1, u 0⟩, ⟨S200000x1, u 1⟩, ⟨S200000x1, u 2⟩, ⟨S200000x1, u 3⟩] concatenates_S200000x1_S200000x1_S200000x1_S200000x1_S200000x4_d1),
    binary main_arg4 main_arg0 main_v120 ((fun a b => concatenate S10000x132 1 [⟨S10000x128, a⟩, ⟨S10000x4, b⟩] concatenates_S10000x128_S10000x4_S10000x132_d1) : (⟨S10000x128, .f32⟩ : BufTy).Contents (Elt F) → (⟨S10000x4, .f32⟩ : BufTy).Contents (Elt F) → (⟨S10000x132, .f32⟩ : BufTy).Contents (Elt F)),
    binary main_arg5 main_v119 main_v121 ((fun a b => concatenate S200000x132 1 [⟨S200000x128, a⟩, ⟨S200000x4, b⟩] concatenates_S200000x128_S200000x4_S200000x132_d1) : (⟨S200000x128, .f32⟩ : BufTy).Contents (Elt F) → (⟨S200000x4, .f32⟩ : BufTy).Contents (Elt F) → (⟨S200000x132, .f32⟩ : BufTy).Contents (Elt F)),
    nullary main_c_3 (constantI S_ 32 0#32),
    unary main_c_3 main_v122 (broadcastInDim S200000 ![] bcast_S_S200000 : (⟨S_, .i32⟩ : BufTy).Contents (Elt F) → (⟨S200000, .i32⟩ : BufTy).Contents (Elt F)),
    binary main_v1 main_v122 main_v123 (cmpi .slt : (⟨S200000, .i32⟩ : BufTy).Contents (Elt F) → (⟨S200000, .i32⟩ : BufTy).Contents (Elt F) → (⟨S200000, .i1⟩ : BufTy).Contents (Elt F)),
    nullary main_c_4 (constantI S_ 32 10000#32),
    unary main_c_4 main_v124 (broadcastInDim S200000 ![] bcast_S_S200000 : (⟨S_, .i32⟩ : BufTy).Contents (Elt F) → (⟨S200000, .i32⟩ : BufTy).Contents (Elt F)),
    binary main_v1 main_v124 main_v125 (addi : (⟨S200000, .i32⟩ : BufTy).Contents (Elt F) → (⟨S200000, .i32⟩ : BufTy).Contents (Elt F) → (⟨S200000, .i32⟩ : BufTy).Contents (Elt F)),
    ternary main_v123 main_v125 main_v1 main_v126 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v126 main_v127 (broadcastInDim S200000x1 ![0] bcast_S200000_S200000x1_0 : (⟨S200000, .i32⟩ : BufTy).Contents (Elt F) → (⟨S200000x1, .i32⟩ : BufTy).Contents (Elt F)),
    binary main_v120 main_v127 main_v128 ((fun x i => Host.gather gather_S10000x132_S200000x1_S200000x132_1_0_n_n_0_1_1132 x i) : (⟨S10000x132, .f32⟩ : BufTy).Contents (Elt F) → (⟨S200000x1, .i32⟩ : BufTy).Contents (Elt F) → (⟨S200000x132, .f32⟩ : BufTy).Contents (Elt F)),
    nullary main_c_5 (constantI S_ 32 0#32),
    unary main_c_5 main_v129 (broadcastInDim S200000 ![] bcast_S_S200000 : (⟨S_, .i32⟩ : BufTy).Contents (Elt F) → (⟨S200000, .i32⟩ : BufTy).Contents (Elt F)),
    binary main_v3 main_v129 main_v130 (cmpi .slt : (⟨S200000, .i32⟩ : BufTy).Contents (Elt F) → (⟨S200000, .i32⟩ : BufTy).Contents (Elt F) → (⟨S200000, .i1⟩ : BufTy).Contents (Elt F)),
    nullary main_c_6 (constantI S_ 32 10000#32),
    unary main_c_6 main_v131 (broadcastInDim S200000 ![] bcast_S_S200000 : (⟨S_, .i32⟩ : BufTy).Contents (Elt F) → (⟨S200000, .i32⟩ : BufTy).Contents (Elt F)),
    binary main_v3 main_v131 main_v132 (addi : (⟨S200000, .i32⟩ : BufTy).Contents (Elt F) → (⟨S200000, .i32⟩ : BufTy).Contents (Elt F) → (⟨S200000, .i32⟩ : BufTy).Contents (Elt F)),
    ternary main_v130 main_v132 main_v3 main_v133 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v133 main_v134 (broadcastInDim S200000x1 ![0] bcast_S200000_S200000x1_0 : (⟨S200000, .i32⟩ : BufTy).Contents (Elt F) → (⟨S200000x1, .i32⟩ : BufTy).Contents (Elt F)),
    binary main_v120 main_v134 main_v135 ((fun x i => Host.gather gather_S10000x132_S200000x1_S200000x132_1_0_n_n_0_1_1132 x i) : (⟨S10000x132, .f32⟩ : BufTy).Contents (Elt F) → (⟨S200000x1, .i32⟩ : BufTy).Contents (Elt F) → (⟨S200000x132, .f32⟩ : BufTy).Contents (Elt F)),
    nary ![main_v128, main_v135, main_v121] main_v136 (fun u => concatenate S200000x396 1 [⟨S200000x132, u 0⟩, ⟨S200000x132, u 1⟩, ⟨S200000x132, u 2⟩] concatenates_S200000x132_S200000x132_S200000x132_S200000x396_d1),
    binary main_v136 main_arg6 main_v137 ((fun l r => Host.dotGeneral dot_S200000x396_S396x128_S200000x128_1_0_0_1_n_n none l r) : (⟨S200000x396, .f32⟩ : BufTy).Contents (Elt F) → (⟨S396x128, .f32⟩ : BufTy).Contents (Elt F) → (⟨S200000x128, .f32⟩ : BufTy).Contents (Elt F)),
    unary main_arg7 main_v138 (broadcastInDim S1x128 ![1] bcast_S128_S1x128_1 : (⟨S128, .f32⟩ : BufTy).Contents (Elt F) → (⟨S1x128, .f32⟩ : BufTy).Contents (Elt F)),
    unary main_v138 main_v139 (broadcastInDim S200000x128 ![0, 1] bcast_S1x128_S200000x128_0_1 : (⟨S1x128, .f32⟩ : BufTy).Contents (Elt F) → (⟨S200000x128, .f32⟩ : BufTy).Contents (Elt F)),
    binary main_v137 main_v139 main_v140 (addf : (⟨S200000x128, .f32⟩ : BufTy).Contents (Elt F) → (⟨S200000x128, .f32⟩ : BufTy).Contents (Elt F) → (⟨S200000x128, .f32⟩ : BufTy).Contents (Elt F)),
    nullary main_cst_7 (constant S_ .f32 0x00000000#32),
    unary main_cst_7 main_v141 (broadcastInDim S10000x128 ![] bcast_S_S10000x128 : (⟨S_, .f32⟩ : BufTy).Contents (Elt F) → (⟨S10000x128, .f32⟩ : BufTy).Contents (Elt F)),
    unary main_v1 main_v142 (broadcastInDim S200000x1 ![0] bcast_S200000_S200000x1_0 : (⟨S200000, .i32⟩ : BufTy).Contents (Elt F) → (⟨S200000x1, .i32⟩ : BufTy).Contents (Elt F)),
    ternary main_v141 main_v142 main_v140 main_v143 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    nullary main_cst_8 (constant S_ .f32 0x3F800000#32),
    unary main_cst_8 main_v144 (broadcastInDim S200000x1 ![] bcast_S_S200000x1 : (⟨S_, .f32⟩ : BufTy).Contents (Elt F) → (⟨S200000x1, .f32⟩ : BufTy).Contents (Elt F)),
    nullary main_cst_9 (constant S_ .f32 0x00000000#32),
    unary main_cst_9 main_v145 (broadcastInDim S10000x1 ![] bcast_S_S10000x1 : (⟨S_, .f32⟩ : BufTy).Contents (Elt F) → (⟨S10000x1, .f32⟩ : BufTy).Contents (Elt F)),
    unary main_v1 main_v146 (broadcastInDim S200000x1 ![0] bcast_S200000_S200000x1_0 : (⟨S200000, .i32⟩ : BufTy).Contents (Elt F) → (⟨S200000x1, .i32⟩ : BufTy).Contents (Elt F)),
    ternary main_v145 main_v146 main_v144 main_v147 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    nullary main_cst_10 (constant S_ .f32 0x3F800000#32),
    unary main_cst_10 main_v148 (broadcastInDim S10000x1 ![] bcast_S_S10000x1 : (⟨S_, .f32⟩ : BufTy).Contents (Elt F) → (⟨S10000x1, .f32⟩ : BufTy).Contents (Elt F)),
    binary main_v147 main_v148 main_v149 (maximumf : (⟨S10000x1, .f32⟩ : BufTy).Contents (Elt F) → (⟨S10000x1, .f32⟩ : BufTy).Contents (Elt F) → (⟨S10000x1, .f32⟩ : BufTy).Contents (Elt F)),
    unary main_v149 main_v150 (broadcastInDim S10000x128 ![0, 1] bcast_S10000x1_S10000x128_0_1 : (⟨S10000x1, .f32⟩ : BufTy).Contents (Elt F) → (⟨S10000x128, .f32⟩ : BufTy).Contents (Elt F)),
    binary main_v143 main_v150 main_v151 (Host.divf : (⟨S10000x128, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v151 : TRef sig ⟨S10000x128, .f32⟩) main_call0.v0 main_call0.v1 maximumf,
    TRef.nullary main_call1.cst (constant S_ .f32 0x00000000#32),
    TRef.unary main_call1.cst main_call1.v0 (broadcastInDim S200000x128 ![] bcast_S_S200000x128),
    TRef.binary (.of main_v140 : TRef sig ⟨S200000x128, .f32⟩) main_call1.v0 main_call1.v1 maximumf,
    binary main_v119 main_v153 main_v154 ((fun a b => concatenate S200000x132 1 [⟨S200000x4, a⟩, ⟨S200000x128, b⟩] concatenates_S200000x4_S200000x128_S200000x132_d1) : (⟨S200000x4, .f32⟩ : BufTy).Contents (Elt F) → (⟨S200000x128, .f32⟩ : BufTy).Contents (Elt F) → (⟨S200000x132, .f32⟩ : BufTy).Contents (Elt F)),
    nullary main_c_11 (constantI S_ 32 0#32),
    unary main_c_11 main_v155 (broadcastInDim S200000 ![] bcast_S_S200000 : (⟨S_, .i32⟩ : BufTy).Contents (Elt F) → (⟨S200000, .i32⟩ : BufTy).Contents (Elt F)),
    binary main_v1 main_v155 main_v156 (cmpi .slt : (⟨S200000, .i32⟩ : BufTy).Contents (Elt F) → (⟨S200000, .i32⟩ : BufTy).Contents (Elt F) → (⟨S200000, .i1⟩ : BufTy).Contents (Elt F)),
    nullary main_c_12 (constantI S_ 32 10000#32),
    unary main_c_12 main_v157 (broadcastInDim S200000 ![] bcast_S_S200000 : (⟨S_, .i32⟩ : BufTy).Contents (Elt F) → (⟨S200000, .i32⟩ : BufTy).Contents (Elt F)),
    binary main_v1 main_v157 main_v158 (addi : (⟨S200000, .i32⟩ : BufTy).Contents (Elt F) → (⟨S200000, .i32⟩ : BufTy).Contents (Elt F) → (⟨S200000, .i32⟩ : BufTy).Contents (Elt F)),
    ternary main_v156 main_v158 main_v1 main_v159 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v159 main_v160 (broadcastInDim S200000x1 ![0] bcast_S200000_S200000x1_0 : (⟨S200000, .i32⟩ : BufTy).Contents (Elt F) → (⟨S200000x1, .i32⟩ : BufTy).Contents (Elt F)),
    binary main_v152 main_v160 main_v161 ((fun x i => Host.gather gather_S10000x128_S200000x1_S200000x128_1_0_n_n_0_1_1128 x i) : (⟨S10000x128, .f32⟩ : BufTy).Contents (Elt F) → (⟨S200000x1, .i32⟩ : BufTy).Contents (Elt F) → (⟨S200000x128, .f32⟩ : BufTy).Contents (Elt F)),
    nullary main_c_13 (constantI S_ 32 0#32),
    unary main_c_13 main_v162 (broadcastInDim S200000 ![] bcast_S_S200000 : (⟨S_, .i32⟩ : BufTy).Contents (Elt F) → (⟨S200000, .i32⟩ : BufTy).Contents (Elt F)),
    binary main_v3 main_v162 main_v163 (cmpi .slt : (⟨S200000, .i32⟩ : BufTy).Contents (Elt F) → (⟨S200000, .i32⟩ : BufTy).Contents (Elt F) → (⟨S200000, .i1⟩ : BufTy).Contents (Elt F)) ]

/-- @main's operations 185 … 248 of 605 (window main_part3). -/
abbrev rops3 : List (HloOp τ sig (Elt F)) :=
  [ nullary main_c_14 (constantI S_ 32 10000#32),
    unary main_c_14 main_v164 (broadcastInDim S200000 ![] bcast_S_S200000 : (⟨S_, .i32⟩ : BufTy).Contents (Elt F) → (⟨S200000, .i32⟩ : BufTy).Contents (Elt F)),
    binary main_v3 main_v164 main_v165 (addi : (⟨S200000, .i32⟩ : BufTy).Contents (Elt F) → (⟨S200000, .i32⟩ : BufTy).Contents (Elt F) → (⟨S200000, .i32⟩ : BufTy).Contents (Elt F)),
    ternary main_v163 main_v165 main_v3 main_v166 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v166 main_v167 (broadcastInDim S200000x1 ![0] bcast_S200000_S200000x1_0 : (⟨S200000, .i32⟩ : BufTy).Contents (Elt F) → (⟨S200000x1, .i32⟩ : BufTy).Contents (Elt F)),
    binary main_v152 main_v167 main_v168 ((fun x i => Host.gather gather_S10000x128_S200000x1_S200000x128_1_0_n_n_0_1_1128 x i) : (⟨S10000x128, .f32⟩ : BufTy).Contents (Elt F) → (⟨S200000x1, .i32⟩ : BufTy).Contents (Elt F) → (⟨S200000x128, .f32⟩ : BufTy).Contents (Elt F)),
    nary ![main_v161, main_v168, main_v154] main_v169 (fun u => concatenate S200000x388 1 [⟨S200000x128, u 0⟩, ⟨S200000x128, u 1⟩, ⟨S200000x132, u 2⟩] concatenates_S200000x128_S200000x128_S200000x132_S200000x388_d1),
    binary main_v169 main_arg8 main_v170 ((fun l r => Host.dotGeneral dot_S200000x388_S388x128_S200000x128_1_0_0_1_n_n none l r) : (⟨S200000x388, .f32⟩ : BufTy).Contents (Elt F) → (⟨S388x128, .f32⟩ : BufTy).Contents (Elt F) → (⟨S200000x128, .f32⟩ : BufTy).Contents (Elt F)),
    unary main_arg9 main_v171 (broadcastInDim S1x128 ![1] bcast_S128_S1x128_1 : (⟨S128, .f32⟩ : BufTy).Contents (Elt F) → (⟨S1x128, .f32⟩ : BufTy).Contents (Elt F)),
    unary main_v171 main_v172 (broadcastInDim S200000x128 ![0, 1] bcast_S1x128_S200000x128_0_1 : (⟨S1x128, .f32⟩ : BufTy).Contents (Elt F) → (⟨S200000x128, .f32⟩ : BufTy).Contents (Elt F)),
    binary main_v170 main_v172 main_v173 (addf : (⟨S200000x128, .f32⟩ : BufTy).Contents (Elt F) → (⟨S200000x128, .f32⟩ : BufTy).Contents (Elt F) → (⟨S200000x128, .f32⟩ : BufTy).Contents (Elt F)),
    nullary main_cst_15 (constant S_ .f32 0x00000000#32),
    unary main_cst_15 main_v174 (broadcastInDim S10000x128 ![] bcast_S_S10000x128 : (⟨S_, .f32⟩ : BufTy).Contents (Elt F) → (⟨S10000x128, .f32⟩ : BufTy).Contents (Elt F)),
    unary main_v1 main_v175 (broadcastInDim S200000x1 ![0] bcast_S200000_S200000x1_0 : (⟨S200000, .i32⟩ : BufTy).Contents (Elt F) → (⟨S200000x1, .i32⟩ : BufTy).Contents (Elt F)),
    ternary main_v174 main_v175 main_v173 main_v176 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    nullary main_cst_16 (constant S_ .f32 0x3F800000#32),
    unary main_cst_16 main_v177 (broadcastInDim S200000x1 ![] bcast_S_S200000x1 : (⟨S_, .f32⟩ : BufTy).Contents (Elt F) → (⟨S200000x1, .f32⟩ : BufTy).Contents (Elt F)),
    nullary main_cst_17 (constant S_ .f32 0x00000000#32),
    unary main_cst_17 main_v178 (broadcastInDim S10000x1 ![] bcast_S_S10000x1 : (⟨S_, .f32⟩ : BufTy).Contents (Elt F) → (⟨S10000x1, .f32⟩ : BufTy).Contents (Elt F)),
    unary main_v1 main_v179 (broadcastInDim S200000x1 ![0] bcast_S200000_S200000x1_0 : (⟨S200000, .i32⟩ : BufTy).Contents (Elt F) → (⟨S200000x1, .i32⟩ : BufTy).Contents (Elt F)),
    ternary main_v178 main_v179 main_v177 main_v180 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    nullary main_cst_18 (constant S_ .f32 0x3F800000#32),
    unary main_cst_18 main_v181 (broadcastInDim S10000x1 ![] bcast_S_S10000x1 : (⟨S_, .f32⟩ : BufTy).Contents (Elt F) → (⟨S10000x1, .f32⟩ : BufTy).Contents (Elt F)),
    binary main_v180 main_v181 main_v182 (maximumf : (⟨S10000x1, .f32⟩ : BufTy).Contents (Elt F) → (⟨S10000x1, .f32⟩ : BufTy).Contents (Elt F) → (⟨S10000x1, .f32⟩ : BufTy).Contents (Elt F)),
    unary main_v182 main_v183 (broadcastInDim S10000x128 ![0, 1] bcast_S10000x1_S10000x128_0_1 : (⟨S10000x1, .f32⟩ : BufTy).Contents (Elt F) → (⟨S10000x128, .f32⟩ : BufTy).Contents (Elt F)),
    binary main_v176 main_v183 main_v184 (Host.divf : (⟨S10000x128, .f32⟩ : BufTy).Contents (Elt F) → (⟨S10000x128, .f32⟩ : BufTy).Contents (Elt F) → (⟨S10000x128, .f32⟩ : BufTy).Contents (Elt F)),
    TRef.nullary main_call2.cst (constant S_ .f32 0x00000000#32),
    TRef.unary main_call2.cst main_call2.v0 (broadcastInDim S10000x128 ![] bcast_S_S10000x128),
    TRef.binary (.of main_v184 : TRef sig ⟨S10000x128, .f32⟩) main_call2.v0 main_call2.v1 maximumf,
    TRef.nullary main_call3.cst (constant S_ .f32 0x00000000#32),
    TRef.unary main_call3.cst main_call3.v0 (broadcastInDim S200000x128 ![] bcast_S_S200000x128),
    TRef.binary (.of main_v173 : TRef sig ⟨S200000x128, .f32⟩) main_call3.v0 main_call3.v1 maximumf,
    binary main_v185 main_v152 main_v187 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v186 main_v153 main_v188 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    nullary main_c_19 (constantI S_ 32 0#32),
    unary main_c_19 main_v189 (broadcastInDim S200000 ![] bcast_S_S200000 : (⟨S_, .i32⟩ : BufTy).Contents (Elt F) → (⟨S200000, .i32⟩ : BufTy).Contents (Elt F)),
    binary main_v1 main_v189 main_v190 (cmpi .slt : (⟨S200000, .i32⟩ : BufTy).Contents (Elt F) → (⟨S200000, .i32⟩ : BufTy).Contents (Elt F) → (⟨S200000, .i1⟩ : BufTy).Contents (Elt F)),
    nullary main_c_20 (constantI S_ 32 10000#32),
    unary main_c_20 main_v191 (broadcastInDim S200000 ![] bcast_S_S200000 : (⟨S_, .i32⟩ : BufTy).Contents (Elt F) → (⟨S200000, .i32⟩ : BufTy).Contents (Elt F)),
    binary main_v1 main_v191 main_v192 (addi : (⟨S200000, .i32⟩ : BufTy).Contents (Elt F) → (⟨S200000, .i32⟩ : BufTy).Contents (Elt F) → (⟨S200000, .i32⟩ : BufTy).Contents (Elt F)),
    ternary main_v190 main_v192 main_v1 main_v193 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v193 main_v194 (broadcastInDim S200000x1 ![0] bcast_S200000_S200000x1_0 : (⟨S200000, .i32⟩ : BufTy).Contents (Elt F) → (⟨S200000x1, .i32⟩ : BufTy).Contents (Elt F)),
    binary main_v187 main_v194 main_v195 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)),
    nullary main_c_21 (constantI S_ 32 0#32),
    unary main_c_21 main_v196 (broadcastInDim S200000 ![] bcast_S_S200000 : (⟨S_, .i32⟩ : BufTy).Contents (Elt F) → (⟨S200000, .i32⟩ : BufTy).Contents (Elt F)),
    binary main_v3 main_v196 main_v197 (cmpi .slt : (⟨S200000, .i32⟩ : BufTy).Contents (Elt F) → (⟨S200000, .i32⟩ : BufTy).Contents (Elt F) → (⟨S200000, .i1⟩ : BufTy).Contents (Elt F)),
    nullary main_c_22 (constantI S_ 32 10000#32),
    unary main_c_22 main_v198 (broadcastInDim S200000 ![] bcast_S_S200000 : (⟨S_, .i32⟩ : BufTy).Contents (Elt F) → (⟨S200000, .i32⟩ : BufTy).Contents (Elt F)),
    binary main_v3 main_v198 main_v199 (addi : (⟨S200000, .i32⟩ : BufTy).Contents (Elt F) → (⟨S200000, .i32⟩ : BufTy).Contents (Elt F) → (⟨S200000, .i32⟩ : BufTy).Contents (Elt F)),
    ternary main_v197 main_v199 main_v3 main_v200 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v200 main_v201 (broadcastInDim S200000x1 ![0] bcast_S200000_S200000x1_0 : (⟨S200000, .i32⟩ : BufTy).Contents (Elt F) → (⟨S200000x1, .i32⟩ : BufTy).Contents (Elt F)),
    binary main_v187 main_v201 main_v202 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)),
    nary ![main_v195, main_v202, main_v188] main_v203 (fun u => concatenate S200000x768 1 [⟨S200000x256, u 0⟩, ⟨S200000x256, u 1⟩, ⟨S200000x256, u 2⟩] concatenates_S200000x256_S200000x256_S200000x256_S200000x768_d1),
    binary main_v203 main_arg10 main_v204 ((fun l r => Host.dotGeneral dot_S200000x768_S768x128_S200000x128_1_0_0_1_n_n none l r) : (⟨S200000x768, .f32⟩ : BufTy).Contents (Elt F) → (⟨S768x128, .f32⟩ : BufTy).Contents (Elt F) → (⟨S200000x128, .f32⟩ : BufTy).Contents (Elt F)),
    unary main_arg11 main_v205 (broadcastInDim S1x128 ![1] bcast_S128_S1x128_1 : (⟨S128, .f32⟩ : BufTy).Contents (Elt F) → (⟨S1x128, .f32⟩ : BufTy).Contents (Elt F)),
    unary main_v205 main_v206 (broadcastInDim S200000x128 ![0, 1] bcast_S1x128_S200000x128_0_1 : (⟨S1x128, .f32⟩ : BufTy).Contents (Elt F) → (⟨S200000x128, .f32⟩ : BufTy).Contents (Elt F)),
    binary main_v204 main_v206 main_v207 (addf : (⟨S200000x128, .f32⟩ : BufTy).Contents (Elt F) → (⟨S200000x128, .f32⟩ : BufTy).Contents (Elt F) → (⟨S200000x128, .f32⟩ : BufTy).Contents (Elt F)),
    nullary main_cst_23 (constant S_ .f32 0x00000000#32),
    unary main_cst_23 main_v208 (broadcastInDim S10000x128 ![] bcast_S_S10000x128 : (⟨S_, .f32⟩ : BufTy).Contents (Elt F) → (⟨S10000x128, .f32⟩ : BufTy).Contents (Elt F)),
    unary main_v1 main_v209 (broadcastInDim S200000x1 ![0] bcast_S200000_S200000x1_0 : (⟨S200000, .i32⟩ : BufTy).Contents (Elt F) → (⟨S200000x1, .i32⟩ : BufTy).Contents (Elt F)),
    ternary main_v208 main_v209 main_v207 main_v210 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    nullary main_cst_24 (constant S_ .f32 0x3F800000#32),
    unary main_cst_24 main_v211 (broadcastInDim S200000x1 ![] bcast_S_S200000x1 : (⟨S_, .f32⟩ : BufTy).Contents (Elt F) → (⟨S200000x1, .f32⟩ : BufTy).Contents (Elt F)),
    nullary main_cst_25 (constant S_ .f32 0x00000000#32) ]

/-- @main's operations 249 … 316 of 605 (window main_part4). -/
abbrev rops4 : List (HloOp τ sig (Elt F)) :=
  [ unary main_cst_25 main_v212 (broadcastInDim S10000x1 ![] bcast_S_S10000x1 : (⟨S_, .f32⟩ : BufTy).Contents (Elt F) → (⟨S10000x1, .f32⟩ : BufTy).Contents (Elt F)),
    unary main_v1 main_v213 (broadcastInDim S200000x1 ![0] bcast_S200000_S200000x1_0 : (⟨S200000, .i32⟩ : BufTy).Contents (Elt F) → (⟨S200000x1, .i32⟩ : BufTy).Contents (Elt F)),
    ternary main_v212 main_v213 main_v211 main_v214 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    nullary main_cst_26 (constant S_ .f32 0x3F800000#32),
    unary main_cst_26 main_v215 (broadcastInDim S10000x1 ![] bcast_S_S10000x1 : (⟨S_, .f32⟩ : BufTy).Contents (Elt F) → (⟨S10000x1, .f32⟩ : BufTy).Contents (Elt F)),
    binary main_v214 main_v215 main_v216 (maximumf : (⟨S10000x1, .f32⟩ : BufTy).Contents (Elt F) → (⟨S10000x1, .f32⟩ : BufTy).Contents (Elt F) → (⟨S10000x1, .f32⟩ : BufTy).Contents (Elt F)),
    unary main_v216 main_v217 (broadcastInDim S10000x128 ![0, 1] bcast_S10000x1_S10000x128_0_1 : (⟨S10000x1, .f32⟩ : BufTy).Contents (Elt F) → (⟨S10000x128, .f32⟩ : BufTy).Contents (Elt F)),
    binary main_v210 main_v217 main_v218 (Host.divf : (⟨S10000x128, .f32⟩ : BufTy).Contents (Elt F) → (⟨S10000x128, .f32⟩ : BufTy).Contents (Elt F) → (⟨S10000x128, .f32⟩ : BufTy).Contents (Elt F)),
    TRef.nullary main_call4.cst (constant S_ .f32 0x00000000#32),
    TRef.unary main_call4.cst main_call4.v0 (broadcastInDim S10000x128 ![] bcast_S_S10000x128),
    TRef.binary (.of main_v218 : TRef sig ⟨S10000x128, .f32⟩) main_call4.v0 main_call4.v1 maximumf,
    TRef.nullary main_call5.cst (constant S_ .f32 0x00000000#32),
    TRef.unary main_call5.cst main_call5.v0 (broadcastInDim S200000x128 ![] bcast_S_S200000x128),
    TRef.binary (.of main_v207 : TRef sig ⟨S200000x128, .f32⟩) main_call5.v0 main_call5.v1 maximumf,
    binary main_v219 main_v185 main_v221 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v220 main_v186 main_v222 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    nullary main_c_27 (constantI S_ 32 0#32),
    unary main_c_27 main_v223 (broadcastInDim S200000 ![] bcast_S_S200000 : (⟨S_, .i32⟩ : BufTy).Contents (Elt F) → (⟨S200000, .i32⟩ : BufTy).Contents (Elt F)),
    binary main_v1 main_v223 main_v224 (cmpi .slt : (⟨S200000, .i32⟩ : BufTy).Contents (Elt F) → (⟨S200000, .i32⟩ : BufTy).Contents (Elt F) → (⟨S200000, .i1⟩ : BufTy).Contents (Elt F)),
    nullary main_c_28 (constantI S_ 32 10000#32),
    unary main_c_28 main_v225 (broadcastInDim S200000 ![] bcast_S_S200000 : (⟨S_, .i32⟩ : BufTy).Contents (Elt F) → (⟨S200000, .i32⟩ : BufTy).Contents (Elt F)),
    binary main_v1 main_v225 main_v226 (addi : (⟨S200000, .i32⟩ : BufTy).Contents (Elt F) → (⟨S200000, .i32⟩ : BufTy).Contents (Elt F) → (⟨S200000, .i32⟩ : BufTy).Contents (Elt F)),
    ternary main_v224 main_v226 main_v1 main_v227 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v227 main_v228 (broadcastInDim S200000x1 ![0] bcast_S200000_S200000x1_0 : (⟨S200000, .i32⟩ : BufTy).Contents (Elt F) → (⟨S200000x1, .i32⟩ : BufTy).Contents (Elt F)),
    binary main_v221 main_v228 main_v229 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)),
    nullary main_c_29 (constantI S_ 32 0#32),
    unary main_c_29 main_v230 (broadcastInDim S200000 ![] bcast_S_S200000 : (⟨S_, .i32⟩ : BufTy).Contents (Elt F) → (⟨S200000, .i32⟩ : BufTy).Contents (Elt F)),
    binary main_v3 main_v230 main_v231 (cmpi .slt : (⟨S200000, .i32⟩ : BufTy).Contents (Elt F) → (⟨S200000, .i32⟩ : BufTy).Contents (Elt F) → (⟨S200000, .i1⟩ : BufTy).Contents (Elt F)),
    nullary main_c_30 (constantI S_ 32 10000#32),
    unary main_c_30 main_v232 (broadcastInDim S200000 ![] bcast_S_S200000 : (⟨S_, .i32⟩ : BufTy).Contents (Elt F) → (⟨S200000, .i32⟩ : BufTy).Contents (Elt F)),
    binary main_v3 main_v232 main_v233 (addi : (⟨S200000, .i32⟩ : BufTy).Contents (Elt F) → (⟨S200000, .i32⟩ : BufTy).Contents (Elt F) → (⟨S200000, .i32⟩ : BufTy).Contents (Elt F)),
    ternary main_v231 main_v233 main_v3 main_v234 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v234 main_v235 (broadcastInDim S200000x1 ![0] bcast_S200000_S200000x1_0 : (⟨S200000, .i32⟩ : BufTy).Contents (Elt F) → (⟨S200000x1, .i32⟩ : BufTy).Contents (Elt F)),
    binary main_v221 main_v235 main_v236 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)),
    nary ![main_v229, main_v236, main_v222] main_v237 (fun u => concatenate S200000x768 1 [⟨S200000x256, u 0⟩, ⟨S200000x256, u 1⟩, ⟨S200000x256, u 2⟩] concatenates_S200000x256_S200000x256_S200000x256_S200000x768_d1),
    binary main_v237 main_arg12 main_v238 ((fun l r => Host.dotGeneral dot_S200000x768_S768x128_S200000x128_1_0_0_1_n_n none l r) : (⟨S200000x768, .f32⟩ : BufTy).Contents (Elt F) → (⟨S768x128, .f32⟩ : BufTy).Contents (Elt F) → (⟨S200000x128, .f32⟩ : BufTy).Contents (Elt F)),
    unary main_arg13 main_v239 (broadcastInDim S1x128 ![1] bcast_S128_S1x128_1 : (⟨S128, .f32⟩ : BufTy).Contents (Elt F) → (⟨S1x128, .f32⟩ : BufTy).Contents (Elt F)),
    unary main_v239 main_v240 (broadcastInDim S200000x128 ![0, 1] bcast_S1x128_S200000x128_0_1 : (⟨S1x128, .f32⟩ : BufTy).Contents (Elt F) → (⟨S200000x128, .f32⟩ : BufTy).Contents (Elt F)),
    binary main_v238 main_v240 main_v241 (addf : (⟨S200000x128, .f32⟩ : BufTy).Contents (Elt F) → (⟨S200000x128, .f32⟩ : BufTy).Contents (Elt F) → (⟨S200000x128, .f32⟩ : BufTy).Contents (Elt F)),
    nullary main_cst_31 (constant S_ .f32 0x00000000#32),
    unary main_cst_31 main_v242 (broadcastInDim S10000x128 ![] bcast_S_S10000x128 : (⟨S_, .f32⟩ : BufTy).Contents (Elt F) → (⟨S10000x128, .f32⟩ : BufTy).Contents (Elt F)),
    unary main_v1 main_v243 (broadcastInDim S200000x1 ![0] bcast_S200000_S200000x1_0 : (⟨S200000, .i32⟩ : BufTy).Contents (Elt F) → (⟨S200000x1, .i32⟩ : BufTy).Contents (Elt F)),
    ternary main_v242 main_v243 main_v241 main_v244 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    nullary main_cst_32 (constant S_ .f32 0x3F800000#32),
    unary main_cst_32 main_v245 (broadcastInDim S200000x1 ![] bcast_S_S200000x1 : (⟨S_, .f32⟩ : BufTy).Contents (Elt F) → (⟨S200000x1, .f32⟩ : BufTy).Contents (Elt F)),
    nullary main_cst_33 (constant S_ .f32 0x00000000#32),
    unary main_cst_33 main_v246 (broadcastInDim S10000x1 ![] bcast_S_S10000x1 : (⟨S_, .f32⟩ : BufTy).Contents (Elt F) → (⟨S10000x1, .f32⟩ : BufTy).Contents (Elt F)),
    unary main_v1 main_v247 (broadcastInDim S200000x1 ![0] bcast_S200000_S200000x1_0 : (⟨S200000, .i32⟩ : BufTy).Contents (Elt F) → (⟨S200000x1, .i32⟩ : BufTy).Contents (Elt F)),
    ternary main_v246 main_v247 main_v245 main_v248 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    nullary main_cst_34 (constant S_ .f32 0x3F800000#32),
    unary main_cst_34 main_v249 (broadcastInDim S10000x1 ![] bcast_S_S10000x1 : (⟨S_, .f32⟩ : BufTy).Contents (Elt F) → (⟨S10000x1, .f32⟩ : BufTy).Contents (Elt F)),
    binary main_v248 main_v249 main_v250 (maximumf : (⟨S10000x1, .f32⟩ : BufTy).Contents (Elt F) → (⟨S10000x1, .f32⟩ : BufTy).Contents (Elt F) → (⟨S10000x1, .f32⟩ : BufTy).Contents (Elt F)),
    unary main_v250 main_v251 (broadcastInDim S10000x128 ![0, 1] bcast_S10000x1_S10000x128_0_1 : (⟨S10000x1, .f32⟩ : BufTy).Contents (Elt F) → (⟨S10000x128, .f32⟩ : BufTy).Contents (Elt F)),
    binary main_v244 main_v251 main_v252 (Host.divf : (⟨S10000x128, .f32⟩ : BufTy).Contents (Elt F) → (⟨S10000x128, .f32⟩ : BufTy).Contents (Elt F) → (⟨S10000x128, .f32⟩ : BufTy).Contents (Elt F)),
    TRef.nullary main_call6.cst (constant S_ .f32 0x00000000#32),
    TRef.unary main_call6.cst main_call6.v0 (broadcastInDim S10000x128 ![] bcast_S_S10000x128),
    TRef.binary (.of main_v252 : TRef sig ⟨S10000x128, .f32⟩) main_call6.v0 main_call6.v1 maximumf,
    TRef.nullary main_call7.cst (constant S_ .f32 0x00000000#32),
    TRef.unary main_call7.cst main_call7.v0 (broadcastInDim S200000x128 ![] bcast_S_S200000x128),
    TRef.binary (.of main_v241 : TRef sig ⟨S200000x128, .f32⟩) main_call7.v0 main_call7.v1 maximumf,
    binary main_v253 main_arg14 main_v255 ((fun l r => Host.dotGeneral dot_S10000x128_S128x4_S10000x4_1_0_0_1_n_n none l r) : (⟨S10000x128, .f32⟩ : BufTy).Contents (Elt F) → (⟨S128x4, .f32⟩ : BufTy).Contents (Elt F) → (⟨S10000x4, .f32⟩ : BufTy).Contents (Elt F)),
    unary main_arg15 main_v256 (broadcastInDim S1x4 ![1] bcast_S4_S1x4_1 : (⟨S4, .f32⟩ : BufTy).Contents (Elt F) → (⟨S1x4, .f32⟩ : BufTy).Contents (Elt F)),
    unary main_v256 main_v257 (broadcastInDim S10000x4 ![0, 1] bcast_S1x4_S10000x4_0_1 : (⟨S1x4, .f32⟩ : BufTy).Contents (Elt F) → (⟨S10000x4, .f32⟩ : BufTy).Contents (Elt F)),
    binary main_v255 main_v257 main_v258 (addf : (⟨S10000x4, .f32⟩ : BufTy).Contents (Elt F) → (⟨S10000x4, .f32⟩ : BufTy).Contents (Elt F) → (⟨S10000x4, .f32⟩ : BufTy).Contents (Elt F)),
    unary main_v258 main_v259 ((extractStridedSlice S10000x1 ![0, 0] · slices_S10000x4_S10000x1_0_0) : (⟨S10000x4, .f32⟩ : BufTy).Contents (Elt F) → (⟨S10000x1, .f32⟩ : BufTy).Contents (Elt F)),
    reshape main_v259 main_v260 rfl shapeCasts_S10000x1_S10000,
    unary main_v258 main_v261 ((extractStridedSlice S10000x1 ![0, 1] · slices_S10000x4_S10000x1_0_1) : (⟨S10000x4, .f32⟩ : BufTy).Contents (Elt F) → (⟨S10000x1, .f32⟩ : BufTy).Contents (Elt F)),
    reshape main_v261 main_v262 rfl shapeCasts_S10000x1_S10000 ]

/-- @main's operations 317 … 380 of 605 (window main_part5). -/
abbrev rops5 : List (HloOp τ sig (Elt F)) :=
  [ unary main_v258 main_v263 ((extractStridedSlice S10000x1 ![0, 2] · slices_S10000x4_S10000x1_0_2) : (⟨S10000x4, .f32⟩ : BufTy).Contents (Elt F) → (⟨S10000x1, .f32⟩ : BufTy).Contents (Elt F)),
    reshape main_v263 main_v264 rfl shapeCasts_S10000x1_S10000,
    unary main_v258 main_v265 ((extractStridedSlice S10000x1 ![0, 3] · slices_S10000x4_S10000x1_0_3) : (⟨S10000x4, .f32⟩ : BufTy).Contents (Elt F) → (⟨S10000x1, .f32⟩ : BufTy).Contents (Elt F)),
    reshape main_v265 main_v266 rfl shapeCasts_S10000x1_S10000,
    unary main_arg0 main_v267 ((extractStridedSlice S10000x1 ![0, 0] · slices_S10000x4_S10000x1_0_0) : (⟨S10000x4, .f32⟩ : BufTy).Contents (Elt F) → (⟨S10000x1, .f32⟩ : BufTy).Contents (Elt F)),
    reshape main_v267 main_v268 rfl shapeCasts_S10000x1_S10000,
    unary main_arg0 main_v269 ((extractStridedSlice S10000x1 ![0, 1] · slices_S10000x4_S10000x1_0_1) : (⟨S10000x4, .f32⟩ : BufTy).Contents (Elt F) → (⟨S10000x1, .f32⟩ : BufTy).Contents (Elt F)),
    reshape main_v269 main_v270 rfl shapeCasts_S10000x1_S10000,
    unary main_arg0 main_v271 ((extractStridedSlice S10000x1 ![0, 2] · slices_S10000x4_S10000x1_0_2) : (⟨S10000x4, .f32⟩ : BufTy).Contents (Elt F) → (⟨S10000x1, .f32⟩ : BufTy).Contents (Elt F)),
    reshape main_v271 main_v272 rfl shapeCasts_S10000x1_S10000,
    unary main_arg0 main_v273 ((extractStridedSlice S10000x1 ![0, 3] · slices_S10000x4_S10000x1_0_3) : (⟨S10000x4, .f32⟩ : BufTy).Contents (Elt F) → (⟨S10000x1, .f32⟩ : BufTy).Contents (Elt F)),
    reshape main_v273 main_v274 rfl shapeCasts_S10000x1_S10000,
    binary main_v260 main_v268 main_v275 (mulf : (⟨S10000, .f32⟩ : BufTy).Contents (Elt F) → (⟨S10000, .f32⟩ : BufTy).Contents (Elt F) → (⟨S10000, .f32⟩ : BufTy).Contents (Elt F)),
    binary main_v262 main_v270 main_v276 (mulf : (⟨S10000, .f32⟩ : BufTy).Contents (Elt F) → (⟨S10000, .f32⟩ : BufTy).Contents (Elt F) → (⟨S10000, .f32⟩ : BufTy).Contents (Elt F)),
    binary main_v275 main_v276 main_v277 (subf : (⟨S10000, .f32⟩ : BufTy).Contents (Elt F) → (⟨S10000, .f32⟩ : BufTy).Contents (Elt F) → (⟨S10000, .f32⟩ : BufTy).Contents (Elt F)),
    binary main_v264 main_v272 main_v278 (mulf : (⟨S10000, .f32⟩ : BufTy).Contents (Elt F) → (⟨S10000, .f32⟩ : BufTy).Contents (Elt F) → (⟨S10000, .f32⟩ : BufTy).Contents (Elt F)),
    binary main_v277 main_v278 main_v279 (subf : (⟨S10000, .f32⟩ : BufTy).Contents (Elt F) → (⟨S10000, .f32⟩ : BufTy).Contents (Elt F) → (⟨S10000, .f32⟩ : BufTy).Contents (Elt F)),
    binary main_v266 main_v274 main_v280 (mulf : (⟨S10000, .f32⟩ : BufTy).Contents (Elt F) → (⟨S10000, .f32⟩ : BufTy).Contents (Elt F) → (⟨S10000, .f32⟩ : BufTy).Contents (Elt F)),
    binary main_v279 main_v280 main_v281 (subf : (⟨S10000, .f32⟩ : BufTy).Contents (Elt F) → (⟨S10000, .f32⟩ : BufTy).Contents (Elt F) → (⟨S10000, .f32⟩ : BufTy).Contents (Elt F)),
    binary main_v260 main_v270 main_v282 (mulf : (⟨S10000, .f32⟩ : BufTy).Contents (Elt F) → (⟨S10000, .f32⟩ : BufTy).Contents (Elt F) → (⟨S10000, .f32⟩ : BufTy).Contents (Elt F)),
    binary main_v262 main_v268 main_v283 (mulf : (⟨S10000, .f32⟩ : BufTy).Contents (Elt F) → (⟨S10000, .f32⟩ : BufTy).Contents (Elt F) → (⟨S10000, .f32⟩ : BufTy).Contents (Elt F)),
    binary main_v282 main_v283 main_v284 (addf : (⟨S10000, .f32⟩ : BufTy).Contents (Elt F) → (⟨S10000, .f32⟩ : BufTy).Contents (Elt F) → (⟨S10000, .f32⟩ : BufTy).Contents (Elt F)),
    binary main_v264 main_v274 main_v285 (mulf : (⟨S10000, .f32⟩ : BufTy).Contents (Elt F) → (⟨S10000, .f32⟩ : BufTy).Contents (Elt F) → (⟨S10000, .f32⟩ : BufTy).Contents (Elt F)),
    binary main_v284 main_v285 main_v286 (addf : (⟨S10000, .f32⟩ : BufTy).Contents (Elt F) → (⟨S10000, .f32⟩ : BufTy).Contents (Elt F) → (⟨S10000, .f32⟩ : BufTy).Contents (Elt F)),
    binary main_v266 main_v272 main_v287 (mulf : (⟨S10000, .f32⟩ : BufTy).Contents (Elt F) → (⟨S10000, .f32⟩ : BufTy).Contents (Elt F) → (⟨S10000, .f32⟩ : BufTy).Contents (Elt F)),
    binary main_v286 main_v287 main_v288 (subf : (⟨S10000, .f32⟩ : BufTy).Contents (Elt F) → (⟨S10000, .f32⟩ : BufTy).Contents (Elt F) → (⟨S10000, .f32⟩ : BufTy).Contents (Elt F)),
    binary main_v260 main_v272 main_v289 (mulf : (⟨S10000, .f32⟩ : BufTy).Contents (Elt F) → (⟨S10000, .f32⟩ : BufTy).Contents (Elt F) → (⟨S10000, .f32⟩ : BufTy).Contents (Elt F)),
    binary main_v262 main_v274 main_v290 (mulf : (⟨S10000, .f32⟩ : BufTy).Contents (Elt F) → (⟨S10000, .f32⟩ : BufTy).Contents (Elt F) → (⟨S10000, .f32⟩ : BufTy).Contents (Elt F)),
    binary main_v289 main_v290 main_v291 (subf : (⟨S10000, .f32⟩ : BufTy).Contents (Elt F) → (⟨S10000, .f32⟩ : BufTy).Contents (Elt F) → (⟨S10000, .f32⟩ : BufTy).Contents (Elt F)),
    binary main_v264 main_v268 main_v292 (mulf : (⟨S10000, .f32⟩ : BufTy).Contents (Elt F) → (⟨S10000, .f32⟩ : BufTy).Contents (Elt F) → (⟨S10000, .f32⟩ : BufTy).Contents (Elt F)),
    binary main_v291 main_v292 main_v293 (addf : (⟨S10000, .f32⟩ : BufTy).Contents (Elt F) → (⟨S10000, .f32⟩ : BufTy).Contents (Elt F) → (⟨S10000, .f32⟩ : BufTy).Contents (Elt F)),
    binary main_v266 main_v270 main_v294 (mulf : (⟨S10000, .f32⟩ : BufTy).Contents (Elt F) → (⟨S10000, .f32⟩ : BufTy).Contents (Elt F) → (⟨S10000, .f32⟩ : BufTy).Contents (Elt F)),
    binary main_v293 main_v294 main_v295 (addf : (⟨S10000, .f32⟩ : BufTy).Contents (Elt F) → (⟨S10000, .f32⟩ : BufTy).Contents (Elt F) → (⟨S10000, .f32⟩ : BufTy).Contents (Elt F)),
    binary main_v260 main_v274 main_v296 (mulf : (⟨S10000, .f32⟩ : BufTy).Contents (Elt F) → (⟨S10000, .f32⟩ : BufTy).Contents (Elt F) → (⟨S10000, .f32⟩ : BufTy).Contents (Elt F)),
    binary main_v262 main_v272 main_v297 (mulf : (⟨S10000, .f32⟩ : BufTy).Contents (Elt F) → (⟨S10000, .f32⟩ : BufTy).Contents (Elt F) → (⟨S10000, .f32⟩ : BufTy).Contents (Elt F)),
    binary main_v296 main_v297 main_v298 (addf : (⟨S10000, .f32⟩ : BufTy).Contents (Elt F) → (⟨S10000, .f32⟩ : BufTy).Contents (Elt F) → (⟨S10000, .f32⟩ : BufTy).Contents (Elt F)),
    binary main_v264 main_v270 main_v299 (mulf : (⟨S10000, .f32⟩ : BufTy).Contents (Elt F) → (⟨S10000, .f32⟩ : BufTy).Contents (Elt F) → (⟨S10000, .f32⟩ : BufTy).Contents (Elt F)),
    binary main_v298 main_v299 main_v300 (subf : (⟨S10000, .f32⟩ : BufTy).Contents (Elt F) → (⟨S10000, .f32⟩ : BufTy).Contents (Elt F) → (⟨S10000, .f32⟩ : BufTy).Contents (Elt F)),
    binary main_v266 main_v268 main_v301 (mulf : (⟨S10000, .f32⟩ : BufTy).Contents (Elt F) → (⟨S10000, .f32⟩ : BufTy).Contents (Elt F) → (⟨S10000, .f32⟩ : BufTy).Contents (Elt F)),
    binary main_v300 main_v301 main_v302 (addf : (⟨S10000, .f32⟩ : BufTy).Contents (Elt F) → (⟨S10000, .f32⟩ : BufTy).Contents (Elt F) → (⟨S10000, .f32⟩ : BufTy).Contents (Elt F)),
    unary main_v281 main_v303 (broadcastInDim S10000x1 ![0] bcast_S10000_S10000x1_0 : (⟨S10000, .f32⟩ : BufTy).Contents (Elt F) → (⟨S10000x1, .f32⟩ : BufTy).Contents (Elt F)),
    unary main_v288 main_v304 (broadcastInDim S10000x1 ![0] bcast_S10000_S10000x1_0 : (⟨S10000, .f32⟩ : BufTy).Contents (Elt F) → (⟨S10000x1, .f32⟩ : BufTy).Contents (Elt F)),
    unary main_v295 main_v305 (broadcastInDim S10000x1 ![0] bcast_S10000_S10000x1_0 : (⟨S10000, .f32⟩ : BufTy).Contents (Elt F) → (⟨S10000x1, .f32⟩ : BufTy).Contents (Elt F)),
    unary main_v302 main_v306 (broadcastInDim S10000x1 ![0] bcast_S10000_S10000x1_0 : (⟨S10000, .f32⟩ : BufTy).Contents (Elt F) → (⟨S10000x1, .f32⟩ : BufTy).Contents (Elt F)),
    nary ![main_v303, main_v304, main_v305, main_v306] main_v307 (fun u => concatenate S10000x4 1 [⟨S10000x1, u 0⟩, ⟨S10000x1, u 1⟩, ⟨S10000x1, u 2⟩, ⟨S10000x1, u 3⟩] concatenates_S10000x1_S10000x1_S10000x1_S10000x1_S10000x4_d1),
    TRef.binary (.of main_v307 : TRef sig ⟨S10000x4, .f32⟩) (.of main_v307 : TRef sig ⟨S10000x4, .f32⟩) main_call8.v0 mulf,
    TRef.nullary main_call8.cst (constant S_ .f32 0x00000000#32),
    TRef.binary main_call8.v0 main_call8.cst main_call8.v1 (fun x v => Host.reduceAdd x v reducesTo_S10000x4_S10000_d1 h_S_),
    TRef.unary main_call8.v1 main_call8.v2 (broadcastInDim S10000x1 ![0] bcast_S10000_S10000x1_0),
    TRef.unary main_call8.v2 main_call8.v3 Host.sqrt,
    nullary main_cst_35 (constant S_ .f32 0x2B8CBCCC#32),
    unary main_cst_35 main_v309 (broadcastInDim S10000x1 ![] bcast_S_S10000x1 : (⟨S_, .f32⟩ : BufTy).Contents (Elt F) → (⟨S10000x1, .f32⟩ : BufTy).Contents (Elt F)),
    binary main_v308 main_v309 main_v310 (maximumf : (⟨S10000x1, .f32⟩ : BufTy).Contents (Elt F) → (⟨S10000x1, .f32⟩ : BufTy).Contents (Elt F) → (⟨S10000x1, .f32⟩ : BufTy).Contents (Elt F)),
    unary main_v310 main_v311 (broadcastInDim S10000x4 ![0, 1] bcast_S10000x1_S10000x4_0_1 : (⟨S10000x1, .f32⟩ : BufTy).Contents (Elt F) → (⟨S10000x4, .f32⟩ : BufTy).Contents (Elt F)),
    binary main_v307 main_v311 main_v312 (Host.divf : (⟨S10000x4, .f32⟩ : BufTy).Contents (Elt F) → (⟨S10000x4, .f32⟩ : BufTy).Contents (Elt F) → (⟨S10000x4, .f32⟩ : BufTy).Contents (Elt F)),
    nullary main_c_36 (constantI S_ 32 0#32),
    unary main_c_36 main_v313 (broadcastInDim S200000 ![] bcast_S_S200000 : (⟨S_, .i32⟩ : BufTy).Contents (Elt F) → (⟨S200000, .i32⟩ : BufTy).Contents (Elt F)),
    binary main_v3 main_v313 main_v314 (cmpi .slt : (⟨S200000, .i32⟩ : BufTy).Contents (Elt F) → (⟨S200000, .i32⟩ : BufTy).Contents (Elt F) → (⟨S200000, .i1⟩ : BufTy).Contents (Elt F)),
    nullary main_c_37 (constantI S_ 32 10000#32),
    unary main_c_37 main_v315 (broadcastInDim S200000 ![] bcast_S_S200000 : (⟨S_, .i32⟩ : BufTy).Contents (Elt F) → (⟨S200000, .i32⟩ : BufTy).Contents (Elt F)),
    binary main_v3 main_v315 main_v316 (addi : (⟨S200000, .i32⟩ : BufTy).Contents (Elt F) → (⟨S200000, .i32⟩ : BufTy).Contents (Elt F) → (⟨S200000, .i32⟩ : BufTy).Contents (Elt F)),
    ternary main_v314 main_v316 main_v3 main_v317 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v317 main_v318 (broadcastInDim S200000x1 ![0] bcast_S200000_S200000x1_0 : (⟨S200000, .i32⟩ : BufTy).Contents (Elt F) → (⟨S200000x1, .i32⟩ : BufTy).Contents (Elt F)),
    binary main_arg2 main_v318 main_v319 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F)) ]

/-- @main's operations 381 … 440 of 605 (window main_part6). -/
abbrev rops6 : List (HloOp τ sig (Elt F)) :=
  [ nullary main_c_38 (constantI S_ 32 0#32),
    unary main_c_38 main_v320 (broadcastInDim S200000 ![] bcast_S_S200000 : (⟨S_, .i32⟩ : BufTy).Contents (Elt F) → (⟨S200000, .i32⟩ : BufTy).Contents (Elt F)),
    binary main_v1 main_v320 main_v321 (cmpi .slt : (⟨S200000, .i32⟩ : BufTy).Contents (Elt F) → (⟨S200000, .i32⟩ : BufTy).Contents (Elt F) → (⟨S200000, .i1⟩ : BufTy).Contents (Elt F)),
    nullary main_c_39 (constantI S_ 32 10000#32),
    unary main_c_39 main_v322 (broadcastInDim S200000 ![] bcast_S_S200000 : (⟨S_, .i32⟩ : BufTy).Contents (Elt F) → (⟨S200000, .i32⟩ : BufTy).Contents (Elt F)),
    binary main_v1 main_v322 main_v323 (addi : (⟨S200000, .i32⟩ : BufTy).Contents (Elt F) → (⟨S200000, .i32⟩ : BufTy).Contents (Elt F) → (⟨S200000, .i32⟩ : BufTy).Contents (Elt F)),
    ternary main_v321 main_v323 main_v1 main_v324 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v324 main_v325 (broadcastInDim S200000x1 ![0] bcast_S200000_S200000x1_0 : (⟨S200000, .i32⟩ : BufTy).Contents (Elt F) → (⟨S200000x1, .i32⟩ : BufTy).Contents (Elt F)),
    binary main_arg2 main_v325 main_v326 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F)),
    unary main_v326 main_v327 ((extractStridedSlice S200000x1 ![0, 0] · slices_S200000x4_S200000x1_0_0) : (⟨S200000x4, .f32⟩ : BufTy).Contents (Elt F) → (⟨S200000x1, .f32⟩ : BufTy).Contents (Elt F)),
    unary main_v326 main_v328 ((extractStridedSlice S200000x3 ![0, 1] · slices_S200000x4_S200000x3_0_1) : (⟨S200000x4, .f32⟩ : BufTy).Contents (Elt F) → (⟨S200000x3, .f32⟩ : BufTy).Contents (Elt F)),
    unary main_v328 main_v329 (Host.negf : (⟨S200000x3, .f32⟩ : BufTy).Contents (Elt F) → (⟨S200000x3, .f32⟩ : BufTy).Contents (Elt F)),
    binary main_v327 main_v329 main_v330 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F)),
    unary main_v319 main_v331 ((extractStridedSlice S200000x1 ![0, 0] · slices_S200000x4_S200000x1_0_0) : (⟨S200000x4, .f32⟩ : BufTy).Contents (Elt F) → (⟨S200000x1, .f32⟩ : BufTy).Contents (Elt F)),
    reshape main_v331 main_v332 rfl shapeCasts_S200000x1_S200000,
    unary main_v319 main_v333 ((extractStridedSlice S200000x1 ![0, 1] · slices_S200000x4_S200000x1_0_1) : (⟨S200000x4, .f32⟩ : BufTy).Contents (Elt F) → (⟨S200000x1, .f32⟩ : BufTy).Contents (Elt F)),
    reshape main_v333 main_v334 rfl shapeCasts_S200000x1_S200000,
    unary main_v319 main_v335 ((extractStridedSlice S200000x1 ![0, 2] · slices_S200000x4_S200000x1_0_2) : (⟨S200000x4, .f32⟩ : BufTy).Contents (Elt F) → (⟨S200000x1, .f32⟩ : BufTy).Contents (Elt F)),
    reshape main_v335 main_v336 rfl shapeCasts_S200000x1_S200000,
    unary main_v319 main_v337 ((extractStridedSlice S200000x1 ![0, 3] · slices_S200000x4_S200000x1_0_3) : (⟨S200000x4, .f32⟩ : BufTy).Contents (Elt F) → (⟨S200000x1, .f32⟩ : BufTy).Contents (Elt F)),
    reshape main_v337 main_v338 rfl shapeCasts_S200000x1_S200000,
    unary main_v330 main_v339 ((extractStridedSlice S200000x1 ![0, 0] · slices_S200000x4_S200000x1_0_0) : (⟨S200000x4, .f32⟩ : BufTy).Contents (Elt F) → (⟨S200000x1, .f32⟩ : BufTy).Contents (Elt F)),
    reshape main_v339 main_v340 rfl shapeCasts_S200000x1_S200000,
    unary main_v330 main_v341 ((extractStridedSlice S200000x1 ![0, 1] · slices_S200000x4_S200000x1_0_1) : (⟨S200000x4, .f32⟩ : BufTy).Contents (Elt F) → (⟨S200000x1, .f32⟩ : BufTy).Contents (Elt F)),
    reshape main_v341 main_v342 rfl shapeCasts_S200000x1_S200000,
    unary main_v330 main_v343 ((extractStridedSlice S200000x1 ![0, 2] · slices_S200000x4_S200000x1_0_2) : (⟨S200000x4, .f32⟩ : BufTy).Contents (Elt F) → (⟨S200000x1, .f32⟩ : BufTy).Contents (Elt F)),
    reshape main_v343 main_v344 rfl shapeCasts_S200000x1_S200000,
    unary main_v330 main_v345 ((extractStridedSlice S200000x1 ![0, 3] · slices_S200000x4_S200000x1_0_3) : (⟨S200000x4, .f32⟩ : BufTy).Contents (Elt F) → (⟨S200000x1, .f32⟩ : BufTy).Contents (Elt F)),
    reshape main_v345 main_v346 rfl shapeCasts_S200000x1_S200000,
    binary main_v332 main_v340 main_v347 (mulf : (⟨S200000, .f32⟩ : BufTy).Contents (Elt F) → (⟨S200000, .f32⟩ : BufTy).Contents (Elt F) → (⟨S200000, .f32⟩ : BufTy).Contents (Elt F)),
    binary main_v334 main_v342 main_v348 (mulf : (⟨S200000, .f32⟩ : BufTy).Contents (Elt F) → (⟨S200000, .f32⟩ : BufTy).Contents (Elt F) → (⟨S200000, .f32⟩ : BufTy).Contents (Elt F)),
    binary main_v347 main_v348 main_v349 (subf : (⟨S200000, .f32⟩ : BufTy).Contents (Elt F) → (⟨S200000, .f32⟩ : BufTy).Contents (Elt F) → (⟨S200000, .f32⟩ : BufTy).Contents (Elt F)),
    binary main_v336 main_v344 main_v350 (mulf : (⟨S200000, .f32⟩ : BufTy).Contents (Elt F) → (⟨S200000, .f32⟩ : BufTy).Contents (Elt F) → (⟨S200000, .f32⟩ : BufTy).Contents (Elt F)),
    binary main_v349 main_v350 main_v351 (subf : (⟨S200000, .f32⟩ : BufTy).Contents (Elt F) → (⟨S200000, .f32⟩ : BufTy).Contents (Elt F) → (⟨S200000, .f32⟩ : BufTy).Contents (Elt F)),
    binary main_v338 main_v346 main_v352 (mulf : (⟨S200000, .f32⟩ : BufTy).Contents (Elt F) → (⟨S200000, .f32⟩ : BufTy).Contents (Elt F) → (⟨S200000, .f32⟩ : BufTy).Contents (Elt F)),
    binary main_v351 main_v352 main_v353 (subf : (⟨S200000, .f32⟩ : BufTy).Contents (Elt F) → (⟨S200000, .f32⟩ : BufTy).Contents (Elt F) → (⟨S200000, .f32⟩ : BufTy).Contents (Elt F)),
    binary main_v332 main_v342 main_v354 (mulf : (⟨S200000, .f32⟩ : BufTy).Contents (Elt F) → (⟨S200000, .f32⟩ : BufTy).Contents (Elt F) → (⟨S200000, .f32⟩ : BufTy).Contents (Elt F)),
    binary main_v334 main_v340 main_v355 (mulf : (⟨S200000, .f32⟩ : BufTy).Contents (Elt F) → (⟨S200000, .f32⟩ : BufTy).Contents (Elt F) → (⟨S200000, .f32⟩ : BufTy).Contents (Elt F)),
    binary main_v354 main_v355 main_v356 (addf : (⟨S200000, .f32⟩ : BufTy).Contents (Elt F) → (⟨S200000, .f32⟩ : BufTy).Contents (Elt F) → (⟨S200000, .f32⟩ : BufTy).Contents (Elt F)),
    binary main_v336 main_v346 main_v357 (mulf : (⟨S200000, .f32⟩ : BufTy).Contents (Elt F) → (⟨S200000, .f32⟩ : BufTy).Contents (Elt F) → (⟨S200000, .f32⟩ : BufTy).Contents (Elt F)),
    binary main_v356 main_v357 main_v358 (addf : (⟨S200000, .f32⟩ : BufTy).Contents (Elt F) → (⟨S200000, .f32⟩ : BufTy).Contents (Elt F) → (⟨S200000, .f32⟩ : BufTy).Contents (Elt F)),
    binary main_v338 main_v344 main_v359 (mulf : (⟨S200000, .f32⟩ : BufTy).Contents (Elt F) → (⟨S200000, .f32⟩ : BufTy).Contents (Elt F) → (⟨S200000, .f32⟩ : BufTy).Contents (Elt F)),
    binary main_v358 main_v359 main_v360 (subf : (⟨S200000, .f32⟩ : BufTy).Contents (Elt F) → (⟨S200000, .f32⟩ : BufTy).Contents (Elt F) → (⟨S200000, .f32⟩ : BufTy).Contents (Elt F)),
    binary main_v332 main_v344 main_v361 (mulf : (⟨S200000, .f32⟩ : BufTy).Contents (Elt F) → (⟨S200000, .f32⟩ : BufTy).Contents (Elt F) → (⟨S200000, .f32⟩ : BufTy).Contents (Elt F)),
    binary main_v334 main_v346 main_v362 (mulf : (⟨S200000, .f32⟩ : BufTy).Contents (Elt F) → (⟨S200000, .f32⟩ : BufTy).Contents (Elt F) → (⟨S200000, .f32⟩ : BufTy).Contents (Elt F)),
    binary main_v361 main_v362 main_v363 (subf : (⟨S200000, .f32⟩ : BufTy).Contents (Elt F) → (⟨S200000, .f32⟩ : BufTy).Contents (Elt F) → (⟨S200000, .f32⟩ : BufTy).Contents (Elt F)),
    binary main_v336 main_v340 main_v364 (mulf : (⟨S200000, .f32⟩ : BufTy).Contents (Elt F) → (⟨S200000, .f32⟩ : BufTy).Contents (Elt F) → (⟨S200000, .f32⟩ : BufTy).Contents (Elt F)),
    binary main_v363 main_v364 main_v365 (addf : (⟨S200000, .f32⟩ : BufTy).Contents (Elt F) → (⟨S200000, .f32⟩ : BufTy).Contents (Elt F) → (⟨S200000, .f32⟩ : BufTy).Contents (Elt F)),
    binary main_v338 main_v342 main_v366 (mulf : (⟨S200000, .f32⟩ : BufTy).Contents (Elt F) → (⟨S200000, .f32⟩ : BufTy).Contents (Elt F) → (⟨S200000, .f32⟩ : BufTy).Contents (Elt F)),
    binary main_v365 main_v366 main_v367 (addf : (⟨S200000, .f32⟩ : BufTy).Contents (Elt F) → (⟨S200000, .f32⟩ : BufTy).Contents (Elt F) → (⟨S200000, .f32⟩ : BufTy).Contents (Elt F)),
    binary main_v332 main_v346 main_v368 (mulf : (⟨S200000, .f32⟩ : BufTy).Contents (Elt F) → (⟨S200000, .f32⟩ : BufTy).Contents (Elt F) → (⟨S200000, .f32⟩ : BufTy).Contents (Elt F)),
    binary main_v334 main_v344 main_v369 (mulf : (⟨S200000, .f32⟩ : BufTy).Contents (Elt F) → (⟨S200000, .f32⟩ : BufTy).Contents (Elt F) → (⟨S200000, .f32⟩ : BufTy).Contents (Elt F)),
    binary main_v368 main_v369 main_v370 (addf : (⟨S200000, .f32⟩ : BufTy).Contents (Elt F) → (⟨S200000, .f32⟩ : BufTy).Contents (Elt F) → (⟨S200000, .f32⟩ : BufTy).Contents (Elt F)),
    binary main_v336 main_v342 main_v371 (mulf : (⟨S200000, .f32⟩ : BufTy).Contents (Elt F) → (⟨S200000, .f32⟩ : BufTy).Contents (Elt F) → (⟨S200000, .f32⟩ : BufTy).Contents (Elt F)),
    binary main_v370 main_v371 main_v372 (subf : (⟨S200000, .f32⟩ : BufTy).Contents (Elt F) → (⟨S200000, .f32⟩ : BufTy).Contents (Elt F) → (⟨S200000, .f32⟩ : BufTy).Contents (Elt F)),
    binary main_v338 main_v340 main_v373 (mulf : (⟨S200000, .f32⟩ : BufTy).Contents (Elt F) → (⟨S200000, .f32⟩ : BufTy).Contents (Elt F) → (⟨S200000, .f32⟩ : BufTy).Contents (Elt F)),
    binary main_v372 main_v373 main_v374 (addf : (⟨S200000, .f32⟩ : BufTy).Contents (Elt F) → (⟨S200000, .f32⟩ : BufTy).Contents (Elt F) → (⟨S200000, .f32⟩ : BufTy).Contents (Elt F)),
    unary main_v353 main_v375 (broadcastInDim S200000x1 ![0] bcast_S200000_S200000x1_0 : (⟨S200000, .f32⟩ : BufTy).Contents (Elt F) → (⟨S200000x1, .f32⟩ : BufTy).Contents (Elt F)),
    unary main_v360 main_v376 (broadcastInDim S200000x1 ![0] bcast_S200000_S200000x1_0 : (⟨S200000, .f32⟩ : BufTy).Contents (Elt F) → (⟨S200000x1, .f32⟩ : BufTy).Contents (Elt F)),
    unary main_v367 main_v377 (broadcastInDim S200000x1 ![0] bcast_S200000_S200000x1_0 : (⟨S200000, .f32⟩ : BufTy).Contents (Elt F) → (⟨S200000x1, .f32⟩ : BufTy).Contents (Elt F)) ]

/-- @main's operations 441 … 500 of 605 (window main_part7). -/
abbrev rops7 : List (HloOp τ sig (Elt F)) :=
  [ unary main_v374 main_v378 (broadcastInDim S200000x1 ![0] bcast_S200000_S200000x1_0 : (⟨S200000, .f32⟩ : BufTy).Contents (Elt F) → (⟨S200000x1, .f32⟩ : BufTy).Contents (Elt F)),
    nary ![main_v375, main_v376, main_v377, main_v378] main_v379 (fun u => concatenate S200000x4 1 [⟨S200000x1, u 0⟩, ⟨S200000x1, u 1⟩, ⟨S200000x1, u 2⟩, ⟨S200000x1, u 3⟩] concatenates_S200000x1_S200000x1_S200000x1_S200000x1_S200000x4_d1),
    nullary main_c_40 (constantI S_ 32 0#32),
    unary main_c_40 main_v380 (broadcastInDim S200000 ![] bcast_S_S200000 : (⟨S_, .i32⟩ : BufTy).Contents (Elt F) → (⟨S200000, .i32⟩ : BufTy).Contents (Elt F)),
    binary main_v3 main_v380 main_v381 (cmpi .slt : (⟨S200000, .i32⟩ : BufTy).Contents (Elt F) → (⟨S200000, .i32⟩ : BufTy).Contents (Elt F) → (⟨S200000, .i1⟩ : BufTy).Contents (Elt F)),
    nullary main_c_41 (constantI S_ 32 10000#32),
    unary main_c_41 main_v382 (broadcastInDim S200000 ![] bcast_S_S200000 : (⟨S_, .i32⟩ : BufTy).Contents (Elt F) → (⟨S200000, .i32⟩ : BufTy).Contents (Elt F)),
    binary main_v3 main_v382 main_v383 (addi : (⟨S200000, .i32⟩ : BufTy).Contents (Elt F) → (⟨S200000, .i32⟩ : BufTy).Contents (Elt F) → (⟨S200000, .i32⟩ : BufTy).Contents (Elt F)),
    ternary main_v381 main_v383 main_v3 main_v384 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v384 main_v385 (broadcastInDim S200000x1 ![0] bcast_S200000_S200000x1_0 : (⟨S200000, .i32⟩ : BufTy).Contents (Elt F) → (⟨S200000x1, .i32⟩ : BufTy).Contents (Elt F)),
    binary main_v312 main_v385 main_v386 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F)),
    nullary main_c_42 (constantI S_ 32 0#32),
    unary main_c_42 main_v387 (broadcastInDim S200000 ![] bcast_S_S200000 : (⟨S_, .i32⟩ : BufTy).Contents (Elt F) → (⟨S200000, .i32⟩ : BufTy).Contents (Elt F)),
    binary main_v1 main_v387 main_v388 (cmpi .slt : (⟨S200000, .i32⟩ : BufTy).Contents (Elt F) → (⟨S200000, .i32⟩ : BufTy).Contents (Elt F) → (⟨S200000, .i1⟩ : BufTy).Contents (Elt F)),
    nullary main_c_43 (constantI S_ 32 10000#32),
    unary main_c_43 main_v389 (broadcastInDim S200000 ![] bcast_S_S200000 : (⟨S_, .i32⟩ : BufTy).Contents (Elt F) → (⟨S200000, .i32⟩ : BufTy).Contents (Elt F)),
    binary main_v1 main_v389 main_v390 (addi : (⟨S200000, .i32⟩ : BufTy).Contents (Elt F) → (⟨S200000, .i32⟩ : BufTy).Contents (Elt F) → (⟨S200000, .i32⟩ : BufTy).Contents (Elt F)),
    ternary main_v388 main_v390 main_v1 main_v391 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v391 main_v392 (broadcastInDim S200000x1 ![0] bcast_S200000_S200000x1_0 : (⟨S200000, .i32⟩ : BufTy).Contents (Elt F) → (⟨S200000x1, .i32⟩ : BufTy).Contents (Elt F)),
    binary main_v312 main_v392 main_v393 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F)),
    unary main_v393 main_v394 ((extractStridedSlice S200000x1 ![0, 0] · slices_S200000x4_S200000x1_0_0) : (⟨S200000x4, .f32⟩ : BufTy).Contents (Elt F) → (⟨S200000x1, .f32⟩ : BufTy).Contents (Elt F)),
    unary main_v393 main_v395 ((extractStridedSlice S200000x3 ![0, 1] · slices_S200000x4_S200000x3_0_1) : (⟨S200000x4, .f32⟩ : BufTy).Contents (Elt F) → (⟨S200000x3, .f32⟩ : BufTy).Contents (Elt F)),
    unary main_v395 main_v396 (Host.negf : (⟨S200000x3, .f32⟩ : BufTy).Contents (Elt F) → (⟨S200000x3, .f32⟩ : BufTy).Contents (Elt F)),
    binary main_v394 main_v396 main_v397 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F)),
    unary main_v386 main_v398 ((extractStridedSlice S200000x1 ![0, 0] · slices_S200000x4_S200000x1_0_0) : (⟨S200000x4, .f32⟩ : BufTy).Contents (Elt F) → (⟨S200000x1, .f32⟩ : BufTy).Contents (Elt F)),
    reshape main_v398 main_v399 rfl shapeCasts_S200000x1_S200000,
    unary main_v386 main_v400 ((extractStridedSlice S200000x1 ![0, 1] · slices_S200000x4_S200000x1_0_1) : (⟨S200000x4, .f32⟩ : BufTy).Contents (Elt F) → (⟨S200000x1, .f32⟩ : BufTy).Contents (Elt F)),
    reshape main_v400 main_v401 rfl shapeCasts_S200000x1_S200000,
    unary main_v386 main_v402 ((extractStridedSlice S200000x1 ![0, 2] · slices_S200000x4_S200000x1_0_2) : (⟨S200000x4, .f32⟩ : BufTy).Contents (Elt F) → (⟨S200000x1, .f32⟩ : BufTy).Contents (Elt F)),
    reshape main_v402 main_v403 rfl shapeCasts_S200000x1_S200000,
    unary main_v386 main_v404 ((extractStridedSlice S200000x1 ![0, 3] · slices_S200000x4_S200000x1_0_3) : (⟨S200000x4, .f32⟩ : BufTy).Contents (Elt F) → (⟨S200000x1, .f32⟩ : BufTy).Contents (Elt F)),
    reshape main_v404 main_v405 rfl shapeCasts_S200000x1_S200000,
    unary main_v397 main_v406 ((extractStridedSlice S200000x1 ![0, 0] · slices_S200000x4_S200000x1_0_0) : (⟨S200000x4, .f32⟩ : BufTy).Contents (Elt F) → (⟨S200000x1, .f32⟩ : BufTy).Contents (Elt F)),
    reshape main_v406 main_v407 rfl shapeCasts_S200000x1_S200000,
    unary main_v397 main_v408 ((extractStridedSlice S200000x1 ![0, 1] · slices_S200000x4_S200000x1_0_1) : (⟨S200000x4, .f32⟩ : BufTy).Contents (Elt F) → (⟨S200000x1, .f32⟩ : BufTy).Contents (Elt F)),
    reshape main_v408 main_v409 rfl shapeCasts_S200000x1_S200000,
    unary main_v397 main_v410 ((extractStridedSlice S200000x1 ![0, 2] · slices_S200000x4_S200000x1_0_2) : (⟨S200000x4, .f32⟩ : BufTy).Contents (Elt F) → (⟨S200000x1, .f32⟩ : BufTy).Contents (Elt F)),
    reshape main_v410 main_v411 rfl shapeCasts_S200000x1_S200000,
    unary main_v397 main_v412 ((extractStridedSlice S200000x1 ![0, 3] · slices_S200000x4_S200000x1_0_3) : (⟨S200000x4, .f32⟩ : BufTy).Contents (Elt F) → (⟨S200000x1, .f32⟩ : BufTy).Contents (Elt F)),
    reshape main_v412 main_v413 rfl shapeCasts_S200000x1_S200000,
    binary main_v399 main_v407 main_v414 (mulf : (⟨S200000, .f32⟩ : BufTy).Contents (Elt F) → (⟨S200000, .f32⟩ : BufTy).Contents (Elt F) → (⟨S200000, .f32⟩ : BufTy).Contents (Elt F)),
    binary main_v401 main_v409 main_v415 (mulf : (⟨S200000, .f32⟩ : BufTy).Contents (Elt F) → (⟨S200000, .f32⟩ : BufTy).Contents (Elt F) → (⟨S200000, .f32⟩ : BufTy).Contents (Elt F)),
    binary main_v414 main_v415 main_v416 (subf : (⟨S200000, .f32⟩ : BufTy).Contents (Elt F) → (⟨S200000, .f32⟩ : BufTy).Contents (Elt F) → (⟨S200000, .f32⟩ : BufTy).Contents (Elt F)),
    binary main_v403 main_v411 main_v417 (mulf : (⟨S200000, .f32⟩ : BufTy).Contents (Elt F) → (⟨S200000, .f32⟩ : BufTy).Contents (Elt F) → (⟨S200000, .f32⟩ : BufTy).Contents (Elt F)),
    binary main_v416 main_v417 main_v418 (subf : (⟨S200000, .f32⟩ : BufTy).Contents (Elt F) → (⟨S200000, .f32⟩ : BufTy).Contents (Elt F) → (⟨S200000, .f32⟩ : BufTy).Contents (Elt F)),
    binary main_v405 main_v413 main_v419 (mulf : (⟨S200000, .f32⟩ : BufTy).Contents (Elt F) → (⟨S200000, .f32⟩ : BufTy).Contents (Elt F) → (⟨S200000, .f32⟩ : BufTy).Contents (Elt F)),
    binary main_v418 main_v419 main_v420 (subf : (⟨S200000, .f32⟩ : BufTy).Contents (Elt F) → (⟨S200000, .f32⟩ : BufTy).Contents (Elt F) → (⟨S200000, .f32⟩ : BufTy).Contents (Elt F)),
    binary main_v399 main_v409 main_v421 (mulf : (⟨S200000, .f32⟩ : BufTy).Contents (Elt F) → (⟨S200000, .f32⟩ : BufTy).Contents (Elt F) → (⟨S200000, .f32⟩ : BufTy).Contents (Elt F)),
    binary main_v401 main_v407 main_v422 (mulf : (⟨S200000, .f32⟩ : BufTy).Contents (Elt F) → (⟨S200000, .f32⟩ : BufTy).Contents (Elt F) → (⟨S200000, .f32⟩ : BufTy).Contents (Elt F)),
    binary main_v421 main_v422 main_v423 (addf : (⟨S200000, .f32⟩ : BufTy).Contents (Elt F) → (⟨S200000, .f32⟩ : BufTy).Contents (Elt F) → (⟨S200000, .f32⟩ : BufTy).Contents (Elt F)),
    binary main_v403 main_v413 main_v424 (mulf : (⟨S200000, .f32⟩ : BufTy).Contents (Elt F) → (⟨S200000, .f32⟩ : BufTy).Contents (Elt F) → (⟨S200000, .f32⟩ : BufTy).Contents (Elt F)),
    binary main_v423 main_v424 main_v425 (addf : (⟨S200000, .f32⟩ : BufTy).Contents (Elt F) → (⟨S200000, .f32⟩ : BufTy).Contents (Elt F) → (⟨S200000, .f32⟩ : BufTy).Contents (Elt F)),
    binary main_v405 main_v411 main_v426 (mulf : (⟨S200000, .f32⟩ : BufTy).Contents (Elt F) → (⟨S200000, .f32⟩ : BufTy).Contents (Elt F) → (⟨S200000, .f32⟩ : BufTy).Contents (Elt F)),
    binary main_v425 main_v426 main_v427 (subf : (⟨S200000, .f32⟩ : BufTy).Contents (Elt F) → (⟨S200000, .f32⟩ : BufTy).Contents (Elt F) → (⟨S200000, .f32⟩ : BufTy).Contents (Elt F)),
    binary main_v399 main_v411 main_v428 (mulf : (⟨S200000, .f32⟩ : BufTy).Contents (Elt F) → (⟨S200000, .f32⟩ : BufTy).Contents (Elt F) → (⟨S200000, .f32⟩ : BufTy).Contents (Elt F)),
    binary main_v401 main_v413 main_v429 (mulf : (⟨S200000, .f32⟩ : BufTy).Contents (Elt F) → (⟨S200000, .f32⟩ : BufTy).Contents (Elt F) → (⟨S200000, .f32⟩ : BufTy).Contents (Elt F)),
    binary main_v428 main_v429 main_v430 (subf : (⟨S200000, .f32⟩ : BufTy).Contents (Elt F) → (⟨S200000, .f32⟩ : BufTy).Contents (Elt F) → (⟨S200000, .f32⟩ : BufTy).Contents (Elt F)),
    binary main_v403 main_v407 main_v431 (mulf : (⟨S200000, .f32⟩ : BufTy).Contents (Elt F) → (⟨S200000, .f32⟩ : BufTy).Contents (Elt F) → (⟨S200000, .f32⟩ : BufTy).Contents (Elt F)),
    binary main_v430 main_v431 main_v432 (addf : (⟨S200000, .f32⟩ : BufTy).Contents (Elt F) → (⟨S200000, .f32⟩ : BufTy).Contents (Elt F) → (⟨S200000, .f32⟩ : BufTy).Contents (Elt F)),
    binary main_v405 main_v409 main_v433 (mulf : (⟨S200000, .f32⟩ : BufTy).Contents (Elt F) → (⟨S200000, .f32⟩ : BufTy).Contents (Elt F) → (⟨S200000, .f32⟩ : BufTy).Contents (Elt F)) ]

/-- @main's operations 501 … 560 of 605 (window main_part8). -/
abbrev rops8 : List (HloOp τ sig (Elt F)) :=
  [ binary main_v432 main_v433 main_v434 (addf : (⟨S200000, .f32⟩ : BufTy).Contents (Elt F) → (⟨S200000, .f32⟩ : BufTy).Contents (Elt F) → (⟨S200000, .f32⟩ : BufTy).Contents (Elt F)),
    binary main_v399 main_v413 main_v435 (mulf : (⟨S200000, .f32⟩ : BufTy).Contents (Elt F) → (⟨S200000, .f32⟩ : BufTy).Contents (Elt F) → (⟨S200000, .f32⟩ : BufTy).Contents (Elt F)),
    binary main_v401 main_v411 main_v436 (mulf : (⟨S200000, .f32⟩ : BufTy).Contents (Elt F) → (⟨S200000, .f32⟩ : BufTy).Contents (Elt F) → (⟨S200000, .f32⟩ : BufTy).Contents (Elt F)),
    binary main_v435 main_v436 main_v437 (addf : (⟨S200000, .f32⟩ : BufTy).Contents (Elt F) → (⟨S200000, .f32⟩ : BufTy).Contents (Elt F) → (⟨S200000, .f32⟩ : BufTy).Contents (Elt F)),
    binary main_v403 main_v409 main_v438 (mulf : (⟨S200000, .f32⟩ : BufTy).Contents (Elt F) → (⟨S200000, .f32⟩ : BufTy).Contents (Elt F) → (⟨S200000, .f32⟩ : BufTy).Contents (Elt F)),
    binary main_v437 main_v438 main_v439 (subf : (⟨S200000, .f32⟩ : BufTy).Contents (Elt F) → (⟨S200000, .f32⟩ : BufTy).Contents (Elt F) → (⟨S200000, .f32⟩ : BufTy).Contents (Elt F)),
    binary main_v405 main_v407 main_v440 (mulf : (⟨S200000, .f32⟩ : BufTy).Contents (Elt F) → (⟨S200000, .f32⟩ : BufTy).Contents (Elt F) → (⟨S200000, .f32⟩ : BufTy).Contents (Elt F)),
    binary main_v439 main_v440 main_v441 (addf : (⟨S200000, .f32⟩ : BufTy).Contents (Elt F) → (⟨S200000, .f32⟩ : BufTy).Contents (Elt F) → (⟨S200000, .f32⟩ : BufTy).Contents (Elt F)),
    unary main_v420 main_v442 (broadcastInDim S200000x1 ![0] bcast_S200000_S200000x1_0 : (⟨S200000, .f32⟩ : BufTy).Contents (Elt F) → (⟨S200000x1, .f32⟩ : BufTy).Contents (Elt F)),
    unary main_v427 main_v443 (broadcastInDim S200000x1 ![0] bcast_S200000_S200000x1_0 : (⟨S200000, .f32⟩ : BufTy).Contents (Elt F) → (⟨S200000x1, .f32⟩ : BufTy).Contents (Elt F)),
    unary main_v434 main_v444 (broadcastInDim S200000x1 ![0] bcast_S200000_S200000x1_0 : (⟨S200000, .f32⟩ : BufTy).Contents (Elt F) → (⟨S200000x1, .f32⟩ : BufTy).Contents (Elt F)),
    unary main_v441 main_v445 (broadcastInDim S200000x1 ![0] bcast_S200000_S200000x1_0 : (⟨S200000, .f32⟩ : BufTy).Contents (Elt F) → (⟨S200000x1, .f32⟩ : BufTy).Contents (Elt F)),
    nary ![main_v442, main_v443, main_v444, main_v445] main_v446 (fun u => concatenate S200000x4 1 [⟨S200000x1, u 0⟩, ⟨S200000x1, u 1⟩, ⟨S200000x1, u 2⟩, ⟨S200000x1, u 3⟩] concatenates_S200000x1_S200000x1_S200000x1_S200000x1_S200000x4_d1),
    unary main_v379 main_v447 ((extractStridedSlice S200000x1 ![0, 0] · slices_S200000x4_S200000x1_0_0) : (⟨S200000x4, .f32⟩ : BufTy).Contents (Elt F) → (⟨S200000x1, .f32⟩ : BufTy).Contents (Elt F)),
    unary main_v379 main_v448 ((extractStridedSlice S200000x3 ![0, 1] · slices_S200000x4_S200000x3_0_1) : (⟨S200000x4, .f32⟩ : BufTy).Contents (Elt F) → (⟨S200000x3, .f32⟩ : BufTy).Contents (Elt F)),
    unary main_v448 main_v449 (Host.negf : (⟨S200000x3, .f32⟩ : BufTy).Contents (Elt F) → (⟨S200000x3, .f32⟩ : BufTy).Contents (Elt F)),
    binary main_v447 main_v449 main_v450 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F)),
    unary main_v450 main_v451 ((extractStridedSlice S200000x1 ![0, 0] · slices_S200000x4_S200000x1_0_0) : (⟨S200000x4, .f32⟩ : BufTy).Contents (Elt F) → (⟨S200000x1, .f32⟩ : BufTy).Contents (Elt F)),
    reshape main_v451 main_v452 rfl shapeCasts_S200000x1_S200000,
    unary main_v450 main_v453 ((extractStridedSlice S200000x1 ![0, 1] · slices_S200000x4_S200000x1_0_1) : (⟨S200000x4, .f32⟩ : BufTy).Contents (Elt F) → (⟨S200000x1, .f32⟩ : BufTy).Contents (Elt F)),
    reshape main_v453 main_v454 rfl shapeCasts_S200000x1_S200000,
    unary main_v450 main_v455 ((extractStridedSlice S200000x1 ![0, 2] · slices_S200000x4_S200000x1_0_2) : (⟨S200000x4, .f32⟩ : BufTy).Contents (Elt F) → (⟨S200000x1, .f32⟩ : BufTy).Contents (Elt F)),
    reshape main_v455 main_v456 rfl shapeCasts_S200000x1_S200000,
    unary main_v450 main_v457 ((extractStridedSlice S200000x1 ![0, 3] · slices_S200000x4_S200000x1_0_3) : (⟨S200000x4, .f32⟩ : BufTy).Contents (Elt F) → (⟨S200000x1, .f32⟩ : BufTy).Contents (Elt F)),
    reshape main_v457 main_v458 rfl shapeCasts_S200000x1_S200000,
    unary main_v446 main_v459 ((extractStridedSlice S200000x1 ![0, 0] · slices_S200000x4_S200000x1_0_0) : (⟨S200000x4, .f32⟩ : BufTy).Contents (Elt F) → (⟨S200000x1, .f32⟩ : BufTy).Contents (Elt F)),
    reshape main_v459 main_v460 rfl shapeCasts_S200000x1_S200000,
    unary main_v446 main_v461 ((extractStridedSlice S200000x1 ![0, 1] · slices_S200000x4_S200000x1_0_1) : (⟨S200000x4, .f32⟩ : BufTy).Contents (Elt F) → (⟨S200000x1, .f32⟩ : BufTy).Contents (Elt F)),
    reshape main_v461 main_v462 rfl shapeCasts_S200000x1_S200000,
    unary main_v446 main_v463 ((extractStridedSlice S200000x1 ![0, 2] · slices_S200000x4_S200000x1_0_2) : (⟨S200000x4, .f32⟩ : BufTy).Contents (Elt F) → (⟨S200000x1, .f32⟩ : BufTy).Contents (Elt F)),
    reshape main_v463 main_v464 rfl shapeCasts_S200000x1_S200000,
    unary main_v446 main_v465 ((extractStridedSlice S200000x1 ![0, 3] · slices_S200000x4_S200000x1_0_3) : (⟨S200000x4, .f32⟩ : BufTy).Contents (Elt F) → (⟨S200000x1, .f32⟩ : BufTy).Contents (Elt F)),
    reshape main_v465 main_v466 rfl shapeCasts_S200000x1_S200000,
    binary main_v452 main_v460 main_v467 (mulf : (⟨S200000, .f32⟩ : BufTy).Contents (Elt F) → (⟨S200000, .f32⟩ : BufTy).Contents (Elt F) → (⟨S200000, .f32⟩ : BufTy).Contents (Elt F)),
    binary main_v454 main_v462 main_v468 (mulf : (⟨S200000, .f32⟩ : BufTy).Contents (Elt F) → (⟨S200000, .f32⟩ : BufTy).Contents (Elt F) → (⟨S200000, .f32⟩ : BufTy).Contents (Elt F)),
    binary main_v467 main_v468 main_v469 (subf : (⟨S200000, .f32⟩ : BufTy).Contents (Elt F) → (⟨S200000, .f32⟩ : BufTy).Contents (Elt F) → (⟨S200000, .f32⟩ : BufTy).Contents (Elt F)),
    binary main_v456 main_v464 main_v470 (mulf : (⟨S200000, .f32⟩ : BufTy).Contents (Elt F) → (⟨S200000, .f32⟩ : BufTy).Contents (Elt F) → (⟨S200000, .f32⟩ : BufTy).Contents (Elt F)),
    binary main_v469 main_v470 main_v471 (subf : (⟨S200000, .f32⟩ : BufTy).Contents (Elt F) → (⟨S200000, .f32⟩ : BufTy).Contents (Elt F) → (⟨S200000, .f32⟩ : BufTy).Contents (Elt F)),
    binary main_v458 main_v466 main_v472 (mulf : (⟨S200000, .f32⟩ : BufTy).Contents (Elt F) → (⟨S200000, .f32⟩ : BufTy).Contents (Elt F) → (⟨S200000, .f32⟩ : BufTy).Contents (Elt F)),
    binary main_v471 main_v472 main_v473 (subf : (⟨S200000, .f32⟩ : BufTy).Contents (Elt F) → (⟨S200000, .f32⟩ : BufTy).Contents (Elt F) → (⟨S200000, .f32⟩ : BufTy).Contents (Elt F)),
    binary main_v452 main_v462 main_v474 (mulf : (⟨S200000, .f32⟩ : BufTy).Contents (Elt F) → (⟨S200000, .f32⟩ : BufTy).Contents (Elt F) → (⟨S200000, .f32⟩ : BufTy).Contents (Elt F)),
    binary main_v454 main_v460 main_v475 (mulf : (⟨S200000, .f32⟩ : BufTy).Contents (Elt F) → (⟨S200000, .f32⟩ : BufTy).Contents (Elt F) → (⟨S200000, .f32⟩ : BufTy).Contents (Elt F)),
    binary main_v474 main_v475 main_v476 (addf : (⟨S200000, .f32⟩ : BufTy).Contents (Elt F) → (⟨S200000, .f32⟩ : BufTy).Contents (Elt F) → (⟨S200000, .f32⟩ : BufTy).Contents (Elt F)),
    binary main_v456 main_v466 main_v477 (mulf : (⟨S200000, .f32⟩ : BufTy).Contents (Elt F) → (⟨S200000, .f32⟩ : BufTy).Contents (Elt F) → (⟨S200000, .f32⟩ : BufTy).Contents (Elt F)),
    binary main_v476 main_v477 main_v478 (addf : (⟨S200000, .f32⟩ : BufTy).Contents (Elt F) → (⟨S200000, .f32⟩ : BufTy).Contents (Elt F) → (⟨S200000, .f32⟩ : BufTy).Contents (Elt F)),
    binary main_v458 main_v464 main_v479 (mulf : (⟨S200000, .f32⟩ : BufTy).Contents (Elt F) → (⟨S200000, .f32⟩ : BufTy).Contents (Elt F) → (⟨S200000, .f32⟩ : BufTy).Contents (Elt F)),
    binary main_v478 main_v479 main_v480 (subf : (⟨S200000, .f32⟩ : BufTy).Contents (Elt F) → (⟨S200000, .f32⟩ : BufTy).Contents (Elt F) → (⟨S200000, .f32⟩ : BufTy).Contents (Elt F)),
    binary main_v452 main_v464 main_v481 (mulf : (⟨S200000, .f32⟩ : BufTy).Contents (Elt F) → (⟨S200000, .f32⟩ : BufTy).Contents (Elt F) → (⟨S200000, .f32⟩ : BufTy).Contents (Elt F)),
    binary main_v454 main_v466 main_v482 (mulf : (⟨S200000, .f32⟩ : BufTy).Contents (Elt F) → (⟨S200000, .f32⟩ : BufTy).Contents (Elt F) → (⟨S200000, .f32⟩ : BufTy).Contents (Elt F)),
    binary main_v481 main_v482 main_v483 (subf : (⟨S200000, .f32⟩ : BufTy).Contents (Elt F) → (⟨S200000, .f32⟩ : BufTy).Contents (Elt F) → (⟨S200000, .f32⟩ : BufTy).Contents (Elt F)),
    binary main_v456 main_v460 main_v484 (mulf : (⟨S200000, .f32⟩ : BufTy).Contents (Elt F) → (⟨S200000, .f32⟩ : BufTy).Contents (Elt F) → (⟨S200000, .f32⟩ : BufTy).Contents (Elt F)),
    binary main_v483 main_v484 main_v485 (addf : (⟨S200000, .f32⟩ : BufTy).Contents (Elt F) → (⟨S200000, .f32⟩ : BufTy).Contents (Elt F) → (⟨S200000, .f32⟩ : BufTy).Contents (Elt F)),
    binary main_v458 main_v462 main_v486 (mulf : (⟨S200000, .f32⟩ : BufTy).Contents (Elt F) → (⟨S200000, .f32⟩ : BufTy).Contents (Elt F) → (⟨S200000, .f32⟩ : BufTy).Contents (Elt F)),
    binary main_v485 main_v486 main_v487 (addf : (⟨S200000, .f32⟩ : BufTy).Contents (Elt F) → (⟨S200000, .f32⟩ : BufTy).Contents (Elt F) → (⟨S200000, .f32⟩ : BufTy).Contents (Elt F)),
    binary main_v452 main_v466 main_v488 (mulf : (⟨S200000, .f32⟩ : BufTy).Contents (Elt F) → (⟨S200000, .f32⟩ : BufTy).Contents (Elt F) → (⟨S200000, .f32⟩ : BufTy).Contents (Elt F)),
    binary main_v454 main_v464 main_v489 (mulf : (⟨S200000, .f32⟩ : BufTy).Contents (Elt F) → (⟨S200000, .f32⟩ : BufTy).Contents (Elt F) → (⟨S200000, .f32⟩ : BufTy).Contents (Elt F)),
    binary main_v488 main_v489 main_v490 (addf : (⟨S200000, .f32⟩ : BufTy).Contents (Elt F) → (⟨S200000, .f32⟩ : BufTy).Contents (Elt F) → (⟨S200000, .f32⟩ : BufTy).Contents (Elt F)),
    binary main_v456 main_v462 main_v491 (mulf : (⟨S200000, .f32⟩ : BufTy).Contents (Elt F) → (⟨S200000, .f32⟩ : BufTy).Contents (Elt F) → (⟨S200000, .f32⟩ : BufTy).Contents (Elt F)),
    binary main_v490 main_v491 main_v492 (subf : (⟨S200000, .f32⟩ : BufTy).Contents (Elt F) → (⟨S200000, .f32⟩ : BufTy).Contents (Elt F) → (⟨S200000, .f32⟩ : BufTy).Contents (Elt F)),
    binary main_v458 main_v460 main_v493 (mulf : (⟨S200000, .f32⟩ : BufTy).Contents (Elt F) → (⟨S200000, .f32⟩ : BufTy).Contents (Elt F) → (⟨S200000, .f32⟩ : BufTy).Contents (Elt F)) ]

/-- @main's operations 561 … 605 of 605 (window main_part9). -/
abbrev rops9 : List (HloOp τ sig (Elt F)) :=
  [ binary main_v492 main_v493 main_v494 (addf : (⟨S200000, .f32⟩ : BufTy).Contents (Elt F) → (⟨S200000, .f32⟩ : BufTy).Contents (Elt F) → (⟨S200000, .f32⟩ : BufTy).Contents (Elt F)),
    unary main_v473 main_v495 (broadcastInDim S200000x1 ![0] bcast_S200000_S200000x1_0 : (⟨S200000, .f32⟩ : BufTy).Contents (Elt F) → (⟨S200000x1, .f32⟩ : BufTy).Contents (Elt F)),
    unary main_v480 main_v496 (broadcastInDim S200000x1 ![0] bcast_S200000_S200000x1_0 : (⟨S200000, .f32⟩ : BufTy).Contents (Elt F) → (⟨S200000x1, .f32⟩ : BufTy).Contents (Elt F)),
    unary main_v487 main_v497 (broadcastInDim S200000x1 ![0] bcast_S200000_S200000x1_0 : (⟨S200000, .f32⟩ : BufTy).Contents (Elt F) → (⟨S200000x1, .f32⟩ : BufTy).Contents (Elt F)),
    unary main_v494 main_v498 (broadcastInDim S200000x1 ![0] bcast_S200000_S200000x1_0 : (⟨S200000, .f32⟩ : BufTy).Contents (Elt F) → (⟨S200000x1, .f32⟩ : BufTy).Contents (Elt F)),
    nary ![main_v495, main_v496, main_v497, main_v498] main_v499 (fun u => concatenate S200000x4 1 [⟨S200000x1, u 0⟩, ⟨S200000x1, u 1⟩, ⟨S200000x1, u 2⟩, ⟨S200000x1, u 3⟩] concatenates_S200000x1_S200000x1_S200000x1_S200000x1_S200000x4_d1),
    TRef.binary (.of main_v499 : TRef sig ⟨S200000x4, .f32⟩) (.of main_v499 : TRef sig ⟨S200000x4, .f32⟩) main_call9.v0 mulf,
    TRef.nullary main_call9.cst (constant S_ .f32 0x00000000#32),
    TRef.binary main_call9.v0 main_call9.cst main_call9.v1 (fun x v => Host.reduceAdd x v reducesTo_S200000x4_S200000_d1 h_S_),
    TRef.unary main_call9.v1 main_call9.v2 (broadcastInDim S200000x1 ![0] bcast_S200000_S200000x1_0),
    TRef.unary main_call9.v2 main_call9.v3 Host.sqrt,
    nullary main_cst_44 (constant S_ .f32 0x2B8CBCCC#32),
    unary main_cst_44 main_v501 (broadcastInDim S200000x1 ![] bcast_S_S200000x1 : (⟨S_, .f32⟩ : BufTy).Contents (Elt F) → (⟨S200000x1, .f32⟩ : BufTy).Contents (Elt F)),
    binary main_v500 main_v501 main_v502 (maximumf : (⟨S200000x1, .f32⟩ : BufTy).Contents (Elt F) → (⟨S200000x1, .f32⟩ : BufTy).Contents (Elt F) → (⟨S200000x1, .f32⟩ : BufTy).Contents (Elt F)),
    unary main_v502 main_v503 (broadcastInDim S200000x4 ![0, 1] bcast_S200000x1_S200000x4_0_1 : (⟨S200000x1, .f32⟩ : BufTy).Contents (Elt F) → (⟨S200000x4, .f32⟩ : BufTy).Contents (Elt F)),
    binary main_v499 main_v503 main_v504 (Host.divf : (⟨S200000x4, .f32⟩ : BufTy).Contents (Elt F) → (⟨S200000x4, .f32⟩ : BufTy).Contents (Elt F) → (⟨S200000x4, .f32⟩ : BufTy).Contents (Elt F)),
    unary main_cst main_v505 (broadcastInDim S1x4 ![1] bcast_S4_S1x4_1 : (⟨S4, .f32⟩ : BufTy).Contents (Elt F) → (⟨S1x4, .f32⟩ : BufTy).Contents (Elt F)),
    unary main_v505 main_v506 (broadcastInDim S200000x4 ![0, 1] bcast_S1x4_S200000x4_0_1 : (⟨S1x4, .f32⟩ : BufTy).Contents (Elt F) → (⟨S200000x4, .f32⟩ : BufTy).Contents (Elt F)),
    binary main_v504 main_v506 main_v507 (subf : (⟨S200000x4, .f32⟩ : BufTy).Contents (Elt F) → (⟨S200000x4, .f32⟩ : BufTy).Contents (Elt F) → (⟨S200000x4, .f32⟩ : BufTy).Contents (Elt F)),
    unary main_v507 main_v508 (Host.absf : (⟨S200000x4, .f32⟩ : BufTy).Contents (Elt F) → (⟨S200000x4, .f32⟩ : BufTy).Contents (Elt F)),
    unary main_arg3 main_v509 (broadcastInDim S1x1 ![1] bcast_S1_S1x1_1 : (⟨S1, .f32⟩ : BufTy).Contents (Elt F) → (⟨S1x1, .f32⟩ : BufTy).Contents (Elt F)),
    unary main_v509 main_v510 (broadcastInDim S200000x4 ![0, 1] bcast_S1x1_S200000x4_0_1 : (⟨S1x1, .f32⟩ : BufTy).Contents (Elt F) → (⟨S200000x4, .f32⟩ : BufTy).Contents (Elt F)),
    binary main_v508 main_v510 main_v511 (cmpf .olt : (⟨S200000x4, .f32⟩ : BufTy).Contents (Elt F) → (⟨S200000x4, .f32⟩ : BufTy).Contents (Elt F) → (⟨S200000x4, .i1⟩ : BufTy).Contents (Elt F)),
    nullary main_cst_45 (constant S_ .f32 0x3F000000#32),
    unary main_cst_45 main_v512 (broadcastInDim S200000x4 ![] bcast_S_S200000x4 : (⟨S_, .f32⟩ : BufTy).Contents (Elt F) → (⟨S200000x4, .f32⟩ : BufTy).Contents (Elt F)),
    binary main_v512 main_v508 main_v513 (mulf : (⟨S200000x4, .f32⟩ : BufTy).Contents (Elt F) → (⟨S200000x4, .f32⟩ : BufTy).Contents (Elt F) → (⟨S200000x4, .f32⟩ : BufTy).Contents (Elt F)),
    binary main_v513 main_v508 main_v514 (mulf : (⟨S200000x4, .f32⟩ : BufTy).Contents (Elt F) → (⟨S200000x4, .f32⟩ : BufTy).Contents (Elt F) → (⟨S200000x4, .f32⟩ : BufTy).Contents (Elt F)),
    unary main_arg3 main_v515 (broadcastInDim S1x1 ![1] bcast_S1_S1x1_1 : (⟨S1, .f32⟩ : BufTy).Contents (Elt F) → (⟨S1x1, .f32⟩ : BufTy).Contents (Elt F)),
    unary main_v515 main_v516 (broadcastInDim S200000x4 ![0, 1] bcast_S1x1_S200000x4_0_1 : (⟨S1x1, .f32⟩ : BufTy).Contents (Elt F) → (⟨S200000x4, .f32⟩ : BufTy).Contents (Elt F)),
    binary main_v514 main_v516 main_v517 (Host.divf : (⟨S200000x4, .f32⟩ : BufTy).Contents (Elt F) → (⟨S200000x4, .f32⟩ : BufTy).Contents (Elt F) → (⟨S200000x4, .f32⟩ : BufTy).Contents (Elt F)),
    nullary main_cst_46 (constant S_ .f32 0x3F000000#32),
    unary main_cst_46 main_v518 (broadcastInDim S1 ![] bcast_S_S1 : (⟨S_, .f32⟩ : BufTy).Contents (Elt F) → (⟨S1, .f32⟩ : BufTy).Contents (Elt F)),
    binary main_v518 main_arg3 main_v519 (mulf : (⟨S1, .f32⟩ : BufTy).Contents (Elt F) → (⟨S1, .f32⟩ : BufTy).Contents (Elt F) → (⟨S1, .f32⟩ : BufTy).Contents (Elt F)),
    unary main_v519 main_v520 (broadcastInDim S1x1 ![1] bcast_S1_S1x1_1 : (⟨S1, .f32⟩ : BufTy).Contents (Elt F) → (⟨S1x1, .f32⟩ : BufTy).Contents (Elt F)),
    unary main_v520 main_v521 (broadcastInDim S200000x4 ![0, 1] bcast_S1x1_S200000x4_0_1 : (⟨S1x1, .f32⟩ : BufTy).Contents (Elt F) → (⟨S200000x4, .f32⟩ : BufTy).Contents (Elt F)),
    binary main_v508 main_v521 main_v522 (subf : (⟨S200000x4, .f32⟩ : BufTy).Contents (Elt F) → (⟨S200000x4, .f32⟩ : BufTy).Contents (Elt F) → (⟨S200000x4, .f32⟩ : BufTy).Contents (Elt F)),
    TRef.ternary (.of main_v511 : TRef sig ⟨S200000x4, .i1⟩) (.of main_v517 : TRef sig ⟨S200000x4, .f32⟩) (.of main_v522 : TRef sig ⟨S200000x4, .f32⟩) main_call10.v0 select,
    nullary main_cst_47 (constant S_ .f32 0x00000000#32),
    binary main_v523 main_cst_47 main_v524 ((fun x v => Host.reduceAdd x v reducesTo_S200000x4_S_d0_1 h_S_) : (⟨S200000x4, .f32⟩ : BufTy).Contents (Elt F) → (⟨S_, .f32⟩ : BufTy).Contents (Elt F) → (⟨S_, .f32⟩ : BufTy).Contents (Elt F)),
    nullary main_cst_48 (constant S_ .f32 0x49435000#32),
    binary main_v524 main_cst_48 main_v525 (Host.divf : (⟨S_, .f32⟩ : BufTy).Contents (Elt F) → (⟨S_, .f32⟩ : BufTy).Contents (Elt F) → (⟨S_, .f32⟩ : BufTy).Contents (Elt F)),
    binary main_v254 main_arg16 main_v526 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    unary main_arg17 main_v527 (broadcastInDim S1x1 ![1] bcast_S1_S1x1_1 : (⟨S1, .f32⟩ : BufTy).Contents (Elt F) → (⟨S1x1, .f32⟩ : BufTy).Contents (Elt F)),
    unary main_v527 main_v528 (broadcastInDim S200000x1 ![0, 1] bcast_S1x1_S200000x1_0_1 : (⟨S1x1, .f32⟩ : BufTy).Contents (Elt F) → (⟨S200000x1, .f32⟩ : BufTy).Contents (Elt F)),
    binary main_v526 main_v528 main_v529 (addf : (⟨S200000x1, .f32⟩ : BufTy).Contents (Elt F) → (⟨S200000x1, .f32⟩ : BufTy).Contents (Elt F) → (⟨S200000x1, .f32⟩ : BufTy).Contents (Elt F)) ]

/-- @main's 605 operations, in order. -/
abbrev rops : List (HloOp τ sig (Elt F)) :=
  rops0 ++ rops1 ++ rops2 ++ rops3 ++ rops4 ++ rops5 ++ rops6 ++ rops7 ++ rops8 ++ rops9

/-- The buffers the operations of window main_part0 write, in order. -/
abbrev rops0_W : List (Ref sig .tc) :=
  [main_cst, main_v0, main_v1, main_v2, main_v3, main_c, main_v4, main_v5, main_c_0, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]

/-- The buffers the operations of window main_part1 write, in order. -/
abbrev rops1_W : List (Ref sig .tc) :=
  [main_v57, main_v58, main_v59, main_v60, main_v61, main_v62, main_v63, main_c_1, main_v64, main_v65, main_c_2, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114]

/-- The buffers the operations of window main_part2 write, in order. -/
abbrev rops2_W : List (Ref sig .tc) :=
  [main_v115, main_v116, main_v117, main_v118, main_v119, main_v120, main_v121, main_c_3, main_v122, main_v123, main_c_4, main_v124, main_v125, main_v126, main_v127, main_v128, main_c_5, main_v129, main_v130, main_c_6, main_v131, main_v132, main_v133, main_v134, main_v135, main_v136, main_v137, main_v138, main_v139, main_v140, main_cst_7, main_v141, main_v142, main_v143, main_cst_8, main_v144, main_cst_9, main_v145, main_v146, main_v147, main_cst_10, main_v148, main_v149, main_v150, main_v151, main_call0.cst.ref, main_call0.v0.ref, main_call0.v1.ref, main_call1.cst.ref, main_call1.v0.ref, main_call1.v1.ref, main_v154, main_c_11, main_v155, main_v156, main_c_12, main_v157, main_v158, main_v159, main_v160, main_v161, main_c_13, main_v162, main_v163]

/-- The buffers the operations of window main_part3 write, in order. -/
abbrev rops3_W : List (Ref sig .tc) :=
  [main_c_14, main_v164, main_v165, main_v166, main_v167, main_v168, main_v169, main_v170, main_v171, main_v172, main_v173, main_cst_15, main_v174, main_v175, main_v176, main_cst_16, main_v177, main_cst_17, main_v178, main_v179, main_v180, main_cst_18, main_v181, main_v182, main_v183, main_v184, main_call2.cst.ref, main_call2.v0.ref, main_call2.v1.ref, main_call3.cst.ref, main_call3.v0.ref, main_call3.v1.ref, main_v187, main_v188, main_c_19, main_v189, main_v190, main_c_20, main_v191, main_v192, main_v193, main_v194, main_v195, main_c_21, main_v196, main_v197, main_c_22, main_v198, main_v199, main_v200, main_v201, main_v202, main_v203, main_v204, main_v205, main_v206, main_v207, main_cst_23, main_v208, main_v209, main_v210, main_cst_24, main_v211, main_cst_25]

/-- The buffers the operations of window main_part4 write, in order. -/
abbrev rops4_W : List (Ref sig .tc) :=
  [main_v212, main_v213, main_v214, main_cst_26, main_v215, main_v216, main_v217, main_v218, main_call4.cst.ref, main_call4.v0.ref, main_call4.v1.ref, main_call5.cst.ref, main_call5.v0.ref, main_call5.v1.ref, main_v221, main_v222, main_c_27, main_v223, main_v224, main_c_28, main_v225, main_v226, main_v227, main_v228, main_v229, main_c_29, main_v230, main_v231, main_c_30, main_v232, main_v233, main_v234, main_v235, main_v236, main_v237, main_v238, main_v239, main_v240, main_v241, main_cst_31, main_v242, main_v243, main_v244, main_cst_32, main_v245, main_cst_33, main_v246, main_v247, main_v248, main_cst_34, main_v249, main_v250, main_v251, main_v252, main_call6.cst.ref, main_call6.v0.ref, main_call6.v1.ref, main_call7.cst.ref, main_call7.v0.ref, main_call7.v1.ref, main_v255, main_v256, main_v257, main_v258, main_v259, main_v260, main_v261, main_v262]

/-- The buffers the operations of window main_part5 write, in order. -/
abbrev rops5_W : List (Ref sig .tc) :=
  [main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_call8.v0.ref, main_call8.cst.ref, main_call8.v1.ref, main_call8.v2.ref, main_call8.v3.ref, main_cst_35, main_v309, main_v310, main_v311, main_v312, main_c_36, main_v313, main_v314, main_c_37, main_v315, main_v316, main_v317, main_v318, main_v319]

/-- The buffers the operations of window main_part6 write, in order. -/
abbrev rops6_W : List (Ref sig .tc) :=
  [main_c_38, main_v320, main_v321, main_c_39, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377]

/-- The buffers the operations of window main_part7 write, in order. -/
abbrev rops7_W : List (Ref sig .tc) :=
  [main_v378, main_v379, main_c_40, main_v380, main_v381, main_c_41, main_v382, main_v383, main_v384, main_v385, main_v386, main_c_42, main_v387, main_v388, main_c_43, main_v389, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_v424, main_v425, main_v426, main_v427, main_v428, main_v429, main_v430, main_v431, main_v432, main_v433]

/-- The buffers the operations of window main_part8 write, in order. -/
abbrev rops8_W : List (Ref sig .tc) :=
  [main_v434, main_v435, main_v436, main_v437, main_v438, main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476, main_v477, main_v478, main_v479, main_v480, main_v481, main_v482, main_v483, main_v484, main_v485, main_v486, main_v487, main_v488, main_v489, main_v490, main_v491, main_v492, main_v493]

/-- The buffers the operations of window main_part9 write, in order. -/
abbrev rops9_W : List (Ref sig .tc) :=
  [main_v494, main_v495, main_v496, main_v497, main_v498, main_v499, main_call9.v0.ref, main_call9.cst.ref, main_call9.v1.ref, main_call9.v2.ref, main_call9.v3.ref, main_cst_44, main_v501, main_v502, main_v503, main_v504, main_v505, main_v506, main_v507, main_v508, main_v509, main_v510, main_v511, main_cst_45, main_v512, main_v513, main_v514, main_v515, main_v516, main_v517, main_cst_46, main_v518, main_v519, main_v520, main_v521, main_v522, main_call10.v0.ref, main_cst_47, main_v524, main_cst_48, main_v525, main_v526, main_v527, main_v528, main_v529]

set_option maxRecDepth 8192 in
theorem rops0_sub : (rops0 : List (HloOp τ sig (Elt F))).Forall fun op => op.bufs ⊆ tcRefs τ sig :=
  ⟨nullary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩

set_option maxRecDepth 8192 in
theorem rops1_sub : (rops1 : List (HloOp τ sig (Elt F))).Forall fun op => op.bufs ⊆ tcRefs τ sig :=
  ⟨binary_bufs_sub .., binary_bufs_sub .., unary_bufs_sub .., unary_bufs_sub .., unary_bufs_sub .., unary_bufs_sub .., nary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩

set_option maxRecDepth 8192 in
theorem rops2_sub : (rops2 : List (HloOp τ sig (Elt F))).Forall fun op => op.bufs ⊆ tcRefs τ sig :=
  ⟨unary_bufs_sub .., unary_bufs_sub .., unary_bufs_sub .., unary_bufs_sub .., nary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩

set_option maxRecDepth 8192 in
theorem rops3_sub : (rops3 : List (HloOp τ sig (Elt F))).Forall fun op => op.bufs ⊆ tcRefs τ sig :=
  ⟨nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub ..⟩

set_option maxRecDepth 8192 in
theorem rops4_sub : (rops4 : List (HloOp τ sig (Elt F))).Forall fun op => op.bufs ⊆ tcRefs τ sig :=
  ⟨unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub ..⟩

set_option maxRecDepth 8192 in
theorem rops5_sub : (rops5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub .., unary_bufs_sub .., unary_bufs_sub .., unary_bufs_sub .., nary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem rops6_sub : (rops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub .., unary_bufs_sub .., unary_bufs_sub ..⟩

set_option maxRecDepth 8192 in
theorem rops7_sub : (rops7 : List (HloOp τ sig (Elt F))).Forall fun op => op.bufs ⊆ tcRefs τ sig :=
  ⟨unary_bufs_sub .., nary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩

set_option maxRecDepth 8192 in
theorem rops8_sub : (rops8 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., unary_bufs_sub .., unary_bufs_sub .., unary_bufs_sub .., unary_bufs_sub .., nary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩

set_option maxRecDepth 8192 in
theorem rops9_sub : (rops9 : List (HloOp τ sig (Elt F))).Forall fun op => op.bufs ⊆ tcRefs τ sig :=
  ⟨binary_bufs_sub .., unary_bufs_sub .., unary_bufs_sub .., unary_bufs_sub .., unary_bufs_sub .., nary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., nullary_bufs_sub .., binary_bufs_sub .., nullary_bufs_sub .., binary_bufs_sub .., binary_bufs_sub .., unary_bufs_sub .., unary_bufs_sub .., binary_bufs_sub ..⟩

set_option maxRecDepth 8192 in
/-- Window main_part0 is the straight line of its list: the calls unfold to their bodies' operations. -/
theorem main_part0_eq (c : Dev nD) : main_part0 (F := F) c = seq rops0 := rfl

set_option maxRecDepth 8192 in
/-- Window main_part1 is the straight line of its list: the calls unfold to their bodies' operations. -/
theorem main_part1_eq (c : Dev nD) : main_part1 (F := F) c = seq rops1 := rfl

set_option maxRecDepth 8192 in
/-- Window main_part2 is the straight line of its list: the calls unfold to their bodies' operations. -/
theorem main_part2_eq (c : Dev nD) : main_part2 (F := F) c = seq rops2 := rfl

set_option maxRecDepth 8192 in
/-- Window main_part3 is the straight line of its list: the calls unfold to their bodies' operations. -/
theorem main_part3_eq (c : Dev nD) : main_part3 (F := F) c = seq rops3 := rfl

set_option maxRecDepth 8192 in
/-- Window main_part4 is the straight line of its list: the calls unfold to their bodies' operations. -/
theorem main_part4_eq (c : Dev nD) : main_part4 (F := F) c = seq rops4 := rfl

set_option maxRecDepth 8192 in
/-- Window main_part5 is the straight line of its list: the calls unfold to their bodies' operations. -/
theorem main_part5_eq (c : Dev nD) : main_part5 (F := F) c = seq rops5 := rfl

set_option maxRecDepth 8192 in
/-- Window main_part6 is the straight line of its list: the calls unfold to their bodies' operations. -/
theorem main_part6_eq (c : Dev nD) : main_part6 (F := F) c = seq rops6 := rfl

set_option maxRecDepth 8192 in
/-- Window main_part7 is the straight line of its list: the calls unfold to their bodies' operations. -/
theorem main_part7_eq (c : Dev nD) : main_part7 (F := F) c = seq rops7 := rfl

set_option maxRecDepth 8192 in
/-- Window main_part8 is the straight line of its list: the calls unfold to their bodies' operations. -/
theorem main_part8_eq (c : Dev nD) : main_part8 (F := F) c = seq rops8 := rfl

set_option maxRecDepth 8192 in
/-- Window main_part9 is the straight line of its list: the calls unfold to their bodies' operations. -/
theorem main_part9_eq (c : Dev nD) : main_part9 (F := F) c = seq rops9 := rfl

set_option maxRecDepth 8192 in
/-- @main is the straight line of all its operations: window by window, a concatenation runs as its parts in turn. -/
theorem main_eq (c : Dev nD) : main (F := F) c = seq rops := by
  simp only [rops, seq_append, bind_assoc, ← main_part0_eq c, ← main_part1_eq c, ← main_part2_eq c, ← main_part3_eq c, ← main_part4_eq c, ← main_part5_eq c, ← main_part6_eq c, ← main_part7_eq c, ← main_part8_eq c, ← main_part9_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of @main touches TensorCore references only. -/
theorem ops_sub : (rops : List (HloOp τ sig (Elt F))).Forall fun op => op.bufs ⊆ tcRefs τ sig :=
  List.forall_iff_forall_mem.mpr fun op h => by
    simp only [rops, List.mem_append, or_assoc] at h
    rcases h with h | h | h | h | h | h | h | h | h | h
    exacts [List.forall_iff_forall_mem.mp rops0_sub op h, List.forall_iff_forall_mem.mp rops1_sub op h, List.forall_iff_forall_mem.mp rops2_sub op h, List.forall_iff_forall_mem.mp rops3_sub op h, List.forall_iff_forall_mem.mp rops4_sub op h, List.forall_iff_forall_mem.mp rops5_sub op h, List.forall_iff_forall_mem.mp rops6_sub op h, List.forall_iff_forall_mem.mp rops7_sub op h, List.forall_iff_forall_mem.mp rops8_sub op h, List.forall_iff_forall_mem.mp rops9_sub op h]

end Cert.ReferenceIdeal.Hand

end
-- ==== Proof.RRun.lean ====
/- The reference program's run, read off its operation lists (ROps): every weakly fair execution of @main terminates
   with every TensorCore buffer at the fold of the 605 operations' results over its launch contents. An operation
   rewrites its own result buffer only, so a buffer that is no operation's result keeps its contents through the
   whole line; the nineteen arguments are such buffers, which is the frame. -/
import proofs.«430033_j52948356825731_1_alg».proof.Proof.ROps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Every operation determines its results

None of the 605 leaves a buffer at contents it does not compute: window by window, each entry by computation. -/

/-- A conjunction over a literal list, split into its entries, each closed by computation. -/
local macro "each_rfl" : tactic => `(tactic| (simp only [List.Forall]; (repeat' apply And.intro); all_goals rfl))

set_option maxRecDepth 8192 in
theorem rops0_fresh : (rops0 : List (HloOp τ sig (Elt F))).Forall fun op => op.fresh = ∅ := by each_rfl
set_option maxRecDepth 8192 in
theorem rops1_fresh : (rops1 : List (HloOp τ sig (Elt F))).Forall fun op => op.fresh = ∅ := by each_rfl
set_option maxRecDepth 8192 in
theorem rops2_fresh : (rops2 : List (HloOp τ sig (Elt F))).Forall fun op => op.fresh = ∅ := by each_rfl
set_option maxRecDepth 8192 in
theorem rops3_fresh : (rops3 : List (HloOp τ sig (Elt F))).Forall fun op => op.fresh = ∅ := by each_rfl
set_option maxRecDepth 8192 in
theorem rops4_fresh : (rops4 : List (HloOp τ sig (Elt F))).Forall fun op => op.fresh = ∅ := by each_rfl
set_option maxRecDepth 8192 in
theorem rops5_fresh : (rops5 : List (HloOp τ sig (Elt F))).Forall fun op => op.fresh = ∅ := by each_rfl
set_option maxRecDepth 8192 in
theorem rops6_fresh : (rops6 : List (HloOp τ sig (Elt F))).Forall fun op => op.fresh = ∅ := by each_rfl
set_option maxRecDepth 8192 in
theorem rops7_fresh : (rops7 : List (HloOp τ sig (Elt F))).Forall fun op => op.fresh = ∅ := by each_rfl
set_option maxRecDepth 8192 in
theorem rops8_fresh : (rops8 : List (HloOp τ sig (Elt F))).Forall fun op => op.fresh = ∅ := by each_rfl
set_option maxRecDepth 8192 in
theorem rops9_fresh : (rops9 : List (HloOp τ sig (Elt F))).Forall fun op => op.fresh = ∅ := by each_rfl

/-- No operation of @main leaves a buffer's contents open. -/
theorem rops_fresh : ∀ op ∈ (rops : List (HloOp τ sig (Elt F))), op.fresh = ∅ := fun op h => by
  simp only [rops, List.mem_append, or_assoc] at h
  rcases h with h | h | h | h | h | h | h | h | h | h
  exacts [List.forall_iff_forall_mem.mp rops0_fresh op h, List.forall_iff_forall_mem.mp rops1_fresh op h, List.forall_iff_forall_mem.mp rops2_fresh op h, List.forall_iff_forall_mem.mp rops3_fresh op h, List.forall_iff_forall_mem.mp rops4_fresh op h, List.forall_iff_forall_mem.mp rops5_fresh op h, List.forall_iff_forall_mem.mp rops6_fresh op h, List.forall_iff_forall_mem.mp rops7_fresh op h, List.forall_iff_forall_mem.mp rops8_fresh op h, List.forall_iff_forall_mem.mp rops9_fresh op h]

/-! ## The run -/

/-- On every device, for any float values, from any memory with zero counters: every weakly fair execution of @main
    terminates, and every TensorCore buffer ends at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      r.2.mem ((c.tc : Thread nD τ).loc b) = StableHlo.after rops (fun b => m ((c : Dev nD), b)) (Proc.devRef .tc b)) :=
  run_seq scopedRefs_eq scopedSems_eq defs main (fun _ => rops) main_eq (fun _ => ops_sub) m ρ (fun _ => rops_fresh)

/-! ## What a window leaves alone

Each operation writes exactly its result buffer, and `ropsK_W` lists the window's result buffers in order: a reference
outside that list keeps its contents through the window. -/

/-- One operation's written buffer is in its window's list: the builder's `writes` is the singleton of its result, found
    in the list by comparing references. -/
local macro "writes_in" : tactic =>
  `(tactic| (simp only [nullary_writes, unary_writes, binary_writes, ternary_writes, reshape_writes, nary_writes,
      Finset.singleton_subset_iff, List.mem_toFinset]; exact List.mem_map_of_mem (by decide)))

set_option maxRecDepth 8192 in
theorem rops0_writes : (rops0 : List (HloOp τ sig (Elt F))).Forall fun op => op.writes ⊆ (rops0_W.map (Proc.devRef (τ := τ) .tc)).toFinset := by
  simp only [List.Forall]; repeat' apply And.intro
  all_goals writes_in
set_option maxRecDepth 8192 in
theorem rops1_writes : (rops1 : List (HloOp τ sig (Elt F))).Forall fun op => op.writes ⊆ (rops1_W.map (Proc.devRef (τ := τ) .tc)).toFinset := by
  simp only [List.Forall]; repeat' apply And.intro
  all_goals writes_in
set_option maxRecDepth 8192 in
theorem rops2_writes : (rops2 : List (HloOp τ sig (Elt F))).Forall fun op => op.writes ⊆ (rops2_W.map (Proc.devRef (τ := τ) .tc)).toFinset := by
  simp only [List.Forall]; repeat' apply And.intro
  all_goals writes_in
set_option maxRecDepth 8192 in
theorem rops3_writes : (rops3 : List (HloOp τ sig (Elt F))).Forall fun op => op.writes ⊆ (rops3_W.map (Proc.devRef (τ := τ) .tc)).toFinset := by
  simp only [List.Forall]; repeat' apply And.intro
  all_goals writes_in
set_option maxRecDepth 8192 in
theorem rops4_writes : (rops4 : List (HloOp τ sig (Elt F))).Forall fun op => op.writes ⊆ (rops4_W.map (Proc.devRef (τ := τ) .tc)).toFinset := by
  simp only [List.Forall]; repeat' apply And.intro
  all_goals writes_in
set_option maxRecDepth 8192 in
theorem rops5_writes : (rops5 : List (HloOp τ sig (Elt F))).Forall fun op => op.writes ⊆ (rops5_W.map (Proc.devRef (τ := τ) .tc)).toFinset := by
  simp only [List.Forall]; repeat' apply And.intro
  all_goals writes_in
set_option maxRecDepth 8192 in
theorem rops6_writes : (rops6 : List (HloOp τ sig (Elt F))).Forall fun op => op.writes ⊆ (rops6_W.map (Proc.devRef (τ := τ) .tc)).toFinset := by
  simp only [List.Forall]; repeat' apply And.intro
  all_goals writes_in
set_option maxRecDepth 8192 in
theorem rops7_writes : (rops7 : List (HloOp τ sig (Elt F))).Forall fun op => op.writes ⊆ (rops7_W.map (Proc.devRef (τ := τ) .tc)).toFinset := by
  simp only [List.Forall]; repeat' apply And.intro
  all_goals writes_in
set_option maxRecDepth 8192 in
theorem rops8_writes : (rops8 : List (HloOp τ sig (Elt F))).Forall fun op => op.writes ⊆ (rops8_W.map (Proc.devRef (τ := τ) .tc)).toFinset := by
  simp only [List.Forall]; repeat' apply And.intro
  all_goals writes_in
set_option maxRecDepth 8192 in
theorem rops9_writes : (rops9 : List (HloOp τ sig (Elt F))).Forall fun op => op.writes ⊆ (rops9_W.map (Proc.devRef (τ := τ) .tc)).toFinset := by
  simp only [List.Forall]; repeat' apply And.intro
  all_goals writes_in

/-- A reference window 0 does not write keeps its contents through it. -/
theorem keep0 (V : Valuation τ sig (Elt F)) (r : Ref sig .tc) (h : r ∉ rops0_W) :
    after rops0 V (Proc.devRef .tc r) = V (Proc.devRef .tc r) :=
  after_of_writes_sub rops0 V rops0_writes h
/-- A reference window 1 does not write keeps its contents through it. -/
theorem keep1 (V : Valuation τ sig (Elt F)) (r : Ref sig .tc) (h : r ∉ rops1_W) :
    after rops1 V (Proc.devRef .tc r) = V (Proc.devRef .tc r) :=
  after_of_writes_sub rops1 V rops1_writes h
/-- A reference window 2 does not write keeps its contents through it. -/
theorem keep2 (V : Valuation τ sig (Elt F)) (r : Ref sig .tc) (h : r ∉ rops2_W) :
    after rops2 V (Proc.devRef .tc r) = V (Proc.devRef .tc r) :=
  after_of_writes_sub rops2 V rops2_writes h
/-- A reference window 3 does not write keeps its contents through it. -/
theorem keep3 (V : Valuation τ sig (Elt F)) (r : Ref sig .tc) (h : r ∉ rops3_W) :
    after rops3 V (Proc.devRef .tc r) = V (Proc.devRef .tc r) :=
  after_of_writes_sub rops3 V rops3_writes h
/-- A reference window 4 does not write keeps its contents through it. -/
theorem keep4 (V : Valuation τ sig (Elt F)) (r : Ref sig .tc) (h : r ∉ rops4_W) :
    after rops4 V (Proc.devRef .tc r) = V (Proc.devRef .tc r) :=
  after_of_writes_sub rops4 V rops4_writes h
/-- A reference window 5 does not write keeps its contents through it. -/
theorem keep5 (V : Valuation τ sig (Elt F)) (r : Ref sig .tc) (h : r ∉ rops5_W) :
    after rops5 V (Proc.devRef .tc r) = V (Proc.devRef .tc r) :=
  after_of_writes_sub rops5 V rops5_writes h
/-- A reference window 6 does not write keeps its contents through it. -/
theorem keep6 (V : Valuation τ sig (Elt F)) (r : Ref sig .tc) (h : r ∉ rops6_W) :
    after rops6 V (Proc.devRef .tc r) = V (Proc.devRef .tc r) :=
  after_of_writes_sub rops6 V rops6_writes h
/-- A reference window 7 does not write keeps its contents through it. -/
theorem keep7 (V : Valuation τ sig (Elt F)) (r : Ref sig .tc) (h : r ∉ rops7_W) :
    after rops7 V (Proc.devRef .tc r) = V (Proc.devRef .tc r) :=
  after_of_writes_sub rops7 V rops7_writes h
/-- A reference window 8 does not write keeps its contents through it. -/
theorem keep8 (V : Valuation τ sig (Elt F)) (r : Ref sig .tc) (h : r ∉ rops8_W) :
    after rops8 V (Proc.devRef .tc r) = V (Proc.devRef .tc r) :=
  after_of_writes_sub rops8 V rops8_writes h
/-- A reference window 9 does not write keeps its contents through it. -/
theorem keep9 (V : Valuation τ sig (Elt F)) (r : Ref sig .tc) (h : r ∉ rops9_W) :
    after rops9 V (Proc.devRef .tc r) = V (Proc.devRef .tc r) :=
  after_of_writes_sub rops9 V rops9_writes h

/-- The fold over the whole line is the windows' folds in turn. -/
theorem after_rops (V : Valuation τ sig (Elt F)) :
    after rops V = after rops9 (after rops8 (after rops7 (after rops6 (after rops5 (after rops4 (after rops3 (after rops2 (after rops1 (after rops0 (V)))))))))) := by
  simp only [rops, after_append]

/-- A reference no window writes keeps its contents through the whole line. -/
theorem keep (V : Valuation τ sig (Elt F)) (r : Ref sig .tc)
    (h0 : r ∉ rops0_W) (h1 : r ∉ rops1_W) (h2 : r ∉ rops2_W) (h3 : r ∉ rops3_W) (h4 : r ∉ rops4_W) (h5 : r ∉ rops5_W) (h6 : r ∉ rops6_W) (h7 : r ∉ rops7_W) (h8 : r ∉ rops8_W) (h9 : r ∉ rops9_W) :
    after rops V (Proc.devRef .tc r) = V (Proc.devRef .tc r) := by
  rw [after_rops, keep9 _ r h9, keep8 _ r h8, keep7 _ r h7, keep6 _ r h6, keep5 _ r h5, keep4 _ r h4, keep3 _ r h3, keep2 _ r h2, keep1 _ r h1, keep0 _ r h0]

/-! ## The arguments are kept -/

theorem after_rops_main_arg0 (V : Valuation τ sig (Elt F)) :
    after rops V (Proc.devRef .tc main_arg0) = V (Proc.devRef .tc main_arg0) :=
  keep V main_arg0 (by decide) (by decide) (by decide) (by decide) (by decide) (by decide) (by decide) (by decide) (by decide) (by decide)
theorem after_rops_main_arg1 (V : Valuation τ sig (Elt F)) :
    after rops V (Proc.devRef .tc main_arg1) = V (Proc.devRef .tc main_arg1) :=
  keep V main_arg1 (by decide) (by decide) (by decide) (by decide) (by decide) (by decide) (by decide) (by decide) (by decide) (by decide)
theorem after_rops_main_arg2 (V : Valuation τ sig (Elt F)) :
    after rops V (Proc.devRef .tc main_arg2) = V (Proc.devRef .tc main_arg2) :=
  keep V main_arg2 (by decide) (by decide) (by decide) (by decide) (by decide) (by decide) (by decide) (by decide) (by decide) (by decide)
theorem after_rops_main_arg3 (V : Valuation τ sig (Elt F)) :
    after rops V (Proc.devRef .tc main_arg3) = V (Proc.devRef .tc main_arg3) :=
  keep V main_arg3 (by decide) (by decide) (by decide) (by decide) (by decide) (by decide) (by decide) (by decide) (by decide) (by decide)
theorem after_rops_main_arg4 (V : Valuation τ sig (Elt F)) :
    after rops V (Proc.devRef .tc main_arg4) = V (Proc.devRef .tc main_arg4) :=
  keep V main_arg4 (by decide) (by decide) (by decide) (by decide) (by decide) (by decide) (by decide) (by decide) (by decide) (by decide)
theorem after_rops_main_arg5 (V : Valuation τ sig (Elt F)) :
    after rops V (Proc.devRef .tc main_arg5) = V (Proc.devRef .tc main_arg5) :=
  keep V main_arg5 (by decide) (by decide) (by decide) (by decide) (by decide) (by decide) (by decide) (by decide) (by decide) (by decide)
theorem after_rops_main_arg6 (V : Valuation τ sig (Elt F)) :
    after rops V (Proc.devRef .tc main_arg6) = V (Proc.devRef .tc main_arg6) :=
  keep V main_arg6 (by decide) (by decide) (by decide) (by decide) (by decide) (by decide) (by decide) (by decide) (by decide) (by decide)
theorem after_rops_main_arg7 (V : Valuation τ sig (Elt F)) :
    after rops V (Proc.devRef .tc main_arg7) = V (Proc.devRef .tc main_arg7) :=
  keep V main_arg7 (by decide) (by decide) (by decide) (by decide) (by decide) (by decide) (by decide) (by decide) (by decide) (by decide)
theorem after_rops_main_arg8 (V : Valuation τ sig (Elt F)) :
    after rops V (Proc.devRef .tc main_arg8) = V (Proc.devRef .tc main_arg8) :=
  keep V main_arg8 (by decide) (by decide) (by decide) (by decide) (by decide) (by decide) (by decide) (by decide) (by decide) (by decide)
theorem after_rops_main_arg9 (V : Valuation τ sig (Elt F)) :
    after rops V (Proc.devRef .tc main_arg9) = V (Proc.devRef .tc main_arg9) :=
  keep V main_arg9 (by decide) (by decide) (by decide) (by decide) (by decide) (by decide) (by decide) (by decide) (by decide) (by decide)
theorem after_rops_main_arg10 (V : Valuation τ sig (Elt F)) :
    after rops V (Proc.devRef .tc main_arg10) = V (Proc.devRef .tc main_arg10) :=
  keep V main_arg10 (by decide) (by decide) (by decide) (by decide) (by decide) (by decide) (by decide) (by decide) (by decide) (by decide)
theorem after_rops_main_arg11 (V : Valuation τ sig (Elt F)) :
    after rops V (Proc.devRef .tc main_arg11) = V (Proc.devRef .tc main_arg11) :=
  keep V main_arg11 (by decide) (by decide) (by decide) (by decide) (by decide) (by decide) (by decide) (by decide) (by decide) (by decide)
theorem after_rops_main_arg12 (V : Valuation τ sig (Elt F)) :
    after rops V (Proc.devRef .tc main_arg12) = V (Proc.devRef .tc main_arg12) :=
  keep V main_arg12 (by decide) (by decide) (by decide) (by decide) (by decide) (by decide) (by decide) (by decide) (by decide) (by decide)
theorem after_rops_main_arg13 (V : Valuation τ sig (Elt F)) :
    after rops V (Proc.devRef .tc main_arg13) = V (Proc.devRef .tc main_arg13) :=
  keep V main_arg13 (by decide) (by decide) (by decide) (by decide) (by decide) (by decide) (by decide) (by decide) (by decide) (by decide)
theorem after_rops_main_arg14 (V : Valuation τ sig (Elt F)) :
    after rops V (Proc.devRef .tc main_arg14) = V (Proc.devRef .tc main_arg14) :=
  keep V main_arg14 (by decide) (by decide) (by decide) (by decide) (by decide) (by decide) (by decide) (by decide) (by decide) (by decide)
theorem after_rops_main_arg15 (V : Valuation τ sig (Elt F)) :
    after rops V (Proc.devRef .tc main_arg15) = V (Proc.devRef .tc main_arg15) :=
  keep V main_arg15 (by decide) (by decide) (by decide) (by decide) (by decide) (by decide) (by decide) (by decide) (by decide) (by decide)
theorem after_rops_main_arg16 (V : Valuation τ sig (Elt F)) :
    after rops V (Proc.devRef .tc main_arg16) = V (Proc.devRef .tc main_arg16) :=
  keep V main_arg16 (by decide) (by decide) (by decide) (by decide) (by decide) (by decide) (by decide) (by decide) (by decide) (by decide)
theorem after_rops_main_arg17 (V : Valuation τ sig (Elt F)) :
    after rops V (Proc.devRef .tc main_arg17) = V (Proc.devRef .tc main_arg17) :=
  keep V main_arg17 (by decide) (by decide) (by decide) (by decide) (by decide) (by decide) (by decide) (by decide) (by decide) (by decide)
theorem after_rops_main_arg18 (V : Valuation τ sig (Elt F)) :
    after rops V (Proc.devRef .tc main_arg18) = V (Proc.devRef .tc main_arg18) :=
  keep V main_arg18 (by decide) (by decide) (by decide) (by decide) (by decide) (by decide) (by decide) (by decide) (by decide) (by decide)

/-- On every device, for any float values, from any memory with zero counters: @main runs to its end and its nineteen
    argument arrays end as they were at launch. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c main_arg0).trans (after_rops_main_arg0 _),
      (h c main_arg1).trans (after_rops_main_arg1 _),
      (h c main_arg2).trans (after_rops_main_arg2 _),
      (h c main_arg3).trans (after_rops_main_arg3 _),
      (h c main_arg4).trans (after_rops_main_arg4 _),
      (h c main_arg5).trans (after_rops_main_arg5 _),
      (h c main_arg6).trans (after_rops_main_arg6 _),
      (h c main_arg7).trans (after_rops_main_arg7 _),
      (h c main_arg8).trans (after_rops_main_arg8 _),
      (h c main_arg9).trans (after_rops_main_arg9 _),
      (h c main_arg10).trans (after_rops_main_arg10 _),
      (h c main_arg11).trans (after_rops_main_arg11 _),
      (h c main_arg12).trans (after_rops_main_arg12 _),
      (h c main_arg13).trans (after_rops_main_arg13 _),
      (h c main_arg14).trans (after_rops_main_arg14 _),
      (h c main_arg15).trans (after_rops_main_arg15 _),
      (h c main_arg16).trans (after_rops_main_arg16 _),
      (h c main_arg17).trans (after_rops_main_arg17 _),
      (h c main_arg18).trans (after_rops_main_arg18 _)⟩)
    (run_all m ρ)

end Cert.ReferenceIdeal.Hand

end
-- ==== Proof.RStage.lean ====
import proofs.«430033_j52948356825731_1_alg».proof.ReferenceIdeal
import Idealize.ShloMosaic.Lib.StableHlo.Run

set_option maxRecDepth 16384

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- Statements of group 1: 5 operations, ending with the one that writes `main_v3`. -/
abbrev rs1 : List (HloOp τ sig (Elt F)) :=
  [ StableHlo.nullary main_cst (fun i => FloatOps.ofBits .f32 (lit0 (S4.rowMajor i))),
    StableHlo.unary main_arg18 main_v0 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v0 main_v1 rfl shapeCasts_S1x200000_S200000,
    StableHlo.unary main_arg18 main_v2 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v2 main_v3 rfl shapeCasts_S1x200000_S200000 ]

set_option maxHeartbeats 40000000 in
/-- Statements of group 2: 122 operations, ending with the one that writes `main_v121`. -/
abbrev rs2 : List (HloOp τ sig (Elt F)) :=
  ( StableHlo.nullary main_c (constantI S_ 32 0#32)
  :: StableHlo.unary main_c main_v4 (broadcastInDim S200000 ![] bcast_S_S200000 : (⟨S_, .i32⟩ : BufTy).Contents (Elt F) → (⟨S200000, .i32⟩ : BufTy).Contents (Elt F))
  :: StableHlo.binary main_v3 main_v4 main_v5 (cmpi .slt : (⟨S200000, .i32⟩ : BufTy).Contents (Elt F) → (⟨S200000, .i32⟩ : BufTy).Contents (Elt F) → (⟨S200000, .i1⟩ : BufTy).Contents (Elt F))
  :: StableHlo.nullary main_c_0 (constantI S_ 32 10000#32)
  :: StableHlo.unary main_c_0 main_v6 (broadcastInDim S200000 ![] bcast_S_S200000 : (⟨S_, .i32⟩ : BufTy).Contents (Elt F) → (⟨S200000, .i32⟩ : BufTy).Contents (Elt F))
  :: StableHlo.binary main_v3 main_v6 main_v7 (addi : (⟨S200000, .i32⟩ : BufTy).Contents (Elt F) → (⟨S200000, .i32⟩ : BufTy).Contents (Elt F) → (⟨S200000, .i32⟩ : BufTy).Contents (Elt F))
  :: StableHlo.ternary main_v5 main_v7 main_v3 main_v8 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v8 main_v9 (broadcastInDim S200000x1 ![0] bcast_S200000_S200000x1_0 : (⟨S200000, .i32⟩ : BufTy).Contents (Elt F) → (⟨S200000x1, .i32⟩ : BufTy).Contents (Elt F))
  :: StableHlo.binary main_arg0 main_v9 main_v10 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.unary main_v10 main_v11 ((extractStridedSlice S200000x1 ![0, 0] · slices_S200000x4_S200000x1_0_0) : (⟨S200000x4, .f32⟩ : BufTy).Contents (Elt F) → (⟨S200000x1, .f32⟩ : BufTy).Contents (Elt F))
  :: StableHlo.unary main_v10 main_v12 ((extractStridedSlice S200000x3 ![0, 1] · slices_S200000x4_S200000x3_0_1) : (⟨S200000x4, .f32⟩ : BufTy).Contents (Elt F) → (⟨S200000x3, .f32⟩ : BufTy).Contents (Elt F))
  :: StableHlo.unary main_v12 main_v13 (Host.negf : (⟨S200000x3, .f32⟩ : BufTy).Contents (Elt F) → (⟨S200000x3, .f32⟩ : BufTy).Contents (Elt F))
  :: StableHlo.binary main_v11 main_v13 main_v14 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F))
  :: StableHlo.unary main_v14 main_v15 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v15 main_v16 rfl shapeCasts_S200000x1_S200000
  :: StableHlo.unary main_v14 main_v17 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v17 main_v18 rfl shapeCasts_S200000x1_S200000
  :: StableHlo.unary main_v14 main_v19 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v19 main_v20 rfl shapeCasts_S200000x1_S200000
  :: StableHlo.unary main_v14 main_v21 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v21 main_v22 rfl shapeCasts_S200000x1_S200000
  :: StableHlo.unary main_arg1 main_v23 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v23 main_v24 rfl shapeCasts_S200000x1_S200000
  :: StableHlo.unary main_arg1 main_v25 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v25 main_v26 rfl shapeCasts_S200000x1_S200000
  :: StableHlo.unary main_arg1 main_v27 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v27 main_v28 rfl shapeCasts_S200000x1_S200000
  :: StableHlo.unary main_arg1 main_v29 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v29 main_v30 rfl shapeCasts_S200000x1_S200000
  :: StableHlo.binary main_v16 main_v24 main_v31 (mulf : (⟨S200000, .f32⟩ : BufTy).Contents (Elt F) → (⟨S200000, .f32⟩ : BufTy).Contents (Elt F) → (⟨S200000, .f32⟩ : BufTy).Contents (Elt F))
  :: StableHlo.binary main_v18 main_v26 main_v32 (mulf : (⟨S200000, .f32⟩ : BufTy).Contents (Elt F) → (⟨S200000, .f32⟩ : BufTy).Contents (Elt F) → (⟨S200000, .f32⟩ : BufTy).Contents (Elt F))
  :: StableHlo.binary main_v31 main_v32 main_v33 (subf : (⟨S200000, .f32⟩ : BufTy).Contents (Elt F) → (⟨S200000, .f32⟩ : BufTy).Contents (Elt F) → (⟨S200000, .f32⟩ : BufTy).Contents (Elt F))
  :: StableHlo.binary main_v20 main_v28 main_v34 (mulf : (⟨S200000, .f32⟩ : BufTy).Contents (Elt F) → (⟨S200000, .f32⟩ : BufTy).Contents (Elt F) → (⟨S200000, .f32⟩ : BufTy).Contents (Elt F))
  :: StableHlo.binary main_v33 main_v34 main_v35 (subf : (⟨S200000, .f32⟩ : BufTy).Contents (Elt F) → (⟨S200000, .f32⟩ : BufTy).Contents (Elt F) → (⟨S200000, .f32⟩ : BufTy).Contents (Elt F))
  :: StableHlo.binary main_v22 main_v30 main_v36 (mulf : (⟨S200000, .f32⟩ : BufTy).Contents (Elt F) → (⟨S200000, .f32⟩ : BufTy).Contents (Elt F) → (⟨S200000, .f32⟩ : BufTy).Contents (Elt F))
  :: StableHlo.binary main_v35 main_v36 main_v37 (subf : (⟨S200000, .f32⟩ : BufTy).Contents (Elt F) → (⟨S200000, .f32⟩ : BufTy).Contents (Elt F) → (⟨S200000, .f32⟩ : BufTy).Contents (Elt F))
  :: StableHlo.binary main_v16 main_v26 main_v38 (mulf : (⟨S200000, .f32⟩ : BufTy).Contents (Elt F) → (⟨S200000, .f32⟩ : BufTy).Contents (Elt F) → (⟨S200000, .f32⟩ : BufTy).Contents (Elt F))
  :: StableHlo.binary main_v18 main_v24 main_v39 (mulf : (⟨S200000, .f32⟩ : BufTy).Contents (Elt F) → (⟨S200000, .f32⟩ : BufTy).Contents (Elt F) → (⟨S200000, .f32⟩ : BufTy).Contents (Elt F))
  :: StableHlo.binary main_v38 main_v39 main_v40 (addf : (⟨S200000, .f32⟩ : BufTy).Contents (Elt F) → (⟨S200000, .f32⟩ : BufTy).Contents (Elt F) → (⟨S200000, .f32⟩ : BufTy).Contents (Elt F))
  :: StableHlo.binary main_v20 main_v30 main_v41 (mulf : (⟨S200000, .f32⟩ : BufTy).Contents (Elt F) → (⟨S200000, .f32⟩ : BufTy).Contents (Elt F) → (⟨S200000, .f32⟩ : BufTy).Contents (Elt F))
  :: StableHlo.binary main_v40 main_v41 main_v42 (addf : (⟨S200000, .f32⟩ : BufTy).Contents (Elt F) → (⟨S200000, .f32⟩ : BufTy).Contents (Elt F) → (⟨S200000, .f32⟩ : BufTy).Contents (Elt F))
  :: StableHlo.binary main_v22 main_v28 main_v43 (mulf : (⟨S200000, .f32⟩ : BufTy).Contents (Elt F) → (⟨S200000, .f32⟩ : BufTy).Contents (Elt F) → (⟨S200000, .f32⟩ : BufTy).Contents (Elt F))
  :: StableHlo.binary main_v42 main_v43 main_v44 (subf : (⟨S200000, .f32⟩ : BufTy).Contents (Elt F) → (⟨S200000, .f32⟩ : BufTy).Contents (Elt F) → (⟨S200000, .f32⟩ : BufTy).Contents (Elt F))
  :: StableHlo.binary main_v16 main_v28 main_v45 (mulf : (⟨S200000, .f32⟩ : BufTy).Contents (Elt F) → (⟨S200000, .f32⟩ : BufTy).Contents (Elt F) → (⟨S200000, .f32⟩ : BufTy).Contents (Elt F))
  :: StableHlo.binary main_v18 main_v30 main_v46 (mulf : (⟨S200000, .f32⟩ : BufTy).Contents (Elt F) → (⟨S200000, .f32⟩ : BufTy).Contents (Elt F) → (⟨S200000, .f32⟩ : BufTy).Contents (Elt F))
  :: StableHlo.binary main_v45 main_v46 main_v47 (subf : (⟨S200000, .f32⟩ : BufTy).Contents (Elt F) → (⟨S200000, .f32⟩ : BufTy).Contents (Elt F) → (⟨S200000, .f32⟩ : BufTy).Contents (Elt F))
  :: StableHlo.binary main_v20 main_v24 main_v48 (mulf : (⟨S200000, .f32⟩ : BufTy).Contents (Elt F) → (⟨S200000, .f32⟩ : BufTy).Contents (Elt F) → (⟨S200000, .f32⟩ : BufTy).Contents (Elt F))
  :: StableHlo.binary main_v47 main_v48 main_v49 (addf : (⟨S200000, .f32⟩ : BufTy).Contents (Elt F) → (⟨S200000, .f32⟩ : BufTy).Contents (Elt F) → (⟨S200000, .f32⟩ : BufTy).Contents (Elt F))
  :: StableHlo.binary main_v22 main_v26 main_v50 (mulf : (⟨S200000, .f32⟩ : BufTy).Contents (Elt F) → (⟨S200000, .f32⟩ : BufTy).Contents (Elt F) → (⟨S200000, .f32⟩ : BufTy).Contents (Elt F))
  :: StableHlo.binary main_v49 main_v50 main_v51 (addf : (⟨S200000, .f32⟩ : BufTy).Contents (Elt F) → (⟨S200000, .f32⟩ : BufTy).Contents (Elt F) → (⟨S200000, .f32⟩ : BufTy).Contents (Elt F))
  :: StableHlo.binary main_v16 main_v30 main_v52 (mulf : (⟨S200000, .f32⟩ : BufTy).Contents (Elt F) → (⟨S200000, .f32⟩ : BufTy).Contents (Elt F) → (⟨S200000, .f32⟩ : BufTy).Contents (Elt F))
  :: StableHlo.binary main_v18 main_v28 main_v53 (mulf : (⟨S200000, .f32⟩ : BufTy).Contents (Elt F) → (⟨S200000, .f32⟩ : BufTy).Contents (Elt F) → (⟨S200000, .f32⟩ : BufTy).Contents (Elt F))
  :: StableHlo.binary main_v52 main_v53 main_v54 (addf : (⟨S200000, .f32⟩ : BufTy).Contents (Elt F) → (⟨S200000, .f32⟩ : BufTy).Contents (Elt F) → (⟨S200000, .f32⟩ : BufTy).Contents (Elt F))
  :: StableHlo.binary main_v20 main_v26 main_v55 (mulf : (⟨S200000, .f32⟩ : BufTy).Contents (Elt F) → (⟨S200000, .f32⟩ : BufTy).Contents (Elt F) → (⟨S200000, .f32⟩ : BufTy).Contents (Elt F))
  :: StableHlo.binary main_v54 main_v55 main_v56 (subf : (⟨S200000, .f32⟩ : BufTy).Contents (Elt F) → (⟨S200000, .f32⟩ : BufTy).Contents (Elt F) → (⟨S200000, .f32⟩ : BufTy).Contents (Elt F))
  :: StableHlo.binary main_v22 main_v24 main_v57 (mulf : (⟨S200000, .f32⟩ : BufTy).Contents (Elt F) → (⟨S200000, .f32⟩ : BufTy).Contents (Elt F) → (⟨S200000, .f32⟩ : BufTy).Contents (Elt F))
  :: StableHlo.binary main_v56 main_v57 main_v58 (addf : (⟨S200000, .f32⟩ : BufTy).Contents (Elt F) → (⟨S200000, .f32⟩ : BufTy).Contents (Elt F) → (⟨S200000, .f32⟩ : BufTy).Contents (Elt F))
  :: StableHlo.unary main_v37 main_v59 (broadcastInDim S200000x1 ![0] bcast_S200000_S200000x1_0 : (⟨S200000, .f32⟩ : BufTy).Contents (Elt F) → (⟨S200000x1, .f32⟩ : BufTy).Contents (Elt F))
  :: StableHlo.unary main_v44 main_v60 (broadcastInDim S200000x1 ![0] bcast_S200000_S200000x1_0 : (⟨S200000, .f32⟩ : BufTy).Contents (Elt F) → (⟨S200000x1, .f32⟩ : BufTy).Contents (Elt F))
  :: StableHlo.unary main_v51 main_v61 (broadcastInDim S200000x1 ![0] bcast_S200000_S200000x1_0 : (⟨S200000, .f32⟩ : BufTy).Contents (Elt F) → (⟨S200000x1, .f32⟩ : BufTy).Contents (Elt F))
  :: StableHlo.unary main_v58 main_v62 (broadcastInDim S200000x1 ![0] bcast_S200000_S200000x1_0 : (⟨S200000, .f32⟩ : BufTy).Contents (Elt F) → (⟨S200000x1, .f32⟩ : BufTy).Contents (Elt F))
  :: StableHlo.nary ![main_v59, main_v60, main_v61, main_v62] main_v63 (fun u => concatenate S200000x4 1 [⟨S200000x1, u 0⟩, ⟨S200000x1, u 1⟩, ⟨S200000x1, u 2⟩, ⟨S200000x1, u 3⟩] concatenates_S200000x1_S200000x1_S200000x1_S200000x1_S200000x4_d1)
  :: StableHlo.nullary main_c_1 (constantI S_ 32 0#32)
  :: StableHlo.unary main_c_1 main_v64 (broadcastInDim S200000 ![] bcast_S_S200000 : (⟨S_, .i32⟩ : BufTy).Contents (Elt F) → (⟨S200000, .i32⟩ : BufTy).Contents (Elt F))
  :: StableHlo.binary main_v1 main_v64 main_v65 (cmpi .slt : (⟨S200000, .i32⟩ : BufTy).Contents (Elt F) → (⟨S200000, .i32⟩ : BufTy).Contents (Elt F) → (⟨S200000, .i1⟩ : BufTy).Contents (Elt F))
  :: StableHlo.nullary main_c_2 (constantI S_ 32 10000#32)
  :: StableHlo.unary main_c_2 main_v66 (broadcastInDim S200000 ![] bcast_S_S200000 : (⟨S_, .i32⟩ : BufTy).Contents (Elt F) → (⟨S200000, .i32⟩ : BufTy).Contents (Elt F))
  :: StableHlo.binary main_v1 main_v66 main_v67 (addi : (⟨S200000, .i32⟩ : BufTy).Contents (Elt F) → (⟨S200000, .i32⟩ : BufTy).Contents (Elt F) → (⟨S200000, .i32⟩ : BufTy).Contents (Elt F))
  :: StableHlo.ternary main_v65 main_v67 main_v1 main_v68 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v68 main_v69 (broadcastInDim S200000x1 ![0] bcast_S200000_S200000x1_0 : (⟨S200000, .i32⟩ : BufTy).Contents (Elt F) → (⟨S200000x1, .i32⟩ : BufTy).Contents (Elt F))
  :: StableHlo.binary main_arg0 main_v69 main_v70 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.unary main_v63 main_v71 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v71 main_v72 rfl shapeCasts_S200000x1_S200000
  :: StableHlo.unary main_v63 main_v73 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v73 main_v74 rfl shapeCasts_S200000x1_S200000
  :: StableHlo.unary main_v63 main_v75 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v75 main_v76 rfl shapeCasts_S200000x1_S200000
  :: StableHlo.unary main_v63 main_v77 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v77 main_v78 rfl shapeCasts_S200000x1_S200000
  :: StableHlo.unary main_v70 main_v79 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v79 main_v80 rfl shapeCasts_S200000x1_S200000
  :: StableHlo.unary main_v70 main_v81 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v81 main_v82 rfl shapeCasts_S200000x1_S200000
  :: StableHlo.unary main_v70 main_v83 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v83 main_v84 rfl shapeCasts_S200000x1_S200000
  :: StableHlo.unary main_v70 main_v85 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v85 main_v86 rfl shapeCasts_S200000x1_S200000
  :: StableHlo.binary main_v72 main_v80 main_v87 (mulf : (⟨S200000, .f32⟩ : BufTy).Contents (Elt F) → (⟨S200000, .f32⟩ : BufTy).Contents (Elt F) → (⟨S200000, .f32⟩ : BufTy).Contents (Elt F))
  :: StableHlo.binary main_v74 main_v82 main_v88 (mulf : (⟨S200000, .f32⟩ : BufTy).Contents (Elt F) → (⟨S200000, .f32⟩ : BufTy).Contents (Elt F) → (⟨S200000, .f32⟩ : BufTy).Contents (Elt F))
  :: StableHlo.binary main_v87 main_v88 main_v89 (subf : (⟨S200000, .f32⟩ : BufTy).Contents (Elt F) → (⟨S200000, .f32⟩ : BufTy).Contents (Elt F) → (⟨S200000, .f32⟩ : BufTy).Contents (Elt F))
  :: StableHlo.binary main_v76 main_v84 main_v90 (mulf : (⟨S200000, .f32⟩ : BufTy).Contents (Elt F) → (⟨S200000, .f32⟩ : BufTy).Contents (Elt F) → (⟨S200000, .f32⟩ : BufTy).Contents (Elt F))
  :: StableHlo.binary main_v89 main_v90 main_v91 (subf : (⟨S200000, .f32⟩ : BufTy).Contents (Elt F) → (⟨S200000, .f32⟩ : BufTy).Contents (Elt F) → (⟨S200000, .f32⟩ : BufTy).Contents (Elt F))
  :: StableHlo.binary main_v78 main_v86 main_v92 (mulf : (⟨S200000, .f32⟩ : BufTy).Contents (Elt F) → (⟨S200000, .f32⟩ : BufTy).Contents (Elt F) → (⟨S200000, .f32⟩ : BufTy).Contents (Elt F))
  :: StableHlo.binary main_v91 main_v92 main_v93 (subf : (⟨S200000, .f32⟩ : BufTy).Contents (Elt F) → (⟨S200000, .f32⟩ : BufTy).Contents (Elt F) → (⟨S200000, .f32⟩ : BufTy).Contents (Elt F))
  :: StableHlo.binary main_v72 main_v82 main_v94 (mulf : (⟨S200000, .f32⟩ : BufTy).Contents (Elt F) → (⟨S200000, .f32⟩ : BufTy).Contents (Elt F) → (⟨S200000, .f32⟩ : BufTy).Contents (Elt F))
  :: StableHlo.binary main_v74 main_v80 main_v95 (mulf : (⟨S200000, .f32⟩ : BufTy).Contents (Elt F) → (⟨S200000, .f32⟩ : BufTy).Contents (Elt F) → (⟨S200000, .f32⟩ : BufTy).Contents (Elt F))
  :: StableHlo.binary main_v94 main_v95 main_v96 (addf : (⟨S200000, .f32⟩ : BufTy).Contents (Elt F) → (⟨S200000, .f32⟩ : BufTy).Contents (Elt F) → (⟨S200000, .f32⟩ : BufTy).Contents (Elt F))
  :: StableHlo.binary main_v76 main_v86 main_v97 (mulf : (⟨S200000, .f32⟩ : BufTy).Contents (Elt F) → (⟨S200000, .f32⟩ : BufTy).Contents (Elt F) → (⟨S200000, .f32⟩ : BufTy).Contents (Elt F))
  :: StableHlo.binary main_v96 main_v97 main_v98 (addf : (⟨S200000, .f32⟩ : BufTy).Contents (Elt F) → (⟨S200000, .f32⟩ : BufTy).Contents (Elt F) → (⟨S200000, .f32⟩ : BufTy).Contents (Elt F))
  :: StableHlo.binary main_v78 main_v84 main_v99 (mulf : (⟨S200000, .f32⟩ : BufTy).Contents (Elt F) → (⟨S200000, .f32⟩ : BufTy).Contents (Elt F) → (⟨S200000, .f32⟩ : BufTy).Contents (Elt F))
  :: StableHlo.binary main_v98 main_v99 main_v100 (subf : (⟨S200000, .f32⟩ : BufTy).Contents (Elt F) → (⟨S200000, .f32⟩ : BufTy).Contents (Elt F) → (⟨S200000, .f32⟩ : BufTy).Contents (Elt F))
  :: StableHlo.binary main_v72 main_v84 main_v101 (mulf : (⟨S200000, .f32⟩ : BufTy).Contents (Elt F) → (⟨S200000, .f32⟩ : BufTy).Contents (Elt F) → (⟨S200000, .f32⟩ : BufTy).Contents (Elt F))
  :: StableHlo.binary main_v74 main_v86 main_v102 (mulf : (⟨S200000, .f32⟩ : BufTy).Contents (Elt F) → (⟨S200000, .f32⟩ : BufTy).Contents (Elt F) → (⟨S200000, .f32⟩ : BufTy).Contents (Elt F))
  :: StableHlo.binary main_v101 main_v102 main_v103 (subf : (⟨S200000, .f32⟩ : BufTy).Contents (Elt F) → (⟨S200000, .f32⟩ : BufTy).Contents (Elt F) → (⟨S200000, .f32⟩ : BufTy).Contents (Elt F))
  :: StableHlo.binary main_v76 main_v80 main_v104 (mulf : (⟨S200000, .f32⟩ : BufTy).Contents (Elt F) → (⟨S200000, .f32⟩ : BufTy).Contents (Elt F) → (⟨S200000, .f32⟩ : BufTy).Contents (Elt F))
  :: StableHlo.binary main_v103 main_v104 main_v105 (addf : (⟨S200000, .f32⟩ : BufTy).Contents (Elt F) → (⟨S200000, .f32⟩ : BufTy).Contents (Elt F) → (⟨S200000, .f32⟩ : BufTy).Contents (Elt F))
  :: StableHlo.binary main_v78 main_v82 main_v106 (mulf : (⟨S200000, .f32⟩ : BufTy).Contents (Elt F) → (⟨S200000, .f32⟩ : BufTy).Contents (Elt F) → (⟨S200000, .f32⟩ : BufTy).Contents (Elt F))
  :: StableHlo.binary main_v105 main_v106 main_v107 (addf : (⟨S200000, .f32⟩ : BufTy).Contents (Elt F) → (⟨S200000, .f32⟩ : BufTy).Contents (Elt F) → (⟨S200000, .f32⟩ : BufTy).Contents (Elt F))
  :: StableHlo.binary main_v72 main_v86 main_v108 (mulf : (⟨S200000, .f32⟩ : BufTy).Contents (Elt F) → (⟨S200000, .f32⟩ : BufTy).Contents (Elt F) → (⟨S200000, .f32⟩ : BufTy).Contents (Elt F))
  :: StableHlo.binary main_v74 main_v84 main_v109 (mulf : (⟨S200000, .f32⟩ : BufTy).Contents (Elt F) → (⟨S200000, .f32⟩ : BufTy).Contents (Elt F) → (⟨S200000, .f32⟩ : BufTy).Contents (Elt F))
  :: StableHlo.binary main_v108 main_v109 main_v110 (addf : (⟨S200000, .f32⟩ : BufTy).Contents (Elt F) → (⟨S200000, .f32⟩ : BufTy).Contents (Elt F) → (⟨S200000, .f32⟩ : BufTy).Contents (Elt F))
  :: StableHlo.binary main_v76 main_v82 main_v111 (mulf : (⟨S200000, .f32⟩ : BufTy).Contents (Elt F) → (⟨S200000, .f32⟩ : BufTy).Contents (Elt F) → (⟨S200000, .f32⟩ : BufTy).Contents (Elt F))
  :: StableHlo.binary main_v110 main_v111 main_v112 (subf : (⟨S200000, .f32⟩ : BufTy).Contents (Elt F) → (⟨S200000, .f32⟩ : BufTy).Contents (Elt F) → (⟨S200000, .f32⟩ : BufTy).Contents (Elt F))
  :: StableHlo.binary main_v78 main_v80 main_v113 (mulf : (⟨S200000, .f32⟩ : BufTy).Contents (Elt F) → (⟨S200000, .f32⟩ : BufTy).Contents (Elt F) → (⟨S200000, .f32⟩ : BufTy).Contents (Elt F))
  :: StableHlo.binary main_v112 main_v113 main_v114 (addf : (⟨S200000, .f32⟩ : BufTy).Contents (Elt F) → (⟨S200000, .f32⟩ : BufTy).Contents (Elt F) → (⟨S200000, .f32⟩ : BufTy).Contents (Elt F))
  :: StableHlo.unary main_v93 main_v115 (broadcastInDim S200000x1 ![0] bcast_S200000_S200000x1_0 : (⟨S200000, .f32⟩ : BufTy).Contents (Elt F) → (⟨S200000x1, .f32⟩ : BufTy).Contents (Elt F))
  :: StableHlo.unary main_v100 main_v116 (broadcastInDim S200000x1 ![0] bcast_S200000_S200000x1_0 : (⟨S200000, .f32⟩ : BufTy).Contents (Elt F) → (⟨S200000x1, .f32⟩ : BufTy).Contents (Elt F))
  :: StableHlo.unary main_v107 main_v117 (broadcastInDim S200000x1 ![0] bcast_S200000_S200000x1_0 : (⟨S200000, .f32⟩ : BufTy).Contents (Elt F) → (⟨S200000x1, .f32⟩ : BufTy).Contents (Elt F))
  :: StableHlo.unary main_v114 main_v118 (broadcastInDim S200000x1 ![0] bcast_S200000_S200000x1_0 : (⟨S200000, .f32⟩ : BufTy).Contents (Elt F) → (⟨S200000x1, .f32⟩ : BufTy).Contents (Elt F))
  :: StableHlo.nary ![main_v115, main_v116, main_v117, main_v118] main_v119 (fun u => concatenate S200000x4 1 [⟨S200000x1, u 0⟩, ⟨S200000x1, u 1⟩, ⟨S200000x1, u 2⟩, ⟨S200000x1, u 3⟩] concatenates_S200000x1_S200000x1_S200000x1_S200000x1_S200000x4_d1)
  :: StableHlo.binary main_arg4 main_arg0 main_v120 ((fun a b => concatenate S10000x132 1 [⟨S10000x128, a⟩, ⟨S10000x4, b⟩] concatenates_S10000x128_S10000x4_S10000x132_d1) : (⟨S10000x128, .f32⟩ : BufTy).Contents (Elt F) → (⟨S10000x4, .f32⟩ : BufTy).Contents (Elt F) → (⟨S10000x132, .f32⟩ : BufTy).Contents (Elt F))
  :: StableHlo.binary main_arg5 main_v119 main_v121 ((fun a b => concatenate S200000x132 1 [⟨S200000x128, a⟩, ⟨S200000x4, b⟩] concatenates_S200000x128_S200000x4_S200000x132_d1) : (⟨S200000x128, .f32⟩ : BufTy).Contents (Elt F) → (⟨S200000x4, .f32⟩ : BufTy).Contents (Elt F) → (⟨S200000x132, .f32⟩ : BufTy).Contents (Elt F))
  :: [])

/-- Statements of group 3: 18 operations, ending with the one that writes `main_v135`. -/
abbrev rs3 : List (HloOp τ sig (Elt F)) :=
  [ StableHlo.nullary main_c_3 (constantI S_ 32 0#32),
    StableHlo.unary main_c_3 main_v122 (broadcastInDim S200000 ![] bcast_S_S200000 : (⟨S_, .i32⟩ : BufTy).Contents (Elt F) → (⟨S200000, .i32⟩ : BufTy).Contents (Elt F)),
    StableHlo.binary main_v1 main_v122 main_v123 (cmpi .slt : (⟨S200000, .i32⟩ : BufTy).Contents (Elt F) → (⟨S200000, .i32⟩ : BufTy).Contents (Elt F) → (⟨S200000, .i1⟩ : BufTy).Contents (Elt F)),
    StableHlo.nullary main_c_4 (constantI S_ 32 10000#32),
    StableHlo.unary main_c_4 main_v124 (broadcastInDim S200000 ![] bcast_S_S200000 : (⟨S_, .i32⟩ : BufTy).Contents (Elt F) → (⟨S200000, .i32⟩ : BufTy).Contents (Elt F)),
    StableHlo.binary main_v1 main_v124 main_v125 (addi : (⟨S200000, .i32⟩ : BufTy).Contents (Elt F) → (⟨S200000, .i32⟩ : BufTy).Contents (Elt F) → (⟨S200000, .i32⟩ : BufTy).Contents (Elt F)),
    StableHlo.ternary main_v123 main_v125 main_v1 main_v126 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v126 main_v127 (broadcastInDim S200000x1 ![0] bcast_S200000_S200000x1_0 : (⟨S200000, .i32⟩ : BufTy).Contents (Elt F) → (⟨S200000x1, .i32⟩ : BufTy).Contents (Elt F)),
    StableHlo.binary main_v120 main_v127 main_v128 ((fun x i => Host.gather gather_S10000x132_S200000x1_S200000x132_1_0_n_n_0_1_1132 x i) : (⟨S10000x132, .f32⟩ : BufTy).Contents (Elt F) → (⟨S200000x1, .i32⟩ : BufTy).Contents (Elt F) → (⟨S200000x132, .f32⟩ : BufTy).Contents (Elt F)),
    StableHlo.nullary main_c_5 (constantI S_ 32 0#32),
    StableHlo.unary main_c_5 main_v129 (broadcastInDim S200000 ![] bcast_S_S200000 : (⟨S_, .i32⟩ : BufTy).Contents (Elt F) → (⟨S200000, .i32⟩ : BufTy).Contents (Elt F)),
    StableHlo.binary main_v3 main_v129 main_v130 (cmpi .slt : (⟨S200000, .i32⟩ : BufTy).Contents (Elt F) → (⟨S200000, .i32⟩ : BufTy).Contents (Elt F) → (⟨S200000, .i1⟩ : BufTy).Contents (Elt F)),
    StableHlo.nullary main_c_6 (constantI S_ 32 10000#32),
    StableHlo.unary main_c_6 main_v131 (broadcastInDim S200000 ![] bcast_S_S200000 : (⟨S_, .i32⟩ : BufTy).Contents (Elt F) → (⟨S200000, .i32⟩ : BufTy).Contents (Elt F)),
    StableHlo.binary main_v3 main_v131 main_v132 (addi : (⟨S200000, .i32⟩ : BufTy).Contents (Elt F) → (⟨S200000, .i32⟩ : BufTy).Contents (Elt F) → (⟨S200000, .i32⟩ : BufTy).Contents (Elt F)),
    StableHlo.ternary main_v130 main_v132 main_v3 main_v133 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v133 main_v134 (broadcastInDim S200000x1 ![0] bcast_S200000_S200000x1_0 : (⟨S200000, .i32⟩ : BufTy).Contents (Elt F) → (⟨S200000x1, .i32⟩ : BufTy).Contents (Elt F)),
    StableHlo.binary main_v120 main_v134 main_v135 ((fun x i => Host.gather gather_S10000x132_S200000x1_S200000x132_1_0_n_n_0_1_1132 x i) : (⟨S10000x132, .f32⟩ : BufTy).Contents (Elt F) → (⟨S200000x1, .i32⟩ : BufTy).Contents (Elt F) → (⟨S200000x132, .f32⟩ : BufTy).Contents (Elt F)) ]

/-- Statements of group 4: 5 operations, ending with the one that writes `main_v140`. -/
abbrev rs4 : List (HloOp τ sig (Elt F)) :=
  [ StableHlo.nary ![main_v128, main_v135, main_v121] main_v136 (fun u => concatenate S200000x396 1 [⟨S200000x132, u 0⟩, ⟨S200000x132, u 1⟩, ⟨S200000x132, u 2⟩] concatenates_S200000x132_S200000x132_S200000x132_S200000x396_d1),
    StableHlo.binary main_v136 main_arg6 main_v137 ((fun l r => Host.dotGeneral dot_S200000x396_S396x128_S200000x128_1_0_0_1_n_n none l r) : (⟨S200000x396, .f32⟩ : BufTy).Contents (Elt F) → (⟨S396x128, .f32⟩ : BufTy).Contents (Elt F) → (⟨S200000x128, .f32⟩ : BufTy).Contents (Elt F)),
    StableHlo.unary main_arg7 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S200000x128 ![0, 1] bcast_S1x128_S200000x128_0_1 : (⟨S1x128, .f32⟩ : BufTy).Contents (Elt F) → (⟨S200000x128, .f32⟩ : BufTy).Contents (Elt F)),
    StableHlo.binary main_v137 main_v139 main_v140 (addf : (⟨S200000x128, .f32⟩ : BufTy).Contents (Elt F) → (⟨S200000x128, .f32⟩ : BufTy).Contents (Elt F) → (⟨S200000x128, .f32⟩ : BufTy).Contents (Elt F)) ]

/-- Statements of group 5: 18 operations, ending with the one that writes `main_v152`. -/
abbrev rs5 : List (HloOp τ sig (Elt F)) :=
  [ StableHlo.nullary main_cst_7 (constant S_ .f32 0x00000000#32),
    StableHlo.unary main_cst_7 main_v141 (broadcastInDim S10000x128 ![] bcast_S_S10000x128 : (⟨S_, .f32⟩ : BufTy).Contents (Elt F) → (⟨S10000x128, .f32⟩ : BufTy).Contents (Elt F)),
    StableHlo.unary main_v1 main_v142 (broadcastInDim S200000x1 ![0] bcast_S200000_S200000x1_0 : (⟨S200000, .i32⟩ : BufTy).Contents (Elt F) → (⟨S200000x1, .i32⟩ : BufTy).Contents (Elt F)),
    StableHlo.ternary main_v141 main_v142 main_v140 main_v143 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    StableHlo.nullary main_cst_8 (constant S_ .f32 0x3F800000#32),
    StableHlo.unary main_cst_8 main_v144 (broadcastInDim S200000x1 ![] bcast_S_S200000x1 : (⟨S_, .f32⟩ : BufTy).Contents (Elt F) → (⟨S200000x1, .f32⟩ : BufTy).Contents (Elt F)),
    StableHlo.nullary main_cst_9 (constant S_ .f32 0x00000000#32),
    StableHlo.unary main_cst_9 main_v145 (broadcastInDim S10000x1 ![] bcast_S_S10000x1 : (⟨S_, .f32⟩ : BufTy).Contents (Elt F) → (⟨S10000x1, .f32⟩ : BufTy).Contents (Elt F)),
    StableHlo.unary main_v1 main_v146 (broadcastInDim S200000x1 ![0] bcast_S200000_S200000x1_0 : (⟨S200000, .i32⟩ : BufTy).Contents (Elt F) → (⟨S200000x1, .i32⟩ : BufTy).Contents (Elt F)),
    StableHlo.ternary main_v145 main_v146 main_v144 main_v147 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    StableHlo.nullary main_cst_10 (constant S_ .f32 0x3F800000#32),
    StableHlo.unary main_cst_10 main_v148 (broadcastInDim S10000x1 ![] bcast_S_S10000x1 : (⟨S_, .f32⟩ : BufTy).Contents (Elt F) → (⟨S10000x1, .f32⟩ : BufTy).Contents (Elt F)),
    StableHlo.binary main_v147 main_v148 main_v149 (maximumf : (⟨S10000x1, .f32⟩ : BufTy).Contents (Elt F) → (⟨S10000x1, .f32⟩ : BufTy).Contents (Elt F) → (⟨S10000x1, .f32⟩ : BufTy).Contents (Elt F)),
    StableHlo.unary main_v149 main_v150 (broadcastInDim S10000x128 ![0, 1] bcast_S10000x1_S10000x128_0_1 : (⟨S10000x1, .f32⟩ : BufTy).Contents (Elt F) → (⟨S10000x128, .f32⟩ : BufTy).Contents (Elt F)),
    StableHlo.binary main_v143 main_v150 main_v151 (Host.divf : (⟨S10000x128, .f32⟩ : BufTy).Contents (Elt F) → (⟨S10000x128, .f32⟩ : BufTy).Contents (Elt F) → (⟨S10000x128, .f32⟩ : BufTy).Contents (Elt F)),
    StableHlo.TRef.nullary main_call0.cst (constant S_ .f32 0x00000000#32),
    StableHlo.TRef.unary main_call0.cst main_call0.v0 (broadcastInDim S10000x128 ![] bcast_S_S10000x128),
    StableHlo.TRef.binary (.of main_v151 : StableHlo.TRef sig ⟨S10000x128, .f32⟩) main_call0.v0 main_call0.v1 maximumf ]

/-- Statements of group 6: 3 operations, ending with the one that writes `main_v153`. -/
abbrev rs6 : List (HloOp τ sig (Elt F)) :=
  [ StableHlo.TRef.nullary main_call1.cst (constant S_ .f32 0x00000000#32),
    StableHlo.TRef.unary main_call1.cst main_call1.v0 (broadcastInDim S200000x128 ![] bcast_S_S200000x128),
    StableHlo.TRef.binary (.of main_v140 : StableHlo.TRef sig ⟨S200000x128, .f32⟩) main_call1.v0 main_call1.v1 maximumf ]

/-- Statements of group 7: 1 operations, ending with the one that writes `main_v154`. -/
abbrev rs7 : List (HloOp τ sig (Elt F)) :=
  [ StableHlo.binary main_v119 main_v153 main_v154 ((fun a b => concatenate S200000x132 1 [⟨S200000x4, a⟩, ⟨S200000x128, b⟩] concatenates_S200000x4_S200000x128_S200000x132_d1) : (⟨S200000x4, .f32⟩ : BufTy).Contents (Elt F) → (⟨S200000x128, .f32⟩ : BufTy).Contents (Elt F) → (⟨S200000x132, .f32⟩ : BufTy).Contents (Elt F)) ]

/-- Statements of group 8: 18 operations, ending with the one that writes `main_v168`. -/
abbrev rs8 : List (HloOp τ sig (Elt F)) :=
  [ StableHlo.nullary main_c_11 (constantI S_ 32 0#32),
    StableHlo.unary main_c_11 main_v155 (broadcastInDim S200000 ![] bcast_S_S200000 : (⟨S_, .i32⟩ : BufTy).Contents (Elt F) → (⟨S200000, .i32⟩ : BufTy).Contents (Elt F)),
    StableHlo.binary main_v1 main_v155 main_v156 (cmpi .slt : (⟨S200000, .i32⟩ : BufTy).Contents (Elt F) → (⟨S200000, .i32⟩ : BufTy).Contents (Elt F) → (⟨S200000, .i1⟩ : BufTy).Contents (Elt F)),
    StableHlo.nullary main_c_12 (constantI S_ 32 10000#32),
    StableHlo.unary main_c_12 main_v157 (broadcastInDim S200000 ![] bcast_S_S200000 : (⟨S_, .i32⟩ : BufTy).Contents (Elt F) → (⟨S200000, .i32⟩ : BufTy).Contents (Elt F)),
    StableHlo.binary main_v1 main_v157 main_v158 (addi : (⟨S200000, .i32⟩ : BufTy).Contents (Elt F) → (⟨S200000, .i32⟩ : BufTy).Contents (Elt F) → (⟨S200000, .i32⟩ : BufTy).Contents (Elt F)),
    StableHlo.ternary main_v156 main_v158 main_v1 main_v159 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v159 main_v160 (broadcastInDim S200000x1 ![0] bcast_S200000_S200000x1_0 : (⟨S200000, .i32⟩ : BufTy).Contents (Elt F) → (⟨S200000x1, .i32⟩ : BufTy).Contents (Elt F)),
    StableHlo.binary main_v152 main_v160 main_v161 ((fun x i => Host.gather gather_S10000x128_S200000x1_S200000x128_1_0_n_n_0_1_1128 x i) : (⟨S10000x128, .f32⟩ : BufTy).Contents (Elt F) → (⟨S200000x1, .i32⟩ : BufTy).Contents (Elt F) → (⟨S200000x128, .f32⟩ : BufTy).Contents (Elt F)),
    StableHlo.nullary main_c_13 (constantI S_ 32 0#32),
    StableHlo.unary main_c_13 main_v162 (broadcastInDim S200000 ![] bcast_S_S200000 : (⟨S_, .i32⟩ : BufTy).Contents (Elt F) → (⟨S200000, .i32⟩ : BufTy).Contents (Elt F)),
    StableHlo.binary main_v3 main_v162 main_v163 (cmpi .slt : (⟨S200000, .i32⟩ : BufTy).Contents (Elt F) → (⟨S200000, .i32⟩ : BufTy).Contents (Elt F) → (⟨S200000, .i1⟩ : BufTy).Contents (Elt F)),
    StableHlo.nullary main_c_14 (constantI S_ 32 10000#32),
    StableHlo.unary main_c_14 main_v164 (broadcastInDim S200000 ![] bcast_S_S200000 : (⟨S_, .i32⟩ : BufTy).Contents (Elt F) → (⟨S200000, .i32⟩ : BufTy).Contents (Elt F)),
    StableHlo.binary main_v3 main_v164 main_v165 (addi : (⟨S200000, .i32⟩ : BufTy).Contents (Elt F) → (⟨S200000, .i32⟩ : BufTy).Contents (Elt F) → (⟨S200000, .i32⟩ : BufTy).Contents (Elt F)),
    StableHlo.ternary main_v163 main_v165 main_v3 main_v166 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v166 main_v167 (broadcastInDim S200000x1 ![0] bcast_S200000_S200000x1_0 : (⟨S200000, .i32⟩ : BufTy).Contents (Elt F) → (⟨S200000x1, .i32⟩ : BufTy).Contents (Elt F)),
    StableHlo.binary main_v152 main_v167 main_v168 ((fun x i => Host.gather gather_S10000x128_S200000x1_S200000x128_1_0_n_n_0_1_1128 x i) : (⟨S10000x128, .f32⟩ : BufTy).Contents (Elt F) → (⟨S200000x1, .i32⟩ : BufTy).Contents (Elt F) → (⟨S200000x128, .f32⟩ : BufTy).Contents (Elt F)) ]

/-- Statements of group 9: 5 operations, ending with the one that writes `main_v173`. -/
abbrev rs9 : List (HloOp τ sig (Elt F)) :=
  [ StableHlo.nary ![main_v161, main_v168, main_v154] main_v169 (fun u => concatenate S200000x388 1 [⟨S200000x128, u 0⟩, ⟨S200000x128, u 1⟩, ⟨S200000x132, u 2⟩] concatenates_S200000x128_S200000x128_S200000x132_S200000x388_d1),
    StableHlo.binary main_v169 main_arg8 main_v170 ((fun l r => Host.dotGeneral dot_S200000x388_S388x128_S200000x128_1_0_0_1_n_n none l r) : (⟨S200000x388, .f32⟩ : BufTy).Contents (Elt F) → (⟨S388x128, .f32⟩ : BufTy).Contents (Elt F) → (⟨S200000x128, .f32⟩ : BufTy).Contents (Elt F)),
    StableHlo.unary main_arg9 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S200000x128 ![0, 1] bcast_S1x128_S200000x128_0_1 : (⟨S1x128, .f32⟩ : BufTy).Contents (Elt F) → (⟨S200000x128, .f32⟩ : BufTy).Contents (Elt F)),
    StableHlo.binary main_v170 main_v172 main_v173 (addf : (⟨S200000x128, .f32⟩ : BufTy).Contents (Elt F) → (⟨S200000x128, .f32⟩ : BufTy).Contents (Elt F) → (⟨S200000x128, .f32⟩ : BufTy).Contents (Elt F)) ]

/-- Statements of group 10: 18 operations, ending with the one that writes `main_v185`. -/
abbrev rs10 : List (HloOp τ sig (Elt F)) :=
  [ StableHlo.nullary main_cst_15 (constant S_ .f32 0x00000000#32),
    StableHlo.unary main_cst_15 main_v174 (broadcastInDim S10000x128 ![] bcast_S_S10000x128 : (⟨S_, .f32⟩ : BufTy).Contents (Elt F) → (⟨S10000x128, .f32⟩ : BufTy).Contents (Elt F)),
    StableHlo.unary main_v1 main_v175 (broadcastInDim S200000x1 ![0] bcast_S200000_S200000x1_0 : (⟨S200000, .i32⟩ : BufTy).Contents (Elt F) → (⟨S200000x1, .i32⟩ : BufTy).Contents (Elt F)),
    StableHlo.ternary main_v174 main_v175 main_v173 main_v176 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    StableHlo.nullary main_cst_16 (constant S_ .f32 0x3F800000#32),
    StableHlo.unary main_cst_16 main_v177 (broadcastInDim S200000x1 ![] bcast_S_S200000x1 : (⟨S_, .f32⟩ : BufTy).Contents (Elt F) → (⟨S200000x1, .f32⟩ : BufTy).Contents (Elt F)),
    StableHlo.nullary main_cst_17 (constant S_ .f32 0x00000000#32),
    StableHlo.unary main_cst_17 main_v178 (broadcastInDim S10000x1 ![] bcast_S_S10000x1 : (⟨S_, .f32⟩ : BufTy).Contents (Elt F) → (⟨S10000x1, .f32⟩ : BufTy).Contents (Elt F)),
    StableHlo.unary main_v1 main_v179 (broadcastInDim S200000x1 ![0] bcast_S200000_S200000x1_0 : (⟨S200000, .i32⟩ : BufTy).Contents (Elt F) → (⟨S200000x1, .i32⟩ : BufTy).Contents (Elt F)),
    StableHlo.ternary main_v178 main_v179 main_v177 main_v180 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    StableHlo.nullary main_cst_18 (constant S_ .f32 0x3F800000#32),
    StableHlo.unary main_cst_18 main_v181 (broadcastInDim S10000x1 ![] bcast_S_S10000x1 : (⟨S_, .f32⟩ : BufTy).Contents (Elt F) → (⟨S10000x1, .f32⟩ : BufTy).Contents (Elt F)),
    StableHlo.binary main_v180 main_v181 main_v182 (maximumf : (⟨S10000x1, .f32⟩ : BufTy).Contents (Elt F) → (⟨S10000x1, .f32⟩ : BufTy).Contents (Elt F) → (⟨S10000x1, .f32⟩ : BufTy).Contents (Elt F)),
    StableHlo.unary main_v182 main_v183 (broadcastInDim S10000x128 ![0, 1] bcast_S10000x1_S10000x128_0_1 : (⟨S10000x1, .f32⟩ : BufTy).Contents (Elt F) → (⟨S10000x128, .f32⟩ : BufTy).Contents (Elt F)),
    StableHlo.binary main_v176 main_v183 main_v184 (Host.divf : (⟨S10000x128, .f32⟩ : BufTy).Contents (Elt F) → (⟨S10000x128, .f32⟩ : BufTy).Contents (Elt F) → (⟨S10000x128, .f32⟩ : BufTy).Contents (Elt F)),
    StableHlo.TRef.nullary main_call2.cst (constant S_ .f32 0x00000000#32),
    StableHlo.TRef.unary main_call2.cst main_call2.v0 (broadcastInDim S10000x128 ![] bcast_S_S10000x128),
    StableHlo.TRef.binary (.of main_v184 : StableHlo.TRef sig ⟨S10000x128, .f32⟩) main_call2.v0 main_call2.v1 maximumf ]

/-- Statements of group 11: 3 operations, ending with the one that writes `main_v186`. -/
abbrev rs11 : List (HloOp τ sig (Elt F)) :=
  [ StableHlo.TRef.nullary main_call3.cst (constant S_ .f32 0x00000000#32),
    StableHlo.TRef.unary main_call3.cst main_call3.v0 (broadcastInDim S200000x128 ![] bcast_S_S200000x128),
    StableHlo.TRef.binary (.of main_v173 : StableHlo.TRef sig ⟨S200000x128, .f32⟩) main_call3.v0 main_call3.v1 maximumf ]

/-- Statements of group 12: 2 operations, ending with the one that writes `main_v188`. -/
abbrev rs12 : List (HloOp τ sig (Elt F)) :=
  [ StableHlo.binary main_v185 main_v152 main_v187 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.binary main_v186 main_v153 main_v188 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)) ]

/-- Statements of group 13: 18 operations, ending with the one that writes `main_v202`. -/
abbrev rs13 : List (HloOp τ sig (Elt F)) :=
  [ StableHlo.nullary main_c_19 (constantI S_ 32 0#32),
    StableHlo.unary main_c_19 main_v189 (broadcastInDim S200000 ![] bcast_S_S200000 : (⟨S_, .i32⟩ : BufTy).Contents (Elt F) → (⟨S200000, .i32⟩ : BufTy).Contents (Elt F)),
    StableHlo.binary main_v1 main_v189 main_v190 (cmpi .slt : (⟨S200000, .i32⟩ : BufTy).Contents (Elt F) → (⟨S200000, .i32⟩ : BufTy).Contents (Elt F) → (⟨S200000, .i1⟩ : BufTy).Contents (Elt F)),
    StableHlo.nullary main_c_20 (constantI S_ 32 10000#32),
    StableHlo.unary main_c_20 main_v191 (broadcastInDim S200000 ![] bcast_S_S200000 : (⟨S_, .i32⟩ : BufTy).Contents (Elt F) → (⟨S200000, .i32⟩ : BufTy).Contents (Elt F)),
    StableHlo.binary main_v1 main_v191 main_v192 (addi : (⟨S200000, .i32⟩ : BufTy).Contents (Elt F) → (⟨S200000, .i32⟩ : BufTy).Contents (Elt F) → (⟨S200000, .i32⟩ : BufTy).Contents (Elt F)),
    StableHlo.ternary main_v190 main_v192 main_v1 main_v193 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v193 main_v194 (broadcastInDim S200000x1 ![0] bcast_S200000_S200000x1_0 : (⟨S200000, .i32⟩ : BufTy).Contents (Elt F) → (⟨S200000x1, .i32⟩ : BufTy).Contents (Elt F)),
    StableHlo.binary main_v187 main_v194 main_v195 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)),
    StableHlo.nullary main_c_21 (constantI S_ 32 0#32),
    StableHlo.unary main_c_21 main_v196 (broadcastInDim S200000 ![] bcast_S_S200000 : (⟨S_, .i32⟩ : BufTy).Contents (Elt F) → (⟨S200000, .i32⟩ : BufTy).Contents (Elt F)),
    StableHlo.binary main_v3 main_v196 main_v197 (cmpi .slt : (⟨S200000, .i32⟩ : BufTy).Contents (Elt F) → (⟨S200000, .i32⟩ : BufTy).Contents (Elt F) → (⟨S200000, .i1⟩ : BufTy).Contents (Elt F)),
    StableHlo.nullary main_c_22 (constantI S_ 32 10000#32),
    StableHlo.unary main_c_22 main_v198 (broadcastInDim S200000 ![] bcast_S_S200000 : (⟨S_, .i32⟩ : BufTy).Contents (Elt F) → (⟨S200000, .i32⟩ : BufTy).Contents (Elt F)),
    StableHlo.binary main_v3 main_v198 main_v199 (addi : (⟨S200000, .i32⟩ : BufTy).Contents (Elt F) → (⟨S200000, .i32⟩ : BufTy).Contents (Elt F) → (⟨S200000, .i32⟩ : BufTy).Contents (Elt F)),
    StableHlo.ternary main_v197 main_v199 main_v3 main_v200 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v200 main_v201 (broadcastInDim S200000x1 ![0] bcast_S200000_S200000x1_0 : (⟨S200000, .i32⟩ : BufTy).Contents (Elt F) → (⟨S200000x1, .i32⟩ : BufTy).Contents (Elt F)),
    StableHlo.binary main_v187 main_v201 main_v202 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)) ]

/-- Statements of group 14: 5 operations, ending with the one that writes `main_v207`. -/
abbrev rs14 : List (HloOp τ sig (Elt F)) :=
  [ StableHlo.nary ![main_v195, main_v202, main_v188] main_v203 (fun u => concatenate S200000x768 1 [⟨S200000x256, u 0⟩, ⟨S200000x256, u 1⟩, ⟨S200000x256, u 2⟩] concatenates_S200000x256_S200000x256_S200000x256_S200000x768_d1),
    StableHlo.binary main_v203 main_arg10 main_v204 ((fun l r => Host.dotGeneral dot_S200000x768_S768x128_S200000x128_1_0_0_1_n_n none l r) : (⟨S200000x768, .f32⟩ : BufTy).Contents (Elt F) → (⟨S768x128, .f32⟩ : BufTy).Contents (Elt F) → (⟨S200000x128, .f32⟩ : BufTy).Contents (Elt F)),
    StableHlo.unary main_arg11 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S200000x128 ![0, 1] bcast_S1x128_S200000x128_0_1 : (⟨S1x128, .f32⟩ : BufTy).Contents (Elt F) → (⟨S200000x128, .f32⟩ : BufTy).Contents (Elt F)),
    StableHlo.binary main_v204 main_v206 main_v207 (addf : (⟨S200000x128, .f32⟩ : BufTy).Contents (Elt F) → (⟨S200000x128, .f32⟩ : BufTy).Contents (Elt F) → (⟨S200000x128, .f32⟩ : BufTy).Contents (Elt F)) ]

/-- Statements of group 15: 18 operations, ending with the one that writes `main_v219`. -/
abbrev rs15 : List (HloOp τ sig (Elt F)) :=
  [ StableHlo.nullary main_cst_23 (constant S_ .f32 0x00000000#32),
    StableHlo.unary main_cst_23 main_v208 (broadcastInDim S10000x128 ![] bcast_S_S10000x128 : (⟨S_, .f32⟩ : BufTy).Contents (Elt F) → (⟨S10000x128, .f32⟩ : BufTy).Contents (Elt F)),
    StableHlo.unary main_v1 main_v209 (broadcastInDim S200000x1 ![0] bcast_S200000_S200000x1_0 : (⟨S200000, .i32⟩ : BufTy).Contents (Elt F) → (⟨S200000x1, .i32⟩ : BufTy).Contents (Elt F)),
    StableHlo.ternary main_v208 main_v209 main_v207 main_v210 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    StableHlo.nullary main_cst_24 (constant S_ .f32 0x3F800000#32),
    StableHlo.unary main_cst_24 main_v211 (broadcastInDim S200000x1 ![] bcast_S_S200000x1 : (⟨S_, .f32⟩ : BufTy).Contents (Elt F) → (⟨S200000x1, .f32⟩ : BufTy).Contents (Elt F)),
    StableHlo.nullary main_cst_25 (constant S_ .f32 0x00000000#32),
    StableHlo.unary main_cst_25 main_v212 (broadcastInDim S10000x1 ![] bcast_S_S10000x1 : (⟨S_, .f32⟩ : BufTy).Contents (Elt F) → (⟨S10000x1, .f32⟩ : BufTy).Contents (Elt F)),
    StableHlo.unary main_v1 main_v213 (broadcastInDim S200000x1 ![0] bcast_S200000_S200000x1_0 : (⟨S200000, .i32⟩ : BufTy).Contents (Elt F) → (⟨S200000x1, .i32⟩ : BufTy).Contents (Elt F)),
    StableHlo.ternary main_v212 main_v213 main_v211 main_v214 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    StableHlo.nullary main_cst_26 (constant S_ .f32 0x3F800000#32),
    StableHlo.unary main_cst_26 main_v215 (broadcastInDim S10000x1 ![] bcast_S_S10000x1 : (⟨S_, .f32⟩ : BufTy).Contents (Elt F) → (⟨S10000x1, .f32⟩ : BufTy).Contents (Elt F)),
    StableHlo.binary main_v214 main_v215 main_v216 (maximumf : (⟨S10000x1, .f32⟩ : BufTy).Contents (Elt F) → (⟨S10000x1, .f32⟩ : BufTy).Contents (Elt F) → (⟨S10000x1, .f32⟩ : BufTy).Contents (Elt F)),
    StableHlo.unary main_v216 main_v217 (broadcastInDim S10000x128 ![0, 1] bcast_S10000x1_S10000x128_0_1 : (⟨S10000x1, .f32⟩ : BufTy).Contents (Elt F) → (⟨S10000x128, .f32⟩ : BufTy).Contents (Elt F)),
    StableHlo.binary main_v210 main_v217 main_v218 (Host.divf : (⟨S10000x128, .f32⟩ : BufTy).Contents (Elt F) → (⟨S10000x128, .f32⟩ : BufTy).Contents (Elt F) → (⟨S10000x128, .f32⟩ : BufTy).Contents (Elt F)),
    StableHlo.TRef.nullary main_call4.cst (constant S_ .f32 0x00000000#32),
    StableHlo.TRef.unary main_call4.cst main_call4.v0 (broadcastInDim S10000x128 ![] bcast_S_S10000x128),
    StableHlo.TRef.binary (.of main_v218 : StableHlo.TRef sig ⟨S10000x128, .f32⟩) main_call4.v0 main_call4.v1 maximumf ]

/-- Statements of group 16: 3 operations, ending with the one that writes `main_v220`. -/
abbrev rs16 : List (HloOp τ sig (Elt F)) :=
  [ StableHlo.TRef.nullary main_call5.cst (constant S_ .f32 0x00000000#32),
    StableHlo.TRef.unary main_call5.cst main_call5.v0 (broadcastInDim S200000x128 ![] bcast_S_S200000x128),
    StableHlo.TRef.binary (.of main_v207 : StableHlo.TRef sig ⟨S200000x128, .f32⟩) main_call5.v0 main_call5.v1 maximumf ]

/-- Statements of group 17: 2 operations, ending with the one that writes `main_v222`. -/
abbrev rs17 : List (HloOp τ sig (Elt F)) :=
  [ StableHlo.binary main_v219 main_v185 main_v221 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.binary main_v220 main_v186 main_v222 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)) ]

/-- Statements of group 18: 18 operations, ending with the one that writes `main_v236`. -/
abbrev rs18 : List (HloOp τ sig (Elt F)) :=
  [ StableHlo.nullary main_c_27 (constantI S_ 32 0#32),
    StableHlo.unary main_c_27 main_v223 (broadcastInDim S200000 ![] bcast_S_S200000 : (⟨S_, .i32⟩ : BufTy).Contents (Elt F) → (⟨S200000, .i32⟩ : BufTy).Contents (Elt F)),
    StableHlo.binary main_v1 main_v223 main_v224 (cmpi .slt : (⟨S200000, .i32⟩ : BufTy).Contents (Elt F) → (⟨S200000, .i32⟩ : BufTy).Contents (Elt F) → (⟨S200000, .i1⟩ : BufTy).Contents (Elt F)),
    StableHlo.nullary main_c_28 (constantI S_ 32 10000#32),
    StableHlo.unary main_c_28 main_v225 (broadcastInDim S200000 ![] bcast_S_S200000 : (⟨S_, .i32⟩ : BufTy).Contents (Elt F) → (⟨S200000, .i32⟩ : BufTy).Contents (Elt F)),
    StableHlo.binary main_v1 main_v225 main_v226 (addi : (⟨S200000, .i32⟩ : BufTy).Contents (Elt F) → (⟨S200000, .i32⟩ : BufTy).Contents (Elt F) → (⟨S200000, .i32⟩ : BufTy).Contents (Elt F)),
    StableHlo.ternary main_v224 main_v226 main_v1 main_v227 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v227 main_v228 (broadcastInDim S200000x1 ![0] bcast_S200000_S200000x1_0 : (⟨S200000, .i32⟩ : BufTy).Contents (Elt F) → (⟨S200000x1, .i32⟩ : BufTy).Contents (Elt F)),
    StableHlo.binary main_v221 main_v228 main_v229 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)),
    StableHlo.nullary main_c_29 (constantI S_ 32 0#32),
    StableHlo.unary main_c_29 main_v230 (broadcastInDim S200000 ![] bcast_S_S200000 : (⟨S_, .i32⟩ : BufTy).Contents (Elt F) → (⟨S200000, .i32⟩ : BufTy).Contents (Elt F)),
    StableHlo.binary main_v3 main_v230 main_v231 (cmpi .slt : (⟨S200000, .i32⟩ : BufTy).Contents (Elt F) → (⟨S200000, .i32⟩ : BufTy).Contents (Elt F) → (⟨S200000, .i1⟩ : BufTy).Contents (Elt F)),
    StableHlo.nullary main_c_30 (constantI S_ 32 10000#32),
    StableHlo.unary main_c_30 main_v232 (broadcastInDim S200000 ![] bcast_S_S200000 : (⟨S_, .i32⟩ : BufTy).Contents (Elt F) → (⟨S200000, .i32⟩ : BufTy).Contents (Elt F)),
    StableHlo.binary main_v3 main_v232 main_v233 (addi : (⟨S200000, .i32⟩ : BufTy).Contents (Elt F) → (⟨S200000, .i32⟩ : BufTy).Contents (Elt F) → (⟨S200000, .i32⟩ : BufTy).Contents (Elt F)),
    StableHlo.ternary main_v231 main_v233 main_v3 main_v234 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v234 main_v235 (broadcastInDim S200000x1 ![0] bcast_S200000_S200000x1_0 : (⟨S200000, .i32⟩ : BufTy).Contents (Elt F) → (⟨S200000x1, .i32⟩ : BufTy).Contents (Elt F)),
    StableHlo.binary main_v221 main_v235 main_v236 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)) ]

/-- Statements of group 19: 5 operations, ending with the one that writes `main_v241`. -/
abbrev rs19 : List (HloOp τ sig (Elt F)) :=
  [ StableHlo.nary ![main_v229, main_v236, main_v222] main_v237 (fun u => concatenate S200000x768 1 [⟨S200000x256, u 0⟩, ⟨S200000x256, u 1⟩, ⟨S200000x256, u 2⟩] concatenates_S200000x256_S200000x256_S200000x256_S200000x768_d1),
    StableHlo.binary main_v237 main_arg12 main_v238 ((fun l r => Host.dotGeneral dot_S200000x768_S768x128_S200000x128_1_0_0_1_n_n none l r) : (⟨S200000x768, .f32⟩ : BufTy).Contents (Elt F) → (⟨S768x128, .f32⟩ : BufTy).Contents (Elt F) → (⟨S200000x128, .f32⟩ : BufTy).Contents (Elt F)),
    StableHlo.unary main_arg13 main_v239 (broadcastInDim S1x128 ![1] bcast_S128_S1x128_1 : (⟨S128, .f32⟩ : BufTy).Contents (Elt F) → (⟨S1x128, .f32⟩ : BufTy).Contents (Elt F)),
    StableHlo.unary main_v239 main_v240 (broadcastInDim S200000x128 ![0, 1] bcast_S1x128_S200000x128_0_1 : (⟨S1x128, .f32⟩ : BufTy).Contents (Elt F) → (⟨S200000x128, .f32⟩ : BufTy).Contents (Elt F)),
    StableHlo.binary main_v238 main_v240 main_v241 (addf : (⟨S200000x128, .f32⟩ : BufTy).Contents (Elt F) → (⟨S200000x128, .f32⟩ : BufTy).Contents (Elt F) → (⟨S200000x128, .f32⟩ : BufTy).Contents (Elt F)) ]

/-- Statements of group 20: 18 operations, ending with the one that writes `main_v253`. -/
abbrev rs20 : List (HloOp τ sig (Elt F)) :=
  [ StableHlo.nullary main_cst_31 (constant S_ .f32 0x00000000#32),
    StableHlo.unary main_cst_31 main_v242 (broadcastInDim S10000x128 ![] bcast_S_S10000x128 : (⟨S_, .f32⟩ : BufTy).Contents (Elt F) → (⟨S10000x128, .f32⟩ : BufTy).Contents (Elt F)),
    StableHlo.unary main_v1 main_v243 (broadcastInDim S200000x1 ![0] bcast_S200000_S200000x1_0 : (⟨S200000, .i32⟩ : BufTy).Contents (Elt F) → (⟨S200000x1, .i32⟩ : BufTy).Contents (Elt F)),
    StableHlo.ternary main_v242 main_v243 main_v241 main_v244 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    StableHlo.nullary main_cst_32 (constant S_ .f32 0x3F800000#32),
    StableHlo.unary main_cst_32 main_v245 (broadcastInDim S200000x1 ![] bcast_S_S200000x1 : (⟨S_, .f32⟩ : BufTy).Contents (Elt F) → (⟨S200000x1, .f32⟩ : BufTy).Contents (Elt F)),
    StableHlo.nullary main_cst_33 (constant S_ .f32 0x00000000#32),
    StableHlo.unary main_cst_33 main_v246 (broadcastInDim S10000x1 ![] bcast_S_S10000x1 : (⟨S_, .f32⟩ : BufTy).Contents (Elt F) → (⟨S10000x1, .f32⟩ : BufTy).Contents (Elt F)),
    StableHlo.unary main_v1 main_v247 (broadcastInDim S200000x1 ![0] bcast_S200000_S200000x1_0 : (⟨S200000, .i32⟩ : BufTy).Contents (Elt F) → (⟨S200000x1, .i32⟩ : BufTy).Contents (Elt F)),
    StableHlo.ternary main_v246 main_v247 main_v245 main_v248 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    StableHlo.nullary main_cst_34 (constant S_ .f32 0x3F800000#32),
    StableHlo.unary main_cst_34 main_v249 (broadcastInDim S10000x1 ![] bcast_S_S10000x1 : (⟨S_, .f32⟩ : BufTy).Contents (Elt F) → (⟨S10000x1, .f32⟩ : BufTy).Contents (Elt F)),
    StableHlo.binary main_v248 main_v249 main_v250 (maximumf : (⟨S10000x1, .f32⟩ : BufTy).Contents (Elt F) → (⟨S10000x1, .f32⟩ : BufTy).Contents (Elt F) → (⟨S10000x1, .f32⟩ : BufTy).Contents (Elt F)),
    StableHlo.unary main_v250 main_v251 (broadcastInDim S10000x128 ![0, 1] bcast_S10000x1_S10000x128_0_1 : (⟨S10000x1, .f32⟩ : BufTy).Contents (Elt F) → (⟨S10000x128, .f32⟩ : BufTy).Contents (Elt F)),
    StableHlo.binary main_v244 main_v251 main_v252 (Host.divf : (⟨S10000x128, .f32⟩ : BufTy).Contents (Elt F) → (⟨S10000x128, .f32⟩ : BufTy).Contents (Elt F) → (⟨S10000x128, .f32⟩ : BufTy).Contents (Elt F)),
    StableHlo.TRef.nullary main_call6.cst (constant S_ .f32 0x00000000#32),
    StableHlo.TRef.unary main_call6.cst main_call6.v0 (broadcastInDim S10000x128 ![] bcast_S_S10000x128),
    StableHlo.TRef.binary (.of main_v252 : StableHlo.TRef sig ⟨S10000x128, .f32⟩) main_call6.v0 main_call6.v1 maximumf ]

/-- Statements of group 21: 3 operations, ending with the one that writes `main_v254`. -/
abbrev rs21 : List (HloOp τ sig (Elt F)) :=
  [ StableHlo.TRef.nullary main_call7.cst (constant S_ .f32 0x00000000#32),
    StableHlo.TRef.unary main_call7.cst main_call7.v0 (broadcastInDim S200000x128 ![] bcast_S_S200000x128),
    StableHlo.TRef.binary (.of main_v241 : StableHlo.TRef sig ⟨S200000x128, .f32⟩) main_call7.v0 main_call7.v1 maximumf ]

set_option maxHeartbeats 40000000 in
/-- Statements of group 22: 63 operations, ending with the one that writes `main_v312`. -/
abbrev rs22 : List (HloOp τ sig (Elt F)) :=
  ( StableHlo.binary main_v253 main_arg14 main_v255 ((fun l r => Host.dotGeneral dot_S10000x128_S128x4_S10000x4_1_0_0_1_n_n none l r) : (⟨S10000x128, .f32⟩ : BufTy).Contents (Elt F) → (⟨S128x4, .f32⟩ : BufTy).Contents (Elt F) → (⟨S10000x4, .f32⟩ : BufTy).Contents (Elt F))
  :: StableHlo.unary main_arg15 main_v256 (broadcastInDim S1x4 ![1] bcast_S4_S1x4_1 : (⟨S4, .f32⟩ : BufTy).Contents (Elt F) → (⟨S1x4, .f32⟩ : BufTy).Contents (Elt F))
  :: StableHlo.unary main_v256 main_v257 (broadcastInDim S10000x4 ![0, 1] bcast_S1x4_S10000x4_0_1 : (⟨S1x4, .f32⟩ : BufTy).Contents (Elt F) → (⟨S10000x4, .f32⟩ : BufTy).Contents (Elt F))
  :: StableHlo.binary main_v255 main_v257 main_v258 (addf : (⟨S10000x4, .f32⟩ : BufTy).Contents (Elt F) → (⟨S10000x4, .f32⟩ : BufTy).Contents (Elt F) → (⟨S10000x4, .f32⟩ : BufTy).Contents (Elt F))
  :: StableHlo.unary main_v258 main_v259 ((extractStridedSlice S10000x1 ![0, 0] · slices_S10000x4_S10000x1_0_0) : (⟨S10000x4, .f32⟩ : BufTy).Contents (Elt F) → (⟨S10000x1, .f32⟩ : BufTy).Contents (Elt F))
  :: StableHlo.reshape main_v259 main_v260 rfl shapeCasts_S10000x1_S10000
  :: StableHlo.unary main_v258 main_v261 ((extractStridedSlice S10000x1 ![0, 1] · slices_S10000x4_S10000x1_0_1) : (⟨S10000x4, .f32⟩ : BufTy).Contents (Elt F) → (⟨S10000x1, .f32⟩ : BufTy).Contents (Elt F))
  :: StableHlo.reshape main_v261 main_v262 rfl shapeCasts_S10000x1_S10000
  :: StableHlo.unary main_v258 main_v263 ((extractStridedSlice S10000x1 ![0, 2] · slices_S10000x4_S10000x1_0_2) : (⟨S10000x4, .f32⟩ : BufTy).Contents (Elt F) → (⟨S10000x1, .f32⟩ : BufTy).Contents (Elt F))
  :: StableHlo.reshape main_v263 main_v264 rfl shapeCasts_S10000x1_S10000
  :: StableHlo.unary main_v258 main_v265 ((extractStridedSlice S10000x1 ![0, 3] · slices_S10000x4_S10000x1_0_3) : (⟨S10000x4, .f32⟩ : BufTy).Contents (Elt F) → (⟨S10000x1, .f32⟩ : BufTy).Contents (Elt F))
  :: StableHlo.reshape main_v265 main_v266 rfl shapeCasts_S10000x1_S10000
  :: StableHlo.unary main_arg0 main_v267 ((extractStridedSlice S10000x1 ![0, 0] · slices_S10000x4_S10000x1_0_0) : (⟨S10000x4, .f32⟩ : BufTy).Contents (Elt F) → (⟨S10000x1, .f32⟩ : BufTy).Contents (Elt F))
  :: StableHlo.reshape main_v267 main_v268 rfl shapeCasts_S10000x1_S10000
  :: StableHlo.unary main_arg0 main_v269 ((extractStridedSlice S10000x1 ![0, 1] · slices_S10000x4_S10000x1_0_1) : (⟨S10000x4, .f32⟩ : BufTy).Contents (Elt F) → (⟨S10000x1, .f32⟩ : BufTy).Contents (Elt F))
  :: StableHlo.reshape main_v269 main_v270 rfl shapeCasts_S10000x1_S10000
  :: StableHlo.unary main_arg0 main_v271 ((extractStridedSlice S10000x1 ![0, 2] · slices_S10000x4_S10000x1_0_2) : (⟨S10000x4, .f32⟩ : BufTy).Contents (Elt F) → (⟨S10000x1, .f32⟩ : BufTy).Contents (Elt F))
  :: StableHlo.reshape main_v271 main_v272 rfl shapeCasts_S10000x1_S10000
  :: StableHlo.unary main_arg0 main_v273 ((extractStridedSlice S10000x1 ![0, 3] · slices_S10000x4_S10000x1_0_3) : (⟨S10000x4, .f32⟩ : BufTy).Contents (Elt F) → (⟨S10000x1, .f32⟩ : BufTy).Contents (Elt F))
  :: StableHlo.reshape main_v273 main_v274 rfl shapeCasts_S10000x1_S10000
  :: StableHlo.binary main_v260 main_v268 main_v275 (mulf : (⟨S10000, .f32⟩ : BufTy).Contents (Elt F) → (⟨S10000, .f32⟩ : BufTy).Contents (Elt F) → (⟨S10000, .f32⟩ : BufTy).Contents (Elt F))
  :: StableHlo.binary main_v262 main_v270 main_v276 (mulf : (⟨S10000, .f32⟩ : BufTy).Contents (Elt F) → (⟨S10000, .f32⟩ : BufTy).Contents (Elt F) → (⟨S10000, .f32⟩ : BufTy).Contents (Elt F))
  :: StableHlo.binary main_v275 main_v276 main_v277 (subf : (⟨S10000, .f32⟩ : BufTy).Contents (Elt F) → (⟨S10000, .f32⟩ : BufTy).Contents (Elt F) → (⟨S10000, .f32⟩ : BufTy).Contents (Elt F))
  :: StableHlo.binary main_v264 main_v272 main_v278 (mulf : (⟨S10000, .f32⟩ : BufTy).Contents (Elt F) → (⟨S10000, .f32⟩ : BufTy).Contents (Elt F) → (⟨S10000, .f32⟩ : BufTy).Contents (Elt F))
  :: StableHlo.binary main_v277 main_v278 main_v279 (subf : (⟨S10000, .f32⟩ : BufTy).Contents (Elt F) → (⟨S10000, .f32⟩ : BufTy).Contents (Elt F) → (⟨S10000, .f32⟩ : BufTy).Contents (Elt F))
  :: StableHlo.binary main_v266 main_v274 main_v280 (mulf : (⟨S10000, .f32⟩ : BufTy).Contents (Elt F) → (⟨S10000, .f32⟩ : BufTy).Contents (Elt F) → (⟨S10000, .f32⟩ : BufTy).Contents (Elt F))
  :: StableHlo.binary main_v279 main_v280 main_v281 (subf : (⟨S10000, .f32⟩ : BufTy).Contents (Elt F) → (⟨S10000, .f32⟩ : BufTy).Contents (Elt F) → (⟨S10000, .f32⟩ : BufTy).Contents (Elt F))
  :: StableHlo.binary main_v260 main_v270 main_v282 (mulf : (⟨S10000, .f32⟩ : BufTy).Contents (Elt F) → (⟨S10000, .f32⟩ : BufTy).Contents (Elt F) → (⟨S10000, .f32⟩ : BufTy).Contents (Elt F))
  :: StableHlo.binary main_v262 main_v268 main_v283 (mulf : (⟨S10000, .f32⟩ : BufTy).Contents (Elt F) → (⟨S10000, .f32⟩ : BufTy).Contents (Elt F) → (⟨S10000, .f32⟩ : BufTy).Contents (Elt F))
  :: StableHlo.binary main_v282 main_v283 main_v284 (addf : (⟨S10000, .f32⟩ : BufTy).Contents (Elt F) → (⟨S10000, .f32⟩ : BufTy).Contents (Elt F) → (⟨S10000, .f32⟩ : BufTy).Contents (Elt F))
  :: StableHlo.binary main_v264 main_v274 main_v285 (mulf : (⟨S10000, .f32⟩ : BufTy).Contents (Elt F) → (⟨S10000, .f32⟩ : BufTy).Contents (Elt F) → (⟨S10000, .f32⟩ : BufTy).Contents (Elt F))
  :: StableHlo.binary main_v284 main_v285 main_v286 (addf : (⟨S10000, .f32⟩ : BufTy).Contents (Elt F) → (⟨S10000, .f32⟩ : BufTy).Contents (Elt F) → (⟨S10000, .f32⟩ : BufTy).Contents (Elt F))
  :: StableHlo.binary main_v266 main_v272 main_v287 (mulf : (⟨S10000, .f32⟩ : BufTy).Contents (Elt F) → (⟨S10000, .f32⟩ : BufTy).Contents (Elt F) → (⟨S10000, .f32⟩ : BufTy).Contents (Elt F))
  :: StableHlo.binary main_v286 main_v287 main_v288 (subf : (⟨S10000, .f32⟩ : BufTy).Contents (Elt F) → (⟨S10000, .f32⟩ : BufTy).Contents (Elt F) → (⟨S10000, .f32⟩ : BufTy).Contents (Elt F))
  :: StableHlo.binary main_v260 main_v272 main_v289 (mulf : (⟨S10000, .f32⟩ : BufTy).Contents (Elt F) → (⟨S10000, .f32⟩ : BufTy).Contents (Elt F) → (⟨S10000, .f32⟩ : BufTy).Contents (Elt F))
  :: StableHlo.binary main_v262 main_v274 main_v290 (mulf : (⟨S10000, .f32⟩ : BufTy).Contents (Elt F) → (⟨S10000, .f32⟩ : BufTy).Contents (Elt F) → (⟨S10000, .f32⟩ : BufTy).Contents (Elt F))
  :: StableHlo.binary main_v289 main_v290 main_v291 (subf : (⟨S10000, .f32⟩ : BufTy).Contents (Elt F) → (⟨S10000, .f32⟩ : BufTy).Contents (Elt F) → (⟨S10000, .f32⟩ : BufTy).Contents (Elt F))
  :: StableHlo.binary main_v264 main_v268 main_v292 (mulf : (⟨S10000, .f32⟩ : BufTy).Contents (Elt F) → (⟨S10000, .f32⟩ : BufTy).Contents (Elt F) → (⟨S10000, .f32⟩ : BufTy).Contents (Elt F))
  :: StableHlo.binary main_v291 main_v292 main_v293 (addf : (⟨S10000, .f32⟩ : BufTy).Contents (Elt F) → (⟨S10000, .f32⟩ : BufTy).Contents (Elt F) → (⟨S10000, .f32⟩ : BufTy).Contents (Elt F))
  :: StableHlo.binary main_v266 main_v270 main_v294 (mulf : (⟨S10000, .f32⟩ : BufTy).Contents (Elt F) → (⟨S10000, .f32⟩ : BufTy).Contents (Elt F) → (⟨S10000, .f32⟩ : BufTy).Contents (Elt F))
  :: StableHlo.binary main_v293 main_v294 main_v295 (addf : (⟨S10000, .f32⟩ : BufTy).Contents (Elt F) → (⟨S10000, .f32⟩ : BufTy).Contents (Elt F) → (⟨S10000, .f32⟩ : BufTy).Contents (Elt F))
  :: StableHlo.binary main_v260 main_v274 main_v296 (mulf : (⟨S10000, .f32⟩ : BufTy).Contents (Elt F) → (⟨S10000, .f32⟩ : BufTy).Contents (Elt F) → (⟨S10000, .f32⟩ : BufTy).Contents (Elt F))
  :: StableHlo.binary main_v262 main_v272 main_v297 (mulf : (⟨S10000, .f32⟩ : BufTy).Contents (Elt F) → (⟨S10000, .f32⟩ : BufTy).Contents (Elt F) → (⟨S10000, .f32⟩ : BufTy).Contents (Elt F))
  :: StableHlo.binary main_v296 main_v297 main_v298 (addf : (⟨S10000, .f32⟩ : BufTy).Contents (Elt F) → (⟨S10000, .f32⟩ : BufTy).Contents (Elt F) → (⟨S10000, .f32⟩ : BufTy).Contents (Elt F))
  :: StableHlo.binary main_v264 main_v270 main_v299 (mulf : (⟨S10000, .f32⟩ : BufTy).Contents (Elt F) → (⟨S10000, .f32⟩ : BufTy).Contents (Elt F) → (⟨S10000, .f32⟩ : BufTy).Contents (Elt F))
  :: StableHlo.binary main_v298 main_v299 main_v300 (subf : (⟨S10000, .f32⟩ : BufTy).Contents (Elt F) → (⟨S10000, .f32⟩ : BufTy).Contents (Elt F) → (⟨S10000, .f32⟩ : BufTy).Contents (Elt F))
  :: StableHlo.binary main_v266 main_v268 main_v301 (mulf : (⟨S10000, .f32⟩ : BufTy).Contents (Elt F) → (⟨S10000, .f32⟩ : BufTy).Contents (Elt F) → (⟨S10000, .f32⟩ : BufTy).Contents (Elt F))
  :: StableHlo.binary main_v300 main_v301 main_v302 (addf : (⟨S10000, .f32⟩ : BufTy).Contents (Elt F) → (⟨S10000, .f32⟩ : BufTy).Contents (Elt F) → (⟨S10000, .f32⟩ : BufTy).Contents (Elt F))
  :: StableHlo.unary main_v281 main_v303 (broadcastInDim S10000x1 ![0] bcast_S10000_S10000x1_0 : (⟨S10000, .f32⟩ : BufTy).Contents (Elt F) → (⟨S10000x1, .f32⟩ : BufTy).Contents (Elt F))
  :: StableHlo.unary main_v288 main_v304 (broadcastInDim S10000x1 ![0] bcast_S10000_S10000x1_0 : (⟨S10000, .f32⟩ : BufTy).Contents (Elt F) → (⟨S10000x1, .f32⟩ : BufTy).Contents (Elt F))
  :: StableHlo.unary main_v295 main_v305 (broadcastInDim S10000x1 ![0] bcast_S10000_S10000x1_0 : (⟨S10000, .f32⟩ : BufTy).Contents (Elt F) → (⟨S10000x1, .f32⟩ : BufTy).Contents (Elt F))
  :: StableHlo.unary main_v302 main_v306 (broadcastInDim S10000x1 ![0] bcast_S10000_S10000x1_0 : (⟨S10000, .f32⟩ : BufTy).Contents (Elt F) → (⟨S10000x1, .f32⟩ : BufTy).Contents (Elt F))
  :: StableHlo.nary ![main_v303, main_v304, main_v305, main_v306] main_v307 (fun u => concatenate S10000x4 1 [⟨S10000x1, u 0⟩, ⟨S10000x1, u 1⟩, ⟨S10000x1, u 2⟩, ⟨S10000x1, u 3⟩] concatenates_S10000x1_S10000x1_S10000x1_S10000x1_S10000x4_d1)
  :: StableHlo.TRef.binary (.of main_v307 : StableHlo.TRef sig ⟨S10000x4, .f32⟩) (.of main_v307 : StableHlo.TRef sig ⟨S10000x4, .f32⟩) main_call8.v0 mulf
  :: StableHlo.TRef.nullary main_call8.cst (constant S_ .f32 0x00000000#32)
  :: StableHlo.TRef.binary main_call8.v0 main_call8.cst main_call8.v1 (fun x v => Host.reduceAdd x v reducesTo_S10000x4_S10000_d1 h_S_)
  :: StableHlo.TRef.unary main_call8.v1 main_call8.v2 (broadcastInDim S10000x1 ![0] bcast_S10000_S10000x1_0)
  :: StableHlo.TRef.unary main_call8.v2 main_call8.v3 Host.sqrt
  :: StableHlo.nullary main_cst_35 (constant S_ .f32 0x2B8CBCCC#32)
  :: StableHlo.unary main_cst_35 main_v309 (broadcastInDim S10000x1 ![] bcast_S_S10000x1 : (⟨S_, .f32⟩ : BufTy).Contents (Elt F) → (⟨S10000x1, .f32⟩ : BufTy).Contents (Elt F))
  :: StableHlo.binary main_v308 main_v309 main_v310 (maximumf : (⟨S10000x1, .f32⟩ : BufTy).Contents (Elt F) → (⟨S10000x1, .f32⟩ : BufTy).Contents (Elt F) → (⟨S10000x1, .f32⟩ : BufTy).Contents (Elt F))
  :: StableHlo.unary main_v310 main_v311 (broadcastInDim S10000x4 ![0, 1] bcast_S10000x1_S10000x4_0_1 : (⟨S10000x1, .f32⟩ : BufTy).Contents (Elt F) → (⟨S10000x4, .f32⟩ : BufTy).Contents (Elt F))
  :: StableHlo.binary main_v307 main_v311 main_v312 (Host.divf : (⟨S10000x4, .f32⟩ : BufTy).Contents (Elt F) → (⟨S10000x4, .f32⟩ : BufTy).Contents (Elt F) → (⟨S10000x4, .f32⟩ : BufTy).Contents (Elt F))
  :: [])

set_option maxHeartbeats 40000000 in
/-- Statements of group 23: 71 operations, ending with the one that writes `main_v379`. -/
abbrev rs23 : List (HloOp τ sig (Elt F)) :=
  ( StableHlo.nullary main_c_36 (constantI S_ 32 0#32)
  :: StableHlo.unary main_c_36 main_v313 (broadcastInDim S200000 ![] bcast_S_S200000 : (⟨S_, .i32⟩ : BufTy).Contents (Elt F) → (⟨S200000, .i32⟩ : BufTy).Contents (Elt F))
  :: StableHlo.binary main_v3 main_v313 main_v314 (cmpi .slt : (⟨S200000, .i32⟩ : BufTy).Contents (Elt F) → (⟨S200000, .i32⟩ : BufTy).Contents (Elt F) → (⟨S200000, .i1⟩ : BufTy).Contents (Elt F))
  :: StableHlo.nullary main_c_37 (constantI S_ 32 10000#32)
  :: StableHlo.unary main_c_37 main_v315 (broadcastInDim S200000 ![] bcast_S_S200000 : (⟨S_, .i32⟩ : BufTy).Contents (Elt F) → (⟨S200000, .i32⟩ : BufTy).Contents (Elt F))
  :: StableHlo.binary main_v3 main_v315 main_v316 (addi : (⟨S200000, .i32⟩ : BufTy).Contents (Elt F) → (⟨S200000, .i32⟩ : BufTy).Contents (Elt F) → (⟨S200000, .i32⟩ : BufTy).Contents (Elt F))
  :: StableHlo.ternary main_v314 main_v316 main_v3 main_v317 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v317 main_v318 (broadcastInDim S200000x1 ![0] bcast_S200000_S200000x1_0 : (⟨S200000, .i32⟩ : BufTy).Contents (Elt F) → (⟨S200000x1, .i32⟩ : BufTy).Contents (Elt F))
  :: StableHlo.binary main_arg2 main_v318 main_v319 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.nullary main_c_38 (constantI S_ 32 0#32)
  :: StableHlo.unary main_c_38 main_v320 (broadcastInDim S200000 ![] bcast_S_S200000 : (⟨S_, .i32⟩ : BufTy).Contents (Elt F) → (⟨S200000, .i32⟩ : BufTy).Contents (Elt F))
  :: StableHlo.binary main_v1 main_v320 main_v321 (cmpi .slt : (⟨S200000, .i32⟩ : BufTy).Contents (Elt F) → (⟨S200000, .i32⟩ : BufTy).Contents (Elt F) → (⟨S200000, .i1⟩ : BufTy).Contents (Elt F))
  :: StableHlo.nullary main_c_39 (constantI S_ 32 10000#32)
  :: StableHlo.unary main_c_39 main_v322 (broadcastInDim S200000 ![] bcast_S_S200000 : (⟨S_, .i32⟩ : BufTy).Contents (Elt F) → (⟨S200000, .i32⟩ : BufTy).Contents (Elt F))
  :: StableHlo.binary main_v1 main_v322 main_v323 (addi : (⟨S200000, .i32⟩ : BufTy).Contents (Elt F) → (⟨S200000, .i32⟩ : BufTy).Contents (Elt F) → (⟨S200000, .i32⟩ : BufTy).Contents (Elt F))
  :: StableHlo.ternary main_v321 main_v323 main_v1 main_v324 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v324 main_v325 (broadcastInDim S200000x1 ![0] bcast_S200000_S200000x1_0 : (⟨S200000, .i32⟩ : BufTy).Contents (Elt F) → (⟨S200000x1, .i32⟩ : BufTy).Contents (Elt F))
  :: StableHlo.binary main_arg2 main_v325 main_v326 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.unary main_v326 main_v327 ((extractStridedSlice S200000x1 ![0, 0] · slices_S200000x4_S200000x1_0_0) : (⟨S200000x4, .f32⟩ : BufTy).Contents (Elt F) → (⟨S200000x1, .f32⟩ : BufTy).Contents (Elt F))
  :: StableHlo.unary main_v326 main_v328 ((extractStridedSlice S200000x3 ![0, 1] · slices_S200000x4_S200000x3_0_1) : (⟨S200000x4, .f32⟩ : BufTy).Contents (Elt F) → (⟨S200000x3, .f32⟩ : BufTy).Contents (Elt F))
  :: StableHlo.unary main_v328 main_v329 (Host.negf : (⟨S200000x3, .f32⟩ : BufTy).Contents (Elt F) → (⟨S200000x3, .f32⟩ : BufTy).Contents (Elt F))
  :: StableHlo.binary main_v327 main_v329 main_v330 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F))
  :: StableHlo.unary main_v319 main_v331 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v331 main_v332 rfl shapeCasts_S200000x1_S200000
  :: StableHlo.unary main_v319 main_v333 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v333 main_v334 rfl shapeCasts_S200000x1_S200000
  :: StableHlo.unary main_v319 main_v335 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v335 main_v336 rfl shapeCasts_S200000x1_S200000
  :: StableHlo.unary main_v319 main_v337 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v337 main_v338 rfl shapeCasts_S200000x1_S200000
  :: StableHlo.unary main_v330 main_v339 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v339 main_v340 rfl shapeCasts_S200000x1_S200000
  :: StableHlo.unary main_v330 main_v341 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v341 main_v342 rfl shapeCasts_S200000x1_S200000
  :: StableHlo.unary main_v330 main_v343 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v343 main_v344 rfl shapeCasts_S200000x1_S200000
  :: StableHlo.unary main_v330 main_v345 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v345 main_v346 rfl shapeCasts_S200000x1_S200000
  :: StableHlo.binary main_v332 main_v340 main_v347 (mulf : (⟨S200000, .f32⟩ : BufTy).Contents (Elt F) → (⟨S200000, .f32⟩ : BufTy).Contents (Elt F) → (⟨S200000, .f32⟩ : BufTy).Contents (Elt F))
  :: StableHlo.binary main_v334 main_v342 main_v348 (mulf : (⟨S200000, .f32⟩ : BufTy).Contents (Elt F) → (⟨S200000, .f32⟩ : BufTy).Contents (Elt F) → (⟨S200000, .f32⟩ : BufTy).Contents (Elt F))
  :: StableHlo.binary main_v347 main_v348 main_v349 (subf : (⟨S200000, .f32⟩ : BufTy).Contents (Elt F) → (⟨S200000, .f32⟩ : BufTy).Contents (Elt F) → (⟨S200000, .f32⟩ : BufTy).Contents (Elt F))
  :: StableHlo.binary main_v336 main_v344 main_v350 (mulf : (⟨S200000, .f32⟩ : BufTy).Contents (Elt F) → (⟨S200000, .f32⟩ : BufTy).Contents (Elt F) → (⟨S200000, .f32⟩ : BufTy).Contents (Elt F))
  :: StableHlo.binary main_v349 main_v350 main_v351 (subf : (⟨S200000, .f32⟩ : BufTy).Contents (Elt F) → (⟨S200000, .f32⟩ : BufTy).Contents (Elt F) → (⟨S200000, .f32⟩ : BufTy).Contents (Elt F))
  :: StableHlo.binary main_v338 main_v346 main_v352 (mulf : (⟨S200000, .f32⟩ : BufTy).Contents (Elt F) → (⟨S200000, .f32⟩ : BufTy).Contents (Elt F) → (⟨S200000, .f32⟩ : BufTy).Contents (Elt F))
  :: StableHlo.binary main_v351 main_v352 main_v353 (subf : (⟨S200000, .f32⟩ : BufTy).Contents (Elt F) → (⟨S200000, .f32⟩ : BufTy).Contents (Elt F) → (⟨S200000, .f32⟩ : BufTy).Contents (Elt F))
  :: StableHlo.binary main_v332 main_v342 main_v354 (mulf : (⟨S200000, .f32⟩ : BufTy).Contents (Elt F) → (⟨S200000, .f32⟩ : BufTy).Contents (Elt F) → (⟨S200000, .f32⟩ : BufTy).Contents (Elt F))
  :: StableHlo.binary main_v334 main_v340 main_v355 (mulf : (⟨S200000, .f32⟩ : BufTy).Contents (Elt F) → (⟨S200000, .f32⟩ : BufTy).Contents (Elt F) → (⟨S200000, .f32⟩ : BufTy).Contents (Elt F))
  :: StableHlo.binary main_v354 main_v355 main_v356 (addf : (⟨S200000, .f32⟩ : BufTy).Contents (Elt F) → (⟨S200000, .f32⟩ : BufTy).Contents (Elt F) → (⟨S200000, .f32⟩ : BufTy).Contents (Elt F))
  :: StableHlo.binary main_v336 main_v346 main_v357 (mulf : (⟨S200000, .f32⟩ : BufTy).Contents (Elt F) → (⟨S200000, .f32⟩ : BufTy).Contents (Elt F) → (⟨S200000, .f32⟩ : BufTy).Contents (Elt F))
  :: StableHlo.binary main_v356 main_v357 main_v358 (addf : (⟨S200000, .f32⟩ : BufTy).Contents (Elt F) → (⟨S200000, .f32⟩ : BufTy).Contents (Elt F) → (⟨S200000, .f32⟩ : BufTy).Contents (Elt F))
  :: StableHlo.binary main_v338 main_v344 main_v359 (mulf : (⟨S200000, .f32⟩ : BufTy).Contents (Elt F) → (⟨S200000, .f32⟩ : BufTy).Contents (Elt F) → (⟨S200000, .f32⟩ : BufTy).Contents (Elt F))
  :: StableHlo.binary main_v358 main_v359 main_v360 (subf : (⟨S200000, .f32⟩ : BufTy).Contents (Elt F) → (⟨S200000, .f32⟩ : BufTy).Contents (Elt F) → (⟨S200000, .f32⟩ : BufTy).Contents (Elt F))
  :: StableHlo.binary main_v332 main_v344 main_v361 (mulf : (⟨S200000, .f32⟩ : BufTy).Contents (Elt F) → (⟨S200000, .f32⟩ : BufTy).Contents (Elt F) → (⟨S200000, .f32⟩ : BufTy).Contents (Elt F))
  :: StableHlo.binary main_v334 main_v346 main_v362 (mulf : (⟨S200000, .f32⟩ : BufTy).Contents (Elt F) → (⟨S200000, .f32⟩ : BufTy).Contents (Elt F) → (⟨S200000, .f32⟩ : BufTy).Contents (Elt F))
  :: StableHlo.binary main_v361 main_v362 main_v363 (subf : (⟨S200000, .f32⟩ : BufTy).Contents (Elt F) → (⟨S200000, .f32⟩ : BufTy).Contents (Elt F) → (⟨S200000, .f32⟩ : BufTy).Contents (Elt F))
  :: StableHlo.binary main_v336 main_v340 main_v364 (mulf : (⟨S200000, .f32⟩ : BufTy).Contents (Elt F) → (⟨S200000, .f32⟩ : BufTy).Contents (Elt F) → (⟨S200000, .f32⟩ : BufTy).Contents (Elt F))
  :: StableHlo.binary main_v363 main_v364 main_v365 (addf : (⟨S200000, .f32⟩ : BufTy).Contents (Elt F) → (⟨S200000, .f32⟩ : BufTy).Contents (Elt F) → (⟨S200000, .f32⟩ : BufTy).Contents (Elt F))
  :: StableHlo.binary main_v338 main_v342 main_v366 (mulf : (⟨S200000, .f32⟩ : BufTy).Contents (Elt F) → (⟨S200000, .f32⟩ : BufTy).Contents (Elt F) → (⟨S200000, .f32⟩ : BufTy).Contents (Elt F))
  :: StableHlo.binary main_v365 main_v366 main_v367 (addf : (⟨S200000, .f32⟩ : BufTy).Contents (Elt F) → (⟨S200000, .f32⟩ : BufTy).Contents (Elt F) → (⟨S200000, .f32⟩ : BufTy).Contents (Elt F))
  :: StableHlo.binary main_v332 main_v346 main_v368 (mulf : (⟨S200000, .f32⟩ : BufTy).Contents (Elt F) → (⟨S200000, .f32⟩ : BufTy).Contents (Elt F) → (⟨S200000, .f32⟩ : BufTy).Contents (Elt F))
  :: StableHlo.binary main_v334 main_v344 main_v369 (mulf : (⟨S200000, .f32⟩ : BufTy).Contents (Elt F) → (⟨S200000, .f32⟩ : BufTy).Contents (Elt F) → (⟨S200000, .f32⟩ : BufTy).Contents (Elt F))
  :: StableHlo.binary main_v368 main_v369 main_v370 (addf : (⟨S200000, .f32⟩ : BufTy).Contents (Elt F) → (⟨S200000, .f32⟩ : BufTy).Contents (Elt F) → (⟨S200000, .f32⟩ : BufTy).Contents (Elt F))
  :: StableHlo.binary main_v336 main_v342 main_v371 (mulf : (⟨S200000, .f32⟩ : BufTy).Contents (Elt F) → (⟨S200000, .f32⟩ : BufTy).Contents (Elt F) → (⟨S200000, .f32⟩ : BufTy).Contents (Elt F))
  :: StableHlo.binary main_v370 main_v371 main_v372 (subf : (⟨S200000, .f32⟩ : BufTy).Contents (Elt F) → (⟨S200000, .f32⟩ : BufTy).Contents (Elt F) → (⟨S200000, .f32⟩ : BufTy).Contents (Elt F))
  :: StableHlo.binary main_v338 main_v340 main_v373 (mulf : (⟨S200000, .f32⟩ : BufTy).Contents (Elt F) → (⟨S200000, .f32⟩ : BufTy).Contents (Elt F) → (⟨S200000, .f32⟩ : BufTy).Contents (Elt F))
  :: StableHlo.binary main_v372 main_v373 main_v374 (addf : (⟨S200000, .f32⟩ : BufTy).Contents (Elt F) → (⟨S200000, .f32⟩ : BufTy).Contents (Elt F) → (⟨S200000, .f32⟩ : BufTy).Contents (Elt F))
  :: StableHlo.unary main_v353 main_v375 (broadcastInDim S200000x1 ![0] bcast_S200000_S200000x1_0 : (⟨S200000, .f32⟩ : BufTy).Contents (Elt F) → (⟨S200000x1, .f32⟩ : BufTy).Contents (Elt F))
  :: StableHlo.unary main_v360 main_v376 (broadcastInDim S200000x1 ![0] bcast_S200000_S200000x1_0 : (⟨S200000, .f32⟩ : BufTy).Contents (Elt F) → (⟨S200000x1, .f32⟩ : BufTy).Contents (Elt F))
  :: StableHlo.unary main_v367 main_v377 (broadcastInDim S200000x1 ![0] bcast_S200000_S200000x1_0 : (⟨S200000, .f32⟩ : BufTy).Contents (Elt F) → (⟨S200000x1, .f32⟩ : BufTy).Contents (Elt F))
  :: StableHlo.unary main_v374 main_v378 (broadcastInDim S200000x1 ![0] bcast_S200000_S200000x1_0 : (⟨S200000, .f32⟩ : BufTy).Contents (Elt F) → (⟨S200000x1, .f32⟩ : BufTy).Contents (Elt F))
  :: StableHlo.nary ![main_v375, main_v376, main_v377, main_v378] main_v379 (fun u => concatenate S200000x4 1 [⟨S200000x1, u 0⟩, ⟨S200000x1, u 1⟩, ⟨S200000x1, u 2⟩, ⟨S200000x1, u 3⟩] concatenates_S200000x1_S200000x1_S200000x1_S200000x1_S200000x4_d1)
  :: [])

set_option maxHeartbeats 40000000 in
/-- Statements of group 24: 124 operations, ending with the one that writes `main_v499`. -/
abbrev rs24 : List (HloOp τ sig (Elt F)) :=
  ( StableHlo.nullary main_c_40 (constantI S_ 32 0#32)
  :: StableHlo.unary main_c_40 main_v380 (broadcastInDim S200000 ![] bcast_S_S200000 : (⟨S_, .i32⟩ : BufTy).Contents (Elt F) → (⟨S200000, .i32⟩ : BufTy).Contents (Elt F))
  :: StableHlo.binary main_v3 main_v380 main_v381 (cmpi .slt : (⟨S200000, .i32⟩ : BufTy).Contents (Elt F) → (⟨S200000, .i32⟩ : BufTy).Contents (Elt F) → (⟨S200000, .i1⟩ : BufTy).Contents (Elt F))
  :: StableHlo.nullary main_c_41 (constantI S_ 32 10000#32)
  :: StableHlo.unary main_c_41 main_v382 (broadcastInDim S200000 ![] bcast_S_S200000 : (⟨S_, .i32⟩ : BufTy).Contents (Elt F) → (⟨S200000, .i32⟩ : BufTy).Contents (Elt F))
  :: StableHlo.binary main_v3 main_v382 main_v383 (addi : (⟨S200000, .i32⟩ : BufTy).Contents (Elt F) → (⟨S200000, .i32⟩ : BufTy).Contents (Elt F) → (⟨S200000, .i32⟩ : BufTy).Contents (Elt F))
  :: StableHlo.ternary main_v381 main_v383 main_v3 main_v384 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v384 main_v385 (broadcastInDim S200000x1 ![0] bcast_S200000_S200000x1_0 : (⟨S200000, .i32⟩ : BufTy).Contents (Elt F) → (⟨S200000x1, .i32⟩ : BufTy).Contents (Elt F))
  :: StableHlo.binary main_v312 main_v385 main_v386 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.nullary main_c_42 (constantI S_ 32 0#32)
  :: StableHlo.unary main_c_42 main_v387 (broadcastInDim S200000 ![] bcast_S_S200000 : (⟨S_, .i32⟩ : BufTy).Contents (Elt F) → (⟨S200000, .i32⟩ : BufTy).Contents (Elt F))
  :: StableHlo.binary main_v1 main_v387 main_v388 (cmpi .slt : (⟨S200000, .i32⟩ : BufTy).Contents (Elt F) → (⟨S200000, .i32⟩ : BufTy).Contents (Elt F) → (⟨S200000, .i1⟩ : BufTy).Contents (Elt F))
  :: StableHlo.nullary main_c_43 (constantI S_ 32 10000#32)
  :: StableHlo.unary main_c_43 main_v389 (broadcastInDim S200000 ![] bcast_S_S200000 : (⟨S_, .i32⟩ : BufTy).Contents (Elt F) → (⟨S200000, .i32⟩ : BufTy).Contents (Elt F))
  :: StableHlo.binary main_v1 main_v389 main_v390 (addi : (⟨S200000, .i32⟩ : BufTy).Contents (Elt F) → (⟨S200000, .i32⟩ : BufTy).Contents (Elt F) → (⟨S200000, .i32⟩ : BufTy).Contents (Elt F))
  :: StableHlo.ternary main_v388 main_v390 main_v1 main_v391 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v391 main_v392 (broadcastInDim S200000x1 ![0] bcast_S200000_S200000x1_0 : (⟨S200000, .i32⟩ : BufTy).Contents (Elt F) → (⟨S200000x1, .i32⟩ : BufTy).Contents (Elt F))
  :: StableHlo.binary main_v312 main_v392 main_v393 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.unary main_v393 main_v394 ((extractStridedSlice S200000x1 ![0, 0] · slices_S200000x4_S200000x1_0_0) : (⟨S200000x4, .f32⟩ : BufTy).Contents (Elt F) → (⟨S200000x1, .f32⟩ : BufTy).Contents (Elt F))
  :: StableHlo.unary main_v393 main_v395 ((extractStridedSlice S200000x3 ![0, 1] · slices_S200000x4_S200000x3_0_1) : (⟨S200000x4, .f32⟩ : BufTy).Contents (Elt F) → (⟨S200000x3, .f32⟩ : BufTy).Contents (Elt F))
  :: StableHlo.unary main_v395 main_v396 (Host.negf : (⟨S200000x3, .f32⟩ : BufTy).Contents (Elt F) → (⟨S200000x3, .f32⟩ : BufTy).Contents (Elt F))
  :: StableHlo.binary main_v394 main_v396 main_v397 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F))
  :: StableHlo.unary main_v386 main_v398 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v398 main_v399 rfl shapeCasts_S200000x1_S200000
  :: StableHlo.unary main_v386 main_v400 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v400 main_v401 rfl shapeCasts_S200000x1_S200000
  :: StableHlo.unary main_v386 main_v402 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v402 main_v403 rfl shapeCasts_S200000x1_S200000
  :: StableHlo.unary main_v386 main_v404 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v404 main_v405 rfl shapeCasts_S200000x1_S200000
  :: StableHlo.unary main_v397 main_v406 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v406 main_v407 rfl shapeCasts_S200000x1_S200000
  :: StableHlo.unary main_v397 main_v408 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v408 main_v409 rfl shapeCasts_S200000x1_S200000
  :: StableHlo.unary main_v397 main_v410 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v410 main_v411 rfl shapeCasts_S200000x1_S200000
  :: StableHlo.unary main_v397 main_v412 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v412 main_v413 rfl shapeCasts_S200000x1_S200000
  :: StableHlo.binary main_v399 main_v407 main_v414 (mulf : (⟨S200000, .f32⟩ : BufTy).Contents (Elt F) → (⟨S200000, .f32⟩ : BufTy).Contents (Elt F) → (⟨S200000, .f32⟩ : BufTy).Contents (Elt F))
  :: StableHlo.binary main_v401 main_v409 main_v415 (mulf : (⟨S200000, .f32⟩ : BufTy).Contents (Elt F) → (⟨S200000, .f32⟩ : BufTy).Contents (Elt F) → (⟨S200000, .f32⟩ : BufTy).Contents (Elt F))
  :: StableHlo.binary main_v414 main_v415 main_v416 (subf : (⟨S200000, .f32⟩ : BufTy).Contents (Elt F) → (⟨S200000, .f32⟩ : BufTy).Contents (Elt F) → (⟨S200000, .f32⟩ : BufTy).Contents (Elt F))
  :: StableHlo.binary main_v403 main_v411 main_v417 (mulf : (⟨S200000, .f32⟩ : BufTy).Contents (Elt F) → (⟨S200000, .f32⟩ : BufTy).Contents (Elt F) → (⟨S200000, .f32⟩ : BufTy).Contents (Elt F))
  :: StableHlo.binary main_v416 main_v417 main_v418 (subf : (⟨S200000, .f32⟩ : BufTy).Contents (Elt F) → (⟨S200000, .f32⟩ : BufTy).Contents (Elt F) → (⟨S200000, .f32⟩ : BufTy).Contents (Elt F))
  :: StableHlo.binary main_v405 main_v413 main_v419 (mulf : (⟨S200000, .f32⟩ : BufTy).Contents (Elt F) → (⟨S200000, .f32⟩ : BufTy).Contents (Elt F) → (⟨S200000, .f32⟩ : BufTy).Contents (Elt F))
  :: StableHlo.binary main_v418 main_v419 main_v420 (subf : (⟨S200000, .f32⟩ : BufTy).Contents (Elt F) → (⟨S200000, .f32⟩ : BufTy).Contents (Elt F) → (⟨S200000, .f32⟩ : BufTy).Contents (Elt F))
  :: StableHlo.binary main_v399 main_v409 main_v421 (mulf : (⟨S200000, .f32⟩ : BufTy).Contents (Elt F) → (⟨S200000, .f32⟩ : BufTy).Contents (Elt F) → (⟨S200000, .f32⟩ : BufTy).Contents (Elt F))
  :: StableHlo.binary main_v401 main_v407 main_v422 (mulf : (⟨S200000, .f32⟩ : BufTy).Contents (Elt F) → (⟨S200000, .f32⟩ : BufTy).Contents (Elt F) → (⟨S200000, .f32⟩ : BufTy).Contents (Elt F))
  :: StableHlo.binary main_v421 main_v422 main_v423 (addf : (⟨S200000, .f32⟩ : BufTy).Contents (Elt F) → (⟨S200000, .f32⟩ : BufTy).Contents (Elt F) → (⟨S200000, .f32⟩ : BufTy).Contents (Elt F))
  :: StableHlo.binary main_v403 main_v413 main_v424 (mulf : (⟨S200000, .f32⟩ : BufTy).Contents (Elt F) → (⟨S200000, .f32⟩ : BufTy).Contents (Elt F) → (⟨S200000, .f32⟩ : BufTy).Contents (Elt F))
  :: StableHlo.binary main_v423 main_v424 main_v425 (addf : (⟨S200000, .f32⟩ : BufTy).Contents (Elt F) → (⟨S200000, .f32⟩ : BufTy).Contents (Elt F) → (⟨S200000, .f32⟩ : BufTy).Contents (Elt F))
  :: StableHlo.binary main_v405 main_v411 main_v426 (mulf : (⟨S200000, .f32⟩ : BufTy).Contents (Elt F) → (⟨S200000, .f32⟩ : BufTy).Contents (Elt F) → (⟨S200000, .f32⟩ : BufTy).Contents (Elt F))
  :: StableHlo.binary main_v425 main_v426 main_v427 (subf : (⟨S200000, .f32⟩ : BufTy).Contents (Elt F) → (⟨S200000, .f32⟩ : BufTy).Contents (Elt F) → (⟨S200000, .f32⟩ : BufTy).Contents (Elt F))
  :: StableHlo.binary main_v399 main_v411 main_v428 (mulf : (⟨S200000, .f32⟩ : BufTy).Contents (Elt F) → (⟨S200000, .f32⟩ : BufTy).Contents (Elt F) → (⟨S200000, .f32⟩ : BufTy).Contents (Elt F))
  :: StableHlo.binary main_v401 main_v413 main_v429 (mulf : (⟨S200000, .f32⟩ : BufTy).Contents (Elt F) → (⟨S200000, .f32⟩ : BufTy).Contents (Elt F) → (⟨S200000, .f32⟩ : BufTy).Contents (Elt F))
  :: StableHlo.binary main_v428 main_v429 main_v430 (subf : (⟨S200000, .f32⟩ : BufTy).Contents (Elt F) → (⟨S200000, .f32⟩ : BufTy).Contents (Elt F) → (⟨S200000, .f32⟩ : BufTy).Contents (Elt F))
  :: StableHlo.binary main_v403 main_v407 main_v431 (mulf : (⟨S200000, .f32⟩ : BufTy).Contents (Elt F) → (⟨S200000, .f32⟩ : BufTy).Contents (Elt F) → (⟨S200000, .f32⟩ : BufTy).Contents (Elt F))
  :: StableHlo.binary main_v430 main_v431 main_v432 (addf : (⟨S200000, .f32⟩ : BufTy).Contents (Elt F) → (⟨S200000, .f32⟩ : BufTy).Contents (Elt F) → (⟨S200000, .f32⟩ : BufTy).Contents (Elt F))
  :: StableHlo.binary main_v405 main_v409 main_v433 (mulf : (⟨S200000, .f32⟩ : BufTy).Contents (Elt F) → (⟨S200000, .f32⟩ : BufTy).Contents (Elt F) → (⟨S200000, .f32⟩ : BufTy).Contents (Elt F))
  :: StableHlo.binary main_v432 main_v433 main_v434 (addf : (⟨S200000, .f32⟩ : BufTy).Contents (Elt F) → (⟨S200000, .f32⟩ : BufTy).Contents (Elt F) → (⟨S200000, .f32⟩ : BufTy).Contents (Elt F))
  :: StableHlo.binary main_v399 main_v413 main_v435 (mulf : (⟨S200000, .f32⟩ : BufTy).Contents (Elt F) → (⟨S200000, .f32⟩ : BufTy).Contents (Elt F) → (⟨S200000, .f32⟩ : BufTy).Contents (Elt F))
  :: StableHlo.binary main_v401 main_v411 main_v436 (mulf : (⟨S200000, .f32⟩ : BufTy).Contents (Elt F) → (⟨S200000, .f32⟩ : BufTy).Contents (Elt F) → (⟨S200000, .f32⟩ : BufTy).Contents (Elt F))
  :: StableHlo.binary main_v435 main_v436 main_v437 (addf : (⟨S200000, .f32⟩ : BufTy).Contents (Elt F) → (⟨S200000, .f32⟩ : BufTy).Contents (Elt F) → (⟨S200000, .f32⟩ : BufTy).Contents (Elt F))
  :: StableHlo.binary main_v403 main_v409 main_v438 (mulf : (⟨S200000, .f32⟩ : BufTy).Contents (Elt F) → (⟨S200000, .f32⟩ : BufTy).Contents (Elt F) → (⟨S200000, .f32⟩ : BufTy).Contents (Elt F))
  :: StableHlo.binary main_v437 main_v438 main_v439 (subf : (⟨S200000, .f32⟩ : BufTy).Contents (Elt F) → (⟨S200000, .f32⟩ : BufTy).Contents (Elt F) → (⟨S200000, .f32⟩ : BufTy).Contents (Elt F))
  :: StableHlo.binary main_v405 main_v407 main_v440 (mulf : (⟨S200000, .f32⟩ : BufTy).Contents (Elt F) → (⟨S200000, .f32⟩ : BufTy).Contents (Elt F) → (⟨S200000, .f32⟩ : BufTy).Contents (Elt F))
  :: StableHlo.binary main_v439 main_v440 main_v441 (addf : (⟨S200000, .f32⟩ : BufTy).Contents (Elt F) → (⟨S200000, .f32⟩ : BufTy).Contents (Elt F) → (⟨S200000, .f32⟩ : BufTy).Contents (Elt F))
  :: StableHlo.unary main_v420 main_v442 (broadcastInDim S200000x1 ![0] bcast_S200000_S200000x1_0 : (⟨S200000, .f32⟩ : BufTy).Contents (Elt F) → (⟨S200000x1, .f32⟩ : BufTy).Contents (Elt F))
  :: StableHlo.unary main_v427 main_v443 (broadcastInDim S200000x1 ![0] bcast_S200000_S200000x1_0 : (⟨S200000, .f32⟩ : BufTy).Contents (Elt F) → (⟨S200000x1, .f32⟩ : BufTy).Contents (Elt F))
  :: StableHlo.unary main_v434 main_v444 (broadcastInDim S200000x1 ![0] bcast_S200000_S200000x1_0 : (⟨S200000, .f32⟩ : BufTy).Contents (Elt F) → (⟨S200000x1, .f32⟩ : BufTy).Contents (Elt F))
  :: StableHlo.unary main_v441 main_v445 (broadcastInDim S200000x1 ![0] bcast_S200000_S200000x1_0 : (⟨S200000, .f32⟩ : BufTy).Contents (Elt F) → (⟨S200000x1, .f32⟩ : BufTy).Contents (Elt F))
  :: StableHlo.nary ![main_v442, main_v443, main_v444, main_v445] main_v446 (fun u => concatenate S200000x4 1 [⟨S200000x1, u 0⟩, ⟨S200000x1, u 1⟩, ⟨S200000x1, u 2⟩, ⟨S200000x1, u 3⟩] concatenates_S200000x1_S200000x1_S200000x1_S200000x1_S200000x4_d1)
  :: StableHlo.unary main_v379 main_v447 ((extractStridedSlice S200000x1 ![0, 0] · slices_S200000x4_S200000x1_0_0) : (⟨S200000x4, .f32⟩ : BufTy).Contents (Elt F) → (⟨S200000x1, .f32⟩ : BufTy).Contents (Elt F))
  :: StableHlo.unary main_v379 main_v448 ((extractStridedSlice S200000x3 ![0, 1] · slices_S200000x4_S200000x3_0_1) : (⟨S200000x4, .f32⟩ : BufTy).Contents (Elt F) → (⟨S200000x3, .f32⟩ : BufTy).Contents (Elt F))
  :: StableHlo.unary main_v448 main_v449 (Host.negf : (⟨S200000x3, .f32⟩ : BufTy).Contents (Elt F) → (⟨S200000x3, .f32⟩ : BufTy).Contents (Elt F))
  :: StableHlo.binary main_v447 main_v449 main_v450 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F))
  :: StableHlo.unary main_v450 main_v451 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v451 main_v452 rfl shapeCasts_S200000x1_S200000
  :: StableHlo.unary main_v450 main_v453 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v453 main_v454 rfl shapeCasts_S200000x1_S200000
  :: StableHlo.unary main_v450 main_v455 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v455 main_v456 rfl shapeCasts_S200000x1_S200000
  :: StableHlo.unary main_v450 main_v457 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v457 main_v458 rfl shapeCasts_S200000x1_S200000
  :: StableHlo.unary main_v446 main_v459 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v459 main_v460 rfl shapeCasts_S200000x1_S200000
  :: StableHlo.unary main_v446 main_v461 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v461 main_v462 rfl shapeCasts_S200000x1_S200000
  :: StableHlo.unary main_v446 main_v463 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v463 main_v464 rfl shapeCasts_S200000x1_S200000
  :: StableHlo.unary main_v446 main_v465 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v465 main_v466 rfl shapeCasts_S200000x1_S200000
  :: StableHlo.binary main_v452 main_v460 main_v467 (mulf : (⟨S200000, .f32⟩ : BufTy).Contents (Elt F) → (⟨S200000, .f32⟩ : BufTy).Contents (Elt F) → (⟨S200000, .f32⟩ : BufTy).Contents (Elt F))
  :: StableHlo.binary main_v454 main_v462 main_v468 (mulf : (⟨S200000, .f32⟩ : BufTy).Contents (Elt F) → (⟨S200000, .f32⟩ : BufTy).Contents (Elt F) → (⟨S200000, .f32⟩ : BufTy).Contents (Elt F))
  :: StableHlo.binary main_v467 main_v468 main_v469 (subf : (⟨S200000, .f32⟩ : BufTy).Contents (Elt F) → (⟨S200000, .f32⟩ : BufTy).Contents (Elt F) → (⟨S200000, .f32⟩ : BufTy).Contents (Elt F))
  :: StableHlo.binary main_v456 main_v464 main_v470 (mulf : (⟨S200000, .f32⟩ : BufTy).Contents (Elt F) → (⟨S200000, .f32⟩ : BufTy).Contents (Elt F) → (⟨S200000, .f32⟩ : BufTy).Contents (Elt F))
  :: StableHlo.binary main_v469 main_v470 main_v471 (subf : (⟨S200000, .f32⟩ : BufTy).Contents (Elt F) → (⟨S200000, .f32⟩ : BufTy).Contents (Elt F) → (⟨S200000, .f32⟩ : BufTy).Contents (Elt F))
  :: StableHlo.binary main_v458 main_v466 main_v472 (mulf : (⟨S200000, .f32⟩ : BufTy).Contents (Elt F) → (⟨S200000, .f32⟩ : BufTy).Contents (Elt F) → (⟨S200000, .f32⟩ : BufTy).Contents (Elt F))
  :: StableHlo.binary main_v471 main_v472 main_v473 (subf : (⟨S200000, .f32⟩ : BufTy).Contents (Elt F) → (⟨S200000, .f32⟩ : BufTy).Contents (Elt F) → (⟨S200000, .f32⟩ : BufTy).Contents (Elt F))
  :: StableHlo.binary main_v452 main_v462 main_v474 (mulf : (⟨S200000, .f32⟩ : BufTy).Contents (Elt F) → (⟨S200000, .f32⟩ : BufTy).Contents (Elt F) → (⟨S200000, .f32⟩ : BufTy).Contents (Elt F))
  :: StableHlo.binary main_v454 main_v460 main_v475 (mulf : (⟨S200000, .f32⟩ : BufTy).Contents (Elt F) → (⟨S200000, .f32⟩ : BufTy).Contents (Elt F) → (⟨S200000, .f32⟩ : BufTy).Contents (Elt F))
  :: StableHlo.binary main_v474 main_v475 main_v476 (addf : (⟨S200000, .f32⟩ : BufTy).Contents (Elt F) → (⟨S200000, .f32⟩ : BufTy).Contents (Elt F) → (⟨S200000, .f32⟩ : BufTy).Contents (Elt F))
  :: StableHlo.binary main_v456 main_v466 main_v477 (mulf : (⟨S200000, .f32⟩ : BufTy).Contents (Elt F) → (⟨S200000, .f32⟩ : BufTy).Contents (Elt F) → (⟨S200000, .f32⟩ : BufTy).Contents (Elt F))
  :: StableHlo.binary main_v476 main_v477 main_v478 (addf : (⟨S200000, .f32⟩ : BufTy).Contents (Elt F) → (⟨S200000, .f32⟩ : BufTy).Contents (Elt F) → (⟨S200000, .f32⟩ : BufTy).Contents (Elt F))
  :: StableHlo.binary main_v458 main_v464 main_v479 (mulf : (⟨S200000, .f32⟩ : BufTy).Contents (Elt F) → (⟨S200000, .f32⟩ : BufTy).Contents (Elt F) → (⟨S200000, .f32⟩ : BufTy).Contents (Elt F))
  :: StableHlo.binary main_v478 main_v479 main_v480 (subf : (⟨S200000, .f32⟩ : BufTy).Contents (Elt F) → (⟨S200000, .f32⟩ : BufTy).Contents (Elt F) → (⟨S200000, .f32⟩ : BufTy).Contents (Elt F))
  :: StableHlo.binary main_v452 main_v464 main_v481 (mulf : (⟨S200000, .f32⟩ : BufTy).Contents (Elt F) → (⟨S200000, .f32⟩ : BufTy).Contents (Elt F) → (⟨S200000, .f32⟩ : BufTy).Contents (Elt F))
  :: StableHlo.binary main_v454 main_v466 main_v482 (mulf : (⟨S200000, .f32⟩ : BufTy).Contents (Elt F) → (⟨S200000, .f32⟩ : BufTy).Contents (Elt F) → (⟨S200000, .f32⟩ : BufTy).Contents (Elt F))
  :: StableHlo.binary main_v481 main_v482 main_v483 (subf : (⟨S200000, .f32⟩ : BufTy).Contents (Elt F) → (⟨S200000, .f32⟩ : BufTy).Contents (Elt F) → (⟨S200000, .f32⟩ : BufTy).Contents (Elt F))
  :: StableHlo.binary main_v456 main_v460 main_v484 (mulf : (⟨S200000, .f32⟩ : BufTy).Contents (Elt F) → (⟨S200000, .f32⟩ : BufTy).Contents (Elt F) → (⟨S200000, .f32⟩ : BufTy).Contents (Elt F))
  :: StableHlo.binary main_v483 main_v484 main_v485 (addf : (⟨S200000, .f32⟩ : BufTy).Contents (Elt F) → (⟨S200000, .f32⟩ : BufTy).Contents (Elt F) → (⟨S200000, .f32⟩ : BufTy).Contents (Elt F))
  :: StableHlo.binary main_v458 main_v462 main_v486 (mulf : (⟨S200000, .f32⟩ : BufTy).Contents (Elt F) → (⟨S200000, .f32⟩ : BufTy).Contents (Elt F) → (⟨S200000, .f32⟩ : BufTy).Contents (Elt F))
  :: StableHlo.binary main_v485 main_v486 main_v487 (addf : (⟨S200000, .f32⟩ : BufTy).Contents (Elt F) → (⟨S200000, .f32⟩ : BufTy).Contents (Elt F) → (⟨S200000, .f32⟩ : BufTy).Contents (Elt F))
  :: StableHlo.binary main_v452 main_v466 main_v488 (mulf : (⟨S200000, .f32⟩ : BufTy).Contents (Elt F) → (⟨S200000, .f32⟩ : BufTy).Contents (Elt F) → (⟨S200000, .f32⟩ : BufTy).Contents (Elt F))
  :: StableHlo.binary main_v454 main_v464 main_v489 (mulf : (⟨S200000, .f32⟩ : BufTy).Contents (Elt F) → (⟨S200000, .f32⟩ : BufTy).Contents (Elt F) → (⟨S200000, .f32⟩ : BufTy).Contents (Elt F))
  :: StableHlo.binary main_v488 main_v489 main_v490 (addf : (⟨S200000, .f32⟩ : BufTy).Contents (Elt F) → (⟨S200000, .f32⟩ : BufTy).Contents (Elt F) → (⟨S200000, .f32⟩ : BufTy).Contents (Elt F))
  :: StableHlo.binary main_v456 main_v462 main_v491 (mulf : (⟨S200000, .f32⟩ : BufTy).Contents (Elt F) → (⟨S200000, .f32⟩ : BufTy).Contents (Elt F) → (⟨S200000, .f32⟩ : BufTy).Contents (Elt F))
  :: StableHlo.binary main_v490 main_v491 main_v492 (subf : (⟨S200000, .f32⟩ : BufTy).Contents (Elt F) → (⟨S200000, .f32⟩ : BufTy).Contents (Elt F) → (⟨S200000, .f32⟩ : BufTy).Contents (Elt F))
  :: StableHlo.binary main_v458 main_v460 main_v493 (mulf : (⟨S200000, .f32⟩ : BufTy).Contents (Elt F) → (⟨S200000, .f32⟩ : BufTy).Contents (Elt F) → (⟨S200000, .f32⟩ : BufTy).Contents (Elt F))
  :: StableHlo.binary main_v492 main_v493 main_v494 (addf : (⟨S200000, .f32⟩ : BufTy).Contents (Elt F) → (⟨S200000, .f32⟩ : BufTy).Contents (Elt F) → (⟨S200000, .f32⟩ : BufTy).Contents (Elt F))
  :: StableHlo.unary main_v473 main_v495 (broadcastInDim S200000x1 ![0] bcast_S200000_S200000x1_0 : (⟨S200000, .f32⟩ : BufTy).Contents (Elt F) → (⟨S200000x1, .f32⟩ : BufTy).Contents (Elt F))
  :: StableHlo.unary main_v480 main_v496 (broadcastInDim S200000x1 ![0] bcast_S200000_S200000x1_0 : (⟨S200000, .f32⟩ : BufTy).Contents (Elt F) → (⟨S200000x1, .f32⟩ : BufTy).Contents (Elt F))
  :: StableHlo.unary main_v487 main_v497 (broadcastInDim S200000x1 ![0] bcast_S200000_S200000x1_0 : (⟨S200000, .f32⟩ : BufTy).Contents (Elt F) → (⟨S200000x1, .f32⟩ : BufTy).Contents (Elt F))
  :: StableHlo.unary main_v494 main_v498 (broadcastInDim S200000x1 ![0] bcast_S200000_S200000x1_0 : (⟨S200000, .f32⟩ : BufTy).Contents (Elt F) → (⟨S200000x1, .f32⟩ : BufTy).Contents (Elt F))
  :: StableHlo.nary ![main_v495, main_v496, main_v497, main_v498] main_v499 (fun u => concatenate S200000x4 1 [⟨S200000x1, u 0⟩, ⟨S200000x1, u 1⟩, ⟨S200000x1, u 2⟩, ⟨S200000x1, u 3⟩] concatenates_S200000x1_S200000x1_S200000x1_S200000x1_S200000x4_d1)
  :: [])

/-- Statements of group 25: 35 operations, ending with the one that writes `main_v525`. -/
abbrev rs25 : List (HloOp τ sig (Elt F)) :=
  [ StableHlo.TRef.binary (.of main_v499 : StableHlo.TRef sig ⟨S200000x4, .f32⟩) (.of main_v499 : StableHlo.TRef sig ⟨S200000x4, .f32⟩) main_call9.v0 mulf,
    StableHlo.TRef.nullary main_call9.cst (constant S_ .f32 0x00000000#32),
    StableHlo.TRef.binary main_call9.v0 main_call9.cst main_call9.v1 (fun x v => Host.reduceAdd x v reducesTo_S200000x4_S200000_d1 h_S_),
    StableHlo.TRef.unary main_call9.v1 main_call9.v2 (broadcastInDim S200000x1 ![0] bcast_S200000_S200000x1_0),
    StableHlo.TRef.unary main_call9.v2 main_call9.v3 Host.sqrt,
    StableHlo.nullary main_cst_44 (constant S_ .f32 0x2B8CBCCC#32),
    StableHlo.unary main_cst_44 main_v501 (broadcastInDim S200000x1 ![] bcast_S_S200000x1 : (⟨S_, .f32⟩ : BufTy).Contents (Elt F) → (⟨S200000x1, .f32⟩ : BufTy).Contents (Elt F)),
    StableHlo.binary main_v500 main_v501 main_v502 (maximumf : (⟨S200000x1, .f32⟩ : BufTy).Contents (Elt F) → (⟨S200000x1, .f32⟩ : BufTy).Contents (Elt F) → (⟨S200000x1, .f32⟩ : BufTy).Contents (Elt F)),
    StableHlo.unary main_v502 main_v503 (broadcastInDim S200000x4 ![0, 1] bcast_S200000x1_S200000x4_0_1 : (⟨S200000x1, .f32⟩ : BufTy).Contents (Elt F) → (⟨S200000x4, .f32⟩ : BufTy).Contents (Elt F)),
    StableHlo.binary main_v499 main_v503 main_v504 (Host.divf : (⟨S200000x4, .f32⟩ : BufTy).Contents (Elt F) → (⟨S200000x4, .f32⟩ : BufTy).Contents (Elt F) → (⟨S200000x4, .f32⟩ : BufTy).Contents (Elt F)),
    StableHlo.unary main_cst main_v505 (broadcastInDim S1x4 ![1] bcast_S4_S1x4_1 : (⟨S4, .f32⟩ : BufTy).Contents (Elt F) → (⟨S1x4, .f32⟩ : BufTy).Contents (Elt F)),
    StableHlo.unary main_v505 main_v506 (broadcastInDim S200000x4 ![0, 1] bcast_S1x4_S200000x4_0_1 : (⟨S1x4, .f32⟩ : BufTy).Contents (Elt F) → (⟨S200000x4, .f32⟩ : BufTy).Contents (Elt F)),
    StableHlo.binary main_v504 main_v506 main_v507 (subf : (⟨S200000x4, .f32⟩ : BufTy).Contents (Elt F) → (⟨S200000x4, .f32⟩ : BufTy).Contents (Elt F) → (⟨S200000x4, .f32⟩ : BufTy).Contents (Elt F)),
    StableHlo.unary main_v507 main_v508 (Host.absf : (⟨S200000x4, .f32⟩ : BufTy).Contents (Elt F) → (⟨S200000x4, .f32⟩ : BufTy).Contents (Elt F)),
    StableHlo.unary main_arg3 main_v509 (broadcastInDim S1x1 ![1] bcast_S1_S1x1_1 : (⟨S1, .f32⟩ : BufTy).Contents (Elt F) → (⟨S1x1, .f32⟩ : BufTy).Contents (Elt F)),
    StableHlo.unary main_v509 main_v510 (broadcastInDim S200000x4 ![0, 1] bcast_S1x1_S200000x4_0_1 : (⟨S1x1, .f32⟩ : BufTy).Contents (Elt F) → (⟨S200000x4, .f32⟩ : BufTy).Contents (Elt F)),
    StableHlo.binary main_v508 main_v510 main_v511 (cmpf .olt : (⟨S200000x4, .f32⟩ : BufTy).Contents (Elt F) → (⟨S200000x4, .f32⟩ : BufTy).Contents (Elt F) → (⟨S200000x4, .i1⟩ : BufTy).Contents (Elt F)),
    StableHlo.nullary main_cst_45 (constant S_ .f32 0x3F000000#32),
    StableHlo.unary main_cst_45 main_v512 (broadcastInDim S200000x4 ![] bcast_S_S200000x4 : (⟨S_, .f32⟩ : BufTy).Contents (Elt F) → (⟨S200000x4, .f32⟩ : BufTy).Contents (Elt F)),
    StableHlo.binary main_v512 main_v508 main_v513 (mulf : (⟨S200000x4, .f32⟩ : BufTy).Contents (Elt F) → (⟨S200000x4, .f32⟩ : BufTy).Contents (Elt F) → (⟨S200000x4, .f32⟩ : BufTy).Contents (Elt F)),
    StableHlo.binary main_v513 main_v508 main_v514 (mulf : (⟨S200000x4, .f32⟩ : BufTy).Contents (Elt F) → (⟨S200000x4, .f32⟩ : BufTy).Contents (Elt F) → (⟨S200000x4, .f32⟩ : BufTy).Contents (Elt F)),
    StableHlo.unary main_arg3 main_v515 (broadcastInDim S1x1 ![1] bcast_S1_S1x1_1 : (⟨S1, .f32⟩ : BufTy).Contents (Elt F) → (⟨S1x1, .f32⟩ : BufTy).Contents (Elt F)),
    StableHlo.unary main_v515 main_v516 (broadcastInDim S200000x4 ![0, 1] bcast_S1x1_S200000x4_0_1 : (⟨S1x1, .f32⟩ : BufTy).Contents (Elt F) → (⟨S200000x4, .f32⟩ : BufTy).Contents (Elt F)),
    StableHlo.binary main_v514 main_v516 main_v517 (Host.divf : (⟨S200000x4, .f32⟩ : BufTy).Contents (Elt F) → (⟨S200000x4, .f32⟩ : BufTy).Contents (Elt F) → (⟨S200000x4, .f32⟩ : BufTy).Contents (Elt F)),
    StableHlo.nullary main_cst_46 (constant S_ .f32 0x3F000000#32),
    StableHlo.unary main_cst_46 main_v518 (broadcastInDim S1 ![] bcast_S_S1 : (⟨S_, .f32⟩ : BufTy).Contents (Elt F) → (⟨S1, .f32⟩ : BufTy).Contents (Elt F)),
    StableHlo.binary main_v518 main_arg3 main_v519 (mulf : (⟨S1, .f32⟩ : BufTy).Contents (Elt F) → (⟨S1, .f32⟩ : BufTy).Contents (Elt F) → (⟨S1, .f32⟩ : BufTy).Contents (Elt F)),
    StableHlo.unary main_v519 main_v520 (broadcastInDim S1x1 ![1] bcast_S1_S1x1_1 : (⟨S1, .f32⟩ : BufTy).Contents (Elt F) → (⟨S1x1, .f32⟩ : BufTy).Contents (Elt F)),
    StableHlo.unary main_v520 main_v521 (broadcastInDim S200000x4 ![0, 1] bcast_S1x1_S200000x4_0_1 : (⟨S1x1, .f32⟩ : BufTy).Contents (Elt F) → (⟨S200000x4, .f32⟩ : BufTy).Contents (Elt F)),
    StableHlo.binary main_v508 main_v521 main_v522 (subf : (⟨S200000x4, .f32⟩ : BufTy).Contents (Elt F) → (⟨S200000x4, .f32⟩ : BufTy).Contents (Elt F) → (⟨S200000x4, .f32⟩ : BufTy).Contents (Elt F)),
    StableHlo.TRef.ternary (.of main_v511 : StableHlo.TRef sig ⟨S200000x4, .i1⟩) (.of main_v517 : StableHlo.TRef sig ⟨S200000x4, .f32⟩) (.of main_v522 : StableHlo.TRef sig ⟨S200000x4, .f32⟩) main_call10.v0 select,
    StableHlo.nullary main_cst_47 (constant S_ .f32 0x00000000#32),
    StableHlo.binary main_v523 main_cst_47 main_v524 ((fun x v => Host.reduceAdd x v reducesTo_S200000x4_S_d0_1 h_S_) : (⟨S200000x4, .f32⟩ : BufTy).Contents (Elt F) → (⟨S_, .f32⟩ : BufTy).Contents (Elt F) → (⟨S_, .f32⟩ : BufTy).Contents (Elt F)),
    StableHlo.nullary main_cst_48 (constant S_ .f32 0x49435000#32),
    StableHlo.binary main_v524 main_cst_48 main_v525 (Host.divf : (⟨S_, .f32⟩ : BufTy).Contents (Elt F) → (⟨S_, .f32⟩ : BufTy).Contents (Elt F) → (⟨S_, .f32⟩ : BufTy).Contents (Elt F)) ]

/-- Statements of group 26: 4 operations, ending with the one that writes `main_v529`. -/
abbrev rs26 : List (HloOp τ sig (Elt F)) :=
  [ StableHlo.binary main_v254 main_arg16 main_v526 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    StableHlo.unary main_arg17 main_v527 (broadcastInDim S1x1 ![1] bcast_S1_S1x1_1 : (⟨S1, .f32⟩ : BufTy).Contents (Elt F) → (⟨S1x1, .f32⟩ : BufTy).Contents (Elt F)),
    StableHlo.unary main_v527 main_v528 (broadcastInDim S200000x1 ![0, 1] bcast_S1x1_S200000x1_0_1 : (⟨S1x1, .f32⟩ : BufTy).Contents (Elt F) → (⟨S200000x1, .f32⟩ : BufTy).Contents (Elt F)),
    StableHlo.binary main_v526 main_v528 main_v529 (addf : (⟨S200000x1, .f32⟩ : BufTy).Contents (Elt F) → (⟨S200000x1, .f32⟩ : BufTy).Contents (Elt F) → (⟨S200000x1, .f32⟩ : BufTy).Contents (Elt F)) ]

/-- The whole of @main's statements. -/
abbrev rsAll : List (HloOp τ sig (Elt F)) :=
  rs1 ++ rs2 ++ rs3 ++ rs4 ++ rs5 ++ rs6 ++ rs7 ++ rs8 ++ rs9 ++ rs10 ++ rs11 ++ rs12 ++ rs13 ++ rs14 ++ rs15 ++ rs16 ++ rs17 ++ rs18 ++ rs19 ++ rs20 ++ rs21 ++ rs22 ++ rs23 ++ rs24 ++ rs25 ++ rs26

end Cert.ReferenceIdeal.Hand

end
-- ==== Proof.RPieces.lean ====
import proofs.«430033_j52948356825731_1_alg».proof.ReferenceIdeal
import Idealize.ShloMosaic.Lib.StableHlo.Run

set_option maxRecDepth 16384

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- Piece 1: 5 operations, in group 1 and printed window 0. -/
abbrev pc1 : List (HloOp τ sig (Elt F)) :=
  [ StableHlo.nullary main_cst (fun i => FloatOps.ofBits .f32 (lit0 (S4.rowMajor i))),
    StableHlo.unary main_arg18 main_v0 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v0 main_v1 rfl shapeCasts_S1x200000_S200000,
    StableHlo.unary main_arg18 main_v2 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v2 main_v3 rfl shapeCasts_S1x200000_S200000 ]

set_option maxHeartbeats 40000000 in
/-- Piece 2: 55 operations, in group 2 and printed window 0. -/
abbrev pc2 : List (HloOp τ sig (Elt F)) :=
  ( StableHlo.nullary main_c (constantI S_ 32 0#32)
  :: StableHlo.unary main_c main_v4 (broadcastInDim S200000 ![] bcast_S_S200000 : (⟨S_, .i32⟩ : BufTy).Contents (Elt F) → (⟨S200000, .i32⟩ : BufTy).Contents (Elt F))
  :: StableHlo.binary main_v3 main_v4 main_v5 (cmpi .slt : (⟨S200000, .i32⟩ : BufTy).Contents (Elt F) → (⟨S200000, .i32⟩ : BufTy).Contents (Elt F) → (⟨S200000, .i1⟩ : BufTy).Contents (Elt F))
  :: StableHlo.nullary main_c_0 (constantI S_ 32 10000#32)
  :: StableHlo.unary main_c_0 main_v6 (broadcastInDim S200000 ![] bcast_S_S200000 : (⟨S_, .i32⟩ : BufTy).Contents (Elt F) → (⟨S200000, .i32⟩ : BufTy).Contents (Elt F))
  :: StableHlo.binary main_v3 main_v6 main_v7 (addi : (⟨S200000, .i32⟩ : BufTy).Contents (Elt F) → (⟨S200000, .i32⟩ : BufTy).Contents (Elt F) → (⟨S200000, .i32⟩ : BufTy).Contents (Elt F))
  :: StableHlo.ternary main_v5 main_v7 main_v3 main_v8 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v8 main_v9 (broadcastInDim S200000x1 ![0] bcast_S200000_S200000x1_0 : (⟨S200000, .i32⟩ : BufTy).Contents (Elt F) → (⟨S200000x1, .i32⟩ : BufTy).Contents (Elt F))
  :: StableHlo.binary main_arg0 main_v9 main_v10 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.unary main_v10 main_v11 ((extractStridedSlice S200000x1 ![0, 0] · slices_S200000x4_S200000x1_0_0) : (⟨S200000x4, .f32⟩ : BufTy).Contents (Elt F) → (⟨S200000x1, .f32⟩ : BufTy).Contents (Elt F))
  :: StableHlo.unary main_v10 main_v12 ((extractStridedSlice S200000x3 ![0, 1] · slices_S200000x4_S200000x3_0_1) : (⟨S200000x4, .f32⟩ : BufTy).Contents (Elt F) → (⟨S200000x3, .f32⟩ : BufTy).Contents (Elt F))
  :: StableHlo.unary main_v12 main_v13 (Host.negf : (⟨S200000x3, .f32⟩ : BufTy).Contents (Elt F) → (⟨S200000x3, .f32⟩ : BufTy).Contents (Elt F))
  :: StableHlo.binary main_v11 main_v13 main_v14 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F))
  :: StableHlo.unary main_v14 main_v15 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v15 main_v16 rfl shapeCasts_S200000x1_S200000
  :: StableHlo.unary main_v14 main_v17 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v17 main_v18 rfl shapeCasts_S200000x1_S200000
  :: StableHlo.unary main_v14 main_v19 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v19 main_v20 rfl shapeCasts_S200000x1_S200000
  :: StableHlo.unary main_v14 main_v21 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v21 main_v22 rfl shapeCasts_S200000x1_S200000
  :: StableHlo.unary main_arg1 main_v23 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v23 main_v24 rfl shapeCasts_S200000x1_S200000
  :: StableHlo.unary main_arg1 main_v25 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v25 main_v26 rfl shapeCasts_S200000x1_S200000
  :: StableHlo.unary main_arg1 main_v27 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v27 main_v28 rfl shapeCasts_S200000x1_S200000
  :: StableHlo.unary main_arg1 main_v29 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v29 main_v30 rfl shapeCasts_S200000x1_S200000
  :: StableHlo.binary main_v16 main_v24 main_v31 (mulf : (⟨S200000, .f32⟩ : BufTy).Contents (Elt F) → (⟨S200000, .f32⟩ : BufTy).Contents (Elt F) → (⟨S200000, .f32⟩ : BufTy).Contents (Elt F))
  :: StableHlo.binary main_v18 main_v26 main_v32 (mulf : (⟨S200000, .f32⟩ : BufTy).Contents (Elt F) → (⟨S200000, .f32⟩ : BufTy).Contents (Elt F) → (⟨S200000, .f32⟩ : BufTy).Contents (Elt F))
  :: StableHlo.binary main_v31 main_v32 main_v33 (subf : (⟨S200000, .f32⟩ : BufTy).Contents (Elt F) → (⟨S200000, .f32⟩ : BufTy).Contents (Elt F) → (⟨S200000, .f32⟩ : BufTy).Contents (Elt F))
  :: StableHlo.binary main_v20 main_v28 main_v34 (mulf : (⟨S200000, .f32⟩ : BufTy).Contents (Elt F) → (⟨S200000, .f32⟩ : BufTy).Contents (Elt F) → (⟨S200000, .f32⟩ : BufTy).Contents (Elt F))
  :: StableHlo.binary main_v33 main_v34 main_v35 (subf : (⟨S200000, .f32⟩ : BufTy).Contents (Elt F) → (⟨S200000, .f32⟩ : BufTy).Contents (Elt F) → (⟨S200000, .f32⟩ : BufTy).Contents (Elt F))
  :: StableHlo.binary main_v22 main_v30 main_v36 (mulf : (⟨S200000, .f32⟩ : BufTy).Contents (Elt F) → (⟨S200000, .f32⟩ : BufTy).Contents (Elt F) → (⟨S200000, .f32⟩ : BufTy).Contents (Elt F))
  :: StableHlo.binary main_v35 main_v36 main_v37 (subf : (⟨S200000, .f32⟩ : BufTy).Contents (Elt F) → (⟨S200000, .f32⟩ : BufTy).Contents (Elt F) → (⟨S200000, .f32⟩ : BufTy).Contents (Elt F))
  :: StableHlo.binary main_v16 main_v26 main_v38 (mulf : (⟨S200000, .f32⟩ : BufTy).Contents (Elt F) → (⟨S200000, .f32⟩ : BufTy).Contents (Elt F) → (⟨S200000, .f32⟩ : BufTy).Contents (Elt F))
  :: StableHlo.binary main_v18 main_v24 main_v39 (mulf : (⟨S200000, .f32⟩ : BufTy).Contents (Elt F) → (⟨S200000, .f32⟩ : BufTy).Contents (Elt F) → (⟨S200000, .f32⟩ : BufTy).Contents (Elt F))
  :: StableHlo.binary main_v38 main_v39 main_v40 (addf : (⟨S200000, .f32⟩ : BufTy).Contents (Elt F) → (⟨S200000, .f32⟩ : BufTy).Contents (Elt F) → (⟨S200000, .f32⟩ : BufTy).Contents (Elt F))
  :: StableHlo.binary main_v20 main_v30 main_v41 (mulf : (⟨S200000, .f32⟩ : BufTy).Contents (Elt F) → (⟨S200000, .f32⟩ : BufTy).Contents (Elt F) → (⟨S200000, .f32⟩ : BufTy).Contents (Elt F))
  :: StableHlo.binary main_v40 main_v41 main_v42 (addf : (⟨S200000, .f32⟩ : BufTy).Contents (Elt F) → (⟨S200000, .f32⟩ : BufTy).Contents (Elt F) → (⟨S200000, .f32⟩ : BufTy).Contents (Elt F))
  :: StableHlo.binary main_v22 main_v28 main_v43 (mulf : (⟨S200000, .f32⟩ : BufTy).Contents (Elt F) → (⟨S200000, .f32⟩ : BufTy).Contents (Elt F) → (⟨S200000, .f32⟩ : BufTy).Contents (Elt F))
  :: StableHlo.binary main_v42 main_v43 main_v44 (subf : (⟨S200000, .f32⟩ : BufTy).Contents (Elt F) → (⟨S200000, .f32⟩ : BufTy).Contents (Elt F) → (⟨S200000, .f32⟩ : BufTy).Contents (Elt F))
  :: StableHlo.binary main_v16 main_v28 main_v45 (mulf : (⟨S200000, .f32⟩ : BufTy).Contents (Elt F) → (⟨S200000, .f32⟩ : BufTy).Contents (Elt F) → (⟨S200000, .f32⟩ : BufTy).Contents (Elt F))
  :: StableHlo.binary main_v18 main_v30 main_v46 (mulf : (⟨S200000, .f32⟩ : BufTy).Contents (Elt F) → (⟨S200000, .f32⟩ : BufTy).Contents (Elt F) → (⟨S200000, .f32⟩ : BufTy).Contents (Elt F))
  :: StableHlo.binary main_v45 main_v46 main_v47 (subf : (⟨S200000, .f32⟩ : BufTy).Contents (Elt F) → (⟨S200000, .f32⟩ : BufTy).Contents (Elt F) → (⟨S200000, .f32⟩ : BufTy).Contents (Elt F))
  :: StableHlo.binary main_v20 main_v24 main_v48 (mulf : (⟨S200000, .f32⟩ : BufTy).Contents (Elt F) → (⟨S200000, .f32⟩ : BufTy).Contents (Elt F) → (⟨S200000, .f32⟩ : BufTy).Contents (Elt F))
  :: StableHlo.binary main_v47 main_v48 main_v49 (addf : (⟨S200000, .f32⟩ : BufTy).Contents (Elt F) → (⟨S200000, .f32⟩ : BufTy).Contents (Elt F) → (⟨S200000, .f32⟩ : BufTy).Contents (Elt F))
  :: StableHlo.binary main_v22 main_v26 main_v50 (mulf : (⟨S200000, .f32⟩ : BufTy).Contents (Elt F) → (⟨S200000, .f32⟩ : BufTy).Contents (Elt F) → (⟨S200000, .f32⟩ : BufTy).Contents (Elt F))
  :: StableHlo.binary main_v49 main_v50 main_v51 (addf : (⟨S200000, .f32⟩ : BufTy).Contents (Elt F) → (⟨S200000, .f32⟩ : BufTy).Contents (Elt F) → (⟨S200000, .f32⟩ : BufTy).Contents (Elt F))
  :: StableHlo.binary main_v16 main_v30 main_v52 (mulf : (⟨S200000, .f32⟩ : BufTy).Contents (Elt F) → (⟨S200000, .f32⟩ : BufTy).Contents (Elt F) → (⟨S200000, .f32⟩ : BufTy).Contents (Elt F))
  :: StableHlo.binary main_v18 main_v28 main_v53 (mulf : (⟨S200000, .f32⟩ : BufTy).Contents (Elt F) → (⟨S200000, .f32⟩ : BufTy).Contents (Elt F) → (⟨S200000, .f32⟩ : BufTy).Contents (Elt F))
  :: StableHlo.binary main_v52 main_v53 main_v54 (addf : (⟨S200000, .f32⟩ : BufTy).Contents (Elt F) → (⟨S200000, .f32⟩ : BufTy).Contents (Elt F) → (⟨S200000, .f32⟩ : BufTy).Contents (Elt F))
  :: StableHlo.binary main_v20 main_v26 main_v55 (mulf : (⟨S200000, .f32⟩ : BufTy).Contents (Elt F) → (⟨S200000, .f32⟩ : BufTy).Contents (Elt F) → (⟨S200000, .f32⟩ : BufTy).Contents (Elt F))
  :: StableHlo.binary main_v54 main_v55 main_v56 (subf : (⟨S200000, .f32⟩ : BufTy).Contents (Elt F) → (⟨S200000, .f32⟩ : BufTy).Contents (Elt F) → (⟨S200000, .f32⟩ : BufTy).Contents (Elt F))
  :: [])

set_option maxHeartbeats 40000000 in
/-- Piece 3: 60 operations, in group 2 and printed window 1. -/
abbrev pc3 : List (HloOp τ sig (Elt F)) :=
  ( StableHlo.binary main_v22 main_v24 main_v57 (mulf : (⟨S200000, .f32⟩ : BufTy).Contents (Elt F) → (⟨S200000, .f32⟩ : BufTy).Contents (Elt F) → (⟨S200000, .f32⟩ : BufTy).Contents (Elt F))
  :: StableHlo.binary main_v56 main_v57 main_v58 (addf : (⟨S200000, .f32⟩ : BufTy).Contents (Elt F) → (⟨S200000, .f32⟩ : BufTy).Contents (Elt F) → (⟨S200000, .f32⟩ : BufTy).Contents (Elt F))
  :: StableHlo.unary main_v37 main_v59 (broadcastInDim S200000x1 ![0] bcast_S200000_S200000x1_0 : (⟨S200000, .f32⟩ : BufTy).Contents (Elt F) → (⟨S200000x1, .f32⟩ : BufTy).Contents (Elt F))
  :: StableHlo.unary main_v44 main_v60 (broadcastInDim S200000x1 ![0] bcast_S200000_S200000x1_0 : (⟨S200000, .f32⟩ : BufTy).Contents (Elt F) → (⟨S200000x1, .f32⟩ : BufTy).Contents (Elt F))
  :: StableHlo.unary main_v51 main_v61 (broadcastInDim S200000x1 ![0] bcast_S200000_S200000x1_0 : (⟨S200000, .f32⟩ : BufTy).Contents (Elt F) → (⟨S200000x1, .f32⟩ : BufTy).Contents (Elt F))
  :: StableHlo.unary main_v58 main_v62 (broadcastInDim S200000x1 ![0] bcast_S200000_S200000x1_0 : (⟨S200000, .f32⟩ : BufTy).Contents (Elt F) → (⟨S200000x1, .f32⟩ : BufTy).Contents (Elt F))
  :: StableHlo.nary ![main_v59, main_v60, main_v61, main_v62] main_v63 (fun u => concatenate S200000x4 1 [⟨S200000x1, u 0⟩, ⟨S200000x1, u 1⟩, ⟨S200000x1, u 2⟩, ⟨S200000x1, u 3⟩] concatenates_S200000x1_S200000x1_S200000x1_S200000x1_S200000x4_d1)
  :: StableHlo.nullary main_c_1 (constantI S_ 32 0#32)
  :: StableHlo.unary main_c_1 main_v64 (broadcastInDim S200000 ![] bcast_S_S200000 : (⟨S_, .i32⟩ : BufTy).Contents (Elt F) → (⟨S200000, .i32⟩ : BufTy).Contents (Elt F))
  :: StableHlo.binary main_v1 main_v64 main_v65 (cmpi .slt : (⟨S200000, .i32⟩ : BufTy).Contents (Elt F) → (⟨S200000, .i32⟩ : BufTy).Contents (Elt F) → (⟨S200000, .i1⟩ : BufTy).Contents (Elt F))
  :: StableHlo.nullary main_c_2 (constantI S_ 32 10000#32)
  :: StableHlo.unary main_c_2 main_v66 (broadcastInDim S200000 ![] bcast_S_S200000 : (⟨S_, .i32⟩ : BufTy).Contents (Elt F) → (⟨S200000, .i32⟩ : BufTy).Contents (Elt F))
  :: StableHlo.binary main_v1 main_v66 main_v67 (addi : (⟨S200000, .i32⟩ : BufTy).Contents (Elt F) → (⟨S200000, .i32⟩ : BufTy).Contents (Elt F) → (⟨S200000, .i32⟩ : BufTy).Contents (Elt F))
  :: StableHlo.ternary main_v65 main_v67 main_v1 main_v68 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v68 main_v69 (broadcastInDim S200000x1 ![0] bcast_S200000_S200000x1_0 : (⟨S200000, .i32⟩ : BufTy).Contents (Elt F) → (⟨S200000x1, .i32⟩ : BufTy).Contents (Elt F))
  :: StableHlo.binary main_arg0 main_v69 main_v70 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.unary main_v63 main_v71 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v71 main_v72 rfl shapeCasts_S200000x1_S200000
  :: StableHlo.unary main_v63 main_v73 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v73 main_v74 rfl shapeCasts_S200000x1_S200000
  :: StableHlo.unary main_v63 main_v75 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v75 main_v76 rfl shapeCasts_S200000x1_S200000
  :: StableHlo.unary main_v63 main_v77 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v77 main_v78 rfl shapeCasts_S200000x1_S200000
  :: StableHlo.unary main_v70 main_v79 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v79 main_v80 rfl shapeCasts_S200000x1_S200000
  :: StableHlo.unary main_v70 main_v81 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v81 main_v82 rfl shapeCasts_S200000x1_S200000
  :: StableHlo.unary main_v70 main_v83 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v83 main_v84 rfl shapeCasts_S200000x1_S200000
  :: StableHlo.unary main_v70 main_v85 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v85 main_v86 rfl shapeCasts_S200000x1_S200000
  :: StableHlo.binary main_v72 main_v80 main_v87 (mulf : (⟨S200000, .f32⟩ : BufTy).Contents (Elt F) → (⟨S200000, .f32⟩ : BufTy).Contents (Elt F) → (⟨S200000, .f32⟩ : BufTy).Contents (Elt F))
  :: StableHlo.binary main_v74 main_v82 main_v88 (mulf : (⟨S200000, .f32⟩ : BufTy).Contents (Elt F) → (⟨S200000, .f32⟩ : BufTy).Contents (Elt F) → (⟨S200000, .f32⟩ : BufTy).Contents (Elt F))
  :: StableHlo.binary main_v87 main_v88 main_v89 (subf : (⟨S200000, .f32⟩ : BufTy).Contents (Elt F) → (⟨S200000, .f32⟩ : BufTy).Contents (Elt F) → (⟨S200000, .f32⟩ : BufTy).Contents (Elt F))
  :: StableHlo.binary main_v76 main_v84 main_v90 (mulf : (⟨S200000, .f32⟩ : BufTy).Contents (Elt F) → (⟨S200000, .f32⟩ : BufTy).Contents (Elt F) → (⟨S200000, .f32⟩ : BufTy).Contents (Elt F))
  :: StableHlo.binary main_v89 main_v90 main_v91 (subf : (⟨S200000, .f32⟩ : BufTy).Contents (Elt F) → (⟨S200000, .f32⟩ : BufTy).Contents (Elt F) → (⟨S200000, .f32⟩ : BufTy).Contents (Elt F))
  :: StableHlo.binary main_v78 main_v86 main_v92 (mulf : (⟨S200000, .f32⟩ : BufTy).Contents (Elt F) → (⟨S200000, .f32⟩ : BufTy).Contents (Elt F) → (⟨S200000, .f32⟩ : BufTy).Contents (Elt F))
  :: StableHlo.binary main_v91 main_v92 main_v93 (subf : (⟨S200000, .f32⟩ : BufTy).Contents (Elt F) → (⟨S200000, .f32⟩ : BufTy).Contents (Elt F) → (⟨S200000, .f32⟩ : BufTy).Contents (Elt F))
  :: StableHlo.binary main_v72 main_v82 main_v94 (mulf : (⟨S200000, .f32⟩ : BufTy).Contents (Elt F) → (⟨S200000, .f32⟩ : BufTy).Contents (Elt F) → (⟨S200000, .f32⟩ : BufTy).Contents (Elt F))
  :: StableHlo.binary main_v74 main_v80 main_v95 (mulf : (⟨S200000, .f32⟩ : BufTy).Contents (Elt F) → (⟨S200000, .f32⟩ : BufTy).Contents (Elt F) → (⟨S200000, .f32⟩ : BufTy).Contents (Elt F))
  :: StableHlo.binary main_v94 main_v95 main_v96 (addf : (⟨S200000, .f32⟩ : BufTy).Contents (Elt F) → (⟨S200000, .f32⟩ : BufTy).Contents (Elt F) → (⟨S200000, .f32⟩ : BufTy).Contents (Elt F))
  :: StableHlo.binary main_v76 main_v86 main_v97 (mulf : (⟨S200000, .f32⟩ : BufTy).Contents (Elt F) → (⟨S200000, .f32⟩ : BufTy).Contents (Elt F) → (⟨S200000, .f32⟩ : BufTy).Contents (Elt F))
  :: StableHlo.binary main_v96 main_v97 main_v98 (addf : (⟨S200000, .f32⟩ : BufTy).Contents (Elt F) → (⟨S200000, .f32⟩ : BufTy).Contents (Elt F) → (⟨S200000, .f32⟩ : BufTy).Contents (Elt F))
  :: StableHlo.binary main_v78 main_v84 main_v99 (mulf : (⟨S200000, .f32⟩ : BufTy).Contents (Elt F) → (⟨S200000, .f32⟩ : BufTy).Contents (Elt F) → (⟨S200000, .f32⟩ : BufTy).Contents (Elt F))
  :: StableHlo.binary main_v98 main_v99 main_v100 (subf : (⟨S200000, .f32⟩ : BufTy).Contents (Elt F) → (⟨S200000, .f32⟩ : BufTy).Contents (Elt F) → (⟨S200000, .f32⟩ : BufTy).Contents (Elt F))
  :: StableHlo.binary main_v72 main_v84 main_v101 (mulf : (⟨S200000, .f32⟩ : BufTy).Contents (Elt F) → (⟨S200000, .f32⟩ : BufTy).Contents (Elt F) → (⟨S200000, .f32⟩ : BufTy).Contents (Elt F))
  :: StableHlo.binary main_v74 main_v86 main_v102 (mulf : (⟨S200000, .f32⟩ : BufTy).Contents (Elt F) → (⟨S200000, .f32⟩ : BufTy).Contents (Elt F) → (⟨S200000, .f32⟩ : BufTy).Contents (Elt F))
  :: StableHlo.binary main_v101 main_v102 main_v103 (subf : (⟨S200000, .f32⟩ : BufTy).Contents (Elt F) → (⟨S200000, .f32⟩ : BufTy).Contents (Elt F) → (⟨S200000, .f32⟩ : BufTy).Contents (Elt F))
  :: StableHlo.binary main_v76 main_v80 main_v104 (mulf : (⟨S200000, .f32⟩ : BufTy).Contents (Elt F) → (⟨S200000, .f32⟩ : BufTy).Contents (Elt F) → (⟨S200000, .f32⟩ : BufTy).Contents (Elt F))
  :: StableHlo.binary main_v103 main_v104 main_v105 (addf : (⟨S200000, .f32⟩ : BufTy).Contents (Elt F) → (⟨S200000, .f32⟩ : BufTy).Contents (Elt F) → (⟨S200000, .f32⟩ : BufTy).Contents (Elt F))
  :: StableHlo.binary main_v78 main_v82 main_v106 (mulf : (⟨S200000, .f32⟩ : BufTy).Contents (Elt F) → (⟨S200000, .f32⟩ : BufTy).Contents (Elt F) → (⟨S200000, .f32⟩ : BufTy).Contents (Elt F))
  :: StableHlo.binary main_v105 main_v106 main_v107 (addf : (⟨S200000, .f32⟩ : BufTy).Contents (Elt F) → (⟨S200000, .f32⟩ : BufTy).Contents (Elt F) → (⟨S200000, .f32⟩ : BufTy).Contents (Elt F))
  :: StableHlo.binary main_v72 main_v86 main_v108 (mulf : (⟨S200000, .f32⟩ : BufTy).Contents (Elt F) → (⟨S200000, .f32⟩ : BufTy).Contents (Elt F) → (⟨S200000, .f32⟩ : BufTy).Contents (Elt F))
  :: StableHlo.binary main_v74 main_v84 main_v109 (mulf : (⟨S200000, .f32⟩ : BufTy).Contents (Elt F) → (⟨S200000, .f32⟩ : BufTy).Contents (Elt F) → (⟨S200000, .f32⟩ : BufTy).Contents (Elt F))
  :: StableHlo.binary main_v108 main_v109 main_v110 (addf : (⟨S200000, .f32⟩ : BufTy).Contents (Elt F) → (⟨S200000, .f32⟩ : BufTy).Contents (Elt F) → (⟨S200000, .f32⟩ : BufTy).Contents (Elt F))
  :: StableHlo.binary main_v76 main_v82 main_v111 (mulf : (⟨S200000, .f32⟩ : BufTy).Contents (Elt F) → (⟨S200000, .f32⟩ : BufTy).Contents (Elt F) → (⟨S200000, .f32⟩ : BufTy).Contents (Elt F))
  :: StableHlo.binary main_v110 main_v111 main_v112 (subf : (⟨S200000, .f32⟩ : BufTy).Contents (Elt F) → (⟨S200000, .f32⟩ : BufTy).Contents (Elt F) → (⟨S200000, .f32⟩ : BufTy).Contents (Elt F))
  :: StableHlo.binary main_v78 main_v80 main_v113 (mulf : (⟨S200000, .f32⟩ : BufTy).Contents (Elt F) → (⟨S200000, .f32⟩ : BufTy).Contents (Elt F) → (⟨S200000, .f32⟩ : BufTy).Contents (Elt F))
  :: StableHlo.binary main_v112 main_v113 main_v114 (addf : (⟨S200000, .f32⟩ : BufTy).Contents (Elt F) → (⟨S200000, .f32⟩ : BufTy).Contents (Elt F) → (⟨S200000, .f32⟩ : BufTy).Contents (Elt F))
  :: [])

/-- Piece 4: 7 operations, in group 2 and printed window 2. -/
abbrev pc4 : List (HloOp τ sig (Elt F)) :=
  [ StableHlo.unary main_v93 main_v115 (broadcastInDim S200000x1 ![0] bcast_S200000_S200000x1_0 : (⟨S200000, .f32⟩ : BufTy).Contents (Elt F) → (⟨S200000x1, .f32⟩ : BufTy).Contents (Elt F)),
    StableHlo.unary main_v100 main_v116 (broadcastInDim S200000x1 ![0] bcast_S200000_S200000x1_0 : (⟨S200000, .f32⟩ : BufTy).Contents (Elt F) → (⟨S200000x1, .f32⟩ : BufTy).Contents (Elt F)),
    StableHlo.unary main_v107 main_v117 (broadcastInDim S200000x1 ![0] bcast_S200000_S200000x1_0 : (⟨S200000, .f32⟩ : BufTy).Contents (Elt F) → (⟨S200000x1, .f32⟩ : BufTy).Contents (Elt F)),
    StableHlo.unary main_v114 main_v118 (broadcastInDim S200000x1 ![0] bcast_S200000_S200000x1_0 : (⟨S200000, .f32⟩ : BufTy).Contents (Elt F) → (⟨S200000x1, .f32⟩ : BufTy).Contents (Elt F)),
    StableHlo.nary ![main_v115, main_v116, main_v117, main_v118] main_v119 (fun u => concatenate S200000x4 1 [⟨S200000x1, u 0⟩, ⟨S200000x1, u 1⟩, ⟨S200000x1, u 2⟩, ⟨S200000x1, u 3⟩] concatenates_S200000x1_S200000x1_S200000x1_S200000x1_S200000x4_d1),
    StableHlo.binary main_arg4 main_arg0 main_v120 ((fun a b => concatenate S10000x132 1 [⟨S10000x128, a⟩, ⟨S10000x4, b⟩] concatenates_S10000x128_S10000x4_S10000x132_d1) : (⟨S10000x128, .f32⟩ : BufTy).Contents (Elt F) → (⟨S10000x4, .f32⟩ : BufTy).Contents (Elt F) → (⟨S10000x132, .f32⟩ : BufTy).Contents (Elt F)),
    StableHlo.binary main_arg5 main_v119 main_v121 ((fun a b => concatenate S200000x132 1 [⟨S200000x128, a⟩, ⟨S200000x4, b⟩] concatenates_S200000x128_S200000x4_S200000x132_d1) : (⟨S200000x128, .f32⟩ : BufTy).Contents (Elt F) → (⟨S200000x4, .f32⟩ : BufTy).Contents (Elt F) → (⟨S200000x132, .f32⟩ : BufTy).Contents (Elt F)) ]

/-- Piece 5: 18 operations, in group 3 and printed window 2. -/
abbrev pc5 : List (HloOp τ sig (Elt F)) :=
  [ StableHlo.nullary main_c_3 (constantI S_ 32 0#32),
    StableHlo.unary main_c_3 main_v122 (broadcastInDim S200000 ![] bcast_S_S200000 : (⟨S_, .i32⟩ : BufTy).Contents (Elt F) → (⟨S200000, .i32⟩ : BufTy).Contents (Elt F)),
    StableHlo.binary main_v1 main_v122 main_v123 (cmpi .slt : (⟨S200000, .i32⟩ : BufTy).Contents (Elt F) → (⟨S200000, .i32⟩ : BufTy).Contents (Elt F) → (⟨S200000, .i1⟩ : BufTy).Contents (Elt F)),
    StableHlo.nullary main_c_4 (constantI S_ 32 10000#32),
    StableHlo.unary main_c_4 main_v124 (broadcastInDim S200000 ![] bcast_S_S200000 : (⟨S_, .i32⟩ : BufTy).Contents (Elt F) → (⟨S200000, .i32⟩ : BufTy).Contents (Elt F)),
    StableHlo.binary main_v1 main_v124 main_v125 (addi : (⟨S200000, .i32⟩ : BufTy).Contents (Elt F) → (⟨S200000, .i32⟩ : BufTy).Contents (Elt F) → (⟨S200000, .i32⟩ : BufTy).Contents (Elt F)),
    StableHlo.ternary main_v123 main_v125 main_v1 main_v126 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v126 main_v127 (broadcastInDim S200000x1 ![0] bcast_S200000_S200000x1_0 : (⟨S200000, .i32⟩ : BufTy).Contents (Elt F) → (⟨S200000x1, .i32⟩ : BufTy).Contents (Elt F)),
    StableHlo.binary main_v120 main_v127 main_v128 ((fun x i => Host.gather gather_S10000x132_S200000x1_S200000x132_1_0_n_n_0_1_1132 x i) : (⟨S10000x132, .f32⟩ : BufTy).Contents (Elt F) → (⟨S200000x1, .i32⟩ : BufTy).Contents (Elt F) → (⟨S200000x132, .f32⟩ : BufTy).Contents (Elt F)),
    StableHlo.nullary main_c_5 (constantI S_ 32 0#32),
    StableHlo.unary main_c_5 main_v129 (broadcastInDim S200000 ![] bcast_S_S200000 : (⟨S_, .i32⟩ : BufTy).Contents (Elt F) → (⟨S200000, .i32⟩ : BufTy).Contents (Elt F)),
    StableHlo.binary main_v3 main_v129 main_v130 (cmpi .slt : (⟨S200000, .i32⟩ : BufTy).Contents (Elt F) → (⟨S200000, .i32⟩ : BufTy).Contents (Elt F) → (⟨S200000, .i1⟩ : BufTy).Contents (Elt F)),
    StableHlo.nullary main_c_6 (constantI S_ 32 10000#32),
    StableHlo.unary main_c_6 main_v131 (broadcastInDim S200000 ![] bcast_S_S200000 : (⟨S_, .i32⟩ : BufTy).Contents (Elt F) → (⟨S200000, .i32⟩ : BufTy).Contents (Elt F)),
    StableHlo.binary main_v3 main_v131 main_v132 (addi : (⟨S200000, .i32⟩ : BufTy).Contents (Elt F) → (⟨S200000, .i32⟩ : BufTy).Contents (Elt F) → (⟨S200000, .i32⟩ : BufTy).Contents (Elt F)),
    StableHlo.ternary main_v130 main_v132 main_v3 main_v133 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v133 main_v134 (broadcastInDim S200000x1 ![0] bcast_S200000_S200000x1_0 : (⟨S200000, .i32⟩ : BufTy).Contents (Elt F) → (⟨S200000x1, .i32⟩ : BufTy).Contents (Elt F)),
    StableHlo.binary main_v120 main_v134 main_v135 ((fun x i => Host.gather gather_S10000x132_S200000x1_S200000x132_1_0_n_n_0_1_1132 x i) : (⟨S10000x132, .f32⟩ : BufTy).Contents (Elt F) → (⟨S200000x1, .i32⟩ : BufTy).Contents (Elt F) → (⟨S200000x132, .f32⟩ : BufTy).Contents (Elt F)) ]

/-- Piece 6: 5 operations, in group 4 and printed window 2. -/
abbrev pc6 : List (HloOp τ sig (Elt F)) :=
  [ StableHlo.nary ![main_v128, main_v135, main_v121] main_v136 (fun u => concatenate S200000x396 1 [⟨S200000x132, u 0⟩, ⟨S200000x132, u 1⟩, ⟨S200000x132, u 2⟩] concatenates_S200000x132_S200000x132_S200000x132_S200000x396_d1),
    StableHlo.binary main_v136 main_arg6 main_v137 ((fun l r => Host.dotGeneral dot_S200000x396_S396x128_S200000x128_1_0_0_1_n_n none l r) : (⟨S200000x396, .f32⟩ : BufTy).Contents (Elt F) → (⟨S396x128, .f32⟩ : BufTy).Contents (Elt F) → (⟨S200000x128, .f32⟩ : BufTy).Contents (Elt F)),
    StableHlo.unary main_arg7 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S200000x128 ![0, 1] bcast_S1x128_S200000x128_0_1 : (⟨S1x128, .f32⟩ : BufTy).Contents (Elt F) → (⟨S200000x128, .f32⟩ : BufTy).Contents (Elt F)),
    StableHlo.binary main_v137 main_v139 main_v140 (addf : (⟨S200000x128, .f32⟩ : BufTy).Contents (Elt F) → (⟨S200000x128, .f32⟩ : BufTy).Contents (Elt F) → (⟨S200000x128, .f32⟩ : BufTy).Contents (Elt F)) ]

/-- Piece 7: 18 operations, in group 5 and printed window 2. -/
abbrev pc7 : List (HloOp τ sig (Elt F)) :=
  [ StableHlo.nullary main_cst_7 (constant S_ .f32 0x00000000#32),
    StableHlo.unary main_cst_7 main_v141 (broadcastInDim S10000x128 ![] bcast_S_S10000x128 : (⟨S_, .f32⟩ : BufTy).Contents (Elt F) → (⟨S10000x128, .f32⟩ : BufTy).Contents (Elt F)),
    StableHlo.unary main_v1 main_v142 (broadcastInDim S200000x1 ![0] bcast_S200000_S200000x1_0 : (⟨S200000, .i32⟩ : BufTy).Contents (Elt F) → (⟨S200000x1, .i32⟩ : BufTy).Contents (Elt F)),
    StableHlo.ternary main_v141 main_v142 main_v140 main_v143 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    StableHlo.nullary main_cst_8 (constant S_ .f32 0x3F800000#32),
    StableHlo.unary main_cst_8 main_v144 (broadcastInDim S200000x1 ![] bcast_S_S200000x1 : (⟨S_, .f32⟩ : BufTy).Contents (Elt F) → (⟨S200000x1, .f32⟩ : BufTy).Contents (Elt F)),
    StableHlo.nullary main_cst_9 (constant S_ .f32 0x00000000#32),
    StableHlo.unary main_cst_9 main_v145 (broadcastInDim S10000x1 ![] bcast_S_S10000x1 : (⟨S_, .f32⟩ : BufTy).Contents (Elt F) → (⟨S10000x1, .f32⟩ : BufTy).Contents (Elt F)),
    StableHlo.unary main_v1 main_v146 (broadcastInDim S200000x1 ![0] bcast_S200000_S200000x1_0 : (⟨S200000, .i32⟩ : BufTy).Contents (Elt F) → (⟨S200000x1, .i32⟩ : BufTy).Contents (Elt F)),
    StableHlo.ternary main_v145 main_v146 main_v144 main_v147 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    StableHlo.nullary main_cst_10 (constant S_ .f32 0x3F800000#32),
    StableHlo.unary main_cst_10 main_v148 (broadcastInDim S10000x1 ![] bcast_S_S10000x1 : (⟨S_, .f32⟩ : BufTy).Contents (Elt F) → (⟨S10000x1, .f32⟩ : BufTy).Contents (Elt F)),
    StableHlo.binary main_v147 main_v148 main_v149 (maximumf : (⟨S10000x1, .f32⟩ : BufTy).Contents (Elt F) → (⟨S10000x1, .f32⟩ : BufTy).Contents (Elt F) → (⟨S10000x1, .f32⟩ : BufTy).Contents (Elt F)),
    StableHlo.unary main_v149 main_v150 (broadcastInDim S10000x128 ![0, 1] bcast_S10000x1_S10000x128_0_1 : (⟨S10000x1, .f32⟩ : BufTy).Contents (Elt F) → (⟨S10000x128, .f32⟩ : BufTy).Contents (Elt F)),
    StableHlo.binary main_v143 main_v150 main_v151 (Host.divf : (⟨S10000x128, .f32⟩ : BufTy).Contents (Elt F) → (⟨S10000x128, .f32⟩ : BufTy).Contents (Elt F) → (⟨S10000x128, .f32⟩ : BufTy).Contents (Elt F)),
    StableHlo.TRef.nullary main_call0.cst (constant S_ .f32 0x00000000#32),
    StableHlo.TRef.unary main_call0.cst main_call0.v0 (broadcastInDim S10000x128 ![] bcast_S_S10000x128),
    StableHlo.TRef.binary (.of main_v151 : StableHlo.TRef sig ⟨S10000x128, .f32⟩) main_call0.v0 main_call0.v1 maximumf ]

/-- Piece 8: 3 operations, in group 6 and printed window 2. -/
abbrev pc8 : List (HloOp τ sig (Elt F)) :=
  [ StableHlo.TRef.nullary main_call1.cst (constant S_ .f32 0x00000000#32),
    StableHlo.TRef.unary main_call1.cst main_call1.v0 (broadcastInDim S200000x128 ![] bcast_S_S200000x128),
    StableHlo.TRef.binary (.of main_v140 : StableHlo.TRef sig ⟨S200000x128, .f32⟩) main_call1.v0 main_call1.v1 maximumf ]

/-- Piece 9: 1 operations, in group 7 and printed window 2. -/
abbrev pc9 : List (HloOp τ sig (Elt F)) :=
  [ StableHlo.binary main_v119 main_v153 main_v154 ((fun a b => concatenate S200000x132 1 [⟨S200000x4, a⟩, ⟨S200000x128, b⟩] concatenates_S200000x4_S200000x128_S200000x132_d1) : (⟨S200000x4, .f32⟩ : BufTy).Contents (Elt F) → (⟨S200000x128, .f32⟩ : BufTy).Contents (Elt F) → (⟨S200000x132, .f32⟩ : BufTy).Contents (Elt F)) ]

/-- Piece 10: 12 operations, in group 8 and printed window 2. -/
abbrev pc10 : List (HloOp τ sig (Elt F)) :=
  [ StableHlo.nullary main_c_11 (constantI S_ 32 0#32),
    StableHlo.unary main_c_11 main_v155 (broadcastInDim S200000 ![] bcast_S_S200000 : (⟨S_, .i32⟩ : BufTy).Contents (Elt F) → (⟨S200000, .i32⟩ : BufTy).Contents (Elt F)),
    StableHlo.binary main_v1 main_v155 main_v156 (cmpi .slt : (⟨S200000, .i32⟩ : BufTy).Contents (Elt F) → (⟨S200000, .i32⟩ : BufTy).Contents (Elt F) → (⟨S200000, .i1⟩ : BufTy).Contents (Elt F)),
    StableHlo.nullary main_c_12 (constantI S_ 32 10000#32),
    StableHlo.unary main_c_12 main_v157 (broadcastInDim S200000 ![] bcast_S_S200000 : (⟨S_, .i32⟩ : BufTy).Contents (Elt F) → (⟨S200000, .i32⟩ : BufTy).Contents (Elt F)),
    StableHlo.binary main_v1 main_v157 main_v158 (addi : (⟨S200000, .i32⟩ : BufTy).Contents (Elt F) → (⟨S200000, .i32⟩ : BufTy).Contents (Elt F) → (⟨S200000, .i32⟩ : BufTy).Contents (Elt F)),
    StableHlo.ternary main_v156 main_v158 main_v1 main_v159 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v159 main_v160 (broadcastInDim S200000x1 ![0] bcast_S200000_S200000x1_0 : (⟨S200000, .i32⟩ : BufTy).Contents (Elt F) → (⟨S200000x1, .i32⟩ : BufTy).Contents (Elt F)),
    StableHlo.binary main_v152 main_v160 main_v161 ((fun x i => Host.gather gather_S10000x128_S200000x1_S200000x128_1_0_n_n_0_1_1128 x i) : (⟨S10000x128, .f32⟩ : BufTy).Contents (Elt F) → (⟨S200000x1, .i32⟩ : BufTy).Contents (Elt F) → (⟨S200000x128, .f32⟩ : BufTy).Contents (Elt F)),
    StableHlo.nullary main_c_13 (constantI S_ 32 0#32),
    StableHlo.unary main_c_13 main_v162 (broadcastInDim S200000 ![] bcast_S_S200000 : (⟨S_, .i32⟩ : BufTy).Contents (Elt F) → (⟨S200000, .i32⟩ : BufTy).Contents (Elt F)),
    StableHlo.binary main_v3 main_v162 main_v163 (cmpi .slt : (⟨S200000, .i32⟩ : BufTy).Contents (Elt F) → (⟨S200000, .i32⟩ : BufTy).Contents (Elt F) → (⟨S200000, .i1⟩ : BufTy).Contents (Elt F)) ]

/-- Piece 11: 6 operations, in group 8 and printed window 3. -/
abbrev pc11 : List (HloOp τ sig (Elt F)) :=
  [ StableHlo.nullary main_c_14 (constantI S_ 32 10000#32),
    StableHlo.unary main_c_14 main_v164 (broadcastInDim S200000 ![] bcast_S_S200000 : (⟨S_, .i32⟩ : BufTy).Contents (Elt F) → (⟨S200000, .i32⟩ : BufTy).Contents (Elt F)),
    StableHlo.binary main_v3 main_v164 main_v165 (addi : (⟨S200000, .i32⟩ : BufTy).Contents (Elt F) → (⟨S200000, .i32⟩ : BufTy).Contents (Elt F) → (⟨S200000, .i32⟩ : BufTy).Contents (Elt F)),
    StableHlo.ternary main_v163 main_v165 main_v3 main_v166 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v166 main_v167 (broadcastInDim S200000x1 ![0] bcast_S200000_S200000x1_0 : (⟨S200000, .i32⟩ : BufTy).Contents (Elt F) → (⟨S200000x1, .i32⟩ : BufTy).Contents (Elt F)),
    StableHlo.binary main_v152 main_v167 main_v168 ((fun x i => Host.gather gather_S10000x128_S200000x1_S200000x128_1_0_n_n_0_1_1128 x i) : (⟨S10000x128, .f32⟩ : BufTy).Contents (Elt F) → (⟨S200000x1, .i32⟩ : BufTy).Contents (Elt F) → (⟨S200000x128, .f32⟩ : BufTy).Contents (Elt F)) ]

/-- Piece 12: 5 operations, in group 9 and printed window 3. -/
abbrev pc12 : List (HloOp τ sig (Elt F)) :=
  [ StableHlo.nary ![main_v161, main_v168, main_v154] main_v169 (fun u => concatenate S200000x388 1 [⟨S200000x128, u 0⟩, ⟨S200000x128, u 1⟩, ⟨S200000x132, u 2⟩] concatenates_S200000x128_S200000x128_S200000x132_S200000x388_d1),
    StableHlo.binary main_v169 main_arg8 main_v170 ((fun l r => Host.dotGeneral dot_S200000x388_S388x128_S200000x128_1_0_0_1_n_n none l r) : (⟨S200000x388, .f32⟩ : BufTy).Contents (Elt F) → (⟨S388x128, .f32⟩ : BufTy).Contents (Elt F) → (⟨S200000x128, .f32⟩ : BufTy).Contents (Elt F)),
    StableHlo.unary main_arg9 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S200000x128 ![0, 1] bcast_S1x128_S200000x128_0_1 : (⟨S1x128, .f32⟩ : BufTy).Contents (Elt F) → (⟨S200000x128, .f32⟩ : BufTy).Contents (Elt F)),
    StableHlo.binary main_v170 main_v172 main_v173 (addf : (⟨S200000x128, .f32⟩ : BufTy).Contents (Elt F) → (⟨S200000x128, .f32⟩ : BufTy).Contents (Elt F) → (⟨S200000x128, .f32⟩ : BufTy).Contents (Elt F)) ]

/-- Piece 13: 18 operations, in group 10 and printed window 3. -/
abbrev pc13 : List (HloOp τ sig (Elt F)) :=
  [ StableHlo.nullary main_cst_15 (constant S_ .f32 0x00000000#32),
    StableHlo.unary main_cst_15 main_v174 (broadcastInDim S10000x128 ![] bcast_S_S10000x128 : (⟨S_, .f32⟩ : BufTy).Contents (Elt F) → (⟨S10000x128, .f32⟩ : BufTy).Contents (Elt F)),
    StableHlo.unary main_v1 main_v175 (broadcastInDim S200000x1 ![0] bcast_S200000_S200000x1_0 : (⟨S200000, .i32⟩ : BufTy).Contents (Elt F) → (⟨S200000x1, .i32⟩ : BufTy).Contents (Elt F)),
    StableHlo.ternary main_v174 main_v175 main_v173 main_v176 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    StableHlo.nullary main_cst_16 (constant S_ .f32 0x3F800000#32),
    StableHlo.unary main_cst_16 main_v177 (broadcastInDim S200000x1 ![] bcast_S_S200000x1 : (⟨S_, .f32⟩ : BufTy).Contents (Elt F) → (⟨S200000x1, .f32⟩ : BufTy).Contents (Elt F)),
    StableHlo.nullary main_cst_17 (constant S_ .f32 0x00000000#32),
    StableHlo.unary main_cst_17 main_v178 (broadcastInDim S10000x1 ![] bcast_S_S10000x1 : (⟨S_, .f32⟩ : BufTy).Contents (Elt F) → (⟨S10000x1, .f32⟩ : BufTy).Contents (Elt F)),
    StableHlo.unary main_v1 main_v179 (broadcastInDim S200000x1 ![0] bcast_S200000_S200000x1_0 : (⟨S200000, .i32⟩ : BufTy).Contents (Elt F) → (⟨S200000x1, .i32⟩ : BufTy).Contents (Elt F)),
    StableHlo.ternary main_v178 main_v179 main_v177 main_v180 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    StableHlo.nullary main_cst_18 (constant S_ .f32 0x3F800000#32),
    StableHlo.unary main_cst_18 main_v181 (broadcastInDim S10000x1 ![] bcast_S_S10000x1 : (⟨S_, .f32⟩ : BufTy).Contents (Elt F) → (⟨S10000x1, .f32⟩ : BufTy).Contents (Elt F)),
    StableHlo.binary main_v180 main_v181 main_v182 (maximumf : (⟨S10000x1, .f32⟩ : BufTy).Contents (Elt F) → (⟨S10000x1, .f32⟩ : BufTy).Contents (Elt F) → (⟨S10000x1, .f32⟩ : BufTy).Contents (Elt F)),
    StableHlo.unary main_v182 main_v183 (broadcastInDim S10000x128 ![0, 1] bcast_S10000x1_S10000x128_0_1 : (⟨S10000x1, .f32⟩ : BufTy).Contents (Elt F) → (⟨S10000x128, .f32⟩ : BufTy).Contents (Elt F)),
    StableHlo.binary main_v176 main_v183 main_v184 (Host.divf : (⟨S10000x128, .f32⟩ : BufTy).Contents (Elt F) → (⟨S10000x128, .f32⟩ : BufTy).Contents (Elt F) → (⟨S10000x128, .f32⟩ : BufTy).Contents (Elt F)),
    StableHlo.TRef.nullary main_call2.cst (constant S_ .f32 0x00000000#32),
    StableHlo.TRef.unary main_call2.cst main_call2.v0 (broadcastInDim S10000x128 ![] bcast_S_S10000x128),
    StableHlo.TRef.binary (.of main_v184 : StableHlo.TRef sig ⟨S10000x128, .f32⟩) main_call2.v0 main_call2.v1 maximumf ]

/-- Piece 14: 3 operations, in group 11 and printed window 3. -/
abbrev pc14 : List (HloOp τ sig (Elt F)) :=
  [ StableHlo.TRef.nullary main_call3.cst (constant S_ .f32 0x00000000#32),
    StableHlo.TRef.unary main_call3.cst main_call3.v0 (broadcastInDim S200000x128 ![] bcast_S_S200000x128),
    StableHlo.TRef.binary (.of main_v173 : StableHlo.TRef sig ⟨S200000x128, .f32⟩) main_call3.v0 main_call3.v1 maximumf ]

/-- Piece 15: 2 operations, in group 12 and printed window 3. -/
abbrev pc15 : List (HloOp τ sig (Elt F)) :=
  [ StableHlo.binary main_v185 main_v152 main_v187 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.binary main_v186 main_v153 main_v188 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)) ]

/-- Piece 16: 18 operations, in group 13 and printed window 3. -/
abbrev pc16 : List (HloOp τ sig (Elt F)) :=
  [ StableHlo.nullary main_c_19 (constantI S_ 32 0#32),
    StableHlo.unary main_c_19 main_v189 (broadcastInDim S200000 ![] bcast_S_S200000 : (⟨S_, .i32⟩ : BufTy).Contents (Elt F) → (⟨S200000, .i32⟩ : BufTy).Contents (Elt F)),
    StableHlo.binary main_v1 main_v189 main_v190 (cmpi .slt : (⟨S200000, .i32⟩ : BufTy).Contents (Elt F) → (⟨S200000, .i32⟩ : BufTy).Contents (Elt F) → (⟨S200000, .i1⟩ : BufTy).Contents (Elt F)),
    StableHlo.nullary main_c_20 (constantI S_ 32 10000#32),
    StableHlo.unary main_c_20 main_v191 (broadcastInDim S200000 ![] bcast_S_S200000 : (⟨S_, .i32⟩ : BufTy).Contents (Elt F) → (⟨S200000, .i32⟩ : BufTy).Contents (Elt F)),
    StableHlo.binary main_v1 main_v191 main_v192 (addi : (⟨S200000, .i32⟩ : BufTy).Contents (Elt F) → (⟨S200000, .i32⟩ : BufTy).Contents (Elt F) → (⟨S200000, .i32⟩ : BufTy).Contents (Elt F)),
    StableHlo.ternary main_v190 main_v192 main_v1 main_v193 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v193 main_v194 (broadcastInDim S200000x1 ![0] bcast_S200000_S200000x1_0 : (⟨S200000, .i32⟩ : BufTy).Contents (Elt F) → (⟨S200000x1, .i32⟩ : BufTy).Contents (Elt F)),
    StableHlo.binary main_v187 main_v194 main_v195 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)),
    StableHlo.nullary main_c_21 (constantI S_ 32 0#32),
    StableHlo.unary main_c_21 main_v196 (broadcastInDim S200000 ![] bcast_S_S200000 : (⟨S_, .i32⟩ : BufTy).Contents (Elt F) → (⟨S200000, .i32⟩ : BufTy).Contents (Elt F)),
    StableHlo.binary main_v3 main_v196 main_v197 (cmpi .slt : (⟨S200000, .i32⟩ : BufTy).Contents (Elt F) → (⟨S200000, .i32⟩ : BufTy).Contents (Elt F) → (⟨S200000, .i1⟩ : BufTy).Contents (Elt F)),
    StableHlo.nullary main_c_22 (constantI S_ 32 10000#32),
    StableHlo.unary main_c_22 main_v198 (broadcastInDim S200000 ![] bcast_S_S200000 : (⟨S_, .i32⟩ : BufTy).Contents (Elt F) → (⟨S200000, .i32⟩ : BufTy).Contents (Elt F)),
    StableHlo.binary main_v3 main_v198 main_v199 (addi : (⟨S200000, .i32⟩ : BufTy).Contents (Elt F) → (⟨S200000, .i32⟩ : BufTy).Contents (Elt F) → (⟨S200000, .i32⟩ : BufTy).Contents (Elt F)),
    StableHlo.ternary main_v197 main_v199 main_v3 main_v200 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v200 main_v201 (broadcastInDim S200000x1 ![0] bcast_S200000_S200000x1_0 : (⟨S200000, .i32⟩ : BufTy).Contents (Elt F) → (⟨S200000x1, .i32⟩ : BufTy).Contents (Elt F)),
    StableHlo.binary main_v187 main_v201 main_v202 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)) ]

/-- Piece 17: 5 operations, in group 14 and printed window 3. -/
abbrev pc17 : List (HloOp τ sig (Elt F)) :=
  [ StableHlo.nary ![main_v195, main_v202, main_v188] main_v203 (fun u => concatenate S200000x768 1 [⟨S200000x256, u 0⟩, ⟨S200000x256, u 1⟩, ⟨S200000x256, u 2⟩] concatenates_S200000x256_S200000x256_S200000x256_S200000x768_d1),
    StableHlo.binary main_v203 main_arg10 main_v204 ((fun l r => Host.dotGeneral dot_S200000x768_S768x128_S200000x128_1_0_0_1_n_n none l r) : (⟨S200000x768, .f32⟩ : BufTy).Contents (Elt F) → (⟨S768x128, .f32⟩ : BufTy).Contents (Elt F) → (⟨S200000x128, .f32⟩ : BufTy).Contents (Elt F)),
    StableHlo.unary main_arg11 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S200000x128 ![0, 1] bcast_S1x128_S200000x128_0_1 : (⟨S1x128, .f32⟩ : BufTy).Contents (Elt F) → (⟨S200000x128, .f32⟩ : BufTy).Contents (Elt F)),
    StableHlo.binary main_v204 main_v206 main_v207 (addf : (⟨S200000x128, .f32⟩ : BufTy).Contents (Elt F) → (⟨S200000x128, .f32⟩ : BufTy).Contents (Elt F) → (⟨S200000x128, .f32⟩ : BufTy).Contents (Elt F)) ]

/-- Piece 18: 7 operations, in group 15 and printed window 3. -/
abbrev pc18 : List (HloOp τ sig (Elt F)) :=
  [ StableHlo.nullary main_cst_23 (constant S_ .f32 0x00000000#32),
    StableHlo.unary main_cst_23 main_v208 (broadcastInDim S10000x128 ![] bcast_S_S10000x128 : (⟨S_, .f32⟩ : BufTy).Contents (Elt F) → (⟨S10000x128, .f32⟩ : BufTy).Contents (Elt F)),
    StableHlo.unary main_v1 main_v209 (broadcastInDim S200000x1 ![0] bcast_S200000_S200000x1_0 : (⟨S200000, .i32⟩ : BufTy).Contents (Elt F) → (⟨S200000x1, .i32⟩ : BufTy).Contents (Elt F)),
    StableHlo.ternary main_v208 main_v209 main_v207 main_v210 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    StableHlo.nullary main_cst_24 (constant S_ .f32 0x3F800000#32),
    StableHlo.unary main_cst_24 main_v211 (broadcastInDim S200000x1 ![] bcast_S_S200000x1 : (⟨S_, .f32⟩ : BufTy).Contents (Elt F) → (⟨S200000x1, .f32⟩ : BufTy).Contents (Elt F)),
    StableHlo.nullary main_cst_25 (constant S_ .f32 0x00000000#32) ]

/-- Piece 19: 11 operations, in group 15 and printed window 4. -/
abbrev pc19 : List (HloOp τ sig (Elt F)) :=
  [ StableHlo.unary main_cst_25 main_v212 (broadcastInDim S10000x1 ![] bcast_S_S10000x1 : (⟨S_, .f32⟩ : BufTy).Contents (Elt F) → (⟨S10000x1, .f32⟩ : BufTy).Contents (Elt F)),
    StableHlo.unary main_v1 main_v213 (broadcastInDim S200000x1 ![0] bcast_S200000_S200000x1_0 : (⟨S200000, .i32⟩ : BufTy).Contents (Elt F) → (⟨S200000x1, .i32⟩ : BufTy).Contents (Elt F)),
    StableHlo.ternary main_v212 main_v213 main_v211 main_v214 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    StableHlo.nullary main_cst_26 (constant S_ .f32 0x3F800000#32),
    StableHlo.unary main_cst_26 main_v215 (broadcastInDim S10000x1 ![] bcast_S_S10000x1 : (⟨S_, .f32⟩ : BufTy).Contents (Elt F) → (⟨S10000x1, .f32⟩ : BufTy).Contents (Elt F)),
    StableHlo.binary main_v214 main_v215 main_v216 (maximumf : (⟨S10000x1, .f32⟩ : BufTy).Contents (Elt F) → (⟨S10000x1, .f32⟩ : BufTy).Contents (Elt F) → (⟨S10000x1, .f32⟩ : BufTy).Contents (Elt F)),
    StableHlo.unary main_v216 main_v217 (broadcastInDim S10000x128 ![0, 1] bcast_S10000x1_S10000x128_0_1 : (⟨S10000x1, .f32⟩ : BufTy).Contents (Elt F) → (⟨S10000x128, .f32⟩ : BufTy).Contents (Elt F)),
    StableHlo.binary main_v210 main_v217 main_v218 (Host.divf : (⟨S10000x128, .f32⟩ : BufTy).Contents (Elt F) → (⟨S10000x128, .f32⟩ : BufTy).Contents (Elt F) → (⟨S10000x128, .f32⟩ : BufTy).Contents (Elt F)),
    StableHlo.TRef.nullary main_call4.cst (constant S_ .f32 0x00000000#32),
    StableHlo.TRef.unary main_call4.cst main_call4.v0 (broadcastInDim S10000x128 ![] bcast_S_S10000x128),
    StableHlo.TRef.binary (.of main_v218 : StableHlo.TRef sig ⟨S10000x128, .f32⟩) main_call4.v0 main_call4.v1 maximumf ]

/-- Piece 20: 3 operations, in group 16 and printed window 4. -/
abbrev pc20 : List (HloOp τ sig (Elt F)) :=
  [ StableHlo.TRef.nullary main_call5.cst (constant S_ .f32 0x00000000#32),
    StableHlo.TRef.unary main_call5.cst main_call5.v0 (broadcastInDim S200000x128 ![] bcast_S_S200000x128),
    StableHlo.TRef.binary (.of main_v207 : StableHlo.TRef sig ⟨S200000x128, .f32⟩) main_call5.v0 main_call5.v1 maximumf ]

/-- Piece 21: 2 operations, in group 17 and printed window 4. -/
abbrev pc21 : List (HloOp τ sig (Elt F)) :=
  [ StableHlo.binary main_v219 main_v185 main_v221 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.binary main_v220 main_v186 main_v222 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)) ]

/-- Piece 22: 18 operations, in group 18 and printed window 4. -/
abbrev pc22 : List (HloOp τ sig (Elt F)) :=
  [ StableHlo.nullary main_c_27 (constantI S_ 32 0#32),
    StableHlo.unary main_c_27 main_v223 (broadcastInDim S200000 ![] bcast_S_S200000 : (⟨S_, .i32⟩ : BufTy).Contents (Elt F) → (⟨S200000, .i32⟩ : BufTy).Contents (Elt F)),
    StableHlo.binary main_v1 main_v223 main_v224 (cmpi .slt : (⟨S200000, .i32⟩ : BufTy).Contents (Elt F) → (⟨S200000, .i32⟩ : BufTy).Contents (Elt F) → (⟨S200000, .i1⟩ : BufTy).Contents (Elt F)),
    StableHlo.nullary main_c_28 (constantI S_ 32 10000#32),
    StableHlo.unary main_c_28 main_v225 (broadcastInDim S200000 ![] bcast_S_S200000 : (⟨S_, .i32⟩ : BufTy).Contents (Elt F) → (⟨S200000, .i32⟩ : BufTy).Contents (Elt F)),
    StableHlo.binary main_v1 main_v225 main_v226 (addi : (⟨S200000, .i32⟩ : BufTy).Contents (Elt F) → (⟨S200000, .i32⟩ : BufTy).Contents (Elt F) → (⟨S200000, .i32⟩ : BufTy).Contents (Elt F)),
    StableHlo.ternary main_v224 main_v226 main_v1 main_v227 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v227 main_v228 (broadcastInDim S200000x1 ![0] bcast_S200000_S200000x1_0 : (⟨S200000, .i32⟩ : BufTy).Contents (Elt F) → (⟨S200000x1, .i32⟩ : BufTy).Contents (Elt F)),
    StableHlo.binary main_v221 main_v228 main_v229 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)),
    StableHlo.nullary main_c_29 (constantI S_ 32 0#32),
    StableHlo.unary main_c_29 main_v230 (broadcastInDim S200000 ![] bcast_S_S200000 : (⟨S_, .i32⟩ : BufTy).Contents (Elt F) → (⟨S200000, .i32⟩ : BufTy).Contents (Elt F)),
    StableHlo.binary main_v3 main_v230 main_v231 (cmpi .slt : (⟨S200000, .i32⟩ : BufTy).Contents (Elt F) → (⟨S200000, .i32⟩ : BufTy).Contents (Elt F) → (⟨S200000, .i1⟩ : BufTy).Contents (Elt F)),
    StableHlo.nullary main_c_30 (constantI S_ 32 10000#32),
    StableHlo.unary main_c_30 main_v232 (broadcastInDim S200000 ![] bcast_S_S200000 : (⟨S_, .i32⟩ : BufTy).Contents (Elt F) → (⟨S200000, .i32⟩ : BufTy).Contents (Elt F)),
    StableHlo.binary main_v3 main_v232 main_v233 (addi : (⟨S200000, .i32⟩ : BufTy).Contents (Elt F) → (⟨S200000, .i32⟩ : BufTy).Contents (Elt F) → (⟨S200000, .i32⟩ : BufTy).Contents (Elt F)),
    StableHlo.ternary main_v231 main_v233 main_v3 main_v234 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v234 main_v235 (broadcastInDim S200000x1 ![0] bcast_S200000_S200000x1_0 : (⟨S200000, .i32⟩ : BufTy).Contents (Elt F) → (⟨S200000x1, .i32⟩ : BufTy).Contents (Elt F)),
    StableHlo.binary main_v221 main_v235 main_v236 ((fun x i => Host.gather gather_S10000x256_S200000x1_S200000x256_1_0_n_n_0_1_1256 x i) : (⟨S10000x256, .f32⟩ : BufTy).Contents (Elt F) → (⟨S200000x1, .i32⟩ : BufTy).Contents (Elt F) → (⟨S200000x256, .f32⟩ : BufTy).Contents (Elt F)) ]

/-- Piece 23: 5 operations, in group 19 and printed window 4. -/
abbrev pc23 : List (HloOp τ sig (Elt F)) :=
  [ StableHlo.nary ![main_v229, main_v236, main_v222] main_v237 (fun u => concatenate S200000x768 1 [⟨S200000x256, u 0⟩, ⟨S200000x256, u 1⟩, ⟨S200000x256, u 2⟩] concatenates_S200000x256_S200000x256_S200000x256_S200000x768_d1),
    StableHlo.binary main_v237 main_arg12 main_v238 ((fun l r => Host.dotGeneral dot_S200000x768_S768x128_S200000x128_1_0_0_1_n_n none l r) : (⟨S200000x768, .f32⟩ : BufTy).Contents (Elt F) → (⟨S768x128, .f32⟩ : BufTy).Contents (Elt F) → (⟨S200000x128, .f32⟩ : BufTy).Contents (Elt F)),
    StableHlo.unary main_arg13 main_v239 (broadcastInDim S1x128 ![1] bcast_S128_S1x128_1 : (⟨S128, .f32⟩ : BufTy).Contents (Elt F) → (⟨S1x128, .f32⟩ : BufTy).Contents (Elt F)),
    StableHlo.unary main_v239 main_v240 (broadcastInDim S200000x128 ![0, 1] bcast_S1x128_S200000x128_0_1 : (⟨S1x128, .f32⟩ : BufTy).Contents (Elt F) → (⟨S200000x128, .f32⟩ : BufTy).Contents (Elt F)),
    StableHlo.binary main_v238 main_v240 main_v241 (addf : (⟨S200000x128, .f32⟩ : BufTy).Contents (Elt F) → (⟨S200000x128, .f32⟩ : BufTy).Contents (Elt F) → (⟨S200000x128, .f32⟩ : BufTy).Contents (Elt F)) ]

/-- Piece 24: 18 operations, in group 20 and printed window 4. -/
abbrev pc24 : List (HloOp τ sig (Elt F)) :=
  [ StableHlo.nullary main_cst_31 (constant S_ .f32 0x00000000#32),
    StableHlo.unary main_cst_31 main_v242 (broadcastInDim S10000x128 ![] bcast_S_S10000x128 : (⟨S_, .f32⟩ : BufTy).Contents (Elt F) → (⟨S10000x128, .f32⟩ : BufTy).Contents (Elt F)),
    StableHlo.unary main_v1 main_v243 (broadcastInDim S200000x1 ![0] bcast_S200000_S200000x1_0 : (⟨S200000, .i32⟩ : BufTy).Contents (Elt F) → (⟨S200000x1, .i32⟩ : BufTy).Contents (Elt F)),
    StableHlo.ternary main_v242 main_v243 main_v241 main_v244 ((fun x i u => Host.scatterAdd scatter_S10000x128_S200000x1_S200000x128_1_0_0_1 x i u) : (⟨S10000x128, .f32⟩ : BufTy).Contents (Elt F) → (⟨S200000x1, .i32⟩ : BufTy).Contents (Elt F) → (⟨S200000x128, .f32⟩ : BufTy).Contents (Elt F) → (⟨S10000x128, .f32⟩ : BufTy).Contents (Elt F)),
    StableHlo.nullary main_cst_32 (constant S_ .f32 0x3F800000#32),
    StableHlo.unary main_cst_32 main_v245 (broadcastInDim S200000x1 ![] bcast_S_S200000x1 : (⟨S_, .f32⟩ : BufTy).Contents (Elt F) → (⟨S200000x1, .f32⟩ : BufTy).Contents (Elt F)),
    StableHlo.nullary main_cst_33 (constant S_ .f32 0x00000000#32),
    StableHlo.unary main_cst_33 main_v246 (broadcastInDim S10000x1 ![] bcast_S_S10000x1 : (⟨S_, .f32⟩ : BufTy).Contents (Elt F) → (⟨S10000x1, .f32⟩ : BufTy).Contents (Elt F)),
    StableHlo.unary main_v1 main_v247 (broadcastInDim S200000x1 ![0] bcast_S200000_S200000x1_0 : (⟨S200000, .i32⟩ : BufTy).Contents (Elt F) → (⟨S200000x1, .i32⟩ : BufTy).Contents (Elt F)),
    StableHlo.ternary main_v246 main_v247 main_v245 main_v248 ((fun x i u => Host.scatterAdd scatter_S10000x1_S200000x1_S200000x1_1_0_0_1 x i u) : (⟨S10000x1, .f32⟩ : BufTy).Contents (Elt F) → (⟨S200000x1, .i32⟩ : BufTy).Contents (Elt F) → (⟨S200000x1, .f32⟩ : BufTy).Contents (Elt F) → (⟨S10000x1, .f32⟩ : BufTy).Contents (Elt F)),
    StableHlo.nullary main_cst_34 (constant S_ .f32 0x3F800000#32),
    StableHlo.unary main_cst_34 main_v249 (broadcastInDim S10000x1 ![] bcast_S_S10000x1 : (⟨S_, .f32⟩ : BufTy).Contents (Elt F) → (⟨S10000x1, .f32⟩ : BufTy).Contents (Elt F)),
    StableHlo.binary main_v248 main_v249 main_v250 (maximumf : (⟨S10000x1, .f32⟩ : BufTy).Contents (Elt F) → (⟨S10000x1, .f32⟩ : BufTy).Contents (Elt F) → (⟨S10000x1, .f32⟩ : BufTy).Contents (Elt F)),
    StableHlo.unary main_v250 main_v251 (broadcastInDim S10000x128 ![0, 1] bcast_S10000x1_S10000x128_0_1 : (⟨S10000x1, .f32⟩ : BufTy).Contents (Elt F) → (⟨S10000x128, .f32⟩ : BufTy).Contents (Elt F)),
    StableHlo.binary main_v244 main_v251 main_v252 (Host.divf : (⟨S10000x128, .f32⟩ : BufTy).Contents (Elt F) → (⟨S10000x128, .f32⟩ : BufTy).Contents (Elt F) → (⟨S10000x128, .f32⟩ : BufTy).Contents (Elt F)),
    StableHlo.TRef.nullary main_call6.cst (constant S_ .f32 0x00000000#32),
    StableHlo.TRef.unary main_call6.cst main_call6.v0 (broadcastInDim S10000x128 ![] bcast_S_S10000x128),
    StableHlo.TRef.binary (.of main_v252 : StableHlo.TRef sig ⟨S10000x128, .f32⟩) main_call6.v0 main_call6.v1 maximumf ]

/-- Piece 25: 3 operations, in group 21 and printed window 4. -/
abbrev pc25 : List (HloOp τ sig (Elt F)) :=
  [ StableHlo.TRef.nullary main_call7.cst (constant S_ .f32 0x00000000#32),
    StableHlo.TRef.unary main_call7.cst main_call7.v0 (broadcastInDim S200000x128 ![] bcast_S_S200000x128),
    StableHlo.TRef.binary (.of main_v241 : StableHlo.TRef sig ⟨S200000x128, .f32⟩) main_call7.v0 main_call7.v1 maximumf ]

/-- Piece 26: 8 operations, in group 22 and printed window 4. -/
abbrev pc26 : List (HloOp τ sig (Elt F)) :=
  [ StableHlo.binary main_v253 main_arg14 main_v255 ((fun l r => Host.dotGeneral dot_S10000x128_S128x4_S10000x4_1_0_0_1_n_n none l r) : (⟨S10000x128, .f32⟩ : BufTy).Contents (Elt F) → (⟨S128x4, .f32⟩ : BufTy).Contents (Elt F) → (⟨S10000x4, .f32⟩ : BufTy).Contents (Elt F)),
    StableHlo.unary main_arg15 main_v256 (broadcastInDim S1x4 ![1] bcast_S4_S1x4_1 : (⟨S4, .f32⟩ : BufTy).Contents (Elt F) → (⟨S1x4, .f32⟩ : BufTy).Contents (Elt F)),
    StableHlo.unary main_v256 main_v257 (broadcastInDim S10000x4 ![0, 1] bcast_S1x4_S10000x4_0_1 : (⟨S1x4, .f32⟩ : BufTy).Contents (Elt F) → (⟨S10000x4, .f32⟩ : BufTy).Contents (Elt F)),
    StableHlo.binary main_v255 main_v257 main_v258 (addf : (⟨S10000x4, .f32⟩ : BufTy).Contents (Elt F) → (⟨S10000x4, .f32⟩ : BufTy).Contents (Elt F) → (⟨S10000x4, .f32⟩ : BufTy).Contents (Elt F)),
    StableHlo.unary main_v258 main_v259 ((extractStridedSlice S10000x1 ![0, 0] · slices_S10000x4_S10000x1_0_0) : (⟨S10000x4, .f32⟩ : BufTy).Contents (Elt F) → (⟨S10000x1, .f32⟩ : BufTy).Contents (Elt F)),
    StableHlo.reshape main_v259 main_v260 rfl shapeCasts_S10000x1_S10000,
    StableHlo.unary main_v258 main_v261 ((extractStridedSlice S10000x1 ![0, 1] · slices_S10000x4_S10000x1_0_1) : (⟨S10000x4, .f32⟩ : BufTy).Contents (Elt F) → (⟨S10000x1, .f32⟩ : BufTy).Contents (Elt F)),
    StableHlo.reshape main_v261 main_v262 rfl shapeCasts_S10000x1_S10000 ]

set_option maxHeartbeats 40000000 in
/-- Piece 27: 55 operations, in group 22 and printed window 5. -/
abbrev pc27 : List (HloOp τ sig (Elt F)) :=
  ( StableHlo.unary main_v258 main_v263 ((extractStridedSlice S10000x1 ![0, 2] · slices_S10000x4_S10000x1_0_2) : (⟨S10000x4, .f32⟩ : BufTy).Contents (Elt F) → (⟨S10000x1, .f32⟩ : BufTy).Contents (Elt F))
  :: StableHlo.reshape main_v263 main_v264 rfl shapeCasts_S10000x1_S10000
  :: StableHlo.unary main_v258 main_v265 ((extractStridedSlice S10000x1 ![0, 3] · slices_S10000x4_S10000x1_0_3) : (⟨S10000x4, .f32⟩ : BufTy).Contents (Elt F) → (⟨S10000x1, .f32⟩ : BufTy).Contents (Elt F))
  :: StableHlo.reshape main_v265 main_v266 rfl shapeCasts_S10000x1_S10000
  :: StableHlo.unary main_arg0 main_v267 ((extractStridedSlice S10000x1 ![0, 0] · slices_S10000x4_S10000x1_0_0) : (⟨S10000x4, .f32⟩ : BufTy).Contents (Elt F) → (⟨S10000x1, .f32⟩ : BufTy).Contents (Elt F))
  :: StableHlo.reshape main_v267 main_v268 rfl shapeCasts_S10000x1_S10000
  :: StableHlo.unary main_arg0 main_v269 ((extractStridedSlice S10000x1 ![0, 1] · slices_S10000x4_S10000x1_0_1) : (⟨S10000x4, .f32⟩ : BufTy).Contents (Elt F) → (⟨S10000x1, .f32⟩ : BufTy).Contents (Elt F))
  :: StableHlo.reshape main_v269 main_v270 rfl shapeCasts_S10000x1_S10000
  :: StableHlo.unary main_arg0 main_v271 ((extractStridedSlice S10000x1 ![0, 2] · slices_S10000x4_S10000x1_0_2) : (⟨S10000x4, .f32⟩ : BufTy).Contents (Elt F) → (⟨S10000x1, .f32⟩ : BufTy).Contents (Elt F))
  :: StableHlo.reshape main_v271 main_v272 rfl shapeCasts_S10000x1_S10000
  :: StableHlo.unary main_arg0 main_v273 ((extractStridedSlice S10000x1 ![0, 3] · slices_S10000x4_S10000x1_0_3) : (⟨S10000x4, .f32⟩ : BufTy).Contents (Elt F) → (⟨S10000x1, .f32⟩ : BufTy).Contents (Elt F))
  :: StableHlo.reshape main_v273 main_v274 rfl shapeCasts_S10000x1_S10000
  :: StableHlo.binary main_v260 main_v268 main_v275 (mulf : (⟨S10000, .f32⟩ : BufTy).Contents (Elt F) → (⟨S10000, .f32⟩ : BufTy).Contents (Elt F) → (⟨S10000, .f32⟩ : BufTy).Contents (Elt F))
  :: StableHlo.binary main_v262 main_v270 main_v276 (mulf : (⟨S10000, .f32⟩ : BufTy).Contents (Elt F) → (⟨S10000, .f32⟩ : BufTy).Contents (Elt F) → (⟨S10000, .f32⟩ : BufTy).Contents (Elt F))
  :: StableHlo.binary main_v275 main_v276 main_v277 (subf : (⟨S10000, .f32⟩ : BufTy).Contents (Elt F) → (⟨S10000, .f32⟩ : BufTy).Contents (Elt F) → (⟨S10000, .f32⟩ : BufTy).Contents (Elt F))
  :: StableHlo.binary main_v264 main_v272 main_v278 (mulf : (⟨S10000, .f32⟩ : BufTy).Contents (Elt F) → (⟨S10000, .f32⟩ : BufTy).Contents (Elt F) → (⟨S10000, .f32⟩ : BufTy).Contents (Elt F))
  :: StableHlo.binary main_v277 main_v278 main_v279 (subf : (⟨S10000, .f32⟩ : BufTy).Contents (Elt F) → (⟨S10000, .f32⟩ : BufTy).Contents (Elt F) → (⟨S10000, .f32⟩ : BufTy).Contents (Elt F))
  :: StableHlo.binary main_v266 main_v274 main_v280 (mulf : (⟨S10000, .f32⟩ : BufTy).Contents (Elt F) → (⟨S10000, .f32⟩ : BufTy).Contents (Elt F) → (⟨S10000, .f32⟩ : BufTy).Contents (Elt F))
  :: StableHlo.binary main_v279 main_v280 main_v281 (subf : (⟨S10000, .f32⟩ : BufTy).Contents (Elt F) → (⟨S10000, .f32⟩ : BufTy).Contents (Elt F) → (⟨S10000, .f32⟩ : BufTy).Contents (Elt F))
  :: StableHlo.binary main_v260 main_v270 main_v282 (mulf : (⟨S10000, .f32⟩ : BufTy).Contents (Elt F) → (⟨S10000, .f32⟩ : BufTy).Contents (Elt F) → (⟨S10000, .f32⟩ : BufTy).Contents (Elt F))
  :: StableHlo.binary main_v262 main_v268 main_v283 (mulf : (⟨S10000, .f32⟩ : BufTy).Contents (Elt F) → (⟨S10000, .f32⟩ : BufTy).Contents (Elt F) → (⟨S10000, .f32⟩ : BufTy).Contents (Elt F))
  :: StableHlo.binary main_v282 main_v283 main_v284 (addf : (⟨S10000, .f32⟩ : BufTy).Contents (Elt F) → (⟨S10000, .f32⟩ : BufTy).Contents (Elt F) → (⟨S10000, .f32⟩ : BufTy).Contents (Elt F))
  :: StableHlo.binary main_v264 main_v274 main_v285 (mulf : (⟨S10000, .f32⟩ : BufTy).Contents (Elt F) → (⟨S10000, .f32⟩ : BufTy).Contents (Elt F) → (⟨S10000, .f32⟩ : BufTy).Contents (Elt F))
  :: StableHlo.binary main_v284 main_v285 main_v286 (addf : (⟨S10000, .f32⟩ : BufTy).Contents (Elt F) → (⟨S10000, .f32⟩ : BufTy).Contents (Elt F) → (⟨S10000, .f32⟩ : BufTy).Contents (Elt F))
  :: StableHlo.binary main_v266 main_v272 main_v287 (mulf : (⟨S10000, .f32⟩ : BufTy).Contents (Elt F) → (⟨S10000, .f32⟩ : BufTy).Contents (Elt F) → (⟨S10000, .f32⟩ : BufTy).Contents (Elt F))
  :: StableHlo.binary main_v286 main_v287 main_v288 (subf : (⟨S10000, .f32⟩ : BufTy).Contents (Elt F) → (⟨S10000, .f32⟩ : BufTy).Contents (Elt F) → (⟨S10000, .f32⟩ : BufTy).Contents (Elt F))
  :: StableHlo.binary main_v260 main_v272 main_v289 (mulf : (⟨S10000, .f32⟩ : BufTy).Contents (Elt F) → (⟨S10000, .f32⟩ : BufTy).Contents (Elt F) → (⟨S10000, .f32⟩ : BufTy).Contents (Elt F))
  :: StableHlo.binary main_v262 main_v274 main_v290 (mulf : (⟨S10000, .f32⟩ : BufTy).Contents (Elt F) → (⟨S10000, .f32⟩ : BufTy).Contents (Elt F) → (⟨S10000, .f32⟩ : BufTy).Contents (Elt F))
  :: StableHlo.binary main_v289 main_v290 main_v291 (subf : (⟨S10000, .f32⟩ : BufTy).Contents (Elt F) → (⟨S10000, .f32⟩ : BufTy).Contents (Elt F) → (⟨S10000, .f32⟩ : BufTy).Contents (Elt F))
  :: StableHlo.binary main_v264 main_v268 main_v292 (mulf : (⟨S10000, .f32⟩ : BufTy).Contents (Elt F) → (⟨S10000, .f32⟩ : BufTy).Contents (Elt F) → (⟨S10000, .f32⟩ : BufTy).Contents (Elt F))
  :: StableHlo.binary main_v291 main_v292 main_v293 (addf : (⟨S10000, .f32⟩ : BufTy).Contents (Elt F) → (⟨S10000, .f32⟩ : BufTy).Contents (Elt F) → (⟨S10000, .f32⟩ : BufTy).Contents (Elt F))
  :: StableHlo.binary main_v266 main_v270 main_v294 (mulf : (⟨S10000, .f32⟩ : BufTy).Contents (Elt F) → (⟨S10000, .f32⟩ : BufTy).Contents (Elt F) → (⟨S10000, .f32⟩ : BufTy).Contents (Elt F))
  :: StableHlo.binary main_v293 main_v294 main_v295 (addf : (⟨S10000, .f32⟩ : BufTy).Contents (Elt F) → (⟨S10000, .f32⟩ : BufTy).Contents (Elt F) → (⟨S10000, .f32⟩ : BufTy).Contents (Elt F))
  :: StableHlo.binary main_v260 main_v274 main_v296 (mulf : (⟨S10000, .f32⟩ : BufTy).Contents (Elt F) → (⟨S10000, .f32⟩ : BufTy).Contents (Elt F) → (⟨S10000, .f32⟩ : BufTy).Contents (Elt F))
  :: StableHlo.binary main_v262 main_v272 main_v297 (mulf : (⟨S10000, .f32⟩ : BufTy).Contents (Elt F) → (⟨S10000, .f32⟩ : BufTy).Contents (Elt F) → (⟨S10000, .f32⟩ : BufTy).Contents (Elt F))
  :: StableHlo.binary main_v296 main_v297 main_v298 (addf : (⟨S10000, .f32⟩ : BufTy).Contents (Elt F) → (⟨S10000, .f32⟩ : BufTy).Contents (Elt F) → (⟨S10000, .f32⟩ : BufTy).Contents (Elt F))
  :: StableHlo.binary main_v264 main_v270 main_v299 (mulf : (⟨S10000, .f32⟩ : BufTy).Contents (Elt F) → (⟨S10000, .f32⟩ : BufTy).Contents (Elt F) → (⟨S10000, .f32⟩ : BufTy).Contents (Elt F))
  :: StableHlo.binary main_v298 main_v299 main_v300 (subf : (⟨S10000, .f32⟩ : BufTy).Contents (Elt F) → (⟨S10000, .f32⟩ : BufTy).Contents (Elt F) → (⟨S10000, .f32⟩ : BufTy).Contents (Elt F))
  :: StableHlo.binary main_v266 main_v268 main_v301 (mulf : (⟨S10000, .f32⟩ : BufTy).Contents (Elt F) → (⟨S10000, .f32⟩ : BufTy).Contents (Elt F) → (⟨S10000, .f32⟩ : BufTy).Contents (Elt F))
  :: StableHlo.binary main_v300 main_v301 main_v302 (addf : (⟨S10000, .f32⟩ : BufTy).Contents (Elt F) → (⟨S10000, .f32⟩ : BufTy).Contents (Elt F) → (⟨S10000, .f32⟩ : BufTy).Contents (Elt F))
  :: StableHlo.unary main_v281 main_v303 (broadcastInDim S10000x1 ![0] bcast_S10000_S10000x1_0 : (⟨S10000, .f32⟩ : BufTy).Contents (Elt F) → (⟨S10000x1, .f32⟩ : BufTy).Contents (Elt F))
  :: StableHlo.unary main_v288 main_v304 (broadcastInDim S10000x1 ![0] bcast_S10000_S10000x1_0 : (⟨S10000, .f32⟩ : BufTy).Contents (Elt F) → (⟨S10000x1, .f32⟩ : BufTy).Contents (Elt F))
  :: StableHlo.unary main_v295 main_v305 (broadcastInDim S10000x1 ![0] bcast_S10000_S10000x1_0 : (⟨S10000, .f32⟩ : BufTy).Contents (Elt F) → (⟨S10000x1, .f32⟩ : BufTy).Contents (Elt F))
  :: StableHlo.unary main_v302 main_v306 (broadcastInDim S10000x1 ![0] bcast_S10000_S10000x1_0 : (⟨S10000, .f32⟩ : BufTy).Contents (Elt F) → (⟨S10000x1, .f32⟩ : BufTy).Contents (Elt F))
  :: StableHlo.nary ![main_v303, main_v304, main_v305, main_v306] main_v307 (fun u => concatenate S10000x4 1 [⟨S10000x1, u 0⟩, ⟨S10000x1, u 1⟩, ⟨S10000x1, u 2⟩, ⟨S10000x1, u 3⟩] concatenates_S10000x1_S10000x1_S10000x1_S10000x1_S10000x4_d1)
  :: StableHlo.TRef.binary (.of main_v307 : StableHlo.TRef sig ⟨S10000x4, .f32⟩) (.of main_v307 : StableHlo.TRef sig ⟨S10000x4, .f32⟩) main_call8.v0 mulf
  :: StableHlo.TRef.nullary main_call8.cst (constant S_ .f32 0x00000000#32)
  :: StableHlo.TRef.binary main_call8.v0 main_call8.cst main_call8.v1 (fun x v => Host.reduceAdd x v reducesTo_S10000x4_S10000_d1 h_S_)
  :: StableHlo.TRef.unary main_call8.v1 main_call8.v2 (broadcastInDim S10000x1 ![0] bcast_S10000_S10000x1_0)
  :: StableHlo.TRef.unary main_call8.v2 main_call8.v3 Host.sqrt
  :: StableHlo.nullary main_cst_35 (constant S_ .f32 0x2B8CBCCC#32)
  :: StableHlo.unary main_cst_35 main_v309 (broadcastInDim S10000x1 ![] bcast_S_S10000x1 : (⟨S_, .f32⟩ : BufTy).Contents (Elt F) → (⟨S10000x1, .f32⟩ : BufTy).Contents (Elt F))
  :: StableHlo.binary main_v308 main_v309 main_v310 (maximumf : (⟨S10000x1, .f32⟩ : BufTy).Contents (Elt F) → (⟨S10000x1, .f32⟩ : BufTy).Contents (Elt F) → (⟨S10000x1, .f32⟩ : BufTy).Contents (Elt F))
  :: StableHlo.unary main_v310 main_v311 (broadcastInDim S10000x4 ![0, 1] bcast_S10000x1_S10000x4_0_1 : (⟨S10000x1, .f32⟩ : BufTy).Contents (Elt F) → (⟨S10000x4, .f32⟩ : BufTy).Contents (Elt F))
  :: StableHlo.binary main_v307 main_v311 main_v312 (Host.divf : (⟨S10000x4, .f32⟩ : BufTy).Contents (Elt F) → (⟨S10000x4, .f32⟩ : BufTy).Contents (Elt F) → (⟨S10000x4, .f32⟩ : BufTy).Contents (Elt F))
  :: [])

/-- Piece 28: 9 operations, in group 23 and printed window 5. -/
abbrev pc28 : List (HloOp τ sig (Elt F)) :=
  [ StableHlo.nullary main_c_36 (constantI S_ 32 0#32),
    StableHlo.unary main_c_36 main_v313 (broadcastInDim S200000 ![] bcast_S_S200000 : (⟨S_, .i32⟩ : BufTy).Contents (Elt F) → (⟨S200000, .i32⟩ : BufTy).Contents (Elt F)),
    StableHlo.binary main_v3 main_v313 main_v314 (cmpi .slt : (⟨S200000, .i32⟩ : BufTy).Contents (Elt F) → (⟨S200000, .i32⟩ : BufTy).Contents (Elt F) → (⟨S200000, .i1⟩ : BufTy).Contents (Elt F)),
    StableHlo.nullary main_c_37 (constantI S_ 32 10000#32),
    StableHlo.unary main_c_37 main_v315 (broadcastInDim S200000 ![] bcast_S_S200000 : (⟨S_, .i32⟩ : BufTy).Contents (Elt F) → (⟨S200000, .i32⟩ : BufTy).Contents (Elt F)),
    StableHlo.binary main_v3 main_v315 main_v316 (addi : (⟨S200000, .i32⟩ : BufTy).Contents (Elt F) → (⟨S200000, .i32⟩ : BufTy).Contents (Elt F) → (⟨S200000, .i32⟩ : BufTy).Contents (Elt F)),
    StableHlo.ternary main_v314 main_v316 main_v3 main_v317 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v317 main_v318 (broadcastInDim S200000x1 ![0] bcast_S200000_S200000x1_0 : (⟨S200000, .i32⟩ : BufTy).Contents (Elt F) → (⟨S200000x1, .i32⟩ : BufTy).Contents (Elt F)),
    StableHlo.binary main_arg2 main_v318 main_v319 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F)) ]

set_option maxHeartbeats 40000000 in
/-- Piece 29: 60 operations, in group 23 and printed window 6. -/
abbrev pc29 : List (HloOp τ sig (Elt F)) :=
  ( StableHlo.nullary main_c_38 (constantI S_ 32 0#32)
  :: StableHlo.unary main_c_38 main_v320 (broadcastInDim S200000 ![] bcast_S_S200000 : (⟨S_, .i32⟩ : BufTy).Contents (Elt F) → (⟨S200000, .i32⟩ : BufTy).Contents (Elt F))
  :: StableHlo.binary main_v1 main_v320 main_v321 (cmpi .slt : (⟨S200000, .i32⟩ : BufTy).Contents (Elt F) → (⟨S200000, .i32⟩ : BufTy).Contents (Elt F) → (⟨S200000, .i1⟩ : BufTy).Contents (Elt F))
  :: StableHlo.nullary main_c_39 (constantI S_ 32 10000#32)
  :: StableHlo.unary main_c_39 main_v322 (broadcastInDim S200000 ![] bcast_S_S200000 : (⟨S_, .i32⟩ : BufTy).Contents (Elt F) → (⟨S200000, .i32⟩ : BufTy).Contents (Elt F))
  :: StableHlo.binary main_v1 main_v322 main_v323 (addi : (⟨S200000, .i32⟩ : BufTy).Contents (Elt F) → (⟨S200000, .i32⟩ : BufTy).Contents (Elt F) → (⟨S200000, .i32⟩ : BufTy).Contents (Elt F))
  :: StableHlo.ternary main_v321 main_v323 main_v1 main_v324 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v324 main_v325 (broadcastInDim S200000x1 ![0] bcast_S200000_S200000x1_0 : (⟨S200000, .i32⟩ : BufTy).Contents (Elt F) → (⟨S200000x1, .i32⟩ : BufTy).Contents (Elt F))
  :: StableHlo.binary main_arg2 main_v325 main_v326 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.unary main_v326 main_v327 ((extractStridedSlice S200000x1 ![0, 0] · slices_S200000x4_S200000x1_0_0) : (⟨S200000x4, .f32⟩ : BufTy).Contents (Elt F) → (⟨S200000x1, .f32⟩ : BufTy).Contents (Elt F))
  :: StableHlo.unary main_v326 main_v328 ((extractStridedSlice S200000x3 ![0, 1] · slices_S200000x4_S200000x3_0_1) : (⟨S200000x4, .f32⟩ : BufTy).Contents (Elt F) → (⟨S200000x3, .f32⟩ : BufTy).Contents (Elt F))
  :: StableHlo.unary main_v328 main_v329 (Host.negf : (⟨S200000x3, .f32⟩ : BufTy).Contents (Elt F) → (⟨S200000x3, .f32⟩ : BufTy).Contents (Elt F))
  :: StableHlo.binary main_v327 main_v329 main_v330 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F))
  :: StableHlo.unary main_v319 main_v331 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v331 main_v332 rfl shapeCasts_S200000x1_S200000
  :: StableHlo.unary main_v319 main_v333 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v333 main_v334 rfl shapeCasts_S200000x1_S200000
  :: StableHlo.unary main_v319 main_v335 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v335 main_v336 rfl shapeCasts_S200000x1_S200000
  :: StableHlo.unary main_v319 main_v337 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v337 main_v338 rfl shapeCasts_S200000x1_S200000
  :: StableHlo.unary main_v330 main_v339 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v339 main_v340 rfl shapeCasts_S200000x1_S200000
  :: StableHlo.unary main_v330 main_v341 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v341 main_v342 rfl shapeCasts_S200000x1_S200000
  :: StableHlo.unary main_v330 main_v343 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v343 main_v344 rfl shapeCasts_S200000x1_S200000
  :: StableHlo.unary main_v330 main_v345 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v345 main_v346 rfl shapeCasts_S200000x1_S200000
  :: StableHlo.binary main_v332 main_v340 main_v347 (mulf : (⟨S200000, .f32⟩ : BufTy).Contents (Elt F) → (⟨S200000, .f32⟩ : BufTy).Contents (Elt F) → (⟨S200000, .f32⟩ : BufTy).Contents (Elt F))
  :: StableHlo.binary main_v334 main_v342 main_v348 (mulf : (⟨S200000, .f32⟩ : BufTy).Contents (Elt F) → (⟨S200000, .f32⟩ : BufTy).Contents (Elt F) → (⟨S200000, .f32⟩ : BufTy).Contents (Elt F))
  :: StableHlo.binary main_v347 main_v348 main_v349 (subf : (⟨S200000, .f32⟩ : BufTy).Contents (Elt F) → (⟨S200000, .f32⟩ : BufTy).Contents (Elt F) → (⟨S200000, .f32⟩ : BufTy).Contents (Elt F))
  :: StableHlo.binary main_v336 main_v344 main_v350 (mulf : (⟨S200000, .f32⟩ : BufTy).Contents (Elt F) → (⟨S200000, .f32⟩ : BufTy).Contents (Elt F) → (⟨S200000, .f32⟩ : BufTy).Contents (Elt F))
  :: StableHlo.binary main_v349 main_v350 main_v351 (subf : (⟨S200000, .f32⟩ : BufTy).Contents (Elt F) → (⟨S200000, .f32⟩ : BufTy).Contents (Elt F) → (⟨S200000, .f32⟩ : BufTy).Contents (Elt F))
  :: StableHlo.binary main_v338 main_v346 main_v352 (mulf : (⟨S200000, .f32⟩ : BufTy).Contents (Elt F) → (⟨S200000, .f32⟩ : BufTy).Contents (Elt F) → (⟨S200000, .f32⟩ : BufTy).Contents (Elt F))
  :: StableHlo.binary main_v351 main_v352 main_v353 (subf : (⟨S200000, .f32⟩ : BufTy).Contents (Elt F) → (⟨S200000, .f32⟩ : BufTy).Contents (Elt F) → (⟨S200000, .f32⟩ : BufTy).Contents (Elt F))
  :: StableHlo.binary main_v332 main_v342 main_v354 (mulf : (⟨S200000, .f32⟩ : BufTy).Contents (Elt F) → (⟨S200000, .f32⟩ : BufTy).Contents (Elt F) → (⟨S200000, .f32⟩ : BufTy).Contents (Elt F))
  :: StableHlo.binary main_v334 main_v340 main_v355 (mulf : (⟨S200000, .f32⟩ : BufTy).Contents (Elt F) → (⟨S200000, .f32⟩ : BufTy).Contents (Elt F) → (⟨S200000, .f32⟩ : BufTy).Contents (Elt F))
  :: StableHlo.binary main_v354 main_v355 main_v356 (addf : (⟨S200000, .f32⟩ : BufTy).Contents (Elt F) → (⟨S200000, .f32⟩ : BufTy).Contents (Elt F) → (⟨S200000, .f32⟩ : BufTy).Contents (Elt F))
  :: StableHlo.binary main_v336 main_v346 main_v357 (mulf : (⟨S200000, .f32⟩ : BufTy).Contents (Elt F) → (⟨S200000, .f32⟩ : BufTy).Contents (Elt F) → (⟨S200000, .f32⟩ : BufTy).Contents (Elt F))
  :: StableHlo.binary main_v356 main_v357 main_v358 (addf : (⟨S200000, .f32⟩ : BufTy).Contents (Elt F) → (⟨S200000, .f32⟩ : BufTy).Contents (Elt F) → (⟨S200000, .f32⟩ : BufTy).Contents (Elt F))
  :: StableHlo.binary main_v338 main_v344 main_v359 (mulf : (⟨S200000, .f32⟩ : BufTy).Contents (Elt F) → (⟨S200000, .f32⟩ : BufTy).Contents (Elt F) → (⟨S200000, .f32⟩ : BufTy).Contents (Elt F))
  :: StableHlo.binary main_v358 main_v359 main_v360 (subf : (⟨S200000, .f32⟩ : BufTy).Contents (Elt F) → (⟨S200000, .f32⟩ : BufTy).Contents (Elt F) → (⟨S200000, .f32⟩ : BufTy).Contents (Elt F))
  :: StableHlo.binary main_v332 main_v344 main_v361 (mulf : (⟨S200000, .f32⟩ : BufTy).Contents (Elt F) → (⟨S200000, .f32⟩ : BufTy).Contents (Elt F) → (⟨S200000, .f32⟩ : BufTy).Contents (Elt F))
  :: StableHlo.binary main_v334 main_v346 main_v362 (mulf : (⟨S200000, .f32⟩ : BufTy).Contents (Elt F) → (⟨S200000, .f32⟩ : BufTy).Contents (Elt F) → (⟨S200000, .f32⟩ : BufTy).Contents (Elt F))
  :: StableHlo.binary main_v361 main_v362 main_v363 (subf : (⟨S200000, .f32⟩ : BufTy).Contents (Elt F) → (⟨S200000, .f32⟩ : BufTy).Contents (Elt F) → (⟨S200000, .f32⟩ : BufTy).Contents (Elt F))
  :: StableHlo.binary main_v336 main_v340 main_v364 (mulf : (⟨S200000, .f32⟩ : BufTy).Contents (Elt F) → (⟨S200000, .f32⟩ : BufTy).Contents (Elt F) → (⟨S200000, .f32⟩ : BufTy).Contents (Elt F))
  :: StableHlo.binary main_v363 main_v364 main_v365 (addf : (⟨S200000, .f32⟩ : BufTy).Contents (Elt F) → (⟨S200000, .f32⟩ : BufTy).Contents (Elt F) → (⟨S200000, .f32⟩ : BufTy).Contents (Elt F))
  :: StableHlo.binary main_v338 main_v342 main_v366 (mulf : (⟨S200000, .f32⟩ : BufTy).Contents (Elt F) → (⟨S200000, .f32⟩ : BufTy).Contents (Elt F) → (⟨S200000, .f32⟩ : BufTy).Contents (Elt F))
  :: StableHlo.binary main_v365 main_v366 main_v367 (addf : (⟨S200000, .f32⟩ : BufTy).Contents (Elt F) → (⟨S200000, .f32⟩ : BufTy).Contents (Elt F) → (⟨S200000, .f32⟩ : BufTy).Contents (Elt F))
  :: StableHlo.binary main_v332 main_v346 main_v368 (mulf : (⟨S200000, .f32⟩ : BufTy).Contents (Elt F) → (⟨S200000, .f32⟩ : BufTy).Contents (Elt F) → (⟨S200000, .f32⟩ : BufTy).Contents (Elt F))
  :: StableHlo.binary main_v334 main_v344 main_v369 (mulf : (⟨S200000, .f32⟩ : BufTy).Contents (Elt F) → (⟨S200000, .f32⟩ : BufTy).Contents (Elt F) → (⟨S200000, .f32⟩ : BufTy).Contents (Elt F))
  :: StableHlo.binary main_v368 main_v369 main_v370 (addf : (⟨S200000, .f32⟩ : BufTy).Contents (Elt F) → (⟨S200000, .f32⟩ : BufTy).Contents (Elt F) → (⟨S200000, .f32⟩ : BufTy).Contents (Elt F))
  :: StableHlo.binary main_v336 main_v342 main_v371 (mulf : (⟨S200000, .f32⟩ : BufTy).Contents (Elt F) → (⟨S200000, .f32⟩ : BufTy).Contents (Elt F) → (⟨S200000, .f32⟩ : BufTy).Contents (Elt F))
  :: StableHlo.binary main_v370 main_v371 main_v372 (subf : (⟨S200000, .f32⟩ : BufTy).Contents (Elt F) → (⟨S200000, .f32⟩ : BufTy).Contents (Elt F) → (⟨S200000, .f32⟩ : BufTy).Contents (Elt F))
  :: StableHlo.binary main_v338 main_v340 main_v373 (mulf : (⟨S200000, .f32⟩ : BufTy).Contents (Elt F) → (⟨S200000, .f32⟩ : BufTy).Contents (Elt F) → (⟨S200000, .f32⟩ : BufTy).Contents (Elt F))
  :: StableHlo.binary main_v372 main_v373 main_v374 (addf : (⟨S200000, .f32⟩ : BufTy).Contents (Elt F) → (⟨S200000, .f32⟩ : BufTy).Contents (Elt F) → (⟨S200000, .f32⟩ : BufTy).Contents (Elt F))
  :: StableHlo.unary main_v353 main_v375 (broadcastInDim S200000x1 ![0] bcast_S200000_S200000x1_0 : (⟨S200000, .f32⟩ : BufTy).Contents (Elt F) → (⟨S200000x1, .f32⟩ : BufTy).Contents (Elt F))
  :: StableHlo.unary main_v360 main_v376 (broadcastInDim S200000x1 ![0] bcast_S200000_S200000x1_0 : (⟨S200000, .f32⟩ : BufTy).Contents (Elt F) → (⟨S200000x1, .f32⟩ : BufTy).Contents (Elt F))
  :: StableHlo.unary main_v367 main_v377 (broadcastInDim S200000x1 ![0] bcast_S200000_S200000x1_0 : (⟨S200000, .f32⟩ : BufTy).Contents (Elt F) → (⟨S200000x1, .f32⟩ : BufTy).Contents (Elt F))
  :: [])

/-- Piece 30: 2 operations, in group 23 and printed window 7. -/
abbrev pc30 : List (HloOp τ sig (Elt F)) :=
  [ StableHlo.unary main_v374 main_v378 (broadcastInDim S200000x1 ![0] bcast_S200000_S200000x1_0 : (⟨S200000, .f32⟩ : BufTy).Contents (Elt F) → (⟨S200000x1, .f32⟩ : BufTy).Contents (Elt F)),
    StableHlo.nary ![main_v375, main_v376, main_v377, main_v378] main_v379 (fun u => concatenate S200000x4 1 [⟨S200000x1, u 0⟩, ⟨S200000x1, u 1⟩, ⟨S200000x1, u 2⟩, ⟨S200000x1, u 3⟩] concatenates_S200000x1_S200000x1_S200000x1_S200000x1_S200000x4_d1) ]

set_option maxHeartbeats 40000000 in
/-- Piece 31: 58 operations, in group 24 and printed window 7. -/
abbrev pc31 : List (HloOp τ sig (Elt F)) :=
  ( StableHlo.nullary main_c_40 (constantI S_ 32 0#32)
  :: StableHlo.unary main_c_40 main_v380 (broadcastInDim S200000 ![] bcast_S_S200000 : (⟨S_, .i32⟩ : BufTy).Contents (Elt F) → (⟨S200000, .i32⟩ : BufTy).Contents (Elt F))
  :: StableHlo.binary main_v3 main_v380 main_v381 (cmpi .slt : (⟨S200000, .i32⟩ : BufTy).Contents (Elt F) → (⟨S200000, .i32⟩ : BufTy).Contents (Elt F) → (⟨S200000, .i1⟩ : BufTy).Contents (Elt F))
  :: StableHlo.nullary main_c_41 (constantI S_ 32 10000#32)
  :: StableHlo.unary main_c_41 main_v382 (broadcastInDim S200000 ![] bcast_S_S200000 : (⟨S_, .i32⟩ : BufTy).Contents (Elt F) → (⟨S200000, .i32⟩ : BufTy).Contents (Elt F))
  :: StableHlo.binary main_v3 main_v382 main_v383 (addi : (⟨S200000, .i32⟩ : BufTy).Contents (Elt F) → (⟨S200000, .i32⟩ : BufTy).Contents (Elt F) → (⟨S200000, .i32⟩ : BufTy).Contents (Elt F))
  :: StableHlo.ternary main_v381 main_v383 main_v3 main_v384 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v384 main_v385 (broadcastInDim S200000x1 ![0] bcast_S200000_S200000x1_0 : (⟨S200000, .i32⟩ : BufTy).Contents (Elt F) → (⟨S200000x1, .i32⟩ : BufTy).Contents (Elt F))
  :: StableHlo.binary main_v312 main_v385 main_v386 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.nullary main_c_42 (constantI S_ 32 0#32)
  :: StableHlo.unary main_c_42 main_v387 (broadcastInDim S200000 ![] bcast_S_S200000 : (⟨S_, .i32⟩ : BufTy).Contents (Elt F) → (⟨S200000, .i32⟩ : BufTy).Contents (Elt F))
  :: StableHlo.binary main_v1 main_v387 main_v388 (cmpi .slt : (⟨S200000, .i32⟩ : BufTy).Contents (Elt F) → (⟨S200000, .i32⟩ : BufTy).Contents (Elt F) → (⟨S200000, .i1⟩ : BufTy).Contents (Elt F))
  :: StableHlo.nullary main_c_43 (constantI S_ 32 10000#32)
  :: StableHlo.unary main_c_43 main_v389 (broadcastInDim S200000 ![] bcast_S_S200000 : (⟨S_, .i32⟩ : BufTy).Contents (Elt F) → (⟨S200000, .i32⟩ : BufTy).Contents (Elt F))
  :: StableHlo.binary main_v1 main_v389 main_v390 (addi : (⟨S200000, .i32⟩ : BufTy).Contents (Elt F) → (⟨S200000, .i32⟩ : BufTy).Contents (Elt F) → (⟨S200000, .i32⟩ : BufTy).Contents (Elt F))
  :: StableHlo.ternary main_v388 main_v390 main_v1 main_v391 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v391 main_v392 (broadcastInDim S200000x1 ![0] bcast_S200000_S200000x1_0 : (⟨S200000, .i32⟩ : BufTy).Contents (Elt F) → (⟨S200000x1, .i32⟩ : BufTy).Contents (Elt F))
  :: StableHlo.binary main_v312 main_v392 main_v393 ((fun x i => Host.gather gather_S10000x4_S200000x1_S200000x4_1_0_n_n_0_1_14 x i) : (⟨S10000x4, .f32⟩ : BufTy).Contents (Elt F) → (⟨S200000x1, .i32⟩ : BufTy).Contents (Elt F) → (⟨S200000x4, .f32⟩ : BufTy).Contents (Elt F))
  :: StableHlo.unary main_v393 main_v394 ((extractStridedSlice S200000x1 ![0, 0] · slices_S200000x4_S200000x1_0_0) : (⟨S200000x4, .f32⟩ : BufTy).Contents (Elt F) → (⟨S200000x1, .f32⟩ : BufTy).Contents (Elt F))
  :: StableHlo.unary main_v393 main_v395 ((extractStridedSlice S200000x3 ![0, 1] · slices_S200000x4_S200000x3_0_1) : (⟨S200000x4, .f32⟩ : BufTy).Contents (Elt F) → (⟨S200000x3, .f32⟩ : BufTy).Contents (Elt F))
  :: StableHlo.unary main_v395 main_v396 (Host.negf : (⟨S200000x3, .f32⟩ : BufTy).Contents (Elt F) → (⟨S200000x3, .f32⟩ : BufTy).Contents (Elt F))
  :: StableHlo.binary main_v394 main_v396 main_v397 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F))
  :: StableHlo.unary main_v386 main_v398 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v398 main_v399 rfl shapeCasts_S200000x1_S200000
  :: StableHlo.unary main_v386 main_v400 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v400 main_v401 rfl shapeCasts_S200000x1_S200000
  :: StableHlo.unary main_v386 main_v402 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v402 main_v403 rfl shapeCasts_S200000x1_S200000
  :: StableHlo.unary main_v386 main_v404 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v404 main_v405 rfl shapeCasts_S200000x1_S200000
  :: StableHlo.unary main_v397 main_v406 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v406 main_v407 rfl shapeCasts_S200000x1_S200000
  :: StableHlo.unary main_v397 main_v408 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v408 main_v409 rfl shapeCasts_S200000x1_S200000
  :: StableHlo.unary main_v397 main_v410 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v410 main_v411 rfl shapeCasts_S200000x1_S200000
  :: StableHlo.unary main_v397 main_v412 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v412 main_v413 rfl shapeCasts_S200000x1_S200000
  :: StableHlo.binary main_v399 main_v407 main_v414 (mulf : (⟨S200000, .f32⟩ : BufTy).Contents (Elt F) → (⟨S200000, .f32⟩ : BufTy).Contents (Elt F) → (⟨S200000, .f32⟩ : BufTy).Contents (Elt F))
  :: StableHlo.binary main_v401 main_v409 main_v415 (mulf : (⟨S200000, .f32⟩ : BufTy).Contents (Elt F) → (⟨S200000, .f32⟩ : BufTy).Contents (Elt F) → (⟨S200000, .f32⟩ : BufTy).Contents (Elt F))
  :: StableHlo.binary main_v414 main_v415 main_v416 (subf : (⟨S200000, .f32⟩ : BufTy).Contents (Elt F) → (⟨S200000, .f32⟩ : BufTy).Contents (Elt F) → (⟨S200000, .f32⟩ : BufTy).Contents (Elt F))
  :: StableHlo.binary main_v403 main_v411 main_v417 (mulf : (⟨S200000, .f32⟩ : BufTy).Contents (Elt F) → (⟨S200000, .f32⟩ : BufTy).Contents (Elt F) → (⟨S200000, .f32⟩ : BufTy).Contents (Elt F))
  :: StableHlo.binary main_v416 main_v417 main_v418 (subf : (⟨S200000, .f32⟩ : BufTy).Contents (Elt F) → (⟨S200000, .f32⟩ : BufTy).Contents (Elt F) → (⟨S200000, .f32⟩ : BufTy).Contents (Elt F))
  :: StableHlo.binary main_v405 main_v413 main_v419 (mulf : (⟨S200000, .f32⟩ : BufTy).Contents (Elt F) → (⟨S200000, .f32⟩ : BufTy).Contents (Elt F) → (⟨S200000, .f32⟩ : BufTy).Contents (Elt F))
  :: StableHlo.binary main_v418 main_v419 main_v420 (subf : (⟨S200000, .f32⟩ : BufTy).Contents (Elt F) → (⟨S200000, .f32⟩ : BufTy).Contents (Elt F) → (⟨S200000, .f32⟩ : BufTy).Contents (Elt F))
  :: StableHlo.binary main_v399 main_v409 main_v421 (mulf : (⟨S200000, .f32⟩ : BufTy).Contents (Elt F) → (⟨S200000, .f32⟩ : BufTy).Contents (Elt F) → (⟨S200000, .f32⟩ : BufTy).Contents (Elt F))
  :: StableHlo.binary main_v401 main_v407 main_v422 (mulf : (⟨S200000, .f32⟩ : BufTy).Contents (Elt F) → (⟨S200000, .f32⟩ : BufTy).Contents (Elt F) → (⟨S200000, .f32⟩ : BufTy).Contents (Elt F))
  :: StableHlo.binary main_v421 main_v422 main_v423 (addf : (⟨S200000, .f32⟩ : BufTy).Contents (Elt F) → (⟨S200000, .f32⟩ : BufTy).Contents (Elt F) → (⟨S200000, .f32⟩ : BufTy).Contents (Elt F))
  :: StableHlo.binary main_v403 main_v413 main_v424 (mulf : (⟨S200000, .f32⟩ : BufTy).Contents (Elt F) → (⟨S200000, .f32⟩ : BufTy).Contents (Elt F) → (⟨S200000, .f32⟩ : BufTy).Contents (Elt F))
  :: StableHlo.binary main_v423 main_v424 main_v425 (addf : (⟨S200000, .f32⟩ : BufTy).Contents (Elt F) → (⟨S200000, .f32⟩ : BufTy).Contents (Elt F) → (⟨S200000, .f32⟩ : BufTy).Contents (Elt F))
  :: StableHlo.binary main_v405 main_v411 main_v426 (mulf : (⟨S200000, .f32⟩ : BufTy).Contents (Elt F) → (⟨S200000, .f32⟩ : BufTy).Contents (Elt F) → (⟨S200000, .f32⟩ : BufTy).Contents (Elt F))
  :: StableHlo.binary main_v425 main_v426 main_v427 (subf : (⟨S200000, .f32⟩ : BufTy).Contents (Elt F) → (⟨S200000, .f32⟩ : BufTy).Contents (Elt F) → (⟨S200000, .f32⟩ : BufTy).Contents (Elt F))
  :: StableHlo.binary main_v399 main_v411 main_v428 (mulf : (⟨S200000, .f32⟩ : BufTy).Contents (Elt F) → (⟨S200000, .f32⟩ : BufTy).Contents (Elt F) → (⟨S200000, .f32⟩ : BufTy).Contents (Elt F))
  :: StableHlo.binary main_v401 main_v413 main_v429 (mulf : (⟨S200000, .f32⟩ : BufTy).Contents (Elt F) → (⟨S200000, .f32⟩ : BufTy).Contents (Elt F) → (⟨S200000, .f32⟩ : BufTy).Contents (Elt F))
  :: StableHlo.binary main_v428 main_v429 main_v430 (subf : (⟨S200000, .f32⟩ : BufTy).Contents (Elt F) → (⟨S200000, .f32⟩ : BufTy).Contents (Elt F) → (⟨S200000, .f32⟩ : BufTy).Contents (Elt F))
  :: StableHlo.binary main_v403 main_v407 main_v431 (mulf : (⟨S200000, .f32⟩ : BufTy).Contents (Elt F) → (⟨S200000, .f32⟩ : BufTy).Contents (Elt F) → (⟨S200000, .f32⟩ : BufTy).Contents (Elt F))
  :: StableHlo.binary main_v430 main_v431 main_v432 (addf : (⟨S200000, .f32⟩ : BufTy).Contents (Elt F) → (⟨S200000, .f32⟩ : BufTy).Contents (Elt F) → (⟨S200000, .f32⟩ : BufTy).Contents (Elt F))
  :: StableHlo.binary main_v405 main_v409 main_v433 (mulf : (⟨S200000, .f32⟩ : BufTy).Contents (Elt F) → (⟨S200000, .f32⟩ : BufTy).Contents (Elt F) → (⟨S200000, .f32⟩ : BufTy).Contents (Elt F))
  :: [])

set_option maxHeartbeats 40000000 in
/-- Piece 32: 60 operations, in group 24 and printed window 8. -/
abbrev pc32 : List (HloOp τ sig (Elt F)) :=
  ( StableHlo.binary main_v432 main_v433 main_v434 (addf : (⟨S200000, .f32⟩ : BufTy).Contents (Elt F) → (⟨S200000, .f32⟩ : BufTy).Contents (Elt F) → (⟨S200000, .f32⟩ : BufTy).Contents (Elt F))
  :: StableHlo.binary main_v399 main_v413 main_v435 (mulf : (⟨S200000, .f32⟩ : BufTy).Contents (Elt F) → (⟨S200000, .f32⟩ : BufTy).Contents (Elt F) → (⟨S200000, .f32⟩ : BufTy).Contents (Elt F))
  :: StableHlo.binary main_v401 main_v411 main_v436 (mulf : (⟨S200000, .f32⟩ : BufTy).Contents (Elt F) → (⟨S200000, .f32⟩ : BufTy).Contents (Elt F) → (⟨S200000, .f32⟩ : BufTy).Contents (Elt F))
  :: StableHlo.binary main_v435 main_v436 main_v437 (addf : (⟨S200000, .f32⟩ : BufTy).Contents (Elt F) → (⟨S200000, .f32⟩ : BufTy).Contents (Elt F) → (⟨S200000, .f32⟩ : BufTy).Contents (Elt F))
  :: StableHlo.binary main_v403 main_v409 main_v438 (mulf : (⟨S200000, .f32⟩ : BufTy).Contents (Elt F) → (⟨S200000, .f32⟩ : BufTy).Contents (Elt F) → (⟨S200000, .f32⟩ : BufTy).Contents (Elt F))
  :: StableHlo.binary main_v437 main_v438 main_v439 (subf : (⟨S200000, .f32⟩ : BufTy).Contents (Elt F) → (⟨S200000, .f32⟩ : BufTy).Contents (Elt F) → (⟨S200000, .f32⟩ : BufTy).Contents (Elt F))
  :: StableHlo.binary main_v405 main_v407 main_v440 (mulf : (⟨S200000, .f32⟩ : BufTy).Contents (Elt F) → (⟨S200000, .f32⟩ : BufTy).Contents (Elt F) → (⟨S200000, .f32⟩ : BufTy).Contents (Elt F))
  :: StableHlo.binary main_v439 main_v440 main_v441 (addf : (⟨S200000, .f32⟩ : BufTy).Contents (Elt F) → (⟨S200000, .f32⟩ : BufTy).Contents (Elt F) → (⟨S200000, .f32⟩ : BufTy).Contents (Elt F))
  :: StableHlo.unary main_v420 main_v442 (broadcastInDim S200000x1 ![0] bcast_S200000_S200000x1_0 : (⟨S200000, .f32⟩ : BufTy).Contents (Elt F) → (⟨S200000x1, .f32⟩ : BufTy).Contents (Elt F))
  :: StableHlo.unary main_v427 main_v443 (broadcastInDim S200000x1 ![0] bcast_S200000_S200000x1_0 : (⟨S200000, .f32⟩ : BufTy).Contents (Elt F) → (⟨S200000x1, .f32⟩ : BufTy).Contents (Elt F))
  :: StableHlo.unary main_v434 main_v444 (broadcastInDim S200000x1 ![0] bcast_S200000_S200000x1_0 : (⟨S200000, .f32⟩ : BufTy).Contents (Elt F) → (⟨S200000x1, .f32⟩ : BufTy).Contents (Elt F))
  :: StableHlo.unary main_v441 main_v445 (broadcastInDim S200000x1 ![0] bcast_S200000_S200000x1_0 : (⟨S200000, .f32⟩ : BufTy).Contents (Elt F) → (⟨S200000x1, .f32⟩ : BufTy).Contents (Elt F))
  :: StableHlo.nary ![main_v442, main_v443, main_v444, main_v445] main_v446 (fun u => concatenate S200000x4 1 [⟨S200000x1, u 0⟩, ⟨S200000x1, u 1⟩, ⟨S200000x1, u 2⟩, ⟨S200000x1, u 3⟩] concatenates_S200000x1_S200000x1_S200000x1_S200000x1_S200000x4_d1)
  :: StableHlo.unary main_v379 main_v447 ((extractStridedSlice S200000x1 ![0, 0] · slices_S200000x4_S200000x1_0_0) : (⟨S200000x4, .f32⟩ : BufTy).Contents (Elt F) → (⟨S200000x1, .f32⟩ : BufTy).Contents (Elt F))
  :: StableHlo.unary main_v379 main_v448 ((extractStridedSlice S200000x3 ![0, 1] · slices_S200000x4_S200000x3_0_1) : (⟨S200000x4, .f32⟩ : BufTy).Contents (Elt F) → (⟨S200000x3, .f32⟩ : BufTy).Contents (Elt F))
  :: StableHlo.unary main_v448 main_v449 (Host.negf : (⟨S200000x3, .f32⟩ : BufTy).Contents (Elt F) → (⟨S200000x3, .f32⟩ : BufTy).Contents (Elt F))
  :: StableHlo.binary main_v447 main_v449 main_v450 ((fun a b => concatenate S200000x4 1 [⟨S200000x1, a⟩, ⟨S200000x3, b⟩] concatenates_S200000x1_S200000x3_S200000x4_d1) : (⟨S200000x1, .f32⟩ : BufTy).Contents (Elt F) → (⟨S200000x3, .f32⟩ : BufTy).Contents (Elt F) → (⟨S200000x4, .f32⟩ : BufTy).Contents (Elt F))
  :: StableHlo.unary main_v450 main_v451 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v451 main_v452 rfl shapeCasts_S200000x1_S200000
  :: StableHlo.unary main_v450 main_v453 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v453 main_v454 rfl shapeCasts_S200000x1_S200000
  :: StableHlo.unary main_v450 main_v455 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v455 main_v456 rfl shapeCasts_S200000x1_S200000
  :: StableHlo.unary main_v450 main_v457 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v457 main_v458 rfl shapeCasts_S200000x1_S200000
  :: StableHlo.unary main_v446 main_v459 ((extractStridedSlice S200000x1 ![0, 0] · slices_S200000x4_S200000x1_0_0) : (⟨S200000x4, .f32⟩ : BufTy).Contents (Elt F) → (⟨S200000x1, .f32⟩ : BufTy).Contents (Elt F))
  :: StableHlo.reshape main_v459 main_v460 rfl shapeCasts_S200000x1_S200000
  :: StableHlo.unary main_v446 main_v461 ((extractStridedSlice S200000x1 ![0, 1] · slices_S200000x4_S200000x1_0_1) : (⟨S200000x4, .f32⟩ : BufTy).Contents (Elt F) → (⟨S200000x1, .f32⟩ : BufTy).Contents (Elt F))
  :: StableHlo.reshape main_v461 main_v462 rfl shapeCasts_S200000x1_S200000
  :: StableHlo.unary main_v446 main_v463 ((extractStridedSlice S200000x1 ![0, 2] · slices_S200000x4_S200000x1_0_2) : (⟨S200000x4, .f32⟩ : BufTy).Contents (Elt F) → (⟨S200000x1, .f32⟩ : BufTy).Contents (Elt F))
  :: StableHlo.reshape main_v463 main_v464 rfl shapeCasts_S200000x1_S200000
  :: StableHlo.unary main_v446 main_v465 ((extractStridedSlice S200000x1 ![0, 3] · slices_S200000x4_S200000x1_0_3) : (⟨S200000x4, .f32⟩ : BufTy).Contents (Elt F) → (⟨S200000x1, .f32⟩ : BufTy).Contents (Elt F))
  :: StableHlo.reshape main_v465 main_v466 rfl shapeCasts_S200000x1_S200000
  :: StableHlo.binary main_v452 main_v460 main_v467 (mulf : (⟨S200000, .f32⟩ : BufTy).Contents (Elt F) → (⟨S200000, .f32⟩ : BufTy).Contents (Elt F) → (⟨S200000, .f32⟩ : BufTy).Contents (Elt F))
  :: StableHlo.binary main_v454 main_v462 main_v468 (mulf : (⟨S200000, .f32⟩ : BufTy).Contents (Elt F) → (⟨S200000, .f32⟩ : BufTy).Contents (Elt F) → (⟨S200000, .f32⟩ : BufTy).Contents (Elt F))
  :: StableHlo.binary main_v467 main_v468 main_v469 (subf : (⟨S200000, .f32⟩ : BufTy).Contents (Elt F) → (⟨S200000, .f32⟩ : BufTy).Contents (Elt F) → (⟨S200000, .f32⟩ : BufTy).Contents (Elt F))
  :: StableHlo.binary main_v456 main_v464 main_v470 (mulf : (⟨S200000, .f32⟩ : BufTy).Contents (Elt F) → (⟨S200000, .f32⟩ : BufTy).Contents (Elt F) → (⟨S200000, .f32⟩ : BufTy).Contents (Elt F))
  :: StableHlo.binary main_v469 main_v470 main_v471 (subf : (⟨S200000, .f32⟩ : BufTy).Contents (Elt F) → (⟨S200000, .f32⟩ : BufTy).Contents (Elt F) → (⟨S200000, .f32⟩ : BufTy).Contents (Elt F))
  :: StableHlo.binary main_v458 main_v466 main_v472 (mulf : (⟨S200000, .f32⟩ : BufTy).Contents (Elt F) → (⟨S200000, .f32⟩ : BufTy).Contents (Elt F) → (⟨S200000, .f32⟩ : BufTy).Contents (Elt F))
  :: StableHlo.binary main_v471 main_v472 main_v473 (subf : (⟨S200000, .f32⟩ : BufTy).Contents (Elt F) → (⟨S200000, .f32⟩ : BufTy).Contents (Elt F) → (⟨S200000, .f32⟩ : BufTy).Contents (Elt F))
  :: StableHlo.binary main_v452 main_v462 main_v474 (mulf : (⟨S200000, .f32⟩ : BufTy).Contents (Elt F) → (⟨S200000, .f32⟩ : BufTy).Contents (Elt F) → (⟨S200000, .f32⟩ : BufTy).Contents (Elt F))
  :: StableHlo.binary main_v454 main_v460 main_v475 (mulf : (⟨S200000, .f32⟩ : BufTy).Contents (Elt F) → (⟨S200000, .f32⟩ : BufTy).Contents (Elt F) → (⟨S200000, .f32⟩ : BufTy).Contents (Elt F))
  :: StableHlo.binary main_v474 main_v475 main_v476 (addf : (⟨S200000, .f32⟩ : BufTy).Contents (Elt F) → (⟨S200000, .f32⟩ : BufTy).Contents (Elt F) → (⟨S200000, .f32⟩ : BufTy).Contents (Elt F))
  :: StableHlo.binary main_v456 main_v466 main_v477 (mulf : (⟨S200000, .f32⟩ : BufTy).Contents (Elt F) → (⟨S200000, .f32⟩ : BufTy).Contents (Elt F) → (⟨S200000, .f32⟩ : BufTy).Contents (Elt F))
  :: StableHlo.binary main_v476 main_v477 main_v478 (addf : (⟨S200000, .f32⟩ : BufTy).Contents (Elt F) → (⟨S200000, .f32⟩ : BufTy).Contents (Elt F) → (⟨S200000, .f32⟩ : BufTy).Contents (Elt F))
  :: StableHlo.binary main_v458 main_v464 main_v479 (mulf : (⟨S200000, .f32⟩ : BufTy).Contents (Elt F) → (⟨S200000, .f32⟩ : BufTy).Contents (Elt F) → (⟨S200000, .f32⟩ : BufTy).Contents (Elt F))
  :: StableHlo.binary main_v478 main_v479 main_v480 (subf : (⟨S200000, .f32⟩ : BufTy).Contents (Elt F) → (⟨S200000, .f32⟩ : BufTy).Contents (Elt F) → (⟨S200000, .f32⟩ : BufTy).Contents (Elt F))
  :: StableHlo.binary main_v452 main_v464 main_v481 (mulf : (⟨S200000, .f32⟩ : BufTy).Contents (Elt F) → (⟨S200000, .f32⟩ : BufTy).Contents (Elt F) → (⟨S200000, .f32⟩ : BufTy).Contents (Elt F))
  :: StableHlo.binary main_v454 main_v466 main_v482 (mulf : (⟨S200000, .f32⟩ : BufTy).Contents (Elt F) → (⟨S200000, .f32⟩ : BufTy).Contents (Elt F) → (⟨S200000, .f32⟩ : BufTy).Contents (Elt F))
  :: StableHlo.binary main_v481 main_v482 main_v483 (subf : (⟨S200000, .f32⟩ : BufTy).Contents (Elt F) → (⟨S200000, .f32⟩ : BufTy).Contents (Elt F) → (⟨S200000, .f32⟩ : BufTy).Contents (Elt F))
  :: StableHlo.binary main_v456 main_v460 main_v484 (mulf : (⟨S200000, .f32⟩ : BufTy).Contents (Elt F) → (⟨S200000, .f32⟩ : BufTy).Contents (Elt F) → (⟨S200000, .f32⟩ : BufTy).Contents (Elt F))
  :: StableHlo.binary main_v483 main_v484 main_v485 (addf : (⟨S200000, .f32⟩ : BufTy).Contents (Elt F) → (⟨S200000, .f32⟩ : BufTy).Contents (Elt F) → (⟨S200000, .f32⟩ : BufTy).Contents (Elt F))
  :: StableHlo.binary main_v458 main_v462 main_v486 (mulf : (⟨S200000, .f32⟩ : BufTy).Contents (Elt F) → (⟨S200000, .f32⟩ : BufTy).Contents (Elt F) → (⟨S200000, .f32⟩ : BufTy).Contents (Elt F))
  :: StableHlo.binary main_v485 main_v486 main_v487 (addf : (⟨S200000, .f32⟩ : BufTy).Contents (Elt F) → (⟨S200000, .f32⟩ : BufTy).Contents (Elt F) → (⟨S200000, .f32⟩ : BufTy).Contents (Elt F))
  :: StableHlo.binary main_v452 main_v466 main_v488 (mulf : (⟨S200000, .f32⟩ : BufTy).Contents (Elt F) → (⟨S200000, .f32⟩ : BufTy).Contents (Elt F) → (⟨S200000, .f32⟩ : BufTy).Contents (Elt F))
  :: StableHlo.binary main_v454 main_v464 main_v489 (mulf : (⟨S200000, .f32⟩ : BufTy).Contents (Elt F) → (⟨S200000, .f32⟩ : BufTy).Contents (Elt F) → (⟨S200000, .f32⟩ : BufTy).Contents (Elt F))
  :: StableHlo.binary main_v488 main_v489 main_v490 (addf : (⟨S200000, .f32⟩ : BufTy).Contents (Elt F) → (⟨S200000, .f32⟩ : BufTy).Contents (Elt F) → (⟨S200000, .f32⟩ : BufTy).Contents (Elt F))
  :: StableHlo.binary main_v456 main_v462 main_v491 (mulf : (⟨S200000, .f32⟩ : BufTy).Contents (Elt F) → (⟨S200000, .f32⟩ : BufTy).Contents (Elt F) → (⟨S200000, .f32⟩ : BufTy).Contents (Elt F))
  :: StableHlo.binary main_v490 main_v491 main_v492 (subf : (⟨S200000, .f32⟩ : BufTy).Contents (Elt F) → (⟨S200000, .f32⟩ : BufTy).Contents (Elt F) → (⟨S200000, .f32⟩ : BufTy).Contents (Elt F))
  :: StableHlo.binary main_v458 main_v460 main_v493 (mulf : (⟨S200000, .f32⟩ : BufTy).Contents (Elt F) → (⟨S200000, .f32⟩ : BufTy).Contents (Elt F) → (⟨S200000, .f32⟩ : BufTy).Contents (Elt F))
  :: [])

/-- Piece 33: 6 operations, in group 24 and printed window 9. -/
abbrev pc33 : List (HloOp τ sig (Elt F)) :=
  [ StableHlo.binary main_v492 main_v493 main_v494 (addf : (⟨S200000, .f32⟩ : BufTy).Contents (Elt F) → (⟨S200000, .f32⟩ : BufTy).Contents (Elt F) → (⟨S200000, .f32⟩ : BufTy).Contents (Elt F)),
    StableHlo.unary main_v473 main_v495 (broadcastInDim S200000x1 ![0] bcast_S200000_S200000x1_0 : (⟨S200000, .f32⟩ : BufTy).Contents (Elt F) → (⟨S200000x1, .f32⟩ : BufTy).Contents (Elt F)),
    StableHlo.unary main_v480 main_v496 (broadcastInDim S200000x1 ![0] bcast_S200000_S200000x1_0 : (⟨S200000, .f32⟩ : BufTy).Contents (Elt F) → (⟨S200000x1, .f32⟩ : BufTy).Contents (Elt F)),
    StableHlo.unary main_v487 main_v497 (broadcastInDim S200000x1 ![0] bcast_S200000_S200000x1_0 : (⟨S200000, .f32⟩ : BufTy).Contents (Elt F) → (⟨S200000x1, .f32⟩ : BufTy).Contents (Elt F)),
    StableHlo.unary main_v494 main_v498 (broadcastInDim S200000x1 ![0] bcast_S200000_S200000x1_0 : (⟨S200000, .f32⟩ : BufTy).Contents (Elt F) → (⟨S200000x1, .f32⟩ : BufTy).Contents (Elt F)),
    StableHlo.nary ![main_v495, main_v496, main_v497, main_v498] main_v499 (fun u => concatenate S200000x4 1 [⟨S200000x1, u 0⟩, ⟨S200000x1, u 1⟩, ⟨S200000x1, u 2⟩, ⟨S200000x1, u 3⟩] concatenates_S200000x1_S200000x1_S200000x1_S200000x1_S200000x4_d1) ]

/-- Piece 34: 35 operations, in group 25 and printed window 9. -/
abbrev pc34 : List (HloOp τ sig (Elt F)) :=
  [ StableHlo.TRef.binary (.of main_v499 : StableHlo.TRef sig ⟨S200000x4, .f32⟩) (.of main_v499 : StableHlo.TRef sig ⟨S200000x4, .f32⟩) main_call9.v0 mulf,
    StableHlo.TRef.nullary main_call9.cst (constant S_ .f32 0x00000000#32),
    StableHlo.TRef.binary main_call9.v0 main_call9.cst main_call9.v1 (fun x v => Host.reduceAdd x v reducesTo_S200000x4_S200000_d1 h_S_),
    StableHlo.TRef.unary main_call9.v1 main_call9.v2 (broadcastInDim S200000x1 ![0] bcast_S200000_S200000x1_0),
    StableHlo.TRef.unary main_call9.v2 main_call9.v3 Host.sqrt,
    StableHlo.nullary main_cst_44 (constant S_ .f32 0x2B8CBCCC#32),
    StableHlo.unary main_cst_44 main_v501 (broadcastInDim S200000x1 ![] bcast_S_S200000x1 : (⟨S_, .f32⟩ : BufTy).Contents (Elt F) → (⟨S200000x1, .f32⟩ : BufTy).Contents (Elt F)),
    StableHlo.binary main_v500 main_v501 main_v502 (maximumf : (⟨S200000x1, .f32⟩ : BufTy).Contents (Elt F) → (⟨S200000x1, .f32⟩ : BufTy).Contents (Elt F) → (⟨S200000x1, .f32⟩ : BufTy).Contents (Elt F)),
    StableHlo.unary main_v502 main_v503 (broadcastInDim S200000x4 ![0, 1] bcast_S200000x1_S200000x4_0_1 : (⟨S200000x1, .f32⟩ : BufTy).Contents (Elt F) → (⟨S200000x4, .f32⟩ : BufTy).Contents (Elt F)),
    StableHlo.binary main_v499 main_v503 main_v504 (Host.divf : (⟨S200000x4, .f32⟩ : BufTy).Contents (Elt F) → (⟨S200000x4, .f32⟩ : BufTy).Contents (Elt F) → (⟨S200000x4, .f32⟩ : BufTy).Contents (Elt F)),
    StableHlo.unary main_cst main_v505 (broadcastInDim S1x4 ![1] bcast_S4_S1x4_1 : (⟨S4, .f32⟩ : BufTy).Contents (Elt F) → (⟨S1x4, .f32⟩ : BufTy).Contents (Elt F)),
    StableHlo.unary main_v505 main_v506 (broadcastInDim S200000x4 ![0, 1] bcast_S1x4_S200000x4_0_1 : (⟨S1x4, .f32⟩ : BufTy).Contents (Elt F) → (⟨S200000x4, .f32⟩ : BufTy).Contents (Elt F)),
    StableHlo.binary main_v504 main_v506 main_v507 (subf : (⟨S200000x4, .f32⟩ : BufTy).Contents (Elt F) → (⟨S200000x4, .f32⟩ : BufTy).Contents (Elt F) → (⟨S200000x4, .f32⟩ : BufTy).Contents (Elt F)),
    StableHlo.unary main_v507 main_v508 (Host.absf : (⟨S200000x4, .f32⟩ : BufTy).Contents (Elt F) → (⟨S200000x4, .f32⟩ : BufTy).Contents (Elt F)),
    StableHlo.unary main_arg3 main_v509 (broadcastInDim S1x1 ![1] bcast_S1_S1x1_1 : (⟨S1, .f32⟩ : BufTy).Contents (Elt F) → (⟨S1x1, .f32⟩ : BufTy).Contents (Elt F)),
    StableHlo.unary main_v509 main_v510 (broadcastInDim S200000x4 ![0, 1] bcast_S1x1_S200000x4_0_1 : (⟨S1x1, .f32⟩ : BufTy).Contents (Elt F) → (⟨S200000x4, .f32⟩ : BufTy).Contents (Elt F)),
    StableHlo.binary main_v508 main_v510 main_v511 (cmpf .olt : (⟨S200000x4, .f32⟩ : BufTy).Contents (Elt F) → (⟨S200000x4, .f32⟩ : BufTy).Contents (Elt F) → (⟨S200000x4, .i1⟩ : BufTy).Contents (Elt F)),
    StableHlo.nullary main_cst_45 (constant S_ .f32 0x3F000000#32),
    StableHlo.unary main_cst_45 main_v512 (broadcastInDim S200000x4 ![] bcast_S_S200000x4 : (⟨S_, .f32⟩ : BufTy).Contents (Elt F) → (⟨S200000x4, .f32⟩ : BufTy).Contents (Elt F)),
    StableHlo.binary main_v512 main_v508 main_v513 (mulf : (⟨S200000x4, .f32⟩ : BufTy).Contents (Elt F) → (⟨S200000x4, .f32⟩ : BufTy).Contents (Elt F) → (⟨S200000x4, .f32⟩ : BufTy).Contents (Elt F)),
    StableHlo.binary main_v513 main_v508 main_v514 (mulf : (⟨S200000x4, .f32⟩ : BufTy).Contents (Elt F) → (⟨S200000x4, .f32⟩ : BufTy).Contents (Elt F) → (⟨S200000x4, .f32⟩ : BufTy).Contents (Elt F)),
    StableHlo.unary main_arg3 main_v515 (broadcastInDim S1x1 ![1] bcast_S1_S1x1_1 : (⟨S1, .f32⟩ : BufTy).Contents (Elt F) → (⟨S1x1, .f32⟩ : BufTy).Contents (Elt F)),
    StableHlo.unary main_v515 main_v516 (broadcastInDim S200000x4 ![0, 1] bcast_S1x1_S200000x4_0_1 : (⟨S1x1, .f32⟩ : BufTy).Contents (Elt F) → (⟨S200000x4, .f32⟩ : BufTy).Contents (Elt F)),
    StableHlo.binary main_v514 main_v516 main_v517 (Host.divf : (⟨S200000x4, .f32⟩ : BufTy).Contents (Elt F) → (⟨S200000x4, .f32⟩ : BufTy).Contents (Elt F) → (⟨S200000x4, .f32⟩ : BufTy).Contents (Elt F)),
    StableHlo.nullary main_cst_46 (constant S_ .f32 0x3F000000#32),
    StableHlo.unary main_cst_46 main_v518 (broadcastInDim S1 ![] bcast_S_S1 : (⟨S_, .f32⟩ : BufTy).Contents (Elt F) → (⟨S1, .f32⟩ : BufTy).Contents (Elt F)),
    StableHlo.binary main_v518 main_arg3 main_v519 (mulf : (⟨S1, .f32⟩ : BufTy).Contents (Elt F) → (⟨S1, .f32⟩ : BufTy).Contents (Elt F) → (⟨S1, .f32⟩ : BufTy).Contents (Elt F)),
    StableHlo.unary main_v519 main_v520 (broadcastInDim S1x1 ![1] bcast_S1_S1x1_1 : (⟨S1, .f32⟩ : BufTy).Contents (Elt F) → (⟨S1x1, .f32⟩ : BufTy).Contents (Elt F)),
    StableHlo.unary main_v520 main_v521 (broadcastInDim S200000x4 ![0, 1] bcast_S1x1_S200000x4_0_1 : (⟨S1x1, .f32⟩ : BufTy).Contents (Elt F) → (⟨S200000x4, .f32⟩ : BufTy).Contents (Elt F)),
    StableHlo.binary main_v508 main_v521 main_v522 (subf : (⟨S200000x4, .f32⟩ : BufTy).Contents (Elt F) → (⟨S200000x4, .f32⟩ : BufTy).Contents (Elt F) → (⟨S200000x4, .f32⟩ : BufTy).Contents (Elt F)),
    StableHlo.TRef.ternary (.of main_v511 : StableHlo.TRef sig ⟨S200000x4, .i1⟩) (.of main_v517 : StableHlo.TRef sig ⟨S200000x4, .f32⟩) (.of main_v522 : StableHlo.TRef sig ⟨S200000x4, .f32⟩) main_call10.v0 select,
    StableHlo.nullary main_cst_47 (constant S_ .f32 0x00000000#32),
    StableHlo.binary main_v523 main_cst_47 main_v524 ((fun x v => Host.reduceAdd x v reducesTo_S200000x4_S_d0_1 h_S_) : (⟨S200000x4, .f32⟩ : BufTy).Contents (Elt F) → (⟨S_, .f32⟩ : BufTy).Contents (Elt F) → (⟨S_, .f32⟩ : BufTy).Contents (Elt F)),
    StableHlo.nullary main_cst_48 (constant S_ .f32 0x49435000#32),
    StableHlo.binary main_v524 main_cst_48 main_v525 (Host.divf : (⟨S_, .f32⟩ : BufTy).Contents (Elt F) → (⟨S_, .f32⟩ : BufTy).Contents (Elt F) → (⟨S_, .f32⟩ : BufTy).Contents (Elt F)) ]

/-- Piece 35: 4 operations, in group 26 and printed window 9. -/
abbrev pc35 : List (HloOp τ sig (Elt F)) :=
  [ StableHlo.binary main_v254 main_arg16 main_v526 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    StableHlo.unary main_arg17 main_v527 (broadcastInDim S1x1 ![1] bcast_S1_S1x1_1 : (⟨S1, .f32⟩ : BufTy).Contents (Elt F) → (⟨S1x1, .f32⟩ : BufTy).Contents (Elt F)),
    StableHlo.unary main_v527 main_v528 (broadcastInDim S200000x1 ![0, 1] bcast_S1x1_S200000x1_0_1 : (⟨S1x1, .f32⟩ : BufTy).Contents (Elt F) → (⟨S200000x1, .f32⟩ : BufTy).Contents (Elt F)),
    StableHlo.binary main_v526 main_v528 main_v529 (addf : (⟨S200000x1, .f32⟩ : BufTy).Contents (Elt F) → (⟨S200000x1, .f32⟩ : BufTy).Contents (Elt F) → (⟨S200000x1, .f32⟩ : BufTy).Contents (Elt F)) ]

/-- Group 1 as its pieces. -/
abbrev rsP1 : List (HloOp τ sig (Elt F)) := pc1
/-- Group 2 as its pieces. -/
abbrev rsP2 : List (HloOp τ sig (Elt F)) := pc2 ++ pc3 ++ pc4
/-- Group 3 as its pieces. -/
abbrev rsP3 : List (HloOp τ sig (Elt F)) := pc5
/-- Group 4 as its pieces. -/
abbrev rsP4 : List (HloOp τ sig (Elt F)) := pc6
/-- Group 5 as its pieces. -/
abbrev rsP5 : List (HloOp τ sig (Elt F)) := pc7
/-- Group 6 as its pieces. -/
abbrev rsP6 : List (HloOp τ sig (Elt F)) := pc8
/-- Group 7 as its pieces. -/
abbrev rsP7 : List (HloOp τ sig (Elt F)) := pc9
/-- Group 8 as its pieces. -/
abbrev rsP8 : List (HloOp τ sig (Elt F)) := pc10 ++ pc11
/-- Group 9 as its pieces. -/
abbrev rsP9 : List (HloOp τ sig (Elt F)) := pc12
/-- Group 10 as its pieces. -/
abbrev rsP10 : List (HloOp τ sig (Elt F)) := pc13
/-- Group 11 as its pieces. -/
abbrev rsP11 : List (HloOp τ sig (Elt F)) := pc14
/-- Group 12 as its pieces. -/
abbrev rsP12 : List (HloOp τ sig (Elt F)) := pc15
/-- Group 13 as its pieces. -/
abbrev rsP13 : List (HloOp τ sig (Elt F)) := pc16
/-- Group 14 as its pieces. -/
abbrev rsP14 : List (HloOp τ sig (Elt F)) := pc17
/-- Group 15 as its pieces. -/
abbrev rsP15 : List (HloOp τ sig (Elt F)) := pc18 ++ pc19
/-- Group 16 as its pieces. -/
abbrev rsP16 : List (HloOp τ sig (Elt F)) := pc20
/-- Group 17 as its pieces. -/
abbrev rsP17 : List (HloOp τ sig (Elt F)) := pc21
/-- Group 18 as its pieces. -/
abbrev rsP18 : List (HloOp τ sig (Elt F)) := pc22
/-- Group 19 as its pieces. -/
abbrev rsP19 : List (HloOp τ sig (Elt F)) := pc23
/-- Group 20 as its pieces. -/
abbrev rsP20 : List (HloOp τ sig (Elt F)) := pc24
/-- Group 21 as its pieces. -/
abbrev rsP21 : List (HloOp τ sig (Elt F)) := pc25
/-- Group 22 as its pieces. -/
abbrev rsP22 : List (HloOp τ sig (Elt F)) := pc26 ++ pc27
/-- Group 23 as its pieces. -/
abbrev rsP23 : List (HloOp τ sig (Elt F)) := pc28 ++ pc29 ++ pc30
/-- Group 24 as its pieces. -/
abbrev rsP24 : List (HloOp τ sig (Elt F)) := pc31 ++ pc32 ++ pc33
/-- Group 25 as its pieces. -/
abbrev rsP25 : List (HloOp τ sig (Elt F)) := pc34
/-- Group 26 as its pieces. -/
abbrev rsP26 : List (HloOp τ sig (Elt F)) := pc35
/-- Printed window 0 as its pieces. -/
abbrev ropsP0 : List (HloOp τ sig (Elt F)) := pc1 ++ pc2
/-- Printed window 1 as its pieces. -/
abbrev ropsP1 : List (HloOp τ sig (Elt F)) := pc3
/-- Printed window 2 as its pieces. -/
abbrev ropsP2 : List (HloOp τ sig (Elt F)) := pc4 ++ pc5 ++ pc6 ++ pc7 ++ pc8 ++ pc9 ++ pc10
/-- Printed window 3 as its pieces. -/
abbrev ropsP3 : List (HloOp τ sig (Elt F)) := pc11 ++ pc12 ++ pc13 ++ pc14 ++ pc15 ++ pc16 ++ pc17 ++ pc18
/-- Printed window 4 as its pieces. -/
abbrev ropsP4 : List (HloOp τ sig (Elt F)) := pc19 ++ pc20 ++ pc21 ++ pc22 ++ pc23 ++ pc24 ++ pc25 ++ pc26
/-- Printed window 5 as its pieces. -/
abbrev ropsP5 : List (HloOp τ sig (Elt F)) := pc27 ++ pc28
/-- Printed window 6 as its pieces. -/
abbrev ropsP6 : List (HloOp τ sig (Elt F)) := pc29
/-- Printed window 7 as its pieces. -/
abbrev ropsP7 : List (HloOp τ sig (Elt F)) := pc30 ++ pc31
/-- Printed window 8 as its pieces. -/
abbrev ropsP8 : List (HloOp τ sig (Elt F)) := pc32
/-- Printed window 9 as its pieces. -/
abbrev ropsP9 : List (HloOp τ sig (Elt F)) := pc33 ++ pc34 ++ pc35

end Cert.ReferenceIdeal.Hand

end
-- ==== Proof.RBridge.lean ====
/-
  The reference's operations, listed once by the printed windows and once by the value proof's groups, are one list:
  both partitions refine to the same 35 consecutive pieces, each window and each group is the concatenation of its
  pieces, and the two wholes then differ only in how the concatenations are bracketed.  So the run read over the
  windows' list is the run over the groups' list.
-/
import proofs.«430033_j52948356825731_1_alg».proof.Proof.RRun
import proofs.«430033_j52948356825731_1_alg».proof.Proof.RStage
import proofs.«430033_j52948356825731_1_alg».proof.Proof.RPieces

set_option maxRecDepth 65536

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Each group is the concatenation of its pieces -/

theorem rs_eq1 : (rs1 : List (HloOp τ sig (Elt F))) = rsP1 := rfl
theorem rs_eq2 : (rs2 : List (HloOp τ sig (Elt F))) = rsP2 := rfl
theorem rs_eq3 : (rs3 : List (HloOp τ sig (Elt F))) = rsP3 := rfl
theorem rs_eq4 : (rs4 : List (HloOp τ sig (Elt F))) = rsP4 := rfl
theorem rs_eq5 : (rs5 : List (HloOp τ sig (Elt F))) = rsP5 := rfl
theorem rs_eq6 : (rs6 : List (HloOp τ sig (Elt F))) = rsP6 := rfl
theorem rs_eq7 : (rs7 : List (HloOp τ sig (Elt F))) = rsP7 := rfl
theorem rs_eq8 : (rs8 : List (HloOp τ sig (Elt F))) = rsP8 := rfl
theorem rs_eq9 : (rs9 : List (HloOp τ sig (Elt F))) = rsP9 := rfl
theorem rs_eq10 : (rs10 : List (HloOp τ sig (Elt F))) = rsP10 := rfl
theorem rs_eq11 : (rs11 : List (HloOp τ sig (Elt F))) = rsP11 := rfl
theorem rs_eq12 : (rs12 : List (HloOp τ sig (Elt F))) = rsP12 := rfl
theorem rs_eq13 : (rs13 : List (HloOp τ sig (Elt F))) = rsP13 := rfl
theorem rs_eq14 : (rs14 : List (HloOp τ sig (Elt F))) = rsP14 := rfl
theorem rs_eq15 : (rs15 : List (HloOp τ sig (Elt F))) = rsP15 := rfl
theorem rs_eq16 : (rs16 : List (HloOp τ sig (Elt F))) = rsP16 := rfl
theorem rs_eq17 : (rs17 : List (HloOp τ sig (Elt F))) = rsP17 := rfl
theorem rs_eq18 : (rs18 : List (HloOp τ sig (Elt F))) = rsP18 := rfl
theorem rs_eq19 : (rs19 : List (HloOp τ sig (Elt F))) = rsP19 := rfl
theorem rs_eq20 : (rs20 : List (HloOp τ sig (Elt F))) = rsP20 := rfl
theorem rs_eq21 : (rs21 : List (HloOp τ sig (Elt F))) = rsP21 := rfl
theorem rs_eq22 : (rs22 : List (HloOp τ sig (Elt F))) = rsP22 := rfl
theorem rs_eq23 : (rs23 : List (HloOp τ sig (Elt F))) = rsP23 := rfl
theorem rs_eq24 : (rs24 : List (HloOp τ sig (Elt F))) = rsP24 := rfl
theorem rs_eq25 : (rs25 : List (HloOp τ sig (Elt F))) = rsP25 := rfl
theorem rs_eq26 : (rs26 : List (HloOp τ sig (Elt F))) = rsP26 := rfl

/-! ## Each printed window is the concatenation of its pieces -/

theorem rops_eq0 : (rops0 : List (HloOp τ sig (Elt F))) = ropsP0 := rfl
theorem rops_eq1 : (rops1 : List (HloOp τ sig (Elt F))) = ropsP1 := rfl
theorem rops_eq2 : (rops2 : List (HloOp τ sig (Elt F))) = ropsP2 := rfl
theorem rops_eq3 : (rops3 : List (HloOp τ sig (Elt F))) = ropsP3 := rfl
theorem rops_eq4 : (rops4 : List (HloOp τ sig (Elt F))) = ropsP4 := rfl
theorem rops_eq5 : (rops5 : List (HloOp τ sig (Elt F))) = ropsP5 := rfl
theorem rops_eq6 : (rops6 : List (HloOp τ sig (Elt F))) = ropsP6 := rfl
theorem rops_eq7 : (rops7 : List (HloOp τ sig (Elt F))) = ropsP7 := rfl
theorem rops_eq8 : (rops8 : List (HloOp τ sig (Elt F))) = ropsP8 := rfl
theorem rops_eq9 : (rops9 : List (HloOp τ sig (Elt F))) = ropsP9 := rfl

/-- The two listings of @main's operations are the same list. -/
theorem rops_eq_rsAll : (rops : List (HloOp τ sig (Elt F))) = rsAll := by
  unfold rops rsAll
  rw [rops_eq0, rops_eq1, rops_eq2, rops_eq3, rops_eq4, rops_eq5, rops_eq6, rops_eq7, rops_eq8, rops_eq9,
    rs_eq1, rs_eq2, rs_eq3, rs_eq4, rs_eq5, rs_eq6, rs_eq7, rs_eq8, rs_eq9, rs_eq10, rs_eq11, rs_eq12, rs_eq13, rs_eq14, rs_eq15, rs_eq16, rs_eq17, rs_eq18, rs_eq19, rs_eq20, rs_eq21, rs_eq22, rs_eq23, rs_eq24, rs_eq25, rs_eq26]
  simp only [ropsP0, ropsP1, ropsP2, ropsP3, ropsP4, ropsP5, ropsP6, ropsP7, ropsP8, ropsP9, rsP1, rsP2, rsP3, rsP4, rsP5, rsP6, rsP7, rsP8, rsP9, rsP10, rsP11, rsP12, rsP13, rsP14, rsP15, rsP16, rsP17, rsP18, rsP19, rsP20, rsP21, rsP22, rsP23, rsP24, rsP25, rsP26, List.append_assoc]

/-- The run, read over the groups' list. -/
theorem run_all' (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      r.2.mem ((c.tc : Thread nD τ).loc b) = StableHlo.after rsAll (fun b => m ((c : Dev nD), b)) (Proc.devRef .tc b)) := by
  rw [← rops_eq_rsAll]; exact run_all m ρ

theorem after_rsAll_main_arg0 (V : Valuation τ sig (Elt F)) :
    StableHlo.after rsAll V (Proc.devRef .tc main_arg0) = V (Proc.devRef .tc main_arg0) := by
  rw [← rops_eq_rsAll]; exact after_rops_main_arg0 V
theorem after_rsAll_main_arg1 (V : Valuation τ sig (Elt F)) :
    StableHlo.after rsAll V (Proc.devRef .tc main_arg1) = V (Proc.devRef .tc main_arg1) := by
  rw [← rops_eq_rsAll]; exact after_rops_main_arg1 V
theorem after_rsAll_main_arg2 (V : Valuation τ sig (Elt F)) :
    StableHlo.after rsAll V (Proc.devRef .tc main_arg2) = V (Proc.devRef .tc main_arg2) := by
  rw [← rops_eq_rsAll]; exact after_rops_main_arg2 V
theorem after_rsAll_main_arg3 (V : Valuation τ sig (Elt F)) :
    StableHlo.after rsAll V (Proc.devRef .tc main_arg3) = V (Proc.devRef .tc main_arg3) := by
  rw [← rops_eq_rsAll]; exact after_rops_main_arg3 V
theorem after_rsAll_main_arg4 (V : Valuation τ sig (Elt F)) :
    StableHlo.after rsAll V (Proc.devRef .tc main_arg4) = V (Proc.devRef .tc main_arg4) := by
  rw [← rops_eq_rsAll]; exact after_rops_main_arg4 V
theorem after_rsAll_main_arg5 (V : Valuation τ sig (Elt F)) :
    StableHlo.after rsAll V (Proc.devRef .tc main_arg5) = V (Proc.devRef .tc main_arg5) := by
  rw [← rops_eq_rsAll]; exact after_rops_main_arg5 V
theorem after_rsAll_main_arg6 (V : Valuation τ sig (Elt F)) :
    StableHlo.after rsAll V (Proc.devRef .tc main_arg6) = V (Proc.devRef .tc main_arg6) := by
  rw [← rops_eq_rsAll]; exact after_rops_main_arg6 V
theorem after_rsAll_main_arg7 (V : Valuation τ sig (Elt F)) :
    StableHlo.after rsAll V (Proc.devRef .tc main_arg7) = V (Proc.devRef .tc main_arg7) := by
  rw [← rops_eq_rsAll]; exact after_rops_main_arg7 V
theorem after_rsAll_main_arg8 (V : Valuation τ sig (Elt F)) :
    StableHlo.after rsAll V (Proc.devRef .tc main_arg8) = V (Proc.devRef .tc main_arg8) := by
  rw [← rops_eq_rsAll]; exact after_rops_main_arg8 V
theorem after_rsAll_main_arg9 (V : Valuation τ sig (Elt F)) :
    StableHlo.after rsAll V (Proc.devRef .tc main_arg9) = V (Proc.devRef .tc main_arg9) := by
  rw [← rops_eq_rsAll]; exact after_rops_main_arg9 V
theorem after_rsAll_main_arg10 (V : Valuation τ sig (Elt F)) :
    StableHlo.after rsAll V (Proc.devRef .tc main_arg10) = V (Proc.devRef .tc main_arg10) := by
  rw [← rops_eq_rsAll]; exact after_rops_main_arg10 V
theorem after_rsAll_main_arg11 (V : Valuation τ sig (Elt F)) :
    StableHlo.after rsAll V (Proc.devRef .tc main_arg11) = V (Proc.devRef .tc main_arg11) := by
  rw [← rops_eq_rsAll]; exact after_rops_main_arg11 V
theorem after_rsAll_main_arg12 (V : Valuation τ sig (Elt F)) :
    StableHlo.after rsAll V (Proc.devRef .tc main_arg12) = V (Proc.devRef .tc main_arg12) := by
  rw [← rops_eq_rsAll]; exact after_rops_main_arg12 V
theorem after_rsAll_main_arg13 (V : Valuation τ sig (Elt F)) :
    StableHlo.after rsAll V (Proc.devRef .tc main_arg13) = V (Proc.devRef .tc main_arg13) := by
  rw [← rops_eq_rsAll]; exact after_rops_main_arg13 V
theorem after_rsAll_main_arg14 (V : Valuation τ sig (Elt F)) :
    StableHlo.after rsAll V (Proc.devRef .tc main_arg14) = V (Proc.devRef .tc main_arg14) := by
  rw [← rops_eq_rsAll]; exact after_rops_main_arg14 V
theorem after_rsAll_main_arg15 (V : Valuation τ sig (Elt F)) :
    StableHlo.after rsAll V (Proc.devRef .tc main_arg15) = V (Proc.devRef .tc main_arg15) := by
  rw [← rops_eq_rsAll]; exact after_rops_main_arg15 V
theorem after_rsAll_main_arg16 (V : Valuation τ sig (Elt F)) :
    StableHlo.after rsAll V (Proc.devRef .tc main_arg16) = V (Proc.devRef .tc main_arg16) := by
  rw [← rops_eq_rsAll]; exact after_rops_main_arg16 V
theorem after_rsAll_main_arg17 (V : Valuation τ sig (Elt F)) :
    StableHlo.after rsAll V (Proc.devRef .tc main_arg17) = V (Proc.devRef .tc main_arg17) := by
  rw [← rops_eq_rsAll]; exact after_rops_main_arg17 V
theorem after_rsAll_main_arg18 (V : Valuation τ sig (Elt F)) :
    StableHlo.after rsAll V (Proc.devRef .tc main_arg18) = V (Proc.devRef .tc main_arg18) := by
  rw [← rops_eq_rsAll]; exact after_rops_main_arg18 V

end Cert.ReferenceIdeal.Hand

end
-- ==== Proof.PreRange.lean ====
/-
  FROM THE PRINTED PRECONDITION TO THE RANGE OF THE EDGE INDICES. The precondition is a conjunction, by `and`, of
  `jnp.all` tests; its last two conjuncts are `all(edge_index ≥ 0)` and `all(edge_index < 10000)`, both signed. If the
  whole conjunction is 1 then each of these two reductions is 1, so each compared element is 1, so every entry of
  `edge_index` is a 32-bit word whose signed value lies in [0, 10000) — which for a 32-bit word is the same as its
  unsigned value being below 10000.
-/
import proofs.«430033_j52948356825731_1_alg».proof.Pre_finite_inputs
import Idealize.ShloMosaic.Lib.ReduceAll

namespace Cert.Pre_finite_inputs.Hand

open Idealize.ShloMosaic Cert.Pre_finite_inputs Cert.Pre_finite_inputs.Facts

variable [Facts] {F : FTy → Type} [FloatOps F]

/-- The scalar shape has one index. -/
instance subsingleton_scalar_idx : Subsingleton S_.Idx := ⟨fun _ _ => funext fun k => k.elim0⟩

/-- A 32-bit word whose signed value is at least that of 0 and below that of 10000 has unsigned value below 10000. -/
theorem toNat_lt_of_signed_range {v : BitVec 32} (hge : (0#32 : BitVec 32).toInt ≤ v.toInt)
    (hlt : v.toInt < (10000#32 : BitVec 32).toInt) : v.toNat < 10000 := by
  have h0 : (0#32 : BitVec 32).toInt = 0 := by decide
  have h1 : (10000#32 : BitVec 32).toInt = 10000 := by decide
  rw [h0] at hge
  rw [h1] at hlt
  have hv := v.isLt
  rw [BitVec.toInt_eq_toNat_cond] at hge hlt
  split at hge <;> omega

/-- The last part of the printed precondition: if it is 1 then every entry of the index array is below 10000. -/
theorem part5_range (e : IVec S2x200000 32) (v83 : IVec S_ 1) (v84 : FVec F S1 .f32) (c32 : FVec F S_ .f32) (j : S_.Idx)
    (h : fn_part5 (F := F) e v83 v84 c32 j = 1#1) (i : S2x200000.Idx) : (e i).toNat < 10000 := by
  dsimp only [fn_part5] at h
  change IntOp.andi (IntOp.andi _ (Host.reduce IntOp.andi _ _ _ _ j)) (Host.reduce IntOp.andi _ _ _ _ j) = 1#1 at h
  obtain ⟨h92, h95⟩ := IntOp.andi_eq_one.1 h
  obtain ⟨-, h91⟩ := IntOp.andi_eq_one.1 h92
  have hge : IntOp.cmpi .sge (e i) 0#32 = 1#1 := Host.reduce_andi_all _ _ _ _ j h91 i
  have hlt : IntOp.cmpi .slt (e i) 10000#32 = 1#1 := Host.reduce_andi_all _ _ _ _ j h95 i
  exact toNat_lt_of_signed_range (IntOp.cmpi_sge.1 hge) (IntOp.cmpi_slt.1 hlt)

/-- THE RANGE FACT. If the printed precondition of the nineteen argument arrays is all ones, every entry of the last
    one — the edge indices — is below 10000 as an unsigned word (equivalently: in [0, 10000) signed). -/
theorem edge_in_range
    {a0 : FVec F S10000x4 .f32} {a1 : FVec F S200000x4 .f32} {a2 : FVec F S10000x4 .f32} {a3 : FVec F S1 .f32}
    {a4 : FVec F S10000x128 .f32} {a5 : FVec F S200000x128 .f32} {a6 : FVec F S396x128 .f32} {a7 : FVec F S128 .f32}
    {a8 : FVec F S388x128 .f32} {a9 : FVec F S128 .f32} {a10 : FVec F S768x128 .f32} {a11 : FVec F S128 .f32}
    {a12 : FVec F S768x128 .f32} {a13 : FVec F S128 .f32} {a14 : FVec F S128x4 .f32} {a15 : FVec F S4 .f32}
    {a16 : FVec F S128x1 .f32} {a17 : FVec F S1 .f32} {e : IVec S2x200000 32}
    (h : fn (F := F) a0 a1 a2 a3 a4 a5 a6 a7 a8 a9 a10 a11 a12 a13 a14 a15 a16 a17 e = (fun _ => 1#1))
    (i : S2x200000.Idx) : (e i).toNat < 10000 := by
  have hj : fn (F := F) a0 a1 a2 a3 a4 a5 a6 a7 a8 a9 a10 a11 a12 a13 a14 a15 a16 a17 e (fun k => k.elim0) = 1#1 :=
    congrFun h _
  exact part5_range e _ _ _ _ hj i

/-- A slice of an array, reshaped, has its entries among the array's: a bound on every entry of the array is a bound
    on every entry of the reshaped slice. -/
theorem slice_cast_lt {s t u : Shape} {w : Nat} (e : IVec s w) (off : Fin s.rank → Nat) (hs : s.Slices off t)
    (hc : t.ShapeCasts u) (N : Nat) (he : ∀ i, (e i).toNat < N) (j : u.Idx) :
    (shapeCast u (extractStridedSlice t off e hs) hc j).toNat < N := he _

/-- Likewise for the slice alone. -/
theorem slice_lt {s t : Shape} {w : Nat} (e : IVec s w) (off : Fin s.rank → Nat) (hs : s.Slices off t)
    (N : Nat) (he : ∀ i, (e i).toNat < N) (j : t.Idx) : (extractStridedSlice t off e hs j).toNat < N := he _

/-- THE SOURCE AND TARGET NODES. `row = edge_index[0]` and `col = edge_index[1]` — a one-row slice at row offset `r`,
    reshaped to a vector — have every entry below 10000 when the precondition is all ones. -/
theorem edge_row_in_range
    {a0 : FVec F S10000x4 .f32} {a1 : FVec F S200000x4 .f32} {a2 : FVec F S10000x4 .f32} {a3 : FVec F S1 .f32}
    {a4 : FVec F S10000x128 .f32} {a5 : FVec F S200000x128 .f32} {a6 : FVec F S396x128 .f32} {a7 : FVec F S128 .f32}
    {a8 : FVec F S388x128 .f32} {a9 : FVec F S128 .f32} {a10 : FVec F S768x128 .f32} {a11 : FVec F S128 .f32}
    {a12 : FVec F S768x128 .f32} {a13 : FVec F S128 .f32} {a14 : FVec F S128x4 .f32} {a15 : FVec F S4 .f32}
    {a16 : FVec F S128x1 .f32} {a17 : FVec F S1 .f32} {e : IVec S2x200000 32}
    (h : fn (F := F) a0 a1 a2 a3 a4 a5 a6 a7 a8 a9 a10 a11 a12 a13 a14 a15 a16 a17 e = (fun _ => 1#1))
    {t u : Shape} (off : Fin S2x200000.rank → Nat) (hs : S2x200000.Slices off t) (hc : t.ShapeCasts u) (j : u.Idx) :
    (shapeCast u (extractStridedSlice t off e hs) hc j).toNat < 10000 :=
  slice_cast_lt e off hs hc 10000 (edge_in_range h) j

/-- info: 'Cert.Pre_finite_inputs.Hand.edge_in_range' depends on axioms: [propext, Classical.choice, Quot.sound] -/
#guard_msgs (whitespace := lax) in #print axioms edge_in_range

end Cert.Pre_finite_inputs.Hand
-- ==== Proof.SpecMlp.lean ====
/-
  The dense map of one edge-convolution layer, entry by entry, over the extended reals.

  For an edge `i` the layer's input is the row-wise concatenation of three feature rows (the source node's, the
  target node's, the edge's) of widths `d1`, `d2`, `d3`; the layer multiplies it by a weight matrix with
  `d1 + d2 + d3` rows and `m` columns and adds a bias row.  Both programs compute exactly this number at every
  `(i, o)`: one as a product of a concatenated block inside a pipelined region, the other as one whole contraction
  of a concatenated array.  The second output of a layer is the positive part of the first; the last layer also maps
  that positive part through a one-column matrix.
-/
import Idealize.ShloMosaic.Lib.ValueIdx

noncomputable section

open scoped BigOperators

namespace Cert.Spec

open Idealize.ShloMosaic Idealize.ShloMosaic.ValueIdx

/-- Entry `k` of the concatenation of three rows of widths `d1`, `d2`, `d3`. -/
def cat3 {d1 d2 d3 : ℕ} (a : Fin d1 → EReal) (b : Fin d2 → EReal) (c : Fin d3 → EReal) (k : Fin (d1 + d2 + d3)) : EReal :=
  if h1 : k.val < d1 then a ⟨k.val, h1⟩
  else if h2 : k.val < d1 + d2 then b ⟨k.val - d1, by omega⟩
  else c ⟨k.val - (d1 + d2), by have := k.isLt; omega⟩

theorem cat3_left {d1 d2 d3 : ℕ} (a : Fin d1 → EReal) (b : Fin d2 → EReal) (c : Fin d3 → EReal) (k : Fin (d1 + d2 + d3))
    (h : k.val < d1) : cat3 a b c k = a ⟨k.val, h⟩ := by
  unfold cat3; rw [dif_pos h]

theorem cat3_mid {d1 d2 d3 : ℕ} (a : Fin d1 → EReal) (b : Fin d2 → EReal) (c : Fin d3 → EReal) (k : Fin (d1 + d2 + d3))
    (h1 : ¬ k.val < d1) (h2 : k.val < d1 + d2) : cat3 a b c k = b ⟨k.val - d1, by omega⟩ := by
  unfold cat3; rw [dif_neg h1, dif_pos h2]

theorem cat3_right {d1 d2 d3 : ℕ} (a : Fin d1 → EReal) (b : Fin d2 → EReal) (c : Fin d3 → EReal) (k : Fin (d1 + d2 + d3))
    (h1 : ¬ k.val < d1) (h2 : ¬ k.val < d1 + d2) :
    cat3 a b c k = c ⟨k.val - (d1 + d2), by have := k.isLt; omega⟩ := by
  unfold cat3; rw [dif_neg h1, dif_neg h2]

/-- Entry `(i, o)` of the layer's dense map: the concatenated row `i` against column `o` of the weights, plus the
    bias at `o`.  `K` is the weights' row count, `hK` says it is the three widths' sum. -/
def mlp {n d1 d2 d3 K m : ℕ} (hK : d1 + d2 + d3 = K)
    (r : (⟨2, ![n, d1]⟩ : Shape).Idx → EReal) (cl : (⟨2, ![n, d2]⟩ : Shape).Idx → EReal)
    (e : (⟨2, ![n, d3]⟩ : Shape).Idx → EReal) (W : (⟨2, ![K, m]⟩ : Shape).Idx → EReal) (b : Fin m → EReal)
    (i : Fin n) (o : Fin m) : EReal :=
  (∑ k : Fin K, cat3 (fun j => r (ix2 i j)) (fun j => cl (ix2 i j)) (fun j => e (ix2 i j)) (Fin.cast hK.symm k) * W (ix2 k o)) + b o

/-- The layer's second output: the positive part of the first. -/
def mlpPos {n d1 d2 d3 K m : ℕ} (hK : d1 + d2 + d3 = K)
    (r : (⟨2, ![n, d1]⟩ : Shape).Idx → EReal) (cl : (⟨2, ![n, d2]⟩ : Shape).Idx → EReal)
    (e : (⟨2, ![n, d3]⟩ : Shape).Idx → EReal) (W : (⟨2, ![K, m]⟩ : Shape).Idx → EReal) (b : Fin m → EReal)
    (i : Fin n) (o : Fin m) : EReal :=
  max (mlp hK r cl e W b i o) 0

/-- The last layer's third output at edge `i`: row `i` of an array against the one column of a matrix, plus a scalar. -/
def lin {n K : ℕ} (x : (⟨2, ![n, K]⟩ : Shape).Idx → EReal) (w : (⟨2, ![K, 1]⟩ : Shape).Idx → EReal) (b : EReal)
    (i : Fin n) : EReal :=
  (∑ k : Fin K, x (ix2 i k) * w (ix2 k (0 : Fin 1))) + b

end Cert.Spec

end
-- ==== Proof.Rel.lean ====
import proofs.«430033_j52948356825731_1_alg».proof.Proof.Gen.KernelIdeal.Launch
import proofs.«430033_j52948356825731_1_alg».proof.Proof.RStage
import proofs.«430033_j52948356825731_1_alg».proof.Proof.SpecMlp
import Idealize.ShloMosaic.PureOps.Ideal

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

/-- A kernel-side valuation. -/
abbrev KVal := Valuation Cert.KernelIdeal.τ Cert.KernelIdeal.sig (Elt Ideal)
/-- A reference-side valuation. -/
abbrev RVal := Valuation Cert.ReferenceIdeal.τ Cert.ReferenceIdeal.sig (Elt Ideal)

/-- The count of edges per source node, floored at one, from the source indices: the six operations of the kernel's first piece that compute it. -/
def cntOf (r : IVec Cert.KernelIdeal.S200000 32) : FVec Ideal Cert.KernelIdeal.S10000x1 .f32 :=
  open Cert.KernelIdeal Cert.KernelIdeal.Facts₀ Cert.KernelIdeal.Facts in
  maximumf (Host.scatterAdd scatter_S10000x1_S200000x1_S200000x1_1_0_0_1 (broadcastInDim S10000x1 ![] bcast_S_S10000x1 (constant S_ .f32 0x00000000#32)) (broadcastInDim S200000x1 ![0] bcast_S200000_S200000x1_0 r) (broadcastInDim S200000x1 ![] bcast_S_S200000x1 (constant S_ .f32 0x3F800000#32))) (broadcastInDim S10000x1 ![] bcast_S_S10000x1 (constant S_ .f32 0x3F800000#32))

/-- Argument 0 reads the same on both sides. -/
def A0 (Vk : KVal) (Vr : RVal) : Prop := Vk (Proc.devRef .tc Cert.KernelIdeal.main_arg0) = Vr (Proc.devRef .tc Cert.ReferenceIdeal.main_arg0)
/-- Argument 1 reads the same on both sides. -/
def A1 (Vk : KVal) (Vr : RVal) : Prop := Vk (Proc.devRef .tc Cert.KernelIdeal.main_arg1) = Vr (Proc.devRef .tc Cert.ReferenceIdeal.main_arg1)
/-- Argument 2 reads the same on both sides. -/
def A2 (Vk : KVal) (Vr : RVal) : Prop := Vk (Proc.devRef .tc Cert.KernelIdeal.main_arg2) = Vr (Proc.devRef .tc Cert.ReferenceIdeal.main_arg2)
/-- Argument 3 reads the same on both sides. -/
def A3 (Vk : KVal) (Vr : RVal) : Prop := Vk (Proc.devRef .tc Cert.KernelIdeal.main_arg3) = Vr (Proc.devRef .tc Cert.ReferenceIdeal.main_arg3)
/-- Argument 4 reads the same on both sides. -/
def A4 (Vk : KVal) (Vr : RVal) : Prop := Vk (Proc.devRef .tc Cert.KernelIdeal.main_arg4) = Vr (Proc.devRef .tc Cert.ReferenceIdeal.main_arg4)
/-- Argument 5 reads the same on both sides. -/
def A5 (Vk : KVal) (Vr : RVal) : Prop := Vk (Proc.devRef .tc Cert.KernelIdeal.main_arg5) = Vr (Proc.devRef .tc Cert.ReferenceIdeal.main_arg5)
/-- Argument 6 reads the same on both sides. -/
def A6 (Vk : KVal) (Vr : RVal) : Prop := Vk (Proc.devRef .tc Cert.KernelIdeal.main_arg6) = Vr (Proc.devRef .tc Cert.ReferenceIdeal.main_arg6)
/-- Argument 7 reads the same on both sides. -/
def A7 (Vk : KVal) (Vr : RVal) : Prop := Vk (Proc.devRef .tc Cert.KernelIdeal.main_arg7) = Vr (Proc.devRef .tc Cert.ReferenceIdeal.main_arg7)
/-- Argument 8 reads the same on both sides. -/
def A8 (Vk : KVal) (Vr : RVal) : Prop := Vk (Proc.devRef .tc Cert.KernelIdeal.main_arg8) = Vr (Proc.devRef .tc Cert.ReferenceIdeal.main_arg8)
/-- Argument 9 reads the same on both sides. -/
def A9 (Vk : KVal) (Vr : RVal) : Prop := Vk (Proc.devRef .tc Cert.KernelIdeal.main_arg9) = Vr (Proc.devRef .tc Cert.ReferenceIdeal.main_arg9)
/-- Argument 10 reads the same on both sides. -/
def A10 (Vk : KVal) (Vr : RVal) : Prop := Vk (Proc.devRef .tc Cert.KernelIdeal.main_arg10) = Vr (Proc.devRef .tc Cert.ReferenceIdeal.main_arg10)
/-- Argument 11 reads the same on both sides. -/
def A11 (Vk : KVal) (Vr : RVal) : Prop := Vk (Proc.devRef .tc Cert.KernelIdeal.main_arg11) = Vr (Proc.devRef .tc Cert.ReferenceIdeal.main_arg11)
/-- Argument 12 reads the same on both sides. -/
def A12 (Vk : KVal) (Vr : RVal) : Prop := Vk (Proc.devRef .tc Cert.KernelIdeal.main_arg12) = Vr (Proc.devRef .tc Cert.ReferenceIdeal.main_arg12)
/-- Argument 13 reads the same on both sides. -/
def A13 (Vk : KVal) (Vr : RVal) : Prop := Vk (Proc.devRef .tc Cert.KernelIdeal.main_arg13) = Vr (Proc.devRef .tc Cert.ReferenceIdeal.main_arg13)
/-- Argument 14 reads the same on both sides. -/
def A14 (Vk : KVal) (Vr : RVal) : Prop := Vk (Proc.devRef .tc Cert.KernelIdeal.main_arg14) = Vr (Proc.devRef .tc Cert.ReferenceIdeal.main_arg14)
/-- Argument 15 reads the same on both sides. -/
def A15 (Vk : KVal) (Vr : RVal) : Prop := Vk (Proc.devRef .tc Cert.KernelIdeal.main_arg15) = Vr (Proc.devRef .tc Cert.ReferenceIdeal.main_arg15)
/-- Argument 16 reads the same on both sides. -/
def A16 (Vk : KVal) (Vr : RVal) : Prop := Vk (Proc.devRef .tc Cert.KernelIdeal.main_arg16) = Vr (Proc.devRef .tc Cert.ReferenceIdeal.main_arg16)
/-- Argument 17 reads the same on both sides. -/
def A17 (Vk : KVal) (Vr : RVal) : Prop := Vk (Proc.devRef .tc Cert.KernelIdeal.main_arg17) = Vr (Proc.devRef .tc Cert.ReferenceIdeal.main_arg17)
/-- Argument 18 reads the same on both sides. -/
def A18 (Vk : KVal) (Vr : RVal) : Prop := Vk (Proc.devRef .tc Cert.KernelIdeal.main_arg18) = Vr (Proc.devRef .tc Cert.ReferenceIdeal.main_arg18)
/-- The kernel's `main_cst` and the reference's `main_cst` hold the same array. -/
def P_cst (Vk : KVal) (Vr : RVal) : Prop := Vk (Proc.devRef .tc Cert.KernelIdeal.main_cst) = Vr (Proc.devRef .tc Cert.ReferenceIdeal.main_cst)
/-- The kernel's `main_v1` and the reference's `main_v1` hold the same array. -/
def P_v1 (Vk : KVal) (Vr : RVal) : Prop := Vk (Proc.devRef .tc Cert.KernelIdeal.main_v1) = Vr (Proc.devRef .tc Cert.ReferenceIdeal.main_v1)
/-- The kernel's `main_v113` and the reference's `main_v119` hold the same array. -/
def P_v113 (Vk : KVal) (Vr : RVal) : Prop := Vk (Proc.devRef .tc Cert.KernelIdeal.main_v113) = Vr (Proc.devRef .tc Cert.ReferenceIdeal.main_v119)
/-- The kernel's `main_v114` and the reference's `main_v120` hold the same array. -/
def P_v114 (Vk : KVal) (Vr : RVal) : Prop := Vk (Proc.devRef .tc Cert.KernelIdeal.main_v114) = Vr (Proc.devRef .tc Cert.ReferenceIdeal.main_v120)
/-- The kernel's `main_v115` and the reference's `main_v121` hold the same array. -/
def P_v115 (Vk : KVal) (Vr : RVal) : Prop := Vk (Proc.devRef .tc Cert.KernelIdeal.main_v115) = Vr (Proc.devRef .tc Cert.ReferenceIdeal.main_v121)
/-- The kernel's `main_v116` and the reference's `main_v128` hold the same array. -/
def P_v116 (Vk : KVal) (Vr : RVal) : Prop := Vk (Proc.devRef .tc Cert.KernelIdeal.main_v116) = Vr (Proc.devRef .tc Cert.ReferenceIdeal.main_v128)
/-- The kernel's `main_v117` and the reference's `main_v135` hold the same array. -/
def P_v117 (Vk : KVal) (Vr : RVal) : Prop := Vk (Proc.devRef .tc Cert.KernelIdeal.main_v117) = Vr (Proc.devRef .tc Cert.ReferenceIdeal.main_v135)
/-- The kernel's `main_v120_0` and the reference's `main_v140` hold the same array. -/
def P_v120_0 (Vk : KVal) (Vr : RVal) : Prop := Vk (Proc.devRef .tc Cert.KernelIdeal.main_v120_0) = Vr (Proc.devRef .tc Cert.ReferenceIdeal.main_v140)
/-- The kernel's `main_v120_1` and the reference's `main_v153` hold the same array. -/
def P_v120_1 (Vk : KVal) (Vr : RVal) : Prop := Vk (Proc.devRef .tc Cert.KernelIdeal.main_v120_1) = Vr (Proc.devRef .tc Cert.ReferenceIdeal.main_v153)
/-- The kernel's `main_v126` and the reference's `main_v152` hold the same array. -/
def P_v126 (Vk : KVal) (Vr : RVal) : Prop := Vk (Proc.devRef .tc Cert.KernelIdeal.main_v126) = Vr (Proc.devRef .tc Cert.ReferenceIdeal.main_v152)
/-- The kernel's `main_v127` and the reference's `main_v154` hold the same array. -/
def P_v127 (Vk : KVal) (Vr : RVal) : Prop := Vk (Proc.devRef .tc Cert.KernelIdeal.main_v127) = Vr (Proc.devRef .tc Cert.ReferenceIdeal.main_v154)
/-- The kernel's `main_v128` and the reference's `main_v161` hold the same array. -/
def P_v128 (Vk : KVal) (Vr : RVal) : Prop := Vk (Proc.devRef .tc Cert.KernelIdeal.main_v128) = Vr (Proc.devRef .tc Cert.ReferenceIdeal.main_v161)
/-- The kernel's `main_v129` and the reference's `main_v168` hold the same array. -/
def P_v129 (Vk : KVal) (Vr : RVal) : Prop := Vk (Proc.devRef .tc Cert.KernelIdeal.main_v129) = Vr (Proc.devRef .tc Cert.ReferenceIdeal.main_v168)
/-- The kernel's `main_v132_0` and the reference's `main_v173` hold the same array. -/
def P_v132_0 (Vk : KVal) (Vr : RVal) : Prop := Vk (Proc.devRef .tc Cert.KernelIdeal.main_v132_0) = Vr (Proc.devRef .tc Cert.ReferenceIdeal.main_v173)
/-- The kernel's `main_v132_1` and the reference's `main_v186` hold the same array. -/
def P_v132_1 (Vk : KVal) (Vr : RVal) : Prop := Vk (Proc.devRef .tc Cert.KernelIdeal.main_v132_1) = Vr (Proc.devRef .tc Cert.ReferenceIdeal.main_v186)
/-- The kernel's `main_v138` and the reference's `main_v185` hold the same array. -/
def P_v138 (Vk : KVal) (Vr : RVal) : Prop := Vk (Proc.devRef .tc Cert.KernelIdeal.main_v138) = Vr (Proc.devRef .tc Cert.ReferenceIdeal.main_v185)
/-- The kernel's `main_v139` and the reference's `main_v187` hold the same array. -/
def P_v139 (Vk : KVal) (Vr : RVal) : Prop := Vk (Proc.devRef .tc Cert.KernelIdeal.main_v139) = Vr (Proc.devRef .tc Cert.ReferenceIdeal.main_v187)
/-- The kernel's `main_v140` and the reference's `main_v188` hold the same array. -/
def P_v140 (Vk : KVal) (Vr : RVal) : Prop := Vk (Proc.devRef .tc Cert.KernelIdeal.main_v140) = Vr (Proc.devRef .tc Cert.ReferenceIdeal.main_v188)
/-- The kernel's `main_v141` and the reference's `main_v195` hold the same array. -/
def P_v141 (Vk : KVal) (Vr : RVal) : Prop := Vk (Proc.devRef .tc Cert.KernelIdeal.main_v141) = Vr (Proc.devRef .tc Cert.ReferenceIdeal.main_v195)
/-- The kernel's `main_v142` and the reference's `main_v202` hold the same array. -/
def P_v142 (Vk : KVal) (Vr : RVal) : Prop := Vk (Proc.devRef .tc Cert.KernelIdeal.main_v142) = Vr (Proc.devRef .tc Cert.ReferenceIdeal.main_v202)
/-- The kernel's `main_v145_0` and the reference's `main_v207` hold the same array. -/
def P_v145_0 (Vk : KVal) (Vr : RVal) : Prop := Vk (Proc.devRef .tc Cert.KernelIdeal.main_v145_0) = Vr (Proc.devRef .tc Cert.ReferenceIdeal.main_v207)
/-- The kernel's `main_v145_1` and the reference's `main_v220` hold the same array. -/
def P_v145_1 (Vk : KVal) (Vr : RVal) : Prop := Vk (Proc.devRef .tc Cert.KernelIdeal.main_v145_1) = Vr (Proc.devRef .tc Cert.ReferenceIdeal.main_v220)
/-- The kernel's `main_v151` and the reference's `main_v219` hold the same array. -/
def P_v151 (Vk : KVal) (Vr : RVal) : Prop := Vk (Proc.devRef .tc Cert.KernelIdeal.main_v151) = Vr (Proc.devRef .tc Cert.ReferenceIdeal.main_v219)
/-- The kernel's `main_v152` and the reference's `main_v221` hold the same array. -/
def P_v152 (Vk : KVal) (Vr : RVal) : Prop := Vk (Proc.devRef .tc Cert.KernelIdeal.main_v152) = Vr (Proc.devRef .tc Cert.ReferenceIdeal.main_v221)
/-- The kernel's `main_v153` and the reference's `main_v222` hold the same array. -/
def P_v153 (Vk : KVal) (Vr : RVal) : Prop := Vk (Proc.devRef .tc Cert.KernelIdeal.main_v153) = Vr (Proc.devRef .tc Cert.ReferenceIdeal.main_v222)
/-- The kernel's `main_v154` and the reference's `main_v229` hold the same array. -/
def P_v154 (Vk : KVal) (Vr : RVal) : Prop := Vk (Proc.devRef .tc Cert.KernelIdeal.main_v154) = Vr (Proc.devRef .tc Cert.ReferenceIdeal.main_v229)
/-- The kernel's `main_v155` and the reference's `main_v236` hold the same array. -/
def P_v155 (Vk : KVal) (Vr : RVal) : Prop := Vk (Proc.devRef .tc Cert.KernelIdeal.main_v155) = Vr (Proc.devRef .tc Cert.ReferenceIdeal.main_v236)
/-- The kernel's `main_v160_0` and the reference's `main_v241` hold the same array. -/
def P_v160_0 (Vk : KVal) (Vr : RVal) : Prop := Vk (Proc.devRef .tc Cert.KernelIdeal.main_v160_0) = Vr (Proc.devRef .tc Cert.ReferenceIdeal.main_v241)
/-- The kernel's `main_v160_1` and the reference's `main_v254` hold the same array. -/
def P_v160_1 (Vk : KVal) (Vr : RVal) : Prop := Vk (Proc.devRef .tc Cert.KernelIdeal.main_v160_1) = Vr (Proc.devRef .tc Cert.ReferenceIdeal.main_v254)
/-- The kernel's `main_v160_2` and the reference's `main_v529` hold the same array. -/
def P_v160_2 (Vk : KVal) (Vr : RVal) : Prop := Vk (Proc.devRef .tc Cert.KernelIdeal.main_v160_2) = Vr (Proc.devRef .tc Cert.ReferenceIdeal.main_v529)
/-- The kernel's `main_v166` and the reference's `main_v253` hold the same array. -/
def P_v166 (Vk : KVal) (Vr : RVal) : Prop := Vk (Proc.devRef .tc Cert.KernelIdeal.main_v166) = Vr (Proc.devRef .tc Cert.ReferenceIdeal.main_v253)
/-- The kernel's `main_v224` and the reference's `main_v312` hold the same array. -/
def P_v224 (Vk : KVal) (Vr : RVal) : Prop := Vk (Proc.devRef .tc Cert.KernelIdeal.main_v224) = Vr (Proc.devRef .tc Cert.ReferenceIdeal.main_v312)
/-- The kernel's `main_v279` and the reference's `main_v379` hold the same array. -/
def P_v279 (Vk : KVal) (Vr : RVal) : Prop := Vk (Proc.devRef .tc Cert.KernelIdeal.main_v279) = Vr (Proc.devRef .tc Cert.ReferenceIdeal.main_v379)
/-- The kernel's `main_v3` and the reference's `main_v3` hold the same array. -/
def P_v3 (Vk : KVal) (Vr : RVal) : Prop := Vk (Proc.devRef .tc Cert.KernelIdeal.main_v3) = Vr (Proc.devRef .tc Cert.ReferenceIdeal.main_v3)
/-- The kernel's `main_v387` and the reference's `main_v499` hold the same array. -/
def P_v387 (Vk : KVal) (Vr : RVal) : Prop := Vk (Proc.devRef .tc Cert.KernelIdeal.main_v387) = Vr (Proc.devRef .tc Cert.ReferenceIdeal.main_v499)
/-- The kernel's `main_v413` and the reference's `main_v525` hold the same array. -/
def P_v413 (Vk : KVal) (Vr : RVal) : Prop := Vk (Proc.devRef .tc Cert.KernelIdeal.main_v413) = Vr (Proc.devRef .tc Cert.ReferenceIdeal.main_v525)
/-- Every entry of the edge list is a node index. -/
def Rng18 (Vk : KVal) : Prop := ∀ i, ((Vk (Proc.devRef .tc Cert.KernelIdeal.main_arg18) : IVec Cert.KernelIdeal.S2x200000 32) i).toNat < 10000
/-- Every source index is a node index. -/
def Rng1 (Vk : KVal) : Prop := ∀ i, ((Vk (Proc.devRef .tc Cert.KernelIdeal.main_v1) : IVec Cert.KernelIdeal.S200000 32) i).toNat < 10000
/-- Every target index is a node index. -/
def Rng3 (Vk : KVal) : Prop := ∀ i, ((Vk (Proc.devRef .tc Cert.KernelIdeal.main_v3) : IVec Cert.KernelIdeal.S200000 32) i).toNat < 10000
/-- The kernel's count array is the count of the source indices. -/
def Cnt (Vk : KVal) : Prop := Vk (Proc.devRef .tc Cert.KernelIdeal.main_v9) = cntOf (Vk (Proc.devRef .tc Cert.KernelIdeal.main_v1))
/-- One array is the positive part of another, entry by entry. -/
def posRel {s : Shape} (a b : s.Idx → EReal) : Prop := ∀ j, a j = max (b j) 0
/-- The layer's second output is the positive part of its first. -/
def Pos_v120_1 (Vk : KVal) : Prop := posRel (s := Cert.KernelIdeal.S200000x128) (Vk (Proc.devRef .tc Cert.KernelIdeal.main_v120_1)) (Vk (Proc.devRef .tc Cert.KernelIdeal.main_v120_0))
/-- The layer's second output is the positive part of its first. -/
def Pos_v132_1 (Vk : KVal) : Prop := posRel (s := Cert.KernelIdeal.S200000x128) (Vk (Proc.devRef .tc Cert.KernelIdeal.main_v132_1)) (Vk (Proc.devRef .tc Cert.KernelIdeal.main_v132_0))
/-- The layer's second output is the positive part of its first. -/
def Pos_v145_1 (Vk : KVal) : Prop := posRel (s := Cert.KernelIdeal.S200000x128) (Vk (Proc.devRef .tc Cert.KernelIdeal.main_v145_1)) (Vk (Proc.devRef .tc Cert.KernelIdeal.main_v145_0))
/-- The layer's second output is the positive part of its first. -/
def Pos_v160_1 (Vk : KVal) : Prop := posRel (s := Cert.KernelIdeal.S200000x128) (Vk (Proc.devRef .tc Cert.KernelIdeal.main_v160_1)) (Vk (Proc.devRef .tc Cert.KernelIdeal.main_v160_0))
/-- The last layer's third output is its second output against the one-column matrix, plus the scalar. -/
def Lin (Vk : KVal) : Prop := ∀ i : Fin 200000, ((Vk (Proc.devRef .tc Cert.KernelIdeal.main_v160_2) : FVec Ideal Cert.KernelIdeal.S200000x1 .f32) (ix2 i (0 : Fin 1)) : EReal) = Cert.Spec.lin (Vk (Proc.devRef .tc Cert.KernelIdeal.main_v160_1) : FVec Ideal Cert.KernelIdeal.S200000x128 .f32) (Vk (Proc.devRef .tc Cert.KernelIdeal.main_arg16) : FVec Ideal Cert.KernelIdeal.S128x1 .f32) ((Vk (Proc.devRef .tc Cert.KernelIdeal.main_arg17) : FVec Ideal Cert.KernelIdeal.S1 .f32) (ix1 (0 : Fin 1))) i

/-- What is live across cut 0. -/
structure Rel0 (Vk : KVal) (Vr : RVal) : Prop where
  a0 : A0 Vk Vr
  a1 : A1 Vk Vr
  a2 : A2 Vk Vr
  a3 : A3 Vk Vr
  a4 : A4 Vk Vr
  a5 : A5 Vk Vr
  a6 : A6 Vk Vr
  a7 : A7 Vk Vr
  a8 : A8 Vk Vr
  a9 : A9 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  a18 : A18 Vk Vr
  rng18 : Rng18 Vk

/-- What is live across cut 1. -/
structure Rel1 (Vk : KVal) (Vr : RVal) : Prop where
  a0 : A0 Vk Vr
  a1 : A1 Vk Vr
  a2 : A2 Vk Vr
  a3 : A3 Vk Vr
  a4 : A4 Vk Vr
  a5 : A5 Vk Vr
  a6 : A6 Vk Vr
  a7 : A7 Vk Vr
  a8 : A8 Vk Vr
  a9 : A9 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v3 : P_v3 Vk Vr
  rng1 : Rng1 Vk
  rng3 : Rng3 Vk
  cnt : Cnt Vk

/-- What is live across cut 2. -/
structure Rel2 (Vk : KVal) (Vr : RVal) : Prop where
  a0 : A0 Vk Vr
  a2 : A2 Vk Vr
  a3 : A3 Vk Vr
  a6 : A6 Vk Vr
  a7 : A7 Vk Vr
  a8 : A8 Vk Vr
  a9 : A9 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v113 : P_v113 Vk Vr
  p_v114 : P_v114 Vk Vr
  p_v115 : P_v115 Vk Vr
  p_v3 : P_v3 Vk Vr
  rng1 : Rng1 Vk
  rng3 : Rng3 Vk
  cnt : Cnt Vk

/-- What is live across cut 3. -/
structure Rel3 (Vk : KVal) (Vr : RVal) : Prop where
  a0 : A0 Vk Vr
  a2 : A2 Vk Vr
  a3 : A3 Vk Vr
  a6 : A6 Vk Vr
  a7 : A7 Vk Vr
  a8 : A8 Vk Vr
  a9 : A9 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v113 : P_v113 Vk Vr
  p_v115 : P_v115 Vk Vr
  p_v116 : P_v116 Vk Vr
  p_v117 : P_v117 Vk Vr
  p_v3 : P_v3 Vk Vr
  rng1 : Rng1 Vk
  rng3 : Rng3 Vk
  cnt : Cnt Vk

/-- What is live across cut 4. -/
structure Rel4 (Vk : KVal) (Vr : RVal) : Prop where
  a0 : A0 Vk Vr
  a2 : A2 Vk Vr
  a3 : A3 Vk Vr
  a8 : A8 Vk Vr
  a9 : A9 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v113 : P_v113 Vk Vr
  p_v120_0 : P_v120_0 Vk Vr
  p_v3 : P_v3 Vk Vr
  rng1 : Rng1 Vk
  rng3 : Rng3 Vk
  cnt : Cnt Vk
  pos_v120_1 : Pos_v120_1 Vk

/-- What is live across cut 5. -/
structure Rel5 (Vk : KVal) (Vr : RVal) : Prop where
  a0 : A0 Vk Vr
  a2 : A2 Vk Vr
  a3 : A3 Vk Vr
  a8 : A8 Vk Vr
  a9 : A9 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v113 : P_v113 Vk Vr
  p_v120_0 : P_v120_0 Vk Vr
  p_v126 : P_v126 Vk Vr
  p_v3 : P_v3 Vk Vr
  rng1 : Rng1 Vk
  rng3 : Rng3 Vk
  cnt : Cnt Vk
  pos_v120_1 : Pos_v120_1 Vk

/-- What is live across cut 6. -/
structure Rel6 (Vk : KVal) (Vr : RVal) : Prop where
  a0 : A0 Vk Vr
  a2 : A2 Vk Vr
  a3 : A3 Vk Vr
  a8 : A8 Vk Vr
  a9 : A9 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v113 : P_v113 Vk Vr
  p_v120_1 : P_v120_1 Vk Vr
  p_v126 : P_v126 Vk Vr
  p_v3 : P_v3 Vk Vr
  rng1 : Rng1 Vk
  rng3 : Rng3 Vk
  cnt : Cnt Vk

/-- What is live across cut 7. -/
structure Rel7 (Vk : KVal) (Vr : RVal) : Prop where
  a0 : A0 Vk Vr
  a2 : A2 Vk Vr
  a3 : A3 Vk Vr
  a8 : A8 Vk Vr
  a9 : A9 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v127 : P_v127 Vk Vr
  p_v3 : P_v3 Vk Vr
  rng1 : Rng1 Vk
  rng3 : Rng3 Vk
  cnt : Cnt Vk

/-- What is live across cut 8. -/
structure Rel8 (Vk : KVal) (Vr : RVal) : Prop where
  a0 : A0 Vk Vr
  a2 : A2 Vk Vr
  a3 : A3 Vk Vr
  a8 : A8 Vk Vr
  a9 : A9 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v127 : P_v127 Vk Vr
  p_v128 : P_v128 Vk Vr
  p_v129 : P_v129 Vk Vr
  p_v3 : P_v3 Vk Vr
  rng1 : Rng1 Vk
  rng3 : Rng3 Vk
  cnt : Cnt Vk

/-- What is live across cut 9. -/
structure Rel9 (Vk : KVal) (Vr : RVal) : Prop where
  a0 : A0 Vk Vr
  a2 : A2 Vk Vr
  a3 : A3 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_0 : P_v132_0 Vk Vr
  p_v3 : P_v3 Vk Vr
  rng1 : Rng1 Vk
  rng3 : Rng3 Vk
  cnt : Cnt Vk
  pos_v132_1 : Pos_v132_1 Vk

/-- What is live across cut 10. -/
structure Rel10 (Vk : KVal) (Vr : RVal) : Prop where
  a0 : A0 Vk Vr
  a2 : A2 Vk Vr
  a3 : A3 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_0 : P_v132_0 Vk Vr
  p_v138 : P_v138 Vk Vr
  p_v3 : P_v3 Vk Vr
  rng1 : Rng1 Vk
  rng3 : Rng3 Vk
  cnt : Cnt Vk
  pos_v132_1 : Pos_v132_1 Vk

/-- What is live across cut 11. -/
structure Rel11 (Vk : KVal) (Vr : RVal) : Prop where
  a0 : A0 Vk Vr
  a2 : A2 Vk Vr
  a3 : A3 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v3 : P_v3 Vk Vr
  rng1 : Rng1 Vk
  rng3 : Rng3 Vk
  cnt : Cnt Vk

/-- What is live across cut 12. -/
structure Rel12 (Vk : KVal) (Vr : RVal) : Prop where
  a0 : A0 Vk Vr
  a2 : A2 Vk Vr
  a3 : A3 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v139 : P_v139 Vk Vr
  p_v140 : P_v140 Vk Vr
  p_v3 : P_v3 Vk Vr
  rng1 : Rng1 Vk
  rng3 : Rng3 Vk
  cnt : Cnt Vk

/-- What is live across cut 13. -/
structure Rel13 (Vk : KVal) (Vr : RVal) : Prop where
  a0 : A0 Vk Vr
  a2 : A2 Vk Vr
  a3 : A3 Vk Vr
  a10 : A10 Vk Vr
  a11 : A11 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v140 : P_v140 Vk Vr
  p_v141 : P_v141 Vk Vr
  p_v142 : P_v142 Vk Vr
  p_v3 : P_v3 Vk Vr
  rng1 : Rng1 Vk
  rng3 : Rng3 Vk
  cnt : Cnt Vk

/-- What is live across cut 14. -/
structure Rel14 (Vk : KVal) (Vr : RVal) : Prop where
  a0 : A0 Vk Vr
  a2 : A2 Vk Vr
  a3 : A3 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_0 : P_v145_0 Vk Vr
  p_v3 : P_v3 Vk Vr
  rng1 : Rng1 Vk
  rng3 : Rng3 Vk
  cnt : Cnt Vk
  pos_v145_1 : Pos_v145_1 Vk

/-- What is live across cut 15. -/
structure Rel15 (Vk : KVal) (Vr : RVal) : Prop where
  a0 : A0 Vk Vr
  a2 : A2 Vk Vr
  a3 : A3 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_0 : P_v145_0 Vk Vr
  p_v151 : P_v151 Vk Vr
  p_v3 : P_v3 Vk Vr
  rng1 : Rng1 Vk
  rng3 : Rng3 Vk
  cnt : Cnt Vk
  pos_v145_1 : Pos_v145_1 Vk

/-- What is live across cut 16. -/
structure Rel16 (Vk : KVal) (Vr : RVal) : Prop where
  a0 : A0 Vk Vr
  a2 : A2 Vk Vr
  a3 : A3 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v3 : P_v3 Vk Vr
  rng1 : Rng1 Vk
  rng3 : Rng3 Vk
  cnt : Cnt Vk

/-- What is live across cut 17. -/
structure Rel17 (Vk : KVal) (Vr : RVal) : Prop where
  a0 : A0 Vk Vr
  a2 : A2 Vk Vr
  a3 : A3 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v152 : P_v152 Vk Vr
  p_v153 : P_v153 Vk Vr
  p_v3 : P_v3 Vk Vr
  rng1 : Rng1 Vk
  rng3 : Rng3 Vk
  cnt : Cnt Vk

/-- What is live across cut 18. -/
structure Rel18 (Vk : KVal) (Vr : RVal) : Prop where
  a0 : A0 Vk Vr
  a2 : A2 Vk Vr
  a3 : A3 Vk Vr
  a12 : A12 Vk Vr
  a13 : A13 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v153 : P_v153 Vk Vr
  p_v154 : P_v154 Vk Vr
  p_v155 : P_v155 Vk Vr
  p_v3 : P_v3 Vk Vr
  rng1 : Rng1 Vk
  rng3 : Rng3 Vk
  cnt : Cnt Vk

/-- What is live across cut 19. -/
structure Rel19 (Vk : KVal) (Vr : RVal) : Prop where
  a0 : A0 Vk Vr
  a2 : A2 Vk Vr
  a3 : A3 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v160_0 : P_v160_0 Vk Vr
  p_v3 : P_v3 Vk Vr
  rng1 : Rng1 Vk
  rng3 : Rng3 Vk
  cnt : Cnt Vk
  pos_v160_1 : Pos_v160_1 Vk
  lin : Lin Vk

/-- What is live across cut 20. -/
structure Rel20 (Vk : KVal) (Vr : RVal) : Prop where
  a0 : A0 Vk Vr
  a2 : A2 Vk Vr
  a3 : A3 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v160_0 : P_v160_0 Vk Vr
  p_v166 : P_v166 Vk Vr
  p_v3 : P_v3 Vk Vr
  rng1 : Rng1 Vk
  rng3 : Rng3 Vk
  pos_v160_1 : Pos_v160_1 Vk
  lin : Lin Vk

/-- What is live across cut 21. -/
structure Rel21 (Vk : KVal) (Vr : RVal) : Prop where
  a0 : A0 Vk Vr
  a2 : A2 Vk Vr
  a3 : A3 Vk Vr
  a14 : A14 Vk Vr
  a15 : A15 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v160_1 : P_v160_1 Vk Vr
  p_v166 : P_v166 Vk Vr
  p_v3 : P_v3 Vk Vr
  rng1 : Rng1 Vk
  rng3 : Rng3 Vk
  lin : Lin Vk

/-- What is live across cut 22. -/
structure Rel22 (Vk : KVal) (Vr : RVal) : Prop where
  a2 : A2 Vk Vr
  a3 : A3 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v160_1 : P_v160_1 Vk Vr
  p_v166 : P_v166 Vk Vr
  p_v224 : P_v224 Vk Vr
  p_v3 : P_v3 Vk Vr
  rng1 : Rng1 Vk
  rng3 : Rng3 Vk
  lin : Lin Vk

/-- What is live across cut 23. -/
structure Rel23 (Vk : KVal) (Vr : RVal) : Prop where
  a3 : A3 Vk Vr
  a16 : A16 Vk Vr
  a17 : A17 Vk Vr
  p_cst : P_cst Vk Vr
  p_v1 : P_v1 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v160_1 : P_v160_1 Vk Vr
  p_v166 : P_v166 Vk Vr
  p_v224 : P_v224 Vk Vr
  p_v279 : P_v279 Vk Vr
  p_v3 : P_v3 Vk Vr
  rng1 : Rng1 Vk
  rng3 : Rng3 Vk
  lin : Lin Vk

/-- What is live across cut 24. -/
structure Rel24 (Vk : KVal) (Vr : RVal) : Prop where
  a3 : A3 Vk Vr
  a16 : A16 Vk Vr
  a17 : A17 Vk Vr
  p_cst : P_cst Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v160_1 : P_v160_1 Vk Vr
  p_v166 : P_v166 Vk Vr
  p_v224 : P_v224 Vk Vr
  p_v387 : P_v387 Vk Vr
  lin : Lin Vk

/-- What is live across cut 25. -/
structure Rel25 (Vk : KVal) (Vr : RVal) : Prop where
  a3 : A3 Vk Vr
  a16 : A16 Vk Vr
  a17 : A17 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v160_1 : P_v160_1 Vk Vr
  p_v166 : P_v166 Vk Vr
  p_v224 : P_v224 Vk Vr
  p_v413 : P_v413 Vk Vr
  lin : Lin Vk

/-- What is live across cut 26. -/
structure Rel26 (Vk : KVal) (Vr : RVal) : Prop where
  a3 : A3 Vk Vr
  p_v120_1 : P_v120_1 Vk Vr
  p_v126 : P_v126 Vk Vr
  p_v132_1 : P_v132_1 Vk Vr
  p_v138 : P_v138 Vk Vr
  p_v145_1 : P_v145_1 Vk Vr
  p_v151 : P_v151 Vk Vr
  p_v160_1 : P_v160_1 Vk Vr
  p_v160_2 : P_v160_2 Vk Vr
  p_v166 : P_v166 Vk Vr
  p_v224 : P_v224 Vk Vr
  p_v413 : P_v413 Vk Vr

/-- The kernel's host operations of group 1. -/
abbrev ks1 : List (HloOp Cert.KernelIdeal.τ Cert.KernelIdeal.sig (Elt Ideal)) :=
  Cert.KernelIdeal.Gen.hostOps0 (F := Ideal)

/-- The kernel's host operations of group 2. -/
abbrev ks2 : List (HloOp Cert.KernelIdeal.τ Cert.KernelIdeal.sig (Elt Ideal)) :=
  Cert.KernelIdeal.Gen.hostOps0_1 (F := Ideal) ++ Cert.KernelIdeal.Gen.hostOps0_2 (F := Ideal) ++ Cert.KernelIdeal.Gen.hostOps0_3 (F := Ideal)

/-- The kernel's host operations of group 3. -/
abbrev ks3 : List (HloOp Cert.KernelIdeal.τ Cert.KernelIdeal.sig (Elt Ideal)) :=
  Cert.KernelIdeal.Gen.hostOps0_4 (F := Ideal) ++ Cert.KernelIdeal.Gen.hostOps0_5 (F := Ideal)

/-- The kernel's host operations of group 4. -/
abbrev ks4 : List (HloOp Cert.KernelIdeal.τ Cert.KernelIdeal.sig (Elt Ideal)) :=
  Cert.KernelIdeal.Gen.hostOps0_6 (F := Ideal)

/-- The kernel's host operations of group 5. -/
abbrev ks5 : List (HloOp Cert.KernelIdeal.τ Cert.KernelIdeal.sig (Elt Ideal)) :=
  Cert.KernelIdeal.Gen.hostOps1 (F := Ideal) ++ Cert.KernelIdeal.Gen.hostOps1_1 (F := Ideal)

/-- The kernel's host operations of group 6. -/
abbrev ks6 : List (HloOp Cert.KernelIdeal.τ Cert.KernelIdeal.sig (Elt Ideal)) :=
  []

/-- The kernel's host operations of group 7. -/
abbrev ks7 : List (HloOp Cert.KernelIdeal.τ Cert.KernelIdeal.sig (Elt Ideal)) :=
  Cert.KernelIdeal.Gen.hostOps1_2 (F := Ideal)

/-- The kernel's host operations of group 8. -/
abbrev ks8 : List (HloOp Cert.KernelIdeal.τ Cert.KernelIdeal.sig (Elt Ideal)) :=
  Cert.KernelIdeal.Gen.hostOps1_3 (F := Ideal) ++ Cert.KernelIdeal.Gen.hostOps1_4 (F := Ideal)

/-- The kernel's host operations of group 9. -/
abbrev ks9 : List (HloOp Cert.KernelIdeal.τ Cert.KernelIdeal.sig (Elt Ideal)) :=
  Cert.KernelIdeal.Gen.hostOps1_5 (F := Ideal)

/-- The kernel's host operations of group 10. -/
abbrev ks10 : List (HloOp Cert.KernelIdeal.τ Cert.KernelIdeal.sig (Elt Ideal)) :=
  Cert.KernelIdeal.Gen.hostOps2 (F := Ideal) ++ Cert.KernelIdeal.Gen.hostOps2_1 (F := Ideal)

/-- The kernel's host operations of group 11. -/
abbrev ks11 : List (HloOp Cert.KernelIdeal.τ Cert.KernelIdeal.sig (Elt Ideal)) :=
  []

/-- The kernel's host operations of group 12. -/
abbrev ks12 : List (HloOp Cert.KernelIdeal.τ Cert.KernelIdeal.sig (Elt Ideal)) :=
  Cert.KernelIdeal.Gen.hostOps2_2 (F := Ideal)

/-- The kernel's host operations of group 13. -/
abbrev ks13 : List (HloOp Cert.KernelIdeal.τ Cert.KernelIdeal.sig (Elt Ideal)) :=
  Cert.KernelIdeal.Gen.hostOps2_3 (F := Ideal) ++ Cert.KernelIdeal.Gen.hostOps2_4 (F := Ideal)

/-- The kernel's host operations of group 14. -/
abbrev ks14 : List (HloOp Cert.KernelIdeal.τ Cert.KernelIdeal.sig (Elt Ideal)) :=
  Cert.KernelIdeal.Gen.hostOps2_5 (F := Ideal)

/-- The kernel's host operations of group 15. -/
abbrev ks15 : List (HloOp Cert.KernelIdeal.τ Cert.KernelIdeal.sig (Elt Ideal)) :=
  Cert.KernelIdeal.Gen.hostOps3 (F := Ideal) ++ Cert.KernelIdeal.Gen.hostOps3_1 (F := Ideal)

/-- The kernel's host operations of group 16. -/
abbrev ks16 : List (HloOp Cert.KernelIdeal.τ Cert.KernelIdeal.sig (Elt Ideal)) :=
  []

/-- The kernel's host operations of group 17. -/
abbrev ks17 : List (HloOp Cert.KernelIdeal.τ Cert.KernelIdeal.sig (Elt Ideal)) :=
  Cert.KernelIdeal.Gen.hostOps3_2 (F := Ideal)

/-- The kernel's host operations of group 18. -/
abbrev ks18 : List (HloOp Cert.KernelIdeal.τ Cert.KernelIdeal.sig (Elt Ideal)) :=
  Cert.KernelIdeal.Gen.hostOps3_3 (F := Ideal) ++ Cert.KernelIdeal.Gen.hostOps3_4 (F := Ideal)

/-- The kernel's host operations of group 19. -/
abbrev ks19 : List (HloOp Cert.KernelIdeal.τ Cert.KernelIdeal.sig (Elt Ideal)) :=
  Cert.KernelIdeal.Gen.hostOps3_5 (F := Ideal)

/-- The kernel's host operations of group 20. -/
abbrev ks20 : List (HloOp Cert.KernelIdeal.τ Cert.KernelIdeal.sig (Elt Ideal)) :=
  Cert.KernelIdeal.Gen.hostOps4 (F := Ideal) ++ Cert.KernelIdeal.Gen.hostOps4_1 (F := Ideal)

/-- The kernel's host operations of group 21. -/
abbrev ks21 : List (HloOp Cert.KernelIdeal.τ Cert.KernelIdeal.sig (Elt Ideal)) :=
  []

/-- The kernel's host operations of group 22. -/
abbrev ks22 : List (HloOp Cert.KernelIdeal.τ Cert.KernelIdeal.sig (Elt Ideal)) :=
  Cert.KernelIdeal.Gen.hostOps4_2 (F := Ideal) ++ Cert.KernelIdeal.Gen.hostOps4_3 (F := Ideal) ++ Cert.KernelIdeal.Gen.hostOps4_4 (F := Ideal)

/-- The kernel's host operations of group 23. -/
abbrev ks23 : List (HloOp Cert.KernelIdeal.τ Cert.KernelIdeal.sig (Elt Ideal)) :=
  Cert.KernelIdeal.Gen.hostOps4_5 (F := Ideal) ++ Cert.KernelIdeal.Gen.hostOps4_6 (F := Ideal) ++ Cert.KernelIdeal.Gen.hostOps4_7 (F := Ideal)

/-- The kernel's host operations of group 24. -/
abbrev ks24 : List (HloOp Cert.KernelIdeal.τ Cert.KernelIdeal.sig (Elt Ideal)) :=
  Cert.KernelIdeal.Gen.hostOps4_8 (F := Ideal) ++ Cert.KernelIdeal.Gen.hostOps4_9 (F := Ideal) ++ Cert.KernelIdeal.Gen.hostOps4_10 (F := Ideal)

/-- The kernel's host operations of group 25. -/
abbrev ks25 : List (HloOp Cert.KernelIdeal.τ Cert.KernelIdeal.sig (Elt Ideal)) :=
  Cert.KernelIdeal.Gen.hostOps4_11 (F := Ideal) ++ Cert.KernelIdeal.Gen.hostOps4_12 (F := Ideal) ++ Cert.KernelIdeal.Gen.hostOps4_13 (F := Ideal) ++ Cert.KernelIdeal.Gen.hostOps4_14 (F := Ideal)

/-- The kernel's host operations of group 26. -/
abbrev ks26 : List (HloOp Cert.KernelIdeal.τ Cert.KernelIdeal.sig (Elt Ideal)) :=
  []

/-- Group 1 on the kernel side: its host operations. -/
abbrev kstep1 (W : Dev Cert.KernelIdeal.nD → KVal) (c : Dev Cert.KernelIdeal.nD) : KVal := StableHlo.after ks1 (W c)

/-- Group 2 on the kernel side: its host operations. -/
abbrev kstep2 (W : Dev Cert.KernelIdeal.nD → KVal) (c : Dev Cert.KernelIdeal.nD) : KVal := StableHlo.after ks2 (W c)

/-- Group 3 on the kernel side: its host operations. -/
abbrev kstep3 (W : Dev Cert.KernelIdeal.nD → KVal) (c : Dev Cert.KernelIdeal.nD) : KVal := StableHlo.after ks3 (W c)

/-- Group 5 on the kernel side: its host operations. -/
abbrev kstep5 (W : Dev Cert.KernelIdeal.nD → KVal) (c : Dev Cert.KernelIdeal.nD) : KVal := StableHlo.after ks5 (W c)

/-- Group 6 on the kernel side: its host operations. -/
abbrev kstep6 (W : Dev Cert.KernelIdeal.nD → KVal) (c : Dev Cert.KernelIdeal.nD) : KVal := StableHlo.after ks6 (W c)

/-- Group 7 on the kernel side: its host operations. -/
abbrev kstep7 (W : Dev Cert.KernelIdeal.nD → KVal) (c : Dev Cert.KernelIdeal.nD) : KVal := StableHlo.after ks7 (W c)

/-- Group 8 on the kernel side: its host operations. -/
abbrev kstep8 (W : Dev Cert.KernelIdeal.nD → KVal) (c : Dev Cert.KernelIdeal.nD) : KVal := StableHlo.after ks8 (W c)

/-- Group 10 on the kernel side: its host operations. -/
abbrev kstep10 (W : Dev Cert.KernelIdeal.nD → KVal) (c : Dev Cert.KernelIdeal.nD) : KVal := StableHlo.after ks10 (W c)

/-- Group 11 on the kernel side: its host operations. -/
abbrev kstep11 (W : Dev Cert.KernelIdeal.nD → KVal) (c : Dev Cert.KernelIdeal.nD) : KVal := StableHlo.after ks11 (W c)

/-- Group 12 on the kernel side: its host operations. -/
abbrev kstep12 (W : Dev Cert.KernelIdeal.nD → KVal) (c : Dev Cert.KernelIdeal.nD) : KVal := StableHlo.after ks12 (W c)

/-- Group 13 on the kernel side: its host operations. -/
abbrev kstep13 (W : Dev Cert.KernelIdeal.nD → KVal) (c : Dev Cert.KernelIdeal.nD) : KVal := StableHlo.after ks13 (W c)

/-- Group 15 on the kernel side: its host operations. -/
abbrev kstep15 (W : Dev Cert.KernelIdeal.nD → KVal) (c : Dev Cert.KernelIdeal.nD) : KVal := StableHlo.after ks15 (W c)

/-- Group 16 on the kernel side: its host operations. -/
abbrev kstep16 (W : Dev Cert.KernelIdeal.nD → KVal) (c : Dev Cert.KernelIdeal.nD) : KVal := StableHlo.after ks16 (W c)

/-- Group 17 on the kernel side: its host operations. -/
abbrev kstep17 (W : Dev Cert.KernelIdeal.nD → KVal) (c : Dev Cert.KernelIdeal.nD) : KVal := StableHlo.after ks17 (W c)

/-- Group 18 on the kernel side: its host operations. -/
abbrev kstep18 (W : Dev Cert.KernelIdeal.nD → KVal) (c : Dev Cert.KernelIdeal.nD) : KVal := StableHlo.after ks18 (W c)

/-- Group 20 on the kernel side: its host operations. -/
abbrev kstep20 (W : Dev Cert.KernelIdeal.nD → KVal) (c : Dev Cert.KernelIdeal.nD) : KVal := StableHlo.after ks20 (W c)

/-- Group 21 on the kernel side: its host operations. -/
abbrev kstep21 (W : Dev Cert.KernelIdeal.nD → KVal) (c : Dev Cert.KernelIdeal.nD) : KVal := StableHlo.after ks21 (W c)

/-- Group 22 on the kernel side: its host operations. -/
abbrev kstep22 (W : Dev Cert.KernelIdeal.nD → KVal) (c : Dev Cert.KernelIdeal.nD) : KVal := StableHlo.after ks22 (W c)

/-- Group 23 on the kernel side: its host operations. -/
abbrev kstep23 (W : Dev Cert.KernelIdeal.nD → KVal) (c : Dev Cert.KernelIdeal.nD) : KVal := StableHlo.after ks23 (W c)

/-- Group 24 on the kernel side: its host operations. -/
abbrev kstep24 (W : Dev Cert.KernelIdeal.nD → KVal) (c : Dev Cert.KernelIdeal.nD) : KVal := StableHlo.after ks24 (W c)

/-- Group 25 on the kernel side: its host operations. -/
abbrev kstep25 (W : Dev Cert.KernelIdeal.nD → KVal) (c : Dev Cert.KernelIdeal.nD) : KVal := StableHlo.after ks25 (W c)

/-- Group 26 on the kernel side: its host operations. -/
abbrev kstep26 (W : Dev Cert.KernelIdeal.nD → KVal) (c : Dev Cert.KernelIdeal.nD) : KVal := StableHlo.after ks26 (W c)

/-- What group 1 owes: the relation of cut 0 is carried to cut 1. -/
def Owes1 : Prop :=
  ∀ (W : Dev Cert.KernelIdeal.nD → KVal) (U : Dev Cert.KernelIdeal.nD → RVal), (∀ c, Rel0 (W c) (U c)) → ∀ c, Rel1 (kstep1 W c) (StableHlo.after (Cert.ReferenceIdeal.Hand.rs1 (F := Ideal)) (U c))

/-- What group 2 owes: the relation of cut 1 is carried to cut 2. -/
def Owes2 : Prop :=
  ∀ (W : Dev Cert.KernelIdeal.nD → KVal) (U : Dev Cert.KernelIdeal.nD → RVal), (∀ c, Rel1 (W c) (U c)) → ∀ c, Rel2 (kstep2 W c) (StableHlo.after (Cert.ReferenceIdeal.Hand.rs2 (F := Ideal)) (U c))

/-- What group 3 owes: the relation of cut 2 is carried to cut 3. -/
def Owes3 : Prop :=
  ∀ (W : Dev Cert.KernelIdeal.nD → KVal) (U : Dev Cert.KernelIdeal.nD → RVal), (∀ c, Rel2 (W c) (U c)) → ∀ c, Rel3 (kstep3 W c) (StableHlo.after (Cert.ReferenceIdeal.Hand.rs3 (F := Ideal)) (U c))

/-- What group 5 owes: the relation of cut 4 is carried to cut 5. -/
def Owes5 : Prop :=
  ∀ (W : Dev Cert.KernelIdeal.nD → KVal) (U : Dev Cert.KernelIdeal.nD → RVal), (∀ c, Rel4 (W c) (U c)) → ∀ c, Rel5 (kstep5 W c) (StableHlo.after (Cert.ReferenceIdeal.Hand.rs5 (F := Ideal)) (U c))

/-- What group 6 owes: the relation of cut 5 is carried to cut 6. -/
def Owes6 : Prop :=
  ∀ (W : Dev Cert.KernelIdeal.nD → KVal) (U : Dev Cert.KernelIdeal.nD → RVal), (∀ c, Rel5 (W c) (U c)) → ∀ c, Rel6 (kstep6 W c) (StableHlo.after (Cert.ReferenceIdeal.Hand.rs6 (F := Ideal)) (U c))

/-- What group 7 owes: the relation of cut 6 is carried to cut 7. -/
def Owes7 : Prop :=
  ∀ (W : Dev Cert.KernelIdeal.nD → KVal) (U : Dev Cert.KernelIdeal.nD → RVal), (∀ c, Rel6 (W c) (U c)) → ∀ c, Rel7 (kstep7 W c) (StableHlo.after (Cert.ReferenceIdeal.Hand.rs7 (F := Ideal)) (U c))

/-- What group 8 owes: the relation of cut 7 is carried to cut 8. -/
def Owes8 : Prop :=
  ∀ (W : Dev Cert.KernelIdeal.nD → KVal) (U : Dev Cert.KernelIdeal.nD → RVal), (∀ c, Rel7 (W c) (U c)) → ∀ c, Rel8 (kstep8 W c) (StableHlo.after (Cert.ReferenceIdeal.Hand.rs8 (F := Ideal)) (U c))

/-- What group 10 owes: the relation of cut 9 is carried to cut 10. -/
def Owes10 : Prop :=
  ∀ (W : Dev Cert.KernelIdeal.nD → KVal) (U : Dev Cert.KernelIdeal.nD → RVal), (∀ c, Rel9 (W c) (U c)) → ∀ c, Rel10 (kstep10 W c) (StableHlo.after (Cert.ReferenceIdeal.Hand.rs10 (F := Ideal)) (U c))

/-- What group 11 owes: the relation of cut 10 is carried to cut 11. -/
def Owes11 : Prop :=
  ∀ (W : Dev Cert.KernelIdeal.nD → KVal) (U : Dev Cert.KernelIdeal.nD → RVal), (∀ c, Rel10 (W c) (U c)) → ∀ c, Rel11 (kstep11 W c) (StableHlo.after (Cert.ReferenceIdeal.Hand.rs11 (F := Ideal)) (U c))

/-- What group 12 owes: the relation of cut 11 is carried to cut 12. -/
def Owes12 : Prop :=
  ∀ (W : Dev Cert.KernelIdeal.nD → KVal) (U : Dev Cert.KernelIdeal.nD → RVal), (∀ c, Rel11 (W c) (U c)) → ∀ c, Rel12 (kstep12 W c) (StableHlo.after (Cert.ReferenceIdeal.Hand.rs12 (F := Ideal)) (U c))

/-- What group 13 owes: the relation of cut 12 is carried to cut 13. -/
def Owes13 : Prop :=
  ∀ (W : Dev Cert.KernelIdeal.nD → KVal) (U : Dev Cert.KernelIdeal.nD → RVal), (∀ c, Rel12 (W c) (U c)) → ∀ c, Rel13 (kstep13 W c) (StableHlo.after (Cert.ReferenceIdeal.Hand.rs13 (F := Ideal)) (U c))

/-- What group 15 owes: the relation of cut 14 is carried to cut 15. -/
def Owes15 : Prop :=
  ∀ (W : Dev Cert.KernelIdeal.nD → KVal) (U : Dev Cert.KernelIdeal.nD → RVal), (∀ c, Rel14 (W c) (U c)) → ∀ c, Rel15 (kstep15 W c) (StableHlo.after (Cert.ReferenceIdeal.Hand.rs15 (F := Ideal)) (U c))

/-- What group 16 owes: the relation of cut 15 is carried to cut 16. -/
def Owes16 : Prop :=
  ∀ (W : Dev Cert.KernelIdeal.nD → KVal) (U : Dev Cert.KernelIdeal.nD → RVal), (∀ c, Rel15 (W c) (U c)) → ∀ c, Rel16 (kstep16 W c) (StableHlo.after (Cert.ReferenceIdeal.Hand.rs16 (F := Ideal)) (U c))

/-- What group 17 owes: the relation of cut 16 is carried to cut 17. -/
def Owes17 : Prop :=
  ∀ (W : Dev Cert.KernelIdeal.nD → KVal) (U : Dev Cert.KernelIdeal.nD → RVal), (∀ c, Rel16 (W c) (U c)) → ∀ c, Rel17 (kstep17 W c) (StableHlo.after (Cert.ReferenceIdeal.Hand.rs17 (F := Ideal)) (U c))

/-- What group 18 owes: the relation of cut 17 is carried to cut 18. -/
def Owes18 : Prop :=
  ∀ (W : Dev Cert.KernelIdeal.nD → KVal) (U : Dev Cert.KernelIdeal.nD → RVal), (∀ c, Rel17 (W c) (U c)) → ∀ c, Rel18 (kstep18 W c) (StableHlo.after (Cert.ReferenceIdeal.Hand.rs18 (F := Ideal)) (U c))

/-- What group 20 owes: the relation of cut 19 is carried to cut 20. -/
def Owes20 : Prop :=
  ∀ (W : Dev Cert.KernelIdeal.nD → KVal) (U : Dev Cert.KernelIdeal.nD → RVal), (∀ c, Rel19 (W c) (U c)) → ∀ c, Rel20 (kstep20 W c) (StableHlo.after (Cert.ReferenceIdeal.Hand.rs20 (F := Ideal)) (U c))

/-- What group 21 owes: the relation of cut 20 is carried to cut 21. -/
def Owes21 : Prop :=
  ∀ (W : Dev Cert.KernelIdeal.nD → KVal) (U : Dev Cert.KernelIdeal.nD → RVal), (∀ c, Rel20 (W c) (U c)) → ∀ c, Rel21 (kstep21 W c) (StableHlo.after (Cert.ReferenceIdeal.Hand.rs21 (F := Ideal)) (U c))

/-- What group 22 owes: the relation of cut 21 is carried to cut 22. -/
def Owes22 : Prop :=
  ∀ (W : Dev Cert.KernelIdeal.nD → KVal) (U : Dev Cert.KernelIdeal.nD → RVal), (∀ c, Rel21 (W c) (U c)) → ∀ c, Rel22 (kstep22 W c) (StableHlo.after (Cert.ReferenceIdeal.Hand.rs22 (F := Ideal)) (U c))

/-- What group 23 owes: the relation of cut 22 is carried to cut 23. -/
def Owes23 : Prop :=
  ∀ (W : Dev Cert.KernelIdeal.nD → KVal) (U : Dev Cert.KernelIdeal.nD → RVal), (∀ c, Rel22 (W c) (U c)) → ∀ c, Rel23 (kstep23 W c) (StableHlo.after (Cert.ReferenceIdeal.Hand.rs23 (F := Ideal)) (U c))

/-- What group 24 owes: the relation of cut 23 is carried to cut 24. -/
def Owes24 : Prop :=
  ∀ (W : Dev Cert.KernelIdeal.nD → KVal) (U : Dev Cert.KernelIdeal.nD → RVal), (∀ c, Rel23 (W c) (U c)) → ∀ c, Rel24 (kstep24 W c) (StableHlo.after (Cert.ReferenceIdeal.Hand.rs24 (F := Ideal)) (U c))

/-- What group 25 owes: the relation of cut 24 is carried to cut 25. -/
def Owes25 : Prop :=
  ∀ (W : Dev Cert.KernelIdeal.nD → KVal) (U : Dev Cert.KernelIdeal.nD → RVal), (∀ c, Rel24 (W c) (U c)) → ∀ c, Rel25 (kstep25 W c) (StableHlo.after (Cert.ReferenceIdeal.Hand.rs25 (F := Ideal)) (U c))

/-- What group 26 owes: the relation of cut 25 is carried to cut 26. -/
def Owes26 : Prop :=
  ∀ (W : Dev Cert.KernelIdeal.nD → KVal) (U : Dev Cert.KernelIdeal.nD → RVal), (∀ c, Rel25 (W c) (U c)) → ∀ c, Rel26 (kstep26 W c) (StableHlo.after (Cert.ReferenceIdeal.Hand.rs26 (F := Ideal)) (U c))

end Cert.Stage

end
-- ==== Proof.RelReg.lean ====
import proofs.«430033_j52948356825731_1_alg».proof.Proof.Rel
import proofs.«430033_j52948356825731_1_alg».proof.Proof.KIBound

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

/-- Group 4 on the kernel side: its host operations, then pallas_call 0 (each window's array left at the fold of its write-backs, every other buffer as entered). -/
def kstep4 (W : Dev Cert.KernelIdeal.nD → KVal) (c : Dev Cert.KernelIdeal.nD) : KVal :=
  Pipeline.withArrays Cert.KernelIdeal.spec0 c (StableHlo.after ks4 (W c)) fun w => (Cert.KernelIdeal.Hand.dat0 (F := Ideal) (fun c b => StableHlo.after ks4 (W c) b) c).arrAt w Cert.KernelIdeal.cfg0.N

/-- Group 9 on the kernel side: its host operations, then pallas_call 1 (each window's array left at the fold of its write-backs, every other buffer as entered). -/
def kstep9 (W : Dev Cert.KernelIdeal.nD → KVal) (c : Dev Cert.KernelIdeal.nD) : KVal :=
  Pipeline.withArrays Cert.KernelIdeal.spec1 c (StableHlo.after ks9 (W c)) fun w => (Cert.KernelIdeal.Hand.dat1 (F := Ideal) (fun c b => StableHlo.after ks9 (W c) b) c).arrAt w Cert.KernelIdeal.cfg1.N

/-- Group 14 on the kernel side: its host operations, then pallas_call 2 (each window's array left at the fold of its write-backs, every other buffer as entered). -/
def kstep14 (W : Dev Cert.KernelIdeal.nD → KVal) (c : Dev Cert.KernelIdeal.nD) : KVal :=
  Pipeline.withArrays Cert.KernelIdeal.spec2 c (StableHlo.after ks14 (W c)) fun w => (Cert.KernelIdeal.Hand.dat2 (F := Ideal) (fun c b => StableHlo.after ks14 (W c) b) c).arrAt w Cert.KernelIdeal.cfg2.N

/-- Group 19 on the kernel side: its host operations, then pallas_call 3 (each window's array left at the fold of its write-backs, every other buffer as entered). -/
def kstep19 (W : Dev Cert.KernelIdeal.nD → KVal) (c : Dev Cert.KernelIdeal.nD) : KVal :=
  Pipeline.withArrays Cert.KernelIdeal.spec3 c (StableHlo.after ks19 (W c)) fun w => (Cert.KernelIdeal.Hand.dat3 (F := Ideal) (fun c b => StableHlo.after ks19 (W c) b) c).arrAt w Cert.KernelIdeal.cfg3.N

/-- What group 4 owes: the relation of cut 3 is carried to cut 4. -/
def Owes4 : Prop :=
  ∀ (W : Dev Cert.KernelIdeal.nD → KVal) (U : Dev Cert.KernelIdeal.nD → RVal), (∀ c, Rel3 (W c) (U c)) → ∀ c, Rel4 (kstep4 W c) (StableHlo.after (Cert.ReferenceIdeal.Hand.rs4 (F := Ideal)) (U c))

/-- What group 9 owes: the relation of cut 8 is carried to cut 9. -/
def Owes9 : Prop :=
  ∀ (W : Dev Cert.KernelIdeal.nD → KVal) (U : Dev Cert.KernelIdeal.nD → RVal), (∀ c, Rel8 (W c) (U c)) → ∀ c, Rel9 (kstep9 W c) (StableHlo.after (Cert.ReferenceIdeal.Hand.rs9 (F := Ideal)) (U c))

/-- What group 14 owes: the relation of cut 13 is carried to cut 14. -/
def Owes14 : Prop :=
  ∀ (W : Dev Cert.KernelIdeal.nD → KVal) (U : Dev Cert.KernelIdeal.nD → RVal), (∀ c, Rel13 (W c) (U c)) → ∀ c, Rel14 (kstep14 W c) (StableHlo.after (Cert.ReferenceIdeal.Hand.rs14 (F := Ideal)) (U c))

/-- What group 19 owes: the relation of cut 18 is carried to cut 19. -/
def Owes19 : Prop :=
  ∀ (W : Dev Cert.KernelIdeal.nD → KVal) (U : Dev Cert.KernelIdeal.nD → RVal), (∀ c, Rel18 (W c) (U c)) → ∀ c, Rel19 (kstep19 W c) (StableHlo.after (Cert.ReferenceIdeal.Hand.rs19 (F := Ideal)) (U c))

end Cert.Stage

end
-- ==== Proof.St01.lean ====
/-
  Group 1: both programs split the edge list into its source row and its target row; the kernel also counts, per node,
  the edges leaving it (floored at one).  Nothing else moves: every argument, and the constant unit quaternion, reads the
  same on both sides, and the two index rows inherit the range of the edge list.
-/
import proofs.«430033_j52948356825731_1_alg».proof.Proof.Rel
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 4000000 in
theorem owes1 : Owes1 := by
  intro W U h c
  have h0 := h c
  have e18 : W c (Proc.devRef .tc Cert.KernelIdeal.main_arg18) = U c (Proc.devRef .tc Cert.ReferenceIdeal.main_arg18) := h0.a18
  refine ⟨?_, ?_, ?_, ?_, ?_, ?_, ?_, ?_, ?_, ?_, ?_, ?_, ?_, ?_, ?_, ?_, ?_, ?_, ?_, ?_, ?_, ?_, ?_, ?_⟩
  · show StableHlo.after ks1 (W c) _ = _; after_results_simp; exact h0.a0
  · show StableHlo.after ks1 (W c) _ = _; after_results_simp; exact h0.a1
  · show StableHlo.after ks1 (W c) _ = _; after_results_simp; exact h0.a2
  · show StableHlo.after ks1 (W c) _ = _; after_results_simp; exact h0.a3
  · show StableHlo.after ks1 (W c) _ = _; after_results_simp; exact h0.a4
  · show StableHlo.after ks1 (W c) _ = _; after_results_simp; exact h0.a5
  · show StableHlo.after ks1 (W c) _ = _; after_results_simp; exact h0.a6
  · show StableHlo.after ks1 (W c) _ = _; after_results_simp; exact h0.a7
  · show StableHlo.after ks1 (W c) _ = _; after_results_simp; exact h0.a8
  · show StableHlo.after ks1 (W c) _ = _; after_results_simp; exact h0.a9
  · show StableHlo.after ks1 (W c) _ = _; after_results_simp; exact h0.a10
  · show StableHlo.after ks1 (W c) _ = _; after_results_simp; exact h0.a11
  · show StableHlo.after ks1 (W c) _ = _; after_results_simp; exact h0.a12
  · show StableHlo.after ks1 (W c) _ = _; after_results_simp; exact h0.a13
  · show StableHlo.after ks1 (W c) _ = _; after_results_simp; exact h0.a14
  · show StableHlo.after ks1 (W c) _ = _; after_results_simp; exact h0.a15
  · show StableHlo.after ks1 (W c) _ = _; after_results_simp; exact h0.a16
  · show StableHlo.after ks1 (W c) _ = _; after_results_simp; exact h0.a17
  · -- the constant unit quaternion
    show StableHlo.after ks1 (W c) _ = _; after_results_simp; rfl
  · -- the source row
    show StableHlo.after ks1 (W c) _ = _; after_results_simp; rw [e18]; rfl
  · -- the target row
    show StableHlo.after ks1 (W c) _ = _; after_results_simp; rw [e18]; rfl
  · intro i
    show ((StableHlo.after ks1 (W c) (Proc.devRef .tc Cert.KernelIdeal.main_v1) : IVec Cert.KernelIdeal.S200000 32) i).toNat < 10000
    after_results_simp
    exact h0.rng18 _
  · intro i
    show ((StableHlo.after ks1 (W c) (Proc.devRef .tc Cert.KernelIdeal.main_v3) : IVec Cert.KernelIdeal.S200000 32) i).toNat < 10000
    after_results_simp
    exact h0.rng18 _
  · show StableHlo.after ks1 (W c) (Proc.devRef .tc Cert.KernelIdeal.main_v9) = cntOf (StableHlo.after ks1 (W c) (Proc.devRef .tc Cert.KernelIdeal.main_v1))
    after_results_simp; rfl

end Cert.Stage

end
-- ==== Proof.LibTake.lean ====
/-
  A TAKE IN FILL MODE AGAINST PLAIN INDEXING. jnp.take(x, idx, axis = 0) in its default mode first wraps a negative
  index (idx + N where idx < 0), then tests the wrapped index against [0, N - 1], gathers, and replaces the rows whose
  index failed the test by a fill value; x[idx] wraps the same way and gathers. When every index already lies in
  [0, N - 1] the wrap is the identity, the test passes everywhere, and the fill never shows: the two are the same gather.

  Everything is stated for arbitrary shapes; the only numeric facts are about 32-bit words below 2³¹, which compare
  signed as their values.
-/
import Idealize.ShloMosaic.PureOps.Reduce
import Idealize.ShloMosaic.Lib.ReduceAll
import Idealize.ShloMosaic.Lib.StableHlo.Predicate

namespace Cert.Lib.Take

open Idealize.ShloMosaic

/-! ## A select under a mask that is 1 everywhere -/

/-- A select whose condition is 1 at every index is its first branch. -/
theorem select_of_all_one {α : Type} {s : Shape} (c : IVec s 1) (a b : s.Idx → α) (hc : ∀ i, c i = 1#1) :
    select c a b = a := by
  funext i
  show Scalar.select (c i) (a i) (b i) = a i
  rw [hc i]; exact if_pos rfl

/-- A select whose condition is 0 at every index is its second branch. -/
theorem select_of_all_zero {α : Type} {s : Shape} (c : IVec s 1) (a b : s.Idx → α) (hc : ∀ i, c i = 0#1) :
    select c a b = b := by
  funext i
  show Scalar.select (c i) (a i) (b i) = b i
  rw [hc i]; exact if_neg (by decide)

/-- A broadcast of an array that is 1 everywhere is 1 everywhere. -/
theorem bcast_all_one {s t : Shape} (dims : Fin s.rank → Fin t.rank) (h : s.BroadcastsInDim t dims) (m : IVec s 1)
    (hm : ∀ i, m i = 1#1) (j : t.Idx) : broadcastInDim t dims h m j = 1#1 := hm _

/-- A select under the broadcast of a mask that is 1 everywhere is its first branch. -/
theorem select_bcast_all_one {α : Type} {s t : Shape} (dims : Fin s.rank → Fin t.rank) (h : s.BroadcastsInDim t dims)
    (m : IVec s 1) (a b : t.Idx → α) (hm : ∀ i, m i = 1#1) : select (broadcastInDim t dims h m) a b = a :=
  select_of_all_one _ a b (bcast_all_one dims h m hm)

/-! ## A reduction by `and` of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and`, started at 1, of an array that is 1 everywhere is 1 everywhere. -/
theorem reduce_andi_all_one {s t u : Shape} {axes : List (Fin s.rank)} (x : IVec s 1) (init : IVec u 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-! ## Words in range -/

/-- The range test of a word `v` with `v ≤ hi < 2³¹` (as values): `0 ≤ v` and `v ≤ hi`, both signed, both hold. -/
theorem range_test_one {v hi : BitVec 32} (hhi : hi.toNat < 2 ^ 31) (hv : v.toNat ≤ hi.toNat) :
    IntOp.andi (IntOp.cmpi .sge v 0#32) (IntOp.cmpi .sle v hi) = 1#1 := by
  have hv' : v.toNat < 2 ^ 31 := lt_of_le_of_lt hv hhi
  rw [IntOp.andi_eq_one]
  exact ⟨(StableHlo.Predicate.sge_iff_toNat hv' (by decide)).2 (Nat.zero_le _),
    (StableHlo.Predicate.sle_iff_toNat hv' hhi).2 hv⟩

/-- A word below 2³¹ is not negative: the signed test `v < 0` fails. -/
theorem neg_test_zero {v : BitVec 32} (hv : v.toNat < 2 ^ 31) : IntOp.cmpi .slt v 0#32 = 0#1 := by
  rcases BitVec.eq_zero_or_eq_one (IntOp.cmpi .slt v 0#32) with h | h
  · exact h
  · have := (StableHlo.Predicate.slt_iff_toNat hv (by decide)).1 h
    exact absurd this (Nat.not_lt_zero _)

/-! ## The wrap of a negative index -/

/-- jnp's wrap of negative indices, `where(idx < 0, idx + N, idx)`, on indices none of which is negative (each below
    2³¹ as a value) is the indices. The zero is a broadcast constant as printed; what is added does not matter. -/
theorem wrap_eq {s sz : Shape} (dz : Fin sz.rank → Fin s.rank) (hz : sz.BroadcastsInDim s dz) (idx A : IVec s 32)
    (hidx : ∀ i, (idx i).toNat < 2 ^ 31) :
    select (cmpi .slt idx (broadcastInDim s dz hz (constantI sz 32 0#32))) A idx = idx :=
  select_of_all_zero _ A idx fun i => neg_test_zero (hidx i)

/-! ## The take -/

section Take

variable {α : Type} {s C M T sz s1 s8 su : Shape} {axes : List (Fin C.rank)}

/-- THE MASK OF A TAKE IN FILL MODE IS ALL ONES when every start index `I i` lies in `[0, hi]` (as a value, `hi < 2³¹`):
    the printed test `and (I ≥ 0) (I ≤ hi)`, reduced by `and` from 1 along the index-vector axis. The bounds are broadcast
    constants as printed (the upper one through an intermediate shape). -/
theorem take_mask_all_one (I : IVec C 32) (hi : BitVec 32)
    (dz : Fin sz.rank → Fin C.rank) (hz : sz.BroadcastsInDim C dz)
    (d8 : Fin s1.rank → Fin s8.rank) (h8 : s1.BroadcastsInDim s8 d8)
    (d9 : Fin s8.rank → Fin C.rank) (h9 : s8.BroadcastsInDim C d9)
    (hred : C.ReducesTo axes M) (hu : 0 < su.numel)
    (hhi : hi.toNat < 2 ^ 31) (hI : ∀ i, (I i).toNat ≤ hi.toNat) (j : M.Idx) :
    Host.reduce IntOp.andi
        (andi (cmpi .sge I (broadcastInDim C dz hz (constantI sz 32 0#32)))
          (cmpi .sle I (broadcastInDim C d9 h9 (broadcastInDim s8 d8 h8 (constantI s1 32 hi)))))
        (constantI su 1 1#1) hred hu j = 1#1 :=
  reduce_andi_all_one _ _ hred hu (fun i => range_test_one hhi (hI i)) (fun _ => rfl) j

/-- THE TAKE IN FILL MODE IS THE GATHER when every start index lies in `[0, hi]`: the select between the gathered rows
    and the fill, under the broadcast mask, is the gathered rows. -/
theorem take_fill_eq_gather (d : GatherDims s C T) (x : s.Idx → α) (I : IVec C 32) (hi : BitVec 32)
    (dz : Fin sz.rank → Fin C.rank) (hz : sz.BroadcastsInDim C dz)
    (d8 : Fin s1.rank → Fin s8.rank) (h8 : s1.BroadcastsInDim s8 d8)
    (d9 : Fin s8.rank → Fin C.rank) (h9 : s8.BroadcastsInDim C d9)
    (hred : C.ReducesTo axes M) (hu : 0 < su.numel)
    (dm : Fin M.rank → Fin T.rank) (hm : M.BroadcastsInDim T dm) (fill : T.Idx → α)
    (hhi : hi.toNat < 2 ^ 31) (hI : ∀ i, (I i).toNat ≤ hi.toNat) :
    select (broadcastInDim T dm hm
        (Host.reduce IntOp.andi
          (andi (cmpi .sge I (broadcastInDim C dz hz (constantI sz 32 0#32)))
            (cmpi .sle I (broadcastInDim C d9 h9 (broadcastInDim s8 d8 h8 (constantI s1 32 hi)))))
          (constantI su 1 1#1) hred hu))
      (Host.gather d x I) fill
    = Host.gather d x I :=
  select_bcast_all_one dm hm _ _ fill (take_mask_all_one I hi dz hz d8 h8 d9 h9 hred hu hhi hI)

variable {S sz0 : Shape}

/-- The start indices of a take, `broadcast (where(idx < 0, idx + N, idx))`, lie in `[0, hi]` when the indices do. -/
theorem wrapped_le (idx A : IVec S 32) (hi : BitVec 32)
    (dz0 : Fin sz0.rank → Fin S.rank) (hz0 : sz0.BroadcastsInDim S dz0)
    (d5 : Fin S.rank → Fin C.rank) (h5 : S.BroadcastsInDim C d5)
    (hhi : hi.toNat < 2 ^ 31) (hidx : ∀ i, (idx i).toNat ≤ hi.toNat) (i : C.Idx) :
    (broadcastInDim C d5 h5 (select (cmpi .slt idx (broadcastInDim S dz0 hz0 (constantI sz0 32 0#32))) A idx) i).toNat
      ≤ hi.toNat := by
  rw [wrap_eq dz0 hz0 idx A fun i => lt_of_le_of_lt (hidx i) hhi]
  exact hidx _

/-- THE WHOLE TAKE, as printed: wrap, broadcast to a column of start indices, range test, reduce, gather, select
    against the fill. With every index in `[0, hi]` it is the gather at the (wrapped, broadcast) start indices — the
    term plain indexing `x[idx]` prints. -/
theorem take_eq_gather (d : GatherDims s C T) (x : s.Idx → α) (idx A : IVec S 32) (hi : BitVec 32)
    (dz0 : Fin sz0.rank → Fin S.rank) (hz0 : sz0.BroadcastsInDim S dz0)
    (d5 : Fin S.rank → Fin C.rank) (h5 : S.BroadcastsInDim C d5)
    (dz : Fin sz.rank → Fin C.rank) (hz : sz.BroadcastsInDim C dz)
    (d8 : Fin s1.rank → Fin s8.rank) (h8 : s1.BroadcastsInDim s8 d8)
    (d9 : Fin s8.rank → Fin C.rank) (h9 : s8.BroadcastsInDim C d9)
    (hred : C.ReducesTo axes M) (hu : 0 < su.numel)
    (dm : Fin M.rank → Fin T.rank) (hm : M.BroadcastsInDim T dm) (fill : T.Idx → α)
    (hhi : hi.toNat < 2 ^ 31) (hidx : ∀ i, (idx i).toNat ≤ hi.toNat) :
    select (broadcastInDim T dm hm
        (Host.reduce IntOp.andi
          (andi
            (cmpi .sge (broadcastInDim C d5 h5 (select (cmpi .slt idx (broadcastInDim S dz0 hz0 (constantI sz0 32 0#32))) A idx))
              (broadcastInDim C dz hz (constantI sz 32 0#32)))
            (cmpi .sle (broadcastInDim C d5 h5 (select (cmpi .slt idx (broadcastInDim S dz0 hz0 (constantI sz0 32 0#32))) A idx))
              (broadcastInDim C d9 h9 (broadcastInDim s8 d8 h8 (constantI s1 32 hi)))))
          (constantI su 1 1#1) hred hu))
      (Host.gather d x (broadcastInDim C d5 h5 (select (cmpi .slt idx (broadcastInDim S dz0 hz0 (constantI sz0 32 0#32))) A idx)))
      fill
    = Host.gather d x (broadcastInDim C d5 h5 (select (cmpi .slt idx (broadcastInDim S dz0 hz0 (constantI sz0 32 0#32))) A idx)) :=
  take_fill_eq_gather d x _ hi dz hz d8 h8 d9 h9 hred hu dm hm fill hhi
    (wrapped_le idx A hi dz0 hz0 d5 h5 hhi hidx)

/-- The start indices of a take whose indices are in range are the indices, broadcast. -/
theorem start_eq (idx A : IVec S 32)
    (dz0 : Fin sz0.rank → Fin S.rank) (hz0 : sz0.BroadcastsInDim S dz0)
    (d5 : Fin S.rank → Fin C.rank) (h5 : S.BroadcastsInDim C d5) (hidx : ∀ i, (idx i).toNat < 2 ^ 31) :
    broadcastInDim C d5 h5 (select (cmpi .slt idx (broadcastInDim S dz0 hz0 (constantI sz0 32 0#32))) A idx)
      = broadcastInDim C d5 h5 idx := by
  rw [wrap_eq dz0 hz0 idx A hidx]

end Take

/-- info: 'Cert.Lib.Take.take_eq_gather' depends on axioms: [propext, Classical.choice, Quot.sound] -/
#guard_msgs (whitespace := lax) in #print axioms take_eq_gather

end Cert.Lib.Take
-- ==== Proof.KITakes.lean ====
/-
  THE TAKES OF THE PROGRAM. Every `jnp.take(x, idx, axis = 0)` of @main gathers rows of a table of 10000 rows at one of the
  two index vectors (the edges' source and target nodes, 200000 entries each), and is a run of twenty-three host
  operations. In its default (fill) mode the take wraps negative indices, tests the wrapped index against [0, 9999],
  gathers, and puts a fill value where the test fails. With every index below 10000 the wrap is the identity and the
  test passes everywhere, so what the twenty-three operations leave at the take's result buffer is the plain gather at
  the wrapped start indices — the term plain indexing `x[idx]` prints.
-/
import proofs.«430033_j52948356825731_1_alg».proof.Proof.Gen.KernelIdeal.Launch
import proofs.«430033_j52948356825731_1_alg».proof.Proof.LibTake
import Idealize.ShloMosaic.Lib.StableHlo.Run

set_option maxRecDepth 8192

noncomputable section

namespace Cert.KernelIdeal.Hand

open Idealize.ShloMosaic Idealize.ShloMosaic.StableHlo Cert.KernelIdeal Cert.KernelIdeal.Gen

variable {F : FTy → Type} [FloatOps F]

/-- The start indices of a take at the index vector `idx`: negative indices wrapped by the table's 10000 rows, then laid
    out as a column. (Both `jnp.take` and plain indexing print this term.) -/
abbrev startI (idx : IVec S200000 32) : IVec S200000x1 32 :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 10000#32))) idx)

/-- `jnp.take(x, idx, axis = 0)` in fill mode over a table of 10000 rows of `n` columns, as printed: the gather at the
    start indices where the range test `0 ≤ I ≤ 9999` passes, the fill value (a NaN pattern) elsewhere. -/
abbrev takeFill {n : Nat} (g : GatherDims ⟨2, ![10000, n]⟩ S200000x1 ⟨2, ![200000, n]⟩)
    (hm : S200000.BroadcastsInDim ⟨2, ![200000, n]⟩ ![0]) (hf : S_.BroadcastsInDim ⟨2, ![200000, n]⟩ ![])
    (x : FVec F ⟨2, ![10000, n]⟩ .f32) (idx : IVec S200000 32) : FVec F ⟨2, ![200000, n]⟩ .f32 :=
  select (broadcastInDim ⟨2, ![200000, n]⟩ ![0] hm
      (Host.reduce IntOp.andi
        (andi (cmpi .sge (startI idx) (broadcastInDim S200000x1 ![] bcast_S_S200000x1 (constantI S_ 32 0#32)))
          (cmpi .sle (startI idx)
            (broadcastInDim S200000x1 ![0, 1] bcast_S1x1_S200000x1_0_1 (broadcastInDim S1x1 ![1] bcast_S1_S1x1_1 (constantI S1 32 9999#32)))))
        (constantI S_ 1 1#1) reducesTo_S200000x1_S200000_d1 h_S_))
    (Host.gather g x (startI idx))
    (broadcastInDim ⟨2, ![200000, n]⟩ ![] hf (constant S_ .f32 0x7FC00000#32))

/-- With every index below 10000 the take in fill mode is the plain gather. -/
theorem takeFill_eq {n : Nat} (g : GatherDims ⟨2, ![10000, n]⟩ S200000x1 ⟨2, ![200000, n]⟩)
    (hm : S200000.BroadcastsInDim ⟨2, ![200000, n]⟩ ![0]) (hf : S_.BroadcastsInDim ⟨2, ![200000, n]⟩ ![])
    (x : FVec F ⟨2, ![10000, n]⟩ .f32) (idx : IVec S200000 32) (h : ∀ i, (idx i).toNat < 10000) :
    takeFill g hm hf x idx = Host.gather g x (startI idx) :=
  Cert.Lib.Take.take_eq_gather g x idx _ 9999#32 _ _ _ _ _ _ _ _ _ _ _ _ _ _ _ (by decide) (fun i => Nat.le_of_lt_succ (h i))

/-- A typed reference's cast of contents into its buffer's type and back out is the identity. -/
theorem tref_ofBuf_toBuf {σ : RefSig} {Val : EltTy → Type} {T : BufTy} (x : TRef σ T) (v : T.Contents Val) :
    x.ofBuf (x.toBuf v) = v := by
  simp only [TRef.ofBuf, TRef.toBuf, cast_cast, cast_eq]

attribute [local irreducible] Host.reduce Host.gather in
/-- The take at `main_call0`, composed: its twenty-three operations leave at `main_v10` the take in fill mode of the table
    `main_arg0` at the index vector `main_v1` (the fold unrolled; the typed references' casts are identities). -/
theorem take_call0_fill (V : Valuation τ sig (Elt F)) :
    StableHlo.after (hostOps0_1 (F := F)) V (Proc.devRef .tc main_v10)
      = takeFill gather_S10000x4_S200000x1_S200000x4_1_0_n_n_0_1_14 bcast_S200000_S200000x4_0 bcast_S_S200000x4
          (V (Proc.devRef .tc main_arg0)) (V (Proc.devRef .tc main_v1)) := by
  after_results_simp
  simp only [tref_ofBuf_toBuf]
  rfl

/-- The take at `main_call0` is the plain gather of `main_arg0`'s rows at `main_v1` when every index is below 10000. -/
theorem take_call0 (V : Valuation τ sig (Elt F))
    (h : ∀ i, ((V (Proc.devRef .tc main_v1) : IVec S200000 32) i).toNat < 10000) :
    StableHlo.after (hostOps0_1 (F := F)) V (Proc.devRef .tc main_v10)
      = Host.gather gather_S10000x4_S200000x1_S200000x4_1_0_n_n_0_1_14 (V (Proc.devRef .tc main_arg0)) (startI (V (Proc.devRef .tc main_v1))) :=
  (take_call0_fill V).trans (takeFill_eq _ _ _ _ _ h)

attribute [local irreducible] Host.reduce Host.gather in
/-- The take at `main_call1`, composed: its twenty-three operations leave at `main_v11` the take in fill mode of the table
    `main_arg0` at the index vector `main_v3` (the fold unrolled; the typed references' casts are identities). -/
theorem take_call1_fill (V : Valuation τ sig (Elt F)) :
    StableHlo.after (hostOps0_2 (F := F)) V (Proc.devRef .tc main_v11)
      = takeFill gather_S10000x4_S200000x1_S200000x4_1_0_n_n_0_1_14 bcast_S200000_S200000x4_0 bcast_S_S200000x4
          (V (Proc.devRef .tc main_arg0)) (V (Proc.devRef .tc main_v3)) := by
  after_results_simp
  simp only [tref_ofBuf_toBuf]
  rfl

/-- The take at `main_call1` is the plain gather of `main_arg0`'s rows at `main_v3` when every index is below 10000. -/
theorem take_call1 (V : Valuation τ sig (Elt F))
    (h : ∀ i, ((V (Proc.devRef .tc main_v3) : IVec S200000 32) i).toNat < 10000) :
    StableHlo.after (hostOps0_2 (F := F)) V (Proc.devRef .tc main_v11)
      = Host.gather gather_S10000x4_S200000x1_S200000x4_1_0_n_n_0_1_14 (V (Proc.devRef .tc main_arg0)) (startI (V (Proc.devRef .tc main_v3))) :=
  (take_call1_fill V).trans (takeFill_eq _ _ _ _ _ h)

attribute [local irreducible] Host.reduce Host.gather in
/-- The take at `main_call2`, composed: its twenty-three operations leave at `main_v116` the take in fill mode of the table
    `main_v114` at the index vector `main_v1` (the fold unrolled; the typed references' casts are identities). -/
theorem take_call2_fill (V : Valuation τ sig (Elt F)) :
    StableHlo.after (hostOps0_4 (F := F)) V (Proc.devRef .tc main_v116)
      = takeFill gather_S10000x132_S200000x1_S200000x132_1_0_n_n_0_1_1132 bcast_S200000_S200000x132_0 bcast_S_S200000x132
          (V (Proc.devRef .tc main_v114)) (V (Proc.devRef .tc main_v1)) := by
  after_results_simp
  simp only [tref_ofBuf_toBuf]
  rfl

/-- The take at `main_call2` is the plain gather of `main_v114`'s rows at `main_v1` when every index is below 10000. -/
theorem take_call2 (V : Valuation τ sig (Elt F))
    (h : ∀ i, ((V (Proc.devRef .tc main_v1) : IVec S200000 32) i).toNat < 10000) :
    StableHlo.after (hostOps0_4 (F := F)) V (Proc.devRef .tc main_v116)
      = Host.gather gather_S10000x132_S200000x1_S200000x132_1_0_n_n_0_1_1132 (V (Proc.devRef .tc main_v114)) (startI (V (Proc.devRef .tc main_v1))) :=
  (take_call2_fill V).trans (takeFill_eq _ _ _ _ _ h)

attribute [local irreducible] Host.reduce Host.gather in
/-- The take at `main_call3`, composed: its twenty-three operations leave at `main_v117` the take in fill mode of the table
    `main_v114` at the index vector `main_v3` (the fold unrolled; the typed references' casts are identities). -/
theorem take_call3_fill (V : Valuation τ sig (Elt F)) :
    StableHlo.after (hostOps0_5 (F := F)) V (Proc.devRef .tc main_v117)
      = takeFill gather_S10000x132_S200000x1_S200000x132_1_0_n_n_0_1_1132 bcast_S200000_S200000x132_0 bcast_S_S200000x132
          (V (Proc.devRef .tc main_v114)) (V (Proc.devRef .tc main_v3)) := by
  after_results_simp
  simp only [tref_ofBuf_toBuf]
  rfl

/-- The take at `main_call3` is the plain gather of `main_v114`'s rows at `main_v3` when every index is below 10000. -/
theorem take_call3 (V : Valuation τ sig (Elt F))
    (h : ∀ i, ((V (Proc.devRef .tc main_v3) : IVec S200000 32) i).toNat < 10000) :
    StableHlo.after (hostOps0_5 (F := F)) V (Proc.devRef .tc main_v117)
      = Host.gather gather_S10000x132_S200000x1_S200000x132_1_0_n_n_0_1_1132 (V (Proc.devRef .tc main_v114)) (startI (V (Proc.devRef .tc main_v3))) :=
  (take_call3_fill V).trans (takeFill_eq _ _ _ _ _ h)

attribute [local irreducible] Host.reduce Host.gather in
/-- The take at `main_call5`, composed: its twenty-three operations leave at `main_v128` the take in fill mode of the table
    `main_v126` at the index vector `main_v1` (the fold unrolled; the typed references' casts are identities). -/
theorem take_call5_fill (V : Valuation τ sig (Elt F)) :
    StableHlo.after (hostOps1_3 (F := F)) V (Proc.devRef .tc main_v128)
      = takeFill gather_S10000x128_S200000x1_S200000x128_1_0_n_n_0_1_1128 bcast_S200000_S200000x128_0 bcast_S_S200000x128
          (V (Proc.devRef .tc main_v126)) (V (Proc.devRef .tc main_v1)) := by
  after_results_simp
  simp only [tref_ofBuf_toBuf]
  rfl

/-- The take at `main_call5` is the plain gather of `main_v126`'s rows at `main_v1` when every index is below 10000. -/
theorem take_call5 (V : Valuation τ sig (Elt F))
    (h : ∀ i, ((V (Proc.devRef .tc main_v1) : IVec S200000 32) i).toNat < 10000) :
    StableHlo.after (hostOps1_3 (F := F)) V (Proc.devRef .tc main_v128)
      = Host.gather gather_S10000x128_S200000x1_S200000x128_1_0_n_n_0_1_1128 (V (Proc.devRef .tc main_v126)) (startI (V (Proc.devRef .tc main_v1))) :=
  (take_call5_fill V).trans (takeFill_eq _ _ _ _ _ h)

attribute [local irreducible] Host.reduce Host.gather in
/-- The take at `main_call6`, composed: its twenty-three operations leave at `main_v129` the take in fill mode of the table
    `main_v126` at the index vector `main_v3` (the fold unrolled; the typed references' casts are identities). -/
theorem take_call6_fill (V : Valuation τ sig (Elt F)) :
    StableHlo.after (hostOps1_4 (F := F)) V (Proc.devRef .tc main_v129)
      = takeFill gather_S10000x128_S200000x1_S200000x128_1_0_n_n_0_1_1128 bcast_S200000_S200000x128_0 bcast_S_S200000x128
          (V (Proc.devRef .tc main_v126)) (V (Proc.devRef .tc main_v3)) := by
  after_results_simp
  simp only [tref_ofBuf_toBuf]
  rfl

/-- The take at `main_call6` is the plain gather of `main_v126`'s rows at `main_v3` when every index is below 10000. -/
theorem take_call6 (V : Valuation τ sig (Elt F))
    (h : ∀ i, ((V (Proc.devRef .tc main_v3) : IVec S200000 32) i).toNat < 10000) :
    StableHlo.after (hostOps1_4 (F := F)) V (Proc.devRef .tc main_v129)
      = Host.gather gather_S10000x128_S200000x1_S200000x128_1_0_n_n_0_1_1128 (V (Proc.devRef .tc main_v126)) (startI (V (Proc.devRef .tc main_v3))) :=
  (take_call6_fill V).trans (takeFill_eq _ _ _ _ _ h)

attribute [local irreducible] Host.reduce Host.gather in
/-- The take at `main_call8`, composed: its twenty-three operations leave at `main_v141` the take in fill mode of the table
    `main_v139` at the index vector `main_v1` (the fold unrolled; the typed references' casts are identities). -/
theorem take_call8_fill (V : Valuation τ sig (Elt F)) :
    StableHlo.after (hostOps2_3 (F := F)) V (Proc.devRef .tc main_v141)
      = takeFill gather_S10000x256_S200000x1_S200000x256_1_0_n_n_0_1_1256 bcast_S200000_S200000x256_0 bcast_S_S200000x256
          (V (Proc.devRef .tc main_v139)) (V (Proc.devRef .tc main_v1)) := by
  after_results_simp
  simp only [tref_ofBuf_toBuf]
  rfl

/-- The take at `main_call8` is the plain gather of `main_v139`'s rows at `main_v1` when every index is below 10000. -/
theorem take_call8 (V : Valuation τ sig (Elt F))
    (h : ∀ i, ((V (Proc.devRef .tc main_v1) : IVec S200000 32) i).toNat < 10000) :
    StableHlo.after (hostOps2_3 (F := F)) V (Proc.devRef .tc main_v141)
      = Host.gather gather_S10000x256_S200000x1_S200000x256_1_0_n_n_0_1_1256 (V (Proc.devRef .tc main_v139)) (startI (V (Proc.devRef .tc main_v1))) :=
  (take_call8_fill V).trans (takeFill_eq _ _ _ _ _ h)

attribute [local irreducible] Host.reduce Host.gather in
/-- The take at `main_call9`, composed: its twenty-three operations leave at `main_v142` the take in fill mode of the table
    `main_v139` at the index vector `main_v3` (the fold unrolled; the typed references' casts are identities). -/
theorem take_call9_fill (V : Valuation τ sig (Elt F)) :
    StableHlo.after (hostOps2_4 (F := F)) V (Proc.devRef .tc main_v142)
      = takeFill gather_S10000x256_S200000x1_S200000x256_1_0_n_n_0_1_1256 bcast_S200000_S200000x256_0 bcast_S_S200000x256
          (V (Proc.devRef .tc main_v139)) (V (Proc.devRef .tc main_v3)) := by
  after_results_simp
  simp only [tref_ofBuf_toBuf]
  rfl

/-- The take at `main_call9` is the plain gather of `main_v139`'s rows at `main_v3` when every index is below 10000. -/
theorem take_call9 (V : Valuation τ sig (Elt F))
    (h : ∀ i, ((V (Proc.devRef .tc main_v3) : IVec S200000 32) i).toNat < 10000) :
    StableHlo.after (hostOps2_4 (F := F)) V (Proc.devRef .tc main_v142)
      = Host.gather gather_S10000x256_S200000x1_S200000x256_1_0_n_n_0_1_1256 (V (Proc.devRef .tc main_v139)) (startI (V (Proc.devRef .tc main_v3))) :=
  (take_call9_fill V).trans (takeFill_eq _ _ _ _ _ h)

attribute [local irreducible] Host.reduce Host.gather in
/-- The take at `main_call11`, composed: its twenty-three operations leave at `main_v154` the take in fill mode of the table
    `main_v152` at the index vector `main_v1` (the fold unrolled; the typed references' casts are identities). -/
theorem take_call11_fill (V : Valuation τ sig (Elt F)) :
    StableHlo.after (hostOps3_3 (F := F)) V (Proc.devRef .tc main_v154)
      = takeFill gather_S10000x256_S200000x1_S200000x256_1_0_n_n_0_1_1256 bcast_S200000_S200000x256_0 bcast_S_S200000x256
          (V (Proc.devRef .tc main_v152)) (V (Proc.devRef .tc main_v1)) := by
  after_results_simp
  simp only [tref_ofBuf_toBuf]
  rfl

/-- The take at `main_call11` is the plain gather of `main_v152`'s rows at `main_v1` when every index is below 10000. -/
theorem take_call11 (V : Valuation τ sig (Elt F))
    (h : ∀ i, ((V (Proc.devRef .tc main_v1) : IVec S200000 32) i).toNat < 10000) :
    StableHlo.after (hostOps3_3 (F := F)) V (Proc.devRef .tc main_v154)
      = Host.gather gather_S10000x256_S200000x1_S200000x256_1_0_n_n_0_1_1256 (V (Proc.devRef .tc main_v152)) (startI (V (Proc.devRef .tc main_v1))) :=
  (take_call11_fill V).trans (takeFill_eq _ _ _ _ _ h)

attribute [local irreducible] Host.reduce Host.gather in
/-- The take at `main_call12`, composed: its twenty-three operations leave at `main_v155` the take in fill mode of the table
    `main_v152` at the index vector `main_v3` (the fold unrolled; the typed references' casts are identities). -/
theorem take_call12_fill (V : Valuation τ sig (Elt F)) :
    StableHlo.after (hostOps3_4 (F := F)) V (Proc.devRef .tc main_v155)
      = takeFill gather_S10000x256_S200000x1_S200000x256_1_0_n_n_0_1_1256 bcast_S200000_S200000x256_0 bcast_S_S200000x256
          (V (Proc.devRef .tc main_v152)) (V (Proc.devRef .tc main_v3)) := by
  after_results_simp
  simp only [tref_ofBuf_toBuf]
  rfl

/-- The take at `main_call12` is the plain gather of `main_v152`'s rows at `main_v3` when every index is below 10000. -/
theorem take_call12 (V : Valuation τ sig (Elt F))
    (h : ∀ i, ((V (Proc.devRef .tc main_v3) : IVec S200000 32) i).toNat < 10000) :
    StableHlo.after (hostOps3_4 (F := F)) V (Proc.devRef .tc main_v155)
      = Host.gather gather_S10000x256_S200000x1_S200000x256_1_0_n_n_0_1_1256 (V (Proc.devRef .tc main_v152)) (startI (V (Proc.devRef .tc main_v3))) :=
  (take_call12_fill V).trans (takeFill_eq _ _ _ _ _ h)

attribute [local irreducible] Host.reduce Host.gather in
/-- The take at `main_call15`, composed: its twenty-three operations leave at `main_v225` the take in fill mode of the table
    `main_arg2` at the index vector `main_v1` (the fold unrolled; the typed references' casts are identities). -/
theorem take_call15_fill (V : Valuation τ sig (Elt F)) :
    StableHlo.after (hostOps4_5 (F := F)) V (Proc.devRef .tc main_v225)
      = takeFill gather_S10000x4_S200000x1_S200000x4_1_0_n_n_0_1_14 bcast_S200000_S200000x4_0 bcast_S_S200000x4
          (V (Proc.devRef .tc main_arg2)) (V (Proc.devRef .tc main_v1)) := by
  after_results_simp
  simp only [tref_ofBuf_toBuf]
  rfl

/-- The take at `main_call15` is the plain gather of `main_arg2`'s rows at `main_v1` when every index is below 10000. -/
theorem take_call15 (V : Valuation τ sig (Elt F))
    (h : ∀ i, ((V (Proc.devRef .tc main_v1) : IVec S200000 32) i).toNat < 10000) :
    StableHlo.after (hostOps4_5 (F := F)) V (Proc.devRef .tc main_v225)
      = Host.gather gather_S10000x4_S200000x1_S200000x4_1_0_n_n_0_1_14 (V (Proc.devRef .tc main_arg2)) (startI (V (Proc.devRef .tc main_v1))) :=
  (take_call15_fill V).trans (takeFill_eq _ _ _ _ _ h)

attribute [local irreducible] Host.reduce Host.gather in
/-- The take at `main_call16`, composed: its twenty-three operations leave at `main_v226` the take in fill mode of the table
    `main_arg2` at the index vector `main_v3` (the fold unrolled; the typed references' casts are identities). -/
theorem take_call16_fill (V : Valuation τ sig (Elt F)) :
    StableHlo.after (hostOps4_6 (F := F)) V (Proc.devRef .tc main_v226)
      = takeFill gather_S10000x4_S200000x1_S200000x4_1_0_n_n_0_1_14 bcast_S200000_S200000x4_0 bcast_S_S200000x4
          (V (Proc.devRef .tc main_arg2)) (V (Proc.devRef .tc main_v3)) := by
  after_results_simp
  simp only [tref_ofBuf_toBuf]
  rfl

/-- The take at `main_call16` is the plain gather of `main_arg2`'s rows at `main_v3` when every index is below 10000. -/
theorem take_call16 (V : Valuation τ sig (Elt F))
    (h : ∀ i, ((V (Proc.devRef .tc main_v3) : IVec S200000 32) i).toNat < 10000) :
    StableHlo.after (hostOps4_6 (F := F)) V (Proc.devRef .tc main_v226)
      = Host.gather gather_S10000x4_S200000x1_S200000x4_1_0_n_n_0_1_14 (V (Proc.devRef .tc main_arg2)) (startI (V (Proc.devRef .tc main_v3))) :=
  (take_call16_fill V).trans (takeFill_eq _ _ _ _ _ h)

attribute [local irreducible] Host.reduce Host.gather in
/-- The take at `main_call17`, composed: its twenty-three operations leave at `main_v280` the take in fill mode of the table
    `main_v224` at the index vector `main_v1` (the fold unrolled; the typed references' casts are identities). -/
theorem take_call17_fill (V : Valuation τ sig (Elt F)) :
    StableHlo.after (hostOps4_8 (F := F)) V (Proc.devRef .tc main_v280)
      = takeFill gather_S10000x4_S200000x1_S200000x4_1_0_n_n_0_1_14 bcast_S200000_S200000x4_0 bcast_S_S200000x4
          (V (Proc.devRef .tc main_v224)) (V (Proc.devRef .tc main_v1)) := by
  after_results_simp
  simp only [tref_ofBuf_toBuf]
  rfl

/-- The take at `main_call17` is the plain gather of `main_v224`'s rows at `main_v1` when every index is below 10000. -/
theorem take_call17 (V : Valuation τ sig (Elt F))
    (h : ∀ i, ((V (Proc.devRef .tc main_v1) : IVec S200000 32) i).toNat < 10000) :
    StableHlo.after (hostOps4_8 (F := F)) V (Proc.devRef .tc main_v280)
      = Host.gather gather_S10000x4_S200000x1_S200000x4_1_0_n_n_0_1_14 (V (Proc.devRef .tc main_v224)) (startI (V (Proc.devRef .tc main_v1))) :=
  (take_call17_fill V).trans (takeFill_eq _ _ _ _ _ h)

attribute [local irreducible] Host.reduce Host.gather in
/-- The take at `main_call18`, composed: its twenty-three operations leave at `main_v281` the take in fill mode of the table
    `main_v224` at the index vector `main_v3` (the fold unrolled; the typed references' casts are identities). -/
theorem take_call18_fill (V : Valuation τ sig (Elt F)) :
    StableHlo.after (hostOps4_9 (F := F)) V (Proc.devRef .tc main_v281)
      = takeFill gather_S10000x4_S200000x1_S200000x4_1_0_n_n_0_1_14 bcast_S200000_S200000x4_0 bcast_S_S200000x4
          (V (Proc.devRef .tc main_v224)) (V (Proc.devRef .tc main_v3)) := by
  after_results_simp
  simp only [tref_ofBuf_toBuf]
  rfl

/-- The take at `main_call18` is the plain gather of `main_v224`'s rows at `main_v3` when every index is below 10000. -/
theorem take_call18 (V : Valuation τ sig (Elt F))
    (h : ∀ i, ((V (Proc.devRef .tc main_v3) : IVec S200000 32) i).toNat < 10000) :
    StableHlo.after (hostOps4_9 (F := F)) V (Proc.devRef .tc main_v281)
      = Host.gather gather_S10000x4_S200000x1_S200000x4_1_0_n_n_0_1_14 (V (Proc.devRef .tc main_v224)) (startI (V (Proc.devRef .tc main_v3))) :=
  (take_call18_fill V).trans (takeFill_eq _ _ _ _ _ h)

/-- info: 'Cert.KernelIdeal.Hand.take_call0' depends on axioms: [propext, Classical.choice, Quot.sound] -/
#guard_msgs (whitespace := lax) in #print axioms take_call0

end Cert.KernelIdeal.Hand

end
-- ==== Proof.StTac.lean ====
/-
  READING A RUN OF HOST OPERATIONS BELOW ITS CONCATENATIONS. The composed value of a buffer after a literal list of
  operations is found by one simplification pass over the list. A concatenation carries its operands inside a list of
  (shape, array) pairs, which the pass does not enter; here each concatenation is restated with its operands as arguments
  of their own (`cat2` for two operands, `cat4` for four), the same function, so that the pass goes on into the operands.
  The four-operand concatenations of the two programs (four columns of one array laid side by side, the result of each
  quaternion product) are restated one by one, each at its own buffers.
-/
import proofs.«430033_j52948356825731_1_alg».proof.Proof.Gen.KernelIdeal
import proofs.«430033_j52948356825731_1_alg».proof.ReferenceIdeal
import Idealize.ShloMosaic.Lib.StableHlo.Run
import Idealize.ShloMosaic.PureOps.Ideal

set_option maxRecDepth 16384

noncomputable section

namespace Cert.Stage

open Idealize.ShloMosaic Idealize.ShloMosaic.TcCoe Idealize.SL.Sem Idealize.ShloMosaic.StableHlo

variable [Cert.KernelIdeal.Facts] [Cert.ReferenceIdeal.Facts]

/-- Two arrays side by side along an axis, the arrays as arguments of their own (the same function as `concatenate` of
    the two-entry list). -/
def cat2 {α : Type} (t : Shape) (a : Fin t.rank) (s0 s1 : Shape) (h : Shape.Concatenates [s0, s1] t a)
    (x : s0.Idx → α) (y : s1.Idx → α) : t.Idx → α :=
  concatenate t a [⟨s0, x⟩, ⟨s1, y⟩] h

/-- Four arrays side by side along an axis, the arrays as arguments of their own. -/
def cat4 {α : Type} (t : Shape) (a : Fin t.rank) (s0 s1 s2 s3 : Shape) (h : Shape.Concatenates [s0, s1, s2, s3] t a)
    (x : s0.Idx → α) (y : s1.Idx → α) (z : s2.Idx → α) (w : s3.Idx → α) : t.Idx → α :=
  concatenate t a [⟨s0, x⟩, ⟨s1, y⟩, ⟨s2, z⟩, ⟨s3, w⟩] h

theorem cat2_eq {α : Type} (t : Shape) (a : Fin t.rank) (s0 s1 : Shape) (h : Shape.Concatenates [s0, s1] t a)
    (x : s0.Idx → α) (y : s1.Idx → α) : concatenate t a [⟨s0, x⟩, ⟨s1, y⟩] h = cat2 t a s0 s1 h x y := rfl

/-! ## The four-column concatenations of the two programs, each at its own buffers -/

theorem k_cat_v64 (hxs) (hy) (F : Valuation Cert.KernelIdeal.τ Cert.KernelIdeal.sig (Elt Ideal)) :
    (StableHlo.nary (τ := Cert.KernelIdeal.τ) ![Cert.KernelIdeal.main_v60, Cert.KernelIdeal.main_v61, Cert.KernelIdeal.main_v62, Cert.KernelIdeal.main_v63] Cert.KernelIdeal.main_v64
        (fun u => concatenate Cert.KernelIdeal.S200000x4 1 [⟨Cert.KernelIdeal.S200000x1, u 0⟩, ⟨Cert.KernelIdeal.S200000x1, u 1⟩, ⟨Cert.KernelIdeal.S200000x1, u 2⟩, ⟨Cert.KernelIdeal.S200000x1, u 3⟩] Cert.KernelIdeal.Gen.concatenates_S200000x1_S200000x1_S200000x1_S200000x1_S200000x4_d1) hxs hy).result F
        (no_index (Proc.devRef .tc Cert.KernelIdeal.main_v64))
      = cat4 Cert.KernelIdeal.S200000x4 1 Cert.KernelIdeal.S200000x1 Cert.KernelIdeal.S200000x1 Cert.KernelIdeal.S200000x1 Cert.KernelIdeal.S200000x1 Cert.KernelIdeal.Gen.concatenates_S200000x1_S200000x1_S200000x1_S200000x1_S200000x4_d1
          (F (Proc.devRef .tc Cert.KernelIdeal.main_v60)) (F (Proc.devRef .tc Cert.KernelIdeal.main_v61)) (F (Proc.devRef .tc Cert.KernelIdeal.main_v62)) (F (Proc.devRef .tc Cert.KernelIdeal.main_v63)) := by
  rw [StableHlo.nary_result]; rfl

theorem k_cat_v113 (hxs) (hy) (F : Valuation Cert.KernelIdeal.τ Cert.KernelIdeal.sig (Elt Ideal)) :
    (StableHlo.nary (τ := Cert.KernelIdeal.τ) ![Cert.KernelIdeal.main_v109, Cert.KernelIdeal.main_v110, Cert.KernelIdeal.main_v111, Cert.KernelIdeal.main_v112] Cert.KernelIdeal.main_v113
        (fun u => concatenate Cert.KernelIdeal.S200000x4 1 [⟨Cert.KernelIdeal.S200000x1, u 0⟩, ⟨Cert.KernelIdeal.S200000x1, u 1⟩, ⟨Cert.KernelIdeal.S200000x1, u 2⟩, ⟨Cert.KernelIdeal.S200000x1, u 3⟩] Cert.KernelIdeal.Gen.concatenates_S200000x1_S200000x1_S200000x1_S200000x1_S200000x4_d1) hxs hy).result F
        (no_index (Proc.devRef .tc Cert.KernelIdeal.main_v113))
      = cat4 Cert.KernelIdeal.S200000x4 1 Cert.KernelIdeal.S200000x1 Cert.KernelIdeal.S200000x1 Cert.KernelIdeal.S200000x1 Cert.KernelIdeal.S200000x1 Cert.KernelIdeal.Gen.concatenates_S200000x1_S200000x1_S200000x1_S200000x1_S200000x4_d1
          (F (Proc.devRef .tc Cert.KernelIdeal.main_v109)) (F (Proc.devRef .tc Cert.KernelIdeal.main_v110)) (F (Proc.devRef .tc Cert.KernelIdeal.main_v111)) (F (Proc.devRef .tc Cert.KernelIdeal.main_v112)) := by
  rw [StableHlo.nary_result]; rfl

theorem k_cat_v279 (hxs) (hy) (F : Valuation Cert.KernelIdeal.τ Cert.KernelIdeal.sig (Elt Ideal)) :
    (StableHlo.nary (τ := Cert.KernelIdeal.τ) ![Cert.KernelIdeal.main_v275, Cert.KernelIdeal.main_v276, Cert.KernelIdeal.main_v277, Cert.KernelIdeal.main_v278] Cert.KernelIdeal.main_v279
        (fun u => concatenate Cert.KernelIdeal.S200000x4 1 [⟨Cert.KernelIdeal.S200000x1, u 0⟩, ⟨Cert.KernelIdeal.S200000x1, u 1⟩, ⟨Cert.KernelIdeal.S200000x1, u 2⟩, ⟨Cert.KernelIdeal.S200000x1, u 3⟩] Cert.KernelIdeal.Gen.concatenates_S200000x1_S200000x1_S200000x1_S200000x1_S200000x4_d1) hxs hy).result F
        (no_index (Proc.devRef .tc Cert.KernelIdeal.main_v279))
      = cat4 Cert.KernelIdeal.S200000x4 1 Cert.KernelIdeal.S200000x1 Cert.KernelIdeal.S200000x1 Cert.KernelIdeal.S200000x1 Cert.KernelIdeal.S200000x1 Cert.KernelIdeal.Gen.concatenates_S200000x1_S200000x1_S200000x1_S200000x1_S200000x4_d1
          (F (Proc.devRef .tc Cert.KernelIdeal.main_v275)) (F (Proc.devRef .tc Cert.KernelIdeal.main_v276)) (F (Proc.devRef .tc Cert.KernelIdeal.main_v277)) (F (Proc.devRef .tc Cert.KernelIdeal.main_v278)) := by
  rw [StableHlo.nary_result]; rfl

theorem k_cat_v334 (hxs) (hy) (F : Valuation Cert.KernelIdeal.τ Cert.KernelIdeal.sig (Elt Ideal)) :
    (StableHlo.nary (τ := Cert.KernelIdeal.τ) ![Cert.KernelIdeal.main_v330, Cert.KernelIdeal.main_v331, Cert.KernelIdeal.main_v332, Cert.KernelIdeal.main_v333] Cert.KernelIdeal.main_v334
        (fun u => concatenate Cert.KernelIdeal.S200000x4 1 [⟨Cert.KernelIdeal.S200000x1, u 0⟩, ⟨Cert.KernelIdeal.S200000x1, u 1⟩, ⟨Cert.KernelIdeal.S200000x1, u 2⟩, ⟨Cert.KernelIdeal.S200000x1, u 3⟩] Cert.KernelIdeal.Gen.concatenates_S200000x1_S200000x1_S200000x1_S200000x1_S200000x4_d1) hxs hy).result F
        (no_index (Proc.devRef .tc Cert.KernelIdeal.main_v334))
      = cat4 Cert.KernelIdeal.S200000x4 1 Cert.KernelIdeal.S200000x1 Cert.KernelIdeal.S200000x1 Cert.KernelIdeal.S200000x1 Cert.KernelIdeal.S200000x1 Cert.KernelIdeal.Gen.concatenates_S200000x1_S200000x1_S200000x1_S200000x1_S200000x4_d1
          (F (Proc.devRef .tc Cert.KernelIdeal.main_v330)) (F (Proc.devRef .tc Cert.KernelIdeal.main_v331)) (F (Proc.devRef .tc Cert.KernelIdeal.main_v332)) (F (Proc.devRef .tc Cert.KernelIdeal.main_v333)) := by
  rw [StableHlo.nary_result]; rfl

theorem k_cat_v387 (hxs) (hy) (F : Valuation Cert.KernelIdeal.τ Cert.KernelIdeal.sig (Elt Ideal)) :
    (StableHlo.nary (τ := Cert.KernelIdeal.τ) ![Cert.KernelIdeal.main_v383, Cert.KernelIdeal.main_v384, Cert.KernelIdeal.main_v385, Cert.KernelIdeal.main_v386] Cert.KernelIdeal.main_v387
        (fun u => concatenate Cert.KernelIdeal.S200000x4 1 [⟨Cert.KernelIdeal.S200000x1, u 0⟩, ⟨Cert.KernelIdeal.S200000x1, u 1⟩, ⟨Cert.KernelIdeal.S200000x1, u 2⟩, ⟨Cert.KernelIdeal.S200000x1, u 3⟩] Cert.KernelIdeal.Gen.concatenates_S200000x1_S200000x1_S200000x1_S200000x1_S200000x4_d1) hxs hy).result F
        (no_index (Proc.devRef .tc Cert.KernelIdeal.main_v387))
      = cat4 Cert.KernelIdeal.S200000x4 1 Cert.KernelIdeal.S200000x1 Cert.KernelIdeal.S200000x1 Cert.KernelIdeal.S200000x1 Cert.KernelIdeal.S200000x1 Cert.KernelIdeal.Gen.concatenates_S200000x1_S200000x1_S200000x1_S200000x1_S200000x4_d1
          (F (Proc.devRef .tc Cert.KernelIdeal.main_v383)) (F (Proc.devRef .tc Cert.KernelIdeal.main_v384)) (F (Proc.devRef .tc Cert.KernelIdeal.main_v385)) (F (Proc.devRef .tc Cert.KernelIdeal.main_v386)) := by
  rw [StableHlo.nary_result]; rfl

theorem r_cat_v63 (hxs) (hy) (F : Valuation Cert.ReferenceIdeal.τ Cert.ReferenceIdeal.sig (Elt Ideal)) :
    (StableHlo.nary (τ := Cert.ReferenceIdeal.τ) ![Cert.ReferenceIdeal.main_v59, Cert.ReferenceIdeal.main_v60, Cert.ReferenceIdeal.main_v61, Cert.ReferenceIdeal.main_v62] Cert.ReferenceIdeal.main_v63
        (fun u => concatenate Cert.ReferenceIdeal.S200000x4 1 [⟨Cert.ReferenceIdeal.S200000x1, u 0⟩, ⟨Cert.ReferenceIdeal.S200000x1, u 1⟩, ⟨Cert.ReferenceIdeal.S200000x1, u 2⟩, ⟨Cert.ReferenceIdeal.S200000x1, u 3⟩] Cert.ReferenceIdeal.Facts₀.concatenates_S200000x1_S200000x1_S200000x1_S200000x1_S200000x4_d1) hxs hy).result F
        (no_index (Proc.devRef .tc Cert.ReferenceIdeal.main_v63))
      = cat4 Cert.ReferenceIdeal.S200000x4 1 Cert.ReferenceIdeal.S200000x1 Cert.ReferenceIdeal.S200000x1 Cert.ReferenceIdeal.S200000x1 Cert.ReferenceIdeal.S200000x1 Cert.ReferenceIdeal.Facts₀.concatenates_S200000x1_S200000x1_S200000x1_S200000x1_S200000x4_d1
          (F (Proc.devRef .tc Cert.ReferenceIdeal.main_v59)) (F (Proc.devRef .tc Cert.ReferenceIdeal.main_v60)) (F (Proc.devRef .tc Cert.ReferenceIdeal.main_v61)) (F (Proc.devRef .tc Cert.ReferenceIdeal.main_v62)) := by
  rw [StableHlo.nary_result]; rfl

theorem r_cat_v119 (hxs) (hy) (F : Valuation Cert.ReferenceIdeal.τ Cert.ReferenceIdeal.sig (Elt Ideal)) :
    (StableHlo.nary (τ := Cert.ReferenceIdeal.τ) ![Cert.ReferenceIdeal.main_v115, Cert.ReferenceIdeal.main_v116, Cert.ReferenceIdeal.main_v117, Cert.ReferenceIdeal.main_v118] Cert.ReferenceIdeal.main_v119
        (fun u => concatenate Cert.ReferenceIdeal.S200000x4 1 [⟨Cert.ReferenceIdeal.S200000x1, u 0⟩, ⟨Cert.ReferenceIdeal.S200000x1, u 1⟩, ⟨Cert.ReferenceIdeal.S200000x1, u 2⟩, ⟨Cert.ReferenceIdeal.S200000x1, u 3⟩] Cert.ReferenceIdeal.Facts₀.concatenates_S200000x1_S200000x1_S200000x1_S200000x1_S200000x4_d1) hxs hy).result F
        (no_index (Proc.devRef .tc Cert.ReferenceIdeal.main_v119))
      = cat4 Cert.ReferenceIdeal.S200000x4 1 Cert.ReferenceIdeal.S200000x1 Cert.ReferenceIdeal.S200000x1 Cert.ReferenceIdeal.S200000x1 Cert.ReferenceIdeal.S200000x1 Cert.ReferenceIdeal.Facts₀.concatenates_S200000x1_S200000x1_S200000x1_S200000x1_S200000x4_d1
          (F (Proc.devRef .tc Cert.ReferenceIdeal.main_v115)) (F (Proc.devRef .tc Cert.ReferenceIdeal.main_v116)) (F (Proc.devRef .tc Cert.ReferenceIdeal.main_v117)) (F (Proc.devRef .tc Cert.ReferenceIdeal.main_v118)) := by
  rw [StableHlo.nary_result]; rfl

theorem r_cat_v379 (hxs) (hy) (F : Valuation Cert.ReferenceIdeal.τ Cert.ReferenceIdeal.sig (Elt Ideal)) :
    (StableHlo.nary (τ := Cert.ReferenceIdeal.τ) ![Cert.ReferenceIdeal.main_v375, Cert.ReferenceIdeal.main_v376, Cert.ReferenceIdeal.main_v377, Cert.ReferenceIdeal.main_v378] Cert.ReferenceIdeal.main_v379
        (fun u => concatenate Cert.ReferenceIdeal.S200000x4 1 [⟨Cert.ReferenceIdeal.S200000x1, u 0⟩, ⟨Cert.ReferenceIdeal.S200000x1, u 1⟩, ⟨Cert.ReferenceIdeal.S200000x1, u 2⟩, ⟨Cert.ReferenceIdeal.S200000x1, u 3⟩] Cert.ReferenceIdeal.Facts₀.concatenates_S200000x1_S200000x1_S200000x1_S200000x1_S200000x4_d1) hxs hy).result F
        (no_index (Proc.devRef .tc Cert.ReferenceIdeal.main_v379))
      = cat4 Cert.ReferenceIdeal.S200000x4 1 Cert.ReferenceIdeal.S200000x1 Cert.ReferenceIdeal.S200000x1 Cert.ReferenceIdeal.S200000x1 Cert.ReferenceIdeal.S200000x1 Cert.ReferenceIdeal.Facts₀.concatenates_S200000x1_S200000x1_S200000x1_S200000x1_S200000x4_d1
          (F (Proc.devRef .tc Cert.ReferenceIdeal.main_v375)) (F (Proc.devRef .tc Cert.ReferenceIdeal.main_v376)) (F (Proc.devRef .tc Cert.ReferenceIdeal.main_v377)) (F (Proc.devRef .tc Cert.ReferenceIdeal.main_v378)) := by
  rw [StableHlo.nary_result]; rfl

theorem r_cat_v446 (hxs) (hy) (F : Valuation Cert.ReferenceIdeal.τ Cert.ReferenceIdeal.sig (Elt Ideal)) :
    (StableHlo.nary (τ := Cert.ReferenceIdeal.τ) ![Cert.ReferenceIdeal.main_v442, Cert.ReferenceIdeal.main_v443, Cert.ReferenceIdeal.main_v444, Cert.ReferenceIdeal.main_v445] Cert.ReferenceIdeal.main_v446
        (fun u => concatenate Cert.ReferenceIdeal.S200000x4 1 [⟨Cert.ReferenceIdeal.S200000x1, u 0⟩, ⟨Cert.ReferenceIdeal.S200000x1, u 1⟩, ⟨Cert.ReferenceIdeal.S200000x1, u 2⟩, ⟨Cert.ReferenceIdeal.S200000x1, u 3⟩] Cert.ReferenceIdeal.Facts₀.concatenates_S200000x1_S200000x1_S200000x1_S200000x1_S200000x4_d1) hxs hy).result F
        (no_index (Proc.devRef .tc Cert.ReferenceIdeal.main_v446))
      = cat4 Cert.ReferenceIdeal.S200000x4 1 Cert.ReferenceIdeal.S200000x1 Cert.ReferenceIdeal.S200000x1 Cert.ReferenceIdeal.S200000x1 Cert.ReferenceIdeal.S200000x1 Cert.ReferenceIdeal.Facts₀.concatenates_S200000x1_S200000x1_S200000x1_S200000x1_S200000x4_d1
          (F (Proc.devRef .tc Cert.ReferenceIdeal.main_v442)) (F (Proc.devRef .tc Cert.ReferenceIdeal.main_v443)) (F (Proc.devRef .tc Cert.ReferenceIdeal.main_v444)) (F (Proc.devRef .tc Cert.ReferenceIdeal.main_v445)) := by
  rw [StableHlo.nary_result]; rfl

theorem r_cat_v499 (hxs) (hy) (F : Valuation Cert.ReferenceIdeal.τ Cert.ReferenceIdeal.sig (Elt Ideal)) :
    (StableHlo.nary (τ := Cert.ReferenceIdeal.τ) ![Cert.ReferenceIdeal.main_v495, Cert.ReferenceIdeal.main_v496, Cert.ReferenceIdeal.main_v497, Cert.ReferenceIdeal.main_v498] Cert.ReferenceIdeal.main_v499
        (fun u => concatenate Cert.ReferenceIdeal.S200000x4 1 [⟨Cert.ReferenceIdeal.S200000x1, u 0⟩, ⟨Cert.ReferenceIdeal.S200000x1, u 1⟩, ⟨Cert.ReferenceIdeal.S200000x1, u 2⟩, ⟨Cert.ReferenceIdeal.S200000x1, u 3⟩] Cert.ReferenceIdeal.Facts₀.concatenates_S200000x1_S200000x1_S200000x1_S200000x1_S200000x4_d1) hxs hy).result F
        (no_index (Proc.devRef .tc Cert.ReferenceIdeal.main_v499))
      = cat4 Cert.ReferenceIdeal.S200000x4 1 Cert.ReferenceIdeal.S200000x1 Cert.ReferenceIdeal.S200000x1 Cert.ReferenceIdeal.S200000x1 Cert.ReferenceIdeal.S200000x1 Cert.ReferenceIdeal.Facts₀.concatenates_S200000x1_S200000x1_S200000x1_S200000x1_S200000x4_d1
          (F (Proc.devRef .tc Cert.ReferenceIdeal.main_v495)) (F (Proc.devRef .tc Cert.ReferenceIdeal.main_v496)) (F (Proc.devRef .tc Cert.ReferenceIdeal.main_v497)) (F (Proc.devRef .tc Cert.ReferenceIdeal.main_v498)) := by
  rw [StableHlo.nary_result]; rfl

/-- The results of a literal list of operations at a buffer, by one simplification pass that also goes below the
    concatenations (see the head of this file). `after_results_cat [e₁, e₂, …]` also rewrites, in the same pass, with the
    equations given (what the entry valuation holds at the buffers the list reads): each distinct subterm is visited
    once, so the leaves of a composed term with many shared subterms are rewritten without expanding it. -/
syntax "after_results_cat" (" [" Lean.Parser.Tactic.simpLemma,* "]")? : tactic
macro_rules
  | `(tactic| after_results_cat) =>
    `(tactic| (simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne',
      cat2_eq, k_cat_v64, k_cat_v113, k_cat_v279, k_cat_v334, k_cat_v387, r_cat_v63, r_cat_v119, r_cat_v379, r_cat_v446, r_cat_v499]))
  | `(tactic| after_results_cat [$ls,*]) =>
    `(tactic| (simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne',
      cat2_eq, k_cat_v64, k_cat_v113, k_cat_v279, k_cat_v334, k_cat_v387, r_cat_v63, r_cat_v119, r_cat_v379, r_cat_v446, r_cat_v499, $ls,*]))

end Cert.Stage

end
-- ==== Proof.St02a.lean ====
/-
  Group 2, the edge quaternion: the conjugate of the target node's quaternion times the edge's own quaternion times the
  source node's (two quaternion products, each sixteen multiplications and twelve additions or subtractions of the
  components, then the four results side by side). The kernel gathers the two nodes' quaternions with takes in fill mode,
  the reference by plain indexing, in the other order: with the indices in range both are the same gathers, and the two
  composed terms are the same.
-/
import proofs.«430033_j52948356825731_1_alg».proof.Proof.Rel
import proofs.«430033_j52948356825731_1_alg».proof.Proof.KITakes
import proofs.«430033_j52948356825731_1_alg».proof.Proof.StTac
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option profiler true
set_option profiler.threshold 2000

set_option maxHeartbeats 16000000 in
theorem owes2_v113 (W : Dev Cert.KernelIdeal.nD → KVal) (U : Dev Cert.KernelIdeal.nD → RVal) (h : ∀ c, Rel1 (W c) (U c)) (c : Dev Cert.KernelIdeal.nD) :
    P_v113 (kstep2 W c) (StableHlo.after (Cert.ReferenceIdeal.Hand.rs2 (F := Ideal)) (U c)) := by
  have h0 := h c
  have e_a0 : W c (Proc.devRef .tc Cert.KernelIdeal.main_arg0) = U c (Proc.devRef .tc Cert.ReferenceIdeal.main_arg0) := h0.a0
  have e_p_v1 : W c (Proc.devRef .tc Cert.KernelIdeal.main_v1) = U c (Proc.devRef .tc Cert.ReferenceIdeal.main_v1) := h0.p_v1
  have e_p_v3 : W c (Proc.devRef .tc Cert.KernelIdeal.main_v3) = U c (Proc.devRef .tc Cert.ReferenceIdeal.main_v3) := h0.p_v3
  have e_a1 : W c (Proc.devRef .tc Cert.KernelIdeal.main_arg1) = U c (Proc.devRef .tc Cert.ReferenceIdeal.main_arg1) := h0.a1
  have e_a4 : W c (Proc.devRef .tc Cert.KernelIdeal.main_arg4) = U c (Proc.devRef .tc Cert.ReferenceIdeal.main_arg4) := h0.a4
  have e_a5 : W c (Proc.devRef .tc Cert.KernelIdeal.main_arg5) = U c (Proc.devRef .tc Cert.ReferenceIdeal.main_arg5) := h0.a5
  -- the kernel's two takes hold, at the valuation the remaining operations start from, what the reference's two gathers hold
  have eRow : StableHlo.after (Cert.KernelIdeal.Gen.hostOps0_1 (F := Ideal) ++ Cert.KernelIdeal.Gen.hostOps0_2 (F := Ideal)) (W c) (Proc.devRef .tc Cert.KernelIdeal.main_v10) = StableHlo.after (Cert.ReferenceIdeal.Hand.rs2 (F := Ideal)) (U c) (Proc.devRef .tc Cert.ReferenceIdeal.main_v70) := by
    have f : ∀ V : KVal, StableHlo.after (Cert.KernelIdeal.Gen.hostOps0_2 (F := Ideal)) V (Proc.devRef .tc Cert.KernelIdeal.main_v10) = V (Proc.devRef .tc Cert.KernelIdeal.main_v10) :=
      fun V => by after_results_simp
    rw [StableHlo.after_append, f, Cert.KernelIdeal.Hand.take_call0 (W c) h0.rng1]
    after_results_simp
    rw [e_a0, e_p_v1]
    rfl
  have eCol : StableHlo.after (Cert.KernelIdeal.Gen.hostOps0_1 (F := Ideal) ++ Cert.KernelIdeal.Gen.hostOps0_2 (F := Ideal)) (W c) (Proc.devRef .tc Cert.KernelIdeal.main_v11) = StableHlo.after (Cert.ReferenceIdeal.Hand.rs2 (F := Ideal)) (U c) (Proc.devRef .tc Cert.ReferenceIdeal.main_v10) := by
    have g3 : StableHlo.after (Cert.KernelIdeal.Gen.hostOps0_1 (F := Ideal)) (W c) (Proc.devRef .tc Cert.KernelIdeal.main_v3) = W c (Proc.devRef .tc Cert.KernelIdeal.main_v3) := by
      after_results_simp
    have gt : StableHlo.after (Cert.KernelIdeal.Gen.hostOps0_1 (F := Ideal)) (W c) (Proc.devRef .tc Cert.KernelIdeal.main_arg0) = W c (Proc.devRef .tc Cert.KernelIdeal.main_arg0) := by
      after_results_simp
    rw [StableHlo.after_append, Cert.KernelIdeal.Hand.take_call1 _ (by intro i; rw [g3]; exact h0.rng3 i), g3, gt]
    after_results_simp
    rw [e_a0, e_p_v3]
    rfl
  -- what else the remaining operations read is not written by the takes, and reads the same on both sides
  have kk_main_arg0 : StableHlo.after (Cert.KernelIdeal.Gen.hostOps0_1 (F := Ideal) ++ Cert.KernelIdeal.Gen.hostOps0_2 (F := Ideal)) (W c) (Proc.devRef .tc Cert.KernelIdeal.main_arg0) = U c (Proc.devRef .tc Cert.ReferenceIdeal.main_arg0) := by
    simp only [StableHlo.after_append]; after_results_simp
    exact e_a0
  have kk_main_arg1 : StableHlo.after (Cert.KernelIdeal.Gen.hostOps0_1 (F := Ideal) ++ Cert.KernelIdeal.Gen.hostOps0_2 (F := Ideal)) (W c) (Proc.devRef .tc Cert.KernelIdeal.main_arg1) = U c (Proc.devRef .tc Cert.ReferenceIdeal.main_arg1) := by
    simp only [StableHlo.after_append]; after_results_simp
    exact e_a1
  have kk_main_arg4 : StableHlo.after (Cert.KernelIdeal.Gen.hostOps0_1 (F := Ideal) ++ Cert.KernelIdeal.Gen.hostOps0_2 (F := Ideal)) (W c) (Proc.devRef .tc Cert.KernelIdeal.main_arg4) = U c (Proc.devRef .tc Cert.ReferenceIdeal.main_arg4) := by
    simp only [StableHlo.after_append]; after_results_simp
    exact e_a4
  have kk_main_arg5 : StableHlo.after (Cert.KernelIdeal.Gen.hostOps0_1 (F := Ideal) ++ Cert.KernelIdeal.Gen.hostOps0_2 (F := Ideal)) (W c) (Proc.devRef .tc Cert.KernelIdeal.main_arg5) = U c (Proc.devRef .tc Cert.ReferenceIdeal.main_arg5) := by
    simp only [StableHlo.after_append]; after_results_simp
    exact e_a5
  show StableHlo.after ((Cert.KernelIdeal.Gen.hostOps0_1 (F := Ideal) ++ Cert.KernelIdeal.Gen.hostOps0_2 (F := Ideal)) ++ Cert.KernelIdeal.Gen.hostOps0_3 (F := Ideal)) (W c) _ = _
  rw [StableHlo.after_append]
  generalize StableHlo.after (Cert.KernelIdeal.Gen.hostOps0_1 (F := Ideal) ++ Cert.KernelIdeal.Gen.hostOps0_2 (F := Ideal)) (W c) = V at eRow eCol kk_main_arg0 kk_main_arg1 kk_main_arg4 kk_main_arg5 ⊢
  after_results_cat [eRow, eCol, kk_main_arg1]
  rfl

end Cert.Stage

end
-- ==== Proof.St02b.lean ====
/-
  Group 2, the first layer's edge features: the edge features beside the edge quaternion (the conjugate of the target
  node's quaternion times the edge's own times the source node's), one row of 132 per edge; the two programs' composed
  terms are the same.
-/
import proofs.«430033_j52948356825731_1_alg».proof.Proof.Rel
import proofs.«430033_j52948356825731_1_alg».proof.Proof.KITakes
import proofs.«430033_j52948356825731_1_alg».proof.Proof.StTac
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option profiler true
set_option profiler.threshold 2000

set_option maxHeartbeats 16000000 in
theorem owes2_v115 (W : Dev Cert.KernelIdeal.nD → KVal) (U : Dev Cert.KernelIdeal.nD → RVal) (h : ∀ c, Rel1 (W c) (U c)) (c : Dev Cert.KernelIdeal.nD) :
    P_v115 (kstep2 W c) (StableHlo.after (Cert.ReferenceIdeal.Hand.rs2 (F := Ideal)) (U c)) := by
  have h0 := h c
  have e_a0 : W c (Proc.devRef .tc Cert.KernelIdeal.main_arg0) = U c (Proc.devRef .tc Cert.ReferenceIdeal.main_arg0) := h0.a0
  have e_p_v1 : W c (Proc.devRef .tc Cert.KernelIdeal.main_v1) = U c (Proc.devRef .tc Cert.ReferenceIdeal.main_v1) := h0.p_v1
  have e_p_v3 : W c (Proc.devRef .tc Cert.KernelIdeal.main_v3) = U c (Proc.devRef .tc Cert.ReferenceIdeal.main_v3) := h0.p_v3
  have e_a1 : W c (Proc.devRef .tc Cert.KernelIdeal.main_arg1) = U c (Proc.devRef .tc Cert.ReferenceIdeal.main_arg1) := h0.a1
  have e_a4 : W c (Proc.devRef .tc Cert.KernelIdeal.main_arg4) = U c (Proc.devRef .tc Cert.ReferenceIdeal.main_arg4) := h0.a4
  have e_a5 : W c (Proc.devRef .tc Cert.KernelIdeal.main_arg5) = U c (Proc.devRef .tc Cert.ReferenceIdeal.main_arg5) := h0.a5
  -- the kernel's two takes hold, at the valuation the remaining operations start from, what the reference's two gathers hold
  have eRow : StableHlo.after (Cert.KernelIdeal.Gen.hostOps0_1 (F := Ideal) ++ Cert.KernelIdeal.Gen.hostOps0_2 (F := Ideal)) (W c) (Proc.devRef .tc Cert.KernelIdeal.main_v10) = StableHlo.after (Cert.ReferenceIdeal.Hand.rs2 (F := Ideal)) (U c) (Proc.devRef .tc Cert.ReferenceIdeal.main_v70) := by
    have f : ∀ V : KVal, StableHlo.after (Cert.KernelIdeal.Gen.hostOps0_2 (F := Ideal)) V (Proc.devRef .tc Cert.KernelIdeal.main_v10) = V (Proc.devRef .tc Cert.KernelIdeal.main_v10) :=
      fun V => by after_results_simp
    rw [StableHlo.after_append, f, Cert.KernelIdeal.Hand.take_call0 (W c) h0.rng1]
    after_results_simp
    rw [e_a0, e_p_v1]
    rfl
  have eCol : StableHlo.after (Cert.KernelIdeal.Gen.hostOps0_1 (F := Ideal) ++ Cert.KernelIdeal.Gen.hostOps0_2 (F := Ideal)) (W c) (Proc.devRef .tc Cert.KernelIdeal.main_v11) = StableHlo.after (Cert.ReferenceIdeal.Hand.rs2 (F := Ideal)) (U c) (Proc.devRef .tc Cert.ReferenceIdeal.main_v10) := by
    have g3 : StableHlo.after (Cert.KernelIdeal.Gen.hostOps0_1 (F := Ideal)) (W c) (Proc.devRef .tc Cert.KernelIdeal.main_v3) = W c (Proc.devRef .tc Cert.KernelIdeal.main_v3) := by
      after_results_simp
    have gt : StableHlo.after (Cert.KernelIdeal.Gen.hostOps0_1 (F := Ideal)) (W c) (Proc.devRef .tc Cert.KernelIdeal.main_arg0) = W c (Proc.devRef .tc Cert.KernelIdeal.main_arg0) := by
      after_results_simp
    rw [StableHlo.after_append, Cert.KernelIdeal.Hand.take_call1 _ (by intro i; rw [g3]; exact h0.rng3 i), g3, gt]
    after_results_simp
    rw [e_a0, e_p_v3]
    rfl
  -- what else the remaining operations read is not written by the takes, and reads the same on both sides
  have kk_main_arg0 : StableHlo.after (Cert.KernelIdeal.Gen.hostOps0_1 (F := Ideal) ++ Cert.KernelIdeal.Gen.hostOps0_2 (F := Ideal)) (W c) (Proc.devRef .tc Cert.KernelIdeal.main_arg0) = U c (Proc.devRef .tc Cert.ReferenceIdeal.main_arg0) := by
    simp only [StableHlo.after_append]; after_results_simp
    exact e_a0
  have kk_main_arg1 : StableHlo.after (Cert.KernelIdeal.Gen.hostOps0_1 (F := Ideal) ++ Cert.KernelIdeal.Gen.hostOps0_2 (F := Ideal)) (W c) (Proc.devRef .tc Cert.KernelIdeal.main_arg1) = U c (Proc.devRef .tc Cert.ReferenceIdeal.main_arg1) := by
    simp only [StableHlo.after_append]; after_results_simp
    exact e_a1
  have kk_main_arg4 : StableHlo.after (Cert.KernelIdeal.Gen.hostOps0_1 (F := Ideal) ++ Cert.KernelIdeal.Gen.hostOps0_2 (F := Ideal)) (W c) (Proc.devRef .tc Cert.KernelIdeal.main_arg4) = U c (Proc.devRef .tc Cert.ReferenceIdeal.main_arg4) := by
    simp only [StableHlo.after_append]; after_results_simp
    exact e_a4
  have kk_main_arg5 : StableHlo.after (Cert.KernelIdeal.Gen.hostOps0_1 (F := Ideal) ++ Cert.KernelIdeal.Gen.hostOps0_2 (F := Ideal)) (W c) (Proc.devRef .tc Cert.KernelIdeal.main_arg5) = U c (Proc.devRef .tc Cert.ReferenceIdeal.main_arg5) := by
    simp only [StableHlo.after_append]; after_results_simp
    exact e_a5
  show StableHlo.after ((Cert.KernelIdeal.Gen.hostOps0_1 (F := Ideal) ++ Cert.KernelIdeal.Gen.hostOps0_2 (F := Ideal)) ++ Cert.KernelIdeal.Gen.hostOps0_3 (F := Ideal)) (W c) _ = _
  rw [StableHlo.after_append]
  generalize StableHlo.after (Cert.KernelIdeal.Gen.hostOps0_1 (F := Ideal) ++ Cert.KernelIdeal.Gen.hostOps0_2 (F := Ideal)) (W c) = V at eRow eCol kk_main_arg0 kk_main_arg1 kk_main_arg4 kk_main_arg5 ⊢
  after_results_cat [eRow, eCol, kk_main_arg1, kk_main_arg5]
  rfl

end Cert.Stage

end
-- ==== Proof.St02.lean ====
/-
  Group 2: both programs gather the nodes' quaternions at the edges' target and source nodes, conjugate the target's,
  multiply it by the edge's own quaternion and the product by the source's (each product: sixteen multiplications and
  twelve additions or subtractions of the components, then the four results side by side), and lay the first layer's node
  features and edge features side by side with these. The kernel gathers with a take in fill mode, the reference by plain
  indexing, and the reference gathers the target's first: the indices being in range the takes are the same gathers, and
  the order of the two gathers does not show in the composed terms.
  The edge quaternion and the edge features beside it are the two sibling modules' theorems; here are the node features
  (the node features beside the node quaternions) and everything that is only carried.
-/
import proofs.«430033_j52948356825731_1_alg».proof.Proof.Rel
import proofs.«430033_j52948356825731_1_alg».proof.Proof.KITakes
import proofs.«430033_j52948356825731_1_alg».proof.Proof.StTac
import Idealize.ShloMosaic.Lib.Pipeline.Frame
import proofs.«430033_j52948356825731_1_alg».proof.Proof.St02a
import proofs.«430033_j52948356825731_1_alg».proof.Proof.St02b

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 4000000 in
theorem owes2 : Owes2 := by
  intro W U h c
  have h0 := h c
  have e_a0 : W c (Proc.devRef .tc Cert.KernelIdeal.main_arg0) = U c (Proc.devRef .tc Cert.ReferenceIdeal.main_arg0) := h0.a0
  have e_a4 : W c (Proc.devRef .tc Cert.KernelIdeal.main_arg4) = U c (Proc.devRef .tc Cert.ReferenceIdeal.main_arg4) := h0.a4
  -- what the remaining operations read of the arguments is not written by the takes, and reads the same on both sides
  have kk_main_arg0 : StableHlo.after (Cert.KernelIdeal.Gen.hostOps0_1 (F := Ideal) ++ Cert.KernelIdeal.Gen.hostOps0_2 (F := Ideal)) (W c) (Proc.devRef .tc Cert.KernelIdeal.main_arg0) = U c (Proc.devRef .tc Cert.ReferenceIdeal.main_arg0) := by
    simp only [StableHlo.after_append]; after_results_simp
    exact e_a0
  have kk_main_arg4 : StableHlo.after (Cert.KernelIdeal.Gen.hostOps0_1 (F := Ideal) ++ Cert.KernelIdeal.Gen.hostOps0_2 (F := Ideal)) (W c) (Proc.devRef .tc Cert.KernelIdeal.main_arg4) = U c (Proc.devRef .tc Cert.ReferenceIdeal.main_arg4) := by
    simp only [StableHlo.after_append]; after_results_simp
    exact e_a4
  exact {
    a0 := by
      show StableHlo.after ks2 (W c) _ = _
      simp only [StableHlo.after_append]; after_results_simp
      exact h0.a0
    a2 := by
      show StableHlo.after ks2 (W c) _ = _
      simp only [StableHlo.after_append]; after_results_simp
      exact h0.a2
    a3 := by
      show StableHlo.after ks2 (W c) _ = _
      simp only [StableHlo.after_append]; after_results_simp
      exact h0.a3
    a6 := by
      show StableHlo.after ks2 (W c) _ = _
      simp only [StableHlo.after_append]; after_results_simp
      exact h0.a6
    a7 := by
      show StableHlo.after ks2 (W c) _ = _
      simp only [StableHlo.after_append]; after_results_simp
      exact h0.a7
    a8 := by
      show StableHlo.after ks2 (W c) _ = _
      simp only [StableHlo.after_append]; after_results_simp
      exact h0.a8
    a9 := by
      show StableHlo.after ks2 (W c) _ = _
      simp only [StableHlo.after_append]; after_results_simp
      exact h0.a9
    a10 := by
      show StableHlo.after ks2 (W c) _ = _
      simp only [StableHlo.after_append]; after_results_simp
      exact h0.a10
    a11 := by
      show StableHlo.after ks2 (W c) _ = _
      simp only [StableHlo.after_append]; after_results_simp
      exact h0.a11
    a12 := by
      show StableHlo.after ks2 (W c) _ = _
      simp only [StableHlo.after_append]; after_results_simp
      exact h0.a12
    a13 := by
      show StableHlo.after ks2 (W c) _ = _
      simp only [StableHlo.after_append]; after_results_simp
      exact h0.a13
    a14 := by
      show StableHlo.after ks2 (W c) _ = _
      simp only [StableHlo.after_append]; after_results_simp
      exact h0.a14
    a15 := by
      show StableHlo.after ks2 (W c) _ = _
      simp only [StableHlo.after_append]; after_results_simp
      exact h0.a15
    a16 := by
      show StableHlo.after ks2 (W c) _ = _
      simp only [StableHlo.after_append]; after_results_simp
      exact h0.a16
    a17 := by
      show StableHlo.after ks2 (W c) _ = _
      simp only [StableHlo.after_append]; after_results_simp
      exact h0.a17
    p_cst := by
      show StableHlo.after ks2 (W c) _ = _
      simp only [StableHlo.after_append]; after_results_simp
      exact h0.p_cst
    p_v1 := by
      show StableHlo.after ks2 (W c) _ = _
      simp only [StableHlo.after_append]; after_results_simp
      exact h0.p_v1
    p_v113 := owes2_v113 W U h c
    p_v114 := by
      show StableHlo.after ((Cert.KernelIdeal.Gen.hostOps0_1 (F := Ideal) ++ Cert.KernelIdeal.Gen.hostOps0_2 (F := Ideal)) ++ Cert.KernelIdeal.Gen.hostOps0_3 (F := Ideal)) (W c) _ = _
      rw [StableHlo.after_append]
      generalize StableHlo.after (Cert.KernelIdeal.Gen.hostOps0_1 (F := Ideal) ++ Cert.KernelIdeal.Gen.hostOps0_2 (F := Ideal)) (W c) = V at kk_main_arg0 kk_main_arg4 ⊢
      after_results_cat [kk_main_arg4, kk_main_arg0]
    p_v115 := owes2_v115 W U h c
    p_v3 := by
      show StableHlo.after ks2 (W c) _ = _
      simp only [StableHlo.after_append]; after_results_simp
      exact h0.p_v3
    rng1 := by
      intro i
      show ((StableHlo.after ks2 (W c) (Proc.devRef .tc Cert.KernelIdeal.main_v1) : IVec Cert.KernelIdeal.S200000 32) i).toNat < 10000
      simp only [StableHlo.after_append]; after_results_simp
      exact h0.rng1 i
    rng3 := by
      intro i
      show ((StableHlo.after ks2 (W c) (Proc.devRef .tc Cert.KernelIdeal.main_v3) : IVec Cert.KernelIdeal.S200000 32) i).toNat < 10000
      simp only [StableHlo.after_append]; after_results_simp
      exact h0.rng3 i
    cnt := by
      show StableHlo.after ks2 (W c) (Proc.devRef .tc Cert.KernelIdeal.main_v9) = cntOf (StableHlo.after ks2 (W c) (Proc.devRef .tc Cert.KernelIdeal.main_v1))
      simp only [StableHlo.after_append]; after_results_simp
      exact h0.cnt }

end Cert.Stage

end
-- ==== Proof.St03.lean ====
/-
  Group 3: both programs gather the rows of the first layer's node features (132 columns) at the edges' source nodes and at
  their target nodes. The kernel gathers with a take in fill mode, the reference by plain indexing; the indices being in
  range the two are the same gather. Nothing else moves.
-/
import proofs.«430033_j52948356825731_1_alg».proof.Proof.Rel
import proofs.«430033_j52948356825731_1_alg».proof.Proof.KITakes
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 4000000 in
theorem owes3 : Owes3 := by
  intro W U h c
  have h0 := h c
  have e_p_v114 : W c (Proc.devRef .tc Cert.KernelIdeal.main_v114) = U c (Proc.devRef .tc Cert.ReferenceIdeal.main_v120) := h0.p_v114
  have e_p_v1 : W c (Proc.devRef .tc Cert.KernelIdeal.main_v1) = U c (Proc.devRef .tc Cert.ReferenceIdeal.main_v1) := h0.p_v1
  have e_p_v3 : W c (Proc.devRef .tc Cert.KernelIdeal.main_v3) = U c (Proc.devRef .tc Cert.ReferenceIdeal.main_v3) := h0.p_v3
  exact {
    a0 := by
      show StableHlo.after ks3 (W c) _ = _
      simp only [StableHlo.after_append]; after_results_simp
      exact h0.a0
    a2 := by
      show StableHlo.after ks3 (W c) _ = _
      simp only [StableHlo.after_append]; after_results_simp
      exact h0.a2
    a3 := by
      show StableHlo.after ks3 (W c) _ = _
      simp only [StableHlo.after_append]; after_results_simp
      exact h0.a3
    a6 := by
      show StableHlo.after ks3 (W c) _ = _
      simp only [StableHlo.after_append]; after_results_simp
      exact h0.a6
    a7 := by
      show StableHlo.after ks3 (W c) _ = _
      simp only [StableHlo.after_append]; after_results_simp
      exact h0.a7
    a8 := by
      show StableHlo.after ks3 (W c) _ = _
      simp only [StableHlo.after_append]; after_results_simp
      exact h0.a8
    a9 := by
      show StableHlo.after ks3 (W c) _ = _
      simp only [StableHlo.after_append]; after_results_simp
      exact h0.a9
    a10 := by
      show StableHlo.after ks3 (W c) _ = _
      simp only [StableHlo.after_append]; after_results_simp
      exact h0.a10
    a11 := by
      show StableHlo.after ks3 (W c) _ = _
      simp only [StableHlo.after_append]; after_results_simp
      exact h0.a11
    a12 := by
      show StableHlo.after ks3 (W c) _ = _
      simp only [StableHlo.after_append]; after_results_simp
      exact h0.a12
    a13 := by
      show StableHlo.after ks3 (W c) _ = _
      simp only [StableHlo.after_append]; after_results_simp
      exact h0.a13
    a14 := by
      show StableHlo.after ks3 (W c) _ = _
      simp only [StableHlo.after_append]; after_results_simp
      exact h0.a14
    a15 := by
      show StableHlo.after ks3 (W c) _ = _
      simp only [StableHlo.after_append]; after_results_simp
      exact h0.a15
    a16 := by
      show StableHlo.after ks3 (W c) _ = _
      simp only [StableHlo.after_append]; after_results_simp
      exact h0.a16
    a17 := by
      show StableHlo.after ks3 (W c) _ = _
      simp only [StableHlo.after_append]; after_results_simp
      exact h0.a17
    p_cst := by
      show StableHlo.after ks3 (W c) _ = _
      simp only [StableHlo.after_append]; after_results_simp
      exact h0.p_cst
    p_v1 := by
      show StableHlo.after ks3 (W c) _ = _
      simp only [StableHlo.after_append]; after_results_simp
      exact h0.p_v1
    p_v113 := by
      show StableHlo.after ks3 (W c) _ = _
      simp only [StableHlo.after_append]; after_results_simp
      exact h0.p_v113
    p_v115 := by
      show StableHlo.after ks3 (W c) _ = _
      simp only [StableHlo.after_append]; after_results_simp
      exact h0.p_v115
    p_v116 := by
      show StableHlo.after (Cert.KernelIdeal.Gen.hostOps0_4 (F := Ideal) ++ Cert.KernelIdeal.Gen.hostOps0_5 (F := Ideal)) (W c) _ = _
      have f : ∀ V : KVal, StableHlo.after (Cert.KernelIdeal.Gen.hostOps0_5 (F := Ideal)) V (Proc.devRef .tc Cert.KernelIdeal.main_v116) = V (Proc.devRef .tc Cert.KernelIdeal.main_v116) :=
        fun V => by after_results_simp
      rw [StableHlo.after_append, f, Cert.KernelIdeal.Hand.take_call2 (W c) h0.rng1]
      after_results_simp
      rw [e_p_v114, e_p_v1]
      rfl
    p_v117 := by
      show StableHlo.after (Cert.KernelIdeal.Gen.hostOps0_4 (F := Ideal) ++ Cert.KernelIdeal.Gen.hostOps0_5 (F := Ideal)) (W c) _ = _
      have g3 : StableHlo.after (Cert.KernelIdeal.Gen.hostOps0_4 (F := Ideal)) (W c) (Proc.devRef .tc Cert.KernelIdeal.main_v3) = W c (Proc.devRef .tc Cert.KernelIdeal.main_v3) := by
        after_results_simp
      have gt : StableHlo.after (Cert.KernelIdeal.Gen.hostOps0_4 (F := Ideal)) (W c) (Proc.devRef .tc Cert.KernelIdeal.main_v114) = W c (Proc.devRef .tc Cert.KernelIdeal.main_v114) := by
        after_results_simp
      rw [StableHlo.after_append, Cert.KernelIdeal.Hand.take_call3 _ (by intro i; rw [g3]; exact h0.rng3 i), g3, gt]
      after_results_simp
      rw [e_p_v114, e_p_v3]
      rfl
    p_v3 := by
      show StableHlo.after ks3 (W c) _ = _
      simp only [StableHlo.after_append]; after_results_simp
      exact h0.p_v3
    rng1 := by
      intro i
      show ((StableHlo.after ks3 (W c) (Proc.devRef .tc Cert.KernelIdeal.main_v1) : IVec Cert.KernelIdeal.S200000 32) i).toNat < 10000
      simp only [StableHlo.after_append]; after_results_simp
      exact h0.rng1 i
    rng3 := by
      intro i
      show ((StableHlo.after ks3 (W c) (Proc.devRef .tc Cert.KernelIdeal.main_v3) : IVec Cert.KernelIdeal.S200000 32) i).toNat < 10000
      simp only [StableHlo.after_append]; after_results_simp
      exact h0.rng3 i
    cnt := by
      show StableHlo.after ks3 (W c) (Proc.devRef .tc Cert.KernelIdeal.main_v9) = cntOf (StableHlo.after ks3 (W c) (Proc.devRef .tc Cert.KernelIdeal.main_v1))
      simp only [StableHlo.after_append]; after_results_simp
      exact h0.cnt }

end Cert.Stage

end
-- ==== Proof.KIPay.lean ====
/-
  The four edge-convolution layers' stored blocks, entry by entry, over the extended reals.

  Each layer's body forms, for the 2000 edges of its block, the row-wise concatenation of three feature blocks, multiplies
  it by the layer's weight matrix and adds the bias row; its second stored block is the positive part of the first, and
  the last layer's third stored block maps that positive part through a one-column matrix and adds a scalar.  Over the
  extended reals a change of float format and a shape cast to the same shape are the identity, a product into the zero
  block is the plain sum over the contracted axis, and a [1, m] row broadcast over the rows reads its one row.  So each
  stored entry is the shared dense map `Cert.Spec.mlp` / `mlpPos` / `lin` of the blocks the body read.

  Two facts are stated once for all layers: a concatenation of three blocks along the columns read at `(p, k)`
  (`cat3_apply`), and a product of an [n, K] block with a [K, m] matrix into the zero block read at `(p, q)`, for any
  contraction whose left operand contracts its columns and whose right operand contracts its rows (`mm_apply_of_axes`).
-/
import proofs.«430033_j52948356825731_1_alg».proof.Proof.Gen.KernelIdeal.Skeleton
import proofs.«430033_j52948356825731_1_alg».proof.Proof.SpecMlp
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! ## Three blocks laid side by side, read at a column -/

/-- Entry `(p, k)` of three arrays of `n` rows and widths `d1`, `d2`, `d3` concatenated along the columns is entry
    `k` of the concatenation of their rows `p`: the piece is the one whose span of columns holds `k`, read at `k` less the
    widths before it. -/
theorem cat3_apply {n d1 d2 d3 K : ℕ} (hK : d1 + d2 + d3 = K)
    (a : (⟨2, ![n, d1]⟩ : Shape).Idx → EReal) (b : (⟨2, ![n, d2]⟩ : Shape).Idx → EReal)
    (c : (⟨2, ![n, d3]⟩ : Shape).Idx → EReal)
    (h : Shape.Concatenates [(⟨2, ![n, d1]⟩ : Shape), ⟨2, ![n, d2]⟩, ⟨2, ![n, d3]⟩] ⟨2, ![n, K]⟩ 1)
    (p : Fin n) (k : Fin K) :
    concatenate (⟨2, ![n, K]⟩ : Shape) 1 [⟨⟨2, ![n, d1]⟩, a⟩, ⟨⟨2, ![n, d2]⟩, b⟩, ⟨⟨2, ![n, d3]⟩, c⟩] h (ix2 p k)
      = Cert.Spec.cat3 (fun j => a (ix2 p j)) (fun j => b (ix2 p j)) (fun j => c (ix2 p j)) (Fin.cast hK.symm k) := by
  have hk := k.isLt
  by_cases h1 : k.val < d1
  · rw [Cert.Spec.cat3_left _ _ _ _ (by simpa using h1)]
    refine concatenate_apply_piece (t := ⟨2, ![n, K]⟩) 1
      ([⟨⟨2, ![n, d1]⟩, a⟩, ⟨⟨2, ![n, d2]⟩, b⟩, ⟨⟨2, ![n, d3]⟩, c⟩] : List ((s : Shape) × (s.Idx → EReal)))
      h (ix2 p k) 0 (by simp) ⟨2, ![n, d1]⟩ a rfl rfl 0 rfl (ix2 p ⟨k.val, h1⟩) (fun bx hb => ?_) ?_
    · match bx with
      | ⟨0, _⟩ => rfl
      | ⟨1, _⟩ => exact absurd (Fin.ext rfl) hb
    · show 0 + k.val = k.val
      omega
  · by_cases h2 : k.val < d1 + d2
    · rw [Cert.Spec.cat3_mid _ _ _ _ (by simpa using h1) (by simpa using h2)]
      refine concatenate_apply_piece (t := ⟨2, ![n, K]⟩) 1
        ([⟨⟨2, ![n, d1]⟩, a⟩, ⟨⟨2, ![n, d2]⟩, b⟩, ⟨⟨2, ![n, d3]⟩, c⟩] : List ((s : Shape) × (s.Idx → EReal)))
        h (ix2 p k) 1 (by simp) ⟨2, ![n, d2]⟩ b rfl rfl d1 rfl (ix2 p ⟨k.val - d1, by omega⟩) (fun bx hb => ?_) ?_
      · match bx with
        | ⟨0, _⟩ => rfl
        | ⟨1, _⟩ => exact absurd (Fin.ext rfl) hb
      · show d1 + (k.val - d1) = k.val
        omega
    · rw [Cert.Spec.cat3_right _ _ _ _ (by simpa using h1) (by simpa using h2)]
      refine concatenate_apply_piece (t := ⟨2, ![n, K]⟩) 1
        ([⟨⟨2, ![n, d1]⟩, a⟩, ⟨⟨2, ![n, d2]⟩, b⟩, ⟨⟨2, ![n, d3]⟩, c⟩] : List ((s : Shape) × (s.Idx → EReal)))
        h (ix2 p k) 2 (by simp) ⟨2, ![n, d3]⟩ c rfl rfl (d1 + d2) rfl (ix2 p ⟨k.val - (d1 + d2), by omega⟩)
        (fun bx hb => ?_) ?_
      · match bx with
        | ⟨0, _⟩ => rfl
        | ⟨1, _⟩ => exact absurd (Fin.ext rfl) hb
      · show d1 + d2 + (k.val - (d1 + d2)) = k.val
        omega

/-! ## A block times a matrix into the zero block, read at an entry -/

/-- For a contraction of one axis of extent `K` whose operand indices at result index `i` and contraction index `q` are
    `(i 0, q)` on the left and `(q, i 1)` on the right, the product into the zero block at `(p, q)` is row `p` of the left
    operand against column `q` of the right: the contraction index is re-indexed by its one coordinate. -/
theorem mm_apply_of_axes {n K m : ℕ} {φ₁ φ₂ : FTy}
    (D : DotDims (⟨2, ![n, K]⟩ : Shape) ⟨2, ![K, m]⟩ ⟨2, ![n, m]⟩)
    (hr : D.contr.rank = 1) (hs : D.contr.size ⟨0, by omega⟩ = K)
    (l0 : ∀ (i : (⟨2, ![n, m]⟩ : Shape).Idx) (q : D.contr.Idx), (D.lhsIdx i q 0).val = (i 0).val)
    (l1 : ∀ (i : (⟨2, ![n, m]⟩ : Shape).Idx) (q : D.contr.Idx), (D.lhsIdx i q 1).val = (q ⟨0, by omega⟩).val)
    (r0 : ∀ (i : (⟨2, ![n, m]⟩ : Shape).Idx) (q : D.contr.Idx), (D.rhsIdx i q 0).val = (q ⟨0, by omega⟩).val)
    (r1 : ∀ (i : (⟨2, ![n, m]⟩ : Shape).Idx) (q : D.contr.Idx), (D.rhsIdx i q 1).val = (i 1).val)
    (x : FVec Ideal (⟨2, ![n, K]⟩ : Shape) φ₁) (w : FVec Ideal (⟨2, ![K, m]⟩ : Shape) φ₂) (p : Fin n) (q : Fin m) :
    matmul D none x w (constant (F := Ideal) (⟨2, ![n, m]⟩ : Shape) .f32 0x00000000#32) (ix2 p q)
      = ∑ k : Fin K, x (ix2 p k) * w (ix2 k q) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact l0 _ _
      | ⟨1, _⟩ => exact (l1 _ _).trans hk)
  have er : D.rhsIdx (ix2 p q) ((contrEquiv1 D K hr hs).symm k) = ix2 k q :=
    funext fun a => Fin.ext (by
      match a with
      | ⟨0, _⟩ => exact (r0 _ _).trans hk
      | ⟨1, _⟩ => exact r1 _ _)
  rw [el, er]

/-! ### The contraction of 396 columns (layer one) -/

theorem lhs396_0 (i : S2000x128.Idx) (q : dot_S2000x396_S396x128_S2000x128_1_0_0_1_n_n.contr.Idx) :
    (dot_S2000x396_S396x128_S2000x128_1_0_0_1_n_n.lhsIdx i q 0).val = (i 0).val := by
  unfold DotDims.lhsIdx
  rw [dif_neg (show ¬(0 : Fin S2000x396.rank) ∈ dot_S2000x396_S396x128_S2000x128_1_0_0_1_n_n.lhsBatch by decide),
    dif_pos (show (0 : Fin S2000x396.rank) ∈ dot_S2000x396_S396x128_S2000x128_1_0_0_1_n_n.lhsNonContracting by decide)]
  rfl

theorem lhs396_1 (i : S2000x128.Idx) (q : dot_S2000x396_S396x128_S2000x128_1_0_0_1_n_n.contr.Idx) :
    (dot_S2000x396_S396x128_S2000x128_1_0_0_1_n_n.lhsIdx i q 1).val = (q ⟨0, by decide⟩).val :=
  dot_S2000x396_S396x128_S2000x128_1_0_0_1_n_n.lhsIdx_val_of_single rfl i q

theorem rhs396_0 (i : S2000x128.Idx) (q : dot_S2000x396_S396x128_S2000x128_1_0_0_1_n_n.contr.Idx) :
    (dot_S2000x396_S396x128_S2000x128_1_0_0_1_n_n.rhsIdx i q 0).val = (q ⟨0, by decide⟩).val :=
  dot_S2000x396_S396x128_S2000x128_1_0_0_1_n_n.rhsIdx_val_of_single rfl i q

theorem rhs396_1 (i : S2000x128.Idx) (q : dot_S2000x396_S396x128_S2000x128_1_0_0_1_n_n.contr.Idx) :
    (dot_S2000x396_S396x128_S2000x128_1_0_0_1_n_n.rhsIdx i q 1).val = (i 1).val := by
  unfold DotDims.rhsIdx
  rw [dif_neg (show ¬(1 : Fin S396x128.rank) ∈ dot_S2000x396_S396x128_S2000x128_1_0_0_1_n_n.rhsBatch by decide),
    dif_pos (show (1 : Fin S396x128.rank) ∈ dot_S2000x396_S396x128_S2000x128_1_0_0_1_n_n.rhsNonContracting by decide)]
  rfl

theorem mm396_apply (x : FVec Ideal S2000x396 .bf16) (w : FVec Ideal S396x128 .bf16) (p : Fin 2000) (q : Fin 128) :
    matmul dot_S2000x396_S396x128_S2000x128_1_0_0_1_n_n none x w (constant (F := Ideal) S2000x128 .f32 0x00000000#32) (ix2 p q)
      = ∑ k : Fin 396, x (ix2 p k) * w (ix2 k q) :=
  mm_apply_of_axes dot_S2000x396_S396x128_S2000x128_1_0_0_1_n_n rfl rfl lhs396_0 lhs396_1 rhs396_0 rhs396_1 x w p q

/-! ## Layer one's two stored blocks -/

theorem k0_pay1_apply (v0 v3 v6 : Vec Ideal S2000x132 .f32) (v10 : Vec Ideal S396x128 .bf16) (v13 : Vec Ideal S1x128 .f32)
    (p : Fin 2000) (q : Fin 128) :
    k0_pay1 v0 v3 v6 v10 v13 (ix2 p q)
      = Cert.Spec.mlp (by norm_num) v0 v3 v6 v10 (fun o => v13 (ix2 0 o)) p q := by
  unfold k0_pay1 Cert.Spec.mlp
  dsimp only
  simp only [shapeCast_self]
  rw [addf_apply, mm396_apply, broadcastTo_1b_ab_apply]
  refine congrArg (· + v13 (ix2 0 q)) (Finset.sum_congr rfl fun k _ => ?_)
  rw [cat3_apply (by norm_num : 132 + 132 + 132 = 396)]
  simp only [shapeCast_self, truncf_apply]

theorem k0_pay2_apply (v0 v3 v6 : Vec Ideal S2000x132 .f32) (v10 : Vec Ideal S396x128 .bf16) (v13 : Vec Ideal S1x128 .f32)
    (p : Fin 2000) (q : Fin 128) :
    k0_pay2 v0 v3 v6 v10 v13 (ix2 p q)
      = Cert.Spec.mlpPos (by norm_num) v0 v3 v6 v10 (fun o => v13 (ix2 0 o)) p q := by
  unfold k0_pay2 Cert.Spec.mlpPos
  rw [maximumf_apply, k0_pay1_apply, broadcast_apply]
  show max _ (Ideal.ofBits .f32 0x00000000#32) = _
  rw [Ideal.ofBits_zero_f32]

/-! ### The contraction of 388 columns (layer two) -/

theorem lhs388_0 (i : S2000x128.Idx) (q : dot_S2000x388_S388x128_S2000x128_1_0_0_1_n_n.contr.Idx) :
    (dot_S2000x388_S388x128_S2000x128_1_0_0_1_n_n.lhsIdx i q 0).val = (i 0).val := by
  unfold DotDims.lhsIdx
  rw [dif_neg (show ¬(0 : Fin S2000x388.rank) ∈ dot_S2000x388_S388x128_S2000x128_1_0_0_1_n_n.lhsBatch by decide),
    dif_pos (show (0 : Fin S2000x388.rank) ∈ dot_S2000x388_S388x128_S2000x128_1_0_0_1_n_n.lhsNonContracting by decide)]
  rfl

theorem lhs388_1 (i : S2000x128.Idx) (q : dot_S2000x388_S388x128_S2000x128_1_0_0_1_n_n.contr.Idx) :
    (dot_S2000x388_S388x128_S2000x128_1_0_0_1_n_n.lhsIdx i q 1).val = (q ⟨0, by decide⟩).val :=
  dot_S2000x388_S388x128_S2000x128_1_0_0_1_n_n.lhsIdx_val_of_single rfl i q

theorem rhs388_0 (i : S2000x128.Idx) (q : dot_S2000x388_S388x128_S2000x128_1_0_0_1_n_n.contr.Idx) :
    (dot_S2000x388_S388x128_S2000x128_1_0_0_1_n_n.rhsIdx i q 0).val = (q ⟨0, by decide⟩).val :=
  dot_S2000x388_S388x128_S2000x128_1_0_0_1_n_n.rhsIdx_val_of_single rfl i q

theorem rhs388_1 (i : S2000x128.Idx) (q : dot_S2000x388_S388x128_S2000x128_1_0_0_1_n_n.contr.Idx) :
    (dot_S2000x388_S388x128_S2000x128_1_0_0_1_n_n.rhsIdx i q 1).val = (i 1).val := by
  unfold DotDims.rhsIdx
  rw [dif_neg (show ¬(1 : Fin S388x128.rank) ∈ dot_S2000x388_S388x128_S2000x128_1_0_0_1_n_n.rhsBatch by decide),
    dif_pos (show (1 : Fin S388x128.rank) ∈ dot_S2000x388_S388x128_S2000x128_1_0_0_1_n_n.rhsNonContracting by decide)]
  rfl

theorem mm388_apply (x : FVec Ideal S2000x388 .bf16) (w : FVec Ideal S388x128 .bf16) (p : Fin 2000) (q : Fin 128) :
    matmul dot_S2000x388_S388x128_S2000x128_1_0_0_1_n_n none x w (constant (F := Ideal) S2000x128 .f32 0x00000000#32) (ix2 p q)
      = ∑ k : Fin 388, x (ix2 p k) * w (ix2 k q) :=
  mm_apply_of_axes dot_S2000x388_S388x128_S2000x128_1_0_0_1_n_n rfl rfl lhs388_0 lhs388_1 rhs388_0 rhs388_1 x w p q

/-! ## Layer two's two stored blocks -/

theorem k1_pay1_apply (v0 v3 : Vec Ideal S2000x128 .f32) (v6 : Vec Ideal S2000x132 .f32) (v10 : Vec Ideal S388x128 .bf16)
    (v13 : Vec Ideal S1x128 .f32) (p : Fin 2000) (q : Fin 128) :
    k1_pay1 v0 v3 v6 v10 v13 (ix2 p q)
      = Cert.Spec.mlp (by norm_num) v0 v3 v6 v10 (fun o => v13 (ix2 0 o)) p q := by
  unfold k1_pay1 Cert.Spec.mlp
  dsimp only
  simp only [shapeCast_self]
  rw [addf_apply, mm388_apply, broadcastTo_1b_ab_apply]
  refine congrArg (· + v13 (ix2 0 q)) (Finset.sum_congr rfl fun k _ => ?_)
  rw [cat3_apply (by norm_num : 128 + 128 + 132 = 388)]
  simp only [shapeCast_self, truncf_apply]

theorem k1_pay2_apply (v0 v3 : Vec Ideal S2000x128 .f32) (v6 : Vec Ideal S2000x132 .f32) (v10 : Vec Ideal S388x128 .bf16)
    (v13 : Vec Ideal S1x128 .f32) (p : Fin 2000) (q : Fin 128) :
    k1_pay2 v0 v3 v6 v10 v13 (ix2 p q)
      = Cert.Spec.mlpPos (by norm_num) v0 v3 v6 v10 (fun o => v13 (ix2 0 o)) p q := by
  unfold k1_pay2 Cert.Spec.mlpPos
  rw [maximumf_apply, k1_pay1_apply, broadcast_apply]
  show max _ (Ideal.ofBits .f32 0x00000000#32) = _
  rw [Ideal.ofBits_zero_f32]

/-! ### The contraction of 768 columns (layers three and four) -/

theorem lhs768_0 (i : S2000x128.Idx) (q : dot_S2000x768_S768x128_S2000x128_1_0_0_1_n_n.contr.Idx) :
    (dot_S2000x768_S768x128_S2000x128_1_0_0_1_n_n.lhsIdx i q 0).val = (i 0).val := by
  unfold DotDims.lhsIdx
  rw [dif_neg (show ¬(0 : Fin S2000x768.rank) ∈ dot_S2000x768_S768x128_S2000x128_1_0_0_1_n_n.lhsBatch by decide),
    dif_pos (show (0 : Fin S2000x768.rank) ∈ dot_S2000x768_S768x128_S2000x128_1_0_0_1_n_n.lhsNonContracting by decide)]
  rfl

theorem lhs768_1 (i : S2000x128.Idx) (q : dot_S2000x768_S768x128_S2000x128_1_0_0_1_n_n.contr.Idx) :
    (dot_S2000x768_S768x128_S2000x128_1_0_0_1_n_n.lhsIdx i q 1).val = (q ⟨0, by decide⟩).val :=
  dot_S2000x768_S768x128_S2000x128_1_0_0_1_n_n.lhsIdx_val_of_single rfl i q

theorem rhs768_0 (i : S2000x128.Idx) (q : dot_S2000x768_S768x128_S2000x128_1_0_0_1_n_n.contr.Idx) :
    (dot_S2000x768_S768x128_S2000x128_1_0_0_1_n_n.rhsIdx i q 0).val = (q ⟨0, by decide⟩).val :=
  dot_S2000x768_S768x128_S2000x128_1_0_0_1_n_n.rhsIdx_val_of_single rfl i q

theorem rhs768_1 (i : S2000x128.Idx) (q : dot_S2000x768_S768x128_S2000x128_1_0_0_1_n_n.contr.Idx) :
    (dot_S2000x768_S768x128_S2000x128_1_0_0_1_n_n.rhsIdx i q 1).val = (i 1).val := by
  unfold DotDims.rhsIdx
  rw [dif_neg (show ¬(1 : Fin S768x128.rank) ∈ dot_S2000x768_S768x128_S2000x128_1_0_0_1_n_n.rhsBatch by decide),
    dif_pos (show (1 : Fin S768x128.rank) ∈ dot_S2000x768_S768x128_S2000x128_1_0_0_1_n_n.rhsNonContracting by decide)]
  rfl

theorem mm768_apply (x : FVec Ideal S2000x768 .bf16) (w : FVec Ideal S768x128 .bf16) (p : Fin 2000) (q : Fin 128) :
    matmul dot_S2000x768_S768x128_S2000x128_1_0_0_1_n_n none x w (constant (F := Ideal) S2000x128 .f32 0x00000000#32) (ix2 p q)
      = ∑ k : Fin 768, x (ix2 p k) * w (ix2 k q) :=
  mm_apply_of_axes dot_S2000x768_S768x128_S2000x128_1_0_0_1_n_n rfl rfl lhs768_0 lhs768_1 rhs768_0 rhs768_1 x w p q

/-! ## Layer three's two stored blocks -/

theorem k2_pay1_apply (v0 v3 v6 : Vec Ideal S2000x256 .f32) (v10 : Vec Ideal S768x128 .bf16) (v13 : Vec Ideal S1x128 .f32)
    (p : Fin 2000) (q : Fin 128) :
    k2_pay1 v0 v3 v6 v10 v13 (ix2 p q)
      = Cert.Spec.mlp (by norm_num) v0 v3 v6 v10 (fun o => v13 (ix2 0 o)) p q := by
  unfold k2_pay1 Cert.Spec.mlp
  dsimp only
  simp only [shapeCast_self]
  rw [addf_apply, mm768_apply, broadcastTo_1b_ab_apply]
  refine congrArg (· + v13 (ix2 0 q)) (Finset.sum_congr rfl fun k _ => ?_)
  rw [cat3_apply (by norm_num : 256 + 256 + 256 = 768)]
  simp only [shapeCast_self, truncf_apply]

theorem k2_pay2_apply (v0 v3 v6 : Vec Ideal S2000x256 .f32) (v10 : Vec Ideal S768x128 .bf16) (v13 : Vec Ideal S1x128 .f32)
    (p : Fin 2000) (q : Fin 128) :
    k2_pay2 v0 v3 v6 v10 v13 (ix2 p q)
      = Cert.Spec.mlpPos (by norm_num) v0 v3 v6 v10 (fun o => v13 (ix2 0 o)) p q := by
  unfold k2_pay2 Cert.Spec.mlpPos
  rw [maximumf_apply, k2_pay1_apply, broadcast_apply]
  show max _ (Ideal.ofBits .f32 0x00000000#32) = _
  rw [Ideal.ofBits_zero_f32]

/-! ## Layer four's three stored blocks -/

theorem k3_pay1_apply (v0 v3 v6 : Vec Ideal S2000x256 .f32) (v10 : Vec Ideal S768x128 .bf16) (v13 : Vec Ideal S1x128 .f32)
    (p : Fin 2000) (q : Fin 128) :
    k3_pay1 v0 v3 v6 v10 v13 (ix2 p q)
      = Cert.Spec.mlp (by norm_num) v0 v3 v6 v10 (fun o => v13 (ix2 0 o)) p q := by
  unfold k3_pay1 Cert.Spec.mlp
  dsimp only
  simp only [shapeCast_self]
  rw [addf_apply, mm768_apply, broadcastTo_1b_ab_apply]
  refine congrArg (· + v13 (ix2 0 q)) (Finset.sum_congr rfl fun k _ => ?_)
  rw [cat3_apply (by norm_num : 256 + 256 + 256 = 768)]
  simp only [shapeCast_self, truncf_apply]

theorem k3_pay2_apply (v0 v3 v6 : Vec Ideal S2000x256 .f32) (v10 : Vec Ideal S768x128 .bf16) (v13 : Vec Ideal S1x128 .f32)
    (p : Fin 2000) (q : Fin 128) :
    k3_pay2 v0 v3 v6 v10 v13 (ix2 p q)
      = Cert.Spec.mlpPos (by norm_num) v0 v3 v6 v10 (fun o => v13 (ix2 0 o)) p q := by
  unfold k3_pay2 Cert.Spec.mlpPos
  rw [maximumf_apply, k3_pay1_apply, broadcast_apply]
  show max _ (Ideal.ofBits .f32 0x00000000#32) = _
  rw [Ideal.ofBits_zero_f32]

/-! ### The contraction of 128 columns into one column (layer four's last map) -/

theorem lhs128_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide),
    dif_pos (show (0 : Fin S2000x128.rank) ∈ dot_S2000x128_S128x1_S2000x1_1_0_0_1_n_n.lhsNonContracting by decide)]
  rfl

theorem lhs128_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q

theorem rhs128_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q

theorem rhs128_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide),
    dif_pos (show (1 : Fin S128x1.rank) ∈ dot_S2000x128_S128x1_S2000x1_1_0_0_1_n_n.rhsNonContracting by decide)]
  rfl

theorem mm128_apply (x : FVec Ideal S2000x128 .bf16) (w : FVec Ideal S128x1 .bf16) (p : Fin 2000) (r : Fin 1) :
    matmul dot_S2000x128_S128x1_S2000x1_1_0_0_1_n_n none x w (constant (F := Ideal) S2000x1 .f32 0x00000000#32) (ix2 p r)
      = ∑ k : Fin 128, x (ix2 p k) * w (ix2 k r) :=
  mm_apply_of_axes dot_S2000x128_S128x1_S2000x1_1_0_0_1_n_n rfl rfl lhs128_0 lhs128_1 rhs128_0 rhs128_1 x w p r

/-- The third stored block at edge `p`: the second stored block's row `p` against the one column, plus the scalar. -/
theorem k3_pay3_apply (v0 v3 v6 : Vec Ideal S2000x256 .f32) (v10 : Vec Ideal S768x128 .bf16) (v13 : Vec Ideal S1x128 .f32)
    (v22 : Vec Ideal S128x1 .bf16) (v25 : Vec Ideal S1x1 .f32) (p : Fin 2000) :
    k3_pay3 v0 v3 v6 v10 v13 v22 v25 (ix2 p 0)
      = Cert.Spec.lin
          (fun j : S2000x128.Idx => Cert.Spec.mlpPos (by norm_num) v0 v3 v6 v10 (fun o => v13 (ix2 0 o)) (j 0) (j 1))
          v22 (v25 (ix2 0 0)) p := by
  unfold k3_pay3 Cert.Spec.lin
  dsimp only
  simp only [shapeCast_self]
  rw [addf_apply, mm128_apply, broadcastTo_1b_ab_apply]
  refine congrArg (· + v25 (ix2 0 0)) (Finset.sum_congr rfl fun k _ => ?_)
  rw [truncf_apply, k3_pay2_apply]

/-- The same at either spelling of the one column's index. -/
theorem k3_pay3_apply_col (v0 v3 v6 : Vec Ideal S2000x256 .f32) (v10 : Vec Ideal S768x128 .bf16) (v13 : Vec Ideal S1x128 .f32)
    (v22 : Vec Ideal S128x1 .bf16) (v25 : Vec Ideal S1x1 .f32) (p : Fin 2000) (r : Fin 1) :
    k3_pay3 v0 v3 v6 v10 v13 v22 v25 (ix2 p r)
      = Cert.Spec.lin
          (fun j : S2000x128.Idx => Cert.Spec.mlpPos (by norm_num) v0 v3 v6 v10 (fun o => v13 (ix2 0 o)) (j 0) (j 1))
          v22 (v25 (ix2 0 0)) p := by
  obtain rfl : r = 0 := Subsingleton.elim r 0
  exact k3_pay3_apply v0 v3 v6 v10 v13 v22 v25 p

end Cert.KernelIdeal.Hand

end
-- ==== Proof.KIRows.lean ====
/-
  The layers' dense maps read their feature arrays one row at a time.

  `Cert.Spec.mlp` at edge `i` uses the three feature arrays only through their rows `i`, the weights through column
  `o` and the bias at `o`; its positive part likewise; and `Cert.Spec.lin` at edge `i` uses its array only through row
  `i`.  So a block of edges cut from larger arrays gives, at its local row, the number the arrays give at the row it
  was cut from.
-/
import proofs.«430033_j52948356825731_1_alg».proof.Proof.SpecMlp

noncomputable section

open scoped BigOperators

namespace Cert.KernelIdeal.Hand

open Idealize.ShloMosaic Idealize.ShloMosaic.ValueIdx

/-- Two triples of feature arrays (of possibly different heights) whose rows `p` and `i` agree, with weights that
    agree on column `o` and biases that agree at `o`, give the same dense-map entry at `(p, o)` and `(i, o)`. -/
theorem mlp_of_rows {n n' d1 d2 d3 K m : ℕ} (hK : d1 + d2 + d3 = K)
    (r : (⟨2, ![n, d1]⟩ : Shape).Idx → EReal) (cl : (⟨2, ![n, d2]⟩ : Shape).Idx → EReal) (e : (⟨2, ![n, d3]⟩ : Shape).Idx → EReal)
    (r' : (⟨2, ![n', d1]⟩ : Shape).Idx → EReal) (cl' : (⟨2, ![n', d2]⟩ : Shape).Idx → EReal) (e' : (⟨2, ![n', d3]⟩ : Shape).Idx → EReal)
    (W W' : (⟨2, ![K, m]⟩ : Shape).Idx → EReal) (b b' : Fin m → EReal) (p : Fin n) (i : Fin n') (o : Fin m)
    (hr : ∀ j, r (ix2 p j) = r' (ix2 i j)) (hc : ∀ j, cl (ix2 p j) = cl' (ix2 i j)) (he : ∀ j, e (ix2 p j) = e' (ix2 i j))
    (hW : ∀ k, W (ix2 k o) = W' (ix2 k o)) (hb : b o = b' o) :
    Cert.Spec.mlp hK r cl e W b p o = Cert.Spec.mlp hK r' cl' e' W' b' i o := by
  unfold Cert.Spec.mlp
  simp only [hr, hc, he, hW, hb]

/-- The same for the positive part. -/
theorem mlpPos_of_rows {n n' d1 d2 d3 K m : ℕ} (hK : d1 + d2 + d3 = K)
    (r : (⟨2, ![n, d1]⟩ : Shape).Idx → EReal) (cl : (⟨2, ![n, d2]⟩ : Shape).Idx → EReal) (e : (⟨2, ![n, d3]⟩ : Shape).Idx → EReal)
    (r' : (⟨2, ![n', d1]⟩ : Shape).Idx → EReal) (cl' : (⟨2, ![n', d2]⟩ : Shape).Idx → EReal) (e' : (⟨2, ![n', d3]⟩ : Shape).Idx → EReal)
    (W W' : (⟨2, ![K, m]⟩ : Shape).Idx → EReal) (b b' : Fin m → EReal) (p : Fin n) (i : Fin n') (o : Fin m)
    (hr : ∀ j, r (ix2 p j) = r' (ix2 i j)) (hc : ∀ j, cl (ix2 p j) = cl' (ix2 i j)) (he : ∀ j, e (ix2 p j) = e' (ix2 i j))
    (hW : ∀ k, W (ix2 k o) = W' (ix2 k o)) (hb : b o = b' o) :
    Cert.Spec.mlpPos hK r cl e W b p o = Cert.Spec.mlpPos hK r' cl' e' W' b' i o := by
  unfold Cert.Spec.mlpPos
  rw [mlp_of_rows hK r cl e r' cl' e' W W' b b' p i o hr hc he hW hb]

/-- Two arrays whose rows `p` and `i` agree, against one-column matrices that agree and equal scalars, give the same
    number at `p` and `i`. -/
theorem lin_of_rows {n n' K : ℕ} (x : (⟨2, ![n, K]⟩ : Shape).Idx → EReal) (x' : (⟨2, ![n', K]⟩ : Shape).Idx → EReal)
    (w w' : (⟨2, ![K, 1]⟩ : Shape).Idx → EReal) (b b' : EReal) (p : Fin n) (i : Fin n')
    (hx : ∀ k, x (ix2 p k) = x' (ix2 i k)) (hw : ∀ k, w (ix2 k (0 : Fin 1)) = w' (ix2 k (0 : Fin 1))) (hb : b = b') :
    Cert.Spec.lin x w b p = Cert.Spec.lin x' w' b' i := by
  unfold Cert.Spec.lin
  simp only [hx, hw, hb]

/-- The zero offsets of a whole-block load or store, spelt as a constant function. -/
theorem zero2 : (![0, 0] : Fin 2 → Nat) = fun _ => 0 := funext fun a => by fin_cases a <;> rfl

end Cert.KernelIdeal.Hand

end
-- ==== Proof.KIVal0.lean ====
/-
  Layer one's two result arrays after its pipelined region, entry by entry, over the extended reals.

  The region sweeps 100 grid points; at point `t` the three feature windows hold rows `2000 t … 2000 t + 1999` of
  their arrays, the weight and bias windows hold their whole arrays, and the body leaves in each result window the
  stored block computed from those five blocks.  By the payload lemmas a stored block at `(p, q)` is the dense map
  of the five blocks at `(p, q)`, and the dense map reads the feature arrays one row at a time, so it is the dense
  map of the five ARRAYS at `(2000 t + p, q)`: what point `t` writes back is block `t` of one function of the arrays.
  The blocks of the 100 points cover the result array (row `r` lies in the block of point `r / 2000`), so after the
  region the array is that function: `Cert.Spec.mlp` for the first result, its positive part for the second.
-/
import proofs.«430033_j52948356825731_1_alg».proof.Proof.KIReg0
import proofs.«430033_j52948356825731_1_alg».proof.Proof.KIPay
import proofs.«430033_j52948356825731_1_alg».proof.Proof.KIRows
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

/-! ## Layer one: a stored block at an entry, from the arrays the blocks are cut from -/

/-- If the three feature blocks' rows `p` are the arrays' rows `i`, and the weight and bias blocks are the whole
    arrays, the first stored block at `(p, q)` is the dense map of the arrays at `(i, q)`. -/
theorem pt0_pay1 (x0 : Vec Ideal S2000x132 .f32) (x1 : Vec Ideal S2000x132 .f32) (x2 : Vec Ideal S2000x132 .f32) (x3 : Vec Ideal S396x128 .bf16) (x4 : Vec Ideal S1x128 .f32)
    (a0 : S200000x132.Idx → EReal) (a1 : S200000x132.Idx → EReal) (a2 : S200000x132.Idx → EReal) (a3 : S396x128.Idx → EReal) (a4 : S1x128.Idx → EReal)
    (p : Fin 2000) (q : Fin 128) (i : Fin 200000)
    (h0 : ∀ k : Fin 132, x0 (ix2 p k) = a0 (ix2 i k))
    (h1 : ∀ k : Fin 132, x1 (ix2 p k) = a1 (ix2 i k))
    (h2 : ∀ k : Fin 132, x2 (ix2 p k) = a2 (ix2 i k))
    (h3 : ∀ k : Fin 396, x3 (ix2 k q) = a3 (ix2 k q)) (h4 : x4 (ix2 0 q) = a4 (ix2 0 q)) :
    k0_pay1 x0 x1 x2 x3 x4 (ix2 p q)
      = Cert.Spec.mlp (by norm_num) a0 a1 a2 a3 (fun o => a4 (ix2 0 o)) i q := by
  rw [k0_pay1_apply]
  exact mlp_of_rows _ x0 x1 x2 a0 a1 a2 x3 a3 _ _ p i q h0 h1 h2 h3 h4

/-- The same with the two indices given whole: the array index has the block index's column. -/
theorem pt0_pay1_idx (x0 : Vec Ideal S2000x132 .f32) (x1 : Vec Ideal S2000x132 .f32) (x2 : Vec Ideal S2000x132 .f32) (x3 : Vec Ideal S396x128 .bf16) (x4 : Vec Ideal S1x128 .f32)
    (a0 : S200000x132.Idx → EReal) (a1 : S200000x132.Idx → EReal) (a2 : S200000x132.Idx → EReal) (a3 : S396x128.Idx → EReal) (a4 : S1x128.Idx → EReal)
    (y : S2000x128.Idx) (i : S200000x128.Idx)
    (h0 : ∀ k : Fin 132, x0 (ix2 (y 0 : Fin 2000) k) = a0 (ix2 (i 0 : Fin 200000) k))
    (h1 : ∀ k : Fin 132, x1 (ix2 (y 0 : Fin 2000) k) = a1 (ix2 (i 0 : Fin 200000) k))
    (h2 : ∀ k : Fin 132, x2 (ix2 (y 0 : Fin 2000) k) = a2 (ix2 (i 0 : Fin 200000) k))
    (h3 : ∀ (k : Fin 396) (o : Fin 128), x3 (ix2 k o) = a3 (ix2 k o)) (h4 : ∀ o : Fin 128, x4 (ix2 0 o) = a4 (ix2 0 o))
    (hi1 : (i 1).val = (y 1).val) :
    k0_pay1 x0 x1 x2 x3 x4 y
      = Cert.Spec.mlp (by norm_num) a0 a1 a2 a3 (fun o => a4 (ix2 0 o)) (i 0 : Fin 200000) (i 1 : Fin 128) := by
  obtain ⟨p, q, rfl⟩ : ∃ (p : Fin 2000) (q : Fin 128), y = ix2 p q := ⟨y 0, y 1, eq_ix2 y⟩
  obtain ⟨ii, io, rfl⟩ : ∃ (ii : Fin 200000) (io : Fin 128), i = ix2 ii io := ⟨i 0, i 1, eq_ix2 i⟩
  obtain rfl : io = q := Fin.ext hi1
  exact pt0_pay1 x0 x1 x2 x3 x4 a0 a1 a2 a3 a4 p io ii h0 h1 h2 (fun k => h3 k io) (h4 io)

/-- The second stored block likewise: the positive part of the dense map of the arrays. -/
theorem pt0_pay2_idx (x0 : Vec Ideal S2000x132 .f32) (x1 : Vec Ideal S2000x132 .f32) (x2 : Vec Ideal S2000x132 .f32) (x3 : Vec Ideal S396x128 .bf16) (x4 : Vec Ideal S1x128 .f32)
    (a0 : S200000x132.Idx → EReal) (a1 : S200000x132.Idx → EReal) (a2 : S200000x132.Idx → EReal) (a3 : S396x128.Idx → EReal) (a4 : S1x128.Idx → EReal)
    (y : S2000x128.Idx) (i : S200000x128.Idx)
    (h0 : ∀ k : Fin 132, x0 (ix2 (y 0 : Fin 2000) k) = a0 (ix2 (i 0 : Fin 200000) k))
    (h1 : ∀ k : Fin 132, x1 (ix2 (y 0 : Fin 2000) k) = a1 (ix2 (i 0 : Fin 200000) k))
    (h2 : ∀ k : Fin 132, x2 (ix2 (y 0 : Fin 2000) k) = a2 (ix2 (i 0 : Fin 200000) k))
    (h3 : ∀ (k : Fin 396) (o : Fin 128), x3 (ix2 k o) = a3 (ix2 k o)) (h4 : ∀ o : Fin 128, x4 (ix2 0 o) = a4 (ix2 0 o))
    (hi1 : (i 1).val = (y 1).val) :
    k0_pay2 x0 x1 x2 x3 x4 y
      = Cert.Spec.mlpPos (by norm_num) a0 a1 a2 a3 (fun o => a4 (ix2 0 o)) (i 0 : Fin 200000) (i 1 : Fin 128) := by
  obtain ⟨p, q, rfl⟩ : ∃ (p : Fin 2000) (q : Fin 128), y = ix2 p q := ⟨y 0, y 1, eq_ix2 y⟩
  obtain ⟨ii, io, rfl⟩ : ∃ (ii : Fin 200000) (io : Fin 128), i = ix2 ii io := ⟨i 0, i 1, eq_ix2 i⟩
  obtain rfl : io = q := Fin.ext hi1
  rw [k0_pay2_apply]
  exact mlpPos_of_rows _ x0 x1 x2 a0 a1 a2 x3 a3 _ _ p ii io h0 h1 h2 (fun k => h3 k io) (h4 io)

section Region0
variable (V : (c : Dev nD) → (b : Ref sig .tc) → Buf (Elt Ideal) ((c : Thread nD τ).loc b))

/-- The printed index maps over the grid: the three feature windows and the two result windows are at block row `t`,
    column block 0; the weight and bias windows stay at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Feature window 0's block at point `t` is rows `2000 t … 2000 t + 1999` of its array. -/
theorem iblk0_0_apply (c : Dev nD) (t : Fin cfg0.N) (y : S2000x132.Idx) (i : S200000x132.Idx)
    (h0 : (i 0).val = 2000 * t.val + (y 0).val) (h1 : (i 1).val = (y 1).val) :
    iblk0 V c 0 t y = V c (Pipeline.arrRef spec0 0) i := by
  obtain ⟨e00, e01, e10, e11, e20, e21, -, -, -, -, -, -, -, -⟩ := idx0 t
  unfold iblk0
  rw [View.read_apply]
  show V c (Pipeline.arrRef spec0 0) _ = V c (Pipeline.arrRef spec0 0) _
  congr 1
  funext a
  apply Fin.ext
  match a with
  | ⟨0, _⟩ =>
    show win0_0.index t (0 : Fin 2) * 2000 + 1 * (y 0).val = (i 0).val
    rw [e00, h0]; omega
  | ⟨1, _⟩ =>
    show win0_0.index t (1 : Fin 2) * 132 + 1 * (y 1).val = (i 1).val
    rw [e01, h1]; omega

/-- Feature window 1's block at point `t` is rows `2000 t … 2000 t + 1999` of its array. -/
theorem iblk0_1_apply (c : Dev nD) (t : Fin cfg0.N) (y : S2000x132.Idx) (i : S200000x132.Idx)
    (h0 : (i 0).val = 2000 * t.val + (y 0).val) (h1 : (i 1).val = (y 1).val) :
    iblk0 V c 1 t y = V c (Pipeline.arrRef spec0 1) i := by
  obtain ⟨e00, e01, e10, e11, e20, e21, -, -, -, -, -, -, -, -⟩ := idx0 t
  unfold iblk0
  rw [View.read_apply]
  show V c (Pipeline.arrRef spec0 1) _ = V c (Pipeline.arrRef spec0 1) _
  congr 1
  funext a
  apply Fin.ext
  match a with
  | ⟨0, _⟩ =>
    show win0_1.index t (0 : Fin 2) * 2000 + 1 * (y 0).val = (i 0).val
    rw [e10, h0]; omega
  | ⟨1, _⟩ =>
    show win0_1.index t (1 : Fin 2) * 132 + 1 * (y 1).val = (i 1).val
    rw [e11, h1]; omega

/-- Feature window 2's block at point `t` is rows `2000 t … 2000 t + 1999` of its array. -/
theorem iblk0_2_apply (c : Dev nD) (t : Fin cfg0.N) (y : S2000x132.Idx) (i : S200000x132.Idx)
    (h0 : (i 0).val = 2000 * t.val + (y 0).val) (h1 : (i 1).val = (y 1).val) :
    iblk0 V c 2 t y = V c (Pipeline.arrRef spec0 2) i := by
  obtain ⟨e00, e01, e10, e11, e20, e21, -, -, -, -, -, -, -, -⟩ := idx0 t
  unfold iblk0
  rw [View.read_apply]
  show V c (Pipeline.arrRef spec0 2) _ = V c (Pipeline.arrRef spec0 2) _
  congr 1
  funext a
  apply Fin.ext
  match a with
  | ⟨0, _⟩ =>
    show win0_2.index t (0 : Fin 2) * 2000 + 1 * (y 0).val = (i 0).val
    rw [e20, h0]; omega
  | ⟨1, _⟩ =>
    show win0_2.index t (1 : Fin 2) * 132 + 1 * (y 1).val = (i 1).val
    rw [e21, h1]; omega

/-- Window 3's block at every point is its whole array. -/
theorem iblk0_3_apply (c : Dev nD) (t : Fin cfg0.N) (y : S396x128.Idx) :
    iblk0 V c 3 t y = V c (Pipeline.arrRef spec0 3) y := by
  obtain ⟨-, -, -, -, -, -, e30, e31, e40, e41, -, -, -, -⟩ := idx0 t
  unfold iblk0
  rw [View.read_apply]
  show V c (Pipeline.arrRef spec0 3) _ = V c (Pipeline.arrRef spec0 3) _
  congr 1
  funext a
  apply Fin.ext
  match a with
  | ⟨0, _⟩ =>
    show win0_3.index t (0 : Fin 2) * 396 + 1 * (y 0).val = (y 0).val
    rw [e30]; omega
  | ⟨1, _⟩ =>
    show win0_3.index t (1 : Fin 2) * 128 + 1 * (y 1).val = (y 1).val
    rw [e31]; omega

/-- Window 4's block at every point is its whole array. -/
theorem iblk0_4_apply (c : Dev nD) (t : Fin cfg0.N) (y : S1x128.Idx) :
    iblk0 V c 4 t y = V c (Pipeline.arrRef spec0 4) y := by
  obtain ⟨-, -, -, -, -, -, e30, e31, e40, e41, -, -, -, -⟩ := idx0 t
  unfold iblk0
  rw [View.read_apply]
  show V c (Pipeline.arrRef spec0 4) _ = V c (Pipeline.arrRef spec0 4) _
  congr 1
  funext a
  apply Fin.ext
  match a with
  | ⟨0, _⟩ =>
    show win0_4.index t (0 : Fin 2) * 1 + 1 * (y 0).val = (y 0).val
    rw [e40]; omega
  | ⟨1, _⟩ =>
    show win0_4.index t (1 : Fin 2) * 128 + 1 * (y 1).val = (y 1).val
    rw [e41]; omega

/-- What the first result's array holds after the region, as one function of the five input arrays. -/
def G0_5 (c : Dev nD) : S200000x128.Idx → EReal := fun i =>
  Cert.Spec.mlp (n := 200000) (d1 := 132) (d2 := 132) (d3 := 132) (K := 396) (m := 128) (by norm_num)
    (V c (Pipeline.arrRef spec0 0)) (V c (Pipeline.arrRef spec0 1)) (V c (Pipeline.arrRef spec0 2))
    (V c (Pipeline.arrRef spec0 3)) (fun o => V c (Pipeline.arrRef spec0 4) (ix2 0 o)) (i 0) (i 1)

/-- What grid point `t` writes back to the first result's array is block `t` of that function. -/
theorem flushed0_5_eq (c : Dev nD) (t : Fin cfg0.N) :
    (dat0 V c).flushed 5 t = ((cfg0.win 5).blk t).view.read (Elt Ideal) (G0_5 V c) := by
  show (cfg0.win 5).cut (grid0.coords t) ((dat0 V c).after 5 t) = _
  rw [after0_5]
  unfold out0_5
  rw [View.canon_unit_zero zero2]
  simp only [View.ld_unit_zero (S := S2000x132) zero2, View.ld_unit_zero (S := S396x128) zero2, View.ld_unit_zero (S := S1x128) zero2]
  obtain ⟨-, -, -, -, -, -, -, -, -, -, e50, e51, e60, e61⟩ := idx0 t
  funext j
  have hj0 : (j 0).val < 2000 := (j 0).isLt
  have hI0 : ((((cfg0.win 5).blk t).view.emb j) 0).val = 2000 * t.val + (j 0).val := by
    show win0_5.index t (0 : Fin 2) * 2000 + 1 * (j 0).val = _
    rw [e50]; omega
  have hI1 : ((((cfg0.win 5).blk t).view.emb j) 1).val = (j 1).val := by
    show win0_5.index t (1 : Fin 2) * 128 + 1 * (j 1).val = _
    rw [e51]; omega
  show k0_pay1 (iblk0 V c 0 t) (iblk0 V c 1 t) (iblk0 V c 2 t) (iblk0 V c 3 t) (iblk0 V c 4 t) j
    = G0_5 V c (((cfg0.win 5).blk t).view.emb j)
  exact pt0_pay1_idx (iblk0 V c 0 t) (iblk0 V c 1 t) (iblk0 V c 2 t) (iblk0 V c 3 t) (iblk0 V c 4 t)
    (V c (Pipeline.arrRef spec0 0)) (V c (Pipeline.arrRef spec0 1)) (V c (Pipeline.arrRef spec0 2))
    (V c (Pipeline.arrRef spec0 3)) (V c (Pipeline.arrRef spec0 4)) j (((cfg0.win 5).blk t).view.emb j)
    (fun k => iblk0_0_apply V c t _ _ hI0 rfl) (fun k => iblk0_1_apply V c t _ _ hI0 rfl)
    (fun k => iblk0_2_apply V c t _ _ hI0 rfl) (fun k o => iblk0_3_apply V c t _) (fun o => iblk0_4_apply V c t _) hI1

/-- An index of the array is in point `t`'s block of window 5 iff each coordinate is in the block's range. -/
theorem mem_blk0_5 (t : Fin cfg0.N) (i : S200000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v120_0).slice (win0_5.rect t)).set ↔ _
  rw [View.set_slice_whole, Rect.mem_set_unit]
  exact Iff.rfl

/-- Every row of the array lies in the block of the point `row / 2000`. -/
theorem cover0_5 (i : S200000x128.Idx) :
    ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 100 := N_0
  have ht : (i 0).val / 2000 < cfg0.N := by rw [hN]; omega
  obtain ⟨-, -, -, -, -, -, -, -, -, -, e50, e51, e60, e61⟩ := idx0 ⟨(i 0).val / 2000, ht⟩
  refine ⟨⟨(i 0).val / 2000, ht⟩, flush0_5 _, ?_⟩
  rw [mem_blk0_5]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e51]
    omega

/-- The first result's array after the region. -/
theorem final0_5 (c : Dev nD) : (dat0 V c).arrAt 5 cfg0.N = G0_5 V c :=
  (dat0 V c).arrAt_eq_of_cover 5 (G0_5 V c) (fun t _ => flushed0_5_eq V c t) cover0_5

/-- Entry `(i, o)` of the first result's array after the region is the dense map of the five input arrays. -/
theorem val0_5 (c : Dev nD) (i : Fin 200000) (o : Fin 128) :
    (dat0 (F := Ideal) V c).arrAt 5 cfg0.N (ix2 i o)
      = Cert.Spec.mlp (n := 200000) (d1 := 132) (d2 := 132) (d3 := 132) (K := 396) (m := 128) (by norm_num)
          (V c (Pipeline.arrRef spec0 0)) (V c (Pipeline.arrRef spec0 1)) (V c (Pipeline.arrRef spec0 2))
          (V c (Pipeline.arrRef spec0 3)) (fun o => V c (Pipeline.arrRef spec0 4) (ix2 0 o)) i o := by
  rw [final0_5]
  rfl

/-- What the second result's array holds after the region: the positive part, entry by entry. -/
def G0_6 (c : Dev nD) : S200000x128.Idx → EReal := fun i =>
  Cert.Spec.mlpPos (n := 200000) (d1 := 132) (d2 := 132) (d3 := 132) (K := 396) (m := 128) (by norm_num)
    (V c (Pipeline.arrRef spec0 0)) (V c (Pipeline.arrRef spec0 1)) (V c (Pipeline.arrRef spec0 2))
    (V c (Pipeline.arrRef spec0 3)) (fun o => V c (Pipeline.arrRef spec0 4) (ix2 0 o)) (i 0) (i 1)

/-- What grid point `t` writes back to the second result's array is block `t` of that function. -/
theorem flushed0_6_eq (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  unfold out0_6
  rw [View.canon_unit_zero zero2]
  simp only [View.ld_unit_zero (S := S2000x132) zero2, View.ld_unit_zero (S := S396x128) zero2, View.ld_unit_zero (S := S1x128) zero2]
  obtain ⟨-, -, -, -, -, -, -, -, -, -, e50, e51, e60, e61⟩ := idx0 t
  funext j
  have hj0 : (j 0).val < 2000 := (j 0).isLt
  have hI0 : ((((cfg0.win 6).blk t).view.emb j) 0).val = 2000 * t.val + (j 0).val := by
    show win0_6.index t (0 : Fin 2) * 2000 + 1 * (j 0).val = _
    rw [e60]; omega
  have hI1 : ((((cfg0.win 6).blk t).view.emb j) 1).val = (j 1).val := by
    show win0_6.index t (1 : Fin 2) * 128 + 1 * (j 1).val = _
    rw [e61]; omega
  show k0_pay2 (iblk0 V c 0 t) (iblk0 V c 1 t) (iblk0 V c 2 t) (iblk0 V c 3 t) (iblk0 V c 4 t) j
    = G0_6 V c (((cfg0.win 6).blk t).view.emb j)
  exact pt0_pay2_idx (iblk0 V c 0 t) (iblk0 V c 1 t) (iblk0 V c 2 t) (iblk0 V c 3 t) (iblk0 V c 4 t)
    (V c (Pipeline.arrRef spec0 0)) (V c (Pipeline.arrRef spec0 1)) (V c (Pipeline.arrRef spec0 2))
    (V c (Pipeline.arrRef spec0 3)) (V c (Pipeline.arrRef spec0 4)) j (((cfg0.win 6).blk t).view.emb j)
    (fun k => iblk0_0_apply V c t _ _ hI0 rfl) (fun k => iblk0_1_apply V c t _ _ hI0 rfl)
    (fun k => iblk0_2_apply V c t _ _ hI0 rfl) (fun k o => iblk0_3_apply V c t _) (fun o => iblk0_4_apply V c t _) hI1

/-- An index of the array is in point `t`'s block of window 6 iff each coordinate is in the block's range. -/
theorem mem_blk0_6 (t : Fin cfg0.N) (i : S200000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v120_1).slice (win0_6.rect t)).set ↔ _
  rw [View.set_slice_whole, Rect.mem_set_unit]
  exact Iff.rfl

/-- Every row of the array lies in the block of the point `row / 2000`. -/
theorem cover0_6 (i : S200000x128.Idx) :
    ∃ t : Fin cfg0.N, (cfg0.win 6).flush t = true ∧ i ∈ ((cfg0.win 6).blk t).view.set := by
  have hi0 : (i 0).val < 200000 := (i 0).isLt
  have hi1 : (i 1).val < 128 := (i 1).isLt
  have hN : cfg0.N = 100 := N_0
  have ht : (i 0).val / 2000 < cfg0.N := by rw [hN]; omega
  obtain ⟨-, -, -, -, -, -, -, -, -, -, e50, e51, e60, e61⟩ := idx0 ⟨(i 0).val / 2000, ht⟩
  refine ⟨⟨(i 0).val / 2000, ht⟩, flush0_6 _, ?_⟩
  rw [mem_blk0_6]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win0_6.index ⟨(i 0).val / 2000, ht⟩ (1 : Fin 2) * 128 ≤ (i 1).val
      ∧ (i 1).val < win0_6.index ⟨(i 0).val / 2000, ht⟩ (1 : Fin 2) * 128 + 128
    rw [e61]
    omega

/-- The second result's array after the region. -/
theorem final0_6 (c : Dev nD) : (dat0 V c).arrAt 6 cfg0.N = G0_6 V c :=
  (dat0 V c).arrAt_eq_of_cover 6 (G0_6 V c) (fun t _ => flushed0_6_eq V c t) cover0_6

/-- Entry `(i, o)` of the second result's array after the region is the positive part of the dense map. -/
theorem val0_6 (c : Dev nD) (i : Fin 200000) (o : Fin 128) :
    (dat0 (F := Ideal) V c).arrAt 6 cfg0.N (ix2 i o)
      = Cert.Spec.mlpPos (n := 200000) (d1 := 132) (d2 := 132) (d3 := 132) (K := 396) (m := 128) (by norm_num)
          (V c (Pipeline.arrRef spec0 0)) (V c (Pipeline.arrRef spec0 1)) (V c (Pipeline.arrRef spec0 2))
          (V c (Pipeline.arrRef spec0 3)) (fun o => V c (Pipeline.arrRef spec0 4) (ix2 0 o)) i o := by
  rw [final0_6]
  rfl

end Region0

end Cert.KernelIdeal.Hand

end
-- ==== Proof.RMlp.lean ====
/-
  The reference's dense map of an edge-convolution layer, read entry by entry over the extended reals.

  Each layer of the reference concatenates three feature arrays along the columns, contracts the result's columns
  against the rows of a weight matrix, and adds a bias row broadcast over all edges.  Over the extended reals a
  contraction of one axis is the plain sum over that axis, and a row broadcast first to one row and then to every row
  reads the row's own entry.  So entry `(i, o)` of the layer's result is the shared dense map `Cert.Spec.mlp` of the five
  arrays it read; the last four operations (a contraction with a one-column matrix plus a broadcast scalar) are
  `Cert.Spec.lin` in the same way.
-/
import proofs.«430033_j52948356825731_1_alg».proof.Proof.RStage
import proofs.«430033_j52948356825731_1_alg».proof.Proof.SpecMlp
import proofs.«430033_j52948356825731_1_alg».proof.Proof.KIPay
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo Idealize.ShloMosaic.ValueIdx

/-! ## A contraction of the left operand's columns with the right operand's rows, read at an entry -/

/-- Two positions of an index that are the same number hold the same coordinate. -/
theorem coord_val_congr {s : Shape} (i : s.Idx) (p q : ℕ) (hp : p < s.rank) (hq : q < s.rank) (h : p = q) :
    (i ⟨p, hp⟩).val = (i ⟨q, hq⟩).val := by subst h; rfl

/-- For dimension numbers with no batch axis that contract the left operand's axis 1 with the right operand's axis 0,
    the host's contraction at `(p, q)` is row `p` of the left operand against column `q` of the right: the
    contraction index is re-indexed by its one coordinate. -/
theorem dg_apply_of_axes {n K m : ℕ} {φ₁ φ₂ : FTy}
    (D : DotDims (⟨2, ![n, K]⟩ : Shape) ⟨2, ![K, m]⟩ ⟨2, ![n, m]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal (⟨2, ![n, K]⟩ : Shape) φ₁) (w : FVec Ideal (⟨2, ![K, m]⟩ : Shape) φ₂) (p : Fin n) (q : Fin m) :
    (Host.dotGeneral D none x w : FVec Ideal (⟨2, ![n, m]⟩ : Shape) .f32) (ix2 p q) = ∑ k : Fin K, x (ix2 p k) * w (ix2 k q) := by
  have hr : D.contr.rank = 1 := by rw [D.rank_contr, hlc]; rfl
  have hs : D.contr.size ⟨0, by omega⟩ = K := by
    have h := D.size_contr 0 (by rw [hlc]; exact Nat.one_pos)
    rw [h]
    simp only [hlc]
    rfl
  have l0 : ∀ (i : (⟨2, ![n, m]⟩ : Shape).Idx) (c : D.contr.Idx), (D.lhsIdx i c 0).val = (i 0).val := by
    intro i c
    unfold DotDims.lhsIdx
    rw [dif_neg (by rw [hlb]; exact List.not_mem_nil), dif_pos (by rw [hln]; exact List.mem_singleton.mpr rfl)]
    simp only [Fin.val_cast]
    exact coord_val_congr i _ _ _ _ (by simp [hlb, hln])
  have r1 : ∀ (i : (⟨2, ![n, m]⟩ : Shape).Idx) (c : D.contr.Idx), (D.rhsIdx i c 1).val = (i 1).val := by
    intro i c
    unfold DotDims.rhsIdx
    rw [dif_neg (by rw [hrb]; exact List.not_mem_nil), dif_pos (by rw [hrn]; exact List.mem_singleton.mpr rfl)]
    simp only [Fin.val_cast]
    exact coord_val_congr i _ _ _ _ (by simp [hlb, hln, hrn])
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact l0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact r1 _ _)
  rw [el, er]

/-! ## A row of `m` numbers broadcast to one row and then to `n` rows -/

/-- The two broadcasts read the row's own entry at every `(i, o)`. -/
theorem bias_apply {n m : ℕ} {α : Type}
    (h1 : (⟨1, ![m]⟩ : Shape).BroadcastsInDim (⟨2, ![1, m]⟩ : Shape) (![1] : Fin 1 → Fin 2))
    (h2 : (⟨2, ![1, m]⟩ : Shape).BroadcastsInDim (⟨2, ![n, m]⟩ : Shape) (![0, 1] : Fin 2 → Fin 2))
    (b : (⟨1, ![m]⟩ : Shape).Idx → α) (i : Fin n) (o : Fin m) :
    broadcastInDim (⟨2, ![n, m]⟩ : Shape) ![0, 1] h2 (broadcastInDim (⟨2, ![1, m]⟩ : Shape) ![1] h1 b) (ix2 i o) = b (ix1 o) := by
  have ho := o.isLt
  rw [broadcastInDim_apply (![0, 1] : Fin 2 → Fin 2) h2 _ (ix2 i o) (ix2 (0 : Fin 1) o) (fun a => by
    match a with
    | ⟨0, _⟩ => show (0 : ℕ) = if (1 : ℕ) = 1 then 0 else _; rw [if_pos rfl]
    | ⟨1, _⟩ =>
      show o.val = if m = 1 then 0 else o.val
      split <;> omega)]
  exact broadcastInDim_apply (![1] : Fin 1 → Fin 2) h1 b (ix2 (0 : Fin 1) o) (ix1 o) (fun a => by
    match a with
    | ⟨0, _⟩ =>
      show o.val = if m = 1 then 0 else o.val
      split <;> omega)

/-! ## The layer's five operations as one formula -/

/-- Concatenate, contract with the weights, add the broadcast bias: entry `(i, o)` is the dense map of the five arrays. -/
theorem mlp_ops_apply {n d1 d2 d3 K m : ℕ} (hK : d1 + d2 + d3 = K)
    (hc : Shape.Concatenates [(⟨2, ![n, d1]⟩ : Shape), ⟨2, ![n, d2]⟩, ⟨2, ![n, d3]⟩] ⟨2, ![n, K]⟩ 1)
    (D : DotDims (⟨2, ![n, K]⟩ : Shape) ⟨2, ![K, m]⟩ ⟨2, ![n, m]⟩)
    (hlb : D.lhsBatch = []) (hln : D.lhsNonContracting = [0]) (hlc : D.lhsContracting = [1])
    (hrb : D.rhsBatch = []) (hrn : D.rhsNonContracting = [1]) (hrc : D.rhsContracting = [0])
    (h1 : (⟨1, ![m]⟩ : Shape).BroadcastsInDim (⟨2, ![1, m]⟩ : Shape) (![1] : Fin 1 → Fin 2))
    (h2 : (⟨2, ![1, m]⟩ : Shape).BroadcastsInDim (⟨2, ![n, m]⟩ : Shape) (![0, 1] : Fin 2 → Fin 2))
    (r : FVec Ideal (⟨2, ![n, d1]⟩ : Shape) .f32) (cl : FVec Ideal (⟨2, ![n, d2]⟩ : Shape) .f32)
    (e : FVec Ideal (⟨2, ![n, d3]⟩ : Shape) .f32) (W : FVec Ideal (⟨2, ![K, m]⟩ : Shape) .f32)
    (b : FVec Ideal (⟨1, ![m]⟩ : Shape) .f32) (i : Fin n) (o : Fin m) :
    (addf (Host.dotGeneral D none
            (concatenate (⟨2, ![n, K]⟩ : Shape) 1 [⟨⟨2, ![n, d1]⟩, r⟩, ⟨⟨2, ![n, d2]⟩, cl⟩, ⟨⟨2, ![n, d3]⟩, e⟩] hc : FVec Ideal (⟨2, ![n, K]⟩ : Shape) .f32) W)
          (broadcastInDim (⟨2, ![n, m]⟩ : Shape) ![0, 1] h2 (broadcastInDim (⟨2, ![1, m]⟩ : Shape) ![1] h1 b))
        : FVec Ideal (⟨2, ![n, m]⟩ : Shape) .f32) (ix2 i o)
      = Cert.Spec.mlp hK r cl e W (fun o => b (ix1 o)) i o := by
  rw [addf_apply, dg_apply_of_axes D hlb hln hlc hrb hrn hrc, bias_apply h1 h2 b i o]
  unfold Cert.Spec.mlp
  refine congrArg (· + b (ix1 o)) (Finset.sum_congr rfl fun k _ => ?_)
  rw [Cert.KernelIdeal.Hand.cat3_apply hK r cl e hc i k]

/-- Contract with a one-column matrix, add a broadcast scalar: entry `(i, 0)` is `Cert.Spec.lin`. -/
theorem lin_ops_apply {n K : ℕ}
    (D : DotDims (⟨2, ![n, K]⟩ : Shape) ⟨2, ![K, 1]⟩ ⟨2, ![n, 1]⟩)
    (hlb : D.lhsBatch = []) (hln : D.lhsNonContracting = [0]) (hlc : D.lhsContracting = [1])
    (hrb : D.rhsBatch = []) (hrn : D.rhsNonContracting = [1]) (hrc : D.rhsContracting = [0])
    (h1 : (⟨1, ![1]⟩ : Shape).BroadcastsInDim (⟨2, ![1, 1]⟩ : Shape) (![1] : Fin 1 → Fin 2))
    (h2 : (⟨2, ![1, 1]⟩ : Shape).BroadcastsInDim (⟨2, ![n, 1]⟩ : Shape) (![0, 1] : Fin 2 → Fin 2))
    (x : FVec Ideal (⟨2, ![n, K]⟩ : Shape) .f32) (w : FVec Ideal (⟨2, ![K, 1]⟩ : Shape) .f32)
    (b : FVec Ideal (⟨1, ![1]⟩ : Shape) .f32) (i : Fin n) :
    (addf (Host.dotGeneral D none x w)
          (broadcastInDim (⟨2, ![n, 1]⟩ : Shape) ![0, 1] h2 (broadcastInDim (⟨2, ![1, 1]⟩ : Shape) ![1] h1 b))
        : FVec Ideal (⟨2, ![n, 1]⟩ : Shape) .f32) (ix2 i (0 : Fin 1))
      = Cert.Spec.lin x w (b (ix1 (0 : Fin 1))) i := by
  rw [addf_apply, dg_apply_of_axes D hlb hln hlc hrb hrn hrc, bias_apply h1 h2 b i (0 : Fin 1)]
  rfl

/-! ## The four layers of the reference, and its last four operations -/

variable [Cert.ReferenceIdeal.Facts]

/-- The first layer's dense map: entry `(i, o)` of the array the layer's five operations leave. -/
theorem rs4_apply (V : Valuation τ sig (Elt Ideal)) (i : Fin 200000) (o : Fin 128) :
    (StableHlo.after (rs4 (F := Ideal)) V (Proc.devRef .tc main_v140) : FVec Ideal S200000x128 .f32) (ix2 i o)
      = Cert.Spec.mlp (n := 200000) (d1 := 132) (d2 := 132) (d3 := 132) (K := 396) (m := 128) (by norm_num)
          (V (Proc.devRef .tc main_v128)) (V (Proc.devRef .tc main_v135)) (V (Proc.devRef .tc main_v121))
          (V (Proc.devRef .tc main_arg6)) (fun o => (V (Proc.devRef .tc main_arg7) : FVec Ideal S128 .f32) (ix1 o)) i o := by
  after_results_simp
  exact mlp_ops_apply (by norm_num) concatenates_S200000x132_S200000x132_S200000x132_S200000x396_d1
    dot_S200000x396_S396x128_S200000x128_1_0_0_1_n_n rfl rfl rfl rfl rfl rfl bcast_S128_S1x128_1 bcast_S1x128_S200000x128_0_1
    _ _ _ _ _ i o

/-- The second layer's dense map: entry `(i, o)` of the array the layer's five operations leave. -/
theorem rs9_apply (V : Valuation τ sig (Elt Ideal)) (i : Fin 200000) (o : Fin 128) :
    (StableHlo.after (rs9 (F := Ideal)) V (Proc.devRef .tc main_v173) : FVec Ideal S200000x128 .f32) (ix2 i o)
      = Cert.Spec.mlp (n := 200000) (d1 := 128) (d2 := 128) (d3 := 132) (K := 388) (m := 128) (by norm_num)
          (V (Proc.devRef .tc main_v161)) (V (Proc.devRef .tc main_v168)) (V (Proc.devRef .tc main_v154))
          (V (Proc.devRef .tc main_arg8)) (fun o => (V (Proc.devRef .tc main_arg9) : FVec Ideal S128 .f32) (ix1 o)) i o := by
  after_results_simp
  exact mlp_ops_apply (by norm_num) concatenates_S200000x128_S200000x128_S200000x132_S200000x388_d1
    dot_S200000x388_S388x128_S200000x128_1_0_0_1_n_n rfl rfl rfl rfl rfl rfl bcast_S128_S1x128_1 bcast_S1x128_S200000x128_0_1
    _ _ _ _ _ i o

/-- The third layer's dense map: entry `(i, o)` of the array the layer's five operations leave. -/
theorem rs14_apply (V : Valuation τ sig (Elt Ideal)) (i : Fin 200000) (o : Fin 128) :
    (StableHlo.after (rs14 (F := Ideal)) V (Proc.devRef .tc main_v207) : FVec Ideal S200000x128 .f32) (ix2 i o)
      = Cert.Spec.mlp (n := 200000) (d1 := 256) (d2 := 256) (d3 := 256) (K := 768) (m := 128) (by norm_num)
          (V (Proc.devRef .tc main_v195)) (V (Proc.devRef .tc main_v202)) (V (Proc.devRef .tc main_v188))
          (V (Proc.devRef .tc main_arg10)) (fun o => (V (Proc.devRef .tc main_arg11) : FVec Ideal S128 .f32) (ix1 o)) i o := by
  after_results_simp
  exact mlp_ops_apply (by norm_num) concatenates_S200000x256_S200000x256_S200000x256_S200000x768_d1
    dot_S200000x768_S768x128_S200000x128_1_0_0_1_n_n rfl rfl rfl rfl rfl rfl bcast_S128_S1x128_1 bcast_S1x128_S200000x128_0_1
    _ _ _ _ _ i o

/-- The fourth layer's dense map: entry `(i, o)` of the array the layer's five operations leave. -/
theorem rs19_apply (V : Valuation τ sig (Elt Ideal)) (i : Fin 200000) (o : Fin 128) :
    (StableHlo.after (rs19 (F := Ideal)) V (Proc.devRef .tc main_v241) : FVec Ideal S200000x128 .f32) (ix2 i o)
      = Cert.Spec.mlp (n := 200000) (d1 := 256) (d2 := 256) (d3 := 256) (K := 768) (m := 128) (by norm_num)
          (V (Proc.devRef .tc main_v229)) (V (Proc.devRef .tc main_v236)) (V (Proc.devRef .tc main_v222))
          (V (Proc.devRef .tc main_arg12)) (fun o => (V (Proc.devRef .tc main_arg13) : FVec Ideal S128 .f32) (ix1 o)) i o := by
  after_results_simp
  exact mlp_ops_apply (by norm_num) concatenates_S200000x256_S200000x256_S200000x256_S200000x768_d1
    dot_S200000x768_S768x128_S200000x128_1_0_0_1_n_n rfl rfl rfl rfl rfl rfl bcast_S128_S1x128_1 bcast_S1x128_S200000x128_0_1
    _ _ _ _ _ i o

/-- The last four operations: entry `(i, 0)` of the array they leave is the last layer's positive part mapped
    through the one-column matrix, plus the scalar. -/
theorem rs26_apply (V : Valuation τ sig (Elt Ideal)) (i : Fin 200000) :
    (StableHlo.after (rs26 (F := Ideal)) V (Proc.devRef .tc main_v529) : FVec Ideal S200000x1 .f32) (ix2 i (0 : Fin 1))
      = Cert.Spec.lin (V (Proc.devRef .tc main_v254) : FVec Ideal S200000x128 .f32) (V (Proc.devRef .tc main_arg16) : FVec Ideal S128x1 .f32)
          ((V (Proc.devRef .tc main_arg17) : FVec Ideal S1 .f32) (ix1 (0 : Fin 1))) i := by
  after_results_simp
  exact lin_ops_apply dot_S200000x128_S128x1_S200000x1_1_0_0_1_n_n rfl rfl rfl rfl rfl rfl bcast_S1_S1x1_1 bcast_S1x1_S200000x1_0_1
    _ _ _ i

/-! ## The positive part after each layer -/

/-- The three operations after the layer leave its positive part: the maximum with the zero array. -/
theorem rs6_apply (V : Valuation τ sig (Elt Ideal)) (j : S200000x128.Idx) :
    ((StableHlo.after (rs6 (F := Ideal)) V (Proc.devRef .tc main_v153) : FVec Ideal S200000x128 .f32) j : EReal)
      = (max ((V (Proc.devRef .tc main_v140) : FVec Ideal S200000x128 .f32) j) 0 : EReal) := by
  after_results_simp
  show (max ((V (Proc.devRef .tc main_v140) : FVec Ideal S200000x128 .f32) j) (Ideal.ofBits .f32 0x00000000#32) : EReal) = _
  rw [Ideal.ofBits_zero_f32]

/-- The three operations after the layer leave its positive part: the maximum with the zero array. -/
theorem rs11_apply (V : Valuation τ sig (Elt Ideal)) (j : S200000x128.Idx) :
    ((StableHlo.after (rs11 (F := Ideal)) V (Proc.devRef .tc main_v186) : FVec Ideal S200000x128 .f32) j : EReal)
      = (max ((V (Proc.devRef .tc main_v173) : FVec Ideal S200000x128 .f32) j) 0 : EReal) := by
  after_results_simp
  show (max ((V (Proc.devRef .tc main_v173) : FVec Ideal S200000x128 .f32) j) (Ideal.ofBits .f32 0x00000000#32) : EReal) = _
  rw [Ideal.ofBits_zero_f32]

/-- The three operations after the layer leave its positive part: the maximum with the zero array. -/
theorem rs16_apply (V : Valuation τ sig (Elt Ideal)) (j : S200000x128.Idx) :
    ((StableHlo.after (rs16 (F := Ideal)) V (Proc.devRef .tc main_v220) : FVec Ideal S200000x128 .f32) j : EReal)
      = (max ((V (Proc.devRef .tc main_v207) : FVec Ideal S200000x128 .f32) j) 0 : EReal) := by
  after_results_simp
  show (max ((V (Proc.devRef .tc main_v207) : FVec Ideal S200000x128 .f32) j) (Ideal.ofBits .f32 0x00000000#32) : EReal) = _
  rw [Ideal.ofBits_zero_f32]

/-- The three operations after the layer leave its positive part: the maximum with the zero array. -/
theorem rs21_apply (V : Valuation τ sig (Elt Ideal)) (j : S200000x128.Idx) :
    ((StableHlo.after (rs21 (F := Ideal)) V (Proc.devRef .tc main_v254) : FVec Ideal S200000x128 .f32) j : EReal)
      = (max ((V (Proc.devRef .tc main_v241) : FVec Ideal S200000x128 .f32) j) 0 : EReal) := by
  after_results_simp
  show (max ((V (Proc.devRef .tc main_v241) : FVec Ideal S200000x128 .f32) j) (Ideal.ofBits .f32 0x00000000#32) : EReal) = _
  rw [Ideal.ofBits_zero_f32]

end Cert.ReferenceIdeal.Hand

end
-- ==== Proof.St04.lean ====
/-
  Group 4: the first layer's dense map.  The kernel converts the weights' format and reshapes the bias to one row (over
  the extended reals both leave every entry as it was), then runs its pipelined region: after it the first result array
  holds, at every edge and output column, the dense map of the five arrays the region read, and the second result array
  its positive part.  The reference's five operations, read at an entry, are the same dense map of its five arrays.  The
  three feature arrays agree on the two sides by the entry relation, the converted weights read the weights and the
  reshaped bias reads the bias, so the two dense maps are one number.  No other live buffer is an array of the region or
  a result of the group's operations, so each is carried.
-/
import proofs.«430033_j52948356825731_1_alg».proof.Proof.RelReg
import proofs.«430033_j52948356825731_1_alg».proof.Proof.KIVal0
import proofs.«430033_j52948356825731_1_alg».proof.Proof.RMlp

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

section Step
variable (W : Dev Cert.KernelIdeal.nD → KVal) (c : Dev Cert.KernelIdeal.nD)

/-- A buffer that is none of the region's arrays is left as the group's host operations left it. -/
theorem kstep4_of_ne (b : Ref Cert.KernelIdeal.sig .tc) (hb : ∀ w, Pipeline.arrRef Cert.KernelIdeal.spec0 w ≠ b) :
    kstep4 W c (Proc.devRef .tc b) = StableHlo.after ks4 (W c) (Proc.devRef .tc b) := by
  unfold kstep4; exact Pipeline.withArrays_of_ne Cert.KernelIdeal.spec0 c _ _ b hb

/-- A window's array is left at the fold of the region's write-backs. -/
theorem kstep4_arr (w : Fin Cert.KernelIdeal.cfg0.W) :
    kstep4 W c (Proc.devRef .tc (Pipeline.arrRef Cert.KernelIdeal.spec0 w))
      = (Cert.KernelIdeal.Hand.dat0 (F := Ideal) (fun c b => StableHlo.after ks4 (W c) b) c).arrAt w Cert.KernelIdeal.cfg0.N := by
  unfold kstep4; exact Pipeline.withArrays_arr Cert.KernelIdeal.spec0 Cert.KernelIdeal.Gen.launch0.win.arr_inj c _ _ w

end Step

/-- The five arrays the region reads against the five the reference's layer reads: the features by the entry relation,
    the converted weights entry by entry, the reshaped bias at its one row. -/
theorem inputs4 {Vk : KVal} {Vr : RVal} (h0 : Rel3 Vk Vr) :
    (StableHlo.after ks4 Vk (Proc.devRef .tc Cert.KernelIdeal.main_v116) : FVec Ideal Cert.KernelIdeal.S200000x132 .f32) = (Vr (Proc.devRef .tc Cert.ReferenceIdeal.main_v128) : FVec Ideal Cert.ReferenceIdeal.S200000x132 .f32)
    ∧ (StableHlo.after ks4 Vk (Proc.devRef .tc Cert.KernelIdeal.main_v117) : FVec Ideal Cert.KernelIdeal.S200000x132 .f32) = (Vr (Proc.devRef .tc Cert.ReferenceIdeal.main_v135) : FVec Ideal Cert.ReferenceIdeal.S200000x132 .f32)
    ∧ (StableHlo.after ks4 Vk (Proc.devRef .tc Cert.KernelIdeal.main_v115) : FVec Ideal Cert.KernelIdeal.S200000x132 .f32) = (Vr (Proc.devRef .tc Cert.ReferenceIdeal.main_v121) : FVec Ideal Cert.ReferenceIdeal.S200000x132 .f32)
    ∧ (∀ idx, (StableHlo.after ks4 Vk (Proc.devRef .tc Cert.KernelIdeal.main_v118) : FVec Ideal Cert.KernelIdeal.S396x128 .bf16) idx = (Vr (Proc.devRef .tc Cert.ReferenceIdeal.main_arg6) : FVec Ideal Cert.ReferenceIdeal.S396x128 .f32) idx)
    ∧ (∀ o : Fin 128, (StableHlo.after ks4 Vk (Proc.devRef .tc Cert.KernelIdeal.main_v119) : FVec Ideal Cert.KernelIdeal.S1x128 .f32) (ix2 (0 : Fin 1) o) = (Vr (Proc.devRef .tc Cert.ReferenceIdeal.main_arg7) : FVec Ideal Cert.ReferenceIdeal.S128 .f32) (ix1 o)) := by
  refine ⟨?_, ?_, ?_, ?_, ?_⟩
  · after_results_simp; exact h0.p_v116
  · after_results_simp; exact h0.p_v117
  · after_results_simp; exact h0.p_v115
  · intro idx; after_results_simp; have ea : _ = _ := h0.a6; rw [← ea]; rfl
  · intro o; after_results_simp; have ea : _ = _ := h0.a7; rw [← ea]
    refine shapeCast_apply (s := Cert.KernelIdeal.S128) (t := Cert.KernelIdeal.S1x128) _ _ (ix2 (0 : Fin 1) o) (ix1 o) ?_
    rw [Shape.rowMajor_val_one, Shape.rowMajor_val_two]
    show o.val = (0 : Fin 1).val * 128 + o.val
    simp

/-- The first result array after the region, at an entry, is the reference's layer at that entry. -/
theorem dense4 (W : Dev Cert.KernelIdeal.nD → KVal) (U : Dev Cert.KernelIdeal.nD → RVal) (c : Dev Cert.KernelIdeal.nD) (h0 : Rel3 (W c) (U c))
    (i : Fin 200000) (o : Fin 128) :
    (kstep4 W c (Proc.devRef .tc Cert.KernelIdeal.main_v120_0) : FVec Ideal Cert.KernelIdeal.S200000x128 .f32) (ix2 i o)
      = (StableHlo.after (Cert.ReferenceIdeal.Hand.rs4 (F := Ideal)) (U c) (Proc.devRef .tc Cert.ReferenceIdeal.main_v140) : FVec Ideal Cert.ReferenceIdeal.S200000x128 .f32) (ix2 i o) := by
  obtain ⟨e0, e1, e2, e3, e4⟩ := inputs4 h0
  refine (congrFun (kstep4_arr W c 5) (ix2 i o)).trans ?_
  refine (Cert.KernelIdeal.Hand.val0_5 _ c i o).trans ?_
  refine Eq.trans ?_ (Cert.ReferenceIdeal.Hand.rs4_apply (U c) i o).symm
  exact Cert.KernelIdeal.Hand.mlp_of_rows _ _ _ _ _ _ _ _ _ _ _ i i o
    (fun j => congrFun e0 _) (fun j => congrFun e1 _) (fun j => congrFun e2 _) (fun k => e3 _) (e4 o)

/-- The second result array after the region is the positive part of the first, entry by entry. -/
theorem pos4 (W : Dev Cert.KernelIdeal.nD → KVal) (c : Dev Cert.KernelIdeal.nD) : Pos_v120_1 (kstep4 W c) := by
  intro j
  obtain ⟨i, o, rfl⟩ : ∃ (i : Fin 200000) (o : Fin 128), j = ix2 i o := ⟨j 0, j 1, eq_ix2 j⟩
  refine (congrFun (kstep4_arr W c 6) (ix2 i o)).trans ?_
  refine (Cert.KernelIdeal.Hand.val0_6 _ c i o).trans ?_
  refine Eq.symm ?_
  refine (congrArg (fun x : EReal => max x 0)
    ((congrFun (kstep4_arr W c 5) (ix2 i o)).trans (Cert.KernelIdeal.Hand.val0_5 _ c i o))).trans ?_
  rfl

theorem owes4 : Owes4 := by
  intro W U h c
  have h0 := h c
  refine ⟨?_, ?_, ?_, ?_, ?_, ?_, ?_, ?_, ?_, ?_, ?_, ?_, ?_, ?_, ?_, ?_, ?_, ?_, ?_, ?_, ?_, ?_⟩
  · refine (kstep4_of_ne W c Cert.KernelIdeal.main_arg0 (by decide)).trans ?_; after_results_simp; exact h0.a0
  · refine (kstep4_of_ne W c Cert.KernelIdeal.main_arg2 (by decide)).trans ?_; after_results_simp; exact h0.a2
  · refine (kstep4_of_ne W c Cert.KernelIdeal.main_arg3 (by decide)).trans ?_; after_results_simp; exact h0.a3
  · refine (kstep4_of_ne W c Cert.KernelIdeal.main_arg8 (by decide)).trans ?_; after_results_simp; exact h0.a8
  · refine (kstep4_of_ne W c Cert.KernelIdeal.main_arg9 (by decide)).trans ?_; after_results_simp; exact h0.a9
  · refine (kstep4_of_ne W c Cert.KernelIdeal.main_arg10 (by decide)).trans ?_; after_results_simp; exact h0.a10
  · refine (kstep4_of_ne W c Cert.KernelIdeal.main_arg11 (by decide)).trans ?_; after_results_simp; exact h0.a11
  · refine (kstep4_of_ne W c Cert.KernelIdeal.main_arg12 (by decide)).trans ?_; after_results_simp; exact h0.a12
  · refine (kstep4_of_ne W c Cert.KernelIdeal.main_arg13 (by decide)).trans ?_; after_results_simp; exact h0.a13
  · refine (kstep4_of_ne W c Cert.KernelIdeal.main_arg14 (by decide)).trans ?_; after_results_simp; exact h0.a14
  · refine (kstep4_of_ne W c Cert.KernelIdeal.main_arg15 (by decide)).trans ?_; after_results_simp; exact h0.a15
  · refine (kstep4_of_ne W c Cert.KernelIdeal.main_arg16 (by decide)).trans ?_; after_results_simp; exact h0.a16
  · refine (kstep4_of_ne W c Cert.KernelIdeal.main_arg17 (by decide)).trans ?_; after_results_simp; exact h0.a17
  · refine (kstep4_of_ne W c Cert.KernelIdeal.main_cst (by decide)).trans ?_; after_results_simp; exact h0.p_cst
  · refine (kstep4_of_ne W c Cert.KernelIdeal.main_v1 (by decide)).trans ?_; after_results_simp; exact h0.p_v1
  · refine (kstep4_of_ne W c Cert.KernelIdeal.main_v113 (by decide)).trans ?_; after_results_simp; exact h0.p_v113
  · -- the dense map, entry by entry
    show (kstep4 W c (Proc.devRef .tc Cert.KernelIdeal.main_v120_0) : FVec Ideal Cert.KernelIdeal.S200000x128 .f32) = _
    funext j
    obtain ⟨i, o, rfl⟩ : ∃ (i : Fin 200000) (o : Fin 128), j = ix2 i o := ⟨j 0, j 1, eq_ix2 j⟩
    exact dense4 W U c h0 i o
  · refine (kstep4_of_ne W c Cert.KernelIdeal.main_v3 (by decide)).trans ?_; after_results_simp; exact h0.p_v3
  · intro i
    show ((kstep4 W c (Proc.devRef .tc Cert.KernelIdeal.main_v1) : IVec Cert.KernelIdeal.S200000 32) i).toNat < 10000
    rw [kstep4_of_ne W c Cert.KernelIdeal.main_v1 (by decide)]
    after_results_simp
    exact h0.rng1 i
  · intro i
    show ((kstep4 W c (Proc.devRef .tc Cert.KernelIdeal.main_v3) : IVec Cert.KernelIdeal.S200000 32) i).toNat < 10000
    rw [kstep4_of_ne W c Cert.KernelIdeal.main_v3 (by decide)]
    after_results_simp
    exact h0.rng3 i
  · show kstep4 W c (Proc.devRef .tc Cert.KernelIdeal.main_v9) = cntOf (kstep4 W c (Proc.devRef .tc Cert.KernelIdeal.main_v1))
    rw [kstep4_of_ne W c Cert.KernelIdeal.main_v9 (by decide), kstep4_of_ne W c Cert.KernelIdeal.main_v1 (by decide)]
    after_results_simp; exact h0.cnt
  · exact pos4 W c

end Cert.Stage

end
-- ==== Proof.St05.lean ====
/-
  Group 5: the first layer's node features.  Both programs add, for every node, the messages of the edges that leave it
  (a segment sum over the source index), divide by the number of such edges floored at one, and keep the positive part.
  The kernel reads the count it computed once from the source row; the reference recomputes it here by the same six
  operations, so the two quotients agree entry by entry.  Every other live buffer is untouched.
-/
import proofs.«430033_j52948356825731_1_alg».proof.Proof.Rel
import proofs.«430033_j52948356825731_1_alg».proof.Proof.KITakes
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 1000000 in
theorem owes5 : Owes5 := by
  intro W U h c
  have h0 := h c
  have e_cnt : W c (Proc.devRef .tc Cert.KernelIdeal.main_v9) = cntOf (W c (Proc.devRef .tc Cert.KernelIdeal.main_v1)) := h0.cnt
  have e_p_v1 : W c (Proc.devRef .tc Cert.KernelIdeal.main_v1) = U c (Proc.devRef .tc Cert.ReferenceIdeal.main_v1) := h0.p_v1
  have e_p_v120_0 : W c (Proc.devRef .tc Cert.KernelIdeal.main_v120_0) = U c (Proc.devRef .tc Cert.ReferenceIdeal.main_v140) := h0.p_v120_0
  refine ⟨?_, ?_, ?_, ?_, ?_, ?_, ?_, ?_, ?_, ?_, ?_, ?_, ?_, ?_, ?_, ?_, ?_, ?_, ?_, ?_, ?_, ?_, ?_⟩
  · show StableHlo.after ks5 (W c) _ = _; simp only [StableHlo.after_append]; after_results_simp; exact h0.a0
  · show StableHlo.after ks5 (W c) _ = _; simp only [StableHlo.after_append]; after_results_simp; exact h0.a2
  · show StableHlo.after ks5 (W c) _ = _; simp only [StableHlo.after_append]; after_results_simp; exact h0.a3
  · show StableHlo.after ks5 (W c) _ = _; simp only [StableHlo.after_append]; after_results_simp; exact h0.a8
  · show StableHlo.after ks5 (W c) _ = _; simp only [StableHlo.after_append]; after_results_simp; exact h0.a9
  · show StableHlo.after ks5 (W c) _ = _; simp only [StableHlo.after_append]; after_results_simp; exact h0.a10
  · show StableHlo.after ks5 (W c) _ = _; simp only [StableHlo.after_append]; after_results_simp; exact h0.a11
  · show StableHlo.after ks5 (W c) _ = _; simp only [StableHlo.after_append]; after_results_simp; exact h0.a12
  · show StableHlo.after ks5 (W c) _ = _; simp only [StableHlo.after_append]; after_results_simp; exact h0.a13
  · show StableHlo.after ks5 (W c) _ = _; simp only [StableHlo.after_append]; after_results_simp; exact h0.a14
  · show StableHlo.after ks5 (W c) _ = _; simp only [StableHlo.after_append]; after_results_simp; exact h0.a15
  · show StableHlo.after ks5 (W c) _ = _; simp only [StableHlo.after_append]; after_results_simp; exact h0.a16
  · show StableHlo.after ks5 (W c) _ = _; simp only [StableHlo.after_append]; after_results_simp; exact h0.a17
  · show StableHlo.after ks5 (W c) _ = _; simp only [StableHlo.after_append]; after_results_simp; exact h0.p_cst
  · show StableHlo.after ks5 (W c) _ = _; simp only [StableHlo.after_append]; after_results_simp; exact h0.p_v1
  · show StableHlo.after ks5 (W c) _ = _; simp only [StableHlo.after_append]; after_results_simp; exact h0.p_v113
  · show StableHlo.after ks5 (W c) _ = _; simp only [StableHlo.after_append]; after_results_simp; exact h0.p_v120_0
  · -- the mean message per node, positive part: the count read on one side is the count recomputed on the other
    show StableHlo.after ks5 (W c) _ = _
    simp only [StableHlo.after_append]
    after_results_simp
    simp only [Cert.KernelIdeal.Hand.tref_ofBuf_toBuf]
    rw [e_cnt, e_p_v1, e_p_v120_0]
    rfl
  · show StableHlo.after ks5 (W c) _ = _; simp only [StableHlo.after_append]; after_results_simp; exact h0.p_v3
  · intro i
    show ((StableHlo.after ks5 (W c) (Proc.devRef .tc Cert.KernelIdeal.main_v1) : IVec Cert.KernelIdeal.S200000 32) i).toNat < 10000
    simp only [StableHlo.after_append]; after_results_simp
    exact h0.rng1 i
  · intro i
    show ((StableHlo.after ks5 (W c) (Proc.devRef .tc Cert.KernelIdeal.main_v3) : IVec Cert.KernelIdeal.S200000 32) i).toNat < 10000
    simp only [StableHlo.after_append]; after_results_simp
    exact h0.rng3 i
  · show StableHlo.after ks5 (W c) (Proc.devRef .tc Cert.KernelIdeal.main_v9) = cntOf (StableHlo.after ks5 (W c) (Proc.devRef .tc Cert.KernelIdeal.main_v1))
    simp only [StableHlo.after_append]; after_results_simp; exact h0.cnt
  · show Pos_v120_1 (StableHlo.after ks5 (W c))
    intro j
    simp only [StableHlo.after_append]; after_results_simp
    exact h0.pos_v120_1 j

end Cert.Stage

end
-- ==== Proof.St06.lean ====
/-
  Group 6: the reference takes the positive part of the first layer's dense map.  The kernel formed that positive
  part inside its region as the layer's second output, carried so far as a fact beside the pair of dense maps; so the
  second output and the reference's new array agree entry by entry, both the maximum of the same number and zero.
  The kernel runs no operation here and every other live buffer is untouched.
-/
import proofs.«430033_j52948356825731_1_alg».proof.Proof.Rel
import proofs.«430033_j52948356825731_1_alg».proof.Proof.RMlp

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

theorem owes6 : Owes6 := by
  intro W U h c
  have h0 := h c
  have em : _ = _ := h0.p_v120_0
  refine ⟨?_, ?_, ?_, ?_, ?_, ?_, ?_, ?_, ?_, ?_, ?_, ?_, ?_, ?_, ?_, ?_, ?_, ?_, ?_, ?_, ?_, ?_⟩
  · show StableHlo.after ks6 (W c) _ = _; after_results_simp; exact h0.a0
  · show StableHlo.after ks6 (W c) _ = _; after_results_simp; exact h0.a2
  · show StableHlo.after ks6 (W c) _ = _; after_results_simp; exact h0.a3
  · show StableHlo.after ks6 (W c) _ = _; after_results_simp; exact h0.a8
  · show StableHlo.after ks6 (W c) _ = _; after_results_simp; exact h0.a9
  · show StableHlo.after ks6 (W c) _ = _; after_results_simp; exact h0.a10
  · show StableHlo.after ks6 (W c) _ = _; after_results_simp; exact h0.a11
  · show StableHlo.after ks6 (W c) _ = _; after_results_simp; exact h0.a12
  · show StableHlo.after ks6 (W c) _ = _; after_results_simp; exact h0.a13
  · show StableHlo.after ks6 (W c) _ = _; after_results_simp; exact h0.a14
  · show StableHlo.after ks6 (W c) _ = _; after_results_simp; exact h0.a15
  · show StableHlo.after ks6 (W c) _ = _; after_results_simp; exact h0.a16
  · show StableHlo.after ks6 (W c) _ = _; after_results_simp; exact h0.a17
  · show StableHlo.after ks6 (W c) _ = _; after_results_simp; exact h0.p_cst
  · show StableHlo.after ks6 (W c) _ = _; after_results_simp; exact h0.p_v1
  · show StableHlo.after ks6 (W c) _ = _; after_results_simp; exact h0.p_v113
  · -- the positive part: the kernel's second output against the reference's maximum with zero
    show (StableHlo.after ks6 (W c) (Proc.devRef .tc Cert.KernelIdeal.main_v120_1) : FVec Ideal Cert.KernelIdeal.S200000x128 .f32) = _
    funext j
    refine Eq.trans ?_ (Cert.ReferenceIdeal.Hand.rs6_apply (U c) j).symm
    after_results_simp
    refine (h0.pos_v120_1 j).trans ?_
    rw [em]
  · show StableHlo.after ks6 (W c) _ = _; after_results_simp; exact h0.p_v126
  · show StableHlo.after ks6 (W c) _ = _; after_results_simp; exact h0.p_v3
  · intro i
    show ((StableHlo.after ks6 (W c) (Proc.devRef .tc Cert.KernelIdeal.main_v1) : IVec Cert.KernelIdeal.S200000 32) i).toNat < 10000
    after_results_simp
    exact h0.rng1 i
  · intro i
    show ((StableHlo.after ks6 (W c) (Proc.devRef .tc Cert.KernelIdeal.main_v3) : IVec Cert.KernelIdeal.S200000 32) i).toNat < 10000
    after_results_simp
    exact h0.rng3 i
  · show StableHlo.after ks6 (W c) (Proc.devRef .tc Cert.KernelIdeal.main_v9) = cntOf (StableHlo.after ks6 (W c) (Proc.devRef .tc Cert.KernelIdeal.main_v1))
    after_results_simp; exact h0.cnt

end Cert.Stage

end
-- ==== Proof.St07.lean ====
/-
  Group 7: both programs lay the edge attributes (four columns) beside the first layer's edge features (128 columns),
  one row of 132 per edge.  The two operands are equal on entry, so the two rows of 132 are equal; every other live buffer
  is untouched.
-/
import proofs.«430033_j52948356825731_1_alg».proof.Proof.Rel

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

theorem owes7 : Owes7 := by
  intro W U h c
  have h0 := h c
  have e_p_v113 : W c (Proc.devRef .tc Cert.KernelIdeal.main_v113) = U c (Proc.devRef .tc Cert.ReferenceIdeal.main_v119) := h0.p_v113
  have e_p_v120_1 : W c (Proc.devRef .tc Cert.KernelIdeal.main_v120_1) = U c (Proc.devRef .tc Cert.ReferenceIdeal.main_v153) := h0.p_v120_1
  refine ⟨?_, ?_, ?_, ?_, ?_, ?_, ?_, ?_, ?_, ?_, ?_, ?_, ?_, ?_, ?_, ?_, ?_, ?_, ?_, ?_, ?_, ?_⟩
  · show StableHlo.after ks7 (W c) _ = _; after_results_simp; exact h0.a0
  · show StableHlo.after ks7 (W c) _ = _; after_results_simp; exact h0.a2
  · show StableHlo.after ks7 (W c) _ = _; after_results_simp; exact h0.a3
  · show StableHlo.after ks7 (W c) _ = _; after_results_simp; exact h0.a8
  · show StableHlo.after ks7 (W c) _ = _; after_results_simp; exact h0.a9
  · show StableHlo.after ks7 (W c) _ = _; after_results_simp; exact h0.a10
  · show StableHlo.after ks7 (W c) _ = _; after_results_simp; exact h0.a11
  · show StableHlo.after ks7 (W c) _ = _; after_results_simp; exact h0.a12
  · show StableHlo.after ks7 (W c) _ = _; after_results_simp; exact h0.a13
  · show StableHlo.after ks7 (W c) _ = _; after_results_simp; exact h0.a14
  · show StableHlo.after ks7 (W c) _ = _; after_results_simp; exact h0.a15
  · show StableHlo.after ks7 (W c) _ = _; after_results_simp; exact h0.a16
  · show StableHlo.after ks7 (W c) _ = _; after_results_simp; exact h0.a17
  · show StableHlo.after ks7 (W c) _ = _; after_results_simp; exact h0.p_cst
  · show StableHlo.after ks7 (W c) _ = _; after_results_simp; exact h0.p_v1
  · show StableHlo.after ks7 (W c) _ = _; after_results_simp; exact h0.p_v120_1
  · show StableHlo.after ks7 (W c) _ = _; after_results_simp; exact h0.p_v126
  · -- the row of 132: attributes beside features
    show StableHlo.after ks7 (W c) _ = _; after_results_simp; rw [e_p_v113, e_p_v120_1]
  · show StableHlo.after ks7 (W c) _ = _; after_results_simp; exact h0.p_v3
  · intro i
    show ((StableHlo.after ks7 (W c) (Proc.devRef .tc Cert.KernelIdeal.main_v1) : IVec Cert.KernelIdeal.S200000 32) i).toNat < 10000
    after_results_simp
    exact h0.rng1 i
  · intro i
    show ((StableHlo.after ks7 (W c) (Proc.devRef .tc Cert.KernelIdeal.main_v3) : IVec Cert.KernelIdeal.S200000 32) i).toNat < 10000
    after_results_simp
    exact h0.rng3 i
  · show StableHlo.after ks7 (W c) (Proc.devRef .tc Cert.KernelIdeal.main_v9) = cntOf (StableHlo.after ks7 (W c) (Proc.devRef .tc Cert.KernelIdeal.main_v1))
    after_results_simp; exact h0.cnt

end Cert.Stage

end
-- ==== Proof.St08.lean ====
/-
  Group 8: both programs gather the rows of the second layer's node features (128 columns) at the edges' source nodes and
  at their target nodes. The kernel gathers with a take in fill mode, the reference by plain indexing; the indices being
  in range the two are the same gather. Nothing else moves.
-/
import proofs.«430033_j52948356825731_1_alg».proof.Proof.Rel
import proofs.«430033_j52948356825731_1_alg».proof.Proof.KITakes
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 4000000 in
theorem owes8 : Owes8 := by
  intro W U h c
  have h0 := h c
  have e_p_v126 : W c (Proc.devRef .tc Cert.KernelIdeal.main_v126) = U c (Proc.devRef .tc Cert.ReferenceIdeal.main_v152) := h0.p_v126
  have e_p_v1 : W c (Proc.devRef .tc Cert.KernelIdeal.main_v1) = U c (Proc.devRef .tc Cert.ReferenceIdeal.main_v1) := h0.p_v1
  have e_p_v3 : W c (Proc.devRef .tc Cert.KernelIdeal.main_v3) = U c (Proc.devRef .tc Cert.ReferenceIdeal.main_v3) := h0.p_v3
  exact {
    a0 := by
      show StableHlo.after ks8 (W c) _ = _
      simp only [StableHlo.after_append]; after_results_simp
      exact h0.a0
    a2 := by
      show StableHlo.after ks8 (W c) _ = _
      simp only [StableHlo.after_append]; after_results_simp
      exact h0.a2
    a3 := by
      show StableHlo.after ks8 (W c) _ = _
      simp only [StableHlo.after_append]; after_results_simp
      exact h0.a3
    a8 := by
      show StableHlo.after ks8 (W c) _ = _
      simp only [StableHlo.after_append]; after_results_simp
      exact h0.a8
    a9 := by
      show StableHlo.after ks8 (W c) _ = _
      simp only [StableHlo.after_append]; after_results_simp
      exact h0.a9
    a10 := by
      show StableHlo.after ks8 (W c) _ = _
      simp only [StableHlo.after_append]; after_results_simp
      exact h0.a10
    a11 := by
      show StableHlo.after ks8 (W c) _ = _
      simp only [StableHlo.after_append]; after_results_simp
      exact h0.a11
    a12 := by
      show StableHlo.after ks8 (W c) _ = _
      simp only [StableHlo.after_append]; after_results_simp
      exact h0.a12
    a13 := by
      show StableHlo.after ks8 (W c) _ = _
      simp only [StableHlo.after_append]; after_results_simp
      exact h0.a13
    a14 := by
      show StableHlo.after ks8 (W c) _ = _
      simp only [StableHlo.after_append]; after_results_simp
      exact h0.a14
    a15 := by
      show StableHlo.after ks8 (W c) _ = _
      simp only [StableHlo.after_append]; after_results_simp
      exact h0.a15
    a16 := by
      show StableHlo.after ks8 (W c) _ = _
      simp only [StableHlo.after_append]; after_results_simp
      exact h0.a16
    a17 := by
      show StableHlo.after ks8 (W c) _ = _
      simp only [StableHlo.after_append]; after_results_simp
      exact h0.a17
    p_cst := by
      show StableHlo.after ks8 (W c) _ = _
      simp only [StableHlo.after_append]; after_results_simp
      exact h0.p_cst
    p_v1 := by
      show StableHlo.after ks8 (W c) _ = _
      simp only [StableHlo.after_append]; after_results_simp
      exact h0.p_v1
    p_v120_1 := by
      show StableHlo.after ks8 (W c) _ = _
      simp only [StableHlo.after_append]; after_results_simp
      exact h0.p_v120_1
    p_v126 := by
      show StableHlo.after ks8 (W c) _ = _
      simp only [StableHlo.after_append]; after_results_simp
      exact h0.p_v126
    p_v127 := by
      show StableHlo.after ks8 (W c) _ = _
      simp only [StableHlo.after_append]; after_results_simp
      exact h0.p_v127
    p_v128 := by
      show StableHlo.after (Cert.KernelIdeal.Gen.hostOps1_3 (F := Ideal) ++ Cert.KernelIdeal.Gen.hostOps1_4 (F := Ideal)) (W c) _ = _
      have f : ∀ V : KVal, StableHlo.after (Cert.KernelIdeal.Gen.hostOps1_4 (F := Ideal)) V (Proc.devRef .tc Cert.KernelIdeal.main_v128) = V (Proc.devRef .tc Cert.KernelIdeal.main_v128) :=
        fun V => by after_results_simp
      rw [StableHlo.after_append, f, Cert.KernelIdeal.Hand.take_call5 (W c) h0.rng1]
      after_results_simp
      rw [e_p_v126, e_p_v1]
      rfl
    p_v129 := by
      show StableHlo.after (Cert.KernelIdeal.Gen.hostOps1_3 (F := Ideal) ++ Cert.KernelIdeal.Gen.hostOps1_4 (F := Ideal)) (W c) _ = _
      have g3 : StableHlo.after (Cert.KernelIdeal.Gen.hostOps1_3 (F := Ideal)) (W c) (Proc.devRef .tc Cert.KernelIdeal.main_v3) = W c (Proc.devRef .tc Cert.KernelIdeal.main_v3) := by
        after_results_simp
      have gt : StableHlo.after (Cert.KernelIdeal.Gen.hostOps1_3 (F := Ideal)) (W c) (Proc.devRef .tc Cert.KernelIdeal.main_v126) = W c (Proc.devRef .tc Cert.KernelIdeal.main_v126) := by
        after_results_simp
      rw [StableHlo.after_append, Cert.KernelIdeal.Hand.take_call6 _ (by intro i; rw [g3]; exact h0.rng3 i), g3, gt]
      after_results_simp
      rw [e_p_v126, e_p_v3]
      rfl
    p_v3 := by
      show StableHlo.after ks8 (W c) _ = _
      simp only [StableHlo.after_append]; after_results_simp
      exact h0.p_v3
    rng1 := by
      intro i
      show ((StableHlo.after ks8 (W c) (Proc.devRef .tc Cert.KernelIdeal.main_v1) : IVec Cert.KernelIdeal.S200000 32) i).toNat < 10000
      simp only [StableHlo.after_append]; after_results_simp
      exact h0.rng1 i
    rng3 := by
      intro i
      show ((StableHlo.after ks8 (W c) (Proc.devRef .tc Cert.KernelIdeal.main_v3) : IVec Cert.KernelIdeal.S200000 32) i).toNat < 10000
      simp only [StableHlo.after_append]; after_results_simp
      exact h0.rng3 i
    cnt := by
      show StableHlo.after ks8 (W c) (Proc.devRef .tc Cert.KernelIdeal.main_v9) = cntOf (StableHlo.after ks8 (W c) (Proc.devRef .tc Cert.KernelIdeal.main_v1))
      simp only [StableHlo.after_append]; after_results_simp
      exact h0.cnt }

end Cert.Stage

end
-- ==== Proof.KIVal1.lean ====
/-
  Layer two's two result arrays after its pipelined region, entry by entry, over the extended reals.

  The region sweeps 100 grid points; at point `t` the three feature windows hold rows `2000 t … 2000 t + 1999` of
  their arrays, the weight and bias windows hold their whole arrays, and the body leaves in each result window the
  stored block computed from those five blocks.  By the payload lemmas a stored block at `(p, q)` is the dense map
  of the five blocks at `(p, q)`, and the dense map reads the feature arrays one row at a time, so it is the dense
  map of the five ARRAYS at `(2000 t + p, q)`: what point `t` writes back is block `t` of one function of the arrays.
  The blocks of the 100 points cover the result array (row `r` lies in the block of point `r / 2000`), so after the
  region the array is that function: `Cert.Spec.mlp` for the first result, its positive part for the second.
-/
import proofs.«430033_j52948356825731_1_alg».proof.Proof.KIReg1
import proofs.«430033_j52948356825731_1_alg».proof.Proof.KIPay
import proofs.«430033_j52948356825731_1_alg».proof.Proof.KIRows
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

/-! ## Layer two: a stored block at an entry, from the arrays the blocks are cut from -/

/-- If the three feature blocks' rows `p` are the arrays' rows `i`, and the weight and bias blocks are the whole
    arrays, the first stored block at `(p, q)` is the dense map of the arrays at `(i, q)`. -/
theorem pt1_pay1 (x0 : Vec Ideal S2000x128 .f32) (x1 : Vec Ideal S2000x128 .f32) (x2 : Vec Ideal S2000x132 .f32) (x3 : Vec Ideal S388x128 .bf16) (x4 : Vec Ideal S1x128 .f32)
    (a0 : S200000x128.Idx → EReal) (a1 : S200000x128.Idx → EReal) (a2 : S200000x132.Idx → EReal) (a3 : S388x128.Idx → EReal) (a4 : S1x128.Idx → EReal)
    (p : Fin 2000) (q : Fin 128) (i : Fin 200000)
    (h0 : ∀ k : Fin 128, x0 (ix2 p k) = a0 (ix2 i k))
    (h1 : ∀ k : Fin 128, x1 (ix2 p k) = a1 (ix2 i k))
    (h2 : ∀ k : Fin 132, x2 (ix2 p k) = a2 (ix2 i k))
    (h3 : ∀ k : Fin 388, x3 (ix2 k q) = a3 (ix2 k q)) (h4 : x4 (ix2 0 q) = a4 (ix2 0 q)) :
    k1_pay1 x0 x1 x2 x3 x4 (ix2 p q)
      = Cert.Spec.mlp (by norm_num) a0 a1 a2 a3 (fun o => a4 (ix2 0 o)) i q := by
  rw [k1_pay1_apply]
  exact mlp_of_rows _ x0 x1 x2 a0 a1 a2 x3 a3 _ _ p i q h0 h1 h2 h3 h4

/-- The same with the two indices given whole: the array index has the block index's column. -/
theorem pt1_pay1_idx (x0 : Vec Ideal S2000x128 .f32) (x1 : Vec Ideal S2000x128 .f32) (x2 : Vec Ideal S2000x132 .f32) (x3 : Vec Ideal S388x128 .bf16) (x4 : Vec Ideal S1x128 .f32)
    (a0 : S200000x128.Idx → EReal) (a1 : S200000x128.Idx → EReal) (a2 : S200000x132.Idx → EReal) (a3 : S388x128.Idx → EReal) (a4 : S1x128.Idx → EReal)
    (y : S2000x128.Idx) (i : S200000x128.Idx)
    (h0 : ∀ k : Fin 128, x0 (ix2 (y 0 : Fin 2000) k) = a0 (ix2 (i 0 : Fin 200000) k))
    (h1 : ∀ k : Fin 128, x1 (ix2 (y 0 : Fin 2000) k) = a1 (ix2 (i 0 : Fin 200000) k))
    (h2 : ∀ k : Fin 132, x2 (ix2 (y 0 : Fin 2000) k) = a2 (ix2 (i 0 : Fin 200000) k))
    (h3 : ∀ (k : Fin 388) (o : Fin 128), x3 (ix2 k o) = a3 (ix2 k o)) (h4 : ∀ o : Fin 128, x4 (ix2 0 o) = a4 (ix2 0 o))
    (hi1 : (i 1).val = (y 1).val) :
    k1_pay1 x0 x1 x2 x3 x4 y
      = Cert.Spec.mlp (by norm_num) a0 a1 a2 a3 (fun o => a4 (ix2 0 o)) (i 0 : Fin 200000) (i 1 : Fin 128) := by
  obtain ⟨p, q, rfl⟩ : ∃ (p : Fin 2000) (q : Fin 128), y = ix2 p q := ⟨y 0, y 1, eq_ix2 y⟩
  obtain ⟨ii, io, rfl⟩ : ∃ (ii : Fin 200000) (io : Fin 128), i = ix2 ii io := ⟨i 0, i 1, eq_ix2 i⟩
  obtain rfl : io = q := Fin.ext hi1
  exact pt1_pay1 x0 x1 x2 x3 x4 a0 a1 a2 a3 a4 p io ii h0 h1 h2 (fun k => h3 k io) (h4 io)

/-- The second stored block likewise: the positive part of the dense map of the arrays. -/
theorem pt1_pay2_idx (x0 : Vec Ideal S2000x128 .f32) (x1 : Vec Ideal S2000x128 .f32) (x2 : Vec Ideal S2000x132 .f32) (x3 : Vec Ideal S388x128 .bf16) (x4 : Vec Ideal S1x128 .f32)
    (a0 : S200000x128.Idx → EReal) (a1 : S200000x128.Idx → EReal) (a2 : S200000x132.Idx → EReal) (a3 : S388x128.Idx → EReal) (a4 : S1x128.Idx → EReal)
    (y : S2000x128.Idx) (i : S200000x128.Idx)
    (h0 : ∀ k : Fin 128, x0 (ix2 (y 0 : Fin 2000) k) = a0 (ix2 (i 0 : Fin 200000) k))
    (h1 : ∀ k : Fin 128, x1 (ix2 (y 0 : Fin 2000) k) = a1 (ix2 (i 0 : Fin 200000) k))
    (h2 : ∀ k : Fin 132, x2 (ix2 (y 0 : Fin 2000) k) = a2 (ix2 (i 0 : Fin 200000) k))
    (h3 : ∀ (k : Fin 388) (o : Fin 128), x3 (ix2 k o) = a3 (ix2 k o)) (h4 : ∀ o : Fin 128, x4 (ix2 0 o) = a4 (ix2 0 o))
    (hi1 : (i 1).val = (y 1).val) :
    k1_pay2 x0 x1 x2 x3 x4 y
      = Cert.Spec.mlpPos (by norm_num) a0 a1 a2 a3 (fun o => a4 (ix2 0 o)) (i 0 : Fin 200000) (i 1 : Fin 128) := by
  obtain ⟨p, q, rfl⟩ : ∃ (p : Fin 2000) (q : Fin 128), y = ix2 p q := ⟨y 0, y 1, eq_ix2 y⟩
  obtain ⟨ii, io, rfl⟩ : ∃ (ii : Fin 200000) (io : Fin 128), i = ix2 ii io := ⟨i 0, i 1, eq_ix2 i⟩
  obtain rfl : io = q := Fin.ext hi1
  rw [k1_pay2_apply]
  exact mlpPos_of_rows _ x0 x1 x2 a0 a1 a2 x3 a3 _ _ p ii io h0 h1 h2 (fun k => h3 k io) (h4 io)

section Region1
variable (V : (c : Dev nD) → (b : Ref sig .tc) → Buf (Elt Ideal) ((c : Thread nD τ).loc b))

/-- The printed index maps over the grid: the three feature windows and the two result windows are at block row `t`,
    column block 0; the weight and bias windows stay at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Feature window 0's block at point `t` is rows `2000 t … 2000 t + 1999` of its array. -/
theorem iblk1_0_apply (c : Dev nD) (t : Fin cfg1.N) (y : S2000x128.Idx) (i : S200000x128.Idx)
    (h0 : (i 0).val = 2000 * t.val + (y 0).val) (h1 : (i 1).val = (y 1).val) :
    iblk1 V c 0 t y = V c (Pipeline.arrRef spec1 0) i := by
  obtain ⟨e00, e01, e10, e11, e20, e21, -, -, -, -, -, -, -, -⟩ := idx1 t
  unfold iblk1
  rw [View.read_apply]
  show V c (Pipeline.arrRef spec1 0) _ = V c (Pipeline.arrRef spec1 0) _
  congr 1
  funext a
  apply Fin.ext
  match a with
  | ⟨0, _⟩ =>
    show win1_0.index t (0 : Fin 2) * 2000 + 1 * (y 0).val = (i 0).val
    rw [e00, h0]; omega
  | ⟨1, _⟩ =>
    show win1_0.index t (1 : Fin 2) * 128 + 1 * (y 1).val = (i 1).val
    rw [e01, h1]; omega

/-- Feature window 1's block at point `t` is rows `2000 t … 2000 t + 1999` of its array. -/
theorem iblk1_1_apply (c : Dev nD) (t : Fin cfg1.N) (y : S2000x128.Idx) (i : S200000x128.Idx)
    (h0 : (i 0).val = 2000 * t.val + (y 0).val) (h1 : (i 1).val = (y 1).val) :
    iblk1 V c 1 t y = V c (Pipeline.arrRef spec1 1) i := by
  obtain ⟨e00, e01, e10, e11, e20, e21, -, -, -, -, -, -, -, -⟩ := idx1 t
  unfold iblk1
  rw [View.read_apply]
  show V c (Pipeline.arrRef spec1 1) _ = V c (Pipeline.arrRef spec1 1) _
  congr 1
  funext a
  apply Fin.ext
  match a with
  | ⟨0, _⟩ =>
    show win1_1.index t (0 : Fin 2) * 2000 + 1 * (y 0).val = (i 0).val
    rw [e10, h0]; omega
  | ⟨1, _⟩ =>
    show win1_1.index t (1 : Fin 2) * 128 + 1 * (y 1).val = (i 1).val
    rw [e11, h1]; omega

/-- Feature window 2's block at point `t` is rows `2000 t … 2000 t + 1999` of its array. -/
theorem iblk1_2_apply (c : Dev nD) (t : Fin cfg1.N) (y : S2000x132.Idx) (i : S200000x132.Idx)
    (h0 : (i 0).val = 2000 * t.val + (y 0).val) (h1 : (i 1).val = (y 1).val) :
    iblk1 V c 2 t y = V c (Pipeline.arrRef spec1 2) i := by
  obtain ⟨e00, e01, e10, e11, e20, e21, -, -, -, -, -, -, -, -⟩ := idx1 t
  unfold iblk1
  rw [View.read_apply]
  show V c (Pipeline.arrRef spec1 2) _ = V c (Pipeline.arrRef spec1 2) _
  congr 1
  funext a
  apply Fin.ext
  match a with
  | ⟨0, _⟩ =>
    show win1_2.index t (0 : Fin 2) * 2000 + 1 * (y 0).val = (i 0).val
    rw [e20, h0]; omega
  | ⟨1, _⟩ =>
    show win1_2.index t (1 : Fin 2) * 132 + 1 * (y 1).val = (i 1).val
    rw [e21, h1]; omega

/-- Window 3's block at every point is its whole array. -/
theorem iblk1_3_apply (c : Dev nD) (t : Fin cfg1.N) (y : S388x128.Idx) :
    iblk1 V c 3 t y = V c (Pipeline.arrRef spec1 3) y := by
  obtain ⟨-, -, -, -, -, -, e30, e31, e40, e41, -, -, -, -⟩ := idx1 t
  unfold iblk1
  rw [View.read_apply]
  show V c (Pipeline.arrRef spec1 3) _ = V c (Pipeline.arrRef spec1 3) _
  congr 1
  funext a
  apply Fin.ext
  match a with
  | ⟨0, _⟩ =>
    show win1_3.index t (0 : Fin 2) * 388 + 1 * (y 0).val = (y 0).val
    rw [e30]; omega
  | ⟨1, _⟩ =>
    show win1_3.index t (1 : Fin 2) * 128 + 1 * (y 1).val = (y 1).val
    rw [e31]; omega

/-- Window 4's block at every point is its whole array. -/
theorem iblk1_4_apply (c : Dev nD) (t : Fin cfg1.N) (y : S1x128.Idx) :
    iblk1 V c 4 t y = V c (Pipeline.arrRef spec1 4) y := by
  obtain ⟨-, -, -, -, -, -, e30, e31, e40, e41, -, -, -, -⟩ := idx1 t
  unfold iblk1
  rw [View.read_apply]
  show V c (Pipeline.arrRef spec1 4) _ = V c (Pipeline.arrRef spec1 4) _
  congr 1
  funext a
  apply Fin.ext
  match a with
  | ⟨0, _⟩ =>
    show win1_4.index t (0 : Fin 2) * 1 + 1 * (y 0).val = (y 0).val
    rw [e40]; omega
  | ⟨1, _⟩ =>
    show win1_4.index t (1 : Fin 2) * 128 + 1 * (y 1).val = (y 1).val
    rw [e41]; omega

/-- What the first result's array holds after the region, as one function of the five input arrays. -/
def G1_5 (c : Dev nD) : S200000x128.Idx → EReal := fun i =>
  Cert.Spec.mlp (n := 200000) (d1 := 128) (d2 := 128) (d3 := 132) (K := 388) (m := 128) (by norm_num)
    (V c (Pipeline.arrRef spec1 0)) (V c (Pipeline.arrRef spec1 1)) (V c (Pipeline.arrRef spec1 2))
    (V c (Pipeline.arrRef spec1 3)) (fun o => V c (Pipeline.arrRef spec1 4) (ix2 0 o)) (i 0) (i 1)

/-- What grid point `t` writes back to the first result's array is block `t` of that function. -/
theorem flushed1_5_eq (c : Dev nD) (t : Fin cfg1.N) :
    (dat1 V c).flushed 5 t = ((cfg1.win 5).blk t).view.read (Elt Ideal) (G1_5 V c) := by
  show (cfg1.win 5).cut (grid1.coords t) ((dat1 V c).after 5 t) = _
  rw [after1_5]
  unfold out1_5
  rw [View.canon_unit_zero zero2]
  simp only [View.ld_unit_zero (S := S2000x128) zero2, View.ld_unit_zero (S := S2000x132) zero2, View.ld_unit_zero (S := S388x128) zero2, View.ld_unit_zero (S := S1x128) zero2]
  obtain ⟨-, -, -, -, -, -, -, -, -, -, e50, e51, e60, e61⟩ := idx1 t
  funext j
  have hj0 : (j 0).val < 2000 := (j 0).isLt
  have hI0 : ((((cfg1.win 5).blk t).view.emb j) 0).val = 2000 * t.val + (j 0).val := by
    show win1_5.index t (0 : Fin 2) * 2000 + 1 * (j 0).val = _
    rw [e50]; omega
  have hI1 : ((((cfg1.win 5).blk t).view.emb j) 1).val = (j 1).val := by
    show win1_5.index t (1 : Fin 2) * 128 + 1 * (j 1).val = _
    rw [e51]; omega
  show k1_pay1 (iblk1 V c 0 t) (iblk1 V c 1 t) (iblk1 V c 2 t) (iblk1 V c 3 t) (iblk1 V c 4 t) j
    = G1_5 V c (((cfg1.win 5).blk t).view.emb j)
  exact pt1_pay1_idx (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) j (((cfg1.win 5).blk t).view.emb j)
    (fun k => iblk1_0_apply V c t _ _ hI0 rfl) (fun k => iblk1_1_apply V c t _ _ hI0 rfl)
    (fun k => iblk1_2_apply V c t _ _ hI0 rfl) (fun k o => iblk1_3_apply V c t _) (fun o => iblk1_4_apply V c t _) hI1

/-- An index of the array is in point `t`'s block of window 5 iff each coordinate is in the block's range. -/
theorem mem_blk1_5 (t : Fin cfg1.N) (i : S200000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v132_0).slice (win1_5.rect t)).set ↔ _
  rw [View.set_slice_whole, Rect.mem_set_unit]
  exact Iff.rfl

/-- Every row of the array lies in the block of the point `row / 2000`. -/
theorem cover1_5 (i : S200000x128.Idx) :
    ∃ t : Fin cfg1.N, (cfg1.win 5).flush t = true ∧ i ∈ ((cfg1.win 5).blk t).view.set := by
  have hi0 : (i 0).val < 200000 := (i 0).isLt
  have hi1 : (i 1).val < 128 := (i 1).isLt
  have hN : cfg1.N = 100 := N_1
  have ht : (i 0).val / 2000 < cfg1.N := by rw [hN]; omega
  obtain ⟨-, -, -, -, -, -, -, -, -, -, e50, e51, e60, e61⟩ := idx1 ⟨(i 0).val / 2000, ht⟩
  refine ⟨⟨(i 0).val / 2000, ht⟩, flush1_5 _, ?_⟩
  rw [mem_blk1_5]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e51]
    omega

/-- The first result's array after the region. -/
theorem final1_5 (c : Dev nD) : (dat1 V c).arrAt 5 cfg1.N = G1_5 V c :=
  (dat1 V c).arrAt_eq_of_cover 5 (G1_5 V c) (fun t _ => flushed1_5_eq V c t) cover1_5

/-- Entry `(i, o)` of the first result's array after the region is the dense map of the five input arrays. -/
theorem val1_5 (c : Dev nD) (i : Fin 200000) (o : Fin 128) :
    (dat1 (F := Ideal) V c).arrAt 5 cfg1.N (ix2 i o)
      = Cert.Spec.mlp (n := 200000) (d1 := 128) (d2 := 128) (d3 := 132) (K := 388) (m := 128) (by norm_num)
          (V c (Pipeline.arrRef spec1 0)) (V c (Pipeline.arrRef spec1 1)) (V c (Pipeline.arrRef spec1 2))
          (V c (Pipeline.arrRef spec1 3)) (fun o => V c (Pipeline.arrRef spec1 4) (ix2 0 o)) i o := by
  rw [final1_5]
  rfl

/-- What the second result's array holds after the region: the positive part, entry by entry. -/
def G1_6 (c : Dev nD) : S200000x128.Idx → EReal := fun i =>
  Cert.Spec.mlpPos (n := 200000) (d1 := 128) (d2 := 128) (d3 := 132) (K := 388) (m := 128) (by norm_num)
    (V c (Pipeline.arrRef spec1 0)) (V c (Pipeline.arrRef spec1 1)) (V c (Pipeline.arrRef spec1 2))
    (V c (Pipeline.arrRef spec1 3)) (fun o => V c (Pipeline.arrRef spec1 4) (ix2 0 o)) (i 0) (i 1)

/-- What grid point `t` writes back to the second result's array is block `t` of that function. -/
theorem flushed1_6_eq (c : Dev nD) (t : Fin cfg1.N) :
    (dat1 V c).flushed 6 t = ((cfg1.win 6).blk t).view.read (Elt Ideal) (G1_6 V c) := by
  show (cfg1.win 6).cut (grid1.coords t) ((dat1 V c).after 6 t) = _
  rw [after1_6]
  unfold out1_6
  rw [View.canon_unit_zero zero2]
  simp only [View.ld_unit_zero (S := S2000x128) zero2, View.ld_unit_zero (S := S2000x132) zero2, View.ld_unit_zero (S := S388x128) zero2, View.ld_unit_zero (S := S1x128) zero2]
  obtain ⟨-, -, -, -, -, -, -, -, -, -, e50, e51, e60, e61⟩ := idx1 t
  funext j
  have hj0 : (j 0).val < 2000 := (j 0).isLt
  have hI0 : ((((cfg1.win 6).blk t).view.emb j) 0).val = 2000 * t.val + (j 0).val := by
    show win1_6.index t (0 : Fin 2) * 2000 + 1 * (j 0).val = _
    rw [e60]; omega
  have hI1 : ((((cfg1.win 6).blk t).view.emb j) 1).val = (j 1).val := by
    show win1_6.index t (1 : Fin 2) * 128 + 1 * (j 1).val = _
    rw [e61]; omega
  show k1_pay2 (iblk1 V c 0 t) (iblk1 V c 1 t) (iblk1 V c 2 t) (iblk1 V c 3 t) (iblk1 V c 4 t) j
    = G1_6 V c (((cfg1.win 6).blk t).view.emb j)
  exact pt1_pay2_idx (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) j (((cfg1.win 6).blk t).view.emb j)
    (fun k => iblk1_0_apply V c t _ _ hI0 rfl) (fun k => iblk1_1_apply V c t _ _ hI0 rfl)
    (fun k => iblk1_2_apply V c t _ _ hI0 rfl) (fun k o => iblk1_3_apply V c t _) (fun o => iblk1_4_apply V c t _) hI1

/-- An index of the array is in point `t`'s block of window 6 iff each coordinate is in the block's range. -/
theorem mem_blk1_6 (t : Fin cfg1.N) (i : S200000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v132_1).slice (win1_6.rect t)).set ↔ _
  rw [View.set_slice_whole, Rect.mem_set_unit]
  exact Iff.rfl

/-- Every row of the array lies in the block of the point `row / 2000`. -/
theorem cover1_6 (i : S200000x128.Idx) :
    ∃ t : Fin cfg1.N, (cfg1.win 6).flush t = true ∧ i ∈ ((cfg1.win 6).blk t).view.set := by
  have hi0 : (i 0).val < 200000 := (i 0).isLt
  have hi1 : (i 1).val < 128 := (i 1).isLt
  have hN : cfg1.N = 100 := N_1
  have ht : (i 0).val / 2000 < cfg1.N := by rw [hN]; omega
  obtain ⟨-, -, -, -, -, -, -, -, -, -, e50, e51, e60, e61⟩ := idx1 ⟨(i 0).val / 2000, ht⟩
  refine ⟨⟨(i 0).val / 2000, ht⟩, flush1_6 _, ?_⟩
  rw [mem_blk1_6]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e61]
    omega

/-- The second result's array after the region. -/
theorem final1_6 (c : Dev nD) : (dat1 V c).arrAt 6 cfg1.N = G1_6 V c :=
  (dat1 V c).arrAt_eq_of_cover 6 (G1_6 V c) (fun t _ => flushed1_6_eq V c t) cover1_6

/-- Entry `(i, o)` of the second result's array after the region is the positive part of the dense map. -/
theorem val1_6 (c : Dev nD) (i : Fin 200000) (o : Fin 128) :
    (dat1 (F := Ideal) V c).arrAt 6 cfg1.N (ix2 i o)
      = Cert.Spec.mlpPos (n := 200000) (d1 := 128) (d2 := 128) (d3 := 132) (K := 388) (m := 128) (by norm_num)
          (V c (Pipeline.arrRef spec1 0)) (V c (Pipeline.arrRef spec1 1)) (V c (Pipeline.arrRef spec1 2))
          (V c (Pipeline.arrRef spec1 3)) (fun o => V c (Pipeline.arrRef spec1 4) (ix2 0 o)) i o := by
  rw [final1_6]
  rfl

end Region1

end Cert.KernelIdeal.Hand

end
-- ==== Proof.St09.lean ====
/-
  Group 9: the second layer's dense map.  The kernel converts the weights' format and reshapes the bias to one row (over
  the extended reals both leave every entry as it was), then runs its pipelined region: after it the first result array
  holds, at every edge and output column, the dense map of the five arrays the region read, and the second result array
  its positive part.  The reference's five operations, read at an entry, are the same dense map of its five arrays.  The
  three feature arrays agree on the two sides by the entry relation, the converted weights read the weights and the
  reshaped bias reads the bias, so the two dense maps are one number.  No other live buffer is an array of the region or
  a result of the group's operations, so each is carried.
-/
import proofs.«430033_j52948356825731_1_alg».proof.Proof.RelReg
import proofs.«430033_j52948356825731_1_alg».proof.Proof.KIVal1
import proofs.«430033_j52948356825731_1_alg».proof.Proof.RMlp

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

section Step
variable (W : Dev Cert.KernelIdeal.nD → KVal) (c : Dev Cert.KernelIdeal.nD)

/-- A buffer that is none of the region's arrays is left as the group's host operations left it. -/
theorem kstep9_of_ne (b : Ref Cert.KernelIdeal.sig .tc) (hb : ∀ w, Pipeline.arrRef Cert.KernelIdeal.spec1 w ≠ b) :
    kstep9 W c (Proc.devRef .tc b) = StableHlo.after ks9 (W c) (Proc.devRef .tc b) := by
  unfold kstep9; exact Pipeline.withArrays_of_ne Cert.KernelIdeal.spec1 c _ _ b hb

/-- A window's array is left at the fold of the region's write-backs. -/
theorem kstep9_arr (w : Fin Cert.KernelIdeal.cfg1.W) :
    kstep9 W c (Proc.devRef .tc (Pipeline.arrRef Cert.KernelIdeal.spec1 w))
      = (Cert.KernelIdeal.Hand.dat1 (F := Ideal) (fun c b => StableHlo.after ks9 (W c) b) c).arrAt w Cert.KernelIdeal.cfg1.N := by
  unfold kstep9; exact Pipeline.withArrays_arr Cert.KernelIdeal.spec1 Cert.KernelIdeal.Gen.launch1.win.arr_inj c _ _ w

end Step

/-- The five arrays the region reads against the five the reference's layer reads: the features by the entry relation,
    the converted weights entry by entry, the reshaped bias at its one row. -/
theorem inputs9 {Vk : KVal} {Vr : RVal} (h0 : Rel8 Vk Vr) :
    (StableHlo.after ks9 Vk (Proc.devRef .tc Cert.KernelIdeal.main_v128) : FVec Ideal Cert.KernelIdeal.S200000x128 .f32) = (Vr (Proc.devRef .tc Cert.ReferenceIdeal.main_v161) : FVec Ideal Cert.ReferenceIdeal.S200000x128 .f32)
    ∧ (StableHlo.after ks9 Vk (Proc.devRef .tc Cert.KernelIdeal.main_v129) : FVec Ideal Cert.KernelIdeal.S200000x128 .f32) = (Vr (Proc.devRef .tc Cert.ReferenceIdeal.main_v168) : FVec Ideal Cert.ReferenceIdeal.S200000x128 .f32)
    ∧ (StableHlo.after ks9 Vk (Proc.devRef .tc Cert.KernelIdeal.main_v127) : FVec Ideal Cert.KernelIdeal.S200000x132 .f32) = (Vr (Proc.devRef .tc Cert.ReferenceIdeal.main_v154) : FVec Ideal Cert.ReferenceIdeal.S200000x132 .f32)
    ∧ (∀ idx, (StableHlo.after ks9 Vk (Proc.devRef .tc Cert.KernelIdeal.main_v130) : FVec Ideal Cert.KernelIdeal.S388x128 .bf16) idx = (Vr (Proc.devRef .tc Cert.ReferenceIdeal.main_arg8) : FVec Ideal Cert.ReferenceIdeal.S388x128 .f32) idx)
    ∧ (∀ o : Fin 128, (StableHlo.after ks9 Vk (Proc.devRef .tc Cert.KernelIdeal.main_v131) : FVec Ideal Cert.KernelIdeal.S1x128 .f32) (ix2 (0 : Fin 1) o) = (Vr (Proc.devRef .tc Cert.ReferenceIdeal.main_arg9) : FVec Ideal Cert.ReferenceIdeal.S128 .f32) (ix1 o)) := by
  refine ⟨?_, ?_, ?_, ?_, ?_⟩
  · after_results_simp; exact h0.p_v128
  · after_results_simp; exact h0.p_v129
  · after_results_simp; exact h0.p_v127
  · intro idx; after_results_simp; have ea : _ = _ := h0.a8; rw [← ea]; rfl
  · intro o; after_results_simp; have ea : _ = _ := h0.a9; rw [← ea]
    refine shapeCast_apply (s := Cert.KernelIdeal.S128) (t := Cert.KernelIdeal.S1x128) _ _ (ix2 (0 : Fin 1) o) (ix1 o) ?_
    rw [Shape.rowMajor_val_one, Shape.rowMajor_val_two]
    show o.val = (0 : Fin 1).val * 128 + o.val
    simp

/-- The first result array after the region, at an entry, is the reference's layer at that entry. -/
theorem dense9 (W : Dev Cert.KernelIdeal.nD → KVal) (U : Dev Cert.KernelIdeal.nD → RVal) (c : Dev Cert.KernelIdeal.nD) (h0 : Rel8 (W c) (U c))
    (i : Fin 200000) (o : Fin 128) :
    (kstep9 W c (Proc.devRef .tc Cert.KernelIdeal.main_v132_0) : FVec Ideal Cert.KernelIdeal.S200000x128 .f32) (ix2 i o)
      = (StableHlo.after (Cert.ReferenceIdeal.Hand.rs9 (F := Ideal)) (U c) (Proc.devRef .tc Cert.ReferenceIdeal.main_v173) : FVec Ideal Cert.ReferenceIdeal.S200000x128 .f32) (ix2 i o) := by
  obtain ⟨e0, e1, e2, e3, e4⟩ := inputs9 h0
  refine (congrFun (kstep9_arr W c 5) (ix2 i o)).trans ?_
  refine (Cert.KernelIdeal.Hand.val1_5 _ c i o).trans ?_
  refine Eq.trans ?_ (Cert.ReferenceIdeal.Hand.rs9_apply (U c) i o).symm
  exact Cert.KernelIdeal.Hand.mlp_of_rows _ _ _ _ _ _ _ _ _ _ _ i i o
    (fun j => congrFun e0 _) (fun j => congrFun e1 _) (fun j => congrFun e2 _) (fun k => e3 _) (e4 o)

/-- The second result array after the region is the positive part of the first, entry by entry. -/
theorem pos9 (W : Dev Cert.KernelIdeal.nD → KVal) (c : Dev Cert.KernelIdeal.nD) : Pos_v132_1 (kstep9 W c) := by
  intro j
  obtain ⟨i, o, rfl⟩ : ∃ (i : Fin 200000) (o : Fin 128), j = ix2 i o := ⟨j 0, j 1, eq_ix2 j⟩
  refine (congrFun (kstep9_arr W c 6) (ix2 i o)).trans ?_
  refine (Cert.KernelIdeal.Hand.val1_6 _ c i o).trans ?_
  refine Eq.symm ?_
  refine (congrArg (fun x : EReal => max x 0)
    ((congrFun (kstep9_arr W c 5) (ix2 i o)).trans (Cert.KernelIdeal.Hand.val1_5 _ c i o))).trans ?_
  rfl

theorem owes9 : Owes9 := by
  intro W U h c
  have h0 := h c
  refine ⟨?_, ?_, ?_, ?_, ?_, ?_, ?_, ?_, ?_, ?_, ?_, ?_, ?_, ?_, ?_, ?_, ?_, ?_, ?_, ?_, ?_⟩
  · refine (kstep9_of_ne W c Cert.KernelIdeal.main_arg0 (by decide)).trans ?_; after_results_simp; exact h0.a0
  · refine (kstep9_of_ne W c Cert.KernelIdeal.main_arg2 (by decide)).trans ?_; after_results_simp; exact h0.a2
  · refine (kstep9_of_ne W c Cert.KernelIdeal.main_arg3 (by decide)).trans ?_; after_results_simp; exact h0.a3
  · refine (kstep9_of_ne W c Cert.KernelIdeal.main_arg10 (by decide)).trans ?_; after_results_simp; exact h0.a10
  · refine (kstep9_of_ne W c Cert.KernelIdeal.main_arg11 (by decide)).trans ?_; after_results_simp; exact h0.a11
  · refine (kstep9_of_ne W c Cert.KernelIdeal.main_arg12 (by decide)).trans ?_; after_results_simp; exact h0.a12
  · refine (kstep9_of_ne W c Cert.KernelIdeal.main_arg13 (by decide)).trans ?_; after_results_simp; exact h0.a13
  · refine (kstep9_of_ne W c Cert.KernelIdeal.main_arg14 (by decide)).trans ?_; after_results_simp; exact h0.a14
  · refine (kstep9_of_ne W c Cert.KernelIdeal.main_arg15 (by decide)).trans ?_; after_results_simp; exact h0.a15
  · refine (kstep9_of_ne W c Cert.KernelIdeal.main_arg16 (by decide)).trans ?_; after_results_simp; exact h0.a16
  · refine (kstep9_of_ne W c Cert.KernelIdeal.main_arg17 (by decide)).trans ?_; after_results_simp; exact h0.a17
  · refine (kstep9_of_ne W c Cert.KernelIdeal.main_cst (by decide)).trans ?_; after_results_simp; exact h0.p_cst
  · refine (kstep9_of_ne W c Cert.KernelIdeal.main_v1 (by decide)).trans ?_; after_results_simp; exact h0.p_v1
  · refine (kstep9_of_ne W c Cert.KernelIdeal.main_v120_1 (by decide)).trans ?_; after_results_simp; exact h0.p_v120_1
  · refine (kstep9_of_ne W c Cert.KernelIdeal.main_v126 (by decide)).trans ?_; after_results_simp; exact h0.p_v126
  · -- the dense map, entry by entry
    show (kstep9 W c (Proc.devRef .tc Cert.KernelIdeal.main_v132_0) : FVec Ideal Cert.KernelIdeal.S200000x128 .f32) = _
    funext j
    obtain ⟨i, o, rfl⟩ : ∃ (i : Fin 200000) (o : Fin 128), j = ix2 i o := ⟨j 0, j 1, eq_ix2 j⟩
    exact dense9 W U c h0 i o
  · refine (kstep9_of_ne W c Cert.KernelIdeal.main_v3 (by decide)).trans ?_; after_results_simp; exact h0.p_v3
  · intro i
    show ((kstep9 W c (Proc.devRef .tc Cert.KernelIdeal.main_v1) : IVec Cert.KernelIdeal.S200000 32) i).toNat < 10000
    rw [kstep9_of_ne W c Cert.KernelIdeal.main_v1 (by decide)]
    after_results_simp
    exact h0.rng1 i
  · intro i
    show ((kstep9 W c (Proc.devRef .tc Cert.KernelIdeal.main_v3) : IVec Cert.KernelIdeal.S200000 32) i).toNat < 10000
    rw [kstep9_of_ne W c Cert.KernelIdeal.main_v3 (by decide)]
    after_results_simp
    exact h0.rng3 i
  · show kstep9 W c (Proc.devRef .tc Cert.KernelIdeal.main_v9) = cntOf (kstep9 W c (Proc.devRef .tc Cert.KernelIdeal.main_v1))
    rw [kstep9_of_ne W c Cert.KernelIdeal.main_v9 (by decide), kstep9_of_ne W c Cert.KernelIdeal.main_v1 (by decide)]
    after_results_simp; exact h0.cnt
  · exact pos9 W c

end Cert.Stage

end
-- ==== Proof.St10.lean ====
/-
  Group 10: the second layer's node features.  Both programs add, for every node, the messages of the edges that leave it
  (a segment sum over the source index), divide by the number of such edges floored at one, and keep the positive part.
  The kernel reads the count it computed once from the source row; the reference recomputes it here by the same six
  operations, so the two quotients agree entry by entry.  Every other live buffer is untouched.
-/
import proofs.«430033_j52948356825731_1_alg».proof.Proof.Rel
import proofs.«430033_j52948356825731_1_alg».proof.Proof.KITakes
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 1000000 in
theorem owes10 : Owes10 := by
  intro W U h c
  have h0 := h c
  have e_cnt : W c (Proc.devRef .tc Cert.KernelIdeal.main_v9) = cntOf (W c (Proc.devRef .tc Cert.KernelIdeal.main_v1)) := h0.cnt
  have e_p_v1 : W c (Proc.devRef .tc Cert.KernelIdeal.main_v1) = U c (Proc.devRef .tc Cert.ReferenceIdeal.main_v1) := h0.p_v1
  have e_p_v132_0 : W c (Proc.devRef .tc Cert.KernelIdeal.main_v132_0) = U c (Proc.devRef .tc Cert.ReferenceIdeal.main_v173) := h0.p_v132_0
  refine ⟨?_, ?_, ?_, ?_, ?_, ?_, ?_, ?_, ?_, ?_, ?_, ?_, ?_, ?_, ?_, ?_, ?_, ?_, ?_, ?_, ?_, ?_⟩
  · show StableHlo.after ks10 (W c) _ = _; simp only [StableHlo.after_append]; after_results_simp; exact h0.a0
  · show StableHlo.after ks10 (W c) _ = _; simp only [StableHlo.after_append]; after_results_simp; exact h0.a2
  · show StableHlo.after ks10 (W c) _ = _; simp only [StableHlo.after_append]; after_results_simp; exact h0.a3
  · show StableHlo.after ks10 (W c) _ = _; simp only [StableHlo.after_append]; after_results_simp; exact h0.a10
  · show StableHlo.after ks10 (W c) _ = _; simp only [StableHlo.after_append]; after_results_simp; exact h0.a11
  · show StableHlo.after ks10 (W c) _ = _; simp only [StableHlo.after_append]; after_results_simp; exact h0.a12
  · show StableHlo.after ks10 (W c) _ = _; simp only [StableHlo.after_append]; after_results_simp; exact h0.a13
  · show StableHlo.after ks10 (W c) _ = _; simp only [StableHlo.after_append]; after_results_simp; exact h0.a14
  · show StableHlo.after ks10 (W c) _ = _; simp only [StableHlo.after_append]; after_results_simp; exact h0.a15
  · show StableHlo.after ks10 (W c) _ = _; simp only [StableHlo.after_append]; after_results_simp; exact h0.a16
  · show StableHlo.after ks10 (W c) _ = _; simp only [StableHlo.after_append]; after_results_simp; exact h0.a17
  · show StableHlo.after ks10 (W c) _ = _; simp only [StableHlo.after_append]; after_results_simp; exact h0.p_cst
  · show StableHlo.after ks10 (W c) _ = _; simp only [StableHlo.after_append]; after_results_simp; exact h0.p_v1
  · show StableHlo.after ks10 (W c) _ = _; simp only [StableHlo.after_append]; after_results_simp; exact h0.p_v120_1
  · show StableHlo.after ks10 (W c) _ = _; simp only [StableHlo.after_append]; after_results_simp; exact h0.p_v126
  · show StableHlo.after ks10 (W c) _ = _; simp only [StableHlo.after_append]; after_results_simp; exact h0.p_v132_0
  · -- the mean message per node, positive part: the count read on one side is the count recomputed on the other
    show StableHlo.after ks10 (W c) _ = _
    simp only [StableHlo.after_append]
    after_results_simp
    simp only [Cert.KernelIdeal.Hand.tref_ofBuf_toBuf]
    rw [e_cnt, e_p_v1, e_p_v132_0]
    rfl
  · show StableHlo.after ks10 (W c) _ = _; simp only [StableHlo.after_append]; after_results_simp; exact h0.p_v3
  · intro i
    show ((StableHlo.after ks10 (W c) (Proc.devRef .tc Cert.KernelIdeal.main_v1) : IVec Cert.KernelIdeal.S200000 32) i).toNat < 10000
    simp only [StableHlo.after_append]; after_results_simp
    exact h0.rng1 i
  · intro i
    show ((StableHlo.after ks10 (W c) (Proc.devRef .tc Cert.KernelIdeal.main_v3) : IVec Cert.KernelIdeal.S200000 32) i).toNat < 10000
    simp only [StableHlo.after_append]; after_results_simp
    exact h0.rng3 i
  · show StableHlo.after ks10 (W c) (Proc.devRef .tc Cert.KernelIdeal.main_v9) = cntOf (StableHlo.after ks10 (W c) (Proc.devRef .tc Cert.KernelIdeal.main_v1))
    simp only [StableHlo.after_append]; after_results_simp; exact h0.cnt
  · show Pos_v132_1 (StableHlo.after ks10 (W c))
    intro j
    simp only [StableHlo.after_append]; after_results_simp
    exact h0.pos_v132_1 j

end Cert.Stage

end
-- ==== Proof.St11.lean ====
/-
  Group 11: the reference takes the positive part of the second layer's dense map.  The kernel formed that positive
  part inside its region as the layer's second output, carried so far as a fact beside the pair of dense maps; so the
  second output and the reference's new array agree entry by entry, both the maximum of the same number and zero.
  The kernel runs no operation here and every other live buffer is untouched.
-/
import proofs.«430033_j52948356825731_1_alg».proof.Proof.Rel
import proofs.«430033_j52948356825731_1_alg».proof.Proof.RMlp

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

theorem owes11 : Owes11 := by
  intro W U h c
  have h0 := h c
  have em : _ = _ := h0.p_v132_0
  refine ⟨?_, ?_, ?_, ?_, ?_, ?_, ?_, ?_, ?_, ?_, ?_, ?_, ?_, ?_, ?_, ?_, ?_, ?_, ?_, ?_, ?_⟩
  · show StableHlo.after ks11 (W c) _ = _; after_results_simp; exact h0.a0
  · show StableHlo.after ks11 (W c) _ = _; after_results_simp; exact h0.a2
  · show StableHlo.after ks11 (W c) _ = _; after_results_simp; exact h0.a3
  · show StableHlo.after ks11 (W c) _ = _; after_results_simp; exact h0.a10
  · show StableHlo.after ks11 (W c) _ = _; after_results_simp; exact h0.a11
  · show StableHlo.after ks11 (W c) _ = _; after_results_simp; exact h0.a12
  · show StableHlo.after ks11 (W c) _ = _; after_results_simp; exact h0.a13
  · show StableHlo.after ks11 (W c) _ = _; after_results_simp; exact h0.a14
  · show StableHlo.after ks11 (W c) _ = _; after_results_simp; exact h0.a15
  · show StableHlo.after ks11 (W c) _ = _; after_results_simp; exact h0.a16
  · show StableHlo.after ks11 (W c) _ = _; after_results_simp; exact h0.a17
  · show StableHlo.after ks11 (W c) _ = _; after_results_simp; exact h0.p_cst
  · show StableHlo.after ks11 (W c) _ = _; after_results_simp; exact h0.p_v1
  · show StableHlo.after ks11 (W c) _ = _; after_results_simp; exact h0.p_v120_1
  · show StableHlo.after ks11 (W c) _ = _; after_results_simp; exact h0.p_v126
  · -- the positive part: the kernel's second output against the reference's maximum with zero
    show (StableHlo.after ks11 (W c) (Proc.devRef .tc Cert.KernelIdeal.main_v132_1) : FVec Ideal Cert.KernelIdeal.S200000x128 .f32) = _
    funext j
    refine Eq.trans ?_ (Cert.ReferenceIdeal.Hand.rs11_apply (U c) j).symm
    after_results_simp
    refine (h0.pos_v132_1 j).trans ?_
    rw [em]
  · show StableHlo.after ks11 (W c) _ = _; after_results_simp; exact h0.p_v138
  · show StableHlo.after ks11 (W c) _ = _; after_results_simp; exact h0.p_v3
  · intro i
    show ((StableHlo.after ks11 (W c) (Proc.devRef .tc Cert.KernelIdeal.main_v1) : IVec Cert.KernelIdeal.S200000 32) i).toNat < 10000
    after_results_simp
    exact h0.rng1 i
  · intro i
    show ((StableHlo.after ks11 (W c) (Proc.devRef .tc Cert.KernelIdeal.main_v3) : IVec Cert.KernelIdeal.S200000 32) i).toNat < 10000
    after_results_simp
    exact h0.rng3 i
  · show StableHlo.after ks11 (W c) (Proc.devRef .tc Cert.KernelIdeal.main_v9) = cntOf (StableHlo.after ks11 (W c) (Proc.devRef .tc Cert.KernelIdeal.main_v1))
    after_results_simp; exact h0.cnt

end Cert.Stage

end
-- ==== Proof.St12.lean ====
/-
  Group 12: both programs lay the second layer's node features beside the first layer's (256 columns per node), and the
  second layer's edge features beside the first layer's (256 columns per edge).  The operands are equal on entry, so the
  rows are equal; every other live buffer is untouched.
-/
import proofs.«430033_j52948356825731_1_alg».proof.Proof.Rel

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

theorem owes12 : Owes12 := by
  intro W U h c
  have h0 := h c
  have e_p_v138 : W c (Proc.devRef .tc Cert.KernelIdeal.main_v138) = U c (Proc.devRef .tc Cert.ReferenceIdeal.main_v185) := h0.p_v138
  have e_p_v126 : W c (Proc.devRef .tc Cert.KernelIdeal.main_v126) = U c (Proc.devRef .tc Cert.ReferenceIdeal.main_v152) := h0.p_v126
  have e_p_v132_1 : W c (Proc.devRef .tc Cert.KernelIdeal.main_v132_1) = U c (Proc.devRef .tc Cert.ReferenceIdeal.main_v186) := h0.p_v132_1
  have e_p_v120_1 : W c (Proc.devRef .tc Cert.KernelIdeal.main_v120_1) = U c (Proc.devRef .tc Cert.ReferenceIdeal.main_v153) := h0.p_v120_1
  refine ⟨?_, ?_, ?_, ?_, ?_, ?_, ?_, ?_, ?_, ?_, ?_, ?_, ?_, ?_, ?_, ?_, ?_, ?_, ?_, ?_, ?_, ?_, ?_⟩
  · show StableHlo.after ks12 (W c) _ = _; after_results_simp; exact h0.a0
  · show StableHlo.after ks12 (W c) _ = _; after_results_simp; exact h0.a2
  · show StableHlo.after ks12 (W c) _ = _; after_results_simp; exact h0.a3
  · show StableHlo.after ks12 (W c) _ = _; after_results_simp; exact h0.a10
  · show StableHlo.after ks12 (W c) _ = _; after_results_simp; exact h0.a11
  · show StableHlo.after ks12 (W c) _ = _; after_results_simp; exact h0.a12
  · show StableHlo.after ks12 (W c) _ = _; after_results_simp; exact h0.a13
  · show StableHlo.after ks12 (W c) _ = _; after_results_simp; exact h0.a14
  · show StableHlo.after ks12 (W c) _ = _; after_results_simp; exact h0.a15
  · show StableHlo.after ks12 (W c) _ = _; after_results_simp; exact h0.a16
  · show StableHlo.after ks12 (W c) _ = _; after_results_simp; exact h0.a17
  · show StableHlo.after ks12 (W c) _ = _; after_results_simp; exact h0.p_cst
  · show StableHlo.after ks12 (W c) _ = _; after_results_simp; exact h0.p_v1
  · show StableHlo.after ks12 (W c) _ = _; after_results_simp; exact h0.p_v120_1
  · show StableHlo.after ks12 (W c) _ = _; after_results_simp; exact h0.p_v126
  · show StableHlo.after ks12 (W c) _ = _; after_results_simp; exact h0.p_v132_1
  · show StableHlo.after ks12 (W c) _ = _; after_results_simp; exact h0.p_v138
  · -- node features of layers two and one, side by side
    show StableHlo.after ks12 (W c) _ = _; after_results_simp; rw [e_p_v138, e_p_v126]
  · -- edge features of layers two and one, side by side: the operands are read past the group's first operation
    show StableHlo.after ks12 (W c) _ = _; after_results; rw [e_p_v132_1, e_p_v120_1]
  · show StableHlo.after ks12 (W c) _ = _; after_results_simp; exact h0.p_v3
  · intro i
    show ((StableHlo.after ks12 (W c) (Proc.devRef .tc Cert.KernelIdeal.main_v1) : IVec Cert.KernelIdeal.S200000 32) i).toNat < 10000
    after_results_simp
    exact h0.rng1 i
  · intro i
    show ((StableHlo.after ks12 (W c) (Proc.devRef .tc Cert.KernelIdeal.main_v3) : IVec Cert.KernelIdeal.S200000 32) i).toNat < 10000
    after_results_simp
    exact h0.rng3 i
  · show StableHlo.after ks12 (W c) (Proc.devRef .tc Cert.KernelIdeal.main_v9) = cntOf (StableHlo.after ks12 (W c) (Proc.devRef .tc Cert.KernelIdeal.main_v1))
    after_results_simp; exact h0.cnt

end Cert.Stage

end
-- ==== Proof.St13.lean ====
/-
  Group 13: both programs gather the rows of the third layer's node features (256 columns: two layers' outputs side by
  side) at the edges' source nodes and at their target nodes. The kernel gathers with a take in fill mode, the reference
  by plain indexing; the indices being in range the two are the same gather. Nothing else moves.
-/
import proofs.«430033_j52948356825731_1_alg».proof.Proof.Rel
import proofs.«430033_j52948356825731_1_alg».proof.Proof.KITakes
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 4000000 in
theorem owes13 : Owes13 := by
  intro W U h c
  have h0 := h c
  have e_p_v139 : W c (Proc.devRef .tc Cert.KernelIdeal.main_v139) = U c (Proc.devRef .tc Cert.ReferenceIdeal.main_v187) := h0.p_v139
  have e_p_v1 : W c (Proc.devRef .tc Cert.KernelIdeal.main_v1) = U c (Proc.devRef .tc Cert.ReferenceIdeal.main_v1) := h0.p_v1
  have e_p_v3 : W c (Proc.devRef .tc Cert.KernelIdeal.main_v3) = U c (Proc.devRef .tc Cert.ReferenceIdeal.main_v3) := h0.p_v3
  exact {
    a0 := by
      show StableHlo.after ks13 (W c) _ = _
      simp only [StableHlo.after_append]; after_results_simp
      exact h0.a0
    a2 := by
      show StableHlo.after ks13 (W c) _ = _
      simp only [StableHlo.after_append]; after_results_simp
      exact h0.a2
    a3 := by
      show StableHlo.after ks13 (W c) _ = _
      simp only [StableHlo.after_append]; after_results_simp
      exact h0.a3
    a10 := by
      show StableHlo.after ks13 (W c) _ = _
      simp only [StableHlo.after_append]; after_results_simp
      exact h0.a10
    a11 := by
      show StableHlo.after ks13 (W c) _ = _
      simp only [StableHlo.after_append]; after_results_simp
      exact h0.a11
    a12 := by
      show StableHlo.after ks13 (W c) _ = _
      simp only [StableHlo.after_append]; after_results_simp
      exact h0.a12
    a13 := by
      show StableHlo.after ks13 (W c) _ = _
      simp only [StableHlo.after_append]; after_results_simp
      exact h0.a13
    a14 := by
      show StableHlo.after ks13 (W c) _ = _
      simp only [StableHlo.after_append]; after_results_simp
      exact h0.a14
    a15 := by
      show StableHlo.after ks13 (W c) _ = _
      simp only [StableHlo.after_append]; after_results_simp
      exact h0.a15
    a16 := by
      show StableHlo.after ks13 (W c) _ = _
      simp only [StableHlo.after_append]; after_results_simp
      exact h0.a16
    a17 := by
      show StableHlo.after ks13 (W c) _ = _
      simp only [StableHlo.after_append]; after_results_simp
      exact h0.a17
    p_cst := by
      show StableHlo.after ks13 (W c) _ = _
      simp only [StableHlo.after_append]; after_results_simp
      exact h0.p_cst
    p_v1 := by
      show StableHlo.after ks13 (W c) _ = _
      simp only [StableHlo.after_append]; after_results_simp
      exact h0.p_v1
    p_v120_1 := by
      show StableHlo.after ks13 (W c) _ = _
      simp only [StableHlo.after_append]; after_results_simp
      exact h0.p_v120_1
    p_v126 := by
      show StableHlo.after ks13 (W c) _ = _
      simp only [StableHlo.after_append]; after_results_simp
      exact h0.p_v126
    p_v132_1 := by
      show StableHlo.after ks13 (W c) _ = _
      simp only [StableHlo.after_append]; after_results_simp
      exact h0.p_v132_1
    p_v138 := by
      show StableHlo.after ks13 (W c) _ = _
      simp only [StableHlo.after_append]; after_results_simp
      exact h0.p_v138
    p_v140 := by
      show StableHlo.after ks13 (W c) _ = _
      simp only [StableHlo.after_append]; after_results_simp
      exact h0.p_v140
    p_v141 := by
      show StableHlo.after (Cert.KernelIdeal.Gen.hostOps2_3 (F := Ideal) ++ Cert.KernelIdeal.Gen.hostOps2_4 (F := Ideal)) (W c) _ = _
      have f : ∀ V : KVal, StableHlo.after (Cert.KernelIdeal.Gen.hostOps2_4 (F := Ideal)) V (Proc.devRef .tc Cert.KernelIdeal.main_v141) = V (Proc.devRef .tc Cert.KernelIdeal.main_v141) :=
        fun V => by after_results_simp
      rw [StableHlo.after_append, f, Cert.KernelIdeal.Hand.take_call8 (W c) h0.rng1]
      after_results_simp
      rw [e_p_v139, e_p_v1]
      rfl
    p_v142 := by
      show StableHlo.after (Cert.KernelIdeal.Gen.hostOps2_3 (F := Ideal) ++ Cert.KernelIdeal.Gen.hostOps2_4 (F := Ideal)) (W c) _ = _
      have g3 : StableHlo.after (Cert.KernelIdeal.Gen.hostOps2_3 (F := Ideal)) (W c) (Proc.devRef .tc Cert.KernelIdeal.main_v3) = W c (Proc.devRef .tc Cert.KernelIdeal.main_v3) := by
        after_results_simp
      have gt : StableHlo.after (Cert.KernelIdeal.Gen.hostOps2_3 (F := Ideal)) (W c) (Proc.devRef .tc Cert.KernelIdeal.main_v139) = W c (Proc.devRef .tc Cert.KernelIdeal.main_v139) := by
        after_results_simp
      rw [StableHlo.after_append, Cert.KernelIdeal.Hand.take_call9 _ (by intro i; rw [g3]; exact h0.rng3 i), g3, gt]
      after_results_simp
      rw [e_p_v139, e_p_v3]
      rfl
    p_v3 := by
      show StableHlo.after ks13 (W c) _ = _
      simp only [StableHlo.after_append]; after_results_simp
      exact h0.p_v3
    rng1 := by
      intro i
      show ((StableHlo.after ks13 (W c) (Proc.devRef .tc Cert.KernelIdeal.main_v1) : IVec Cert.KernelIdeal.S200000 32) i).toNat < 10000
      simp only [StableHlo.after_append]; after_results_simp
      exact h0.rng1 i
    rng3 := by
      intro i
      show ((StableHlo.after ks13 (W c) (Proc.devRef .tc Cert.KernelIdeal.main_v3) : IVec Cert.KernelIdeal.S200000 32) i).toNat < 10000
      simp only [StableHlo.after_append]; after_results_simp
      exact h0.rng3 i
    cnt := by
      show StableHlo.after ks13 (W c) (Proc.devRef .tc Cert.KernelIdeal.main_v9) = cntOf (StableHlo.after ks13 (W c) (Proc.devRef .tc Cert.KernelIdeal.main_v1))
      simp only [StableHlo.after_append]; after_results_simp
      exact h0.cnt }

end Cert.Stage

end
-- ==== Proof.KIVal2.lean ====
/-
  Layer three's two result arrays after its pipelined region, entry by entry, over the extended reals.

  The region sweeps 100 grid points; at point `t` the three feature windows hold rows `2000 t … 2000 t + 1999` of
  their arrays, the weight and bias windows hold their whole arrays, and the body leaves in each result window the
  stored block computed from those five blocks.  By the payload lemmas a stored block at `(p, q)` is the dense map
  of the five blocks at `(p, q)`, and the dense map reads the feature arrays one row at a time, so it is the dense
  map of the five ARRAYS at `(2000 t + p, q)`: what point `t` writes back is block `t` of one function of the arrays.
  The blocks of the 100 points cover the result array (row `r` lies in the block of point `r / 2000`), so after the
  region the array is that function: `Cert.Spec.mlp` for the first result, its positive part for the second.
-/
import proofs.«430033_j52948356825731_1_alg».proof.Proof.KIReg2
import proofs.«430033_j52948356825731_1_alg».proof.Proof.KIPay
import proofs.«430033_j52948356825731_1_alg».proof.Proof.KIRows
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

/-! ## Layer three: a stored block at an entry, from the arrays the blocks are cut from -/

/-- If the three feature blocks' rows `p` are the arrays' rows `i`, and the weight and bias blocks are the whole
    arrays, the first stored block at `(p, q)` is the dense map of the arrays at `(i, q)`. -/
theorem pt2_pay1 (x0 : Vec Ideal S2000x256 .f32) (x1 : Vec Ideal S2000x256 .f32) (x2 : Vec Ideal S2000x256 .f32) (x3 : Vec Ideal S768x128 .bf16) (x4 : Vec Ideal S1x128 .f32)
    (a0 : S200000x256.Idx → EReal) (a1 : S200000x256.Idx → EReal) (a2 : S200000x256.Idx → EReal) (a3 : S768x128.Idx → EReal) (a4 : S1x128.Idx → EReal)
    (p : Fin 2000) (q : Fin 128) (i : Fin 200000)
    (h0 : ∀ k : Fin 256, x0 (ix2 p k) = a0 (ix2 i k))
    (h1 : ∀ k : Fin 256, x1 (ix2 p k) = a1 (ix2 i k))
    (h2 : ∀ k : Fin 256, x2 (ix2 p k) = a2 (ix2 i k))
    (h3 : ∀ k : Fin 768, x3 (ix2 k q) = a3 (ix2 k q)) (h4 : x4 (ix2 0 q) = a4 (ix2 0 q)) :
    k2_pay1 x0 x1 x2 x3 x4 (ix2 p q)
      = Cert.Spec.mlp (by norm_num) a0 a1 a2 a3 (fun o => a4 (ix2 0 o)) i q := by
  rw [k2_pay1_apply]
  exact mlp_of_rows _ x0 x1 x2 a0 a1 a2 x3 a3 _ _ p i q h0 h1 h2 h3 h4

/-- The same with the two indices given whole: the array index has the block index's column. -/
theorem pt2_pay1_idx (x0 : Vec Ideal S2000x256 .f32) (x1 : Vec Ideal S2000x256 .f32) (x2 : Vec Ideal S2000x256 .f32) (x3 : Vec Ideal S768x128 .bf16) (x4 : Vec Ideal S1x128 .f32)
    (a0 : S200000x256.Idx → EReal) (a1 : S200000x256.Idx → EReal) (a2 : S200000x256.Idx → EReal) (a3 : S768x128.Idx → EReal) (a4 : S1x128.Idx → EReal)
    (y : S2000x128.Idx) (i : S200000x128.Idx)
    (h0 : ∀ k : Fin 256, x0 (ix2 (y 0 : Fin 2000) k) = a0 (ix2 (i 0 : Fin 200000) k))
    (h1 : ∀ k : Fin 256, x1 (ix2 (y 0 : Fin 2000) k) = a1 (ix2 (i 0 : Fin 200000) k))
    (h2 : ∀ k : Fin 256, x2 (ix2 (y 0 : Fin 2000) k) = a2 (ix2 (i 0 : Fin 200000) k))
    (h3 : ∀ (k : Fin 768) (o : Fin 128), x3 (ix2 k o) = a3 (ix2 k o)) (h4 : ∀ o : Fin 128, x4 (ix2 0 o) = a4 (ix2 0 o))
    (hi1 : (i 1).val = (y 1).val) :
    k2_pay1 x0 x1 x2 x3 x4 y
      = Cert.Spec.mlp (by norm_num) a0 a1 a2 a3 (fun o => a4 (ix2 0 o)) (i 0 : Fin 200000) (i 1 : Fin 128) := by
  obtain ⟨p, q, rfl⟩ : ∃ (p : Fin 2000) (q : Fin 128), y = ix2 p q := ⟨y 0, y 1, eq_ix2 y⟩
  obtain ⟨ii, io, rfl⟩ : ∃ (ii : Fin 200000) (io : Fin 128), i = ix2 ii io := ⟨i 0, i 1, eq_ix2 i⟩
  obtain rfl : io = q := Fin.ext hi1
  exact pt2_pay1 x0 x1 x2 x3 x4 a0 a1 a2 a3 a4 p io ii h0 h1 h2 (fun k => h3 k io) (h4 io)

/-- The second stored block likewise: the positive part of the dense map of the arrays. -/
theorem pt2_pay2_idx (x0 : Vec Ideal S2000x256 .f32) (x1 : Vec Ideal S2000x256 .f32) (x2 : Vec Ideal S2000x256 .f32) (x3 : Vec Ideal S768x128 .bf16) (x4 : Vec Ideal S1x128 .f32)
    (a0 : S200000x256.Idx → EReal) (a1 : S200000x256.Idx → EReal) (a2 : S200000x256.Idx → EReal) (a3 : S768x128.Idx → EReal) (a4 : S1x128.Idx → EReal)
    (y : S2000x128.Idx) (i : S200000x128.Idx)
    (h0 : ∀ k : Fin 256, x0 (ix2 (y 0 : Fin 2000) k) = a0 (ix2 (i 0 : Fin 200000) k))
    (h1 : ∀ k : Fin 256, x1 (ix2 (y 0 : Fin 2000) k) = a1 (ix2 (i 0 : Fin 200000) k))
    (h2 : ∀ k : Fin 256, x2 (ix2 (y 0 : Fin 2000) k) = a2 (ix2 (i 0 : Fin 200000) k))
    (h3 : ∀ (k : Fin 768) (o : Fin 128), x3 (ix2 k o) = a3 (ix2 k o)) (h4 : ∀ o : Fin 128, x4 (ix2 0 o) = a4 (ix2 0 o))
    (hi1 : (i 1).val = (y 1).val) :
    k2_pay2 x0 x1 x2 x3 x4 y
      = Cert.Spec.mlpPos (by norm_num) a0 a1 a2 a3 (fun o => a4 (ix2 0 o)) (i 0 : Fin 200000) (i 1 : Fin 128) := by
  obtain ⟨p, q, rfl⟩ : ∃ (p : Fin 2000) (q : Fin 128), y = ix2 p q := ⟨y 0, y 1, eq_ix2 y⟩
  obtain ⟨ii, io, rfl⟩ : ∃ (ii : Fin 200000) (io : Fin 128), i = ix2 ii io := ⟨i 0, i 1, eq_ix2 i⟩
  obtain rfl : io = q := Fin.ext hi1
  rw [k2_pay2_apply]
  exact mlpPos_of_rows _ x0 x1 x2 a0 a1 a2 x3 a3 _ _ p ii io h0 h1 h2 (fun k => h3 k io) (h4 io)

section Region2
variable (V : (c : Dev nD) → (b : Ref sig .tc) → Buf (Elt Ideal) ((c : Thread nD τ).loc b))

/-- The printed index maps over the grid: the three feature windows and the two result windows are at block row `t`,
    column block 0; the weight and bias windows stay at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Feature window 0's block at point `t` is rows `2000 t … 2000 t + 1999` of its array. -/
theorem iblk2_0_apply (c : Dev nD) (t : Fin cfg2.N) (y : S2000x256.Idx) (i : S200000x256.Idx)
    (h0 : (i 0).val = 2000 * t.val + (y 0).val) (h1 : (i 1).val = (y 1).val) :
    iblk2 V c 0 t y = V c (Pipeline.arrRef spec2 0) i := by
  obtain ⟨e00, e01, e10, e11, e20, e21, -, -, -, -, -, -, -, -⟩ := idx2 t
  unfold iblk2
  rw [View.read_apply]
  show V c (Pipeline.arrRef spec2 0) _ = V c (Pipeline.arrRef spec2 0) _
  congr 1
  funext a
  apply Fin.ext
  match a with
  | ⟨0, _⟩ =>
    show win2_0.index t (0 : Fin 2) * 2000 + 1 * (y 0).val = (i 0).val
    rw [e00, h0]; omega
  | ⟨1, _⟩ =>
    show win2_0.index t (1 : Fin 2) * 256 + 1 * (y 1).val = (i 1).val
    rw [e01, h1]; omega

/-- Feature window 1's block at point `t` is rows `2000 t … 2000 t + 1999` of its array. -/
theorem iblk2_1_apply (c : Dev nD) (t : Fin cfg2.N) (y : S2000x256.Idx) (i : S200000x256.Idx)
    (h0 : (i 0).val = 2000 * t.val + (y 0).val) (h1 : (i 1).val = (y 1).val) :
    iblk2 V c 1 t y = V c (Pipeline.arrRef spec2 1) i := by
  obtain ⟨e00, e01, e10, e11, e20, e21, -, -, -, -, -, -, -, -⟩ := idx2 t
  unfold iblk2
  rw [View.read_apply]
  show V c (Pipeline.arrRef spec2 1) _ = V c (Pipeline.arrRef spec2 1) _
  congr 1
  funext a
  apply Fin.ext
  match a with
  | ⟨0, _⟩ =>
    show win2_1.index t (0 : Fin 2) * 2000 + 1 * (y 0).val = (i 0).val
    rw [e10, h0]; omega
  | ⟨1, _⟩ =>
    show win2_1.index t (1 : Fin 2) * 256 + 1 * (y 1).val = (i 1).val
    rw [e11, h1]; omega

/-- Feature window 2's block at point `t` is rows `2000 t … 2000 t + 1999` of its array. -/
theorem iblk2_2_apply (c : Dev nD) (t : Fin cfg2.N) (y : S2000x256.Idx) (i : S200000x256.Idx)
    (h0 : (i 0).val = 2000 * t.val + (y 0).val) (h1 : (i 1).val = (y 1).val) :
    iblk2 V c 2 t y = V c (Pipeline.arrRef spec2 2) i := by
  obtain ⟨e00, e01, e10, e11, e20, e21, -, -, -, -, -, -, -, -⟩ := idx2 t
  unfold iblk2
  rw [View.read_apply]
  show V c (Pipeline.arrRef spec2 2) _ = V c (Pipeline.arrRef spec2 2) _
  congr 1
  funext a
  apply Fin.ext
  match a with
  | ⟨0, _⟩ =>
    show win2_2.index t (0 : Fin 2) * 2000 + 1 * (y 0).val = (i 0).val
    rw [e20, h0]; omega
  | ⟨1, _⟩ =>
    show win2_2.index t (1 : Fin 2) * 256 + 1 * (y 1).val = (i 1).val
    rw [e21, h1]; omega

/-- Window 3's block at every point is its whole array. -/
theorem iblk2_3_apply (c : Dev nD) (t : Fin cfg2.N) (y : S768x128.Idx) :
    iblk2 V c 3 t y = V c (Pipeline.arrRef spec2 3) y := by
  obtain ⟨-, -, -, -, -, -, e30, e31, e40, e41, -, -, -, -⟩ := idx2 t
  unfold iblk2
  rw [View.read_apply]
  show V c (Pipeline.arrRef spec2 3) _ = V c (Pipeline.arrRef spec2 3) _
  congr 1
  funext a
  apply Fin.ext
  match a with
  | ⟨0, _⟩ =>
    show win2_3.index t (0 : Fin 2) * 768 + 1 * (y 0).val = (y 0).val
    rw [e30]; omega
  | ⟨1, _⟩ =>
    show win2_3.index t (1 : Fin 2) * 128 + 1 * (y 1).val = (y 1).val
    rw [e31]; omega

/-- Window 4's block at every point is its whole array. -/
theorem iblk2_4_apply (c : Dev nD) (t : Fin cfg2.N) (y : S1x128.Idx) :
    iblk2 V c 4 t y = V c (Pipeline.arrRef spec2 4) y := by
  obtain ⟨-, -, -, -, -, -, e30, e31, e40, e41, -, -, -, -⟩ := idx2 t
  unfold iblk2
  rw [View.read_apply]
  show V c (Pipeline.arrRef spec2 4) _ = V c (Pipeline.arrRef spec2 4) _
  congr 1
  funext a
  apply Fin.ext
  match a with
  | ⟨0, _⟩ =>
    show win2_4.index t (0 : Fin 2) * 1 + 1 * (y 0).val = (y 0).val
    rw [e40]; omega
  | ⟨1, _⟩ =>
    show win2_4.index t (1 : Fin 2) * 128 + 1 * (y 1).val = (y 1).val
    rw [e41]; omega

/-- What the first result's array holds after the region, as one function of the five input arrays. -/
def G2_5 (c : Dev nD) : S200000x128.Idx → EReal := fun i =>
  Cert.Spec.mlp (n := 200000) (d1 := 256) (d2 := 256) (d3 := 256) (K := 768) (m := 128) (by norm_num)
    (V c (Pipeline.arrRef spec2 0)) (V c (Pipeline.arrRef spec2 1)) (V c (Pipeline.arrRef spec2 2))
    (V c (Pipeline.arrRef spec2 3)) (fun o => V c (Pipeline.arrRef spec2 4) (ix2 0 o)) (i 0) (i 1)

/-- What grid point `t` writes back to the first result's array is block `t` of that function. -/
theorem flushed2_5_eq (c : Dev nD) (t : Fin cfg2.N) :
    (dat2 V c).flushed 5 t = ((cfg2.win 5).blk t).view.read (Elt Ideal) (G2_5 V c) := by
  show (cfg2.win 5).cut (grid2.coords t) ((dat2 V c).after 5 t) = _
  rw [after2_5]
  unfold out2_5
  rw [View.canon_unit_zero zero2]
  simp only [View.ld_unit_zero (S := S2000x256) zero2, View.ld_unit_zero (S := S768x128) zero2, View.ld_unit_zero (S := S1x128) zero2]
  obtain ⟨-, -, -, -, -, -, -, -, -, -, e50, e51, e60, e61⟩ := idx2 t
  funext j
  have hj0 : (j 0).val < 2000 := (j 0).isLt
  have hI0 : ((((cfg2.win 5).blk t).view.emb j) 0).val = 2000 * t.val + (j 0).val := by
    show win2_5.index t (0 : Fin 2) * 2000 + 1 * (j 0).val = _
    rw [e50]; omega
  have hI1 : ((((cfg2.win 5).blk t).view.emb j) 1).val = (j 1).val := by
    show win2_5.index t (1 : Fin 2) * 128 + 1 * (j 1).val = _
    rw [e51]; omega
  show k2_pay1 (iblk2 V c 0 t) (iblk2 V c 1 t) (iblk2 V c 2 t) (iblk2 V c 3 t) (iblk2 V c 4 t) j
    = G2_5 V c (((cfg2.win 5).blk t).view.emb j)
  exact pt2_pay1_idx (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) j (((cfg2.win 5).blk t).view.emb j)
    (fun k => iblk2_0_apply V c t _ _ hI0 rfl) (fun k => iblk2_1_apply V c t _ _ hI0 rfl)
    (fun k => iblk2_2_apply V c t _ _ hI0 rfl) (fun k o => iblk2_3_apply V c t _) (fun o => iblk2_4_apply V c t _) hI1

/-- An index of the array is in point `t`'s block of window 5 iff each coordinate is in the block's range. -/
theorem mem_blk2_5 (t : Fin cfg2.N) (i : S200000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v145_0).slice (win2_5.rect t)).set ↔ _
  rw [View.set_slice_whole, Rect.mem_set_unit]
  exact Iff.rfl

/-- Every row of the array lies in the block of the point `row / 2000`. -/
theorem cover2_5 (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  have hN : cfg2.N = 100 := N_2
  have ht : (i 0).val / 2000 < cfg2.N := by rw [hN]; omega
  obtain ⟨-, -, -, -, -, -, -, -, -, -, e50, e51, e60, e61⟩ := idx2 ⟨(i 0).val / 2000, ht⟩
  refine ⟨⟨(i 0).val / 2000, ht⟩, flush2_5 _, ?_⟩
  rw [mem_blk2_5]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win2_5.index ⟨(i 0).val / 2000, ht⟩ (1 : Fin 2) * 128 ≤ (i 1).val
      ∧ (i 1).val < win2_5.index ⟨(i 0).val / 2000, ht⟩ (1 : Fin 2) * 128 + 128
    rw [e51]
    omega

/-- The first result's array after the region. -/
theorem final2_5 (c : Dev nD) : (dat2 V c).arrAt 5 cfg2.N = G2_5 V c :=
  (dat2 V c).arrAt_eq_of_cover 5 (G2_5 V c) (fun t _ => flushed2_5_eq V c t) cover2_5

/-- Entry `(i, o)` of the first result's array after the region is the dense map of the five input arrays. -/
theorem val2_5 (c : Dev nD) (i : Fin 200000) (o : Fin 128) :
    (dat2 (F := Ideal) V c).arrAt 5 cfg2.N (ix2 i o)
      = Cert.Spec.mlp (n := 200000) (d1 := 256) (d2 := 256) (d3 := 256) (K := 768) (m := 128) (by norm_num)
          (V c (Pipeline.arrRef spec2 0)) (V c (Pipeline.arrRef spec2 1)) (V c (Pipeline.arrRef spec2 2))
          (V c (Pipeline.arrRef spec2 3)) (fun o => V c (Pipeline.arrRef spec2 4) (ix2 0 o)) i o := by
  rw [final2_5]
  rfl

/-- What the second result's array holds after the region: the positive part, entry by entry. -/
def G2_6 (c : Dev nD) : S200000x128.Idx → EReal := fun i =>
  Cert.Spec.mlpPos (n := 200000) (d1 := 256) (d2 := 256) (d3 := 256) (K := 768) (m := 128) (by norm_num)
    (V c (Pipeline.arrRef spec2 0)) (V c (Pipeline.arrRef spec2 1)) (V c (Pipeline.arrRef spec2 2))
    (V c (Pipeline.arrRef spec2 3)) (fun o => V c (Pipeline.arrRef spec2 4) (ix2 0 o)) (i 0) (i 1)

/-- What grid point `t` writes back to the second result's array is block `t` of that function. -/
theorem flushed2_6_eq (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]
  unfold out2_6
  rw [View.canon_unit_zero zero2]
  simp only [View.ld_unit_zero (S := S2000x256) zero2, View.ld_unit_zero (S := S768x128) zero2, View.ld_unit_zero (S := S1x128) zero2]
  obtain ⟨-, -, -, -, -, -, -, -, -, -, e50, e51, e60, e61⟩ := idx2 t
  funext j
  have hj0 : (j 0).val < 2000 := (j 0).isLt
  have hI0 : ((((cfg2.win 6).blk t).view.emb j) 0).val = 2000 * t.val + (j 0).val := by
    show win2_6.index t (0 : Fin 2) * 2000 + 1 * (j 0).val = _
    rw [e60]; omega
  have hI1 : ((((cfg2.win 6).blk t).view.emb j) 1).val = (j 1).val := by
    show win2_6.index t (1 : Fin 2) * 128 + 1 * (j 1).val = _
    rw [e61]; omega
  show k2_pay2 (iblk2 V c 0 t) (iblk2 V c 1 t) (iblk2 V c 2 t) (iblk2 V c 3 t) (iblk2 V c 4 t) j
    = G2_6 V c (((cfg2.win 6).blk t).view.emb j)
  exact pt2_pay2_idx (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) j (((cfg2.win 6).blk t).view.emb j)
    (fun k => iblk2_0_apply V c t _ _ hI0 rfl) (fun k => iblk2_1_apply V c t _ _ hI0 rfl)
    (fun k => iblk2_2_apply V c t _ _ hI0 rfl) (fun k o => iblk2_3_apply V c t _) (fun o => iblk2_4_apply V c t _) hI1

/-- An index of the array is in point `t`'s block of window 6 iff each coordinate is in the block's range. -/
theorem mem_blk2_6 (t : Fin cfg2.N) (i : S200000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v145_1).slice (win2_6.rect t)).set ↔ _
  rw [View.set_slice_whole, Rect.mem_set_unit]
  exact Iff.rfl

/-- Every row of the array lies in the block of the point `row / 2000`. -/
theorem cover2_6 (i : S200000x128.Idx) :
    ∃ t : Fin cfg2.N, (cfg2.win 6).flush t = true ∧ i ∈ ((cfg2.win 6).blk t).view.set := by
  have hi0 : (i 0).val < 200000 := (i 0).isLt
  have hi1 : (i 1).val < 128 := (i 1).isLt
  have hN : cfg2.N = 100 := N_2
  have ht : (i 0).val / 2000 < cfg2.N := by rw [hN]; omega
  obtain ⟨-, -, -, -, -, -, -, -, -, -, e50, e51, e60, e61⟩ := idx2 ⟨(i 0).val / 2000, ht⟩
  refine ⟨⟨(i 0).val / 2000, ht⟩, flush2_6 _, ?_⟩
  rw [mem_blk2_6]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e61]
    omega

/-- The second result's array after the region. -/
theorem final2_6 (c : Dev nD) : (dat2 V c).arrAt 6 cfg2.N = G2_6 V c :=
  (dat2 V c).arrAt_eq_of_cover 6 (G2_6 V c) (fun t _ => flushed2_6_eq V c t) cover2_6

/-- Entry `(i, o)` of the second result's array after the region is the positive part of the dense map. -/
theorem val2_6 (c : Dev nD) (i : Fin 200000) (o : Fin 128) :
    (dat2 (F := Ideal) V c).arrAt 6 cfg2.N (ix2 i o)
      = Cert.Spec.mlpPos (n := 200000) (d1 := 256) (d2 := 256) (d3 := 256) (K := 768) (m := 128) (by norm_num)
          (V c (Pipeline.arrRef spec2 0)) (V c (Pipeline.arrRef spec2 1)) (V c (Pipeline.arrRef spec2 2))
          (V c (Pipeline.arrRef spec2 3)) (fun o => V c (Pipeline.arrRef spec2 4) (ix2 0 o)) i o := by
  rw [final2_6]
  rfl

end Region2

end Cert.KernelIdeal.Hand

end
-- ==== Proof.St14.lean ====
/-
  Group 14: the third layer's dense map.  The kernel converts the weights' format and reshapes the bias to one row (over
  the extended reals both leave every entry as it was), then runs its pipelined region: after it the first result array
  holds, at every edge and output column, the dense map of the five arrays the region read, and the second result array
  its positive part.  The reference's five operations, read at an entry, are the same dense map of its five arrays.  The
  three feature arrays agree on the two sides by the entry relation, the converted weights read the weights and the
  reshaped bias reads the bias, so the two dense maps are one number.  No other live buffer is an array of the region or
  a result of the group's operations, so each is carried.
-/
import proofs.«430033_j52948356825731_1_alg».proof.Proof.RelReg
import proofs.«430033_j52948356825731_1_alg».proof.Proof.KIVal2
import proofs.«430033_j52948356825731_1_alg».proof.Proof.RMlp

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

section Step
variable (W : Dev Cert.KernelIdeal.nD → KVal) (c : Dev Cert.KernelIdeal.nD)

/-- A buffer that is none of the region's arrays is left as the group's host operations left it. -/
theorem kstep14_of_ne (b : Ref Cert.KernelIdeal.sig .tc) (hb : ∀ w, Pipeline.arrRef Cert.KernelIdeal.spec2 w ≠ b) :
    kstep14 W c (Proc.devRef .tc b) = StableHlo.after ks14 (W c) (Proc.devRef .tc b) := by
  unfold kstep14; exact Pipeline.withArrays_of_ne Cert.KernelIdeal.spec2 c _ _ b hb

/-- A window's array is left at the fold of the region's write-backs. -/
theorem kstep14_arr (w : Fin Cert.KernelIdeal.cfg2.W) :
    kstep14 W c (Proc.devRef .tc (Pipeline.arrRef Cert.KernelIdeal.spec2 w))
      = (Cert.KernelIdeal.Hand.dat2 (F := Ideal) (fun c b => StableHlo.after ks14 (W c) b) c).arrAt w Cert.KernelIdeal.cfg2.N := by
  unfold kstep14; exact Pipeline.withArrays_arr Cert.KernelIdeal.spec2 Cert.KernelIdeal.Gen.launch2.win.arr_inj c _ _ w

end Step

/-- The five arrays the region reads against the five the reference's layer reads: the features by the entry relation,
    the converted weights entry by entry, the reshaped bias at its one row. -/
theorem inputs14 {Vk : KVal} {Vr : RVal} (h0 : Rel13 Vk Vr) :
    (StableHlo.after ks14 Vk (Proc.devRef .tc Cert.KernelIdeal.main_v141) : FVec Ideal Cert.KernelIdeal.S200000x256 .f32) = (Vr (Proc.devRef .tc Cert.ReferenceIdeal.main_v195) : FVec Ideal Cert.ReferenceIdeal.S200000x256 .f32)
    ∧ (StableHlo.after ks14 Vk (Proc.devRef .tc Cert.KernelIdeal.main_v142) : FVec Ideal Cert.KernelIdeal.S200000x256 .f32) = (Vr (Proc.devRef .tc Cert.ReferenceIdeal.main_v202) : FVec Ideal Cert.ReferenceIdeal.S200000x256 .f32)
    ∧ (StableHlo.after ks14 Vk (Proc.devRef .tc Cert.KernelIdeal.main_v140) : FVec Ideal Cert.KernelIdeal.S200000x256 .f32) = (Vr (Proc.devRef .tc Cert.ReferenceIdeal.main_v188) : FVec Ideal Cert.ReferenceIdeal.S200000x256 .f32)
    ∧ (∀ idx, (StableHlo.after ks14 Vk (Proc.devRef .tc Cert.KernelIdeal.main_v143) : FVec Ideal Cert.KernelIdeal.S768x128 .bf16) idx = (Vr (Proc.devRef .tc Cert.ReferenceIdeal.main_arg10) : FVec Ideal Cert.ReferenceIdeal.S768x128 .f32) idx)
    ∧ (∀ o : Fin 128, (StableHlo.after ks14 Vk (Proc.devRef .tc Cert.KernelIdeal.main_v144) : FVec Ideal Cert.KernelIdeal.S1x128 .f32) (ix2 (0 : Fin 1) o) = (Vr (Proc.devRef .tc Cert.ReferenceIdeal.main_arg11) : FVec Ideal Cert.ReferenceIdeal.S128 .f32) (ix1 o)) := by
  refine ⟨?_, ?_, ?_, ?_, ?_⟩
  · after_results_simp; exact h0.p_v141
  · after_results_simp; exact h0.p_v142
  · after_results_simp; exact h0.p_v140
  · intro idx; after_results_simp; have ea : _ = _ := h0.a10; rw [← ea]; rfl
  · intro o; after_results_simp; have ea : _ = _ := h0.a11; rw [← ea]
    refine shapeCast_apply (s := Cert.KernelIdeal.S128) (t := Cert.KernelIdeal.S1x128) _ _ (ix2 (0 : Fin 1) o) (ix1 o) ?_
    rw [Shape.rowMajor_val_one, Shape.rowMajor_val_two]
    show o.val = (0 : Fin 1).val * 128 + o.val
    simp

/-- The first result array after the region, at an entry, is the reference's layer at that entry. -/
theorem dense14 (W : Dev Cert.KernelIdeal.nD → KVal) (U : Dev Cert.KernelIdeal.nD → RVal) (c : Dev Cert.KernelIdeal.nD) (h0 : Rel13 (W c) (U c))
    (i : Fin 200000) (o : Fin 128) :
    (kstep14 W c (Proc.devRef .tc Cert.KernelIdeal.main_v145_0) : FVec Ideal Cert.KernelIdeal.S200000x128 .f32) (ix2 i o)
      = (StableHlo.after (Cert.ReferenceIdeal.Hand.rs14 (F := Ideal)) (U c) (Proc.devRef .tc Cert.ReferenceIdeal.main_v207) : FVec Ideal Cert.ReferenceIdeal.S200000x128 .f32) (ix2 i o) := by
  obtain ⟨e0, e1, e2, e3, e4⟩ := inputs14 h0
  refine (congrFun (kstep14_arr W c 5) (ix2 i o)).trans ?_
  refine (Cert.KernelIdeal.Hand.val2_5 _ c i o).trans ?_
  refine Eq.trans ?_ (Cert.ReferenceIdeal.Hand.rs14_apply (U c) i o).symm
  exact Cert.KernelIdeal.Hand.mlp_of_rows _ _ _ _ _ _ _ _ _ _ _ i i o
    (fun j => congrFun e0 _) (fun j => congrFun e1 _) (fun j => congrFun e2 _) (fun k => e3 _) (e4 o)

/-- The second result array after the region is the positive part of the first, entry by entry. -/
theorem pos14 (W : Dev Cert.KernelIdeal.nD → KVal) (c : Dev Cert.KernelIdeal.nD) : Pos_v145_1 (kstep14 W c) := by
  intro j
  obtain ⟨i, o, rfl⟩ : ∃ (i : Fin 200000) (o : Fin 128), j = ix2 i o := ⟨j 0, j 1, eq_ix2 j⟩
  refine (congrFun (kstep14_arr W c 6) (ix2 i o)).trans ?_
  refine (Cert.KernelIdeal.Hand.val2_6 _ c i o).trans ?_
  refine Eq.symm ?_
  refine (congrArg (fun x : EReal => max x 0)
    ((congrFun (kstep14_arr W c 5) (ix2 i o)).trans (Cert.KernelIdeal.Hand.val2_5 _ c i o))).trans ?_
  rfl

theorem owes14 : Owes14 := by
  intro W U h c
  have h0 := h c
  refine ⟨?_, ?_, ?_, ?_, ?_, ?_, ?_, ?_, ?_, ?_, ?_, ?_, ?_, ?_, ?_, ?_, ?_, ?_, ?_, ?_, ?_⟩
  · refine (kstep14_of_ne W c Cert.KernelIdeal.main_arg0 (by decide)).trans ?_; after_results_simp; exact h0.a0
  · refine (kstep14_of_ne W c Cert.KernelIdeal.main_arg2 (by decide)).trans ?_; after_results_simp; exact h0.a2
  · refine (kstep14_of_ne W c Cert.KernelIdeal.main_arg3 (by decide)).trans ?_; after_results_simp; exact h0.a3
  · refine (kstep14_of_ne W c Cert.KernelIdeal.main_arg12 (by decide)).trans ?_; after_results_simp; exact h0.a12
  · refine (kstep14_of_ne W c Cert.KernelIdeal.main_arg13 (by decide)).trans ?_; after_results_simp; exact h0.a13
  · refine (kstep14_of_ne W c Cert.KernelIdeal.main_arg14 (by decide)).trans ?_; after_results_simp; exact h0.a14
  · refine (kstep14_of_ne W c Cert.KernelIdeal.main_arg15 (by decide)).trans ?_; after_results_simp; exact h0.a15
  · refine (kstep14_of_ne W c Cert.KernelIdeal.main_arg16 (by decide)).trans ?_; after_results_simp; exact h0.a16
  · refine (kstep14_of_ne W c Cert.KernelIdeal.main_arg17 (by decide)).trans ?_; after_results_simp; exact h0.a17
  · refine (kstep14_of_ne W c Cert.KernelIdeal.main_cst (by decide)).trans ?_; after_results_simp; exact h0.p_cst
  · refine (kstep14_of_ne W c Cert.KernelIdeal.main_v1 (by decide)).trans ?_; after_results_simp; exact h0.p_v1
  · refine (kstep14_of_ne W c Cert.KernelIdeal.main_v120_1 (by decide)).trans ?_; after_results_simp; exact h0.p_v120_1
  · refine (kstep14_of_ne W c Cert.KernelIdeal.main_v126 (by decide)).trans ?_; after_results_simp; exact h0.p_v126
  · refine (kstep14_of_ne W c Cert.KernelIdeal.main_v132_1 (by decide)).trans ?_; after_results_simp; exact h0.p_v132_1
  · refine (kstep14_of_ne W c Cert.KernelIdeal.main_v138 (by decide)).trans ?_; after_results_simp; exact h0.p_v138
  · -- the dense map, entry by entry
    show (kstep14 W c (Proc.devRef .tc Cert.KernelIdeal.main_v145_0) : FVec Ideal Cert.KernelIdeal.S200000x128 .f32) = _
    funext j
    obtain ⟨i, o, rfl⟩ : ∃ (i : Fin 200000) (o : Fin 128), j = ix2 i o := ⟨j 0, j 1, eq_ix2 j⟩
    exact dense14 W U c h0 i o
  · refine (kstep14_of_ne W c Cert.KernelIdeal.main_v3 (by decide)).trans ?_; after_results_simp; exact h0.p_v3
  · intro i
    show ((kstep14 W c (Proc.devRef .tc Cert.KernelIdeal.main_v1) : IVec Cert.KernelIdeal.S200000 32) i).toNat < 10000
    rw [kstep14_of_ne W c Cert.KernelIdeal.main_v1 (by decide)]
    after_results_simp
    exact h0.rng1 i
  · intro i
    show ((kstep14 W c (Proc.devRef .tc Cert.KernelIdeal.main_v3) : IVec Cert.KernelIdeal.S200000 32) i).toNat < 10000
    rw [kstep14_of_ne W c Cert.KernelIdeal.main_v3 (by decide)]
    after_results_simp
    exact h0.rng3 i
  · show kstep14 W c (Proc.devRef .tc Cert.KernelIdeal.main_v9) = cntOf (kstep14 W c (Proc.devRef .tc Cert.KernelIdeal.main_v1))
    rw [kstep14_of_ne W c Cert.KernelIdeal.main_v9 (by decide), kstep14_of_ne W c Cert.KernelIdeal.main_v1 (by decide)]
    after_results_simp; exact h0.cnt
  · exact pos14 W c

end Cert.Stage

end
-- ==== Proof.St15.lean ====
/-
  Group 15: the third layer's node features.  Both programs add, for every node, the messages of the edges that leave it
  (a segment sum over the source index), divide by the number of such edges floored at one, and keep the positive part.
  The kernel reads the count it computed once from the source row; the reference recomputes it here by the same six
  operations, so the two quotients agree entry by entry.  Every other live buffer is untouched.
-/
import proofs.«430033_j52948356825731_1_alg».proof.Proof.Rel
import proofs.«430033_j52948356825731_1_alg».proof.Proof.KITakes
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 1000000 in
theorem owes15 : Owes15 := by
  intro W U h c
  have h0 := h c
  have e_cnt : W c (Proc.devRef .tc Cert.KernelIdeal.main_v9) = cntOf (W c (Proc.devRef .tc Cert.KernelIdeal.main_v1)) := h0.cnt
  have e_p_v1 : W c (Proc.devRef .tc Cert.KernelIdeal.main_v1) = U c (Proc.devRef .tc Cert.ReferenceIdeal.main_v1) := h0.p_v1
  have e_p_v145_0 : W c (Proc.devRef .tc Cert.KernelIdeal.main_v145_0) = U c (Proc.devRef .tc Cert.ReferenceIdeal.main_v207) := h0.p_v145_0
  refine ⟨?_, ?_, ?_, ?_, ?_, ?_, ?_, ?_, ?_, ?_, ?_, ?_, ?_, ?_, ?_, ?_, ?_, ?_, ?_, ?_, ?_, ?_⟩
  · show StableHlo.after ks15 (W c) _ = _; simp only [StableHlo.after_append]; after_results_simp; exact h0.a0
  · show StableHlo.after ks15 (W c) _ = _; simp only [StableHlo.after_append]; after_results_simp; exact h0.a2
  · show StableHlo.after ks15 (W c) _ = _; simp only [StableHlo.after_append]; after_results_simp; exact h0.a3
  · show StableHlo.after ks15 (W c) _ = _; simp only [StableHlo.after_append]; after_results_simp; exact h0.a12
  · show StableHlo.after ks15 (W c) _ = _; simp only [StableHlo.after_append]; after_results_simp; exact h0.a13
  · show StableHlo.after ks15 (W c) _ = _; simp only [StableHlo.after_append]; after_results_simp; exact h0.a14
  · show StableHlo.after ks15 (W c) _ = _; simp only [StableHlo.after_append]; after_results_simp; exact h0.a15
  · show StableHlo.after ks15 (W c) _ = _; simp only [StableHlo.after_append]; after_results_simp; exact h0.a16
  · show StableHlo.after ks15 (W c) _ = _; simp only [StableHlo.after_append]; after_results_simp; exact h0.a17
  · show StableHlo.after ks15 (W c) _ = _; simp only [StableHlo.after_append]; after_results_simp; exact h0.p_cst
  · show StableHlo.after ks15 (W c) _ = _; simp only [StableHlo.after_append]; after_results_simp; exact h0.p_v1
  · show StableHlo.after ks15 (W c) _ = _; simp only [StableHlo.after_append]; after_results_simp; exact h0.p_v120_1
  · show StableHlo.after ks15 (W c) _ = _; simp only [StableHlo.after_append]; after_results_simp; exact h0.p_v126
  · show StableHlo.after ks15 (W c) _ = _; simp only [StableHlo.after_append]; after_results_simp; exact h0.p_v132_1
  · show StableHlo.after ks15 (W c) _ = _; simp only [StableHlo.after_append]; after_results_simp; exact h0.p_v138
  · show StableHlo.after ks15 (W c) _ = _; simp only [StableHlo.after_append]; after_results_simp; exact h0.p_v145_0
  · -- the mean message per node, positive part: the count read on one side is the count recomputed on the other
    show StableHlo.after ks15 (W c) _ = _
    simp only [StableHlo.after_append]
    after_results_simp
    simp only [Cert.KernelIdeal.Hand.tref_ofBuf_toBuf]
    rw [e_cnt, e_p_v1, e_p_v145_0]
    rfl
  · show StableHlo.after ks15 (W c) _ = _; simp only [StableHlo.after_append]; after_results_simp; exact h0.p_v3
  · intro i
    show ((StableHlo.after ks15 (W c) (Proc.devRef .tc Cert.KernelIdeal.main_v1) : IVec Cert.KernelIdeal.S200000 32) i).toNat < 10000
    simp only [StableHlo.after_append]; after_results_simp
    exact h0.rng1 i
  · intro i
    show ((StableHlo.after ks15 (W c) (Proc.devRef .tc Cert.KernelIdeal.main_v3) : IVec Cert.KernelIdeal.S200000 32) i).toNat < 10000
    simp only [StableHlo.after_append]; after_results_simp
    exact h0.rng3 i
  · show StableHlo.after ks15 (W c) (Proc.devRef .tc Cert.KernelIdeal.main_v9) = cntOf (StableHlo.after ks15 (W c) (Proc.devRef .tc Cert.KernelIdeal.main_v1))
    simp only [StableHlo.after_append]; after_results_simp; exact h0.cnt
  · show Pos_v145_1 (StableHlo.after ks15 (W c))
    intro j
    simp only [StableHlo.after_append]; after_results_simp
    exact h0.pos_v145_1 j

end Cert.Stage

end
-- ==== Proof.St16.lean ====
/-
  Group 16: the reference takes the positive part of the third layer's dense map.  The kernel formed that positive
  part inside its region as the layer's second output, carried so far as a fact beside the pair of dense maps; so the
  second output and the reference's new array agree entry by entry, both the maximum of the same number and zero.
  The kernel runs no operation here and every other live buffer is untouched.
-/
import proofs.«430033_j52948356825731_1_alg».proof.Proof.Rel
import proofs.«430033_j52948356825731_1_alg».proof.Proof.RMlp

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

theorem owes16 : Owes16 := by
  intro W U h c
  have h0 := h c
  have em : _ = _ := h0.p_v145_0
  refine ⟨?_, ?_, ?_, ?_, ?_, ?_, ?_, ?_, ?_, ?_, ?_, ?_, ?_, ?_, ?_, ?_, ?_, ?_, ?_, ?_, ?_⟩
  · show StableHlo.after ks16 (W c) _ = _; after_results_simp; exact h0.a0
  · show StableHlo.after ks16 (W c) _ = _; after_results_simp; exact h0.a2
  · show StableHlo.after ks16 (W c) _ = _; after_results_simp; exact h0.a3
  · show StableHlo.after ks16 (W c) _ = _; after_results_simp; exact h0.a12
  · show StableHlo.after ks16 (W c) _ = _; after_results_simp; exact h0.a13
  · show StableHlo.after ks16 (W c) _ = _; after_results_simp; exact h0.a14
  · show StableHlo.after ks16 (W c) _ = _; after_results_simp; exact h0.a15
  · show StableHlo.after ks16 (W c) _ = _; after_results_simp; exact h0.a16
  · show StableHlo.after ks16 (W c) _ = _; after_results_simp; exact h0.a17
  · show StableHlo.after ks16 (W c) _ = _; after_results_simp; exact h0.p_cst
  · show StableHlo.after ks16 (W c) _ = _; after_results_simp; exact h0.p_v1
  · show StableHlo.after ks16 (W c) _ = _; after_results_simp; exact h0.p_v120_1
  · show StableHlo.after ks16 (W c) _ = _; after_results_simp; exact h0.p_v126
  · show StableHlo.after ks16 (W c) _ = _; after_results_simp; exact h0.p_v132_1
  · show StableHlo.after ks16 (W c) _ = _; after_results_simp; exact h0.p_v138
  · -- the positive part: the kernel's second output against the reference's maximum with zero
    show (StableHlo.after ks16 (W c) (Proc.devRef .tc Cert.KernelIdeal.main_v145_1) : FVec Ideal Cert.KernelIdeal.S200000x128 .f32) = _
    funext j
    refine Eq.trans ?_ (Cert.ReferenceIdeal.Hand.rs16_apply (U c) j).symm
    after_results_simp
    refine (h0.pos_v145_1 j).trans ?_
    rw [em]
  · show StableHlo.after ks16 (W c) _ = _; after_results_simp; exact h0.p_v151
  · show StableHlo.after ks16 (W c) _ = _; after_results_simp; exact h0.p_v3
  · intro i
    show ((StableHlo.after ks16 (W c) (Proc.devRef .tc Cert.KernelIdeal.main_v1) : IVec Cert.KernelIdeal.S200000 32) i).toNat < 10000
    after_results_simp
    exact h0.rng1 i
  · intro i
    show ((StableHlo.after ks16 (W c) (Proc.devRef .tc Cert.KernelIdeal.main_v3) : IVec Cert.KernelIdeal.S200000 32) i).toNat < 10000
    after_results_simp
    exact h0.rng3 i
  · show StableHlo.after ks16 (W c) (Proc.devRef .tc Cert.KernelIdeal.main_v9) = cntOf (StableHlo.after ks16 (W c) (Proc.devRef .tc Cert.KernelIdeal.main_v1))
    after_results_simp; exact h0.cnt

end Cert.Stage

end
-- ==== Proof.St17.lean ====
/-
  Group 17: both programs lay the third layer's node features beside the second layer's (256 columns per node), and the
  third layer's edge features beside the second layer's (256 columns per edge).  The operands are equal on entry, so the
  rows are equal; every other live buffer is untouched.
-/
import proofs.«430033_j52948356825731_1_alg».proof.Proof.Rel

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

theorem owes17 : Owes17 := by
  intro W U h c
  have h0 := h c
  have e_p_v151 : W c (Proc.devRef .tc Cert.KernelIdeal.main_v151) = U c (Proc.devRef .tc Cert.ReferenceIdeal.main_v219) := h0.p_v151
  have e_p_v138 : W c (Proc.devRef .tc Cert.KernelIdeal.main_v138) = U c (Proc.devRef .tc Cert.ReferenceIdeal.main_v185) := h0.p_v138
  have e_p_v145_1 : W c (Proc.devRef .tc Cert.KernelIdeal.main_v145_1) = U c (Proc.devRef .tc Cert.ReferenceIdeal.main_v220) := h0.p_v145_1
  have e_p_v132_1 : W c (Proc.devRef .tc Cert.KernelIdeal.main_v132_1) = U c (Proc.devRef .tc Cert.ReferenceIdeal.main_v186) := h0.p_v132_1
  refine ⟨?_, ?_, ?_, ?_, ?_, ?_, ?_, ?_, ?_, ?_, ?_, ?_, ?_, ?_, ?_, ?_, ?_, ?_, ?_, ?_, ?_, ?_, ?_⟩
  · show StableHlo.after ks17 (W c) _ = _; after_results_simp; exact h0.a0
  · show StableHlo.after ks17 (W c) _ = _; after_results_simp; exact h0.a2
  · show StableHlo.after ks17 (W c) _ = _; after_results_simp; exact h0.a3
  · show StableHlo.after ks17 (W c) _ = _; after_results_simp; exact h0.a12
  · show StableHlo.after ks17 (W c) _ = _; after_results_simp; exact h0.a13
  · show StableHlo.after ks17 (W c) _ = _; after_results_simp; exact h0.a14
  · show StableHlo.after ks17 (W c) _ = _; after_results_simp; exact h0.a15
  · show StableHlo.after ks17 (W c) _ = _; after_results_simp; exact h0.a16
  · show StableHlo.after ks17 (W c) _ = _; after_results_simp; exact h0.a17
  · show StableHlo.after ks17 (W c) _ = _; after_results_simp; exact h0.p_cst
  · show StableHlo.after ks17 (W c) _ = _; after_results_simp; exact h0.p_v1
  · show StableHlo.after ks17 (W c) _ = _; after_results_simp; exact h0.p_v120_1
  · show StableHlo.after ks17 (W c) _ = _; after_results_simp; exact h0.p_v126
  · show StableHlo.after ks17 (W c) _ = _; after_results_simp; exact h0.p_v132_1
  · show StableHlo.after ks17 (W c) _ = _; after_results_simp; exact h0.p_v138
  · show StableHlo.after ks17 (W c) _ = _; after_results_simp; exact h0.p_v145_1
  · show StableHlo.after ks17 (W c) _ = _; after_results_simp; exact h0.p_v151
  · -- node features of layers three and two, side by side
    show StableHlo.after ks17 (W c) _ = _; after_results_simp; rw [e_p_v151, e_p_v138]
  · -- edge features of layers three and two, side by side: the operands are read past the group's first operation
    show StableHlo.after ks17 (W c) _ = _; after_results; rw [e_p_v145_1, e_p_v132_1]
  · show StableHlo.after ks17 (W c) _ = _; after_results_simp; exact h0.p_v3
  · intro i
    show ((StableHlo.after ks17 (W c) (Proc.devRef .tc Cert.KernelIdeal.main_v1) : IVec Cert.KernelIdeal.S200000 32) i).toNat < 10000
    after_results_simp
    exact h0.rng1 i
  · intro i
    show ((StableHlo.after ks17 (W c) (Proc.devRef .tc Cert.KernelIdeal.main_v3) : IVec Cert.KernelIdeal.S200000 32) i).toNat < 10000
    after_results_simp
    exact h0.rng3 i
  · show StableHlo.after ks17 (W c) (Proc.devRef .tc Cert.KernelIdeal.main_v9) = cntOf (StableHlo.after ks17 (W c) (Proc.devRef .tc Cert.KernelIdeal.main_v1))
    after_results_simp; exact h0.cnt

end Cert.Stage

end
-- ==== Proof.St18.lean ====
/-
  Group 18: both programs gather the rows of the fourth layer's node features (256 columns: two layers' outputs side by
  side) at the edges' source nodes and at their target nodes. The kernel gathers with a take in fill mode, the reference
  by plain indexing; the indices being in range the two are the same gather. Nothing else moves.
-/
import proofs.«430033_j52948356825731_1_alg».proof.Proof.Rel
import proofs.«430033_j52948356825731_1_alg».proof.Proof.KITakes
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 4000000 in
theorem owes18 : Owes18 := by
  intro W U h c
  have h0 := h c
  have e_p_v152 : W c (Proc.devRef .tc Cert.KernelIdeal.main_v152) = U c (Proc.devRef .tc Cert.ReferenceIdeal.main_v221) := h0.p_v152
  have e_p_v1 : W c (Proc.devRef .tc Cert.KernelIdeal.main_v1) = U c (Proc.devRef .tc Cert.ReferenceIdeal.main_v1) := h0.p_v1
  have e_p_v3 : W c (Proc.devRef .tc Cert.KernelIdeal.main_v3) = U c (Proc.devRef .tc Cert.ReferenceIdeal.main_v3) := h0.p_v3
  exact {
    a0 := by
      show StableHlo.after ks18 (W c) _ = _
      simp only [StableHlo.after_append]; after_results_simp
      exact h0.a0
    a2 := by
      show StableHlo.after ks18 (W c) _ = _
      simp only [StableHlo.after_append]; after_results_simp
      exact h0.a2
    a3 := by
      show StableHlo.after ks18 (W c) _ = _
      simp only [StableHlo.after_append]; after_results_simp
      exact h0.a3
    a12 := by
      show StableHlo.after ks18 (W c) _ = _
      simp only [StableHlo.after_append]; after_results_simp
      exact h0.a12
    a13 := by
      show StableHlo.after ks18 (W c) _ = _
      simp only [StableHlo.after_append]; after_results_simp
      exact h0.a13
    a14 := by
      show StableHlo.after ks18 (W c) _ = _
      simp only [StableHlo.after_append]; after_results_simp
      exact h0.a14
    a15 := by
      show StableHlo.after ks18 (W c) _ = _
      simp only [StableHlo.after_append]; after_results_simp
      exact h0.a15
    a16 := by
      show StableHlo.after ks18 (W c) _ = _
      simp only [StableHlo.after_append]; after_results_simp
      exact h0.a16
    a17 := by
      show StableHlo.after ks18 (W c) _ = _
      simp only [StableHlo.after_append]; after_results_simp
      exact h0.a17
    p_cst := by
      show StableHlo.after ks18 (W c) _ = _
      simp only [StableHlo.after_append]; after_results_simp
      exact h0.p_cst
    p_v1 := by
      show StableHlo.after ks18 (W c) _ = _
      simp only [StableHlo.after_append]; after_results_simp
      exact h0.p_v1
    p_v120_1 := by
      show StableHlo.after ks18 (W c) _ = _
      simp only [StableHlo.after_append]; after_results_simp
      exact h0.p_v120_1
    p_v126 := by
      show StableHlo.after ks18 (W c) _ = _
      simp only [StableHlo.after_append]; after_results_simp
      exact h0.p_v126
    p_v132_1 := by
      show StableHlo.after ks18 (W c) _ = _
      simp only [StableHlo.after_append]; after_results_simp
      exact h0.p_v132_1
    p_v138 := by
      show StableHlo.after ks18 (W c) _ = _
      simp only [StableHlo.after_append]; after_results_simp
      exact h0.p_v138
    p_v145_1 := by
      show StableHlo.after ks18 (W c) _ = _
      simp only [StableHlo.after_append]; after_results_simp
      exact h0.p_v145_1
    p_v151 := by
      show StableHlo.after ks18 (W c) _ = _
      simp only [StableHlo.after_append]; after_results_simp
      exact h0.p_v151
    p_v153 := by
      show StableHlo.after ks18 (W c) _ = _
      simp only [StableHlo.after_append]; after_results_simp
      exact h0.p_v153
    p_v154 := by
      show StableHlo.after (Cert.KernelIdeal.Gen.hostOps3_3 (F := Ideal) ++ Cert.KernelIdeal.Gen.hostOps3_4 (F := Ideal)) (W c) _ = _
      have f : ∀ V : KVal, StableHlo.after (Cert.KernelIdeal.Gen.hostOps3_4 (F := Ideal)) V (Proc.devRef .tc Cert.KernelIdeal.main_v154) = V (Proc.devRef .tc Cert.KernelIdeal.main_v154) :=
        fun V => by after_results_simp
      rw [StableHlo.after_append, f, Cert.KernelIdeal.Hand.take_call11 (W c) h0.rng1]
      after_results_simp
      rw [e_p_v152, e_p_v1]
      rfl
    p_v155 := by
      show StableHlo.after (Cert.KernelIdeal.Gen.hostOps3_3 (F := Ideal) ++ Cert.KernelIdeal.Gen.hostOps3_4 (F := Ideal)) (W c) _ = _
      have g3 : StableHlo.after (Cert.KernelIdeal.Gen.hostOps3_3 (F := Ideal)) (W c) (Proc.devRef .tc Cert.KernelIdeal.main_v3) = W c (Proc.devRef .tc Cert.KernelIdeal.main_v3) := by
        after_results_simp
      have gt : StableHlo.after (Cert.KernelIdeal.Gen.hostOps3_3 (F := Ideal)) (W c) (Proc.devRef .tc Cert.KernelIdeal.main_v152) = W c (Proc.devRef .tc Cert.KernelIdeal.main_v152) := by
        after_results_simp
      rw [StableHlo.after_append, Cert.KernelIdeal.Hand.take_call12 _ (by intro i; rw [g3]; exact h0.rng3 i), g3, gt]
      after_results_simp
      rw [e_p_v152, e_p_v3]
      rfl
    p_v3 := by
      show StableHlo.after ks18 (W c) _ = _
      simp only [StableHlo.after_append]; after_results_simp
      exact h0.p_v3
    rng1 := by
      intro i
      show ((StableHlo.after ks18 (W c) (Proc.devRef .tc Cert.KernelIdeal.main_v1) : IVec Cert.KernelIdeal.S200000 32) i).toNat < 10000
      simp only [StableHlo.after_append]; after_results_simp
      exact h0.rng1 i
    rng3 := by
      intro i
      show ((StableHlo.after ks18 (W c) (Proc.devRef .tc Cert.KernelIdeal.main_v3) : IVec Cert.KernelIdeal.S200000 32) i).toNat < 10000
      simp only [StableHlo.after_append]; after_results_simp
      exact h0.rng3 i
    cnt := by
      show StableHlo.after ks18 (W c) (Proc.devRef .tc Cert.KernelIdeal.main_v9) = cntOf (StableHlo.after ks18 (W c) (Proc.devRef .tc Cert.KernelIdeal.main_v1))
      simp only [StableHlo.after_append]; after_results_simp
      exact h0.cnt }

end Cert.Stage

end
-- ==== Proof.KIVal3.lean ====
/-
  Layer four's three result arrays after its pipelined region, entry by entry, over the extended reals.

  The region sweeps 100 grid points; at point `t` the three feature windows hold rows `2000 t … 2000 t + 1999` of
  their arrays, and the weight, bias, one-column matrix and scalar windows hold their whole arrays.  The body leaves in
  the first two result windows the dense map of the five blocks and its positive part, and in the third the positive
  part's rows mapped through the one-column matrix plus the scalar.  The dense map reads the feature arrays one row at a
  time, so each stored block at local row `p` is the same expression of the ARRAYS at row `2000 t + p`: what point `t`
  writes back is block `t` of one function of the arrays.  The 100 blocks cover each result array (row `r` lies in the
  block of point `r / 2000`), so after the region the arrays are `Cert.Spec.mlp`, its positive part, and
  `Cert.Spec.lin` of that positive part.
-/
import proofs.«430033_j52948356825731_1_alg».proof.Proof.KIReg3
import proofs.«430033_j52948356825731_1_alg».proof.Proof.KIPay
import proofs.«430033_j52948356825731_1_alg».proof.Proof.KIRows
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

/-! ## Layer four: a stored block at an entry, from the arrays the blocks are cut from -/

/-- If the three feature blocks' rows at the block index are the arrays' rows at the array index, the weight and bias
    blocks are the whole arrays, and the two indices have the same column, the first stored block there is the dense
    map of the arrays. -/
theorem pt3_pay1_idx (x0 x1 x2 : Vec Ideal S2000x256 .f32) (x3 : Vec Ideal S768x128 .bf16) (x4 : Vec Ideal S1x128 .f32)
    (a0 a1 a2 : S200000x256.Idx → EReal) (a3 : S768x128.Idx → EReal) (a4 : S1x128.Idx → EReal)
    (y : S2000x128.Idx) (i : S200000x128.Idx)
    (h0 : ∀ k : Fin 256, x0 (ix2 (y 0 : Fin 2000) k) = a0 (ix2 (i 0 : Fin 200000) k))
    (h1 : ∀ k : Fin 256, x1 (ix2 (y 0 : Fin 2000) k) = a1 (ix2 (i 0 : Fin 200000) k))
    (h2 : ∀ k : Fin 256, x2 (ix2 (y 0 : Fin 2000) k) = a2 (ix2 (i 0 : Fin 200000) k))
    (h3 : ∀ (k : Fin 768) (o : Fin 128), x3 (ix2 k o) = a3 (ix2 k o)) (h4 : ∀ o : Fin 128, x4 (ix2 0 o) = a4 (ix2 0 o))
    (hi1 : (i 1).val = (y 1).val) :
    k3_pay1 x0 x1 x2 x3 x4 y
      = Cert.Spec.mlp (by norm_num) a0 a1 a2 a3 (fun o => a4 (ix2 0 o)) (i 0 : Fin 200000) (i 1 : Fin 128) := by
  obtain ⟨p, q, rfl⟩ : ∃ (p : Fin 2000) (q : Fin 128), y = ix2 p q := ⟨y 0, y 1, eq_ix2 y⟩
  obtain ⟨ii, io, rfl⟩ : ∃ (ii : Fin 200000) (io : Fin 128), i = ix2 ii io := ⟨i 0, i 1, eq_ix2 i⟩
  obtain rfl : io = q := Fin.ext hi1
  rw [k3_pay1_apply]
  exact mlp_of_rows _ x0 x1 x2 a0 a1 a2 x3 a3 _ _ p ii io h0 h1 h2 (fun k => h3 k io) (h4 io)

/-- The second stored block likewise: the positive part. -/
theorem pt3_pay2_idx (x0 x1 x2 : Vec Ideal S2000x256 .f32) (x3 : Vec Ideal S768x128 .bf16) (x4 : Vec Ideal S1x128 .f32)
    (a0 a1 a2 : S200000x256.Idx → EReal) (a3 : S768x128.Idx → EReal) (a4 : S1x128.Idx → EReal)
    (y : S2000x128.Idx) (i : S200000x128.Idx)
    (h0 : ∀ k : Fin 256, x0 (ix2 (y 0 : Fin 2000) k) = a0 (ix2 (i 0 : Fin 200000) k))
    (h1 : ∀ k : Fin 256, x1 (ix2 (y 0 : Fin 2000) k) = a1 (ix2 (i 0 : Fin 200000) k))
    (h2 : ∀ k : Fin 256, x2 (ix2 (y 0 : Fin 2000) k) = a2 (ix2 (i 0 : Fin 200000) k))
    (h3 : ∀ (k : Fin 768) (o : Fin 128), x3 (ix2 k o) = a3 (ix2 k o)) (h4 : ∀ o : Fin 128, x4 (ix2 0 o) = a4 (ix2 0 o))
    (hi1 : (i 1).val = (y 1).val) :
    k3_pay2 x0 x1 x2 x3 x4 y
      = Cert.Spec.mlpPos (by norm_num) a0 a1 a2 a3 (fun o => a4 (ix2 0 o)) (i 0 : Fin 200000) (i 1 : Fin 128) := by
  obtain ⟨p, q, rfl⟩ : ∃ (p : Fin 2000) (q : Fin 128), y = ix2 p q := ⟨y 0, y 1, eq_ix2 y⟩
  obtain ⟨ii, io, rfl⟩ : ∃ (ii : Fin 200000) (io : Fin 128), i = ix2 ii io := ⟨i 0, i 1, eq_ix2 i⟩
  obtain rfl : io = q := Fin.ext hi1
  rw [k3_pay2_apply]
  exact mlpPos_of_rows _ x0 x1 x2 a0 a1 a2 x3 a3 _ _ p ii io h0 h1 h2 (fun k => h3 k io) (h4 io)

/-- The third stored block at a row: the arrays' positive part along the array's row, through the one-column matrix,
    plus the scalar. -/
theorem pt3_pay3_idx (x0 x1 x2 : Vec Ideal S2000x256 .f32) (x3 : Vec Ideal S768x128 .bf16) (x4 : Vec Ideal S1x128 .f32)
    (x5 : Vec Ideal S128x1 .bf16) (x6 : Vec Ideal S1x1 .f32)
    (a0 a1 a2 : S200000x256.Idx → EReal) (a3 : S768x128.Idx → EReal) (a4 : S1x128.Idx → EReal)
    (a5 : S128x1.Idx → EReal) (a6 : S1x1.Idx → EReal)
    (y : S2000x1.Idx) (i : S200000x1.Idx)
    (h0 : ∀ k : Fin 256, x0 (ix2 (y 0 : Fin 2000) k) = a0 (ix2 (i 0 : Fin 200000) k))
    (h1 : ∀ k : Fin 256, x1 (ix2 (y 0 : Fin 2000) k) = a1 (ix2 (i 0 : Fin 200000) k))
    (h2 : ∀ k : Fin 256, x2 (ix2 (y 0 : Fin 2000) k) = a2 (ix2 (i 0 : Fin 200000) k))
    (h3 : ∀ (k : Fin 768) (o : Fin 128), x3 (ix2 k o) = a3 (ix2 k o)) (h4 : ∀ o : Fin 128, x4 (ix2 0 o) = a4 (ix2 0 o))
    (h5 : ∀ k : Fin 128, x5 (ix2 k (0 : Fin 1)) = a5 (ix2 k (0 : Fin 1))) (h6 : x6 (ix2 0 0) = a6 (ix2 0 0)) :
    k3_pay3 x0 x1 x2 x3 x4 x5 x6 y
      = Cert.Spec.lin
          (fun j : S200000x128.Idx => Cert.Spec.mlpPos (by norm_num) a0 a1 a2 a3 (fun o => a4 (ix2 0 o)) (j 0) (j 1))
          a5 (a6 (ix2 0 0)) (i 0 : Fin 200000) := by
  obtain ⟨p, r, rfl⟩ : ∃ (p : Fin 2000) (r : Fin 1), y = ix2 p r := ⟨y 0, y 1, eq_ix2 y⟩
  obtain ⟨ii, ir, rfl⟩ : ∃ (ii : Fin 200000) (ir : Fin 1), i = ix2 ii ir := ⟨i 0, i 1, eq_ix2 i⟩
  rw [k3_pay3_apply_col]
  refine lin_of_rows _ _ x5 a5 _ _ p ii (fun k => ?_) h5 h6
  show Cert.Spec.mlpPos _ x0 x1 x2 x3 (fun o => x4 (ix2 0 o)) p k
    = Cert.Spec.mlpPos _ a0 a1 a2 a3 (fun o => a4 (ix2 0 o)) ii k
  exact mlpPos_of_rows _ x0 x1 x2 a0 a1 a2 x3 a3 _ _ p ii k h0 h1 h2 (fun k' => h3 k' k) (h4 k)

section Region3
variable (V : (c : Dev nD) → (b : Ref sig .tc) → Buf (Elt Ideal) ((c : Thread nD τ).loc b))

/-- The printed index maps over the grid: the three feature windows and the three result windows are at block row `t`,
    column block 0; the weight, bias, one-column matrix and scalar windows stay at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

/-! ### Each input block is its array read where the block lies -/

/-- Feature window 0's block at point `t` is rows `2000 t … 2000 t + 1999` of its array. -/
theorem iblk3_0_apply (c : Dev nD) (t : Fin cfg3.N) (y : S2000x256.Idx) (i : S200000x256.Idx)
    (h0 : (i 0).val = 2000 * t.val + (y 0).val) (h1 : (i 1).val = (y 1).val) :
    iblk3 V c 0 t y = V c (Pipeline.arrRef spec3 0) i := by
  obtain ⟨e00, e01, -⟩ := idx3 t
  unfold iblk3
  rw [View.read_apply]
  show V c (Pipeline.arrRef spec3 0) _ = V c (Pipeline.arrRef spec3 0) _
  congr 1
  funext a
  apply Fin.ext
  match a with
  | ⟨0, _⟩ =>
    show win3_0.index t (0 : Fin 2) * 2000 + 1 * (y 0).val = (i 0).val
    rw [e00, h0]; omega
  | ⟨1, _⟩ =>
    show win3_0.index t (1 : Fin 2) * 256 + 1 * (y 1).val = (i 1).val
    rw [e01, h1]; omega

/-- Feature window 1's block likewise. -/
theorem iblk3_1_apply (c : Dev nD) (t : Fin cfg3.N) (y : S2000x256.Idx) (i : S200000x256.Idx)
    (h0 : (i 0).val = 2000 * t.val + (y 0).val) (h1 : (i 1).val = (y 1).val) :
    iblk3 V c 1 t y = V c (Pipeline.arrRef spec3 1) i := by
  obtain ⟨-, -, e10, e11, -⟩ := idx3 t
  unfold iblk3
  rw [View.read_apply]
  show V c (Pipeline.arrRef spec3 1) _ = V c (Pipeline.arrRef spec3 1) _
  congr 1
  funext a
  apply Fin.ext
  match a with
  | ⟨0, _⟩ =>
    show win3_1.index t (0 : Fin 2) * 2000 + 1 * (y 0).val = (i 0).val
    rw [e10, h0]; omega
  | ⟨1, _⟩ =>
    show win3_1.index t (1 : Fin 2) * 256 + 1 * (y 1).val = (i 1).val
    rw [e11, h1]; omega

/-- Feature window 2's block likewise. -/
theorem iblk3_2_apply (c : Dev nD) (t : Fin cfg3.N) (y : S2000x256.Idx) (i : S200000x256.Idx)
    (h0 : (i 0).val = 2000 * t.val + (y 0).val) (h1 : (i 1).val = (y 1).val) :
    iblk3 V c 2 t y = V c (Pipeline.arrRef spec3 2) i := by
  obtain ⟨-, -, -, -, e20, e21, -⟩ := idx3 t
  unfold iblk3
  rw [View.read_apply]
  show V c (Pipeline.arrRef spec3 2) _ = V c (Pipeline.arrRef spec3 2) _
  congr 1
  funext a
  apply Fin.ext
  match a with
  | ⟨0, _⟩ =>
    show win3_2.index t (0 : Fin 2) * 2000 + 1 * (y 0).val = (i 0).val
    rw [e20, h0]; omega
  | ⟨1, _⟩ =>
    show win3_2.index t (1 : Fin 2) * 256 + 1 * (y 1).val = (i 1).val
    rw [e21, h1]; omega

/-- The weight window's block at every point is the whole weight matrix. -/
theorem iblk3_3_apply (c : Dev nD) (t : Fin cfg3.N) (y : S768x128.Idx) :
    iblk3 V c 3 t y = V c (Pipeline.arrRef spec3 3) y := by
  obtain ⟨-, -, -, -, -, -, e30, e31, -⟩ := idx3 t
  unfold iblk3
  rw [View.read_apply]
  show V c (Pipeline.arrRef spec3 3) _ = V c (Pipeline.arrRef spec3 3) _
  congr 1
  funext a
  apply Fin.ext
  match a with
  | ⟨0, _⟩ =>
    show win3_3.index t (0 : Fin 2) * 768 + 1 * (y 0).val = (y 0).val
    rw [e30]; omega
  | ⟨1, _⟩ =>
    show win3_3.index t (1 : Fin 2) * 128 + 1 * (y 1).val = (y 1).val
    rw [e31]; omega

/-- The bias window's block at every point is the whole bias row. -/
theorem iblk3_4_apply (c : Dev nD) (t : Fin cfg3.N) (y : S1x128.Idx) :
    iblk3 V c 4 t y = V c (Pipeline.arrRef spec3 4) y := by
  obtain ⟨-, -, -, -, -, -, -, -, e40, e41, -⟩ := idx3 t
  unfold iblk3
  rw [View.read_apply]
  show V c (Pipeline.arrRef spec3 4) _ = V c (Pipeline.arrRef spec3 4) _
  congr 1
  funext a
  apply Fin.ext
  match a with
  | ⟨0, _⟩ =>
    show win3_4.index t (0 : Fin 2) * 1 + 1 * (y 0).val = (y 0).val
    rw [e40]; omega
  | ⟨1, _⟩ =>
    show win3_4.index t (1 : Fin 2) * 128 + 1 * (y 1).val = (y 1).val
    rw [e41]; omega

/-- The one-column matrix's window at every point is the whole matrix. -/
theorem iblk3_5_apply (c : Dev nD) (t : Fin cfg3.N) (y : S128x1.Idx) :
    iblk3 V c 5 t y = V c (Pipeline.arrRef spec3 5) y := by
  obtain ⟨-, -, -, -, -, -, -, -, -, -, e50, e51, -⟩ := idx3 t
  unfold iblk3
  rw [View.read_apply]
  show V c (Pipeline.arrRef spec3 5) _ = V c (Pipeline.arrRef spec3 5) _
  congr 1
  funext a
  apply Fin.ext
  match a with
  | ⟨0, _⟩ =>
    show win3_5.index t (0 : Fin 2) * 128 + 1 * (y 0).val = (y 0).val
    rw [e50]; omega
  | ⟨1, _⟩ =>
    show win3_5.index t (1 : Fin 2) * 1 + 1 * (y 1).val = (y 1).val
    rw [e51]; omega

/-- The scalar's window at every point is the whole one-entry array. -/
theorem iblk3_6_apply (c : Dev nD) (t : Fin cfg3.N) (y : S1x1.Idx) :
    iblk3 V c 6 t y = V c (Pipeline.arrRef spec3 6) y := by
  obtain ⟨-, -, -, -, -, -, -, -, -, -, -, -, e60, e61, -⟩ := idx3 t
  unfold iblk3
  rw [View.read_apply]
  show V c (Pipeline.arrRef spec3 6) _ = V c (Pipeline.arrRef spec3 6) _
  congr 1
  funext a
  apply Fin.ext
  match a with
  | ⟨0, _⟩ =>
    show win3_6.index t (0 : Fin 2) * 1 + 1 * (y 0).val = (y 0).val
    rw [e60]; omega
  | ⟨1, _⟩ =>
    show win3_6.index t (1 : Fin 2) * 1 + 1 * (y 1).val = (y 1).val
    rw [e61]; omega

/-! ### The first result: the dense map -/

/-- What the first result's array holds after the region, as one function of the five input arrays. -/
def G3_7 (c : Dev nD) : S200000x128.Idx → EReal := fun i =>
  Cert.Spec.mlp (n := 200000) (d1 := 256) (d2 := 256) (d3 := 256) (K := 768) (m := 128) (by norm_num)
    (V c (Pipeline.arrRef spec3 0)) (V c (Pipeline.arrRef spec3 1)) (V c (Pipeline.arrRef spec3 2))
    (V c (Pipeline.arrRef spec3 3)) (fun o => V c (Pipeline.arrRef spec3 4) (ix2 0 o)) (i 0) (i 1)

/-- What grid point `t` writes back to the first result's array is block `t` of that function. -/
theorem flushed3_7_eq (c : Dev nD) (t : Fin cfg3.N) :
    (dat3 V c).flushed 7 t = ((cfg3.win 7).blk t).view.read (Elt Ideal) (G3_7 V c) := by
  show (cfg3.win 7).cut (grid3.coords t) ((dat3 V c).after 7 t) = _
  rw [after3_7]
  unfold out3_7
  rw [View.canon_unit_zero zero2]
  simp only [View.ld_unit_zero (S := S2000x256) zero2, View.ld_unit_zero (S := S768x128) zero2, View.ld_unit_zero (S := S1x128) zero2]
  obtain ⟨-, -, -, -, -, -, -, -, -, -, -, -, -, -, e70, e71, -⟩ := idx3 t
  funext j
  have hj0 : (j 0).val < 2000 := (j 0).isLt
  have hI0 : ((((cfg3.win 7).blk t).view.emb j) 0).val = 2000 * t.val + (j 0).val := by
    show win3_7.index t (0 : Fin 2) * 2000 + 1 * (j 0).val = _
    rw [e70]; omega
  have hI1 : ((((cfg3.win 7).blk t).view.emb j) 1).val = (j 1).val := by
    show win3_7.index t (1 : Fin 2) * 128 + 1 * (j 1).val = _
    rw [e71]; omega
  show k3_pay1 (iblk3 V c 0 t) (iblk3 V c 1 t) (iblk3 V c 2 t) (iblk3 V c 3 t) (iblk3 V c 4 t) j
    = G3_7 V c (((cfg3.win 7).blk t).view.emb j)
  exact pt3_pay1_idx (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) j (((cfg3.win 7).blk t).view.emb j)
    (fun k => iblk3_0_apply V c t _ _ hI0 rfl) (fun k => iblk3_1_apply V c t _ _ hI0 rfl)
    (fun k => iblk3_2_apply V c t _ _ hI0 rfl) (fun k o => iblk3_3_apply V c t _) (fun o => iblk3_4_apply V c t _) hI1

/-- An index of the array is in point `t`'s block of window 7 iff each coordinate is in the block's range. -/
theorem mem_blk3_7 (t : Fin cfg3.N) (i : S200000x128.Idx) :
    i ∈ ((cfg3.win 7).blk t).view.set ↔ ∀ a : Fin 2, win3_7.index t a * S2000x128.size a ≤ (i a).val
      ∧ (i a).val < win3_7.index t a * S2000x128.size a + S2000x128.size a := by
  show i ∈ ((View.whole main_v160_0).slice (win3_7.rect t)).set ↔ _
  rw [View.set_slice_whole, Rect.mem_set_unit]
  exact Iff.rfl

/-- Every row of the array lies in the block of the point `row / 2000`. -/
theorem cover3_7 (i : S200000x128.Idx) :
    ∃ t : Fin cfg3.N, (cfg3.win 7).flush t = true ∧ i ∈ ((cfg3.win 7).blk t).view.set := by
  have hi0 : (i 0).val < 200000 := (i 0).isLt
  have hi1 : (i 1).val < 128 := (i 1).isLt
  have hN : cfg3.N = 100 := N_3
  have ht : (i 0).val / 2000 < cfg3.N := by rw [hN]; omega
  obtain ⟨-, -, -, -, -, -, -, -, -, -, -, -, -, -, e70, e71, -⟩ := idx3 ⟨(i 0).val / 2000, ht⟩
  refine ⟨⟨(i 0).val / 2000, ht⟩, flush3_7 _, ?_⟩
  rw [mem_blk3_7]
  intro a
  match a with
  | ⟨0, _⟩ =>
    show win3_7.index ⟨(i 0).val / 2000, ht⟩ (0 : Fin 2) * 2000 ≤ (i 0).val
      ∧ (i 0).val < win3_7.index ⟨(i 0).val / 2000, ht⟩ (0 : Fin 2) * 2000 + 2000
    rw [e70]
    show (i 0).val / 2000 * 2000 ≤ (i 0).val ∧ (i 0).val < (i 0).val / 2000 * 2000 + 2000
    omega
  | ⟨1, _⟩ =>
    show win3_7.index ⟨(i 0).val / 2000, ht⟩ (1 : Fin 2) * 128 ≤ (i 1).val
      ∧ (i 1).val < win3_7.index ⟨(i 0).val / 2000, ht⟩ (1 : Fin 2) * 128 + 128
    rw [e71]
    omega

/-- The first result's array after the region. -/
theorem final3_7 (c : Dev nD) : (dat3 V c).arrAt 7 cfg3.N = G3_7 V c :=
  (dat3 V c).arrAt_eq_of_cover 7 (G3_7 V c) (fun t _ => flushed3_7_eq V c t) cover3_7

/-- Entry `(i, o)` of the first result's array after the region is the dense map of the five input arrays. -/
theorem val3_7 (c : Dev nD) (i : Fin 200000) (o : Fin 128) :
    (dat3 (F := Ideal) V c).arrAt 7 cfg3.N (ix2 i o)
      = Cert.Spec.mlp (n := 200000) (d1 := 256) (d2 := 256) (d3 := 256) (K := 768) (m := 128) (by norm_num)
          (V c (Pipeline.arrRef spec3 0)) (V c (Pipeline.arrRef spec3 1)) (V c (Pipeline.arrRef spec3 2))
          (V c (Pipeline.arrRef spec3 3)) (fun o => V c (Pipeline.arrRef spec3 4) (ix2 0 o)) i o := by
  rw [final3_7]
  rfl

/-! ### The second result: its positive part -/

/-- What the second result's array holds after the region. -/
def G3_8 (c : Dev nD) : S200000x128.Idx → EReal := fun i =>
  Cert.Spec.mlpPos (n := 200000) (d1 := 256) (d2 := 256) (d3 := 256) (K := 768) (m := 128) (by norm_num)
    (V c (Pipeline.arrRef spec3 0)) (V c (Pipeline.arrRef spec3 1)) (V c (Pipeline.arrRef spec3 2))
    (V c (Pipeline.arrRef spec3 3)) (fun o => V c (Pipeline.arrRef spec3 4) (ix2 0 o)) (i 0) (i 1)

/-- What grid point `t` writes back to the second result's array is block `t` of that function. -/
theorem flushed3_8_eq (c : Dev nD) (t : Fin cfg3.N) :
    (dat3 V c).flushed 8 t = ((cfg3.win 8).blk t).view.read (Elt Ideal) (G3_8 V c) := by
  show (cfg3.win 8).cut (grid3.coords t) ((dat3 V c).after 8 t) = _
  rw [after3_8]
  unfold out3_8
  rw [View.canon_unit_zero zero2]
  simp only [View.ld_unit_zero (S := S2000x256) zero2, View.ld_unit_zero (S := S768x128) zero2, View.ld_unit_zero (S := S1x128) zero2]
  obtain ⟨-, -, -, -, -, -, -, -, -, -, -, -, -, -, -, -, e80, e81, -⟩ := idx3 t
  funext j
  have hj0 : (j 0).val < 2000 := (j 0).isLt
  have hI0 : ((((cfg3.win 8).blk t).view.emb j) 0).val = 2000 * t.val + (j 0).val := by
    show win3_8.index t (0 : Fin 2) * 2000 + 1 * (j 0).val = _
    rw [e80]; omega
  have hI1 : ((((cfg3.win 8).blk t).view.emb j) 1).val = (j 1).val := by
    show win3_8.index t (1 : Fin 2) * 128 + 1 * (j 1).val = _
    rw [e81]; omega
  show k3_pay2 (iblk3 V c 0 t) (iblk3 V c 1 t) (iblk3 V c 2 t) (iblk3 V c 3 t) (iblk3 V c 4 t) j
    = G3_8 V c (((cfg3.win 8).blk t).view.emb j)
  exact pt3_pay2_idx (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) j (((cfg3.win 8).blk t).view.emb j)
    (fun k => iblk3_0_apply V c t _ _ hI0 rfl) (fun k => iblk3_1_apply V c t _ _ hI0 rfl)
    (fun k => iblk3_2_apply V c t _ _ hI0 rfl) (fun k o => iblk3_3_apply V c t _) (fun o => iblk3_4_apply V c t _) hI1

/-- An index of the array is in point `t`'s block of window 8 iff each coordinate is in the block's range. -/
theorem mem_blk3_8 (t : Fin cfg3.N) (i : S200000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v160_1).slice (win3_8.rect t)).set ↔ _
  rw [View.set_slice_whole, Rect.mem_set_unit]
  exact Iff.rfl

/-- Every row of the array lies in the block of the point `row / 2000`. -/
theorem cover3_8 (i : S200000x128.Idx) :
    ∃ t : Fin cfg3.N, (cfg3.win 8).flush t = true ∧ i ∈ ((cfg3.win 8).blk t).view.set := by
  have hi0 : (i 0).val < 200000 := (i 0).isLt
  have hi1 : (i 1).val < 128 := (i 1).isLt
  have hN : cfg3.N = 100 := N_3
  have ht : (i 0).val / 2000 < cfg3.N := by rw [hN]; omega
  obtain ⟨-, -, -, -, -, -, -, -, -, -, -, -, -, -, -, -, e80, e81, -⟩ := idx3 ⟨(i 0).val / 2000, ht⟩
  refine ⟨⟨(i 0).val / 2000, ht⟩, flush3_8 _, ?_⟩
  rw [mem_blk3_8]
  intro a
  match a with
  | ⟨0, _⟩ =>
    show win3_8.index ⟨(i 0).val / 2000, ht⟩ (0 : Fin 2) * 2000 ≤ (i 0).val
      ∧ (i 0).val < win3_8.index ⟨(i 0).val / 2000, ht⟩ (0 : Fin 2) * 2000 + 2000
    rw [e80]
    show (i 0).val / 2000 * 2000 ≤ (i 0).val ∧ (i 0).val < (i 0).val / 2000 * 2000 + 2000
    omega
  | ⟨1, _⟩ =>
    show win3_8.index ⟨(i 0).val / 2000, ht⟩ (1 : Fin 2) * 128 ≤ (i 1).val
      ∧ (i 1).val < win3_8.index ⟨(i 0).val / 2000, ht⟩ (1 : Fin 2) * 128 + 128
    rw [e81]
    omega

/-- The second result's array after the region. -/
theorem final3_8 (c : Dev nD) : (dat3 V c).arrAt 8 cfg3.N = G3_8 V c :=
  (dat3 V c).arrAt_eq_of_cover 8 (G3_8 V c) (fun t _ => flushed3_8_eq V c t) cover3_8

/-- Entry `(i, o)` of the second result's array after the region is the positive part of the dense map. -/
theorem val3_8 (c : Dev nD) (i : Fin 200000) (o : Fin 128) :
    (dat3 (F := Ideal) V c).arrAt 8 cfg3.N (ix2 i o)
      = Cert.Spec.mlpPos (n := 200000) (d1 := 256) (d2 := 256) (d3 := 256) (K := 768) (m := 128) (by norm_num)
          (V c (Pipeline.arrRef spec3 0)) (V c (Pipeline.arrRef spec3 1)) (V c (Pipeline.arrRef spec3 2))
          (V c (Pipeline.arrRef spec3 3)) (fun o => V c (Pipeline.arrRef spec3 4) (ix2 0 o)) i o := by
  rw [final3_8]
  rfl

/-! ### The third result: the positive part through the one-column matrix, plus the scalar -/

/-- What the third result's array holds after the region, as one function of the seven input arrays. -/
def G3_9 (c : Dev nD) : S200000x1.Idx → EReal := fun i =>
  Cert.Spec.lin (n := 200000) (K := 128)
    (fun j : S200000x128.Idx =>
      Cert.Spec.mlpPos (n := 200000) (d1 := 256) (d2 := 256) (d3 := 256) (K := 768) (m := 128) (by norm_num)
        (V c (Pipeline.arrRef spec3 0)) (V c (Pipeline.arrRef spec3 1)) (V c (Pipeline.arrRef spec3 2))
        (V c (Pipeline.arrRef spec3 3)) (fun o => V c (Pipeline.arrRef spec3 4) (ix2 0 o)) (j 0) (j 1))
    (V c (Pipeline.arrRef spec3 5)) (V c (Pipeline.arrRef spec3 6) (ix2 0 0)) (i 0)

/-- What grid point `t` writes back to the third result's array is block `t` of that function. -/
theorem flushed3_9_eq (c : Dev nD) (t : Fin cfg3.N) :
    (dat3 V c).flushed 9 t = ((cfg3.win 9).blk t).view.read (Elt Ideal) (G3_9 V c) := by
  show (cfg3.win 9).cut (grid3.coords t) ((dat3 V c).after 9 t) = _
  rw [after3_9]
  unfold out3_9
  rw [View.canon_unit_zero zero2]
  simp only [View.ld_unit_zero (S := S2000x256) zero2, View.ld_unit_zero (S := S768x128) zero2, View.ld_unit_zero (S := S1x128) zero2,
    View.ld_unit_zero (S := S128x1) zero2, View.ld_unit_zero (S := S1x1) zero2]
  obtain ⟨-, -, -, -, -, -, -, -, -, -, -, -, -, -, -, -, -, -, e90, e91⟩ := idx3 t
  funext j
  have hj0 : (j 0).val < 2000 := (j 0).isLt
  have hI0 : ((((cfg3.win 9).blk t).view.emb j) 0).val = 2000 * t.val + (j 0).val := by
    show win3_9.index t (0 : Fin 2) * 2000 + 1 * (j 0).val = _
    rw [e90]; omega
  show k3_pay3 (iblk3 V c 0 t) (iblk3 V c 1 t) (iblk3 V c 2 t) (iblk3 V c 3 t) (iblk3 V c 4 t) (iblk3 V c 5 t) (iblk3 V c 6 t) j
    = G3_9 V c (((cfg3.win 9).blk t).view.emb j)
  exact pt3_pay3_idx (iblk3 V c 0 t) (iblk3 V c 1 t) (iblk3 V c 2 t) (iblk3 V c 3 t) (iblk3 V c 4 t) (iblk3 V c 5 t) (iblk3 V c 6 t)
    (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5)) (V c (Pipeline.arrRef spec3 6))
    j (((cfg3.win 9).blk t).view.emb j)
    (fun k => iblk3_0_apply V c t _ _ hI0 rfl) (fun k => iblk3_1_apply V c t _ _ hI0 rfl)
    (fun k => iblk3_2_apply V c t _ _ hI0 rfl) (fun k o => iblk3_3_apply V c t _) (fun o => iblk3_4_apply V c t _)
    (fun k => iblk3_5_apply V c t _) (iblk3_6_apply V c t _)

/-- An index of the array is in point `t`'s block of window 9 iff each coordinate is in the block's range. -/
theorem mem_blk3_9 (t : Fin cfg3.N) (i : S200000x1.Idx) :
    i ∈ ((cfg3.win 9).blk t).view.set ↔ ∀ a : Fin 2, win3_9.index t a * S2000x1.size a ≤ (i a).val
      ∧ (i a).val < win3_9.index t a * S2000x1.size a + S2000x1.size a := by
  show i ∈ ((View.whole main_v160_2).slice (win3_9.rect t)).set ↔ _
  rw [View.set_slice_whole, Rect.mem_set_unit]
  exact Iff.rfl

/-- Every row of the one-column array lies in the block of the point `row / 2000`. -/
theorem cover3_9 (i : S200000x1.Idx) :
    ∃ t : Fin cfg3.N, (cfg3.win 9).flush t = true ∧ i ∈ ((cfg3.win 9).blk t).view.set := by
  have hi0 : (i 0).val < 200000 := (i 0).isLt
  have hi1 : (i 1).val < 1 := (i 1).isLt
  have hN : cfg3.N = 100 := N_3
  have ht : (i 0).val / 2000 < cfg3.N := by rw [hN]; omega
  obtain ⟨-, -, -, -, -, -, -, -, -, -, -, -, -, -, -, -, -, -, e90, e91⟩ := idx3 ⟨(i 0).val / 2000, ht⟩
  refine ⟨⟨(i 0).val / 2000, ht⟩, flush3_9 _, ?_⟩
  rw [mem_blk3_9]
  intro a
  match a with
  | ⟨0, _⟩ =>
    show win3_9.index ⟨(i 0).val / 2000, ht⟩ (0 : Fin 2) * 2000 ≤ (i 0).val
      ∧ (i 0).val < win3_9.index ⟨(i 0).val / 2000, ht⟩ (0 : Fin 2) * 2000 + 2000
    rw [e90]
    show (i 0).val / 2000 * 2000 ≤ (i 0).val ∧ (i 0).val < (i 0).val / 2000 * 2000 + 2000
    omega
  | ⟨1, _⟩ =>
    show win3_9.index ⟨(i 0).val / 2000, ht⟩ (1 : Fin 2) * 1 ≤ (i 1).val
      ∧ (i 1).val < win3_9.index ⟨(i 0).val / 2000, ht⟩ (1 : Fin 2) * 1 + 1
    rw [e91]
    omega

/-- The third result's array after the region. -/
theorem final3_9 (c : Dev nD) : (dat3 V c).arrAt 9 cfg3.N = G3_9 V c :=
  (dat3 V c).arrAt_eq_of_cover 9 (G3_9 V c) (fun t _ => flushed3_9_eq V c t) cover3_9

/-- Entry `i` of the third result's array after the region: row `i` of the positive part of the dense map of the first
    five arrays, against the one-column matrix, plus the scalar. -/
theorem val3_9 (c : Dev nD) (i : Fin 200000) :
    (dat3 (F := Ideal) V c).arrAt 9 cfg3.N (ix2 i 0)
      = Cert.Spec.lin (n := 200000) (K := 128)
          (fun j : S200000x128.Idx =>
            Cert.Spec.mlpPos (n := 200000) (d1 := 256) (d2 := 256) (d3 := 256) (K := 768) (m := 128) (by norm_num)
              (V c (Pipeline.arrRef spec3 0)) (V c (Pipeline.arrRef spec3 1)) (V c (Pipeline.arrRef spec3 2))
              (V c (Pipeline.arrRef spec3 3)) (fun o => V c (Pipeline.arrRef spec3 4) (ix2 0 o)) (j 0) (j 1))
          (V c (Pipeline.arrRef spec3 5)) (V c (Pipeline.arrRef spec3 6) (ix2 0 0)) i := by
  rw [final3_9]
  rfl

end Region3

end Cert.KernelIdeal.Hand

end
-- ==== Proof.St19.lean ====
/-
  Group 19: the fourth layer's dense map, and the last column.  The kernel converts the weights' format and reshapes the
  bias to one row, converts a one-column matrix and reshapes a scalar to one entry (over the extended reals each leaves
  every entry as it was), then runs its pipelined region.  After it the first result array holds, at every edge and
  output column, the dense map of the five arrays the region read; the second result array its positive part; and the
  third result array, at every edge, that edge's row of the positive part against the one-column matrix, plus the
  scalar: a fact about the kernel alone, carried until the reference computes its partner.  The reference's five
  operations, read at an entry, are the same dense map of its five arrays.  The three feature arrays agree on the two
  sides by the entry relation, the converted weights read the weights and the reshaped bias reads the bias, so the two
  dense maps are one number.  No other live buffer is an array of the region or a result of the group's operations, so
  each is carried.
-/
import proofs.«430033_j52948356825731_1_alg».proof.Proof.RelReg
import proofs.«430033_j52948356825731_1_alg».proof.Proof.KIVal3
import proofs.«430033_j52948356825731_1_alg».proof.Proof.RMlp

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

section Step
variable (W : Dev Cert.KernelIdeal.nD → KVal) (c : Dev Cert.KernelIdeal.nD)

/-- A buffer that is none of the region's arrays is left as the group's host operations left it. -/
theorem kstep19_of_ne (b : Ref Cert.KernelIdeal.sig .tc) (hb : ∀ w, Pipeline.arrRef Cert.KernelIdeal.spec3 w ≠ b) :
    kstep19 W c (Proc.devRef .tc b) = StableHlo.after ks19 (W c) (Proc.devRef .tc b) := by
  unfold kstep19; exact Pipeline.withArrays_of_ne Cert.KernelIdeal.spec3 c _ _ b hb

/-- A window's array is left at the fold of the region's write-backs. -/
theorem kstep19_arr (w : Fin Cert.KernelIdeal.cfg3.W) :
    kstep19 W c (Proc.devRef .tc (Pipeline.arrRef Cert.KernelIdeal.spec3 w))
      = (Cert.KernelIdeal.Hand.dat3 (F := Ideal) (fun c b => StableHlo.after ks19 (W c) b) c).arrAt w Cert.KernelIdeal.cfg3.N := by
  unfold kstep19; exact Pipeline.withArrays_arr Cert.KernelIdeal.spec3 Cert.KernelIdeal.Gen.launch3.win.arr_inj c _ _ w

end Step

/-- The five arrays the region reads against the five the reference's layer reads: the features by the entry relation,
    the converted weights entry by entry, the reshaped bias at its one row. -/
theorem inputs19 {Vk : KVal} {Vr : RVal} (h0 : Rel18 Vk Vr) :
    (StableHlo.after ks19 Vk (Proc.devRef .tc Cert.KernelIdeal.main_v154) : FVec Ideal Cert.KernelIdeal.S200000x256 .f32) = (Vr (Proc.devRef .tc Cert.ReferenceIdeal.main_v229) : FVec Ideal Cert.ReferenceIdeal.S200000x256 .f32)
    ∧ (StableHlo.after ks19 Vk (Proc.devRef .tc Cert.KernelIdeal.main_v155) : FVec Ideal Cert.KernelIdeal.S200000x256 .f32) = (Vr (Proc.devRef .tc Cert.ReferenceIdeal.main_v236) : FVec Ideal Cert.ReferenceIdeal.S200000x256 .f32)
    ∧ (StableHlo.after ks19 Vk (Proc.devRef .tc Cert.KernelIdeal.main_v153) : FVec Ideal Cert.KernelIdeal.S200000x256 .f32) = (Vr (Proc.devRef .tc Cert.ReferenceIdeal.main_v222) : FVec Ideal Cert.ReferenceIdeal.S200000x256 .f32)
    ∧ (∀ idx, (StableHlo.after ks19 Vk (Proc.devRef .tc Cert.KernelIdeal.main_v156) : FVec Ideal Cert.KernelIdeal.S768x128 .bf16) idx = (Vr (Proc.devRef .tc Cert.ReferenceIdeal.main_arg12) : FVec Ideal Cert.ReferenceIdeal.S768x128 .f32) idx)
    ∧ (∀ o : Fin 128, (StableHlo.after ks19 Vk (Proc.devRef .tc Cert.KernelIdeal.main_v157) : FVec Ideal Cert.KernelIdeal.S1x128 .f32) (ix2 (0 : Fin 1) o) = (Vr (Proc.devRef .tc Cert.ReferenceIdeal.main_arg13) : FVec Ideal Cert.ReferenceIdeal.S128 .f32) (ix1 o)) := by
  refine ⟨?_, ?_, ?_, ?_, ?_⟩
  · after_results_simp; exact h0.p_v154
  · after_results_simp; exact h0.p_v155
  · after_results_simp; exact h0.p_v153
  · intro idx; after_results_simp; have ea : _ = _ := h0.a12; rw [← ea]; rfl
  · intro o; after_results_simp; have ea : _ = _ := h0.a13; rw [← ea]
    refine shapeCast_apply (s := Cert.KernelIdeal.S128) (t := Cert.KernelIdeal.S1x128) _ _ (ix2 (0 : Fin 1) o) (ix1 o) ?_
    rw [Shape.rowMajor_val_one, Shape.rowMajor_val_two]
    show o.val = (0 : Fin 1).val * 128 + o.val
    simp

/-- The first result array after the region, at an entry, is the reference's layer at that entry. -/
theorem dense19 (W : Dev Cert.KernelIdeal.nD → KVal) (U : Dev Cert.KernelIdeal.nD → RVal) (c : Dev Cert.KernelIdeal.nD) (h0 : Rel18 (W c) (U c))
    (i : Fin 200000) (o : Fin 128) :
    (kstep19 W c (Proc.devRef .tc Cert.KernelIdeal.main_v160_0) : FVec Ideal Cert.KernelIdeal.S200000x128 .f32) (ix2 i o)
      = (StableHlo.after (Cert.ReferenceIdeal.Hand.rs19 (F := Ideal)) (U c) (Proc.devRef .tc Cert.ReferenceIdeal.main_v241) : FVec Ideal Cert.ReferenceIdeal.S200000x128 .f32) (ix2 i o) := by
  obtain ⟨e0, e1, e2, e3, e4⟩ := inputs19 h0
  refine (congrFun (kstep19_arr W c 7) (ix2 i o)).trans ?_
  refine (Cert.KernelIdeal.Hand.val3_7 _ c i o).trans ?_
  refine Eq.trans ?_ (Cert.ReferenceIdeal.Hand.rs19_apply (U c) i o).symm
  exact Cert.KernelIdeal.Hand.mlp_of_rows _ _ _ _ _ _ _ _ _ _ _ i i o
    (fun j => congrFun e0 _) (fun j => congrFun e1 _) (fun j => congrFun e2 _) (fun k => e3 _) (e4 o)

/-- The second result array after the region is the positive part of the first, entry by entry. -/
theorem pos19 (W : Dev Cert.KernelIdeal.nD → KVal) (c : Dev Cert.KernelIdeal.nD) : Pos_v160_1 (kstep19 W c) := by
  intro j
  obtain ⟨i, o, rfl⟩ : ∃ (i : Fin 200000) (o : Fin 128), j = ix2 i o := ⟨j 0, j 1, eq_ix2 j⟩
  refine (congrFun (kstep19_arr W c 8) (ix2 i o)).trans ?_
  refine (Cert.KernelIdeal.Hand.val3_8 _ c i o).trans ?_
  refine Eq.symm ?_
  refine (congrArg (fun x : EReal => max x 0)
    ((congrFun (kstep19_arr W c 7) (ix2 i o)).trans (Cert.KernelIdeal.Hand.val3_7 _ c i o))).trans ?_
  rfl

/-- The third result array after the region, at an edge: that edge's row of the second result array against the
    one-column matrix, plus the scalar.  The region read the matrix converted and the scalar reshaped to one entry;
    over the extended reals they read the matrix and the scalar themselves. -/
theorem lin19 (W : Dev Cert.KernelIdeal.nD → KVal) (c : Dev Cert.KernelIdeal.nD) (i : Fin 200000) :
    ((kstep19 W c (Proc.devRef .tc Cert.KernelIdeal.main_v160_2) : FVec Ideal Cert.KernelIdeal.S200000x1 .f32) (ix2 i (0 : Fin 1)) : EReal)
      = Cert.Spec.lin (kstep19 W c (Proc.devRef .tc Cert.KernelIdeal.main_v160_1) : FVec Ideal Cert.KernelIdeal.S200000x128 .f32)
          (kstep19 W c (Proc.devRef .tc Cert.KernelIdeal.main_arg16) : FVec Ideal Cert.KernelIdeal.S128x1 .f32)
          ((kstep19 W c (Proc.devRef .tc Cert.KernelIdeal.main_arg17) : FVec Ideal Cert.KernelIdeal.S1 .f32) (ix1 (0 : Fin 1))) i := by
  refine (congrFun (kstep19_arr W c 9) (ix2 i (0 : Fin 1))).trans ?_
  refine (Cert.KernelIdeal.Hand.val3_9 _ c i).trans ?_
  refine Cert.KernelIdeal.Hand.lin_of_rows _ _ _ _ _ _ i i (fun k => ?_) (fun k => ?_) ?_
  · -- row `i` of the positive part is row `i` of the second result array
    exact ((congrFun (kstep19_arr W c 8) (ix2 i k)).trans (Cert.KernelIdeal.Hand.val3_8 _ c i k)).symm
  · -- the converted matrix reads the matrix
    refine Eq.trans ?_ (congrFun (kstep19_of_ne W c Cert.KernelIdeal.main_arg16 (by decide)) (ix2 k (0 : Fin 1))).symm
    show (StableHlo.after ks19 (W c) (Proc.devRef .tc Cert.KernelIdeal.main_v158) : FVec Ideal Cert.KernelIdeal.S128x1 .bf16) (ix2 k (0 : Fin 1))
      = (StableHlo.after ks19 (W c) (Proc.devRef .tc Cert.KernelIdeal.main_arg16) : FVec Ideal Cert.KernelIdeal.S128x1 .f32) (ix2 k (0 : Fin 1))
    after_results_simp
    rfl
  · -- the reshaped scalar reads the scalar
    refine Eq.trans ?_ (congrFun (kstep19_of_ne W c Cert.KernelIdeal.main_arg17 (by decide)) (ix1 (0 : Fin 1))).symm
    show (StableHlo.after ks19 (W c) (Proc.devRef .tc Cert.KernelIdeal.main_v159) : FVec Ideal Cert.KernelIdeal.S1x1 .f32) (ix2 (0 : Fin 1) (0 : Fin 1))
      = (StableHlo.after ks19 (W c) (Proc.devRef .tc Cert.KernelIdeal.main_arg17) : FVec Ideal Cert.KernelIdeal.S1 .f32) (ix1 (0 : Fin 1))
    after_results_simp
    refine shapeCast_apply (s := Cert.KernelIdeal.S1) (t := Cert.KernelIdeal.S1x1) _ _ (ix2 (0 : Fin 1) (0 : Fin 1)) (ix1 (0 : Fin 1)) ?_
    rw [Shape.rowMajor_val_one, Shape.rowMajor_val_two]
    rfl

theorem owes19 : Owes19 := by
  intro W U h c
  have h0 := h c
  refine ⟨?_, ?_, ?_, ?_, ?_, ?_, ?_, ?_, ?_, ?_, ?_, ?_, ?_, ?_, ?_, ?_, ?_, ?_, ?_, ?_, ?_, ?_⟩
  · refine (kstep19_of_ne W c Cert.KernelIdeal.main_arg0 (by decide)).trans ?_; after_results_simp; exact h0.a0
  · refine (kstep19_of_ne W c Cert.KernelIdeal.main_arg2 (by decide)).trans ?_; after_results_simp; exact h0.a2
  · refine (kstep19_of_ne W c Cert.KernelIdeal.main_arg3 (by decide)).trans ?_; after_results_simp; exact h0.a3
  · refine (kstep19_of_ne W c Cert.KernelIdeal.main_arg14 (by decide)).trans ?_; after_results_simp; exact h0.a14
  · refine (kstep19_of_ne W c Cert.KernelIdeal.main_arg15 (by decide)).trans ?_; after_results_simp; exact h0.a15
  · refine (kstep19_of_ne W c Cert.KernelIdeal.main_arg16 (by decide)).trans ?_; after_results_simp; exact h0.a16
  · refine (kstep19_of_ne W c Cert.KernelIdeal.main_arg17 (by decide)).trans ?_; after_results_simp; exact h0.a17
  · refine (kstep19_of_ne W c Cert.KernelIdeal.main_cst (by decide)).trans ?_; after_results_simp; exact h0.p_cst
  · refine (kstep19_of_ne W c Cert.KernelIdeal.main_v1 (by decide)).trans ?_; after_results_simp; exact h0.p_v1
  · refine (kstep19_of_ne W c Cert.KernelIdeal.main_v120_1 (by decide)).trans ?_; after_results_simp; exact h0.p_v120_1
  · refine (kstep19_of_ne W c Cert.KernelIdeal.main_v126 (by decide)).trans ?_; after_results_simp; exact h0.p_v126
  · refine (kstep19_of_ne W c Cert.KernelIdeal.main_v132_1 (by decide)).trans ?_; after_results_simp; exact h0.p_v132_1
  · refine (kstep19_of_ne W c Cert.KernelIdeal.main_v138 (by decide)).trans ?_; after_results_simp; exact h0.p_v138
  · refine (kstep19_of_ne W c Cert.KernelIdeal.main_v145_1 (by decide)).trans ?_; after_results_simp; exact h0.p_v145_1
  · refine (kstep19_of_ne W c Cert.KernelIdeal.main_v151 (by decide)).trans ?_; after_results_simp; exact h0.p_v151
  · -- the dense map, entry by entry
    show (kstep19 W c (Proc.devRef .tc Cert.KernelIdeal.main_v160_0) : FVec Ideal Cert.KernelIdeal.S200000x128 .f32) = _
    funext j
    obtain ⟨i, o, rfl⟩ : ∃ (i : Fin 200000) (o : Fin 128), j = ix2 i o := ⟨j 0, j 1, eq_ix2 j⟩
    exact dense19 W U c h0 i o
  · refine (kstep19_of_ne W c Cert.KernelIdeal.main_v3 (by decide)).trans ?_; after_results_simp; exact h0.p_v3
  · intro i
    show ((kstep19 W c (Proc.devRef .tc Cert.KernelIdeal.main_v1) : IVec Cert.KernelIdeal.S200000 32) i).toNat < 10000
    rw [kstep19_of_ne W c Cert.KernelIdeal.main_v1 (by decide)]
    after_results_simp
    exact h0.rng1 i
  · intro i
    show ((kstep19 W c (Proc.devRef .tc Cert.KernelIdeal.main_v3) : IVec Cert.KernelIdeal.S200000 32) i).toNat < 10000
    rw [kstep19_of_ne W c Cert.KernelIdeal.main_v3 (by decide)]
    after_results_simp
    exact h0.rng3 i
  · show kstep19 W c (Proc.devRef .tc Cert.KernelIdeal.main_v9) = cntOf (kstep19 W c (Proc.devRef .tc Cert.KernelIdeal.main_v1))
    rw [kstep19_of_ne W c Cert.KernelIdeal.main_v9 (by decide), kstep19_of_ne W c Cert.KernelIdeal.main_v1 (by decide)]
    after_results_simp; exact h0.cnt
  · exact pos19 W c
  · exact lin19 W c

end Cert.Stage

end
-- ==== Proof.St20.lean ====
/-
  Group 20: the fourth layer's node features.  Both programs add, for every node, the messages of the edges that leave it
  (a segment sum over the source index), divide by the number of such edges floored at one, and keep the positive part.
  The kernel reads the count it computed once from the source row; the reference recomputes it here by the same six
  operations, so the two quotients agree entry by entry.  Every other live buffer is untouched.
-/
import proofs.«430033_j52948356825731_1_alg».proof.Proof.Rel
import proofs.«430033_j52948356825731_1_alg».proof.Proof.KITakes
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 1000000 in
theorem owes20 : Owes20 := by
  intro W U h c
  have h0 := h c
  have e_cnt : W c (Proc.devRef .tc Cert.KernelIdeal.main_v9) = cntOf (W c (Proc.devRef .tc Cert.KernelIdeal.main_v1)) := h0.cnt
  have e_p_v1 : W c (Proc.devRef .tc Cert.KernelIdeal.main_v1) = U c (Proc.devRef .tc Cert.ReferenceIdeal.main_v1) := h0.p_v1
  have e_p_v160_0 : W c (Proc.devRef .tc Cert.KernelIdeal.main_v160_0) = U c (Proc.devRef .tc Cert.ReferenceIdeal.main_v241) := h0.p_v160_0
  refine ⟨?_, ?_, ?_, ?_, ?_, ?_, ?_, ?_, ?_, ?_, ?_, ?_, ?_, ?_, ?_, ?_, ?_, ?_, ?_, ?_, ?_, ?_⟩
  · show StableHlo.after ks20 (W c) _ = _; simp only [StableHlo.after_append]; after_results_simp; exact h0.a0
  · show StableHlo.after ks20 (W c) _ = _; simp only [StableHlo.after_append]; after_results_simp; exact h0.a2
  · show StableHlo.after ks20 (W c) _ = _; simp only [StableHlo.after_append]; after_results_simp; exact h0.a3
  · show StableHlo.after ks20 (W c) _ = _; simp only [StableHlo.after_append]; after_results_simp; exact h0.a14
  · show StableHlo.after ks20 (W c) _ = _; simp only [StableHlo.after_append]; after_results_simp; exact h0.a15
  · show StableHlo.after ks20 (W c) _ = _; simp only [StableHlo.after_append]; after_results_simp; exact h0.a16
  · show StableHlo.after ks20 (W c) _ = _; simp only [StableHlo.after_append]; after_results_simp; exact h0.a17
  · show StableHlo.after ks20 (W c) _ = _; simp only [StableHlo.after_append]; after_results_simp; exact h0.p_cst
  · show StableHlo.after ks20 (W c) _ = _; simp only [StableHlo.after_append]; after_results_simp; exact h0.p_v1
  · show StableHlo.after ks20 (W c) _ = _; simp only [StableHlo.after_append]; after_results_simp; exact h0.p_v120_1
  · show StableHlo.after ks20 (W c) _ = _; simp only [StableHlo.after_append]; after_results_simp; exact h0.p_v126
  · show StableHlo.after ks20 (W c) _ = _; simp only [StableHlo.after_append]; after_results_simp; exact h0.p_v132_1
  · show StableHlo.after ks20 (W c) _ = _; simp only [StableHlo.after_append]; after_results_simp; exact h0.p_v138
  · show StableHlo.after ks20 (W c) _ = _; simp only [StableHlo.after_append]; after_results_simp; exact h0.p_v145_1
  · show StableHlo.after ks20 (W c) _ = _; simp only [StableHlo.after_append]; after_results_simp; exact h0.p_v151
  · show StableHlo.after ks20 (W c) _ = _; simp only [StableHlo.after_append]; after_results_simp; exact h0.p_v160_0
  · -- the mean message per node, positive part: the count read on one side is the count recomputed on the other
    show StableHlo.after ks20 (W c) _ = _
    simp only [StableHlo.after_append]
    after_results_simp
    simp only [Cert.KernelIdeal.Hand.tref_ofBuf_toBuf]
    rw [e_cnt, e_p_v1, e_p_v160_0]
    rfl
  · show StableHlo.after ks20 (W c) _ = _; simp only [StableHlo.after_append]; after_results_simp; exact h0.p_v3
  · intro i
    show ((StableHlo.after ks20 (W c) (Proc.devRef .tc Cert.KernelIdeal.main_v1) : IVec Cert.KernelIdeal.S200000 32) i).toNat < 10000
    simp only [StableHlo.after_append]; after_results_simp
    exact h0.rng1 i
  · intro i
    show ((StableHlo.after ks20 (W c) (Proc.devRef .tc Cert.KernelIdeal.main_v3) : IVec Cert.KernelIdeal.S200000 32) i).toNat < 10000
    simp only [StableHlo.after_append]; after_results_simp
    exact h0.rng3 i
  · show Pos_v160_1 (StableHlo.after ks20 (W c))
    intro j
    simp only [StableHlo.after_append]; after_results_simp
    exact h0.pos_v160_1 j
  · show Lin (StableHlo.after ks20 (W c))
    intro i
    simp only [StableHlo.after_append]; after_results_simp
    exact h0.lin i

end Cert.Stage

end
-- ==== Proof.St21.lean ====
/-
  Group 21: the reference takes the positive part of the fourth layer's dense map.  The kernel formed that positive
  part inside its region as the layer's second output, carried so far as a fact beside the pair of dense maps; so the
  second output and the reference's new array agree entry by entry, both the maximum of the same number and zero.
  The kernel runs no operation here and every other live buffer is untouched.
-/
import proofs.«430033_j52948356825731_1_alg».proof.Proof.Rel
import proofs.«430033_j52948356825731_1_alg».proof.Proof.RMlp

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

theorem owes21 : Owes21 := by
  intro W U h c
  have h0 := h c
  have em : _ = _ := h0.p_v160_0
  refine ⟨?_, ?_, ?_, ?_, ?_, ?_, ?_, ?_, ?_, ?_, ?_, ?_, ?_, ?_, ?_, ?_, ?_, ?_, ?_, ?_, ?_⟩
  · show StableHlo.after ks21 (W c) _ = _; after_results_simp; exact h0.a0
  · show StableHlo.after ks21 (W c) _ = _; after_results_simp; exact h0.a2
  · show StableHlo.after ks21 (W c) _ = _; after_results_simp; exact h0.a3
  · show StableHlo.after ks21 (W c) _ = _; after_results_simp; exact h0.a14
  · show StableHlo.after ks21 (W c) _ = _; after_results_simp; exact h0.a15
  · show StableHlo.after ks21 (W c) _ = _; after_results_simp; exact h0.a16
  · show StableHlo.after ks21 (W c) _ = _; after_results_simp; exact h0.a17
  · show StableHlo.after ks21 (W c) _ = _; after_results_simp; exact h0.p_cst
  · show StableHlo.after ks21 (W c) _ = _; after_results_simp; exact h0.p_v1
  · show StableHlo.after ks21 (W c) _ = _; after_results_simp; exact h0.p_v120_1
  · show StableHlo.after ks21 (W c) _ = _; after_results_simp; exact h0.p_v126
  · show StableHlo.after ks21 (W c) _ = _; after_results_simp; exact h0.p_v132_1
  · show StableHlo.after ks21 (W c) _ = _; after_results_simp; exact h0.p_v138
  · show StableHlo.after ks21 (W c) _ = _; after_results_simp; exact h0.p_v145_1
  · show StableHlo.after ks21 (W c) _ = _; after_results_simp; exact h0.p_v151
  · -- the positive part: the kernel's second output against the reference's maximum with zero
    show (StableHlo.after ks21 (W c) (Proc.devRef .tc Cert.KernelIdeal.main_v160_1) : FVec Ideal Cert.KernelIdeal.S200000x128 .f32) = _
    funext j
    refine Eq.trans ?_ (Cert.ReferenceIdeal.Hand.rs21_apply (U c) j).symm
    after_results_simp
    refine (h0.pos_v160_1 j).trans ?_
    rw [em]
  · show StableHlo.after ks21 (W c) _ = _; after_results_simp; exact h0.p_v166
  · show StableHlo.after ks21 (W c) _ = _; after_results_simp; exact h0.p_v3
  · intro i
    show ((StableHlo.after ks21 (W c) (Proc.devRef .tc Cert.KernelIdeal.main_v1) : IVec Cert.KernelIdeal.S200000 32) i).toNat < 10000
    after_results_simp
    exact h0.rng1 i
  · intro i
    show ((StableHlo.after ks21 (W c) (Proc.devRef .tc Cert.KernelIdeal.main_v3) : IVec Cert.KernelIdeal.S200000 32) i).toNat < 10000
    after_results_simp
    exact h0.rng3 i
  · intro i
    show ((StableHlo.after ks21 (W c) (Proc.devRef .tc Cert.KernelIdeal.main_v160_2) : FVec Ideal Cert.KernelIdeal.S200000x1 .f32) (ix2 i (0 : Fin 1)) : EReal) = Cert.Spec.lin (StableHlo.after ks21 (W c) (Proc.devRef .tc Cert.KernelIdeal.main_v160_1) : FVec Ideal Cert.KernelIdeal.S200000x128 .f32) (StableHlo.after ks21 (W c) (Proc.devRef .tc Cert.KernelIdeal.main_arg16) : FVec Ideal Cert.KernelIdeal.S128x1 .f32) ((StableHlo.after ks21 (W c) (Proc.devRef .tc Cert.KernelIdeal.main_arg17) : FVec Ideal Cert.KernelIdeal.S1 .f32) (ix1 (0 : Fin 1))) i
    after_results_simp
    exact h0.lin i

end Cert.Stage

end
-- ==== Proof.St22.lean ====
/-
  Group 22: the predicted rotation per node.  Both programs map the last layer's node features through one affine layer to
  four numbers per node, multiply that quaternion with the node's input quaternion (Hamilton's product, written out on the
  four columns and laid side by side again), and divide the product by its Euclidean length floored at a small constant.
  The two sides run the same operations on operands that are equal on entry, so the normalised quaternions are equal; every
  other live buffer is untouched.  The four columns laid side by side are restated with the columns as arguments of their
  own, so that the composed value of the result is read through them down to the entry buffers.
-/
import proofs.«430033_j52948356825731_1_alg».proof.Proof.Rel
import proofs.«430033_j52948356825731_1_alg».proof.Proof.KITakes
import Idealize.ShloMosaic.Lib.Pipeline.Frame
import proofs.«430033_j52948356825731_1_alg».proof.Proof.StTac

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

/-! ## The product's four columns side by side, at the two programs' buffers -/

theorem k_cat_v219 (hxs) (hy) (F : Valuation Cert.KernelIdeal.τ Cert.KernelIdeal.sig (Elt Ideal)) :
    (StableHlo.nary (τ := Cert.KernelIdeal.τ) ![Cert.KernelIdeal.main_v215, Cert.KernelIdeal.main_v216, Cert.KernelIdeal.main_v217, Cert.KernelIdeal.main_v218] Cert.KernelIdeal.main_v219
        (fun u => concatenate Cert.KernelIdeal.S10000x4 1 [⟨Cert.KernelIdeal.S10000x1, u 0⟩, ⟨Cert.KernelIdeal.S10000x1, u 1⟩, ⟨Cert.KernelIdeal.S10000x1, u 2⟩, ⟨Cert.KernelIdeal.S10000x1, u 3⟩] Cert.KernelIdeal.Gen.concatenates_S10000x1_S10000x1_S10000x1_S10000x1_S10000x4_d1) hxs hy).result F
        (no_index (Proc.devRef .tc Cert.KernelIdeal.main_v219))
      = cat4 Cert.KernelIdeal.S10000x4 1 Cert.KernelIdeal.S10000x1 Cert.KernelIdeal.S10000x1 Cert.KernelIdeal.S10000x1 Cert.KernelIdeal.S10000x1 Cert.KernelIdeal.Gen.concatenates_S10000x1_S10000x1_S10000x1_S10000x1_S10000x4_d1
          (F (Proc.devRef .tc Cert.KernelIdeal.main_v215)) (F (Proc.devRef .tc Cert.KernelIdeal.main_v216)) (F (Proc.devRef .tc Cert.KernelIdeal.main_v217)) (F (Proc.devRef .tc Cert.KernelIdeal.main_v218)) := by
  rw [StableHlo.nary_result]; rfl

theorem r_cat_v307 (hxs) (hy) (F : Valuation Cert.ReferenceIdeal.τ Cert.ReferenceIdeal.sig (Elt Ideal)) :
    (StableHlo.nary (τ := Cert.ReferenceIdeal.τ) ![Cert.ReferenceIdeal.main_v303, Cert.ReferenceIdeal.main_v304, Cert.ReferenceIdeal.main_v305, Cert.ReferenceIdeal.main_v306] Cert.ReferenceIdeal.main_v307
        (fun u => concatenate Cert.ReferenceIdeal.S10000x4 1 [⟨Cert.ReferenceIdeal.S10000x1, u 0⟩, ⟨Cert.ReferenceIdeal.S10000x1, u 1⟩, ⟨Cert.ReferenceIdeal.S10000x1, u 2⟩, ⟨Cert.ReferenceIdeal.S10000x1, u 3⟩] Cert.ReferenceIdeal.Facts₀.concatenates_S10000x1_S10000x1_S10000x1_S10000x1_S10000x4_d1) hxs hy).result F
        (no_index (Proc.devRef .tc Cert.ReferenceIdeal.main_v307))
      = cat4 Cert.ReferenceIdeal.S10000x4 1 Cert.ReferenceIdeal.S10000x1 Cert.ReferenceIdeal.S10000x1 Cert.ReferenceIdeal.S10000x1 Cert.ReferenceIdeal.S10000x1 Cert.ReferenceIdeal.Facts₀.concatenates_S10000x1_S10000x1_S10000x1_S10000x1_S10000x4_d1
          (F (Proc.devRef .tc Cert.ReferenceIdeal.main_v303)) (F (Proc.devRef .tc Cert.ReferenceIdeal.main_v304)) (F (Proc.devRef .tc Cert.ReferenceIdeal.main_v305)) (F (Proc.devRef .tc Cert.ReferenceIdeal.main_v306)) := by
  rw [StableHlo.nary_result]; rfl

/-- The results of a literal list of operations at a buffer, by one simplification pass that also goes below this
    group's concatenation. -/
macro "after_results_cat22" : tactic =>
  `(tactic| (simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne',
      cat2_eq, k_cat_v219, r_cat_v307]))

set_option maxHeartbeats 4000000 in
theorem owes22 : Owes22 := by
  intro W U h c
  have h0 := h c
  have e_p_v166 : W c (Proc.devRef .tc Cert.KernelIdeal.main_v166) = U c (Proc.devRef .tc Cert.ReferenceIdeal.main_v253) := h0.p_v166
  have e_a14 : W c (Proc.devRef .tc Cert.KernelIdeal.main_arg14) = U c (Proc.devRef .tc Cert.ReferenceIdeal.main_arg14) := h0.a14
  have e_a15 : W c (Proc.devRef .tc Cert.KernelIdeal.main_arg15) = U c (Proc.devRef .tc Cert.ReferenceIdeal.main_arg15) := h0.a15
  have e_a0 : W c (Proc.devRef .tc Cert.KernelIdeal.main_arg0) = U c (Proc.devRef .tc Cert.ReferenceIdeal.main_arg0) := h0.a0
  refine ⟨?_, ?_, ?_, ?_, ?_, ?_, ?_, ?_, ?_, ?_, ?_, ?_, ?_, ?_, ?_, ?_, ?_, ?_, ?_⟩
  · show StableHlo.after ks22 (W c) _ = _; simp only [StableHlo.after_append]; after_results_simp; exact h0.a2
  · show StableHlo.after ks22 (W c) _ = _; simp only [StableHlo.after_append]; after_results_simp; exact h0.a3
  · show StableHlo.after ks22 (W c) _ = _; simp only [StableHlo.after_append]; after_results_simp; exact h0.a16
  · show StableHlo.after ks22 (W c) _ = _; simp only [StableHlo.after_append]; after_results_simp; exact h0.a17
  · show StableHlo.after ks22 (W c) _ = _; simp only [StableHlo.after_append]; after_results_simp; exact h0.p_cst
  · show StableHlo.after ks22 (W c) _ = _; simp only [StableHlo.after_append]; after_results_simp; exact h0.p_v1
  · show StableHlo.after ks22 (W c) _ = _; simp only [StableHlo.after_append]; after_results_simp; exact h0.p_v120_1
  · show StableHlo.after ks22 (W c) _ = _; simp only [StableHlo.after_append]; after_results_simp; exact h0.p_v126
  · show StableHlo.after ks22 (W c) _ = _; simp only [StableHlo.after_append]; after_results_simp; exact h0.p_v132_1
  · show StableHlo.after ks22 (W c) _ = _; simp only [StableHlo.after_append]; after_results_simp; exact h0.p_v138
  · show StableHlo.after ks22 (W c) _ = _; simp only [StableHlo.after_append]; after_results_simp; exact h0.p_v145_1
  · show StableHlo.after ks22 (W c) _ = _; simp only [StableHlo.after_append]; after_results_simp; exact h0.p_v151
  · show StableHlo.after ks22 (W c) _ = _; simp only [StableHlo.after_append]; after_results_simp; exact h0.p_v160_1
  · show StableHlo.after ks22 (W c) _ = _; simp only [StableHlo.after_append]; after_results_simp; exact h0.p_v166
  · -- the affine layer, the quaternion product with the input rotation, the normalisation
    show StableHlo.after ks22 (W c) _ = _
    simp only [StableHlo.after_append]
    after_results_cat22
    simp only [Cert.KernelIdeal.Hand.tref_ofBuf_toBuf]
    rw [e_p_v166, e_a14, e_a15, e_a0] <;> rfl
  · show StableHlo.after ks22 (W c) _ = _; simp only [StableHlo.after_append]; after_results_simp; exact h0.p_v3
  · intro i
    show ((StableHlo.after ks22 (W c) (Proc.devRef .tc Cert.KernelIdeal.main_v1) : IVec Cert.KernelIdeal.S200000 32) i).toNat < 10000
    simp only [StableHlo.after_append]; after_results_simp
    exact h0.rng1 i
  · intro i
    show ((StableHlo.after ks22 (W c) (Proc.devRef .tc Cert.KernelIdeal.main_v3) : IVec Cert.KernelIdeal.S200000 32) i).toNat < 10000
    simp only [StableHlo.after_append]; after_results_simp
    exact h0.rng3 i
  · intro i
    show ((StableHlo.after ks22 (W c) (Proc.devRef .tc Cert.KernelIdeal.main_v160_2) : FVec Ideal Cert.KernelIdeal.S200000x1 .f32) (ix2 i (0 : Fin 1)) : EReal) = Cert.Spec.lin (StableHlo.after ks22 (W c) (Proc.devRef .tc Cert.KernelIdeal.main_v160_1) : FVec Ideal Cert.KernelIdeal.S200000x128 .f32) (StableHlo.after ks22 (W c) (Proc.devRef .tc Cert.KernelIdeal.main_arg16) : FVec Ideal Cert.KernelIdeal.S128x1 .f32) ((StableHlo.after ks22 (W c) (Proc.devRef .tc Cert.KernelIdeal.main_arg17) : FVec Ideal Cert.KernelIdeal.S1 .f32) (ix1 (0 : Fin 1))) i
    simp only [StableHlo.after_append]; after_results_simp
    exact h0.lin i

end Cert.Stage

end
-- ==== Proof.St23.lean ====
/-
  Group 23: both programs gather the nodes' ground-truth quaternions at the edges' source and target nodes, conjugate the
  source's and multiply the target's by it (sixteen multiplications and twelve additions or subtractions of the
  components, then the four results side by side): the ground-truth relative rotation of each edge. The kernel gathers
  with a take in fill mode, the reference by plain indexing; the indices being in range the two are the same gather.
-/
import proofs.«430033_j52948356825731_1_alg».proof.Proof.Rel
import proofs.«430033_j52948356825731_1_alg».proof.Proof.KITakes
import Idealize.ShloMosaic.Lib.Pipeline.Frame
import proofs.«430033_j52948356825731_1_alg».proof.Proof.StTac

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 4000000 in
theorem owes23 : Owes23 := by
  intro W U h c
  have h0 := h c
  have e_a2 : W c (Proc.devRef .tc Cert.KernelIdeal.main_arg2) = U c (Proc.devRef .tc Cert.ReferenceIdeal.main_arg2) := h0.a2
  have e_p_v1 : W c (Proc.devRef .tc Cert.KernelIdeal.main_v1) = U c (Proc.devRef .tc Cert.ReferenceIdeal.main_v1) := h0.p_v1
  have e_p_v3 : W c (Proc.devRef .tc Cert.KernelIdeal.main_v3) = U c (Proc.devRef .tc Cert.ReferenceIdeal.main_v3) := h0.p_v3
  -- the kernel's two takes hold, at the valuation the remaining operations start from, what the reference's two gathers hold
  have eRow : StableHlo.after (Cert.KernelIdeal.Gen.hostOps4_5 (F := Ideal) ++ Cert.KernelIdeal.Gen.hostOps4_6 (F := Ideal)) (W c) (Proc.devRef .tc Cert.KernelIdeal.main_v225) = StableHlo.after (Cert.ReferenceIdeal.Hand.rs23 (F := Ideal)) (U c) (Proc.devRef .tc Cert.ReferenceIdeal.main_v326) := by
    have f : ∀ V : KVal, StableHlo.after (Cert.KernelIdeal.Gen.hostOps4_6 (F := Ideal)) V (Proc.devRef .tc Cert.KernelIdeal.main_v225) = V (Proc.devRef .tc Cert.KernelIdeal.main_v225) :=
      fun V => by after_results_simp
    rw [StableHlo.after_append, f, Cert.KernelIdeal.Hand.take_call15 (W c) h0.rng1]
    after_results_simp
    rw [e_a2, e_p_v1]
    rfl
  have eCol : StableHlo.after (Cert.KernelIdeal.Gen.hostOps4_5 (F := Ideal) ++ Cert.KernelIdeal.Gen.hostOps4_6 (F := Ideal)) (W c) (Proc.devRef .tc Cert.KernelIdeal.main_v226) = StableHlo.after (Cert.ReferenceIdeal.Hand.rs23 (F := Ideal)) (U c) (Proc.devRef .tc Cert.ReferenceIdeal.main_v319) := by
    have g3 : StableHlo.after (Cert.KernelIdeal.Gen.hostOps4_5 (F := Ideal)) (W c) (Proc.devRef .tc Cert.KernelIdeal.main_v3) = W c (Proc.devRef .tc Cert.KernelIdeal.main_v3) := by
      after_results_simp
    have gt : StableHlo.after (Cert.KernelIdeal.Gen.hostOps4_5 (F := Ideal)) (W c) (Proc.devRef .tc Cert.KernelIdeal.main_arg2) = W c (Proc.devRef .tc Cert.KernelIdeal.main_arg2) := by
      after_results_simp
    rw [StableHlo.after_append, Cert.KernelIdeal.Hand.take_call16 _ (by intro i; rw [g3]; exact h0.rng3 i), g3, gt]
    after_results_simp
    rw [e_a2, e_p_v3]
    rfl
  exact {
    a3 := by
      show StableHlo.after ks23 (W c) _ = _
      simp only [StableHlo.after_append]; after_results_simp
      exact h0.a3
    a16 := by
      show StableHlo.after ks23 (W c) _ = _
      simp only [StableHlo.after_append]; after_results_simp
      exact h0.a16
    a17 := by
      show StableHlo.after ks23 (W c) _ = _
      simp only [StableHlo.after_append]; after_results_simp
      exact h0.a17
    p_cst := by
      show StableHlo.after ks23 (W c) _ = _
      simp only [StableHlo.after_append]; after_results_simp
      exact h0.p_cst
    p_v1 := by
      show StableHlo.after ks23 (W c) _ = _
      simp only [StableHlo.after_append]; after_results_simp
      exact h0.p_v1
    p_v120_1 := by
      show StableHlo.after ks23 (W c) _ = _
      simp only [StableHlo.after_append]; after_results_simp
      exact h0.p_v120_1
    p_v126 := by
      show StableHlo.after ks23 (W c) _ = _
      simp only [StableHlo.after_append]; after_results_simp
      exact h0.p_v126
    p_v132_1 := by
      show StableHlo.after ks23 (W c) _ = _
      simp only [StableHlo.after_append]; after_results_simp
      exact h0.p_v132_1
    p_v138 := by
      show StableHlo.after ks23 (W c) _ = _
      simp only [StableHlo.after_append]; after_results_simp
      exact h0.p_v138
    p_v145_1 := by
      show StableHlo.after ks23 (W c) _ = _
      simp only [StableHlo.after_append]; after_results_simp
      exact h0.p_v145_1
    p_v151 := by
      show StableHlo.after ks23 (W c) _ = _
      simp only [StableHlo.after_append]; after_results_simp
      exact h0.p_v151
    p_v160_1 := by
      show StableHlo.after ks23 (W c) _ = _
      simp only [StableHlo.after_append]; after_results_simp
      exact h0.p_v160_1
    p_v166 := by
      show StableHlo.after ks23 (W c) _ = _
      simp only [StableHlo.after_append]; after_results_simp
      exact h0.p_v166
    p_v224 := by
      show StableHlo.after ks23 (W c) _ = _
      simp only [StableHlo.after_append]; after_results_simp
      exact h0.p_v224
    p_v279 := by
      show StableHlo.after ((Cert.KernelIdeal.Gen.hostOps4_5 (F := Ideal) ++ Cert.KernelIdeal.Gen.hostOps4_6 (F := Ideal)) ++ Cert.KernelIdeal.Gen.hostOps4_7 (F := Ideal)) (W c) _ = _
      rw [StableHlo.after_append]
      generalize StableHlo.after (Cert.KernelIdeal.Gen.hostOps4_5 (F := Ideal) ++ Cert.KernelIdeal.Gen.hostOps4_6 (F := Ideal)) (W c) = V at eRow eCol ⊢
      after_results_cat [eRow, eCol]
      rfl
    p_v3 := by
      show StableHlo.after ks23 (W c) _ = _
      simp only [StableHlo.after_append]; after_results_simp
      exact h0.p_v3
    rng1 := by
      intro i
      show ((StableHlo.after ks23 (W c) (Proc.devRef .tc Cert.KernelIdeal.main_v1) : IVec Cert.KernelIdeal.S200000 32) i).toNat < 10000
      simp only [StableHlo.after_append]; after_results_simp
      exact h0.rng1 i
    rng3 := by
      intro i
      show ((StableHlo.after ks23 (W c) (Proc.devRef .tc Cert.KernelIdeal.main_v3) : IVec Cert.KernelIdeal.S200000 32) i).toNat < 10000
      simp only [StableHlo.after_append]; after_results_simp
      exact h0.rng3 i
    lin := by
      intro i
      have l0 : kstep23 W c (Proc.devRef .tc Cert.KernelIdeal.main_v160_2) = W c (Proc.devRef .tc Cert.KernelIdeal.main_v160_2) := by
        show StableHlo.after ks23 (W c) _ = _
        simp only [StableHlo.after_append]; after_results_simp
      have l1 : kstep23 W c (Proc.devRef .tc Cert.KernelIdeal.main_v160_1) = W c (Proc.devRef .tc Cert.KernelIdeal.main_v160_1) := by
        show StableHlo.after ks23 (W c) _ = _
        simp only [StableHlo.after_append]; after_results_simp
      have l2 : kstep23 W c (Proc.devRef .tc Cert.KernelIdeal.main_arg16) = W c (Proc.devRef .tc Cert.KernelIdeal.main_arg16) := by
        show StableHlo.after ks23 (W c) _ = _
        simp only [StableHlo.after_append]; after_results_simp
      have l3 : kstep23 W c (Proc.devRef .tc Cert.KernelIdeal.main_arg17) = W c (Proc.devRef .tc Cert.KernelIdeal.main_arg17) := by
        show StableHlo.after ks23 (W c) _ = _
        simp only [StableHlo.after_append]; after_results_simp
      rw [l0, l1, l2, l3]
      exact h0.lin i }

end Cert.Stage

end
-- ==== Proof.St24a.lean ====
/-
  Group 24, the rotation error of each edge: the conjugate of the ground-truth relative rotation times the predicted one,
  the predicted one being the target node's predicted quaternion times the conjugate of the source node's (two quaternion
  products, each sixteen multiplications and twelve additions or subtractions of the components, then the four results
  side by side). The kernel gathers the two nodes' quaternions with takes in fill mode, the reference by plain indexing,
  in the other order: with the indices in range both are the same gathers, and the two composed terms are the same.
-/
import proofs.«430033_j52948356825731_1_alg».proof.Proof.Rel
import proofs.«430033_j52948356825731_1_alg».proof.Proof.KITakes
import proofs.«430033_j52948356825731_1_alg».proof.Proof.StTac
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option profiler true
set_option profiler.threshold 2000

set_option maxHeartbeats 16000000 in
theorem owes24_v387 (W : Dev Cert.KernelIdeal.nD → KVal) (U : Dev Cert.KernelIdeal.nD → RVal) (h : ∀ c, Rel23 (W c) (U c)) (c : Dev Cert.KernelIdeal.nD) :
    P_v387 (kstep24 W c) (StableHlo.after (Cert.ReferenceIdeal.Hand.rs24 (F := Ideal)) (U c)) := by
  have h0 := h c
  have e_p_v224 : W c (Proc.devRef .tc Cert.KernelIdeal.main_v224) = U c (Proc.devRef .tc Cert.ReferenceIdeal.main_v312) := h0.p_v224
  have e_p_v1 : W c (Proc.devRef .tc Cert.KernelIdeal.main_v1) = U c (Proc.devRef .tc Cert.ReferenceIdeal.main_v1) := h0.p_v1
  have e_p_v3 : W c (Proc.devRef .tc Cert.KernelIdeal.main_v3) = U c (Proc.devRef .tc Cert.ReferenceIdeal.main_v3) := h0.p_v3
  have e_p_v279 : W c (Proc.devRef .tc Cert.KernelIdeal.main_v279) = U c (Proc.devRef .tc Cert.ReferenceIdeal.main_v379) := h0.p_v279
  -- the kernel's two takes hold, at the valuation the remaining operations start from, what the reference's two gathers hold
  have eRow : StableHlo.after (Cert.KernelIdeal.Gen.hostOps4_8 (F := Ideal) ++ Cert.KernelIdeal.Gen.hostOps4_9 (F := Ideal)) (W c) (Proc.devRef .tc Cert.KernelIdeal.main_v280) = StableHlo.after (Cert.ReferenceIdeal.Hand.rs24 (F := Ideal)) (U c) (Proc.devRef .tc Cert.ReferenceIdeal.main_v393) := by
    have f : ∀ V : KVal, StableHlo.after (Cert.KernelIdeal.Gen.hostOps4_9 (F := Ideal)) V (Proc.devRef .tc Cert.KernelIdeal.main_v280) = V (Proc.devRef .tc Cert.KernelIdeal.main_v280) :=
      fun V => by after_results_simp
    rw [StableHlo.after_append, f, Cert.KernelIdeal.Hand.take_call17 (W c) h0.rng1]
    after_results_simp
    rw [e_p_v224, e_p_v1]
    rfl
  have eCol : StableHlo.after (Cert.KernelIdeal.Gen.hostOps4_8 (F := Ideal) ++ Cert.KernelIdeal.Gen.hostOps4_9 (F := Ideal)) (W c) (Proc.devRef .tc Cert.KernelIdeal.main_v281) = StableHlo.after (Cert.ReferenceIdeal.Hand.rs24 (F := Ideal)) (U c) (Proc.devRef .tc Cert.ReferenceIdeal.main_v386) := by
    have g3 : StableHlo.after (Cert.KernelIdeal.Gen.hostOps4_8 (F := Ideal)) (W c) (Proc.devRef .tc Cert.KernelIdeal.main_v3) = W c (Proc.devRef .tc Cert.KernelIdeal.main_v3) := by
      after_results_simp
    have gt : StableHlo.after (Cert.KernelIdeal.Gen.hostOps4_8 (F := Ideal)) (W c) (Proc.devRef .tc Cert.KernelIdeal.main_v224) = W c (Proc.devRef .tc Cert.KernelIdeal.main_v224) := by
      after_results_simp
    rw [StableHlo.after_append, Cert.KernelIdeal.Hand.take_call18 _ (by intro i; rw [g3]; exact h0.rng3 i), g3, gt]
    after_results_simp
    rw [e_p_v224, e_p_v3]
    rfl
  -- what else the remaining operations read is not written by the takes, and reads the same on both sides
  have kk_main_v279 : StableHlo.after (Cert.KernelIdeal.Gen.hostOps4_8 (F := Ideal) ++ Cert.KernelIdeal.Gen.hostOps4_9 (F := Ideal)) (W c) (Proc.devRef .tc Cert.KernelIdeal.main_v279) = U c (Proc.devRef .tc Cert.ReferenceIdeal.main_v379) := by
    simp only [StableHlo.after_append]; after_results_simp
    exact e_p_v279
  show StableHlo.after ((Cert.KernelIdeal.Gen.hostOps4_8 (F := Ideal) ++ Cert.KernelIdeal.Gen.hostOps4_9 (F := Ideal)) ++ Cert.KernelIdeal.Gen.hostOps4_10 (F := Ideal)) (W c) _ = _
  rw [StableHlo.after_append]
  generalize StableHlo.after (Cert.KernelIdeal.Gen.hostOps4_8 (F := Ideal) ++ Cert.KernelIdeal.Gen.hostOps4_9 (F := Ideal)) (W c) = V at eRow eCol kk_main_v279 ⊢
  after_results_cat [eRow, eCol, kk_main_v279]
  rfl

end Cert.Stage

end
-- ==== Proof.St24.lean ====
/-
  Group 24: both programs gather the nodes' predicted quaternions at the edges' source and target nodes, form the predicted
  relative rotation of each edge as they formed the ground-truth one, and multiply the conjugate of the ground-truth one
  by it: the rotation error of each edge, as a quaternion. The kernel gathers with a take in fill mode, the reference by
  plain indexing; the indices being in range the two are the same gather. The rotation error itself is the sibling module's
  theorem; here every other live buffer is carried.
-/
import proofs.«430033_j52948356825731_1_alg».proof.Proof.Rel
import proofs.«430033_j52948356825731_1_alg».proof.Proof.KITakes
import Idealize.ShloMosaic.Lib.Pipeline.Frame
import proofs.«430033_j52948356825731_1_alg».proof.Proof.St24a

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 4000000 in
theorem owes24 : Owes24 := by
  intro W U h c
  have h0 := h c
  exact {
    a3 := by
      show StableHlo.after ks24 (W c) _ = _
      simp only [StableHlo.after_append]; after_results_simp
      exact h0.a3
    a16 := by
      show StableHlo.after ks24 (W c) _ = _
      simp only [StableHlo.after_append]; after_results_simp
      exact h0.a16
    a17 := by
      show StableHlo.after ks24 (W c) _ = _
      simp only [StableHlo.after_append]; after_results_simp
      exact h0.a17
    p_cst := by
      show StableHlo.after ks24 (W c) _ = _
      simp only [StableHlo.after_append]; after_results_simp
      exact h0.p_cst
    p_v120_1 := by
      show StableHlo.after ks24 (W c) _ = _
      simp only [StableHlo.after_append]; after_results_simp
      exact h0.p_v120_1
    p_v126 := by
      show StableHlo.after ks24 (W c) _ = _
      simp only [StableHlo.after_append]; after_results_simp
      exact h0.p_v126
    p_v132_1 := by
      show StableHlo.after ks24 (W c) _ = _
      simp only [StableHlo.after_append]; after_results_simp
      exact h0.p_v132_1
    p_v138 := by
      show StableHlo.after ks24 (W c) _ = _
      simp only [StableHlo.after_append]; after_results_simp
      exact h0.p_v138
    p_v145_1 := by
      show StableHlo.after ks24 (W c) _ = _
      simp only [StableHlo.after_append]; after_results_simp
      exact h0.p_v145_1
    p_v151 := by
      show StableHlo.after ks24 (W c) _ = _
      simp only [StableHlo.after_append]; after_results_simp
      exact h0.p_v151
    p_v160_1 := by
      show StableHlo.after ks24 (W c) _ = _
      simp only [StableHlo.after_append]; after_results_simp
      exact h0.p_v160_1
    p_v166 := by
      show StableHlo.after ks24 (W c) _ = _
      simp only [StableHlo.after_append]; after_results_simp
      exact h0.p_v166
    p_v224 := by
      show StableHlo.after ks24 (W c) _ = _
      simp only [StableHlo.after_append]; after_results_simp
      exact h0.p_v224
    p_v387 := owes24_v387 W U h c
    lin := by
      intro i
      show ((StableHlo.after ks24 (W c) (Proc.devRef .tc Cert.KernelIdeal.main_v160_2) : FVec Ideal Cert.KernelIdeal.S200000x1 .f32) (ix2 i (0 : Fin 1)) : EReal) = Cert.Spec.lin (StableHlo.after ks24 (W c) (Proc.devRef .tc Cert.KernelIdeal.main_v160_1) : FVec Ideal Cert.KernelIdeal.S200000x128 .f32) (StableHlo.after ks24 (W c) (Proc.devRef .tc Cert.KernelIdeal.main_arg16) : FVec Ideal Cert.KernelIdeal.S128x1 .f32) ((StableHlo.after ks24 (W c) (Proc.devRef .tc Cert.KernelIdeal.main_arg17) : FVec Ideal Cert.KernelIdeal.S1 .f32) (ix1 (0 : Fin 1))) i
      simp only [StableHlo.after_append]; after_results_simp
      exact h0.lin i }

end Cert.Stage

end
-- ==== Proof.St25.lean ====
/-
  Group 25: the loss.  Both programs normalise the composed relative rotation (four numbers per edge) by its Euclidean length
  floored at a small constant, subtract the unit quaternion, and apply the smooth absolute value entrywise (quadratic below
  the threshold beta, linear above it); the loss is the sum of all entries divided by their number.  The two sides run the
  same operations on operands that are equal on entry, so the two losses are equal; every other live buffer is untouched.
-/
import proofs.«430033_j52948356825731_1_alg».proof.Proof.Rel
import proofs.«430033_j52948356825731_1_alg».proof.Proof.KITakes
import Idealize.ShloMosaic.Lib.Pipeline.Frame

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

set_option maxHeartbeats 4000000 in
theorem owes25 : Owes25 := by
  intro W U h c
  have h0 := h c
  have e_p_v387 : W c (Proc.devRef .tc Cert.KernelIdeal.main_v387) = U c (Proc.devRef .tc Cert.ReferenceIdeal.main_v499) := h0.p_v387
  have e_p_cst : W c (Proc.devRef .tc Cert.KernelIdeal.main_cst) = U c (Proc.devRef .tc Cert.ReferenceIdeal.main_cst) := h0.p_cst
  have e_a3 : W c (Proc.devRef .tc Cert.KernelIdeal.main_arg3) = U c (Proc.devRef .tc Cert.ReferenceIdeal.main_arg3) := h0.a3
  refine ⟨?_, ?_, ?_, ?_, ?_, ?_, ?_, ?_, ?_, ?_, ?_, ?_, ?_, ?_⟩
  · show StableHlo.after ks25 (W c) _ = _; simp only [StableHlo.after_append]; after_results_simp; exact h0.a3
  · show StableHlo.after ks25 (W c) _ = _; simp only [StableHlo.after_append]; after_results_simp; exact h0.a16
  · show StableHlo.after ks25 (W c) _ = _; simp only [StableHlo.after_append]; after_results_simp; exact h0.a17
  · show StableHlo.after ks25 (W c) _ = _; simp only [StableHlo.after_append]; after_results_simp; exact h0.p_v120_1
  · show StableHlo.after ks25 (W c) _ = _; simp only [StableHlo.after_append]; after_results_simp; exact h0.p_v126
  · show StableHlo.after ks25 (W c) _ = _; simp only [StableHlo.after_append]; after_results_simp; exact h0.p_v132_1
  · show StableHlo.after ks25 (W c) _ = _; simp only [StableHlo.after_append]; after_results_simp; exact h0.p_v138
  · show StableHlo.after ks25 (W c) _ = _; simp only [StableHlo.after_append]; after_results_simp; exact h0.p_v145_1
  · show StableHlo.after ks25 (W c) _ = _; simp only [StableHlo.after_append]; after_results_simp; exact h0.p_v151
  · show StableHlo.after ks25 (W c) _ = _; simp only [StableHlo.after_append]; after_results_simp; exact h0.p_v160_1
  · show StableHlo.after ks25 (W c) _ = _; simp only [StableHlo.after_append]; after_results_simp; exact h0.p_v166
  · show StableHlo.after ks25 (W c) _ = _; simp only [StableHlo.after_append]; after_results_simp; exact h0.p_v224
  · -- normalisation, distance to the unit quaternion, the smooth absolute value, the mean
    show StableHlo.after ks25 (W c) _ = _
    simp only [StableHlo.after_append]
    after_results_simp
    simp only [Cert.KernelIdeal.Hand.tref_ofBuf_toBuf]
    rw [e_p_v387, e_p_cst, e_a3]
  · intro i
    show ((StableHlo.after ks25 (W c) (Proc.devRef .tc Cert.KernelIdeal.main_v160_2) : FVec Ideal Cert.KernelIdeal.S200000x1 .f32) (ix2 i (0 : Fin 1)) : EReal) = Cert.Spec.lin (StableHlo.after ks25 (W c) (Proc.devRef .tc Cert.KernelIdeal.main_v160_1) : FVec Ideal Cert.KernelIdeal.S200000x128 .f32) (StableHlo.after ks25 (W c) (Proc.devRef .tc Cert.KernelIdeal.main_arg16) : FVec Ideal Cert.KernelIdeal.S128x1 .f32) ((StableHlo.after ks25 (W c) (Proc.devRef .tc Cert.KernelIdeal.main_arg17) : FVec Ideal Cert.KernelIdeal.S1 .f32) (ix1 (0 : Fin 1))) i
    simp only [StableHlo.after_append]; after_results_simp
    exact h0.lin i

end Cert.Stage

end
-- ==== Proof.St26.lean ====
/-
  Group 26: the reference maps the last layer's positive part through a one-column matrix and adds a scalar: a
  contraction, two broadcasts and a sum.  The kernel formed the same column inside its last region as the third output,
  carried so far as a fact: at every edge it is that edge's row of the positive part against the matrix's one column,
  plus the scalar.  The positive parts, the matrix and the scalar agree on the two sides, so the two columns agree
  entry by entry.  The kernel runs no operation here and every other live buffer is untouched.
-/
import proofs.«430033_j52948356825731_1_alg».proof.Proof.Rel
import proofs.«430033_j52948356825731_1_alg».proof.Proof.RMlp

set_option maxRecDepth 16384

noncomputable section

namespace Cert.Stage

open Idealize.ShloMosaic Idealize.ShloMosaic.TcCoe Idealize.SL.Sem Idealize.ShloMosaic.StableHlo Idealize.ShloMosaic.ValueIdx

variable [Cert.KernelIdeal.Facts] [Cert.ReferenceIdeal.Facts]

theorem owes26 : Owes26 := by
  intro W U h c
  have h0 := h c
  have ex : _ = _ := h0.p_v160_1
  have ew : _ = _ := h0.a16
  have eb : _ = _ := h0.a17
  refine ⟨?_, ?_, ?_, ?_, ?_, ?_, ?_, ?_, ?_, ?_, ?_, ?_⟩
  · show StableHlo.after ks26 (W c) _ = _; after_results_simp; exact h0.a3
  · show StableHlo.after ks26 (W c) _ = _; after_results_simp; exact h0.p_v120_1
  · show StableHlo.after ks26 (W c) _ = _; after_results_simp; exact h0.p_v126
  · show StableHlo.after ks26 (W c) _ = _; after_results_simp; exact h0.p_v132_1
  · show StableHlo.after ks26 (W c) _ = _; after_results_simp; exact h0.p_v138
  · show StableHlo.after ks26 (W c) _ = _; after_results_simp; exact h0.p_v145_1
  · show StableHlo.after ks26 (W c) _ = _; after_results_simp; exact h0.p_v151
  · show StableHlo.after ks26 (W c) _ = _; after_results_simp; exact h0.p_v160_1
  · -- the last column: the carried formula on the kernel's side, the four operations read at an entry on the other
    show (StableHlo.after ks26 (W c) (Proc.devRef .tc Cert.KernelIdeal.main_v160_2) : FVec Ideal Cert.KernelIdeal.S200000x1 .f32) = _
    funext j
    obtain ⟨i, o, rfl⟩ : ∃ (i : Fin 200000) (o : Fin 1), j = ix2 i o := ⟨j 0, j 1, eq_ix2 j⟩
    obtain rfl : o = 0 := Subsingleton.elim _ _
    refine Eq.trans ?_ (Cert.ReferenceIdeal.Hand.rs26_apply (U c) i).symm
    after_results_simp
    refine (h0.lin i).trans ?_
    rw [ex, ew, eb]
  · show StableHlo.after ks26 (W c) _ = _; after_results_simp; exact h0.p_v166
  · show StableHlo.after ks26 (W c) _ = _; after_results_simp; exact h0.p_v224
  · show StableHlo.after ks26 (W c) _ = _; after_results_simp; exact h0.p_v413

end Cert.Stage

end
-- ==== Proof.Chain.lean ====
/-
  The 26 groups' statements composed.  From valuations that agree on the arguments, with the edge list in range, the last
  cut's relation holds between the kernel side after all its groups and the reference side after all its operations.
  The kernel side after all its groups is the fold the kernel's run ends at (the groups' host operations concatenate
  to the five stretches, each region's step is the run's), and the reference side after all its groups is the fold
  over the whole list of its operations.
-/
import proofs.«430033_j52948356825731_1_alg».proof.Proof.Rel
import proofs.«430033_j52948356825731_1_alg».proof.Proof.RelReg
import proofs.«430033_j52948356825731_1_alg».proof.Proof.St01
import proofs.«430033_j52948356825731_1_alg».proof.Proof.St02
import proofs.«430033_j52948356825731_1_alg».proof.Proof.St03
import proofs.«430033_j52948356825731_1_alg».proof.Proof.St04
import proofs.«430033_j52948356825731_1_alg».proof.Proof.St05
import proofs.«430033_j52948356825731_1_alg».proof.Proof.St06
import proofs.«430033_j52948356825731_1_alg».proof.Proof.St07
import proofs.«430033_j52948356825731_1_alg».proof.Proof.St08
import proofs.«430033_j52948356825731_1_alg».proof.Proof.St09
import proofs.«430033_j52948356825731_1_alg».proof.Proof.St10
import proofs.«430033_j52948356825731_1_alg».proof.Proof.St11
import proofs.«430033_j52948356825731_1_alg».proof.Proof.St12
import proofs.«430033_j52948356825731_1_alg».proof.Proof.St13
import proofs.«430033_j52948356825731_1_alg».proof.Proof.St14
import proofs.«430033_j52948356825731_1_alg».proof.Proof.St15
import proofs.«430033_j52948356825731_1_alg».proof.Proof.St16
import proofs.«430033_j52948356825731_1_alg».proof.Proof.St17
import proofs.«430033_j52948356825731_1_alg».proof.Proof.St18
import proofs.«430033_j52948356825731_1_alg».proof.Proof.St19
import proofs.«430033_j52948356825731_1_alg».proof.Proof.St20
import proofs.«430033_j52948356825731_1_alg».proof.Proof.St21
import proofs.«430033_j52948356825731_1_alg».proof.Proof.St22
import proofs.«430033_j52948356825731_1_alg».proof.Proof.St23
import proofs.«430033_j52948356825731_1_alg».proof.Proof.St24
import proofs.«430033_j52948356825731_1_alg».proof.Proof.St25
import proofs.«430033_j52948356825731_1_alg».proof.Proof.St26
import Idealize.ShloMosaic.Lib.Pipeline.Frame

set_option maxRecDepth 16384

noncomputable section

namespace Cert.Stage

open Idealize.ShloMosaic Idealize.ShloMosaic.TcCoe Idealize.SL.Sem Idealize.ShloMosaic.StableHlo

variable [Cert.KernelIdeal.Facts] [Cert.ReferenceIdeal.Facts]

/-! ## The two sides after their first `n` groups -/

abbrev X1 (W : Dev Cert.KernelIdeal.nD → KVal) : Dev Cert.KernelIdeal.nD → KVal := kstep1 (W)
abbrev X2 (W : Dev Cert.KernelIdeal.nD → KVal) : Dev Cert.KernelIdeal.nD → KVal := kstep2 (X1 W)
abbrev X3 (W : Dev Cert.KernelIdeal.nD → KVal) : Dev Cert.KernelIdeal.nD → KVal := kstep3 (X2 W)
abbrev X4 (W : Dev Cert.KernelIdeal.nD → KVal) : Dev Cert.KernelIdeal.nD → KVal := kstep4 (X3 W)
abbrev X5 (W : Dev Cert.KernelIdeal.nD → KVal) : Dev Cert.KernelIdeal.nD → KVal := kstep5 (X4 W)
abbrev X6 (W : Dev Cert.KernelIdeal.nD → KVal) : Dev Cert.KernelIdeal.nD → KVal := kstep6 (X5 W)
abbrev X7 (W : Dev Cert.KernelIdeal.nD → KVal) : Dev Cert.KernelIdeal.nD → KVal := kstep7 (X6 W)
abbrev X8 (W : Dev Cert.KernelIdeal.nD → KVal) : Dev Cert.KernelIdeal.nD → KVal := kstep8 (X7 W)
abbrev X9 (W : Dev Cert.KernelIdeal.nD → KVal) : Dev Cert.KernelIdeal.nD → KVal := kstep9 (X8 W)
abbrev X10 (W : Dev Cert.KernelIdeal.nD → KVal) : Dev Cert.KernelIdeal.nD → KVal := kstep10 (X9 W)
abbrev X11 (W : Dev Cert.KernelIdeal.nD → KVal) : Dev Cert.KernelIdeal.nD → KVal := kstep11 (X10 W)
abbrev X12 (W : Dev Cert.KernelIdeal.nD → KVal) : Dev Cert.KernelIdeal.nD → KVal := kstep12 (X11 W)
abbrev X13 (W : Dev Cert.KernelIdeal.nD → KVal) : Dev Cert.KernelIdeal.nD → KVal := kstep13 (X12 W)
abbrev X14 (W : Dev Cert.KernelIdeal.nD → KVal) : Dev Cert.KernelIdeal.nD → KVal := kstep14 (X13 W)
abbrev X15 (W : Dev Cert.KernelIdeal.nD → KVal) : Dev Cert.KernelIdeal.nD → KVal := kstep15 (X14 W)
abbrev X16 (W : Dev Cert.KernelIdeal.nD → KVal) : Dev Cert.KernelIdeal.nD → KVal := kstep16 (X15 W)
abbrev X17 (W : Dev Cert.KernelIdeal.nD → KVal) : Dev Cert.KernelIdeal.nD → KVal := kstep17 (X16 W)
abbrev X18 (W : Dev Cert.KernelIdeal.nD → KVal) : Dev Cert.KernelIdeal.nD → KVal := kstep18 (X17 W)
abbrev X19 (W : Dev Cert.KernelIdeal.nD → KVal) : Dev Cert.KernelIdeal.nD → KVal := kstep19 (X18 W)
abbrev X20 (W : Dev Cert.KernelIdeal.nD → KVal) : Dev Cert.KernelIdeal.nD → KVal := kstep20 (X19 W)
abbrev X21 (W : Dev Cert.KernelIdeal.nD → KVal) : Dev Cert.KernelIdeal.nD → KVal := kstep21 (X20 W)
abbrev X22 (W : Dev Cert.KernelIdeal.nD → KVal) : Dev Cert.KernelIdeal.nD → KVal := kstep22 (X21 W)
abbrev X23 (W : Dev Cert.KernelIdeal.nD → KVal) : Dev Cert.KernelIdeal.nD → KVal := kstep23 (X22 W)
abbrev X24 (W : Dev Cert.KernelIdeal.nD → KVal) : Dev Cert.KernelIdeal.nD → KVal := kstep24 (X23 W)
abbrev X25 (W : Dev Cert.KernelIdeal.nD → KVal) : Dev Cert.KernelIdeal.nD → KVal := kstep25 (X24 W)
abbrev X26 (W : Dev Cert.KernelIdeal.nD → KVal) : Dev Cert.KernelIdeal.nD → KVal := kstep26 (X25 W)

abbrev Y1 (U : Dev Cert.KernelIdeal.nD → RVal) : Dev Cert.KernelIdeal.nD → RVal := fun c => StableHlo.after (Cert.ReferenceIdeal.Hand.rs1 (F := Ideal)) (U c)
abbrev Y2 (U : Dev Cert.KernelIdeal.nD → RVal) : Dev Cert.KernelIdeal.nD → RVal := fun c => StableHlo.after (Cert.ReferenceIdeal.Hand.rs2 (F := Ideal)) (Y1 U c)
abbrev Y3 (U : Dev Cert.KernelIdeal.nD → RVal) : Dev Cert.KernelIdeal.nD → RVal := fun c => StableHlo.after (Cert.ReferenceIdeal.Hand.rs3 (F := Ideal)) (Y2 U c)
abbrev Y4 (U : Dev Cert.KernelIdeal.nD → RVal) : Dev Cert.KernelIdeal.nD → RVal := fun c => StableHlo.after (Cert.ReferenceIdeal.Hand.rs4 (F := Ideal)) (Y3 U c)
abbrev Y5 (U : Dev Cert.KernelIdeal.nD → RVal) : Dev Cert.KernelIdeal.nD → RVal := fun c => StableHlo.after (Cert.ReferenceIdeal.Hand.rs5 (F := Ideal)) (Y4 U c)
abbrev Y6 (U : Dev Cert.KernelIdeal.nD → RVal) : Dev Cert.KernelIdeal.nD → RVal := fun c => StableHlo.after (Cert.ReferenceIdeal.Hand.rs6 (F := Ideal)) (Y5 U c)
abbrev Y7 (U : Dev Cert.KernelIdeal.nD → RVal) : Dev Cert.KernelIdeal.nD → RVal := fun c => StableHlo.after (Cert.ReferenceIdeal.Hand.rs7 (F := Ideal)) (Y6 U c)
abbrev Y8 (U : Dev Cert.KernelIdeal.nD → RVal) : Dev Cert.KernelIdeal.nD → RVal := fun c => StableHlo.after (Cert.ReferenceIdeal.Hand.rs8 (F := Ideal)) (Y7 U c)
abbrev Y9 (U : Dev Cert.KernelIdeal.nD → RVal) : Dev Cert.KernelIdeal.nD → RVal := fun c => StableHlo.after (Cert.ReferenceIdeal.Hand.rs9 (F := Ideal)) (Y8 U c)
abbrev Y10 (U : Dev Cert.KernelIdeal.nD → RVal) : Dev Cert.KernelIdeal.nD → RVal := fun c => StableHlo.after (Cert.ReferenceIdeal.Hand.rs10 (F := Ideal)) (Y9 U c)
abbrev Y11 (U : Dev Cert.KernelIdeal.nD → RVal) : Dev Cert.KernelIdeal.nD → RVal := fun c => StableHlo.after (Cert.ReferenceIdeal.Hand.rs11 (F := Ideal)) (Y10 U c)
abbrev Y12 (U : Dev Cert.KernelIdeal.nD → RVal) : Dev Cert.KernelIdeal.nD → RVal := fun c => StableHlo.after (Cert.ReferenceIdeal.Hand.rs12 (F := Ideal)) (Y11 U c)
abbrev Y13 (U : Dev Cert.KernelIdeal.nD → RVal) : Dev Cert.KernelIdeal.nD → RVal := fun c => StableHlo.after (Cert.ReferenceIdeal.Hand.rs13 (F := Ideal)) (Y12 U c)
abbrev Y14 (U : Dev Cert.KernelIdeal.nD → RVal) : Dev Cert.KernelIdeal.nD → RVal := fun c => StableHlo.after (Cert.ReferenceIdeal.Hand.rs14 (F := Ideal)) (Y13 U c)
abbrev Y15 (U : Dev Cert.KernelIdeal.nD → RVal) : Dev Cert.KernelIdeal.nD → RVal := fun c => StableHlo.after (Cert.ReferenceIdeal.Hand.rs15 (F := Ideal)) (Y14 U c)
abbrev Y16 (U : Dev Cert.KernelIdeal.nD → RVal) : Dev Cert.KernelIdeal.nD → RVal := fun c => StableHlo.after (Cert.ReferenceIdeal.Hand.rs16 (F := Ideal)) (Y15 U c)
abbrev Y17 (U : Dev Cert.KernelIdeal.nD → RVal) : Dev Cert.KernelIdeal.nD → RVal := fun c => StableHlo.after (Cert.ReferenceIdeal.Hand.rs17 (F := Ideal)) (Y16 U c)
abbrev Y18 (U : Dev Cert.KernelIdeal.nD → RVal) : Dev Cert.KernelIdeal.nD → RVal := fun c => StableHlo.after (Cert.ReferenceIdeal.Hand.rs18 (F := Ideal)) (Y17 U c)
abbrev Y19 (U : Dev Cert.KernelIdeal.nD → RVal) : Dev Cert.KernelIdeal.nD → RVal := fun c => StableHlo.after (Cert.ReferenceIdeal.Hand.rs19 (F := Ideal)) (Y18 U c)
abbrev Y20 (U : Dev Cert.KernelIdeal.nD → RVal) : Dev Cert.KernelIdeal.nD → RVal := fun c => StableHlo.after (Cert.ReferenceIdeal.Hand.rs20 (F := Ideal)) (Y19 U c)
abbrev Y21 (U : Dev Cert.KernelIdeal.nD → RVal) : Dev Cert.KernelIdeal.nD → RVal := fun c => StableHlo.after (Cert.ReferenceIdeal.Hand.rs21 (F := Ideal)) (Y20 U c)
abbrev Y22 (U : Dev Cert.KernelIdeal.nD → RVal) : Dev Cert.KernelIdeal.nD → RVal := fun c => StableHlo.after (Cert.ReferenceIdeal.Hand.rs22 (F := Ideal)) (Y21 U c)
abbrev Y23 (U : Dev Cert.KernelIdeal.nD → RVal) : Dev Cert.KernelIdeal.nD → RVal := fun c => StableHlo.after (Cert.ReferenceIdeal.Hand.rs23 (F := Ideal)) (Y22 U c)
abbrev Y24 (U : Dev Cert.KernelIdeal.nD → RVal) : Dev Cert.KernelIdeal.nD → RVal := fun c => StableHlo.after (Cert.ReferenceIdeal.Hand.rs24 (F := Ideal)) (Y23 U c)
abbrev Y25 (U : Dev Cert.KernelIdeal.nD → RVal) : Dev Cert.KernelIdeal.nD → RVal := fun c => StableHlo.after (Cert.ReferenceIdeal.Hand.rs25 (F := Ideal)) (Y24 U c)
abbrev Y26 (U : Dev Cert.KernelIdeal.nD → RVal) : Dev Cert.KernelIdeal.nD → RVal := fun c => StableHlo.after (Cert.ReferenceIdeal.Hand.rs26 (F := Ideal)) (Y25 U c)

/-- Every cut's relation, one after the other. -/
theorem carried (W : Dev Cert.KernelIdeal.nD → KVal) (U : Dev Cert.KernelIdeal.nD → RVal) (h0 : ∀ c, Rel0 (W c) (U c)) :
    ∀ c, Rel26 (X26 W c) (Y26 U c) := by
  have h1 := owes1 (W) (U) h0
  have h2 := owes2 (X1 W) (Y1 U) h1
  have h3 := owes3 (X2 W) (Y2 U) h2
  have h4 := owes4 (X3 W) (Y3 U) h3
  have h5 := owes5 (X4 W) (Y4 U) h4
  have h6 := owes6 (X5 W) (Y5 U) h5
  have h7 := owes7 (X6 W) (Y6 U) h6
  have h8 := owes8 (X7 W) (Y7 U) h7
  have h9 := owes9 (X8 W) (Y8 U) h8
  have h10 := owes10 (X9 W) (Y9 U) h9
  have h11 := owes11 (X10 W) (Y10 U) h10
  have h12 := owes12 (X11 W) (Y11 U) h11
  have h13 := owes13 (X12 W) (Y12 U) h12
  have h14 := owes14 (X13 W) (Y13 U) h13
  have h15 := owes15 (X14 W) (Y14 U) h14
  have h16 := owes16 (X15 W) (Y15 U) h15
  have h17 := owes17 (X16 W) (Y16 U) h16
  have h18 := owes18 (X17 W) (Y17 U) h17
  have h19 := owes19 (X18 W) (Y18 U) h18
  have h20 := owes20 (X19 W) (Y19 U) h19
  have h21 := owes21 (X20 W) (Y20 U) h20
  have h22 := owes22 (X21 W) (Y21 U) h21
  have h23 := owes23 (X22 W) (Y22 U) h22
  have h24 := owes24 (X23 W) (Y23 U) h23
  have h25 := owes25 (X24 W) (Y24 U) h24
  have h26 := owes26 (X25 W) (Y25 U) h25
  exact h26

/-! ## The reference side after all its groups -/

theorem Y26_eq (U : Dev Cert.KernelIdeal.nD → RVal) (c : Dev Cert.KernelIdeal.nD) :
    Y26 U c = StableHlo.after (Cert.ReferenceIdeal.Hand.rsAll (F := Ideal)) (U c) := by
  simp only [Y26, Y25, Y24, Y23, Y22, Y21, Y20, Y19, Y18, Y17, Y16, Y15, Y14, Y13, Y12, Y11, Y10, Y9, Y8, Y7, Y6, Y5, Y4, Y3, Y2, Y1, Cert.ReferenceIdeal.Hand.rsAll, StableHlo.after_append]

/-! ## The kernel side after all its groups -/

section Bridge

open Cert.KernelIdeal.Hand

variable (m : (ℓ : Loc Cert.KernelIdeal.nD Cert.KernelIdeal.τ Cert.KernelIdeal.sig) → Buf (Elt Ideal) ℓ) (ρ : Dev Cert.KernelIdeal.nD → PrngReg)

/-- The host operations of groups 1…4 are the stretch before pallas_call 0. -/
theorem entry0 (c : Dev Cert.KernelIdeal.nD) : StableHlo.after ks4 (X3 (Wk0 (F := Ideal) m ρ) c) = Wk1 m ρ c := by
  simp only [X3, X2, X1, kstep1, kstep2, kstep3]
  simp only [ks1, ks2, ks3, ks4, Wk1, H0, StableHlo.after_append, StableHlo.after_nil]

/-- After pallas_call 0 the composed steps are the run's contents at the region's exit. -/
theorem exit0 : X4 (Wk0 (F := Ideal) m ρ) = Wk2 m ρ := by
  funext c
  show kstep4 (X3 (Wk0 (F := Ideal) m ρ)) c = Wk2 m ρ c
  unfold kstep4 Wk2
  simp only [entry0 m ρ]

/-- The host operations of groups 5…9 are the stretch before pallas_call 1. -/
theorem entry1 (c : Dev Cert.KernelIdeal.nD) : StableHlo.after ks9 (X8 (Wk0 (F := Ideal) m ρ) c) = Wk3 m ρ c := by
  have hp : X4 (Wk0 (F := Ideal) m ρ) = Wk2 m ρ := exit0 m ρ
  simp only [X8, X7, X6, X5, kstep5, kstep6, kstep7, kstep8, hp]
  simp only [ks5, ks6, ks7, ks8, ks9, Wk3, H1, StableHlo.after_append, StableHlo.after_nil]

/-- After pallas_call 1 the composed steps are the run's contents at the region's exit. -/
theorem exit1 : X9 (Wk0 (F := Ideal) m ρ) = Wk4 m ρ := by
  funext c
  show kstep9 (X8 (Wk0 (F := Ideal) m ρ)) c = Wk4 m ρ c
  unfold kstep9 Wk4
  simp only [entry1 m ρ]

/-- The host operations of groups 10…14 are the stretch before pallas_call 2. -/
theorem entry2 (c : Dev Cert.KernelIdeal.nD) : StableHlo.after ks14 (X13 (Wk0 (F := Ideal) m ρ) c) = Wk5 m ρ c := by
  have hp : X9 (Wk0 (F := Ideal) m ρ) = Wk4 m ρ := exit1 m ρ
  simp only [X13, X12, X11, X10, kstep10, kstep11, kstep12, kstep13, hp]
  simp only [ks10, ks11, ks12, ks13, ks14, Wk5, H2, StableHlo.after_append, StableHlo.after_nil]

/-- After pallas_call 2 the composed steps are the run's contents at the region's exit. -/
theorem exit2 : X14 (Wk0 (F := Ideal) m ρ) = Wk6 m ρ := by
  funext c
  show kstep14 (X13 (Wk0 (F := Ideal) m ρ)) c = Wk6 m ρ c
  unfold kstep14 Wk6
  simp only [entry2 m ρ]

/-- The host operations of groups 15…19 are the stretch before pallas_call 3. -/
theorem entry3 (c : Dev Cert.KernelIdeal.nD) : StableHlo.after ks19 (X18 (Wk0 (F := Ideal) m ρ) c) = Wk7 m ρ c := by
  have hp : X14 (Wk0 (F := Ideal) m ρ) = Wk6 m ρ := exit2 m ρ
  simp only [X18, X17, X16, X15, kstep15, kstep16, kstep17, kstep18, hp]
  simp only [ks15, ks16, ks17, ks18, ks19, Wk7, H3, StableHlo.after_append, StableHlo.after_nil]

/-- After pallas_call 3 the composed steps are the run's contents at the region's exit. -/
theorem exit3 : X19 (Wk0 (F := Ideal) m ρ) = Wk8 m ρ := by
  funext c
  show kstep19 (X18 (Wk0 (F := Ideal) m ρ)) c = Wk8 m ρ c
  unfold kstep19 Wk8
  simp only [entry3 m ρ]

/-- After the last stretch the composed steps are the contents at the return. -/
theorem X26_eq : X26 (Wk0 (F := Ideal) m ρ) = Wk9 m ρ := by
  funext c
  have hp : X19 (Wk0 (F := Ideal) m ρ) = Wk8 m ρ := exit3 m ρ
  simp only [X26, X25, X24, X23, X22, X21, X20, kstep20, kstep21, kstep22, kstep23, kstep24, kstep25, kstep26, hp]
  simp only [ks20, ks21, ks22, ks23, ks24, ks25, ks26, Wk9, H4, StableHlo.after_append, StableHlo.after_nil]

end Bridge

end Cert.Stage

end
-- ==== Proof.lean ====
/-
  The certificate's five claims for the four-layer edge-convolution network.

  Both programs compute, layer by layer, the same arrays: the kernel's host code is the reference's, except that it reads
  node rows with a fill-mode take where the reference indexes (the two agree when every edge endpoint is a node index: the
  precondition's added conjunct), counts the edges per node once instead of once per layer, and evaluates each layer's
  dense map (concatenated row against the weights, plus bias, and its positive part) inside a pipelined region, block of
  2000 edges by block, where the reference uses one whole contraction.  The frames: every run of either kernel program
  ends, faulting nowhere, with its arguments as launched (the regions' bodies by symbolic execution, the host stretches
  as folds); the reference is a straight line of host operations.  The value claim threads a relation between the two
  programs' buffers through 26 consecutive groups of operations and reads the twelve results off its last instance.
-/
import proofs.«430033_j52948356825731_1_alg».proof.Defs
import proofs.«430033_j52948356825731_1_alg».proof.Proof.Gen.Kernel
import proofs.«430033_j52948356825731_1_alg».proof.Proof.Gen.KernelIdeal
import proofs.«430033_j52948356825731_1_alg».proof.Proof.Gen.ReferenceIdeal
import proofs.«430033_j52948356825731_1_alg».proof.Proof.Gen.Pre_finite_inputs
import proofs.«430033_j52948356825731_1_alg».proof.Proof.KBFrame
import proofs.«430033_j52948356825731_1_alg».proof.Proof.KIFrame
import proofs.«430033_j52948356825731_1_alg».proof.Proof.RRun
import proofs.«430033_j52948356825731_1_alg».proof.Proof.RBridge
import proofs.«430033_j52948356825731_1_alg».proof.Proof.PreRange
import proofs.«430033_j52948356825731_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel program runs to the end and keeps its arguments. -/
theorem frame_k : @Cert.frame_Kernel Cert.Kernel.Gen.facts Cert.Pre_finite_inputs.Gen.facts :=
  fun m ρ _ => Cert.Kernel.Hand.frame m ρ

/-- So does its reading over the extended reals. -/
theorem frame_ki : @Cert.frame_KernelIdeal Cert.KernelIdeal.Gen.facts Cert.Pre_finite_inputs.Gen.facts :=
  fun m ρ _ => Cert.KernelIdeal.Hand.frame m ρ

/-- And the reference, a straight line of host operations. -/
theorem frame_ri : @Cert.frame_ReferenceIdeal Cert.ReferenceIdeal.Gen.facts Cert.Pre_finite_inputs.Gen.facts :=
  fun m g _ => Cert.ReferenceIdeal.Hand.frame m g

/-- The two idealized programs, from memories that agree on the arguments, end with equal results: the relation of the
    first cut holds at launch (the arguments agree; the edge list is in range by the precondition), so the relation of
    the last cut holds between the two final folds, and its fields are the results' equations. -/
theorem algebraic : @Cert.algebraic_KernelIdeal_ReferenceIdeal Cert.KernelIdeal.Gen.facts Cert.ReferenceIdeal.Gen.facts Cert.Pre_finite_inputs.Gen.facts := by
  intro m g m' g' hpre hagree
  haveI := Cert.KernelIdeal.Gen.facts
  haveI := Cert.ReferenceIdeal.Gen.facts
  have h0 : ∀ c, Cert.Stage.Rel0 (Cert.KernelIdeal.Hand.Wk0 (F := Ideal) m g c) (launchContents m' c) := fun c =>
    { a0 := (hagree c).1.symm
      a1 := (hagree c).2.1.symm
      a2 := (hagree c).2.2.1.symm
      a3 := (hagree c).2.2.2.1.symm
      a4 := (hagree c).2.2.2.2.1.symm
      a5 := (hagree c).2.2.2.2.2.1.symm
      a6 := (hagree c).2.2.2.2.2.2.1.symm
      a7 := (hagree c).2.2.2.2.2.2.2.1.symm
      a8 := (hagree c).2.2.2.2.2.2.2.2.1.symm
      a9 := (hagree c).2.2.2.2.2.2.2.2.2.1.symm
      a10 := (hagree c).2.2.2.2.2.2.2.2.2.2.1.symm
      a11 := (hagree c).2.2.2.2.2.2.2.2.2.2.2.1.symm
      a12 := (hagree c).2.2.2.2.2.2.2.2.2.2.2.2.1.symm
      a13 := (hagree c).2.2.2.2.2.2.2.2.2.2.2.2.2.1.symm
      a14 := (hagree c).2.2.2.2.2.2.2.2.2.2.2.2.2.2.1.symm
      a15 := (hagree c).2.2.2.2.2.2.2.2.2.2.2.2.2.2.2.1.symm
      a16 := (hagree c).2.2.2.2.2.2.2.2.2.2.2.2.2.2.2.2.1.symm
      a17 := (hagree c).2.2.2.2.2.2.2.2.2.2.2.2.2.2.2.2.2.1.symm
      a18 := (hagree c).2.2.2.2.2.2.2.2.2.2.2.2.2.2.2.2.2.2.symm
      rng18 := Cert.Pre_finite_inputs.Hand.edge_in_range (hpre c) }
  have hL := Cert.Stage.carried _ _ h0
  refine ⟨fun c => Cert.KernelIdeal.Hand.Wk9 (F := Ideal) m g c (Proc.devRef .tc Cert.KernelIdeal.main_v224),
    fun c => Cert.KernelIdeal.Hand.Wk9 (F := Ideal) m g c (Proc.devRef .tc Cert.KernelIdeal.main_v413),
    fun c => Cert.KernelIdeal.Hand.Wk9 (F := Ideal) m g c (Proc.devRef .tc Cert.KernelIdeal.main_arg3),
    fun c => Cert.KernelIdeal.Hand.Wk9 (F := Ideal) m g c (Proc.devRef .tc Cert.KernelIdeal.main_v160_2),
    fun c => Cert.KernelIdeal.Hand.Wk9 (F := Ideal) m g c (Proc.devRef .tc Cert.KernelIdeal.main_v126),
    fun c => Cert.KernelIdeal.Hand.Wk9 (F := Ideal) m g c (Proc.devRef .tc Cert.KernelIdeal.main_v138),
    fun c => Cert.KernelIdeal.Hand.Wk9 (F := Ideal) m g c (Proc.devRef .tc Cert.KernelIdeal.main_v151),
    fun c => Cert.KernelIdeal.Hand.Wk9 (F := Ideal) m g c (Proc.devRef .tc Cert.KernelIdeal.main_v166),
    fun c => Cert.KernelIdeal.Hand.Wk9 (F := Ideal) m g c (Proc.devRef .tc Cert.KernelIdeal.main_v120_1),
    fun c => Cert.KernelIdeal.Hand.Wk9 (F := Ideal) m g c (Proc.devRef .tc Cert.KernelIdeal.main_v132_1),
    fun c => Cert.KernelIdeal.Hand.Wk9 (F := Ideal) m g c (Proc.devRef .tc Cert.KernelIdeal.main_v145_1),
    fun c => Cert.KernelIdeal.Hand.Wk9 (F := Ideal) m g c (Proc.devRef .tc Cert.KernelIdeal.main_v160_1),
    Cert.KernelIdeal.Hand.run_results m g, ?_⟩
  refine (θ_run (Cert.ReferenceIdeal.defs (F := Ideal)) _ _).mono (fun r h c => ?_) (Cert.ReferenceIdeal.Hand.run_all' (F := Ideal) m' g')
  have hc := hL c
  rw [Cert.Stage.X26_eq m g, Cert.Stage.Y26_eq] at hc
  refine ⟨(h c Cert.ReferenceIdeal.main_v312).trans hc.p_v224.symm,
    (h c Cert.ReferenceIdeal.main_v525).trans hc.p_v413.symm,
    (h c Cert.ReferenceIdeal.main_arg3).trans hc.a3.symm,
    (h c Cert.ReferenceIdeal.main_v529).trans hc.p_v160_2.symm,
    (h c Cert.ReferenceIdeal.main_v152).trans hc.p_v126.symm,
    (h c Cert.ReferenceIdeal.main_v185).trans hc.p_v138.symm,
    (h c Cert.ReferenceIdeal.main_v219).trans hc.p_v151.symm,
    (h c Cert.ReferenceIdeal.main_v253).trans hc.p_v166.symm,
    (h c Cert.ReferenceIdeal.main_v153).trans hc.p_v120_1.symm,
    (h c Cert.ReferenceIdeal.main_v186).trans hc.p_v132_1.symm,
    (h c Cert.ReferenceIdeal.main_v220).trans hc.p_v145_1.symm,
    (h c Cert.ReferenceIdeal.main_v254).trans hc.p_v160_1.symm,
    ?_⟩
  exact ⟨(h c Cert.ReferenceIdeal.main_arg0).trans (Cert.ReferenceIdeal.Hand.after_rsAll_main_arg0 _),
    (h c Cert.ReferenceIdeal.main_arg1).trans (Cert.ReferenceIdeal.Hand.after_rsAll_main_arg1 _),
    (h c Cert.ReferenceIdeal.main_arg2).trans (Cert.ReferenceIdeal.Hand.after_rsAll_main_arg2 _),
    (h c Cert.ReferenceIdeal.main_arg3).trans (Cert.ReferenceIdeal.Hand.after_rsAll_main_arg3 _),
    (h c Cert.ReferenceIdeal.main_arg4).trans (Cert.ReferenceIdeal.Hand.after_rsAll_main_arg4 _),
    (h c Cert.ReferenceIdeal.main_arg5).trans (Cert.ReferenceIdeal.Hand.after_rsAll_main_arg5 _),
    (h c Cert.ReferenceIdeal.main_arg6).trans (Cert.ReferenceIdeal.Hand.after_rsAll_main_arg6 _),
    (h c Cert.ReferenceIdeal.main_arg7).trans (Cert.ReferenceIdeal.Hand.after_rsAll_main_arg7 _),
    (h c Cert.ReferenceIdeal.main_arg8).trans (Cert.ReferenceIdeal.Hand.after_rsAll_main_arg8 _),
    (h c Cert.ReferenceIdeal.main_arg9).trans (Cert.ReferenceIdeal.Hand.after_rsAll_main_arg9 _),
    (h c Cert.ReferenceIdeal.main_arg10).trans (Cert.ReferenceIdeal.Hand.after_rsAll_main_arg10 _),
    (h c Cert.ReferenceIdeal.main_arg11).trans (Cert.ReferenceIdeal.Hand.after_rsAll_main_arg11 _),
    (h c Cert.ReferenceIdeal.main_arg12).trans (Cert.ReferenceIdeal.Hand.after_rsAll_main_arg12 _),
    (h c Cert.ReferenceIdeal.main_arg13).trans (Cert.ReferenceIdeal.Hand.after_rsAll_main_arg13 _),
    (h c Cert.ReferenceIdeal.main_arg14).trans (Cert.ReferenceIdeal.Hand.after_rsAll_main_arg14 _),
    (h c Cert.ReferenceIdeal.main_arg15).trans (Cert.ReferenceIdeal.Hand.after_rsAll_main_arg15 _),
    (h c Cert.ReferenceIdeal.main_arg16).trans (Cert.ReferenceIdeal.Hand.after_rsAll_main_arg16 _),
    (h c Cert.ReferenceIdeal.main_arg17).trans (Cert.ReferenceIdeal.Hand.after_rsAll_main_arg17 _),
    (h c Cert.ReferenceIdeal.main_arg18).trans (Cert.ReferenceIdeal.Hand.after_rsAll_main_arg18 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
